-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v392)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v392) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v344) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x9x64x64x64 : Shape := ⟨5, ![4, 9, 64, 64, 64]⟩
abbrev S4x9x32x32x32 : Shape := ⟨5, ![4, 9, 32, 32, 32]⟩
abbrev S4x3x64x64x64 : Shape := ⟨5, ![4, 3, 64, 64, 64]⟩
abbrev S4x3x32x32x32 : Shape := ⟨5, ![4, 3, 32, 32, 32]⟩
abbrev S4x128x4 : Shape := ⟨3, ![4, 128, 4]⟩
abbrev S3 : Shape := ⟨1, ![3]⟩
abbrev S_ : Shape := ⟨0, ![]⟩
abbrev S4x128x1 : Shape := ⟨3, ![4, 128, 1]⟩
abbrev S4x128 : Shape := ⟨2, ![4, 128]⟩

class Facts : Prop where
  bcast_S_S4x9x64x64x64 : S_.BroadcastsInDim S4x9x64x64x64 (![] : Fin 0 → Fin S4x9x64x64x64.rank)
  reducesTo_S4x9x64x64x64_S_d0_1_2_3_4 : S4x9x64x64x64.ReducesTo [0, 1, 2, 3, 4] S_
  h_S_ : 0 < S_.numel
  bcast_S_S4x9x32x32x32 : S_.BroadcastsInDim S4x9x32x32x32 (![] : Fin 0 → Fin S4x9x32x32x32.rank)
  reducesTo_S4x9x32x32x32_S_d0_1_2_3_4 : S4x9x32x32x32.ReducesTo [0, 1, 2, 3, 4] S_
  bcast_S_S4x3x64x64x64 : S_.BroadcastsInDim S4x3x64x64x64 (![] : Fin 0 → Fin S4x3x64x64x64.rank)
  reducesTo_S4x3x64x64x64_S_d0_1_2_3_4 : S4x3x64x64x64.ReducesTo [0, 1, 2, 3, 4] S_
  bcast_S_S4x3x32x32x32 : S_.BroadcastsInDim S4x3x32x32x32 (![] : Fin 0 → Fin S4x3x32x32x32.rank)
  reducesTo_S4x3x32x32x32_S_d0_1_2_3_4 : S4x3x32x32x32.ReducesTo [0, 1, 2, 3, 4] S_
  bcast_S_S3 : S_.BroadcastsInDim S3 (![] : Fin 0 → Fin S3.rank)
  reducesTo_S3_S_d0 : S3.ReducesTo [0] S_
  slices_S4x128x4_S4x128x1_0_0_0 : S4x128x4.Slices ![0, 0, 0] S4x128x1
  shapeCasts_S4x128x1_S4x128 : S4x128x1.ShapeCasts S4x128
  bcast_S_S4x128 : S_.BroadcastsInDim S4x128 (![] : Fin 0 → Fin S4x128.rank)
  reducesTo_S4x128_S_d0_1 : S4x128.ReducesTo [0, 1] S_

variable [Facts]

def fn_part3 {F : FTy → Type} [FloatOps F] (main_v44 : IVec S_ 1) (main_v51 : IVec S4x3x32x32x32 1) (main_c_17 : IVec S_ 1) : IVec S_ 1 :=
  let main_v52 : IVec S_ 1 := (fun x v => Host.reduce IntOp.andi x v reducesTo_S4x3x32x32x32_S_d0_1_2_3_4 h_S_) main_v51 main_c_17
  let main_v53 : IVec S_ 1 := andi main_v44 main_v52
  main_v53

def fn_part2 {F : FTy → Type} [FloatOps F] (main_arg2 : FVec F S4x3x64x64x64 .f32) (main_arg3 : FVec F S4x3x32x32x32 .f32) (main_v29 : IVec S_ 1) (main_v33 : IVec S4x128 1) (main_c_11 : IVec S_ 1) : IVec S_ 1 :=
  let main_v34 : IVec S_ 1 := (fun x v => Host.reduce IntOp.andi x v reducesTo_S4x128_S_d0_1 h_S_) main_v33 main_c_11
  let main_v35 : IVec S_ 1 := andi main_v29 main_v34
  let main_v36 : IVec S4x3x64x64x64 32 := fptosi 32 main_arg2
  let main_c_12 : IVec S_ 32 := constantI S_ 32 4294967293#32
  let main_v37 : IVec S4x3x64x64x64 32 := broadcastInDim S4x3x64x64x64 ![] bcast_S_S4x3x64x64x64 main_c_12
  let main_v38 : IVec S4x3x64x64x64 1 := cmpi .sge main_v36 main_v37
  let main_v39 : IVec S4x3x64x64x64 32 := fptosi 32 main_arg2
  let main_c_13 : IVec S_ 32 := constantI S_ 32 3#32
  let main_v40 : IVec S4x3x64x64x64 32 := broadcastInDim S4x3x64x64x64 ![] bcast_S_S4x3x64x64x64 main_c_13
  let main_v41 : IVec S4x3x64x64x64 1 := cmpi .slt main_v39 main_v40
  let main_v42 : IVec S4x3x64x64x64 1 := andi main_v38 main_v41
  let main_c_14 : IVec S_ 1 := constantI S_ 1 1#1
  let main_v43 : IVec S_ 1 := (fun x v => Host.reduce IntOp.andi x v reducesTo_S4x3x64x64x64_S_d0_1_2_3_4 h_S_) main_v42 main_c_14
  let main_v44 : IVec S_ 1 := andi main_v35 main_v43
  let main_v45 : IVec S4x3x32x32x32 32 := fptosi 32 main_arg3
  let main_c_15 : IVec S_ 32 := constantI S_ 32 4294967293#32
  let main_v46 : IVec S4x3x32x32x32 32 := broadcastInDim S4x3x32x32x32 ![] bcast_S_S4x3x32x32x32 main_c_15
  let main_v47 : IVec S4x3x32x32x32 1 := cmpi .sge main_v45 main_v46
  let main_v48 : IVec S4x3x32x32x32 32 := fptosi 32 main_arg3
  let main_c_16 : IVec S_ 32 := constantI S_ 32 3#32
  let main_v49 : IVec S4x3x32x32x32 32 := broadcastInDim S4x3x32x32x32 ![] bcast_S_S4x3x32x32x32 main_c_16
  let main_v50 : IVec S4x3x32x32x32 1 := cmpi .slt main_v48 main_v49
  let main_v51 : IVec S4x3x32x32x32 1 := andi main_v47 main_v50
  let main_c_17 : IVec S_ 1 := constantI S_ 1 1#1
  fn_part3 (F := F) main_v44 main_v51 main_c_17

def fn_part1 {F : FTy → Type} [FloatOps F] (main_arg2 : FVec F S4x3x64x64x64 .f32) (main_arg3 : FVec F S4x3x32x32x32 .f32) (main_arg4 : IVec S4x128x4 32) (main_arg5 : IVec S4x128x4 32) (main_arg6 : FVec F S3 .f32) (main_v13 : IVec S_ 1) (main_v16 : IVec S4x3x32x32x32 1) : IVec S_ 1 :=
  let main_c_5 : IVec S_ 1 := constantI S_ 1 1#1
  let main_v17 : IVec S_ 1 := (fun x v => Host.reduce IntOp.andi x v reducesTo_S4x3x32x32x32_S_d0_1_2_3_4 h_S_) main_v16 main_c_5
  let main_v18 : IVec S_ 1 := andi main_v13 main_v17
  let main_v19 : FVec F S3 .f32 := Host.absf main_arg6
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : IVec S4x128x1 32 := (extractStridedSlice S4x128x1 ![0, 0, 0] · slices_S4x128x4_S4x128x1_0_0_0) main_arg4
  let main_v25 : IVec S4x128 32 := shapeCast S4x128 main_v24 shapeCasts_S4x128x1_S4x128
  let main_c_8 : IVec S_ 32 := constantI S_ 32 3#32
  let main_v26 : IVec S4x128 32 := broadcastInDim S4x128 ![] bcast_S_S4x128 main_c_8
  let main_v27 : IVec S4x128 1 := cmpi .slt main_v25 main_v26
  let main_c_9 : IVec S_ 1 := constantI S_ 1 1#1
  let main_v28 : IVec S_ 1 := (fun x v => Host.reduce IntOp.andi x v reducesTo_S4x128_S_d0_1 h_S_) main_v27 main_c_9
  let main_v29 : IVec S_ 1 := andi main_v23 main_v28
  let main_v30 : IVec S4x128x1 32 := (extractStridedSlice S4x128x1 ![0, 0, 0] · slices_S4x128x4_S4x128x1_0_0_0) main_arg5
  let main_v31 : IVec S4x128 32 := shapeCast S4x128 main_v30 shapeCasts_S4x128x1_S4x128
  let main_c_10 : IVec S_ 32 := constantI S_ 32 3#32
  let main_v32 : IVec S4x128 32 := broadcastInDim S4x128 ![] bcast_S_S4x128 main_c_10
  let main_v33 : IVec S4x128 1 := cmpi .slt main_v31 main_v32
  let main_c_11 : IVec S_ 1 := constantI S_ 1 1#1
  fn_part2 (F := F) main_arg2 main_arg3 main_v29 main_v33 main_c_11

def fn {F : FTy → Type} [FloatOps F] (main_arg0 : FVec F S4x9x64x64x64 .f32) (main_arg1 : FVec F S4x9x32x32x32 .f32) (main_arg2 : FVec F S4x3x64x64x64 .f32) (main_arg3 : FVec F S4x3x32x32x32 .f32) (main_arg4 : IVec S4x128x4 32) (main_arg5 : IVec S4x128x4 32) (main_arg6 : FVec F S3 .f32) : IVec S_ 1 :=
  let main_v0 : FVec F S4x9x64x64x64 .f32 := Host.absf main_arg0
  let main_cst : FVec F S_ .f32 := constant S_ .f32 0x7F800000#32
  let main_v1 : FVec F S4x9x64x64x64 .f32 := broadcastInDim S4x9x64x64x64 ![] bcast_S_S4x9x64x64x64 main_cst
  let main_v2 : IVec S4x9x64x64x64 1 := cmpf .olt main_v0 main_v1
  let main_c : IVec S_ 1 := constantI S_ 1 1#1
  let main_v3 : IVec S_ 1 := (fun x v => Host.reduce IntOp.andi x v reducesTo_S4x9x64x64x64_S_d0_1_2_3_4 h_S_) main_v2 main_c
  let main_v4 : FVec F S4x9x32x32x32 .f32 := Host.absf main_arg1
  let main_cst_0 : FVec F S_ .f32 := constant S_ .f32 0x7F800000#32
  let main_v5 : FVec F S4x9x32x32x32 .f32 := broadcastInDim S4x9x32x32x32 ![] bcast_S_S4x9x32x32x32 main_cst_0
  let main_v6 : IVec S4x9x32x32x32 1 := cmpf .olt main_v4 main_v5
  let main_c_1 : IVec S_ 1 := constantI S_ 1 1#1
  let main_v7 : IVec S_ 1 := (fun x v => Host.reduce IntOp.andi x v reducesTo_S4x9x32x32x32_S_d0_1_2_3_4 h_S_) main_v6 main_c_1
  let main_v8 : IVec S_ 1 := andi main_v3 main_v7
  let main_v9 : FVec F S4x3x64x64x64 .f32 := Host.absf main_arg2
  let main_cst_2 : FVec F S_ .f32 := constant S_ .f32 0x7F800000#32
  let main_v10 : FVec F S4x3x64x64x64 .f32 := broadcastInDim S4x3x64x64x64 ![] bcast_S_S4x3x64x64x64 main_cst_2
  let main_v11 : IVec S4x3x64x64x64 1 := cmpf .olt main_v9 main_v10
  let main_c_3 : IVec S_ 1 := constantI S_ 1 1#1
  let main_v12 : IVec S_ 1 := (fun x v => Host.reduce IntOp.andi x v reducesTo_S4x3x64x64x64_S_d0_1_2_3_4 h_S_) main_v11 main_c_3
  let main_v13 : IVec S_ 1 := andi main_v8 main_v12
  let main_v14 : FVec F S4x3x32x32x32 .f32 := Host.absf main_arg3
  let main_cst_4 : FVec F S_ .f32 := constant S_ .f32 0x7F800000#32
  let main_v15 : FVec F S4x3x32x32x32 .f32 := broadcastInDim S4x3x32x32x32 ![] bcast_S_S4x3x32x32x32 main_cst_4
  let main_v16 : IVec S4x3x32x32x32 1 := cmpf .olt main_v14 main_v15
  fn_part1 (F := F) main_arg2 main_arg3 main_arg4 main_arg5 main_arg6 main_v13 main_v16
-- ==== Kernel.lean ====
abbrev S4x9x64x64x64 : Shape := ⟨5, ![4, 9, 64, 64, 64]⟩
abbrev S4x9x32x32x32 : Shape := ⟨5, ![4, 9, 32, 32, 32]⟩
abbrev S4x3x64x64x64 : Shape := ⟨5, ![4, 3, 64, 64, 64]⟩
abbrev S4x3x32x32x32 : Shape := ⟨5, ![4, 3, 32, 32, 32]⟩
abbrev S4x128x4 : Shape := ⟨3, ![4, 128, 4]⟩
abbrev S3 : Shape := ⟨1, ![3]⟩
abbrev S4x4x8x128 : Shape := ⟨4, ![4, 4, 8, 128]⟩
abbrev S1x9x16x64x64 : Shape := ⟨5, ![1, 9, 16, 64, 64]⟩
abbrev S1x9x1x64x64 : Shape := ⟨5, ![1, 9, 1, 64, 64]⟩
abbrev S1x3x16x64x64 : Shape := ⟨5, ![1, 3, 16, 64, 64]⟩
abbrev S1x1x8x128 : Shape := ⟨4, ![1, 1, 8, 128]⟩
abbrev S3x18x64x64 : Shape := ⟨4, ![3, 18, 64, 64]⟩
abbrev S3x16x64x64 : Shape := ⟨4, ![3, 16, 64, 64]⟩
abbrev S1x3x1x64x64 : Shape := ⟨5, ![1, 3, 1, 64, 64]⟩
abbrev S3x1x64x64 : Shape := ⟨4, ![3, 1, 64, 64]⟩
abbrev S16x64x64 : Shape := ⟨3, ![16, 64, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1 : Shape := ⟨2, ![1, 1]⟩
abbrev S8x128 : Shape := ⟨2, ![8, 128]⟩
abbrev S4x4x1x1 : Shape := ⟨4, ![4, 4, 1, 1]⟩
abbrev S4x4 : Shape := ⟨2, ![4, 4]⟩
abbrev S_ : Shape := ⟨0, ![]⟩
abbrev S4x2x8x128 : Shape := ⟨4, ![4, 2, 8, 128]⟩
abbrev S1x9x16x32x32 : Shape := ⟨5, ![1, 9, 16, 32, 32]⟩
abbrev S1x9x1x32x32 : Shape := ⟨5, ![1, 9, 1, 32, 32]⟩
abbrev S1x3x16x32x32 : Shape := ⟨5, ![1, 3, 16, 32, 32]⟩
abbrev S3x18x32x32 : Shape := ⟨4, ![3, 18, 32, 32]⟩
abbrev S3x16x32x32 : Shape := ⟨4, ![3, 16, 32, 32]⟩
abbrev S1x3x1x32x32 : Shape := ⟨5, ![1, 3, 1, 32, 32]⟩
abbrev S3x1x32x32 : Shape := ⟨4, ![3, 1, 32, 32]⟩
abbrev S16x32x32 : Shape := ⟨3, ![16, 32, 32]⟩
abbrev S32x32 : Shape := ⟨2, ![32, 32]⟩
abbrev S32 : Shape := ⟨1, ![32]⟩
abbrev S1x32 : Shape := ⟨2, ![1, 32]⟩
abbrev S4x2x1x1 : Shape := ⟨4, ![4, 2, 1, 1]⟩
abbrev S4x2 : Shape := ⟨2, ![4, 2]⟩
abbrev S4x128x1 : Shape := ⟨3, ![4, 128, 1]⟩
abbrev S4x128 : Shape := ⟨2, ![4, 128]⟩
abbrev S4 : Shape := ⟨1, ![4]⟩
abbrev S4x1 : Shape := ⟨2, ![4, 1]⟩
abbrev S4x128x5 : Shape := ⟨3, ![4, 128, 5]⟩
abbrev S4x128x3 : Shape := ⟨3, ![4, 128, 3]⟩
abbrev S4x128x1x1 : Shape := ⟨4, ![4, 128, 1, 1]⟩
abbrev S1x1x1x1 : Shape := ⟨4, ![1, 1, 1, 1]⟩

abbrev nBuf : Space → Nat
  | .hbm => 630
  | .vmem => 26
  | .smem => 0
  | _ => 0

abbrev hbmTy0_0 (i : Nat) : BufTy := match i % 128 with
  | 0 => ⟨S4x9x64x64x64, .f32⟩
  | 1 => ⟨S4x9x32x32x32, .f32⟩
  | 2 => ⟨S4x3x64x64x64, .f32⟩
  | 3 => ⟨S4x3x32x32x32, .f32⟩
  | 4 => ⟨S4x128x4, .i32⟩
  | 5 => ⟨S4x128x4, .i32⟩
  | 6 => ⟨S3, .f32⟩
  | 7 => ⟨S4x4x8x128, .f32⟩
  | 8 => ⟨S4x4x8x128, .f32⟩
  | 9 => ⟨S4x4x1x1, .f32⟩
  | 10 => ⟨S4x4, .f32⟩
  | 11 => ⟨S_, .f32⟩
  | 12 => ⟨S_, .f32⟩
  | 13 => ⟨S4x4x1x1, .f32⟩
  | 14 => ⟨S4x4, .f32⟩
  | 15 => ⟨S_, .f32⟩
  | 16 => ⟨S_, .f32⟩
  | 17 => ⟨S4x2x8x128, .f32⟩
  | 18 => ⟨S4x2x8x128, .f32⟩
  | 19 => ⟨S4x2x1x1, .f32⟩
  | 20 => ⟨S4x2, .f32⟩
  | 21 => ⟨S_, .f32⟩
  | 22 => ⟨S_, .f32⟩
  | 23 => ⟨S4x2x1x1, .f32⟩
  | 24 => ⟨S4x2, .f32⟩
  | 25 => ⟨S_, .f32⟩
  | 26 => ⟨S_, .f32⟩
  | 27 => ⟨S4x128x1, .i32⟩
  | 28 => ⟨S4x128, .i32⟩
  | 29 => ⟨S_, .i32⟩
  | 30 => ⟨S4x128, .i32⟩
  | 31 => ⟨S4x128, .i1⟩
  | 32 => ⟨S4x128x1, .i1⟩
  | 33 => ⟨S_, .i32⟩
  | 34 => ⟨S_, .i32⟩
  | 35 => ⟨S4x128x4, .i1⟩
  | 36 => ⟨S4x128x4, .i32⟩
  | 37 => ⟨S4x128x4, .i32⟩
  | 38 => ⟨S4x128x1, .i32⟩
  | 39 => ⟨S4x128, .i32⟩
  | 40 => ⟨S4x128x1, .i32⟩
  | 41 => ⟨S4x128, .i32⟩
  | 42 => ⟨S4x128x1, .i32⟩
  | 43 => ⟨S4x128, .i32⟩
  | 44 => ⟨S4x128x1, .i32⟩
  | 45 => ⟨S4x128, .i32⟩
  | 46 => ⟨S4, .i32⟩
  | 47 => ⟨S4x1, .i32⟩
  | 48 => ⟨S_, .i32⟩
  | 49 => ⟨S4x1, .i32⟩
  | 50 => ⟨S4x1, .i1⟩
  | 51 => ⟨S_, .i32⟩
  | 52 => ⟨S4x1, .i32⟩
  | 53 => ⟨S4x1, .i32⟩
  | 54 => ⟨S4x1, .i32⟩
  | 55 => ⟨S_, .i32⟩
  | 56 => ⟨S4x128, .i32⟩
  | 57 => ⟨S4x128, .i1⟩
  | 58 => ⟨S_, .i32⟩
  | 59 => ⟨S4x128, .i32⟩
  | 60 => ⟨S4x128, .i32⟩
  | 61 => ⟨S4x128, .i32⟩
  | 62 => ⟨S_, .i32⟩
  | 63 => ⟨S4x128, .i32⟩
  | 64 => ⟨S4x128, .i1⟩
  | 65 => ⟨S_, .i32⟩
  | 66 => ⟨S4x128, .i32⟩
  | 67 => ⟨S4x128, .i32⟩
  | 68 => ⟨S4x128, .i32⟩
  | 69 => ⟨S_, .i32⟩
  | 70 => ⟨S4x128, .i32⟩
  | 71 => ⟨S4x128, .i1⟩
  | 72 => ⟨S_, .i32⟩
  | 73 => ⟨S4x128, .i32⟩
  | 74 => ⟨S4x128, .i32⟩
  | 75 => ⟨S4x128, .i32⟩
  | 76 => ⟨S_, .i32⟩
  | 77 => ⟨S4x128, .i32⟩
  | 78 => ⟨S4x128, .i1⟩
  | 79 => ⟨S_, .i32⟩
  | 80 => ⟨S4x128, .i32⟩
  | 81 => ⟨S4x128, .i32⟩
  | 82 => ⟨S4x128, .i32⟩
  | 83 => ⟨S4x128, .i32⟩
  | 84 => ⟨S4x128x1, .i32⟩
  | 85 => ⟨S4x128x1, .i32⟩
  | 86 => ⟨S4x128x1, .i32⟩
  | 87 => ⟨S4x128x1, .i32⟩
  | 88 => ⟨S4x128x1, .i32⟩
  | 89 => ⟨S4x128x5, .i32⟩
  | 90 => ⟨S4x128, .f32⟩
  | 91 => ⟨S4x128, .i32⟩
  | 92 => ⟨S_, .i32⟩
  | 93 => ⟨S_, .i32⟩
  | 94 => ⟨S4x128, .i32⟩
  | 95 => ⟨S4x128, .i32⟩
  | 96 => ⟨S_, .i32⟩
  | 97 => ⟨S4x128, .i32⟩
  | 98 => ⟨S4x128, .i32⟩
  | 99 => ⟨S_, .i32⟩
  | 100 => ⟨S4x1, .i32⟩
  | 101 => ⟨S4x1, .i1⟩
  | 102 => ⟨S_, .i32⟩
  | 103 => ⟨S4x1, .i32⟩
  | 104 => ⟨S4x1, .i32⟩
  | 105 => ⟨S4x1, .i32⟩
  | 106 => ⟨S_, .i32⟩
  | 107 => ⟨S4x128, .i32⟩
  | 108 => ⟨S4x128, .i1⟩
  | 109 => ⟨S_, .i32⟩
  | 110 => ⟨S4x128, .i32⟩
  | 111 => ⟨S4x128, .i32⟩
  | 112 => ⟨S4x128, .i32⟩
  | 113 => ⟨S_, .i32⟩
  | 114 => ⟨S4x128, .i32⟩
  | 115 => ⟨S4x128, .i1⟩
  | 116 => ⟨S_, .i32⟩
  | 117 => ⟨S4x128, .i32⟩
  | 118 => ⟨S4x128, .i32⟩
  | 119 => ⟨S4x128, .i32⟩
  | 120 => ⟨S_, .i32⟩
  | 121 => ⟨S4x128, .i32⟩
  | 122 => ⟨S4x128, .i1⟩
  | 123 => ⟨S_, .i32⟩
  | 124 => ⟨S4x128, .i32⟩
  | 125 => ⟨S4x128, .i32⟩
  | 126 => ⟨S4x128, .i32⟩
  | 127 => ⟨S_, .i32⟩
  | _ => ⟨S4x9x64x64x64, .f32⟩

abbrev hbmTy0_1 (i : Nat) : BufTy := match i % 128 with
  | 0 => ⟨S4x128, .i32⟩
  | 1 => ⟨S4x128, .i1⟩
  | 2 => ⟨S_, .i32⟩
  | 3 => ⟨S4x128, .i32⟩
  | 4 => ⟨S4x128, .i32⟩
  | 5 => ⟨S4x128, .i32⟩
  | 6 => ⟨S4x128, .i32⟩
  | 7 => ⟨S4x128x1, .i32⟩
  | 8 => ⟨S4x128x1, .i32⟩
  | 9 => ⟨S4x128x1, .i32⟩
  | 10 => ⟨S4x128x1, .i32⟩
  | 11 => ⟨S4x128x1, .i32⟩
  | 12 => ⟨S4x128x5, .i32⟩
  | 13 => ⟨S4x128, .f32⟩
  | 14 => ⟨S_, .i32⟩
  | 15 => ⟨S4x128, .i32⟩
  | 16 => ⟨S4x128, .i32⟩
  | 17 => ⟨S_, .i32⟩
  | 18 => ⟨S4x1, .i32⟩
  | 19 => ⟨S4x1, .i1⟩
  | 20 => ⟨S_, .i32⟩
  | 21 => ⟨S4x1, .i32⟩
  | 22 => ⟨S4x1, .i32⟩
  | 23 => ⟨S4x1, .i32⟩
  | 24 => ⟨S_, .i32⟩
  | 25 => ⟨S4x128, .i32⟩
  | 26 => ⟨S4x128, .i1⟩
  | 27 => ⟨S_, .i32⟩
  | 28 => ⟨S4x128, .i32⟩
  | 29 => ⟨S4x128, .i32⟩
  | 30 => ⟨S4x128, .i32⟩
  | 31 => ⟨S_, .i32⟩
  | 32 => ⟨S4x128, .i32⟩
  | 33 => ⟨S4x128, .i1⟩
  | 34 => ⟨S_, .i32⟩
  | 35 => ⟨S4x128, .i32⟩
  | 36 => ⟨S4x128, .i32⟩
  | 37 => ⟨S4x128, .i32⟩
  | 38 => ⟨S_, .i32⟩
  | 39 => ⟨S4x128, .i32⟩
  | 40 => ⟨S4x128, .i1⟩
  | 41 => ⟨S_, .i32⟩
  | 42 => ⟨S4x128, .i32⟩
  | 43 => ⟨S4x128, .i32⟩
  | 44 => ⟨S4x128, .i32⟩
  | 45 => ⟨S_, .i32⟩
  | 46 => ⟨S4x128, .i32⟩
  | 47 => ⟨S4x128, .i1⟩
  | 48 => ⟨S_, .i32⟩
  | 49 => ⟨S4x128, .i32⟩
  | 50 => ⟨S4x128, .i32⟩
  | 51 => ⟨S4x128, .i32⟩
  | 52 => ⟨S4x128, .i32⟩
  | 53 => ⟨S4x128x1, .i32⟩
  | 54 => ⟨S4x128x1, .i32⟩
  | 55 => ⟨S4x128x1, .i32⟩
  | 56 => ⟨S4x128x1, .i32⟩
  | 57 => ⟨S4x128x1, .i32⟩
  | 58 => ⟨S4x128x5, .i32⟩
  | 59 => ⟨S4x128, .f32⟩
  | 60 => ⟨S_, .i32⟩
  | 61 => ⟨S4x128, .i32⟩
  | 62 => ⟨S4x128, .i32⟩
  | 63 => ⟨S_, .i32⟩
  | 64 => ⟨S4x1, .i32⟩
  | 65 => ⟨S4x1, .i1⟩
  | 66 => ⟨S_, .i32⟩
  | 67 => ⟨S4x1, .i32⟩
  | 68 => ⟨S4x1, .i32⟩
  | 69 => ⟨S4x1, .i32⟩
  | 70 => ⟨S_, .i32⟩
  | 71 => ⟨S4x128, .i32⟩
  | 72 => ⟨S4x128, .i1⟩
  | 73 => ⟨S_, .i32⟩
  | 74 => ⟨S4x128, .i32⟩
  | 75 => ⟨S4x128, .i32⟩
  | 76 => ⟨S4x128, .i32⟩
  | 77 => ⟨S_, .i32⟩
  | 78 => ⟨S4x128, .i32⟩
  | 79 => ⟨S4x128, .i1⟩
  | 80 => ⟨S_, .i32⟩
  | 81 => ⟨S4x128, .i32⟩
  | 82 => ⟨S4x128, .i32⟩
  | 83 => ⟨S4x128, .i32⟩
  | 84 => ⟨S_, .i32⟩
  | 85 => ⟨S4x128, .i32⟩
  | 86 => ⟨S4x128, .i1⟩
  | 87 => ⟨S_, .i32⟩
  | 88 => ⟨S4x128, .i32⟩
  | 89 => ⟨S4x128, .i32⟩
  | 90 => ⟨S4x128, .i32⟩
  | 91 => ⟨S_, .i32⟩
  | 92 => ⟨S4x128, .i32⟩
  | 93 => ⟨S4x128, .i1⟩
  | 94 => ⟨S_, .i32⟩
  | 95 => ⟨S4x128, .i32⟩
  | 96 => ⟨S4x128, .i32⟩
  | 97 => ⟨S4x128, .i32⟩
  | 98 => ⟨S4x128, .i32⟩
  | 99 => ⟨S4x128x1, .i32⟩
  | 100 => ⟨S4x128x1, .i32⟩
  | 101 => ⟨S4x128x1, .i32⟩
  | 102 => ⟨S4x128x1, .i32⟩
  | 103 => ⟨S4x128x1, .i32⟩
  | 104 => ⟨S4x128x5, .i32⟩
  | 105 => ⟨S4x128, .f32⟩
  | 106 => ⟨S4x128x1, .f32⟩
  | 107 => ⟨S4x128x1, .f32⟩
  | 108 => ⟨S4x128x1, .f32⟩
  | 109 => ⟨S4x128x3, .f32⟩
  | 110 => ⟨S_, .f32⟩
  | 111 => ⟨S4x128, .f32⟩
  | 112 => ⟨S_, .f32⟩
  | 113 => ⟨S4x128, .f32⟩
  | 114 => ⟨S4x128, .f32⟩
  | 115 => ⟨S4x128x1, .f32⟩
  | 116 => ⟨S4x128x3, .f32⟩
  | 117 => ⟨S4x128x3, .f32⟩
  | 118 => ⟨S4x128x3, .f32⟩
  | 119 => ⟨S_, .f32⟩
  | 120 => ⟨S4x128, .f32⟩
  | 121 => ⟨S4x128x1, .f32⟩
  | 122 => ⟨S4x128x1, .f32⟩
  | 123 => ⟨S4x128x3, .f32⟩
  | 124 => ⟨S4x128x3, .f32⟩
  | 125 => ⟨S4x128x3, .f32⟩
  | 126 => ⟨S4x128x1, .i32⟩
  | 127 => ⟨S_, .i32⟩
  | _ => ⟨S4x9x64x64x64, .f32⟩

abbrev hbmTy0_2 (i : Nat) : BufTy := match i % 128 with
  | 0 => ⟨S4x128x1, .i32⟩
  | 1 => ⟨S4x128x1, .i1⟩
  | 2 => ⟨S_, .i32⟩
  | 3 => ⟨S4x128x1, .i32⟩
  | 4 => ⟨S4x128x1, .i32⟩
  | 5 => ⟨S4x128x1, .i32⟩
  | 6 => ⟨S4x128x1x1, .i32⟩
  | 7 => ⟨S1, .i32⟩
  | 8 => ⟨S_, .i32⟩
  | 9 => ⟨S4x128x1x1, .i32⟩
  | 10 => ⟨S4x128x1x1, .i1⟩
  | 11 => ⟨S1x1x1x1, .i32⟩
  | 12 => ⟨S4x128x1x1, .i32⟩
  | 13 => ⟨S4x128x1x1, .i1⟩
  | 14 => ⟨S4x128x1x1, .i1⟩
  | 15 => ⟨S_, .i1⟩
  | 16 => ⟨S4x128x1, .i1⟩
  | 17 => ⟨S4x128x1, .f32⟩
  | 18 => ⟨S_, .f32⟩
  | 19 => ⟨S4x128x1, .f32⟩
  | 20 => ⟨S4x128x1, .f32⟩
  | 21 => ⟨S4x128, .f32⟩
  | 22 => ⟨S4x128x1, .i32⟩
  | 23 => ⟨S_, .i32⟩
  | 24 => ⟨S4x128x1, .i32⟩
  | 25 => ⟨S4x128x1, .i1⟩
  | 26 => ⟨S_, .i32⟩
  | 27 => ⟨S4x128x1, .i32⟩
  | 28 => ⟨S4x128x1, .i32⟩
  | 29 => ⟨S4x128x1, .i32⟩
  | 30 => ⟨S4x128x1x1, .i32⟩
  | 31 => ⟨S1, .i32⟩
  | 32 => ⟨S_, .i32⟩
  | 33 => ⟨S4x128x1x1, .i32⟩
  | 34 => ⟨S4x128x1x1, .i1⟩
  | 35 => ⟨S1x1x1x1, .i32⟩
  | 36 => ⟨S4x128x1x1, .i32⟩
  | 37 => ⟨S4x128x1x1, .i1⟩
  | 38 => ⟨S4x128x1x1, .i1⟩
  | 39 => ⟨S_, .i1⟩
  | 40 => ⟨S4x128x1, .i1⟩
  | 41 => ⟨S4x128x1, .f32⟩
  | 42 => ⟨S_, .f32⟩
  | 43 => ⟨S4x128x1, .f32⟩
  | 44 => ⟨S4x128x1, .f32⟩
  | 45 => ⟨S4x128, .f32⟩
  | 46 => ⟨S4x128, .f32⟩
  | 47 => ⟨S_, .f32⟩
  | 48 => ⟨S4x128, .f32⟩
  | 49 => ⟨S4x128, .f32⟩
  | 50 => ⟨S4x128, .f32⟩
  | 51 => ⟨S_, .i32⟩
  | 52 => ⟨S4x128, .i32⟩
  | 53 => ⟨S4x128, .i1⟩
  | 54 => ⟨S_, .i32⟩
  | 55 => ⟨S4x128, .i32⟩
  | 56 => ⟨S4x128, .i32⟩
  | 57 => ⟨S4x128, .i32⟩
  | 58 => ⟨S4x128x1, .i32⟩
  | 59 => ⟨S4x128, .f32⟩
  | 60 => ⟨S4x128, .f32⟩
  | 61 => ⟨S4x128, .f32⟩
  | 62 => ⟨S4x128, .f32⟩
  | 63 => ⟨S4x128, .f32⟩
  | 64 => ⟨S_, .f32⟩
  | 65 => ⟨S_, .f32⟩
  | 66 => ⟨S_, .f32⟩
  | 67 => ⟨S_, .f32⟩
  | 68 => ⟨S4x128x1, .i32⟩
  | 69 => ⟨S4x128, .i32⟩
  | 70 => ⟨S_, .i32⟩
  | 71 => ⟨S4x128, .i32⟩
  | 72 => ⟨S4x128, .i1⟩
  | 73 => ⟨S4x128x1, .i1⟩
  | 74 => ⟨S_, .i32⟩
  | 75 => ⟨S_, .i32⟩
  | 76 => ⟨S4x128x4, .i1⟩
  | 77 => ⟨S4x128x4, .i32⟩
  | 78 => ⟨S4x128x4, .i32⟩
  | 79 => ⟨S4x128x1, .i32⟩
  | 80 => ⟨S4x128, .i32⟩
  | 81 => ⟨S4x128x1, .i32⟩
  | 82 => ⟨S4x128, .i32⟩
  | 83 => ⟨S4x128x1, .i32⟩
  | 84 => ⟨S4x128, .i32⟩
  | 85 => ⟨S4x128x1, .i32⟩
  | 86 => ⟨S4x128, .i32⟩
  | 87 => ⟨S4, .i32⟩
  | 88 => ⟨S4x1, .i32⟩
  | 89 => ⟨S_, .i32⟩
  | 90 => ⟨S4x1, .i32⟩
  | 91 => ⟨S4x1, .i1⟩
  | 92 => ⟨S_, .i32⟩
  | 93 => ⟨S4x1, .i32⟩
  | 94 => ⟨S4x1, .i32⟩
  | 95 => ⟨S4x1, .i32⟩
  | 96 => ⟨S_, .i32⟩
  | 97 => ⟨S4x128, .i32⟩
  | 98 => ⟨S4x128, .i1⟩
  | 99 => ⟨S_, .i32⟩
  | 100 => ⟨S4x128, .i32⟩
  | 101 => ⟨S4x128, .i32⟩
  | 102 => ⟨S4x128, .i32⟩
  | 103 => ⟨S_, .i32⟩
  | 104 => ⟨S4x128, .i32⟩
  | 105 => ⟨S4x128, .i1⟩
  | 106 => ⟨S_, .i32⟩
  | 107 => ⟨S4x128, .i32⟩
  | 108 => ⟨S4x128, .i32⟩
  | 109 => ⟨S4x128, .i32⟩
  | 110 => ⟨S_, .i32⟩
  | 111 => ⟨S4x128, .i32⟩
  | 112 => ⟨S4x128, .i1⟩
  | 113 => ⟨S_, .i32⟩
  | 114 => ⟨S4x128, .i32⟩
  | 115 => ⟨S4x128, .i32⟩
  | 116 => ⟨S4x128, .i32⟩
  | 117 => ⟨S_, .i32⟩
  | 118 => ⟨S4x128, .i32⟩
  | 119 => ⟨S4x128, .i1⟩
  | 120 => ⟨S_, .i32⟩
  | 121 => ⟨S4x128, .i32⟩
  | 122 => ⟨S4x128, .i32⟩
  | 123 => ⟨S4x128, .i32⟩
  | 124 => ⟨S4x128, .i32⟩
  | 125 => ⟨S4x128x1, .i32⟩
  | 126 => ⟨S4x128x1, .i32⟩
  | 127 => ⟨S4x128x1, .i32⟩
  | _ => ⟨S4x9x64x64x64, .f32⟩

abbrev hbmTy0_3 (i : Nat) : BufTy := match i % 128 with
  | 0 => ⟨S4x128x1, .i32⟩
  | 1 => ⟨S4x128x1, .i32⟩
  | 2 => ⟨S4x128x5, .i32⟩
  | 3 => ⟨S4x128, .f32⟩
  | 4 => ⟨S4x128, .i32⟩
  | 5 => ⟨S_, .i32⟩
  | 6 => ⟨S_, .i32⟩
  | 7 => ⟨S4x128, .i32⟩
  | 8 => ⟨S4x128, .i32⟩
  | 9 => ⟨S_, .i32⟩
  | 10 => ⟨S4x128, .i32⟩
  | 11 => ⟨S4x128, .i32⟩
  | 12 => ⟨S_, .i32⟩
  | 13 => ⟨S4x1, .i32⟩
  | 14 => ⟨S4x1, .i1⟩
  | 15 => ⟨S_, .i32⟩
  | 16 => ⟨S4x1, .i32⟩
  | 17 => ⟨S4x1, .i32⟩
  | 18 => ⟨S4x1, .i32⟩
  | 19 => ⟨S_, .i32⟩
  | 20 => ⟨S4x128, .i32⟩
  | 21 => ⟨S4x128, .i1⟩
  | 22 => ⟨S_, .i32⟩
  | 23 => ⟨S4x128, .i32⟩
  | 24 => ⟨S4x128, .i32⟩
  | 25 => ⟨S4x128, .i32⟩
  | 26 => ⟨S_, .i32⟩
  | 27 => ⟨S4x128, .i32⟩
  | 28 => ⟨S4x128, .i1⟩
  | 29 => ⟨S_, .i32⟩
  | 30 => ⟨S4x128, .i32⟩
  | 31 => ⟨S4x128, .i32⟩
  | 32 => ⟨S4x128, .i32⟩
  | 33 => ⟨S_, .i32⟩
  | 34 => ⟨S4x128, .i32⟩
  | 35 => ⟨S4x128, .i1⟩
  | 36 => ⟨S_, .i32⟩
  | 37 => ⟨S4x128, .i32⟩
  | 38 => ⟨S4x128, .i32⟩
  | 39 => ⟨S4x128, .i32⟩
  | 40 => ⟨S_, .i32⟩
  | 41 => ⟨S4x128, .i32⟩
  | 42 => ⟨S4x128, .i1⟩
  | 43 => ⟨S_, .i32⟩
  | 44 => ⟨S4x128, .i32⟩
  | 45 => ⟨S4x128, .i32⟩
  | 46 => ⟨S4x128, .i32⟩
  | 47 => ⟨S4x128, .i32⟩
  | 48 => ⟨S4x128x1, .i32⟩
  | 49 => ⟨S4x128x1, .i32⟩
  | 50 => ⟨S4x128x1, .i32⟩
  | 51 => ⟨S4x128x1, .i32⟩
  | 52 => ⟨S4x128x1, .i32⟩
  | 53 => ⟨S4x128x5, .i32⟩
  | 54 => ⟨S4x128, .f32⟩
  | 55 => ⟨S_, .i32⟩
  | 56 => ⟨S4x128, .i32⟩
  | 57 => ⟨S4x128, .i32⟩
  | 58 => ⟨S_, .i32⟩
  | 59 => ⟨S4x1, .i32⟩
  | 60 => ⟨S4x1, .i1⟩
  | 61 => ⟨S_, .i32⟩
  | 62 => ⟨S4x1, .i32⟩
  | 63 => ⟨S4x1, .i32⟩
  | 64 => ⟨S4x1, .i32⟩
  | 65 => ⟨S_, .i32⟩
  | 66 => ⟨S4x128, .i32⟩
  | 67 => ⟨S4x128, .i1⟩
  | 68 => ⟨S_, .i32⟩
  | 69 => ⟨S4x128, .i32⟩
  | 70 => ⟨S4x128, .i32⟩
  | 71 => ⟨S4x128, .i32⟩
  | 72 => ⟨S_, .i32⟩
  | 73 => ⟨S4x128, .i32⟩
  | 74 => ⟨S4x128, .i1⟩
  | 75 => ⟨S_, .i32⟩
  | 76 => ⟨S4x128, .i32⟩
  | 77 => ⟨S4x128, .i32⟩
  | 78 => ⟨S4x128, .i32⟩
  | 79 => ⟨S_, .i32⟩
  | 80 => ⟨S4x128, .i32⟩
  | 81 => ⟨S4x128, .i1⟩
  | 82 => ⟨S_, .i32⟩
  | 83 => ⟨S4x128, .i32⟩
  | 84 => ⟨S4x128, .i32⟩
  | 85 => ⟨S4x128, .i32⟩
  | 86 => ⟨S_, .i32⟩
  | 87 => ⟨S4x128, .i32⟩
  | 88 => ⟨S4x128, .i1⟩
  | 89 => ⟨S_, .i32⟩
  | 90 => ⟨S4x128, .i32⟩
  | 91 => ⟨S4x128, .i32⟩
  | 92 => ⟨S4x128, .i32⟩
  | 93 => ⟨S4x128, .i32⟩
  | 94 => ⟨S4x128x1, .i32⟩
  | 95 => ⟨S4x128x1, .i32⟩
  | 96 => ⟨S4x128x1, .i32⟩
  | 97 => ⟨S4x128x1, .i32⟩
  | 98 => ⟨S4x128x1, .i32⟩
  | 99 => ⟨S4x128x5, .i32⟩
  | 100 => ⟨S4x128, .f32⟩
  | 101 => ⟨S_, .i32⟩
  | 102 => ⟨S4x128, .i32⟩
  | 103 => ⟨S4x128, .i32⟩
  | 104 => ⟨S_, .i32⟩
  | 105 => ⟨S4x1, .i32⟩
  | 106 => ⟨S4x1, .i1⟩
  | 107 => ⟨S_, .i32⟩
  | 108 => ⟨S4x1, .i32⟩
  | 109 => ⟨S4x1, .i32⟩
  | 110 => ⟨S4x1, .i32⟩
  | 111 => ⟨S_, .i32⟩
  | 112 => ⟨S4x128, .i32⟩
  | 113 => ⟨S4x128, .i1⟩
  | 114 => ⟨S_, .i32⟩
  | 115 => ⟨S4x128, .i32⟩
  | 116 => ⟨S4x128, .i32⟩
  | 117 => ⟨S4x128, .i32⟩
  | 118 => ⟨S_, .i32⟩
  | 119 => ⟨S4x128, .i32⟩
  | 120 => ⟨S4x128, .i1⟩
  | 121 => ⟨S_, .i32⟩
  | 122 => ⟨S4x128, .i32⟩
  | 123 => ⟨S4x128, .i32⟩
  | 124 => ⟨S4x128, .i32⟩
  | 125 => ⟨S_, .i32⟩
  | 126 => ⟨S4x128, .i32⟩
  | 127 => ⟨S4x128, .i1⟩
  | _ => ⟨S4x9x64x64x64, .f32⟩

abbrev hbmTy0_4 (i : Nat) : BufTy := match i % 128 with
  | 0 => ⟨S_, .i32⟩
  | 1 => ⟨S4x128, .i32⟩
  | 2 => ⟨S4x128, .i32⟩
  | 3 => ⟨S4x128, .i32⟩
  | 4 => ⟨S_, .i32⟩
  | 5 => ⟨S4x128, .i32⟩
  | 6 => ⟨S4x128, .i1⟩
  | 7 => ⟨S_, .i32⟩
  | 8 => ⟨S4x128, .i32⟩
  | 9 => ⟨S4x128, .i32⟩
  | 10 => ⟨S4x128, .i32⟩
  | 11 => ⟨S4x128, .i32⟩
  | 12 => ⟨S4x128x1, .i32⟩
  | 13 => ⟨S4x128x1, .i32⟩
  | 14 => ⟨S4x128x1, .i32⟩
  | 15 => ⟨S4x128x1, .i32⟩
  | 16 => ⟨S4x128x1, .i32⟩
  | 17 => ⟨S4x128x5, .i32⟩
  | 18 => ⟨S4x128, .f32⟩
  | 19 => ⟨S4x128x1, .f32⟩
  | 20 => ⟨S4x128x1, .f32⟩
  | 21 => ⟨S4x128x1, .f32⟩
  | 22 => ⟨S4x128x3, .f32⟩
  | 23 => ⟨S_, .f32⟩
  | 24 => ⟨S4x128, .f32⟩
  | 25 => ⟨S_, .f32⟩
  | 26 => ⟨S4x128, .f32⟩
  | 27 => ⟨S4x128, .f32⟩
  | 28 => ⟨S4x128x1, .f32⟩
  | 29 => ⟨S4x128x3, .f32⟩
  | 30 => ⟨S4x128x3, .f32⟩
  | 31 => ⟨S4x128x3, .f32⟩
  | 32 => ⟨S_, .f32⟩
  | 33 => ⟨S4x128, .f32⟩
  | 34 => ⟨S4x128x1, .f32⟩
  | 35 => ⟨S4x128x1, .f32⟩
  | 36 => ⟨S4x128x3, .f32⟩
  | 37 => ⟨S4x128x3, .f32⟩
  | 38 => ⟨S4x128x3, .f32⟩
  | 39 => ⟨S4x128x1, .i32⟩
  | 40 => ⟨S_, .i32⟩
  | 41 => ⟨S4x128x1, .i32⟩
  | 42 => ⟨S4x128x1, .i1⟩
  | 43 => ⟨S_, .i32⟩
  | 44 => ⟨S4x128x1, .i32⟩
  | 45 => ⟨S4x128x1, .i32⟩
  | 46 => ⟨S4x128x1, .i32⟩
  | 47 => ⟨S4x128x1x1, .i32⟩
  | 48 => ⟨S1, .i32⟩
  | 49 => ⟨S_, .i32⟩
  | 50 => ⟨S4x128x1x1, .i32⟩
  | 51 => ⟨S4x128x1x1, .i1⟩
  | 52 => ⟨S1x1x1x1, .i32⟩
  | 53 => ⟨S4x128x1x1, .i32⟩
  | 54 => ⟨S4x128x1x1, .i1⟩
  | 55 => ⟨S4x128x1x1, .i1⟩
  | 56 => ⟨S_, .i1⟩
  | 57 => ⟨S4x128x1, .i1⟩
  | 58 => ⟨S4x128x1, .f32⟩
  | 59 => ⟨S_, .f32⟩
  | 60 => ⟨S4x128x1, .f32⟩
  | 61 => ⟨S4x128x1, .f32⟩
  | 62 => ⟨S4x128, .f32⟩
  | 63 => ⟨S4x128x1, .i32⟩
  | 64 => ⟨S_, .i32⟩
  | 65 => ⟨S4x128x1, .i32⟩
  | 66 => ⟨S4x128x1, .i1⟩
  | 67 => ⟨S_, .i32⟩
  | 68 => ⟨S4x128x1, .i32⟩
  | 69 => ⟨S4x128x1, .i32⟩
  | 70 => ⟨S4x128x1, .i32⟩
  | 71 => ⟨S4x128x1x1, .i32⟩
  | 72 => ⟨S1, .i32⟩
  | 73 => ⟨S_, .i32⟩
  | 74 => ⟨S4x128x1x1, .i32⟩
  | 75 => ⟨S4x128x1x1, .i1⟩
  | 76 => ⟨S1x1x1x1, .i32⟩
  | 77 => ⟨S4x128x1x1, .i32⟩
  | 78 => ⟨S4x128x1x1, .i1⟩
  | 79 => ⟨S4x128x1x1, .i1⟩
  | 80 => ⟨S_, .i1⟩
  | 81 => ⟨S4x128x1, .i1⟩
  | 82 => ⟨S4x128x1, .f32⟩
  | 83 => ⟨S_, .f32⟩
  | 84 => ⟨S4x128x1, .f32⟩
  | 85 => ⟨S4x128x1, .f32⟩
  | 86 => ⟨S4x128, .f32⟩
  | 87 => ⟨S4x128, .f32⟩
  | 88 => ⟨S_, .f32⟩
  | 89 => ⟨S4x128, .f32⟩
  | 90 => ⟨S4x128, .f32⟩
  | 91 => ⟨S4x128, .f32⟩
  | 92 => ⟨S_, .i32⟩
  | 93 => ⟨S4x128, .i32⟩
  | 94 => ⟨S4x128, .i1⟩
  | 95 => ⟨S_, .i32⟩
  | 96 => ⟨S4x128, .i32⟩
  | 97 => ⟨S4x128, .i32⟩
  | 98 => ⟨S4x128, .i32⟩
  | 99 => ⟨S4x128x1, .i32⟩
  | 100 => ⟨S4x128, .f32⟩
  | 101 => ⟨S4x128, .f32⟩
  | 102 => ⟨S4x128, .f32⟩
  | 103 => ⟨S4x128, .f32⟩
  | 104 => ⟨S4x128, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S1, .f32⟩
  | 114 => ⟨S1, .f32⟩
  | 115 => ⟨S1, .f32⟩
  | 116 => ⟨S1, .f32⟩
  | 117 => ⟨S4, .f32⟩
  | _ => ⟨S4x9x64x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x9x64x64x64, .f32⟩

abbrev bufTy : (tb : Table) → Fin (tcTables nBuf tb) → BufTy
  | .hbm, ⟨i, _⟩ => hbmTy i
  | .local _ .vmem, ⟨0, _⟩ => ⟨S1x9x16x64x64, .f32⟩
  | .local _ .vmem, ⟨1, _⟩ => ⟨S1x9x16x64x64, .f32⟩
  | .local _ .vmem, ⟨2, _⟩ => ⟨S1x9x1x64x64, .f32⟩
  | .local _ .vmem, ⟨3, _⟩ => ⟨S1x9x1x64x64, .f32⟩
  | .local _ .vmem, ⟨4, _⟩ => ⟨S1x9x1x64x64, .f32⟩
  | .local _ .vmem, ⟨5, _⟩ => ⟨S1x9x1x64x64, .f32⟩
  | .local _ .vmem, ⟨6, _⟩ => ⟨S1x3x16x64x64, .f32⟩
  | .local _ .vmem, ⟨7, _⟩ => ⟨S1x3x16x64x64, .f32⟩
  | .local _ .vmem, ⟨8, _⟩ => ⟨S1x1x8x128, .f32⟩
  | .local _ .vmem, ⟨9, _⟩ => ⟨S1x1x8x128, .f32⟩
  | .local _ .vmem, ⟨10, _⟩ => ⟨S1x1x8x128, .f32⟩
  | .local _ .vmem, ⟨11, _⟩ => ⟨S1x1x8x128, .f32⟩
  | .local _ .vmem, ⟨12, _⟩ => ⟨S3x18x64x64, .f32⟩
  | .local _ .vmem, ⟨13, _⟩ => ⟨S1x9x16x32x32, .f32⟩
  | .local _ .vmem, ⟨14, _⟩ => ⟨S1x9x16x32x32, .f32⟩
  | .local _ .vmem, ⟨15, _⟩ => ⟨S1x9x1x32x32, .f32⟩
  | .local _ .vmem, ⟨16, _⟩ => ⟨S1x9x1x32x32, .f32⟩
  | .local _ .vmem, ⟨17, _⟩ => ⟨S1x9x1x32x32, .f32⟩
  | .local _ .vmem, ⟨18, _⟩ => ⟨S1x9x1x32x32, .f32⟩
  | .local _ .vmem, ⟨19, _⟩ => ⟨S1x3x16x32x32, .f32⟩
  | .local _ .vmem, ⟨20, _⟩ => ⟨S1x3x16x32x32, .f32⟩
  | .local _ .vmem, ⟨21, _⟩ => ⟨S1x1x8x128, .f32⟩
  | .local _ .vmem, ⟨22, _⟩ => ⟨S1x1x8x128, .f32⟩
  | .local _ .vmem, ⟨23, _⟩ => ⟨S1x1x8x128, .f32⟩
  | .local _ .vmem, ⟨24, _⟩ => ⟨S1x1x8x128, .f32⟩
  | .local _ .vmem, ⟨25, _⟩ => ⟨S3x18x32x32, .f32⟩
  | _, _ => ⟨S4x9x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_c_13 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_call1_v0 : Ref sig .tc := ⟨.hbm, 93, rfl⟩
abbrev main_call1_v1 : Ref sig .tc := ⟨.hbm, 94, rfl⟩
abbrev main_v64 : Ref sig .tc := ⟨.hbm, 95, rfl⟩
abbrev main_c_15 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_c_19 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_20 : Ref sig .tc := ⟨.hbm, 113, rfl⟩
abbrev main_v77 : Ref sig .tc := ⟨.hbm, 114, rfl⟩
abbrev main_v78 : Ref sig .tc := ⟨.hbm, 115, rfl⟩
abbrev main_c_21 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_22 : Ref sig .tc := ⟨.hbm, 120, rfl⟩
abbrev main_v82 : Ref sig .tc := ⟨.hbm, 121, rfl⟩
abbrev main_v83 : Ref sig .tc := ⟨.hbm, 122, rfl⟩
abbrev main_c_23 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_24 : Ref sig .tc := ⟨.hbm, 127, rfl⟩
abbrev main_v87 : Ref sig .tc := ⟨.hbm, 128, rfl⟩
abbrev main_v88 : Ref sig .tc := ⟨.hbm, 129, rfl⟩
abbrev main_c_25 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_26 : Ref sig .tc := ⟨.hbm, 142, rfl⟩
abbrev main_v100 : Ref sig .tc := ⟨.hbm, 143, rfl⟩
abbrev main_v101 : Ref sig .tc := ⟨.hbm, 144, rfl⟩
abbrev main_c_27 : Ref sig .tc := ⟨.hbm, 145, rfl⟩
abbrev main_v102 : Ref sig .tc := ⟨.hbm, 146, rfl⟩
abbrev main_v103 : Ref sig .tc := ⟨.hbm, 147, rfl⟩
abbrev main_c_28 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_29 : Ref sig .tc := ⟨.hbm, 152, rfl⟩
abbrev main_v107 : Ref sig .tc := ⟨.hbm, 153, rfl⟩
abbrev main_v108 : Ref sig .tc := ⟨.hbm, 154, rfl⟩
abbrev main_c_30 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_c_31 : Ref sig .tc := ⟨.hbm, 159, rfl⟩
abbrev main_v112 : Ref sig .tc := ⟨.hbm, 160, rfl⟩
abbrev main_v113 : Ref sig .tc := ⟨.hbm, 161, rfl⟩
abbrev main_c_32 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_c_33 : Ref sig .tc := ⟨.hbm, 166, rfl⟩
abbrev main_v117 : Ref sig .tc := ⟨.hbm, 167, rfl⟩
abbrev main_v118 : Ref sig .tc := ⟨.hbm, 168, rfl⟩
abbrev main_c_34 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_c_35 : Ref sig .tc := ⟨.hbm, 173, rfl⟩
abbrev main_v122 : Ref sig .tc := ⟨.hbm, 174, rfl⟩
abbrev main_v123 : Ref sig .tc := ⟨.hbm, 175, rfl⟩
abbrev main_c_36 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_c_37 : Ref sig .tc := ⟨.hbm, 188, rfl⟩
abbrev main_v135 : Ref sig .tc := ⟨.hbm, 189, rfl⟩
abbrev main_v136 : Ref sig .tc := ⟨.hbm, 190, rfl⟩
abbrev main_c_38 : Ref sig .tc := ⟨.hbm, 191, rfl⟩
abbrev main_v137 : Ref sig .tc := ⟨.hbm, 192, rfl⟩
abbrev main_v138 : Ref sig .tc := ⟨.hbm, 193, rfl⟩
abbrev main_c_39 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_c_40 : Ref sig .tc := ⟨.hbm, 198, rfl⟩
abbrev main_v142 : Ref sig .tc := ⟨.hbm, 199, rfl⟩
abbrev main_v143 : Ref sig .tc := ⟨.hbm, 200, rfl⟩
abbrev main_c_41 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_c_42 : Ref sig .tc := ⟨.hbm, 205, rfl⟩
abbrev main_v147 : Ref sig .tc := ⟨.hbm, 206, rfl⟩
abbrev main_v148 : Ref sig .tc := ⟨.hbm, 207, rfl⟩
abbrev main_c_43 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_c_44 : Ref sig .tc := ⟨.hbm, 212, rfl⟩
abbrev main_v152 : Ref sig .tc := ⟨.hbm, 213, rfl⟩
abbrev main_v153 : Ref sig .tc := ⟨.hbm, 214, rfl⟩
abbrev main_c_45 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_c_46 : Ref sig .tc := ⟨.hbm, 219, rfl⟩
abbrev main_v157 : Ref sig .tc := ⟨.hbm, 220, rfl⟩
abbrev main_v158 : Ref sig .tc := ⟨.hbm, 221, rfl⟩
abbrev main_c_47 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_call2_cst : Ref sig .tc := ⟨.hbm, 238, rfl⟩
abbrev main_call2_v0 : Ref sig .tc := ⟨.hbm, 239, rfl⟩
abbrev main_call2_cst_0 : Ref sig .tc := ⟨.hbm, 240, rfl⟩
abbrev main_call2_v1 : Ref sig .tc := ⟨.hbm, 241, rfl⟩
abbrev main_call2_v2 : Ref sig .tc := ⟨.hbm, 242, rfl⟩
abbrev main_call2_v3 : Ref sig .tc := ⟨.hbm, 243, rfl⟩
abbrev main_call2_v4 : Ref sig .tc := ⟨.hbm, 244, rfl⟩
abbrev main_call2_v5 : Ref sig .tc := ⟨.hbm, 245, rfl⟩
abbrev main_call2_v6 : Ref sig .tc := ⟨.hbm, 246, rfl⟩
abbrev main_call2_cst_1 : Ref sig .tc := ⟨.hbm, 247, rfl⟩
abbrev main_call2_v7 : Ref sig .tc := ⟨.hbm, 248, rfl⟩
abbrev main_call2_v8 : Ref sig .tc := ⟨.hbm, 249, rfl⟩
abbrev main_call2_v9 : Ref sig .tc := ⟨.hbm, 250, rfl⟩
abbrev main_call2_v10 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_call3_c : Ref sig .tc := ⟨.hbm, 255, rfl⟩
abbrev main_call3_v0 : Ref sig .tc := ⟨.hbm, 256, rfl⟩
abbrev main_call3_v1 : Ref sig .tc := ⟨.hbm, 257, rfl⟩
abbrev main_call3_c_0 : Ref sig .tc := ⟨.hbm, 258, rfl⟩
abbrev main_call3_v2 : Ref sig .tc := ⟨.hbm, 259, rfl⟩
abbrev main_call3_v3 : Ref sig .tc := ⟨.hbm, 260, rfl⟩
abbrev main_call3_v4 : Ref sig .tc := ⟨.hbm, 261, rfl⟩
abbrev main_call3_v5 : Ref sig .tc := ⟨.hbm, 262, rfl⟩
abbrev main_call3_c_1 : Ref sig .tc := ⟨.hbm, 263, rfl⟩
abbrev main_call3_c_2 : Ref sig .tc := ⟨.hbm, 264, rfl⟩
abbrev main_call3_v6 : Ref sig .tc := ⟨.hbm, 265, rfl⟩
abbrev main_call3_v7 : Ref sig .tc := ⟨.hbm, 266, rfl⟩
abbrev main_call3_v8 : Ref sig .tc := ⟨.hbm, 267, rfl⟩
abbrev main_call3_v9 : Ref sig .tc := ⟨.hbm, 268, rfl⟩
abbrev main_call3_v10 : Ref sig .tc := ⟨.hbm, 269, rfl⟩
abbrev main_call3_v11 : Ref sig .tc := ⟨.hbm, 270, rfl⟩
abbrev main_call3_c_3 : Ref sig .tc := ⟨.hbm, 271, rfl⟩
abbrev main_call3_v12 : Ref sig .tc := ⟨.hbm, 272, rfl⟩
abbrev main_call3_v13 : Ref sig .tc := ⟨.hbm, 273, rfl⟩
abbrev main_call3_cst : Ref sig .tc := ⟨.hbm, 274, rfl⟩
abbrev main_call3_v14 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_call4_c : Ref sig .tc := ⟨.hbm, 279, rfl⟩
abbrev main_call4_v0 : Ref sig .tc := ⟨.hbm, 280, rfl⟩
abbrev main_call4_v1 : Ref sig .tc := ⟨.hbm, 281, rfl⟩
abbrev main_call4_c_0 : Ref sig .tc := ⟨.hbm, 282, rfl⟩
abbrev main_call4_v2 : Ref sig .tc := ⟨.hbm, 283, rfl⟩
abbrev main_call4_v3 : Ref sig .tc := ⟨.hbm, 284, rfl⟩
abbrev main_call4_v4 : Ref sig .tc := ⟨.hbm, 285, rfl⟩
abbrev main_call4_v5 : Ref sig .tc := ⟨.hbm, 286, rfl⟩
abbrev main_call4_c_1 : Ref sig .tc := ⟨.hbm, 287, rfl⟩
abbrev main_call4_c_2 : Ref sig .tc := ⟨.hbm, 288, rfl⟩
abbrev main_call4_v6 : Ref sig .tc := ⟨.hbm, 289, rfl⟩
abbrev main_call4_v7 : Ref sig .tc := ⟨.hbm, 290, rfl⟩
abbrev main_call4_v8 : Ref sig .tc := ⟨.hbm, 291, rfl⟩
abbrev main_call4_v9 : Ref sig .tc := ⟨.hbm, 292, rfl⟩
abbrev main_call4_v10 : Ref sig .tc := ⟨.hbm, 293, rfl⟩
abbrev main_call4_v11 : Ref sig .tc := ⟨.hbm, 294, rfl⟩
abbrev main_call4_c_3 : Ref sig .tc := ⟨.hbm, 295, rfl⟩
abbrev main_call4_v12 : Ref sig .tc := ⟨.hbm, 296, rfl⟩
abbrev main_call4_v13 : Ref sig .tc := ⟨.hbm, 297, rfl⟩
abbrev main_call4_cst : Ref sig .tc := ⟨.hbm, 298, rfl⟩
abbrev main_call4_v14 : Ref sig .tc := ⟨.hbm, 299, rfl⟩
abbrev main_v180 : Ref sig .tc := ⟨.hbm, 300, rfl⟩
abbrev main_v181 : Ref sig .tc := ⟨.hbm, 301, rfl⟩
abbrev main_v182 : Ref sig .tc := ⟨.hbm, 302, rfl⟩
abbrev main_cst_48 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_c_49 : Ref sig .tc := ⟨.hbm, 307, rfl⟩
abbrev main_v186 : Ref sig .tc := ⟨.hbm, 308, rfl⟩
abbrev main_v187 : Ref sig .tc := ⟨.hbm, 309, rfl⟩
abbrev main_c_50 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_v196 : Ref sig .tc := ⟨.hbm, 319, rfl⟩
abbrev main_cst_51 : Ref sig .tc := ⟨.hbm, 320, rfl⟩
abbrev main_v197 : Ref sig .tc := ⟨.hbm, 321, rfl⟩
abbrev main_cst_52 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_c_53 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩
abbrev main_c_54 : Ref sig .tc := ⟨.hbm, 330, rfl⟩
abbrev main_call5_v0 : Ref sig .tc := ⟨.hbm, 331, rfl⟩
abbrev main_call5_v1 : Ref sig .tc := ⟨.hbm, 332, rfl⟩
abbrev main_call5_v2 : Ref sig .tc := ⟨.hbm, 333, rfl⟩
abbrev main_v204 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_v208 : Ref sig .tc := ⟨.hbm, 338, rfl⟩
abbrev main_v209 : Ref sig .tc := ⟨.hbm, 339, rfl⟩
abbrev main_v210 : Ref sig .tc := ⟨.hbm, 340, rfl⟩
abbrev main_v211 : Ref sig .tc := ⟨.hbm, 341, rfl⟩
abbrev main_v212 : Ref sig .tc := ⟨.hbm, 342, rfl⟩
abbrev main_v213 : Ref sig .tc := ⟨.hbm, 343, rfl⟩
abbrev main_v214 : Ref sig .tc := ⟨.hbm, 344, rfl⟩
abbrev main_c_55 : Ref sig .tc := ⟨.hbm, 345, rfl⟩
abbrev main_v215 : Ref sig .tc := ⟨.hbm, 346, rfl⟩
abbrev main_v216 : Ref sig .tc := ⟨.hbm, 347, rfl⟩
abbrev main_c_56 : Ref sig .tc := ⟨.hbm, 348, rfl⟩
abbrev main_v217 : Ref sig .tc := ⟨.hbm, 349, rfl⟩
abbrev main_v218 : Ref sig .tc := ⟨.hbm, 350, rfl⟩
abbrev main_v219 : Ref sig .tc := ⟨.hbm, 351, rfl⟩
abbrev main_c_57 : Ref sig .tc := ⟨.hbm, 352, rfl⟩
abbrev main_v220 : Ref sig .tc := ⟨.hbm, 353, rfl⟩
abbrev main_v221 : Ref sig .tc := ⟨.hbm, 354, rfl⟩
abbrev main_c_58 : Ref sig .tc := ⟨.hbm, 355, rfl⟩
abbrev main_v222 : Ref sig .tc := ⟨.hbm, 356, rfl⟩
abbrev main_v223 : Ref sig .tc := ⟨.hbm, 357, rfl⟩
abbrev main_v224 : Ref sig .tc := ⟨.hbm, 358, rfl⟩
abbrev main_c_59 : Ref sig .tc := ⟨.hbm, 359, rfl⟩
abbrev main_v225 : Ref sig .tc := ⟨.hbm, 360, rfl⟩
abbrev main_v226 : Ref sig .tc := ⟨.hbm, 361, rfl⟩
abbrev main_c_60 : Ref sig .tc := ⟨.hbm, 362, rfl⟩
abbrev main_v227 : Ref sig .tc := ⟨.hbm, 363, rfl⟩
abbrev main_v228 : Ref sig .tc := ⟨.hbm, 364, rfl⟩
abbrev main_v229 : Ref sig .tc := ⟨.hbm, 365, rfl⟩
abbrev main_c_61 : Ref sig .tc := ⟨.hbm, 366, rfl⟩
abbrev main_v230 : Ref sig .tc := ⟨.hbm, 367, rfl⟩
abbrev main_v231 : Ref sig .tc := ⟨.hbm, 368, rfl⟩
abbrev main_c_62 : Ref sig .tc := ⟨.hbm, 369, rfl⟩
abbrev main_v232 : Ref sig .tc := ⟨.hbm, 370, rfl⟩
abbrev main_v233 : Ref sig .tc := ⟨.hbm, 371, rfl⟩
abbrev main_v234 : Ref sig .tc := ⟨.hbm, 372, rfl⟩
abbrev main_c_63 : Ref sig .tc := ⟨.hbm, 373, rfl⟩
abbrev main_v235 : Ref sig .tc := ⟨.hbm, 374, rfl⟩
abbrev main_v236 : Ref sig .tc := ⟨.hbm, 375, rfl⟩
abbrev main_c_64 : Ref sig .tc := ⟨.hbm, 376, rfl⟩
abbrev main_v237 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_v247 : Ref sig .tc := ⟨.hbm, 387, rfl⟩
abbrev main_v248 : Ref sig .tc := ⟨.hbm, 388, rfl⟩
abbrev main_c_65 : Ref sig .tc := ⟨.hbm, 389, rfl⟩
abbrev main_call6_v0 : Ref sig .tc := ⟨.hbm, 390, rfl⟩
abbrev main_call6_v1 : Ref sig .tc := ⟨.hbm, 391, rfl⟩
abbrev main_v249 : Ref sig .tc := ⟨.hbm, 392, rfl⟩
abbrev main_c_66 : Ref sig .tc := ⟨.hbm, 393, rfl⟩
abbrev main_v250 : Ref sig .tc := ⟨.hbm, 394, rfl⟩
abbrev main_v251 : Ref sig .tc := ⟨.hbm, 395, rfl⟩
abbrev main_c_67 : Ref sig .tc := ⟨.hbm, 396, rfl⟩
abbrev main_v252 : Ref sig .tc := ⟨.hbm, 397, rfl⟩
abbrev main_v253 : Ref sig .tc := ⟨.hbm, 398, rfl⟩
abbrev main_c_68 : Ref sig .tc := ⟨.hbm, 399, rfl⟩
abbrev main_v254 : Ref sig .tc := ⟨.hbm, 400, rfl⟩
abbrev main_v255 : Ref sig .tc := ⟨.hbm, 401, rfl⟩
abbrev main_v256 : Ref sig .tc := ⟨.hbm, 402, rfl⟩
abbrev main_c_69 : Ref sig .tc := ⟨.hbm, 403, rfl⟩
abbrev main_v257 : Ref sig .tc := ⟨.hbm, 404, rfl⟩
abbrev main_v258 : Ref sig .tc := ⟨.hbm, 405, rfl⟩
abbrev main_c_70 : Ref sig .tc := ⟨.hbm, 406, rfl⟩
abbrev main_v259 : Ref sig .tc := ⟨.hbm, 407, rfl⟩
abbrev main_v260 : Ref sig .tc := ⟨.hbm, 408, rfl⟩
abbrev main_v261 : Ref sig .tc := ⟨.hbm, 409, rfl⟩
abbrev main_c_71 : Ref sig .tc := ⟨.hbm, 410, rfl⟩
abbrev main_v262 : Ref sig .tc := ⟨.hbm, 411, rfl⟩
abbrev main_v263 : Ref sig .tc := ⟨.hbm, 412, rfl⟩
abbrev main_c_72 : Ref sig .tc := ⟨.hbm, 413, rfl⟩
abbrev main_v264 : Ref sig .tc := ⟨.hbm, 414, rfl⟩
abbrev main_v265 : Ref sig .tc := ⟨.hbm, 415, rfl⟩
abbrev main_v266 : Ref sig .tc := ⟨.hbm, 416, rfl⟩
abbrev main_c_73 : Ref sig .tc := ⟨.hbm, 417, rfl⟩
abbrev main_v267 : Ref sig .tc := ⟨.hbm, 418, rfl⟩
abbrev main_v268 : Ref sig .tc := ⟨.hbm, 419, rfl⟩
abbrev main_c_74 : Ref sig .tc := ⟨.hbm, 420, rfl⟩
abbrev main_v269 : Ref sig .tc := ⟨.hbm, 421, rfl⟩
abbrev main_v270 : Ref sig .tc := ⟨.hbm, 422, rfl⟩
abbrev main_v271 : Ref sig .tc := ⟨.hbm, 423, rfl⟩
abbrev main_c_75 : Ref sig .tc := ⟨.hbm, 424, rfl⟩
abbrev main_v272 : Ref sig .tc := ⟨.hbm, 425, rfl⟩
abbrev main_v273 : Ref sig .tc := ⟨.hbm, 426, rfl⟩
abbrev main_c_76 : Ref sig .tc := ⟨.hbm, 427, rfl⟩
abbrev main_v274 : Ref sig .tc := ⟨.hbm, 428, rfl⟩
abbrev main_v275 : Ref sig .tc := ⟨.hbm, 429, rfl⟩
abbrev main_v276 : Ref sig .tc := ⟨.hbm, 430, rfl⟩
abbrev main_v277 : Ref sig .tc := ⟨.hbm, 431, rfl⟩
abbrev main_v278 : Ref sig .tc := ⟨.hbm, 432, rfl⟩
abbrev main_v279 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_v283 : Ref sig .tc := ⟨.hbm, 437, rfl⟩
abbrev main_v284 : Ref sig .tc := ⟨.hbm, 438, rfl⟩
abbrev main_c_77 : Ref sig .tc := ⟨.hbm, 439, rfl⟩
abbrev main_v285 : Ref sig .tc := ⟨.hbm, 440, rfl⟩
abbrev main_v286 : Ref sig .tc := ⟨.hbm, 441, rfl⟩
abbrev main_c_78 : Ref sig .tc := ⟨.hbm, 442, rfl⟩
abbrev main_v287 : Ref sig .tc := ⟨.hbm, 443, rfl⟩
abbrev main_v288 : Ref sig .tc := ⟨.hbm, 444, rfl⟩
abbrev main_c_79 : Ref sig .tc := ⟨.hbm, 445, rfl⟩
abbrev main_v289 : Ref sig .tc := ⟨.hbm, 446, rfl⟩
abbrev main_v290 : Ref sig .tc := ⟨.hbm, 447, rfl⟩
abbrev main_v291 : Ref sig .tc := ⟨.hbm, 448, rfl⟩
abbrev main_c_80 : Ref sig .tc := ⟨.hbm, 449, rfl⟩
abbrev main_v292 : Ref sig .tc := ⟨.hbm, 450, rfl⟩
abbrev main_v293 : Ref sig .tc := ⟨.hbm, 451, rfl⟩
abbrev main_c_81 : Ref sig .tc := ⟨.hbm, 452, rfl⟩
abbrev main_v294 : Ref sig .tc := ⟨.hbm, 453, rfl⟩
abbrev main_v295 : Ref sig .tc := ⟨.hbm, 454, rfl⟩
abbrev main_v296 : Ref sig .tc := ⟨.hbm, 455, rfl⟩
abbrev main_c_82 : Ref sig .tc := ⟨.hbm, 456, rfl⟩
abbrev main_v297 : Ref sig .tc := ⟨.hbm, 457, rfl⟩
abbrev main_v298 : Ref sig .tc := ⟨.hbm, 458, rfl⟩
abbrev main_c_83 : Ref sig .tc := ⟨.hbm, 459, rfl⟩
abbrev main_v299 : Ref sig .tc := ⟨.hbm, 460, rfl⟩
abbrev main_v300 : Ref sig .tc := ⟨.hbm, 461, rfl⟩
abbrev main_v301 : Ref sig .tc := ⟨.hbm, 462, rfl⟩
abbrev main_c_84 : Ref sig .tc := ⟨.hbm, 463, rfl⟩
abbrev main_v302 : Ref sig .tc := ⟨.hbm, 464, rfl⟩
abbrev main_v303 : Ref sig .tc := ⟨.hbm, 465, rfl⟩
abbrev main_c_85 : Ref sig .tc := ⟨.hbm, 466, rfl⟩
abbrev main_v304 : Ref sig .tc := ⟨.hbm, 467, rfl⟩
abbrev main_v305 : Ref sig .tc := ⟨.hbm, 468, rfl⟩
abbrev main_v306 : Ref sig .tc := ⟨.hbm, 469, rfl⟩
abbrev main_c_86 : Ref sig .tc := ⟨.hbm, 470, rfl⟩
abbrev main_v307 : Ref sig .tc := ⟨.hbm, 471, rfl⟩
abbrev main_v308 : Ref sig .tc := ⟨.hbm, 472, rfl⟩
abbrev main_c_87 : Ref sig .tc := ⟨.hbm, 473, rfl⟩
abbrev main_v309 : Ref sig .tc := ⟨.hbm, 474, rfl⟩
abbrev main_v310 : Ref sig .tc := ⟨.hbm, 475, rfl⟩
abbrev main_v311 : Ref sig .tc := ⟨.hbm, 476, rfl⟩
abbrev main_v312 : Ref sig .tc := ⟨.hbm, 477, rfl⟩
abbrev main_v313 : Ref sig .tc := ⟨.hbm, 478, rfl⟩
abbrev main_v314 : Ref sig .tc := ⟨.hbm, 479, rfl⟩
abbrev main_v315 : Ref sig .tc := ⟨.hbm, 480, rfl⟩
abbrev main_v316 : Ref sig .tc := ⟨.hbm, 481, rfl⟩
abbrev main_v317 : Ref sig .tc := ⟨.hbm, 482, rfl⟩
abbrev main_v318 : Ref sig .tc := ⟨.hbm, 483, rfl⟩
abbrev main_v319 : Ref sig .tc := ⟨.hbm, 484, rfl⟩
abbrev main_c_88 : Ref sig .tc := ⟨.hbm, 485, rfl⟩
abbrev main_v320 : Ref sig .tc := ⟨.hbm, 486, rfl⟩
abbrev main_v321 : Ref sig .tc := ⟨.hbm, 487, rfl⟩
abbrev main_c_89 : Ref sig .tc := ⟨.hbm, 488, rfl⟩
abbrev main_v322 : Ref sig .tc := ⟨.hbm, 489, rfl⟩
abbrev main_v323 : Ref sig .tc := ⟨.hbm, 490, rfl⟩
abbrev main_c_90 : Ref sig .tc := ⟨.hbm, 491, rfl⟩
abbrev main_v324 : Ref sig .tc := ⟨.hbm, 492, rfl⟩
abbrev main_v325 : Ref sig .tc := ⟨.hbm, 493, rfl⟩
abbrev main_v326 : Ref sig .tc := ⟨.hbm, 494, rfl⟩
abbrev main_c_91 : Ref sig .tc := ⟨.hbm, 495, rfl⟩
abbrev main_v327 : Ref sig .tc := ⟨.hbm, 496, rfl⟩
abbrev main_v328 : Ref sig .tc := ⟨.hbm, 497, rfl⟩
abbrev main_c_92 : Ref sig .tc := ⟨.hbm, 498, rfl⟩
abbrev main_v329 : Ref sig .tc := ⟨.hbm, 499, rfl⟩
abbrev main_v330 : Ref sig .tc := ⟨.hbm, 500, rfl⟩
abbrev main_v331 : Ref sig .tc := ⟨.hbm, 501, rfl⟩
abbrev main_c_93 : Ref sig .tc := ⟨.hbm, 502, rfl⟩
abbrev main_v332 : Ref sig .tc := ⟨.hbm, 503, rfl⟩
abbrev main_v333 : Ref sig .tc := ⟨.hbm, 504, rfl⟩
abbrev main_c_94 : Ref sig .tc := ⟨.hbm, 505, rfl⟩
abbrev main_v334 : Ref sig .tc := ⟨.hbm, 506, rfl⟩
abbrev main_v335 : Ref sig .tc := ⟨.hbm, 507, rfl⟩
abbrev main_v336 : Ref sig .tc := ⟨.hbm, 508, rfl⟩
abbrev main_c_95 : Ref sig .tc := ⟨.hbm, 509, rfl⟩
abbrev main_v337 : Ref sig .tc := ⟨.hbm, 510, rfl⟩
abbrev main_v338 : Ref sig .tc := ⟨.hbm, 511, rfl⟩
abbrev main_c_96 : Ref sig .tc := ⟨.hbm, 512, rfl⟩
abbrev main_v339 : Ref sig .tc := ⟨.hbm, 513, rfl⟩
abbrev main_v340 : Ref sig .tc := ⟨.hbm, 514, rfl⟩
abbrev main_v341 : Ref sig .tc := ⟨.hbm, 515, rfl⟩
abbrev main_c_97 : Ref sig .tc := ⟨.hbm, 516, rfl⟩
abbrev main_v342 : Ref sig .tc := ⟨.hbm, 517, rfl⟩
abbrev main_v343 : Ref sig .tc := ⟨.hbm, 518, rfl⟩
abbrev main_c_98 : Ref sig .tc := ⟨.hbm, 519, rfl⟩
abbrev main_v344 : Ref sig .tc := ⟨.hbm, 520, rfl⟩
abbrev main_v345 : Ref sig .tc := ⟨.hbm, 521, rfl⟩
abbrev main_v346 : Ref sig .tc := ⟨.hbm, 522, rfl⟩
abbrev main_v347 : Ref sig .tc := ⟨.hbm, 523, rfl⟩
abbrev main_v348 : Ref sig .tc := ⟨.hbm, 524, rfl⟩
abbrev main_v349 : Ref sig .tc := ⟨.hbm, 525, rfl⟩
abbrev main_v350 : Ref sig .tc := ⟨.hbm, 526, rfl⟩
abbrev main_v351 : Ref sig .tc := ⟨.hbm, 527, rfl⟩
abbrev main_v352 : Ref sig .tc := ⟨.hbm, 528, rfl⟩
abbrev main_v353 : Ref sig .tc := ⟨.hbm, 529, rfl⟩
abbrev main_v354 : Ref sig .tc := ⟨.hbm, 530, rfl⟩
abbrev main_v355 : Ref sig .tc := ⟨.hbm, 531, rfl⟩
abbrev main_v356 : Ref sig .tc := ⟨.hbm, 532, rfl⟩
abbrev main_v357 : Ref sig .tc := ⟨.hbm, 533, rfl⟩
abbrev main_v358 : Ref sig .tc := ⟨.hbm, 534, rfl⟩
abbrev main_call7_cst : Ref sig .tc := ⟨.hbm, 535, rfl⟩
abbrev main_call7_v0 : Ref sig .tc := ⟨.hbm, 536, rfl⟩
abbrev main_call7_cst_0 : Ref sig .tc := ⟨.hbm, 537, rfl⟩
abbrev main_call7_v1 : Ref sig .tc := ⟨.hbm, 538, rfl⟩
abbrev main_call7_v2 : Ref sig .tc := ⟨.hbm, 539, rfl⟩
abbrev main_call7_v3 : Ref sig .tc := ⟨.hbm, 540, rfl⟩
abbrev main_call7_v4 : Ref sig .tc := ⟨.hbm, 541, rfl⟩
abbrev main_call7_v5 : Ref sig .tc := ⟨.hbm, 542, rfl⟩
abbrev main_call7_v6 : Ref sig .tc := ⟨.hbm, 543, rfl⟩
abbrev main_call7_cst_1 : Ref sig .tc := ⟨.hbm, 544, rfl⟩
abbrev main_call7_v7 : Ref sig .tc := ⟨.hbm, 545, rfl⟩
abbrev main_call7_v8 : Ref sig .tc := ⟨.hbm, 546, rfl⟩
abbrev main_call7_v9 : Ref sig .tc := ⟨.hbm, 547, rfl⟩
abbrev main_call7_v10 : Ref sig .tc := ⟨.hbm, 548, rfl⟩
abbrev main_v359 : Ref sig .tc := ⟨.hbm, 549, rfl⟩
abbrev main_v360 : Ref sig .tc := ⟨.hbm, 550, rfl⟩
abbrev main_v361 : Ref sig .tc := ⟨.hbm, 551, rfl⟩
abbrev main_call8_c : Ref sig .tc := ⟨.hbm, 552, rfl⟩
abbrev main_call8_v0 : Ref sig .tc := ⟨.hbm, 553, rfl⟩
abbrev main_call8_v1 : Ref sig .tc := ⟨.hbm, 554, rfl⟩
abbrev main_call8_c_0 : Ref sig .tc := ⟨.hbm, 555, rfl⟩
abbrev main_call8_v2 : Ref sig .tc := ⟨.hbm, 556, rfl⟩
abbrev main_call8_v3 : Ref sig .tc := ⟨.hbm, 557, rfl⟩
abbrev main_call8_v4 : Ref sig .tc := ⟨.hbm, 558, rfl⟩
abbrev main_call8_v5 : Ref sig .tc := ⟨.hbm, 559, rfl⟩
abbrev main_call8_c_1 : Ref sig .tc := ⟨.hbm, 560, rfl⟩
abbrev main_call8_c_2 : Ref sig .tc := ⟨.hbm, 561, rfl⟩
abbrev main_call8_v6 : Ref sig .tc := ⟨.hbm, 562, rfl⟩
abbrev main_call8_v7 : Ref sig .tc := ⟨.hbm, 563, rfl⟩
abbrev main_call8_v8 : Ref sig .tc := ⟨.hbm, 564, rfl⟩
abbrev main_call8_v9 : Ref sig .tc := ⟨.hbm, 565, rfl⟩
abbrev main_call8_v10 : Ref sig .tc := ⟨.hbm, 566, rfl⟩
abbrev main_call8_v11 : Ref sig .tc := ⟨.hbm, 567, rfl⟩
abbrev main_call8_c_3 : Ref sig .tc := ⟨.hbm, 568, rfl⟩
abbrev main_call8_v12 : Ref sig .tc := ⟨.hbm, 569, rfl⟩
abbrev main_call8_v13 : Ref sig .tc := ⟨.hbm, 570, rfl⟩
abbrev main_call8_cst : Ref sig .tc := ⟨.hbm, 571, rfl⟩
abbrev main_call8_v14 : Ref sig .tc := ⟨.hbm, 572, rfl⟩
abbrev main_v362 : Ref sig .tc := ⟨.hbm, 573, rfl⟩
abbrev main_v363 : Ref sig .tc := ⟨.hbm, 574, rfl⟩
abbrev main_v364 : Ref sig .tc := ⟨.hbm, 575, rfl⟩
abbrev main_call9_c : Ref sig .tc := ⟨.hbm, 576, rfl⟩
abbrev main_call9_v0 : Ref sig .tc := ⟨.hbm, 577, rfl⟩
abbrev main_call9_v1 : Ref sig .tc := ⟨.hbm, 578, rfl⟩
abbrev main_call9_c_0 : Ref sig .tc := ⟨.hbm, 579, rfl⟩
abbrev main_call9_v2 : Ref sig .tc := ⟨.hbm, 580, rfl⟩
abbrev main_call9_v3 : Ref sig .tc := ⟨.hbm, 581, rfl⟩
abbrev main_call9_v4 : Ref sig .tc := ⟨.hbm, 582, rfl⟩
abbrev main_call9_v5 : Ref sig .tc := ⟨.hbm, 583, rfl⟩
abbrev main_call9_c_1 : Ref sig .tc := ⟨.hbm, 584, rfl⟩
abbrev main_call9_c_2 : Ref sig .tc := ⟨.hbm, 585, rfl⟩
abbrev main_call9_v6 : Ref sig .tc := ⟨.hbm, 586, rfl⟩
abbrev main_call9_v7 : Ref sig .tc := ⟨.hbm, 587, rfl⟩
abbrev main_call9_v8 : Ref sig .tc := ⟨.hbm, 588, rfl⟩
abbrev main_call9_v9 : Ref sig .tc := ⟨.hbm, 589, rfl⟩
abbrev main_call9_v10 : Ref sig .tc := ⟨.hbm, 590, rfl⟩
abbrev main_call9_v11 : Ref sig .tc := ⟨.hbm, 591, rfl⟩
abbrev main_call9_c_3 : Ref sig .tc := ⟨.hbm, 592, rfl⟩
abbrev main_call9_v12 : Ref sig .tc := ⟨.hbm, 593, rfl⟩
abbrev main_call9_v13 : Ref sig .tc := ⟨.hbm, 594, rfl⟩
abbrev main_call9_cst : Ref sig .tc := ⟨.hbm, 595, rfl⟩
abbrev main_call9_v14 : Ref sig .tc := ⟨.hbm, 596, rfl⟩
abbrev main_v365 : Ref sig .tc := ⟨.hbm, 597, rfl⟩
abbrev main_v366 : Ref sig .tc := ⟨.hbm, 598, rfl⟩
abbrev main_v367 : Ref sig .tc := ⟨.hbm, 599, rfl⟩
abbrev main_cst_99 : Ref sig .tc := ⟨.hbm, 600, rfl⟩
abbrev main_v368 : Ref sig .tc := ⟨.hbm, 601, rfl⟩
abbrev main_v369 : Ref sig .tc := ⟨.hbm, 602, rfl⟩
abbrev main_v370 : Ref sig .tc := ⟨.hbm, 603, rfl⟩
abbrev main_c_100 : Ref sig .tc := ⟨.hbm, 604, rfl⟩
abbrev main_v371 : Ref sig .tc := ⟨.hbm, 605, rfl⟩
abbrev main_v372 : Ref sig .tc := ⟨.hbm, 606, rfl⟩
abbrev main_c_101 : Ref sig .tc := ⟨.hbm, 607, rfl⟩
abbrev main_v373 : Ref sig .tc := ⟨.hbm, 608, rfl⟩
abbrev main_v374 : Ref sig .tc := ⟨.hbm, 609, rfl⟩
abbrev main_v375 : Ref sig .tc := ⟨.hbm, 610, rfl⟩
abbrev main_v376 : Ref sig .tc := ⟨.hbm, 611, rfl⟩
abbrev main_v377 : Ref sig .tc := ⟨.hbm, 612, rfl⟩
abbrev main_v378 : Ref sig .tc := ⟨.hbm, 613, rfl⟩
abbrev main_v379 : Ref sig .tc := ⟨.hbm, 614, rfl⟩
abbrev main_v380 : Ref sig .tc := ⟨.hbm, 615, rfl⟩
abbrev main_v381 : Ref sig .tc := ⟨.hbm, 616, rfl⟩
abbrev main_cst_102 : Ref sig .tc := ⟨.hbm, 617, rfl⟩
abbrev main_v382 : Ref sig .tc := ⟨.hbm, 618, rfl⟩
abbrev main_cst_103 : Ref sig .tc := ⟨.hbm, 619, rfl⟩
abbrev main_v383 : Ref sig .tc := ⟨.hbm, 620, rfl⟩
abbrev main_v384 : Ref sig .tc := ⟨.hbm, 621, rfl⟩
abbrev main_v385 : Ref sig .tc := ⟨.hbm, 622, rfl⟩
abbrev main_v386 : Ref sig .tc := ⟨.hbm, 623, rfl⟩
abbrev main_v387 : Ref sig .tc := ⟨.hbm, 624, rfl⟩
abbrev main_v388 : Ref sig .tc := ⟨.hbm, 625, rfl⟩
abbrev main_v389 : Ref sig .tc := ⟨.hbm, 626, rfl⟩
abbrev main_v390 : Ref sig .tc := ⟨.hbm, 627, rfl⟩
abbrev main_v391 : Ref sig .tc := ⟨.hbm, 628, rfl⟩
abbrev main_v392 : Ref sig .tc := ⟨.hbm, 629, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, v2.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c63_i32 : BitVec 32 := 63#32
  let v2 : BitVec 32 := Scalar.minsi v1 c63_i32
  let c0_i32 : BitVec 32 := 0#32
  let c0_i32_1 : BitVec 32 := 0#32
  let c0_i32_2 : BitVec 32 := 0#32
  let c0_i32_3 : BitVec 32 := 0#32
  ![arg0.toNat, c0_i32.toNat, v2.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x9x16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x16x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 2], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, v2.toNat, c0_i32_1.toNat, c0_i32_2.toNat]

def cc1_transform_2 (i : grid1.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c31_i32 : BitVec 32 := 31#32
  let v2 : BitVec 32 := Scalar.minsi v1 c31_i32
  let c0_i32 : BitVec 32 := 0#32
  let c0_i32_1 : BitVec 32 := 0#32
  let c0_i32_2 : BitVec 32 := 0#32
  let c0_i32_3 : BitVec 32 := 0#32
  ![arg0.toNat, c0_i32.toNat, v2.toNat, c0_i32_1.toNat, c0_i32_2.toNat]

def cc1_transform_3 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x9x16x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x9x1x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x9x1x32x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x3x16x32x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x9x16x64x64_S1x3x16x64x64_0_0_0_0_0 : ∀ a, (![0, 0, 0, 0, 0] : Fin 5 → Nat) a + S1x3x16x64x64.size a ≤ S1x9x16x64x64.size a
  h_S1x3x16x64x64 : 0 < S1x3x16x64x64.numel
  shapeCasts_S1x3x16x64x64_S3x16x64x64 : S1x3x16x64x64.ShapeCasts S3x16x64x64
  inb_S1x9x16x64x64_S1x3x16x64x64_0_3_0_0_0 : ∀ a, (![0, 3, 0, 0, 0] : Fin 5 → Nat) a + S1x3x16x64x64.size a ≤ S1x9x16x64x64.size a
  inb_S1x9x16x64x64_S1x3x16x64x64_0_6_0_0_0 : ∀ a, (![0, 6, 0, 0, 0] : Fin 5 → Nat) a + S1x3x16x64x64.size a ≤ S1x9x16x64x64.size a
  inb_S1x9x1x64x64_S1x3x1x64x64_0_0_0_0_0 : ∀ a, (![0, 0, 0, 0, 0] : Fin 5 → Nat) a + S1x3x1x64x64.size a ≤ S1x9x1x64x64.size a
  h_S1x3x1x64x64 : 0 < S1x3x1x64x64.numel
  shapeCasts_S1x3x1x64x64_S3x1x64x64 : S1x3x1x64x64.ShapeCasts S3x1x64x64
  inb_S1x9x1x64x64_S1x3x1x64x64_0_3_0_0_0 : ∀ a, (![0, 3, 0, 0, 0] : Fin 5 → Nat) a + S1x3x1x64x64.size a ≤ S1x9x1x64x64.size a
  inb_S1x9x1x64x64_S1x3x1x64x64_0_6_0_0_0 : ∀ a, (![0, 6, 0, 0, 0] : Fin 5 → Nat) a + S1x3x1x64x64.size a ≤ S1x9x1x64x64.size a
  inb_S3x18x64x64_S3x1x64x64_0_0_0_0 : ∀ a, (![0, 0, 0, 0] : Fin 4 → Nat) a + S3x1x64x64.size a ≤ S3x18x64x64.size a
  h_S3x1x64x64 : 0 < S3x1x64x64.numel
  shapeCasts_S3x1x64x64_S3x1x64x64 : S3x1x64x64.ShapeCasts S3x1x64x64
  inb_S3x18x64x64_S3x1x64x64_0_17_0_0 : ∀ a, (![0, 17, 0, 0] : Fin 4 → Nat) a + S3x1x64x64.size a ≤ S3x18x64x64.size a
  inb_S3x18x64x64_S3x16x64x64_0_1_0_0 : ∀ a, (![0, 1, 0, 0] : Fin 4 → Nat) a + S3x16x64x64.size a ≤ S3x18x64x64.size a
  h_S3x16x64x64 : 0 < S3x16x64x64.numel
  shapeCasts_S3x16x64x64_S3x16x64x64 : S3x16x64x64.ShapeCasts S3x16x64x64
  inb_S3x18x64x64_S3x16x64x64_0_0_0_0 : ∀ a, (![0, 0, 0, 0] : Fin 4 → Nat) a + S3x16x64x64.size a ≤ S3x18x64x64.size a
  inb_S3x18x64x64_S3x16x64x64_0_2_0_0 : ∀ a, (![0, 2, 0, 0] : Fin 4 → Nat) a + S3x16x64x64.size a ≤ S3x18x64x64.size a
  rotates_S3x16x64x64_d2 : S3x16x64x64.Rotates 2 none
  iota_S3x16x64x64_d2_w32 : S3x16x64x64.Iotas .tc 32 [2]
  rotates_S3x16x64x64_d3 : S3x16x64x64.Rotates 3 none
  iota_S3x16x64x64_d3_w32 : S3x16x64x64.Iotas .tc 32 [3]
  inb_S1x3x16x64x64_S1x3x16x64x64_0_0_0_0_0 : ∀ a, (![0, 0, 0, 0, 0] : Fin 5 → Nat) a + S1x3x16x64x64.size a ≤ S1x3x16x64x64.size a
  natLt_1_32 : 1 < 32
  reduces_S3x16x64x64_S16x64x64 : S3x16x64x64.Reduces [0] S16x64x64
  reduces_S16x64x64_S64x64 : S16x64x64.Reduces [0] S64x64
  reduces_S64x64_S64 : S64x64.Reduces [0] S64
  shapeCasts_S64_S1x64 : S64.ShapeCasts S1x64
  reduces_S1x64_S1 : S1x64.Reduces [1] S1
  shapeCasts_S1_S1x1 : S1.ShapeCasts S1x1
  inpos_S1x1_p0_0 : ∀ a, (![0, 0] : Fin 2 → Nat) a < S1x1.size a
  inb_S1x1x8x128_S1x1x8x128_0_0_0_0 : ∀ a, (![0, 0, 0, 0] : Fin 4 → Nat) a + S1x1x8x128.size a ≤ S1x1x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  slices_S4x4x8x128_S4x4x1x1_0_0_0_0 : S4x4x8x128.Slices ![0, 0, 0, 0] S4x4x1x1
  shapeCasts_S4x4x1x1_S4x4 : S4x4x1x1.ShapeCasts S4x4
  reducesTo_S4x4_S_d0_1 : S4x4.ReducesTo [0, 1] S_
  h_S_ : 0 < S_.numel
  inb_S1x9x16x32x32_S1x3x16x32x32_0_0_0_0_0 : ∀ a, (![0, 0, 0, 0, 0] : Fin 5 → Nat) a + S1x3x16x32x32.size a ≤ S1x9x16x32x32.size a
  h_S1x3x16x32x32 : 0 < S1x3x16x32x32.numel
  shapeCasts_S1x3x16x32x32_S3x16x32x32 : S1x3x16x32x32.ShapeCasts S3x16x32x32
  inb_S1x9x16x32x32_S1x3x16x32x32_0_3_0_0_0 : ∀ a, (![0, 3, 0, 0, 0] : Fin 5 → Nat) a + S1x3x16x32x32.size a ≤ S1x9x16x32x32.size a
  inb_S1x9x16x32x32_S1x3x16x32x32_0_6_0_0_0 : ∀ a, (![0, 6, 0, 0, 0] : Fin 5 → Nat) a + S1x3x16x32x32.size a ≤ S1x9x16x32x32.size a
  inb_S1x9x1x32x32_S1x3x1x32x32_0_0_0_0_0 : ∀ a, (![0, 0, 0, 0, 0] : Fin 5 → Nat) a + S1x3x1x32x32.size a ≤ S1x9x1x32x32.size a
  h_S1x3x1x32x32 : 0 < S1x3x1x32x32.numel
  shapeCasts_S1x3x1x32x32_S3x1x32x32 : S1x3x1x32x32.ShapeCasts S3x1x32x32
  inb_S1x9x1x32x32_S1x3x1x32x32_0_3_0_0_0 : ∀ a, (![0, 3, 0, 0, 0] : Fin 5 → Nat) a + S1x3x1x32x32.size a ≤ S1x9x1x32x32.size a
  inb_S1x9x1x32x32_S1x3x1x32x32_0_6_0_0_0 : ∀ a, (![0, 6, 0, 0, 0] : Fin 5 → Nat) a + S1x3x1x32x32.size a ≤ S1x9x1x32x32.size a
  inb_S3x18x32x32_S3x1x32x32_0_0_0_0 : ∀ a, (![0, 0, 0, 0] : Fin 4 → Nat) a + S3x1x32x32.size a ≤ S3x18x32x32.size a
  h_S3x1x32x32 : 0 < S3x1x32x32.numel
  shapeCasts_S3x1x32x32_S3x1x32x32 : S3x1x32x32.ShapeCasts S3x1x32x32
  inb_S3x18x32x32_S3x1x32x32_0_17_0_0 : ∀ a, (![0, 17, 0, 0] : Fin 4 → Nat) a + S3x1x32x32.size a ≤ S3x18x32x32.size a
  inb_S3x18x32x32_S3x16x32x32_0_1_0_0 : ∀ a, (![0, 1, 0, 0] : Fin 4 → Nat) a + S3x16x32x32.size a ≤ S3x18x32x32.size a
  h_S3x16x32x32 : 0 < S3x16x32x32.numel
  shapeCasts_S3x16x32x32_S3x16x32x32 : S3x16x32x32.ShapeCasts S3x16x32x32
  inb_S3x18x32x32_S3x16x32x32_0_0_0_0 : ∀ a, (![0, 0, 0, 0] : Fin 4 → Nat) a + S3x16x32x32.size a ≤ S3x18x32x32.size a
  inb_S3x18x32x32_S3x16x32x32_0_2_0_0 : ∀ a, (![0, 2, 0, 0] : Fin 4 → Nat) a + S3x16x32x32.size a ≤ S3x18x32x32.size a
  rotates_S3x16x32x32_d2 : S3x16x32x32.Rotates 2 none
  iota_S3x16x32x32_d2_w32 : S3x16x32x32.Iotas .tc 32 [2]
  rotates_S3x16x32x32_d3 : S3x16x32x32.Rotates 3 none
  iota_S3x16x32x32_d3_w32 : S3x16x32x32.Iotas .tc 32 [3]
  inb_S1x3x16x32x32_S1x3x16x32x32_0_0_0_0_0 : ∀ a, (![0, 0, 0, 0, 0] : Fin 5 → Nat) a + S1x3x16x32x32.size a ≤ S1x3x16x32x32.size a
  reduces_S3x16x32x32_S16x32x32 : S3x16x32x32.Reduces [0] S16x32x32
  reduces_S16x32x32_S32x32 : S16x32x32.Reduces [0] S32x32
  reduces_S32x32_S32 : S32x32.Reduces [0] S32
  shapeCasts_S32_S1x32 : S32.ShapeCasts S1x32
  reduces_S1x32_S1 : S1x32.Reduces [1] S1
  slices_S4x2x8x128_S4x2x1x1_0_0_0_0 : S4x2x8x128.Slices ![0, 0, 0, 0] S4x2x1x1
  shapeCasts_S4x2x1x1_S4x2 : S4x2x1x1.ShapeCasts S4x2
  reducesTo_S4x2_S_d0_1 : S4x2.ReducesTo [0, 1] S_
  slices_S4x128x4_S4x128x1_0_0_0 : S4x128x4.Slices ![0, 0, 0] S4x128x1
  shapeCasts_S4x128x1_S4x128 : S4x128x1.ShapeCasts S4x128
  bcast_S_S4x128 : S_.BroadcastsInDim S4x128 (![] : Fin 0 → Fin S4x128.rank)
  bcast_S4x128_S4x128x1_0_1 : S4x128.BroadcastsInDim S4x128x1 (![0, 1] : Fin 2 → Fin S4x128x1.rank)
  bcast_S4x128x1_S4x128x4_0_1_2 : S4x128x1.BroadcastsInDim S4x128x4 (![0, 1, 2] : Fin 3 → Fin S4x128x4.rank)
  bcast_S_S4x128x4 : S_.BroadcastsInDim S4x128x4 (![] : Fin 0 → Fin S4x128x4.rank)
  slices_S4x128x4_S4x128x1_0_0_1 : S4x128x4.Slices ![0, 0, 1] S4x128x1
  slices_S4x128x4_S4x128x1_0_0_2 : S4x128x4.Slices ![0, 0, 2] S4x128x1
  slices_S4x128x4_S4x128x1_0_0_3 : S4x128x4.Slices ![0, 0, 3] S4x128x1
  bcast_S4_S4x1_0 : S4.BroadcastsInDim S4x1 (![0] : Fin 1 → Fin S4x1.rank)
  bcast_S_S4x1 : S_.BroadcastsInDim S4x1 (![] : Fin 0 → Fin S4x1.rank)
  bcast_S4x1_S4x128_0_1 : S4x1.BroadcastsInDim S4x128 (![0, 1] : Fin 2 → Fin S4x128.rank)
  concatenates_S4x128x1_S4x128x1_S4x128x1_S4x128x1_S4x128x1_S4x128x5_d2 : Shape.Concatenates [S4x128x1, S4x128x1, S4x128x1, S4x128x1, S4x128x1] S4x128x5 2
  concatenates_S4x128x1_S4x128x1_S4x128x1_S4x128x3_d2 : Shape.Concatenates [S4x128x1, S4x128x1, S4x128x1] S4x128x3 2
  reducesTo_S4x128x3_S4x128_d2 : S4x128x3.ReducesTo [2] S4x128
  bcast_S4x128x1_S4x128x3_0_1_2 : S4x128x1.BroadcastsInDim S4x128x3 (![0, 1, 2] : Fin 3 → Fin S4x128x3.rank)
  bcast_S_S4x128x1 : S_.BroadcastsInDim S4x128x1 (![] : Fin 0 → Fin S4x128x1.rank)
  shapeCasts_S4x128x1_S4x128x1x1 : S4x128x1.ShapeCasts S4x128x1x1
  bcast_S_S4x128x1x1 : S_.BroadcastsInDim S4x128x1x1 (![] : Fin 0 → Fin S4x128x1x1.rank)
  bcast_S1_S1x1x1x1_3 : S1.BroadcastsInDim S1x1x1x1 (![3] : Fin 1 → Fin S1x1x1x1.rank)
  bcast_S1x1x1x1_S4x128x1x1_0_1_2_3 : S1x1x1x1.BroadcastsInDim S4x128x1x1 (![0, 1, 2, 3] : Fin 4 → Fin S4x128x1x1.rank)
  reducesTo_S4x128x1x1_S4x128x1_d3 : S4x128x1x1.ReducesTo [3] S4x128x1
  reducesTo_S4x128_S_d0_1 : S4x128.ReducesTo [0, 1] S_
  bcast_S_S1 : S_.BroadcastsInDim S1 (![] : Fin 0 → Fin S1.rank)
  concatenates_S1_S1_S1_S1_S4_d0 : Shape.Concatenates [S1, S1, S1, S1] S4 0
  gather_S4x3x64x64x64_S4x128x5_S4x128_n_01234_n_n_01234_2_11111_wf : GatherDims.WF S4x3x64x64x64 S4x128x5 S4x128 [] [0, 1, 2, 3, 4] [] [0, 1, 2, 3, 4] [] 2 ![1, 1, 1, 1, 1]
  gather_S4x9x64x64x64_S4x128x5_S4x128_n_01234_n_n_01234_2_11111_wf : GatherDims.WF S4x9x64x64x64 S4x128x5 S4x128 [] [0, 1, 2, 3, 4] [] [0, 1, 2, 3, 4] [] 2 ![1, 1, 1, 1, 1]
  gather_S4x128x3_S4x128x1x1_S4x128x1_n_2_01_01_2_3_111_wf : GatherDims.WF S4x128x3 S4x128x1x1 S4x128x1 [] [2] [0, 1] [2] [0, 1] 3 ![1, 1, 1]
  gather_S3_S4x128x1_S4x128_n_0_n_n_0_2_1_wf : GatherDims.WF S3 S4x128x1 S4x128 [] [0] [] [0] [] 2 ![1]
  gather_S4x3x32x32x32_S4x128x5_S4x128_n_01234_n_n_01234_2_11111_wf : GatherDims.WF S4x3x32x32x32 S4x128x5 S4x128 [] [0, 1, 2, 3, 4] [] [0, 1, 2, 3, 4] [] 2 ![1, 1, 1, 1, 1]
  gather_S4x9x32x32x32_S4x128x5_S4x128_n_01234_n_n_01234_2_11111_wf : GatherDims.WF S4x9x32x32x32 S4x128x5 S4x128 [] [0, 1, 2, 3, 4] [] [0, 1, 2, 3, 4] [] 2 ![1, 1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x16x64x64.size a ≤ S4x9x64x64x64.size a
  hwx0_0 : ∀ i : grid0.Coords, EltTy.bits .f32 = 32 ∨ (Rect.block (s := S4x9x64x64x64) S1x9x16x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9x1x64x64.size a ≤ S4x9x64x64x64.size a
  hwx0_1 : ∀ i : grid0.Coords, EltTy.bits .f32 = 32 ∨ (Rect.block (s := S4x9x64x64x64) S1x9x1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x9x1x64x64.size a ≤ S4x9x64x64x64.size a
  hwx0_2 : ∀ i : grid0.Coords, EltTy.bits .f32 = 32 ∨ (Rect.block (s := S4x9x64x64x64) S1x9x1x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x16x64x64.size a ≤ S4x3x64x64x64.size a
  hwx0_3 : ∀ i : grid0.Coords, EltTy.bits .f32 = 32 ∨ (Rect.block (s := S4x3x64x64x64) S1x3x16x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8x128.size a ≤ S4x4x8x128.size a
  hwx0_4 : ∀ i : grid0.Coords, EltTy.bits .f32 = 32 ∨ (Rect.block (s := S4x4x8x128) S1x1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8x128.size a ≤ S4x4x8x128.size a
  hwx0_5 : ∀ i : grid0.Coords, EltTy.bits .f32 = 32 ∨ (Rect.block (s := S4x4x8x128) S1x1x8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x9x16x32x32.size a ≤ S4x9x32x32x32.size a
  hwx1_0 : ∀ i : grid1.Coords, EltTy.bits .f32 = 32 ∨ (Rect.block (s := S4x9x32x32x32) S1x9x16x32x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x9x1x32x32.size a ≤ S4x9x32x32x32.size a
  hwx1_1 : ∀ i : grid1.Coords, EltTy.bits .f32 = 32 ∨ (Rect.block (s := S4x9x32x32x32) S1x9x1x32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x9x1x32x32.size a ≤ S4x9x32x32x32.size a
  hwx1_2 : ∀ i : grid1.Coords, EltTy.bits .f32 = 32 ∨ (Rect.block (s := S4x9x32x32x32) S1x9x1x32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x3x16x32x32.size a ≤ S4x3x32x32x32.size a
  hwx1_3 : ∀ i : grid1.Coords, EltTy.bits .f32 = 32 ∨ (Rect.block (s := S4x3x32x32x32) S1x3x16x32x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x8x128.size a ≤ S4x2x8x128.size a
  hwx1_4 : ∀ i : grid1.Coords, EltTy.bits .f32 = 32 ∨ (Rect.block (s := S4x2x8x128) S1x1x8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x8x128.size a ≤ S4x2x8x128.size a
  hwx1_5 : ∀ i : grid1.Coords, EltTy.bits .f32 = 32 ∨ (Rect.block (s := S4x2x8x128) S1x1x8x128.size (cc1_transform_5 i) (hinb1_5 i)).WholeWords (EltTy.packing .f32)

variable [Facts₀]

def gather_S4x3x64x64x64_S4x128x5_S4x128_n_01234_n_n_01234_2_11111 : GatherDims S4x3x64x64x64 S4x128x5 S4x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := gather_S4x3x64x64x64_S4x128x5_S4x128_n_01234_n_n_01234_2_11111_wf
def gather_S4x9x64x64x64_S4x128x5_S4x128_n_01234_n_n_01234_2_11111 : GatherDims S4x9x64x64x64 S4x128x5 S4x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := gather_S4x9x64x64x64_S4x128x5_S4x128_n_01234_n_n_01234_2_11111_wf
def gather_S4x128x3_S4x128x1x1_S4x128x1_n_2_01_01_2_3_111 : GatherDims S4x128x3 S4x128x1x1 S4x128x1 where
  offsetDims := []
  collapsedSliceDims := [2]
  operandBatchingDims := [0, 1]
  startIndicesBatchingDims := [0, 1]
  startIndexMap := [2]
  indexVectorDim := 3
  sliceSizes := ![1, 1, 1]
  wf := gather_S4x128x3_S4x128x1x1_S4x128x1_n_2_01_01_2_3_111_wf
def gather_S3_S4x128x1_S4x128_n_0_n_n_0_2_1 : GatherDims S3 S4x128x1 S4x128 where
  offsetDims := []
  collapsedSliceDims := [0]
  operandBatchingDims := []
  startIndicesBatchingDims := []
  startIndexMap := [0]
  indexVectorDim := 2
  sliceSizes := ![1]
  wf := gather_S3_S4x128x1_S4x128_n_0_n_n_0_2_1_wf
def gather_S4x3x32x32x32_S4x128x5_S4x128_n_01234_n_n_01234_2_11111 : GatherDims S4x3x32x32x32 S4x128x5 S4x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := gather_S4x3x32x32x32_S4x128x5_S4x128_n_01234_n_n_01234_2_11111_wf
def gather_S4x9x32x32x32_S4x128x5_S4x128_n_01234_n_n_01234_2_11111 : GatherDims S4x9x32x32x32 S4x128x5 S4x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := gather_S4x9x32x32x32_S4x128x5_S4x128_n_01234_n_n_01234_2_11111_wf

abbrev win0_0 : Pipeline.Window sig grid0 :=
  Pipeline.Window.ofSpec (Memref.whole main_arg0) S1x9x16x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x9x1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x9x1x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x3x16x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1x9x16x32x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x9x1x32x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x9x1x32x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x3x16x32x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S1x1x8x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S1x1x8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x9x64x64x64 : Shape := ⟨5, ![4, 9, 64, 64, 64]⟩
abbrev S4x9x32x32x32 : Shape := ⟨5, ![4, 9, 32, 32, 32]⟩
abbrev S4x3x64x64x64 : Shape := ⟨5, ![4, 3, 64, 64, 64]⟩
abbrev S4x3x32x32x32 : Shape := ⟨5, ![4, 3, 32, 32, 32]⟩
abbrev S4x128x4 : Shape := ⟨3, ![4, 128, 4]⟩
abbrev S3 : Shape := ⟨1, ![3]⟩
abbrev S4x3x3x64x64x64 : Shape := ⟨6, ![4, 3, 3, 64, 64, 64]⟩
abbrev S_ : Shape := ⟨0, ![]⟩
abbrev S4x1x3x64x64x64 : Shape := ⟨6, ![4, 1, 3, 64, 64, 64]⟩
abbrev S4x128x1 : Shape := ⟨3, ![4, 128, 1]⟩
abbrev S4x128 : Shape := ⟨2, ![4, 128]⟩
abbrev S4 : Shape := ⟨1, ![4]⟩
abbrev S4x1 : Shape := ⟨2, ![4, 1]⟩
abbrev S4x128x5 : Shape := ⟨3, ![4, 128, 5]⟩
abbrev S4x128x6 : Shape := ⟨3, ![4, 128, 6]⟩
abbrev S4x3x3x32x32x32 : Shape := ⟨6, ![4, 3, 3, 32, 32, 32]⟩
abbrev S4x1x3x32x32x32 : Shape := ⟨6, ![4, 1, 3, 32, 32, 32]⟩
abbrev S1 : Shape := ⟨1, ![1]⟩

abbrev nBuf : Space → Nat
  | .hbm => 484
  | .vmem => 0
  | .smem => 0
  | _ => 0

abbrev hbmTy0_0 (i : Nat) : BufTy := match i % 128 with
  | 0 => ⟨S4x9x64x64x64, .f32⟩
  | 1 => ⟨S4x9x32x32x32, .f32⟩
  | 2 => ⟨S4x3x64x64x64, .f32⟩
  | 3 => ⟨S4x3x32x32x32, .f32⟩
  | 4 => ⟨S4x128x4, .i32⟩
  | 5 => ⟨S4x128x4, .i32⟩
  | 6 => ⟨S3, .f32⟩
  | 7 => ⟨S4x3x3x64x64x64, .f32⟩
  | 8 => ⟨S_, .f32⟩
  | 9 => ⟨S4x3x64x64x64, .f32⟩
  | 10 => ⟨S_, .f32⟩
  | 11 => ⟨S4x3x64x64x64, .f32⟩
  | 12 => ⟨S4x3x64x64x64, .f32⟩
  | 13 => ⟨S4x1x3x64x64x64, .f32⟩
  | 14 => ⟨S4x3x3x64x64x64, .f32⟩
  | 15 => ⟨S4x3x3x64x64x64, .f32⟩
  | 16 => ⟨S4x3x3x64x64x64, .f32⟩
  | 17 => ⟨S_, .f32⟩
  | 18 => ⟨S4x3x64x64x64, .f32⟩
  | 19 => ⟨S4x1x3x64x64x64, .f32⟩
  | 20 => ⟨S4x1x3x64x64x64, .f32⟩
  | 21 => ⟨S4x3x3x64x64x64, .f32⟩
  | 22 => ⟨S4x3x3x64x64x64, .f32⟩
  | 23 => ⟨S4x3x3x64x64x64, .f32⟩
  | 24 => ⟨S4x3x3x64x64x64, .f32⟩
  | 25 => ⟨S4x1x3x64x64x64, .f32⟩
  | 26 => ⟨S4x3x64x64x64, .f32⟩
  | 27 => ⟨S4x1x3x64x64x64, .f32⟩
  | 28 => ⟨S4x3x64x64x64, .f32⟩
  | 29 => ⟨S_, .f32⟩
  | 30 => ⟨S4x3x64x64x64, .f32⟩
  | 31 => ⟨S4x3x64x64x64, .i1⟩
  | 32 => ⟨S4x3x64x64x64, .f32⟩
  | 33 => ⟨S_, .f32⟩
  | 34 => ⟨S_, .f32⟩
  | 35 => ⟨S4x3x64x64x64, .f32⟩
  | 36 => ⟨S4x3x64x64x64, .i1⟩
  | 37 => ⟨S4x3x64x64x64, .f32⟩
  | 38 => ⟨S4x3x64x64x64, .f32⟩
  | 39 => ⟨S_, .f32⟩
  | 40 => ⟨S4x3x64x64x64, .f32⟩
  | 41 => ⟨S4x3x64x64x64, .f32⟩
  | 42 => ⟨S4x3x64x64x64, .f32⟩
  | 43 => ⟨S4x3x64x64x64, .f32⟩
  | 44 => ⟨S4x3x64x64x64, .f32⟩
  | 45 => ⟨S_, .f32⟩
  | 46 => ⟨S_, .f32⟩
  | 47 => ⟨S_, .f32⟩
  | 48 => ⟨S_, .f32⟩
  | 49 => ⟨S4x128x1, .i32⟩
  | 50 => ⟨S4x128, .i32⟩
  | 51 => ⟨S_, .i32⟩
  | 52 => ⟨S4x128, .i32⟩
  | 53 => ⟨S4x128, .i1⟩
  | 54 => ⟨S4x128x1, .i1⟩
  | 55 => ⟨S_, .i32⟩
  | 56 => ⟨S_, .i32⟩
  | 57 => ⟨S4x128x4, .i1⟩
  | 58 => ⟨S4x128x4, .i32⟩
  | 59 => ⟨S4x128x4, .i32⟩
  | 60 => ⟨S4x128x1, .i32⟩
  | 61 => ⟨S4x128, .i32⟩
  | 62 => ⟨S4x128x1, .i32⟩
  | 63 => ⟨S4x128, .i32⟩
  | 64 => ⟨S4x128x1, .i32⟩
  | 65 => ⟨S4x128, .i32⟩
  | 66 => ⟨S4x128x1, .i32⟩
  | 67 => ⟨S4x128, .i32⟩
  | 68 => ⟨S4, .i32⟩
  | 69 => ⟨S4x1, .i32⟩
  | 70 => ⟨S_, .i32⟩
  | 71 => ⟨S4x1, .i32⟩
  | 72 => ⟨S4x1, .i1⟩
  | 73 => ⟨S_, .i32⟩
  | 74 => ⟨S4x1, .i32⟩
  | 75 => ⟨S4x1, .i32⟩
  | 76 => ⟨S4x1, .i32⟩
  | 77 => ⟨S_, .i32⟩
  | 78 => ⟨S4x128, .i32⟩
  | 79 => ⟨S4x128, .i1⟩
  | 80 => ⟨S_, .i32⟩
  | 81 => ⟨S4x128, .i32⟩
  | 82 => ⟨S4x128, .i32⟩
  | 83 => ⟨S4x128, .i32⟩
  | 84 => ⟨S_, .i32⟩
  | 85 => ⟨S4x128, .i32⟩
  | 86 => ⟨S4x128, .i1⟩
  | 87 => ⟨S_, .i32⟩
  | 88 => ⟨S4x128, .i32⟩
  | 89 => ⟨S4x128, .i32⟩
  | 90 => ⟨S4x128, .i32⟩
  | 91 => ⟨S_, .i32⟩
  | 92 => ⟨S4x128, .i32⟩
  | 93 => ⟨S4x128, .i1⟩
  | 94 => ⟨S_, .i32⟩
  | 95 => ⟨S4x128, .i32⟩
  | 96 => ⟨S4x128, .i32⟩
  | 97 => ⟨S4x128, .i32⟩
  | 98 => ⟨S_, .i32⟩
  | 99 => ⟨S4x128, .i32⟩
  | 100 => ⟨S4x128, .i1⟩
  | 101 => ⟨S_, .i32⟩
  | 102 => ⟨S4x128, .i32⟩
  | 103 => ⟨S4x128, .i32⟩
  | 104 => ⟨S4x128, .i32⟩
  | 105 => ⟨S4x128, .i32⟩
  | 106 => ⟨S4x128x1, .i32⟩
  | 107 => ⟨S4x128x1, .i32⟩
  | 108 => ⟨S4x128x1, .i32⟩
  | 109 => ⟨S4x128x1, .i32⟩
  | 110 => ⟨S4x128x1, .i32⟩
  | 111 => ⟨S4x128x5, .i32⟩
  | 112 => ⟨S4x128, .f32⟩
  | 113 => ⟨S4x128, .i32⟩
  | 114 => ⟨S_, .i32⟩
  | 115 => ⟨S_, .i32⟩
  | 116 => ⟨S4x128, .i32⟩
  | 117 => ⟨S4x128, .i32⟩
  | 118 => ⟨S_, .i32⟩
  | 119 => ⟨S4x1, .i32⟩
  | 120 => ⟨S4x1, .i1⟩
  | 121 => ⟨S_, .i32⟩
  | 122 => ⟨S4x1, .i32⟩
  | 123 => ⟨S4x1, .i32⟩
  | 124 => ⟨S4x1, .i32⟩
  | 125 => ⟨S_, .i32⟩
  | 126 => ⟨S4x128, .i32⟩
  | 127 => ⟨S4x128, .i1⟩
  | _ => ⟨S4x9x64x64x64, .f32⟩

abbrev hbmTy0_1 (i : Nat) : BufTy := match i % 128 with
  | 0 => ⟨S_, .i32⟩
  | 1 => ⟨S4x128, .i32⟩
  | 2 => ⟨S4x128, .i32⟩
  | 3 => ⟨S4x128, .i32⟩
  | 4 => ⟨S_, .i32⟩
  | 5 => ⟨S4x128, .i32⟩
  | 6 => ⟨S4x128, .i1⟩
  | 7 => ⟨S_, .i32⟩
  | 8 => ⟨S4x128, .i32⟩
  | 9 => ⟨S4x128, .i32⟩
  | 10 => ⟨S4x128, .i32⟩
  | 11 => ⟨S_, .i32⟩
  | 12 => ⟨S4x128, .i32⟩
  | 13 => ⟨S4x128, .i1⟩
  | 14 => ⟨S_, .i32⟩
  | 15 => ⟨S4x128, .i32⟩
  | 16 => ⟨S4x128, .i32⟩
  | 17 => ⟨S4x128, .i32⟩
  | 18 => ⟨S_, .i32⟩
  | 19 => ⟨S4x128, .i32⟩
  | 20 => ⟨S4x128, .i1⟩
  | 21 => ⟨S_, .i32⟩
  | 22 => ⟨S4x128, .i32⟩
  | 23 => ⟨S4x128, .i32⟩
  | 24 => ⟨S4x128, .i32⟩
  | 25 => ⟨S_, .i32⟩
  | 26 => ⟨S4x128, .i32⟩
  | 27 => ⟨S4x128, .i1⟩
  | 28 => ⟨S_, .i32⟩
  | 29 => ⟨S4x128, .i32⟩
  | 30 => ⟨S4x128, .i32⟩
  | 31 => ⟨S4x128, .i32⟩
  | 32 => ⟨S4x128, .i32⟩
  | 33 => ⟨S4x128x1, .i32⟩
  | 34 => ⟨S4x128x1, .i32⟩
  | 35 => ⟨S4x128x1, .i32⟩
  | 36 => ⟨S4x128x1, .i32⟩
  | 37 => ⟨S4x128x1, .i32⟩
  | 38 => ⟨S4x128x1, .i32⟩
  | 39 => ⟨S4x128x6, .i32⟩
  | 40 => ⟨S4x128, .f32⟩
  | 41 => ⟨S_, .i32⟩
  | 42 => ⟨S4x1, .i32⟩
  | 43 => ⟨S4x1, .i1⟩
  | 44 => ⟨S_, .i32⟩
  | 45 => ⟨S4x1, .i32⟩
  | 46 => ⟨S4x1, .i32⟩
  | 47 => ⟨S4x1, .i32⟩
  | 48 => ⟨S_, .i32⟩
  | 49 => ⟨S4x128, .i32⟩
  | 50 => ⟨S4x128, .i1⟩
  | 51 => ⟨S_, .i32⟩
  | 52 => ⟨S4x128, .i32⟩
  | 53 => ⟨S4x128, .i32⟩
  | 54 => ⟨S4x128, .i32⟩
  | 55 => ⟨S_, .i32⟩
  | 56 => ⟨S4x128, .i32⟩
  | 57 => ⟨S4x128, .i1⟩
  | 58 => ⟨S_, .i32⟩
  | 59 => ⟨S4x128, .i32⟩
  | 60 => ⟨S4x128, .i32⟩
  | 61 => ⟨S4x128, .i32⟩
  | 62 => ⟨S_, .i32⟩
  | 63 => ⟨S4x128, .i32⟩
  | 64 => ⟨S4x128, .i1⟩
  | 65 => ⟨S_, .i32⟩
  | 66 => ⟨S4x128, .i32⟩
  | 67 => ⟨S4x128, .i32⟩
  | 68 => ⟨S4x128, .i32⟩
  | 69 => ⟨S_, .i32⟩
  | 70 => ⟨S4x128, .i32⟩
  | 71 => ⟨S4x128, .i1⟩
  | 72 => ⟨S_, .i32⟩
  | 73 => ⟨S4x128, .i32⟩
  | 74 => ⟨S4x128, .i32⟩
  | 75 => ⟨S4x128, .i32⟩
  | 76 => ⟨S_, .i32⟩
  | 77 => ⟨S4x128, .i32⟩
  | 78 => ⟨S4x128, .i1⟩
  | 79 => ⟨S_, .i32⟩
  | 80 => ⟨S4x128, .i32⟩
  | 81 => ⟨S4x128, .i32⟩
  | 82 => ⟨S4x128, .i32⟩
  | 83 => ⟨S4x128, .i32⟩
  | 84 => ⟨S4x128x1, .i32⟩
  | 85 => ⟨S4x128x1, .i32⟩
  | 86 => ⟨S4x128x1, .i32⟩
  | 87 => ⟨S4x128x1, .i32⟩
  | 88 => ⟨S4x128x1, .i32⟩
  | 89 => ⟨S4x128x1, .i32⟩
  | 90 => ⟨S4x128x6, .i32⟩
  | 91 => ⟨S4x128, .f32⟩
  | 92 => ⟨S_, .f32⟩
  | 93 => ⟨S4x128, .f32⟩
  | 94 => ⟨S4x128, .f32⟩
  | 95 => ⟨S4x128, .f32⟩
  | 96 => ⟨S_, .i32⟩
  | 97 => ⟨S4x128, .i32⟩
  | 98 => ⟨S4x128, .i1⟩
  | 99 => ⟨S_, .i32⟩
  | 100 => ⟨S4x128, .i32⟩
  | 101 => ⟨S4x128, .i32⟩
  | 102 => ⟨S4x128, .i32⟩
  | 103 => ⟨S4x128x1, .i32⟩
  | 104 => ⟨S4x128, .f32⟩
  | 105 => ⟨S4x128, .f32⟩
  | 106 => ⟨S4x128, .f32⟩
  | 107 => ⟨S4x128, .f32⟩
  | 108 => ⟨S4x128, .f32⟩
  | 109 => ⟨S_, .f32⟩
  | 110 => ⟨S_, .f32⟩
  | 111 => ⟨S_, .f32⟩
  | 112 => ⟨S_, .f32⟩
  | 113 => ⟨S4x3x3x32x32x32, .f32⟩
  | 114 => ⟨S_, .f32⟩
  | 115 => ⟨S4x3x32x32x32, .f32⟩
  | 116 => ⟨S_, .f32⟩
  | 117 => ⟨S4x3x32x32x32, .f32⟩
  | 118 => ⟨S4x3x32x32x32, .f32⟩
  | 119 => ⟨S4x1x3x32x32x32, .f32⟩
  | 120 => ⟨S4x3x3x32x32x32, .f32⟩
  | 121 => ⟨S4x3x3x32x32x32, .f32⟩
  | 122 => ⟨S4x3x3x32x32x32, .f32⟩
  | 123 => ⟨S_, .f32⟩
  | 124 => ⟨S4x3x32x32x32, .f32⟩
  | 125 => ⟨S4x1x3x32x32x32, .f32⟩
  | 126 => ⟨S4x1x3x32x32x32, .f32⟩
  | 127 => ⟨S4x3x3x32x32x32, .f32⟩
  | _ => ⟨S4x9x64x64x64, .f32⟩

abbrev hbmTy0_2 (i : Nat) : BufTy := match i % 128 with
  | 0 => ⟨S4x3x3x32x32x32, .f32⟩
  | 1 => ⟨S4x3x3x32x32x32, .f32⟩
  | 2 => ⟨S4x3x3x32x32x32, .f32⟩
  | 3 => ⟨S4x1x3x32x32x32, .f32⟩
  | 4 => ⟨S4x3x32x32x32, .f32⟩
  | 5 => ⟨S4x1x3x32x32x32, .f32⟩
  | 6 => ⟨S4x3x32x32x32, .f32⟩
  | 7 => ⟨S_, .f32⟩
  | 8 => ⟨S4x3x32x32x32, .f32⟩
  | 9 => ⟨S4x3x32x32x32, .i1⟩
  | 10 => ⟨S4x3x32x32x32, .f32⟩
  | 11 => ⟨S_, .f32⟩
  | 12 => ⟨S_, .f32⟩
  | 13 => ⟨S4x3x32x32x32, .f32⟩
  | 14 => ⟨S4x3x32x32x32, .i1⟩
  | 15 => ⟨S4x3x32x32x32, .f32⟩
  | 16 => ⟨S4x3x32x32x32, .f32⟩
  | 17 => ⟨S_, .f32⟩
  | 18 => ⟨S4x3x32x32x32, .f32⟩
  | 19 => ⟨S4x3x32x32x32, .f32⟩
  | 20 => ⟨S4x3x32x32x32, .f32⟩
  | 21 => ⟨S4x3x32x32x32, .f32⟩
  | 22 => ⟨S4x3x32x32x32, .f32⟩
  | 23 => ⟨S_, .f32⟩
  | 24 => ⟨S_, .f32⟩
  | 25 => ⟨S_, .f32⟩
  | 26 => ⟨S_, .f32⟩
  | 27 => ⟨S4x128x1, .i32⟩
  | 28 => ⟨S4x128, .i32⟩
  | 29 => ⟨S_, .i32⟩
  | 30 => ⟨S4x128, .i32⟩
  | 31 => ⟨S4x128, .i1⟩
  | 32 => ⟨S4x128x1, .i1⟩
  | 33 => ⟨S_, .i32⟩
  | 34 => ⟨S_, .i32⟩
  | 35 => ⟨S4x128x4, .i1⟩
  | 36 => ⟨S4x128x4, .i32⟩
  | 37 => ⟨S4x128x4, .i32⟩
  | 38 => ⟨S4x128x1, .i32⟩
  | 39 => ⟨S4x128, .i32⟩
  | 40 => ⟨S4x128x1, .i32⟩
  | 41 => ⟨S4x128, .i32⟩
  | 42 => ⟨S4x128x1, .i32⟩
  | 43 => ⟨S4x128, .i32⟩
  | 44 => ⟨S4x128x1, .i32⟩
  | 45 => ⟨S4x128, .i32⟩
  | 46 => ⟨S4, .i32⟩
  | 47 => ⟨S4x1, .i32⟩
  | 48 => ⟨S_, .i32⟩
  | 49 => ⟨S4x1, .i32⟩
  | 50 => ⟨S4x1, .i1⟩
  | 51 => ⟨S_, .i32⟩
  | 52 => ⟨S4x1, .i32⟩
  | 53 => ⟨S4x1, .i32⟩
  | 54 => ⟨S4x1, .i32⟩
  | 55 => ⟨S_, .i32⟩
  | 56 => ⟨S4x128, .i32⟩
  | 57 => ⟨S4x128, .i1⟩
  | 58 => ⟨S_, .i32⟩
  | 59 => ⟨S4x128, .i32⟩
  | 60 => ⟨S4x128, .i32⟩
  | 61 => ⟨S4x128, .i32⟩
  | 62 => ⟨S_, .i32⟩
  | 63 => ⟨S4x128, .i32⟩
  | 64 => ⟨S4x128, .i1⟩
  | 65 => ⟨S_, .i32⟩
  | 66 => ⟨S4x128, .i32⟩
  | 67 => ⟨S4x128, .i32⟩
  | 68 => ⟨S4x128, .i32⟩
  | 69 => ⟨S_, .i32⟩
  | 70 => ⟨S4x128, .i32⟩
  | 71 => ⟨S4x128, .i1⟩
  | 72 => ⟨S_, .i32⟩
  | 73 => ⟨S4x128, .i32⟩
  | 74 => ⟨S4x128, .i32⟩
  | 75 => ⟨S4x128, .i32⟩
  | 76 => ⟨S_, .i32⟩
  | 77 => ⟨S4x128, .i32⟩
  | 78 => ⟨S4x128, .i1⟩
  | 79 => ⟨S_, .i32⟩
  | 80 => ⟨S4x128, .i32⟩
  | 81 => ⟨S4x128, .i32⟩
  | 82 => ⟨S4x128, .i32⟩
  | 83 => ⟨S4x128, .i32⟩
  | 84 => ⟨S4x128x1, .i32⟩
  | 85 => ⟨S4x128x1, .i32⟩
  | 86 => ⟨S4x128x1, .i32⟩
  | 87 => ⟨S4x128x1, .i32⟩
  | 88 => ⟨S4x128x1, .i32⟩
  | 89 => ⟨S4x128x5, .i32⟩
  | 90 => ⟨S4x128, .f32⟩
  | 91 => ⟨S4x128, .i32⟩
  | 92 => ⟨S_, .i32⟩
  | 93 => ⟨S_, .i32⟩
  | 94 => ⟨S4x128, .i32⟩
  | 95 => ⟨S4x128, .i32⟩
  | 96 => ⟨S_, .i32⟩
  | 97 => ⟨S4x1, .i32⟩
  | 98 => ⟨S4x1, .i1⟩
  | 99 => ⟨S_, .i32⟩
  | 100 => ⟨S4x1, .i32⟩
  | 101 => ⟨S4x1, .i32⟩
  | 102 => ⟨S4x1, .i32⟩
  | 103 => ⟨S_, .i32⟩
  | 104 => ⟨S4x128, .i32⟩
  | 105 => ⟨S4x128, .i1⟩
  | 106 => ⟨S_, .i32⟩
  | 107 => ⟨S4x128, .i32⟩
  | 108 => ⟨S4x128, .i32⟩
  | 109 => ⟨S4x128, .i32⟩
  | 110 => ⟨S_, .i32⟩
  | 111 => ⟨S4x128, .i32⟩
  | 112 => ⟨S4x128, .i1⟩
  | 113 => ⟨S_, .i32⟩
  | 114 => ⟨S4x128, .i32⟩
  | 115 => ⟨S4x128, .i32⟩
  | 116 => ⟨S4x128, .i32⟩
  | 117 => ⟨S_, .i32⟩
  | 118 => ⟨S4x128, .i32⟩
  | 119 => ⟨S4x128, .i1⟩
  | 120 => ⟨S_, .i32⟩
  | 121 => ⟨S4x128, .i32⟩
  | 122 => ⟨S4x128, .i32⟩
  | 123 => ⟨S4x128, .i32⟩
  | 124 => ⟨S_, .i32⟩
  | 125 => ⟨S4x128, .i32⟩
  | 126 => ⟨S4x128, .i1⟩
  | 127 => ⟨S_, .i32⟩
  | _ => ⟨S4x9x64x64x64, .f32⟩

abbrev hbmTy0_3 (i : Nat) : BufTy := match i % 128 with
  | 0 => ⟨S4x128, .i32⟩
  | 1 => ⟨S4x128, .i32⟩
  | 2 => ⟨S4x128, .i32⟩
  | 3 => ⟨S_, .i32⟩
  | 4 => ⟨S4x128, .i32⟩
  | 5 => ⟨S4x128, .i1⟩
  | 6 => ⟨S_, .i32⟩
  | 7 => ⟨S4x128, .i32⟩
  | 8 => ⟨S4x128, .i32⟩
  | 9 => ⟨S4x128, .i32⟩
  | 10 => ⟨S4x128, .i32⟩
  | 11 => ⟨S4x128x1, .i32⟩
  | 12 => ⟨S4x128x1, .i32⟩
  | 13 => ⟨S4x128x1, .i32⟩
  | 14 => ⟨S4x128x1, .i32⟩
  | 15 => ⟨S4x128x1, .i32⟩
  | 16 => ⟨S4x128x1, .i32⟩
  | 17 => ⟨S4x128x6, .i32⟩
  | 18 => ⟨S4x128, .f32⟩
  | 19 => ⟨S_, .i32⟩
  | 20 => ⟨S4x1, .i32⟩
  | 21 => ⟨S4x1, .i1⟩
  | 22 => ⟨S_, .i32⟩
  | 23 => ⟨S4x1, .i32⟩
  | 24 => ⟨S4x1, .i32⟩
  | 25 => ⟨S4x1, .i32⟩
  | 26 => ⟨S_, .i32⟩
  | 27 => ⟨S4x128, .i32⟩
  | 28 => ⟨S4x128, .i1⟩
  | 29 => ⟨S_, .i32⟩
  | 30 => ⟨S4x128, .i32⟩
  | 31 => ⟨S4x128, .i32⟩
  | 32 => ⟨S4x128, .i32⟩
  | 33 => ⟨S_, .i32⟩
  | 34 => ⟨S4x128, .i32⟩
  | 35 => ⟨S4x128, .i1⟩
  | 36 => ⟨S_, .i32⟩
  | 37 => ⟨S4x128, .i32⟩
  | 38 => ⟨S4x128, .i32⟩
  | 39 => ⟨S4x128, .i32⟩
  | 40 => ⟨S_, .i32⟩
  | 41 => ⟨S4x128, .i32⟩
  | 42 => ⟨S4x128, .i1⟩
  | 43 => ⟨S_, .i32⟩
  | 44 => ⟨S4x128, .i32⟩
  | 45 => ⟨S4x128, .i32⟩
  | 46 => ⟨S4x128, .i32⟩
  | 47 => ⟨S_, .i32⟩
  | 48 => ⟨S4x128, .i32⟩
  | 49 => ⟨S4x128, .i1⟩
  | 50 => ⟨S_, .i32⟩
  | 51 => ⟨S4x128, .i32⟩
  | 52 => ⟨S4x128, .i32⟩
  | 53 => ⟨S4x128, .i32⟩
  | 54 => ⟨S_, .i32⟩
  | 55 => ⟨S4x128, .i32⟩
  | 56 => ⟨S4x128, .i1⟩
  | 57 => ⟨S_, .i32⟩
  | 58 => ⟨S4x128, .i32⟩
  | 59 => ⟨S4x128, .i32⟩
  | 60 => ⟨S4x128, .i32⟩
  | 61 => ⟨S4x128, .i32⟩
  | 62 => ⟨S4x128x1, .i32⟩
  | 63 => ⟨S4x128x1, .i32⟩
  | 64 => ⟨S4x128x1, .i32⟩
  | 65 => ⟨S4x128x1, .i32⟩
  | 66 => ⟨S4x128x1, .i32⟩
  | 67 => ⟨S4x128x1, .i32⟩
  | 68 => ⟨S4x128x6, .i32⟩
  | 69 => ⟨S4x128, .f32⟩
  | 70 => ⟨S_, .f32⟩
  | 71 => ⟨S4x128, .f32⟩
  | 72 => ⟨S4x128, .f32⟩
  | 73 => ⟨S4x128, .f32⟩
  | 74 => ⟨S_, .i32⟩
  | 75 => ⟨S4x128, .i32⟩
  | 76 => ⟨S4x128, .i1⟩
  | 77 => ⟨S_, .i32⟩
  | 78 => ⟨S4x128, .i32⟩
  | 79 => ⟨S4x128, .i32⟩
  | 80 => ⟨S4x128, .i32⟩
  | 81 => ⟨S4x128x1, .i32⟩
  | 82 => ⟨S4x128, .f32⟩
  | 83 => ⟨S4x128, .f32⟩
  | 84 => ⟨S4x128, .f32⟩
  | 85 => ⟨S4x128, .f32⟩
  | 86 => ⟨S4x128, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S1, .f32⟩
  | 96 => ⟨S1, .f32⟩
  | 97 => ⟨S1, .f32⟩
  | 98 => ⟨S1, .f32⟩
  | 99 => ⟨S4, .f32⟩
  | _ => ⟨S4x9x64x64x64, .f32⟩

abbrev hbmTy (i : Nat) : BufTy := match i / 128 with
  | 0 => hbmTy0_0 i
  | 1 => hbmTy0_1 i
  | 2 => hbmTy0_2 i
  | 3 => hbmTy0_3 i
  | _ => ⟨S4x9x64x64x64, .f32⟩

abbrev bufTy : (tb : Table) → Fin (tcTables nBuf tb) → BufTy
  | .hbm, ⟨i, _⟩ => hbmTy i
  | _, _ => ⟨S4x9x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_5 : Ref sig .tc := ⟨.hbm, 70, rfl⟩
abbrev main_v39 : Ref sig .tc := ⟨.hbm, 71, rfl⟩
abbrev main_v40 : Ref sig .tc := ⟨.hbm, 72, rfl⟩
abbrev main_c_6 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_7 : Ref sig .tc := ⟨.hbm, 77, rfl⟩
abbrev main_v44 : Ref sig .tc := ⟨.hbm, 78, rfl⟩
abbrev main_v45 : Ref sig .tc := ⟨.hbm, 79, rfl⟩
abbrev main_c_8 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_9 : Ref sig .tc := ⟨.hbm, 84, rfl⟩
abbrev main_v49 : Ref sig .tc := ⟨.hbm, 85, rfl⟩
abbrev main_v50 : Ref sig .tc := ⟨.hbm, 86, rfl⟩
abbrev main_c_10 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_c_12 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_c_13 : Ref sig .tc := ⟨.hbm, 98, rfl⟩
abbrev main_v59 : Ref sig .tc := ⟨.hbm, 99, rfl⟩
abbrev main_v60 : Ref sig .tc := ⟨.hbm, 100, rfl⟩
abbrev main_c_14 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_15 : Ref sig .tc := ⟨.hbm, 114, rfl⟩
abbrev main_call2_v0 : Ref sig .tc := ⟨.hbm, 115, rfl⟩
abbrev main_call2_v1 : Ref sig .tc := ⟨.hbm, 116, rfl⟩
abbrev main_v73 : Ref sig .tc := ⟨.hbm, 117, rfl⟩
abbrev main_c_16 : Ref sig .tc := ⟨.hbm, 118, rfl⟩
abbrev main_v74 : Ref sig .tc := ⟨.hbm, 119, rfl⟩
abbrev main_v75 : Ref sig .tc := ⟨.hbm, 120, rfl⟩
abbrev main_c_17 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c_18 : Ref sig .tc := ⟨.hbm, 125, rfl⟩
abbrev main_v79 : Ref sig .tc := ⟨.hbm, 126, rfl⟩
abbrev main_v80 : Ref sig .tc := ⟨.hbm, 127, rfl⟩
abbrev main_c_19 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_c_20 : Ref sig .tc := ⟨.hbm, 132, rfl⟩
abbrev main_v84 : Ref sig .tc := ⟨.hbm, 133, rfl⟩
abbrev main_v85 : Ref sig .tc := ⟨.hbm, 134, rfl⟩
abbrev main_c_21 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_c_22 : Ref sig .tc := ⟨.hbm, 139, rfl⟩
abbrev main_v89 : Ref sig .tc := ⟨.hbm, 140, rfl⟩
abbrev main_v90 : Ref sig .tc := ⟨.hbm, 141, rfl⟩
abbrev main_c_23 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_c_24 : Ref sig .tc := ⟨.hbm, 146, rfl⟩
abbrev main_v94 : Ref sig .tc := ⟨.hbm, 147, rfl⟩
abbrev main_v95 : Ref sig .tc := ⟨.hbm, 148, rfl⟩
abbrev main_c_25 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_c_26 : Ref sig .tc := ⟨.hbm, 153, rfl⟩
abbrev main_v99 : Ref sig .tc := ⟨.hbm, 154, rfl⟩
abbrev main_v100 : Ref sig .tc := ⟨.hbm, 155, rfl⟩
abbrev main_c_27 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_c_28 : Ref sig .tc := ⟨.hbm, 169, rfl⟩
abbrev main_v113 : Ref sig .tc := ⟨.hbm, 170, rfl⟩
abbrev main_v114 : Ref sig .tc := ⟨.hbm, 171, rfl⟩
abbrev main_c_29 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_c_30 : Ref sig .tc := ⟨.hbm, 176, rfl⟩
abbrev main_v118 : Ref sig .tc := ⟨.hbm, 177, rfl⟩
abbrev main_v119 : Ref sig .tc := ⟨.hbm, 178, rfl⟩
abbrev main_c_31 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_c_32 : Ref sig .tc := ⟨.hbm, 183, rfl⟩
abbrev main_v123 : Ref sig .tc := ⟨.hbm, 184, rfl⟩
abbrev main_v124 : Ref sig .tc := ⟨.hbm, 185, rfl⟩
abbrev main_c_33 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_c_34 : Ref sig .tc := ⟨.hbm, 190, rfl⟩
abbrev main_v128 : Ref sig .tc := ⟨.hbm, 191, rfl⟩
abbrev main_v129 : Ref sig .tc := ⟨.hbm, 192, rfl⟩
abbrev main_c_35 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_c_36 : Ref sig .tc := ⟨.hbm, 197, rfl⟩
abbrev main_v133 : Ref sig .tc := ⟨.hbm, 198, rfl⟩
abbrev main_v134 : Ref sig .tc := ⟨.hbm, 199, rfl⟩
abbrev main_c_37 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_c_38 : Ref sig .tc := ⟨.hbm, 204, rfl⟩
abbrev main_v138 : Ref sig .tc := ⟨.hbm, 205, rfl⟩
abbrev main_v139 : Ref sig .tc := ⟨.hbm, 206, rfl⟩
abbrev main_c_39 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_cst_40 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_c_41 : Ref sig .tc := ⟨.hbm, 224, rfl⟩
abbrev main_v155 : Ref sig .tc := ⟨.hbm, 225, rfl⟩
abbrev main_v156 : Ref sig .tc := ⟨.hbm, 226, rfl⟩
abbrev main_c_42 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_cst_43 : Ref sig .tc := ⟨.hbm, 237, rfl⟩
abbrev main_v166 : Ref sig .tc := ⟨.hbm, 238, rfl⟩
abbrev main_cst_44 : Ref sig .tc := ⟨.hbm, 239, rfl⟩
abbrev main_v167 : Ref sig .tc := ⟨.hbm, 240, rfl⟩
abbrev main_v168 : Ref sig .tc := ⟨.hbm, 241, rfl⟩
abbrev main_call3_cst : Ref sig .tc := ⟨.hbm, 242, rfl⟩
abbrev main_call3_v0 : Ref sig .tc := ⟨.hbm, 243, rfl⟩
abbrev main_call3_cst_0 : Ref sig .tc := ⟨.hbm, 244, rfl⟩
abbrev main_call3_v1 : Ref sig .tc := ⟨.hbm, 245, rfl⟩
abbrev main_call3_v2 : Ref sig .tc := ⟨.hbm, 246, rfl⟩
abbrev main_call3_v3 : Ref sig .tc := ⟨.hbm, 247, rfl⟩
abbrev main_call3_v4 : Ref sig .tc := ⟨.hbm, 248, rfl⟩
abbrev main_call3_v5 : Ref sig .tc := ⟨.hbm, 249, rfl⟩
abbrev main_call3_v6 : Ref sig .tc := ⟨.hbm, 250, rfl⟩
abbrev main_call3_cst_1 : Ref sig .tc := ⟨.hbm, 251, rfl⟩
abbrev main_call3_v7 : Ref sig .tc := ⟨.hbm, 252, rfl⟩
abbrev main_call3_v8 : Ref sig .tc := ⟨.hbm, 253, rfl⟩
abbrev main_call3_v9 : Ref sig .tc := ⟨.hbm, 254, rfl⟩
abbrev main_call3_v10 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_cst_45 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_cst_46 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_cst_47 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_cst_48 : Ref sig .tc := ⟨.hbm, 279, rfl⟩
abbrev main_v189 : Ref sig .tc := ⟨.hbm, 280, rfl⟩
abbrev main_cst_49 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_c_50 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_c_51 : Ref sig .tc := ⟨.hbm, 289, rfl⟩
abbrev main_call4_v0 : Ref sig .tc := ⟨.hbm, 290, rfl⟩
abbrev main_call4_v1 : Ref sig .tc := ⟨.hbm, 291, rfl⟩
abbrev main_call4_v2 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_c_52 : Ref sig .tc := ⟨.hbm, 304, rfl⟩
abbrev main_v207 : Ref sig .tc := ⟨.hbm, 305, rfl⟩
abbrev main_v208 : Ref sig .tc := ⟨.hbm, 306, rfl⟩
abbrev main_c_53 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_c_54 : Ref sig .tc := ⟨.hbm, 311, rfl⟩
abbrev main_v212 : Ref sig .tc := ⟨.hbm, 312, rfl⟩
abbrev main_v213 : Ref sig .tc := ⟨.hbm, 313, rfl⟩
abbrev main_c_55 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_c_56 : Ref sig .tc := ⟨.hbm, 318, rfl⟩
abbrev main_v217 : Ref sig .tc := ⟨.hbm, 319, rfl⟩
abbrev main_v218 : Ref sig .tc := ⟨.hbm, 320, rfl⟩
abbrev main_c_57 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_c_58 : Ref sig .tc := ⟨.hbm, 325, rfl⟩
abbrev main_v222 : Ref sig .tc := ⟨.hbm, 326, rfl⟩
abbrev main_v223 : Ref sig .tc := ⟨.hbm, 327, rfl⟩
abbrev main_c_59 : Ref sig .tc := ⟨.hbm, 328, rfl⟩
abbrev main_v224 : Ref sig .tc := ⟨.hbm, 329, rfl⟩
abbrev main_v225 : Ref sig .tc := ⟨.hbm, 330, rfl⟩
abbrev main_v226 : Ref sig .tc := ⟨.hbm, 331, rfl⟩
abbrev main_c_60 : Ref sig .tc := ⟨.hbm, 332, rfl⟩
abbrev main_v227 : Ref sig .tc := ⟨.hbm, 333, rfl⟩
abbrev main_v228 : Ref sig .tc := ⟨.hbm, 334, rfl⟩
abbrev main_c_61 : Ref sig .tc := ⟨.hbm, 335, rfl⟩
abbrev main_v229 : Ref sig .tc := ⟨.hbm, 336, rfl⟩
abbrev main_v230 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_v238 : Ref sig .tc := ⟨.hbm, 345, rfl⟩
abbrev main_v239 : Ref sig .tc := ⟨.hbm, 346, rfl⟩
abbrev main_v240 : Ref sig .tc := ⟨.hbm, 347, rfl⟩
abbrev main_c_62 : Ref sig .tc := ⟨.hbm, 348, rfl⟩
abbrev main_call5_v0 : Ref sig .tc := ⟨.hbm, 349, rfl⟩
abbrev main_call5_v1 : Ref sig .tc := ⟨.hbm, 350, rfl⟩
abbrev main_v241 : Ref sig .tc := ⟨.hbm, 351, rfl⟩
abbrev main_c_63 : Ref sig .tc := ⟨.hbm, 352, rfl⟩
abbrev main_v242 : Ref sig .tc := ⟨.hbm, 353, rfl⟩
abbrev main_v243 : Ref sig .tc := ⟨.hbm, 354, rfl⟩
abbrev main_c_64 : Ref sig .tc := ⟨.hbm, 355, rfl⟩
abbrev main_v244 : Ref sig .tc := ⟨.hbm, 356, rfl⟩
abbrev main_v245 : Ref sig .tc := ⟨.hbm, 357, rfl⟩
abbrev main_v246 : Ref sig .tc := ⟨.hbm, 358, rfl⟩
abbrev main_c_65 : Ref sig .tc := ⟨.hbm, 359, rfl⟩
abbrev main_v247 : Ref sig .tc := ⟨.hbm, 360, rfl⟩
abbrev main_v248 : Ref sig .tc := ⟨.hbm, 361, rfl⟩
abbrev main_c_66 : Ref sig .tc := ⟨.hbm, 362, rfl⟩
abbrev main_v249 : Ref sig .tc := ⟨.hbm, 363, rfl⟩
abbrev main_v250 : Ref sig .tc := ⟨.hbm, 364, rfl⟩
abbrev main_v251 : Ref sig .tc := ⟨.hbm, 365, rfl⟩
abbrev main_c_67 : Ref sig .tc := ⟨.hbm, 366, rfl⟩
abbrev main_v252 : Ref sig .tc := ⟨.hbm, 367, rfl⟩
abbrev main_v253 : Ref sig .tc := ⟨.hbm, 368, rfl⟩
abbrev main_c_68 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_c_69 : Ref sig .tc := ⟨.hbm, 373, rfl⟩
abbrev main_v257 : Ref sig .tc := ⟨.hbm, 374, rfl⟩
abbrev main_v258 : Ref sig .tc := ⟨.hbm, 375, rfl⟩
abbrev main_c_70 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_c_71 : Ref sig .tc := ⟨.hbm, 380, rfl⟩
abbrev main_v262 : Ref sig .tc := ⟨.hbm, 381, rfl⟩
abbrev main_v263 : Ref sig .tc := ⟨.hbm, 382, rfl⟩
abbrev main_c_72 : Ref sig .tc := ⟨.hbm, 383, rfl⟩
abbrev main_v264 : Ref sig .tc := ⟨.hbm, 384, rfl⟩
abbrev main_v265 : Ref sig .tc := ⟨.hbm, 385, rfl⟩
abbrev main_v266 : Ref sig .tc := ⟨.hbm, 386, rfl⟩
abbrev main_c_73 : Ref sig .tc := ⟨.hbm, 387, rfl⟩
abbrev main_v267 : Ref sig .tc := ⟨.hbm, 388, rfl⟩
abbrev main_v268 : Ref sig .tc := ⟨.hbm, 389, rfl⟩
abbrev main_c_74 : Ref sig .tc := ⟨.hbm, 390, rfl⟩
abbrev main_v269 : Ref sig .tc := ⟨.hbm, 391, rfl⟩
abbrev main_v270 : Ref sig .tc := ⟨.hbm, 392, rfl⟩
abbrev main_v271 : Ref sig .tc := ⟨.hbm, 393, rfl⟩
abbrev main_v272 : Ref sig .tc := ⟨.hbm, 394, rfl⟩
abbrev main_v273 : Ref sig .tc := ⟨.hbm, 395, rfl⟩
abbrev main_v274 : Ref sig .tc := ⟨.hbm, 396, rfl⟩
abbrev main_v275 : Ref sig .tc := ⟨.hbm, 397, rfl⟩
abbrev main_v276 : Ref sig .tc := ⟨.hbm, 398, rfl⟩
abbrev main_v277 : Ref sig .tc := ⟨.hbm, 399, rfl⟩
abbrev main_v278 : Ref sig .tc := ⟨.hbm, 400, rfl⟩
abbrev main_v279 : Ref sig .tc := ⟨.hbm, 401, rfl⟩
abbrev main_v280 : Ref sig .tc := ⟨.hbm, 402, rfl⟩
abbrev main_c_75 : Ref sig .tc := ⟨.hbm, 403, rfl⟩
abbrev main_v281 : Ref sig .tc := ⟨.hbm, 404, rfl⟩
abbrev main_v282 : Ref sig .tc := ⟨.hbm, 405, rfl⟩
abbrev main_c_76 : Ref sig .tc := ⟨.hbm, 406, rfl⟩
abbrev main_v283 : Ref sig .tc := ⟨.hbm, 407, rfl⟩
abbrev main_v284 : Ref sig .tc := ⟨.hbm, 408, rfl⟩
abbrev main_v285 : Ref sig .tc := ⟨.hbm, 409, rfl⟩
abbrev main_c_77 : Ref sig .tc := ⟨.hbm, 410, rfl⟩
abbrev main_v286 : Ref sig .tc := ⟨.hbm, 411, rfl⟩
abbrev main_v287 : Ref sig .tc := ⟨.hbm, 412, rfl⟩
abbrev main_c_78 : Ref sig .tc := ⟨.hbm, 413, rfl⟩
abbrev main_v288 : Ref sig .tc := ⟨.hbm, 414, rfl⟩
abbrev main_v289 : Ref sig .tc := ⟨.hbm, 415, rfl⟩
abbrev main_v290 : Ref sig .tc := ⟨.hbm, 416, rfl⟩
abbrev main_c_79 : Ref sig .tc := ⟨.hbm, 417, rfl⟩
abbrev main_v291 : Ref sig .tc := ⟨.hbm, 418, rfl⟩
abbrev main_v292 : Ref sig .tc := ⟨.hbm, 419, rfl⟩
abbrev main_c_80 : Ref sig .tc := ⟨.hbm, 420, rfl⟩
abbrev main_v293 : Ref sig .tc := ⟨.hbm, 421, rfl⟩
abbrev main_v294 : Ref sig .tc := ⟨.hbm, 422, rfl⟩
abbrev main_v295 : Ref sig .tc := ⟨.hbm, 423, rfl⟩
abbrev main_c_81 : Ref sig .tc := ⟨.hbm, 424, rfl⟩
abbrev main_v296 : Ref sig .tc := ⟨.hbm, 425, rfl⟩
abbrev main_v297 : Ref sig .tc := ⟨.hbm, 426, rfl⟩
abbrev main_c_82 : Ref sig .tc := ⟨.hbm, 427, rfl⟩
abbrev main_v298 : Ref sig .tc := ⟨.hbm, 428, rfl⟩
abbrev main_v299 : Ref sig .tc := ⟨.hbm, 429, rfl⟩
abbrev main_v300 : Ref sig .tc := ⟨.hbm, 430, rfl⟩
abbrev main_c_83 : Ref sig .tc := ⟨.hbm, 431, rfl⟩
abbrev main_v301 : Ref sig .tc := ⟨.hbm, 432, rfl⟩
abbrev main_v302 : Ref sig .tc := ⟨.hbm, 433, rfl⟩
abbrev main_c_84 : Ref sig .tc := ⟨.hbm, 434, rfl⟩
abbrev main_v303 : Ref sig .tc := ⟨.hbm, 435, rfl⟩
abbrev main_v304 : Ref sig .tc := ⟨.hbm, 436, rfl⟩
abbrev main_v305 : Ref sig .tc := ⟨.hbm, 437, rfl⟩
abbrev main_c_85 : Ref sig .tc := ⟨.hbm, 438, rfl⟩
abbrev main_v306 : Ref sig .tc := ⟨.hbm, 439, rfl⟩
abbrev main_v307 : Ref sig .tc := ⟨.hbm, 440, rfl⟩
abbrev main_c_86 : Ref sig .tc := ⟨.hbm, 441, rfl⟩
abbrev main_v308 : Ref sig .tc := ⟨.hbm, 442, rfl⟩
abbrev main_v309 : Ref sig .tc := ⟨.hbm, 443, rfl⟩
abbrev main_v310 : Ref sig .tc := ⟨.hbm, 444, rfl⟩
abbrev main_v311 : Ref sig .tc := ⟨.hbm, 445, rfl⟩
abbrev main_v312 : Ref sig .tc := ⟨.hbm, 446, rfl⟩
abbrev main_v313 : Ref sig .tc := ⟨.hbm, 447, rfl⟩
abbrev main_v314 : Ref sig .tc := ⟨.hbm, 448, rfl⟩
abbrev main_v315 : Ref sig .tc := ⟨.hbm, 449, rfl⟩
abbrev main_v316 : Ref sig .tc := ⟨.hbm, 450, rfl⟩
abbrev main_v317 : Ref sig .tc := ⟨.hbm, 451, rfl⟩
abbrev main_v318 : Ref sig .tc := ⟨.hbm, 452, rfl⟩
abbrev main_v319 : Ref sig .tc := ⟨.hbm, 453, rfl⟩
abbrev main_cst_87 : Ref sig .tc := ⟨.hbm, 454, rfl⟩
abbrev main_v320 : Ref sig .tc := ⟨.hbm, 455, rfl⟩
abbrev main_v321 : Ref sig .tc := ⟨.hbm, 456, rfl⟩
abbrev main_v322 : Ref sig .tc := ⟨.hbm, 457, rfl⟩
abbrev main_c_88 : Ref sig .tc := ⟨.hbm, 458, rfl⟩
abbrev main_v323 : Ref sig .tc := ⟨.hbm, 459, rfl⟩
abbrev main_v324 : Ref sig .tc := ⟨.hbm, 460, rfl⟩
abbrev main_c_89 : Ref sig .tc := ⟨.hbm, 461, rfl⟩
abbrev main_v325 : Ref sig .tc := ⟨.hbm, 462, rfl⟩
abbrev main_v326 : Ref sig .tc := ⟨.hbm, 463, rfl⟩
abbrev main_v327 : Ref sig .tc := ⟨.hbm, 464, rfl⟩
abbrev main_v328 : Ref sig .tc := ⟨.hbm, 465, rfl⟩
abbrev main_v329 : Ref sig .tc := ⟨.hbm, 466, rfl⟩
abbrev main_v330 : Ref sig .tc := ⟨.hbm, 467, rfl⟩
abbrev main_v331 : Ref sig .tc := ⟨.hbm, 468, rfl⟩
abbrev main_v332 : Ref sig .tc := ⟨.hbm, 469, rfl⟩
abbrev main_v333 : Ref sig .tc := ⟨.hbm, 470, rfl⟩
abbrev main_cst_90 : Ref sig .tc := ⟨.hbm, 471, rfl⟩
abbrev main_v334 : Ref sig .tc := ⟨.hbm, 472, rfl⟩
abbrev main_cst_91 : Ref sig .tc := ⟨.hbm, 473, rfl⟩
abbrev main_v335 : Ref sig .tc := ⟨.hbm, 474, rfl⟩
abbrev main_v336 : Ref sig .tc := ⟨.hbm, 475, rfl⟩
abbrev main_v337 : Ref sig .tc := ⟨.hbm, 476, rfl⟩
abbrev main_v338 : Ref sig .tc := ⟨.hbm, 477, rfl⟩
abbrev main_v339 : Ref sig .tc := ⟨.hbm, 478, rfl⟩
abbrev main_v340 : Ref sig .tc := ⟨.hbm, 479, rfl⟩
abbrev main_v341 : Ref sig .tc := ⟨.hbm, 480, rfl⟩
abbrev main_v342 : Ref sig .tc := ⟨.hbm, 481, rfl⟩
abbrev main_v343 : Ref sig .tc := ⟨.hbm, 482, rfl⟩
abbrev main_v344 : Ref sig .tc := ⟨.hbm, 483, rfl⟩

abbrev nD : Nat := 1
abbrev τ : Topo := Topo.v7x

variable {F : FTy → Type} [FloatOps F]

class Facts₀ : Prop where
  shapeCasts_S4x9x64x64x64_S4x3x3x64x64x64 : S4x9x64x64x64.ShapeCasts S4x3x3x64x64x64
  reducesTo_S4x3x3x64x64x64_S4x3x64x64x64_d1 : S4x3x3x64x64x64.ReducesTo [1] S4x3x64x64x64
  h_S_ : 0 < S_.numel
  bcast_S_S4x3x64x64x64 : S_.BroadcastsInDim S4x3x64x64x64 (![] : Fin 0 → Fin S4x3x64x64x64.rank)
  bcast_S4x3x64x64x64_S4x1x3x64x64x64_0_2_3_4_5 : S4x3x64x64x64.BroadcastsInDim S4x1x3x64x64x64 (![0, 2, 3, 4, 5] : Fin 5 → Fin S4x1x3x64x64x64.rank)
  bcast_S4x1x3x64x64x64_S4x3x3x64x64x64_0_1_2_3_4_5 : S4x1x3x64x64x64.BroadcastsInDim S4x3x3x64x64x64 (![0, 1, 2, 3, 4, 5] : Fin 6 → Fin S4x3x3x64x64x64.rank)
  slices_S4x3x3x64x64x64_S4x1x3x64x64x64_0_0_0_0_0_0 : S4x3x3x64x64x64.Slices ![0, 0, 0, 0, 0, 0] S4x1x3x64x64x64
  shapeCasts_S4x1x3x64x64x64_S4x3x64x64x64 : S4x1x3x64x64x64.ShapeCasts S4x3x64x64x64
  bcast_S_S_ : S_.BroadcastsInDim S_ (![] : Fin 0 → Fin S_.rank)
  reduceWindows_S4x3x64x64x64_S4x3x64x64x64_w1s1p0_0_w1s1p0_0_w3s1p1_1_w3s1p1_1_w3s1p1_1 : S4x3x64x64x64.ReduceWindows (![1, 1, 3, 3, 3] : Fin 5 → Nat) ![1, 1, 1, 1, 1] ![0, 0, 1, 1, 1] ![0, 0, 1, 1, 1] S4x3x64x64x64
  reducesTo_S4x3x64x64x64_S_d0_1_2_3_4 : S4x3x64x64x64.ReducesTo [0, 1, 2, 3, 4] S_
  slices_S4x128x4_S4x128x1_0_0_0 : S4x128x4.Slices ![0, 0, 0] S4x128x1
  shapeCasts_S4x128x1_S4x128 : S4x128x1.ShapeCasts S4x128
  bcast_S_S4x128 : S_.BroadcastsInDim S4x128 (![] : Fin 0 → Fin S4x128.rank)
  bcast_S4x128_S4x128x1_0_1 : S4x128.BroadcastsInDim S4x128x1 (![0, 1] : Fin 2 → Fin S4x128x1.rank)
  bcast_S4x128x1_S4x128x4_0_1_2 : S4x128x1.BroadcastsInDim S4x128x4 (![0, 1, 2] : Fin 3 → Fin S4x128x4.rank)
  bcast_S_S4x128x4 : S_.BroadcastsInDim S4x128x4 (![] : Fin 0 → Fin S4x128x4.rank)
  slices_S4x128x4_S4x128x1_0_0_1 : S4x128x4.Slices ![0, 0, 1] S4x128x1
  slices_S4x128x4_S4x128x1_0_0_2 : S4x128x4.Slices ![0, 0, 2] S4x128x1
  slices_S4x128x4_S4x128x1_0_0_3 : S4x128x4.Slices ![0, 0, 3] S4x128x1
  bcast_S4_S4x1_0 : S4.BroadcastsInDim S4x1 (![0] : Fin 1 → Fin S4x1.rank)
  bcast_S_S4x1 : S_.BroadcastsInDim S4x1 (![] : Fin 0 → Fin S4x1.rank)
  bcast_S4x1_S4x128_0_1 : S4x1.BroadcastsInDim S4x128 (![0, 1] : Fin 2 → Fin S4x128.rank)
  concatenates_S4x128x1_S4x128x1_S4x128x1_S4x128x1_S4x128x1_S4x128x5_d2 : Shape.Concatenates [S4x128x1, S4x128x1, S4x128x1, S4x128x1, S4x128x1] S4x128x5 2
  concatenates_S4x128x1_S4x128x1_S4x128x1_S4x128x1_S4x128x1_S4x128x1_S4x128x6_d2 : Shape.Concatenates [S4x128x1, S4x128x1, S4x128x1, S4x128x1, S4x128x1, S4x128x1] S4x128x6 2
  reducesTo_S4x128_S_d0_1 : S4x128.ReducesTo [0, 1] S_
  shapeCasts_S4x9x32x32x32_S4x3x3x32x32x32 : S4x9x32x32x32.ShapeCasts S4x3x3x32x32x32
  reducesTo_S4x3x3x32x32x32_S4x3x32x32x32_d1 : S4x3x3x32x32x32.ReducesTo [1] S4x3x32x32x32
  bcast_S_S4x3x32x32x32 : S_.BroadcastsInDim S4x3x32x32x32 (![] : Fin 0 → Fin S4x3x32x32x32.rank)
  bcast_S4x3x32x32x32_S4x1x3x32x32x32_0_2_3_4_5 : S4x3x32x32x32.BroadcastsInDim S4x1x3x32x32x32 (![0, 2, 3, 4, 5] : Fin 5 → Fin S4x1x3x32x32x32.rank)
  bcast_S4x1x3x32x32x32_S4x3x3x32x32x32_0_1_2_3_4_5 : S4x1x3x32x32x32.BroadcastsInDim S4x3x3x32x32x32 (![0, 1, 2, 3, 4, 5] : Fin 6 → Fin S4x3x3x32x32x32.rank)
  slices_S4x3x3x32x32x32_S4x1x3x32x32x32_0_0_0_0_0_0 : S4x3x3x32x32x32.Slices ![0, 0, 0, 0, 0, 0] S4x1x3x32x32x32
  shapeCasts_S4x1x3x32x32x32_S4x3x32x32x32 : S4x1x3x32x32x32.ShapeCasts S4x3x32x32x32
  reduceWindows_S4x3x32x32x32_S4x3x32x32x32_w1s1p0_0_w1s1p0_0_w3s1p1_1_w3s1p1_1_w3s1p1_1 : S4x3x32x32x32.ReduceWindows (![1, 1, 3, 3, 3] : Fin 5 → Nat) ![1, 1, 1, 1, 1] ![0, 0, 1, 1, 1] ![0, 0, 1, 1, 1] S4x3x32x32x32
  reducesTo_S4x3x32x32x32_S_d0_1_2_3_4 : S4x3x32x32x32.ReducesTo [0, 1, 2, 3, 4] S_
  bcast_S_S1 : S_.BroadcastsInDim S1 (![] : Fin 0 → Fin S1.rank)
  concatenates_S1_S1_S1_S1_S4_d0 : Shape.Concatenates [S1, S1, S1, S1] S4 0
  gather_S4x3x64x64x64_S4x128x5_S4x128_n_01234_n_n_01234_2_11111_wf : GatherDims.WF S4x3x64x64x64 S4x128x5 S4x128 [] [0, 1, 2, 3, 4] [] [0, 1, 2, 3, 4] [] 2 ![1, 1, 1, 1, 1]
  gather_S4x3x3x64x64x64_S4x128x6_S4x128_n_012345_n_n_012345_2_111111_wf : GatherDims.WF S4x3x3x64x64x64 S4x128x6 S4x128 [] [0, 1, 2, 3, 4, 5] [] [0, 1, 2, 3, 4, 5] [] 2 ![1, 1, 1, 1, 1, 1]
  gather_S3_S4x128x1_S4x128_n_0_n_n_0_2_1_wf : GatherDims.WF S3 S4x128x1 S4x128 [] [0] [] [0] [] 2 ![1]
  gather_S4x3x32x32x32_S4x128x5_S4x128_n_01234_n_n_01234_2_11111_wf : GatherDims.WF S4x3x32x32x32 S4x128x5 S4x128 [] [0, 1, 2, 3, 4] [] [0, 1, 2, 3, 4] [] 2 ![1, 1, 1, 1, 1]
  gather_S4x3x3x32x32x32_S4x128x6_S4x128_n_012345_n_n_012345_2_111111_wf : GatherDims.WF S4x3x3x32x32x32 S4x128x6 S4x128 [] [0, 1, 2, 3, 4, 5] [] [0, 1, 2, 3, 4, 5] [] 2 ![1, 1, 1, 1, 1, 1]

variable [Facts₀]

def gather_S4x3x64x64x64_S4x128x5_S4x128_n_01234_n_n_01234_2_11111 : GatherDims S4x3x64x64x64 S4x128x5 S4x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := gather_S4x3x64x64x64_S4x128x5_S4x128_n_01234_n_n_01234_2_11111_wf
def gather_S4x3x3x64x64x64_S4x128x6_S4x128_n_012345_n_n_012345_2_111111 : GatherDims S4x3x3x64x64x64 S4x128x6 S4x128 where
  offsetDims := []
  collapsedSliceDims := [0, 1, 2, 3, 4, 5]
  operandBatchingDims := []
  startIndicesBatchingDims := []
  startIndexMap := [0, 1, 2, 3, 4, 5]
  indexVectorDim := 2
  sliceSizes := ![1, 1, 1, 1, 1, 1]
  wf := gather_S4x3x3x64x64x64_S4x128x6_S4x128_n_012345_n_n_012345_2_111111_wf
def gather_S3_S4x128x1_S4x128_n_0_n_n_0_2_1 : GatherDims S3 S4x128x1 S4x128 where
  offsetDims := []
  collapsedSliceDims := [0]
  operandBatchingDims := []
  startIndicesBatchingDims := []
  startIndexMap := [0]
  indexVectorDim := 2
  sliceSizes := ![1]
  wf := gather_S3_S4x128x1_S4x128_n_0_n_n_0_2_1_wf
def gather_S4x3x32x32x32_S4x128x5_S4x128_n_01234_n_n_01234_2_11111 : GatherDims S4x3x32x32x32 S4x128x5 S4x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := gather_S4x3x32x32x32_S4x128x5_S4x128_n_01234_n_n_01234_2_11111_wf
def gather_S4x3x3x32x32x32_S4x128x6_S4x128_n_012345_n_n_012345_2_111111 : GatherDims S4x3x3x32x32x32 S4x128x6 S4x128 where
  offsetDims := []
  collapsedSliceDims := [0, 1, 2, 3, 4, 5]
  operandBatchingDims := []
  startIndicesBatchingDims := []
  startIndexMap := [0, 1, 2, 3, 4, 5]
  indexVectorDim := 2
  sliceSizes := ![1, 1, 1, 1, 1, 1]
  wf := gather_S4x3x3x32x32x32_S4x128x6_S4x128_n_012345_n_n_012345_2_111111_wf

class Facts : Prop extends Facts₀ where

variable [Facts]
-- ==== Proof.K.Body0.lean ====
import proofs.«424358_j44040594653645_2_alg».proof.Proof.Gen.Kernel.Launch
import proofs.«424358_j44040594653645_2_alg».proof.Proof.Gen.Kernel.Skeleton
import proofs.«424358_j44040594653645_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The three channel groups of the logit block (channels 0-2, 3-5, 6-8), -/
abbrev rI0_0 : Rect S1x9x16x64x64 := Rect.unit (s := S1x9x16x64x64) ![0, 0, 0, 0, 0] S1x3x16x64x64.size inb_S1x9x16x64x64_S1x3x16x64x64_0_0_0_0_0
abbrev rI0_3 : Rect S1x9x16x64x64 := Rect.unit (s := S1x9x16x64x64) ![0, 3, 0, 0, 0] S1x3x16x64x64.size inb_S1x9x16x64x64_S1x3x16x64x64_0_3_0_0_0
abbrev rI0_6 : Rect S1x9x16x64x64 := Rect.unit (s := S1x9x16x64x64) ![0, 6, 0, 0, 0] S1x3x16x64x64.size inb_S1x9x16x64x64_S1x3x16x64x64_0_6_0_0_0
/-- of a one-slab neighbour block, -/
abbrev rH0_0 : Rect S1x9x1x64x64 := Rect.unit (s := S1x9x1x64x64) ![0, 0, 0, 0, 0] S1x3x1x64x64.size inb_S1x9x1x64x64_S1x3x1x64x64_0_0_0_0_0
abbrev rH0_3 : Rect S1x9x1x64x64 := Rect.unit (s := S1x9x1x64x64) ![0, 3, 0, 0, 0] S1x3x1x64x64.size inb_S1x9x1x64x64_S1x3x1x64x64_0_3_0_0_0
abbrev rH0_6 : Rect S1x9x1x64x64 := Rect.unit (s := S1x9x1x64x64) ![0, 6, 0, 0, 0] S1x3x1x64x64.size inb_S1x9x1x64x64_S1x3x1x64x64_0_6_0_0_0
/-- the whole target block and the whole output block, -/
abbrev rP0 : Rect S1x3x16x64x64 := Rect.unit (s := S1x3x16x64x64) ![0, 0, 0, 0, 0] S1x3x16x64x64.size inb_S1x3x16x64x64_S1x3x16x64x64_0_0_0_0_0
abbrev rO0 : Rect S1x1x8x128 := Rect.unit (s := S1x1x8x128) ![0, 0, 0, 0] S1x1x8x128.size inb_S1x1x8x128_S1x1x8x128_0_0_0_0
/-- the two halo slabs (depth 0 and depth 17) of the padded scratch -/
abbrev rS0_lo : Rect S3x18x64x64 := Rect.unit (s := S3x18x64x64) ![0, 0, 0, 0] S3x1x64x64.size inb_S3x18x64x64_S3x1x64x64_0_0_0_0
abbrev rS0_hi : Rect S3x18x64x64 := Rect.unit (s := S3x18x64x64) ![0, 17, 0, 0] S3x1x64x64.size inb_S3x18x64x64_S3x1x64x64_0_17_0_0
/-- and its three sixteen-slab windows at depth offsets 0, 1, 2 (offset 1 is also where the tile's own slabs are stored). -/
abbrev rW0_0 : Rect S3x18x64x64 := Rect.unit (s := S3x18x64x64) ![0, 0, 0, 0] S3x16x64x64.size inb_S3x18x64x64_S3x16x64x64_0_0_0_0
abbrev rW0_1 : Rect S3x18x64x64 := Rect.unit (s := S3x18x64x64) ![0, 1, 0, 0] S3x16x64x64.size inb_S3x18x64x64_S3x16x64x64_0_1_0_0
abbrev rW0_2 : Rect S3x18x64x64 := Rect.unit (s := S3x18x64x64) ![0, 2, 0, 0] S3x16x64x64.size inb_S3x18x64x64_S3x16x64x64_0_2_0_0

theorem zeros4_0 : (![0, 0, 0, 0] : Fin 4 → Nat) = fun _ => 0 := funext fun a => by fin_cases a <;> rfl

/-! ## The values the body computes, from the four input blocks -/

/-- The first value of the tile's three-class log-softmax stage, from the logit block's three channel groups. -/
def lsmA0 (x0 : Vec F S1x9x16x64x64 .f32) : FVec F S3x16x64x64 .f32 :=
  k0_pay8 (View.ld x0 rI0_0) (View.ld x0 rI0_3) (View.ld x0 rI0_6)
/-- The second value of that stage. -/
def lsmB0 (x0 : Vec F S1x9x16x64x64 .f32) : FVec F S3x16x64x64 .f32 :=
  k0_pay9 (View.ld x0 rI0_0) (View.ld x0 rI0_3) (View.ld x0 rI0_6)
/-- The halo slab below the tile (depth 0 of the scratch), from the previous-slab block. -/
def haloLo0 (x1 : Vec F S1x9x1x64x64 .f32) : FVec F S3x1x64x64 .f32 :=
  k0_pay14 (k0_pay10 (View.ld x1 rH0_0)) (k0_pay11 (View.ld x1 rH0_3)) (k0_pay12 (View.ld x1 rH0_6))
    (k0_pay13 (View.ld x1 rH0_0) (View.ld x1 rH0_3) (View.ld x1 rH0_6))
/-- The halo slab above the tile (depth 17 of the scratch), from the next-slab block. -/
def haloHi0 (x2 : Vec F S1x9x1x64x64 .f32) : FVec F S3x1x64x64 .f32 :=
  k0_pay15 (View.ld x2 rH0_0) (View.ld x2 rH0_3) (View.ld x2 rH0_6)

/-- The body's three stores into the scratch, LAST FIRST: the tile's sixteen slabs at depths 1..16, the upper halo at
    depth 17, the lower halo at depth 0. -/
def pieces0 (x0 : Vec F S1x9x16x64x64 .f32) (x1 x2 : Vec F S1x9x1x64x64 .f32) : List (View.Piece (Elt F) S3x18x64x64 .f32) :=
  [⟨rW0_1, k0_pay16 (lsmA0 x0)⟩, ⟨rS0_hi, haloHi0 x2⟩, ⟨rS0_lo, haloLo0 x1⟩]

/-- The padded scratch contents those stores leave: one function of the three logit blocks. -/
def pad0 (x0 : Vec F S1x9x16x64x64 .f32) (x1 x2 : Vec F S1x9x1x64x64 .f32) : Vec F S3x18x64x64 .f32 :=
  View.canon (pieces0 x0 x1 x2)

/-- The three depth-shifted sixteen-slab windows of the padded scratch. -/
def slab0_0 (x0 : Vec F S1x9x16x64x64 .f32) (x1 x2 : Vec F S1x9x1x64x64 .f32) : FVec F S3x16x64x64 .f32 := View.ld (pad0 x0 x1 x2) rW0_0
def slab0_1 (x0 : Vec F S1x9x16x64x64 .f32) (x1 x2 : Vec F S1x9x1x64x64 .f32) : FVec F S3x16x64x64 .f32 := View.ld (pad0 x0 x1 x2) rW0_1
def slab0_2 (x0 : Vec F S1x9x16x64x64 .f32) (x1 x2 : Vec F S1x9x1x64x64 .f32) : FVec F S3x16x64x64 .f32 := View.ld (pad0 x0 x1 x2) rW0_2

/-! ## What the body leaves in each output window's buffer -/

/-- Output window 4's staging buffer after the body, from the four input blocks: its one whole-buffer store's payload. -/
def out0_4 (x0 : Vec F S1x9x16x64x64 .f32) (x1 x2 : Vec F S1x9x1x64x64 .f32) (x3 : Vec F S1x3x16x64x64 .f32) : Vec F S1x1x8x128 .f32 :=
  k0_pay22 (lsmA0 x0) (lsmB0 x0)
    (k0_pay17 (slab0_0 x0 x1 x2) (slab0_1 x0 x1 x2) (slab0_2 x0 x1 x2))
    (k0_pay18 (slab0_0 x0 x1 x2) (slab0_1 x0 x1 x2) (slab0_2 x0 x1 x2))
    (k0_pay19 (slab0_0 x0 x1 x2) (slab0_1 x0 x1 x2) (slab0_2 x0 x1 x2))
    k0_pay20 (Scalar.ofBits .f32 0xF149F2CA#32) (View.ld x3 rP0)

/-- Output window 5's staging buffer after the body. -/
def out0_5 (x0 : Vec F S1x9x16x64x64 .f32) (x1 x2 : Vec F S1x9x1x64x64 .f32) (x3 : Vec F S1x3x16x64x64 .f32) : Vec F S1x1x8x128 .f32 :=
  k0_pay1 (k0_pay23 (lsmA0 x0) (lsmB0 x0)
    (k0_pay17 (slab0_0 x0 x1 x2) (slab0_1 x0 x1 x2) (slab0_2 x0 x1 x2))
    (k0_pay18 (slab0_0 x0 x1 x2) (slab0_1 x0 x1 x2) (slab0_2 x0 x1 x2))
    (k0_pay19 (slab0_0 x0 x1 x2) (slab0_1 x0 x1 x2) (slab0_2 x0 x1 x2))
    k0_pay20 (Scalar.ofBits .f32 0xF149F2CA#32) (View.ld x3 rP0))

/-- One whole-buffer store covers an output's buffer. -/
theorem cover0_O (p0 : Vec F S1x1x8x128 .f32) (y : S1x1x8x128.Idx) :
    ∃ pc ∈ ([⟨rO0, p0⟩] : List (View.Piece (Elt F) S1x1x8x128 .f32)), y ∈ pc.1.set :=
  ⟨_, List.mem_singleton_self _, View.mem_set_unit_zero zeros4_0 inb_S1x1x8x128_S1x1x8x128_0_0_0_0 y⟩

/-! ## The body's triple -/

set_option maxHeartbeats 1000000 in
/-- The kernel body on whole memrefs — the four inputs' at read contents, the two outputs' and the scratch at anything —
    runs to the continuation holding the inputs' as they were, each output's at `out0_W` of the inputs', the scratch at
    some contents. -/
theorem sound_kernel0 (c : Dev nD) (E : Set ℕ) (i : grid0.Coords) (arg2 : Memref sig .tc .vmem S1x9x16x64x64 .f32) (harg2 : arg2.IsWhole) (arg3 : Memref sig .tc .vmem S1x9x1x64x64 .f32) (harg3 : arg3.IsWhole) (arg4 : Memref sig .tc .vmem S1x9x1x64x64 .f32) (harg4 : arg4.IsWhole) (arg5 : Memref sig .tc .vmem S1x3x16x64x64 .f32) (harg5 : arg5.IsWhole) (arg6 : Memref sig .tc .vmem S1x1x8x128 .f32) (harg6 : arg6.IsWhole) (arg7 : Memref sig .tc .vmem S1x1x8x128 .f32) (harg7 : arg7.IsWhole) (arg8 : Memref sig .tc .vmem S3x18x64x64 .f32) (harg8 : arg8.IsWhole)
    (x0 : Vec F S1x9x16x64x64 .f32) (x1 x2 : Vec F S1x9x1x64x64 .f32) (x3 : Vec F S1x3x16x64x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1 x2 x3) ∗ owns (c : Thread nD τ) arg7 fullShare (out0_5 x0 x1 x2 x3)
            ∗ (∃ d, owns (c : Thread nD τ) arg8 fullShare d)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_eq_canon _ _ _ (cover0_O _), View.canon_unit_zero zeros4_0]
    sl_unfold_run_names
    simp only [View.readCov_eq_canon']
    rfl
  isplitl [H7]
  · iexists _; isplitr
    swap; · iexact H7
    ipureintro
    rw [View.read_writes_eq_canon _ _ _ (cover0_O _), View.canon_unit_zero zeros4_0]
    sl_unfold_run_names
    simp only [View.readCov_eq_canon']
    rfl
  iexists _; iexists _; isplitr
  swap; · iexact H8
  ipureintro; rfl

/-! ## The value form of the outputs -/

theorem zeros5_0 : (![0, 0, 0, 0, 0] : Fin 5 → Nat) = fun _ => 0 := funext fun a => by fin_cases a <;> rfl

/-- The whole-block load of the target block reads the block. -/
theorem ld_rP0 (x3 : Vec F S1x3x16x64x64 .f32) : View.ld x3 rP0 = x3 :=
  View.ld_unit_zero (S := S1x3x16x64x64) zeros5_0 inb_S1x3x16x64x64_S1x3x16x64x64_0_0_0_0_0 x3

/-- Output window 4 after the body, as the printed payload chain over the values read. -/
theorem out0_4_eq (x0 : Vec F S1x9x16x64x64 .f32) (x1 x2 : Vec F S1x9x1x64x64 .f32) (x3 : Vec F S1x3x16x64x64 .f32) :
    out0_4 x0 x1 x2 x3 = k0_pay22 (lsmA0 x0) (lsmB0 x0)
      (k0_pay17 (slab0_0 x0 x1 x2) (slab0_1 x0 x1 x2) (slab0_2 x0 x1 x2))
      (k0_pay18 (slab0_0 x0 x1 x2) (slab0_1 x0 x1 x2) (slab0_2 x0 x1 x2))
      (k0_pay19 (slab0_0 x0 x1 x2) (slab0_1 x0 x1 x2) (slab0_2 x0 x1 x2))
      k0_pay20 (Scalar.ofBits .f32 0xF149F2CA#32) x3 := by
  unfold out0_4; rw [ld_rP0]

/-- Output window 5 after the body. -/
theorem out0_5_eq (x0 : Vec F S1x9x16x64x64 .f32) (x1 x2 : Vec F S1x9x1x64x64 .f32) (x3 : Vec F S1x3x16x64x64 .f32) :
    out0_5 x0 x1 x2 x3 = k0_pay1 (k0_pay23 (lsmA0 x0) (lsmB0 x0)
      (k0_pay17 (slab0_0 x0 x1 x2) (slab0_1 x0 x1 x2) (slab0_2 x0 x1 x2))
      (k0_pay18 (slab0_0 x0 x1 x2) (slab0_1 x0 x1 x2) (slab0_2 x0 x1 x2))
      (k0_pay19 (slab0_0 x0 x1 x2) (slab0_1 x0 x1 x2) (slab0_2 x0 x1 x2))
      k0_pay20 (Scalar.ofBits .f32 0xF149F2CA#32) x3) := by
  unfold out0_5; rw [ld_rP0]

/-! ## The class invariant with the region's scratch taken out -/

/-- The scratch operand: a whole scoped buffer of the kernel's own, passed beside the windows. -/
abbrev scM0 : Memref sig .tc .vmem S3x18x64x64 .f32 := Memref.whole cc0_scratch0

/-- The core's scoped buffers that are no staging buffer of this call: its scratch, then every other one unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The class invariant with the scratch operand as a memref owned at some contents: what the body obligation hands
    the body's triple and takes back. -/
theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place (the window uncut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them; after the body at point `t` each
    input's buffer at its block and each output's at `out0_W` of the four input blocks; the invariant the class's (the
    scoped rest, the scratch among it, at anything, and the generator register); nothing owed; the logit array's share
    dealt among its three windows, full shares elsewhere. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q := fun w => match w with
    | ⟨0, _⟩ => fullShare.left
    | ⟨1, _⟩ => fullShare.right.left
    | ⟨2, _⟩ => fullShare.right.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' memrefs hold their blocks, so the body's triple applies; the invariant lends the
    scratch (at anything) and takes it back (at anything); the rest of it and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2, after0_3, after0_4, after0_5, PhiA0_eq]
  iintro ⟨⟨⟨HS, HR⟩, Hg⟩, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Body1.lean ====
import proofs.«424358_j44040594653645_2_alg».proof.Proof.Gen.Kernel.Launch
import proofs.«424358_j44040594653645_2_alg».proof.Proof.Gen.Kernel.Skeleton
import proofs.«424358_j44040594653645_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The three channel groups of the logit block (channels 0-2, 3-5, 6-8), -/
abbrev rI1_0 : Rect S1x9x16x32x32 := Rect.unit (s := S1x9x16x32x32) ![0, 0, 0, 0, 0] S1x3x16x32x32.size inb_S1x9x16x32x32_S1x3x16x32x32_0_0_0_0_0
abbrev rI1_3 : Rect S1x9x16x32x32 := Rect.unit (s := S1x9x16x32x32) ![0, 3, 0, 0, 0] S1x3x16x32x32.size inb_S1x9x16x32x32_S1x3x16x32x32_0_3_0_0_0
abbrev rI1_6 : Rect S1x9x16x32x32 := Rect.unit (s := S1x9x16x32x32) ![0, 6, 0, 0, 0] S1x3x16x32x32.size inb_S1x9x16x32x32_S1x3x16x32x32_0_6_0_0_0
/-- of a one-slab neighbour block, -/
abbrev rH1_0 : Rect S1x9x1x32x32 := Rect.unit (s := S1x9x1x32x32) ![0, 0, 0, 0, 0] S1x3x1x32x32.size inb_S1x9x1x32x32_S1x3x1x32x32_0_0_0_0_0
abbrev rH1_3 : Rect S1x9x1x32x32 := Rect.unit (s := S1x9x1x32x32) ![0, 3, 0, 0, 0] S1x3x1x32x32.size inb_S1x9x1x32x32_S1x3x1x32x32_0_3_0_0_0
abbrev rH1_6 : Rect S1x9x1x32x32 := Rect.unit (s := S1x9x1x32x32) ![0, 6, 0, 0, 0] S1x3x1x32x32.size inb_S1x9x1x32x32_S1x3x1x32x32_0_6_0_0_0
/-- the whole target block and the whole output block, -/
abbrev rP1 : Rect S1x3x16x32x32 := Rect.unit (s := S1x3x16x32x32) ![0, 0, 0, 0, 0] S1x3x16x32x32.size inb_S1x3x16x32x32_S1x3x16x32x32_0_0_0_0_0
abbrev rO1 : Rect S1x1x8x128 := Rect.unit (s := S1x1x8x128) ![0, 0, 0, 0] S1x1x8x128.size inb_S1x1x8x128_S1x1x8x128_0_0_0_0
/-- the two halo slabs (depth 0 and depth 17) of the padded scratch -/
abbrev rS1_lo : Rect S3x18x32x32 := Rect.unit (s := S3x18x32x32) ![0, 0, 0, 0] S3x1x32x32.size inb_S3x18x32x32_S3x1x32x32_0_0_0_0
abbrev rS1_hi : Rect S3x18x32x32 := Rect.unit (s := S3x18x32x32) ![0, 17, 0, 0] S3x1x32x32.size inb_S3x18x32x32_S3x1x32x32_0_17_0_0
/-- and its three sixteen-slab windows at depth offsets 0, 1, 2 (offset 1 is also where the tile's own slabs are stored). -/
abbrev rW1_0 : Rect S3x18x32x32 := Rect.unit (s := S3x18x32x32) ![0, 0, 0, 0] S3x16x32x32.size inb_S3x18x32x32_S3x16x32x32_0_0_0_0
abbrev rW1_1 : Rect S3x18x32x32 := Rect.unit (s := S3x18x32x32) ![0, 1, 0, 0] S3x16x32x32.size inb_S3x18x32x32_S3x16x32x32_0_1_0_0
abbrev rW1_2 : Rect S3x18x32x32 := Rect.unit (s := S3x18x32x32) ![0, 2, 0, 0] S3x16x32x32.size inb_S3x18x32x32_S3x16x32x32_0_2_0_0

theorem zeros4_1 : (![0, 0, 0, 0] : Fin 4 → Nat) = fun _ => 0 := funext fun a => by fin_cases a <;> rfl

/-! ## The values the body computes, from the four input blocks -/

/-- The first value of the tile's three-class log-softmax stage, from the logit block's three channel groups. -/
def lsmA1 (x0 : Vec F S1x9x16x32x32 .f32) : FVec F S3x16x32x32 .f32 :=
  k1_pay8 (View.ld x0 rI1_0) (View.ld x0 rI1_3) (View.ld x0 rI1_6)
/-- The second value of that stage. -/
def lsmB1 (x0 : Vec F S1x9x16x32x32 .f32) : FVec F S3x16x32x32 .f32 :=
  k1_pay9 (View.ld x0 rI1_0) (View.ld x0 rI1_3) (View.ld x0 rI1_6)
/-- The halo slab below the tile (depth 0 of the scratch), from the previous-slab block. -/
def haloLo1 (x1 : Vec F S1x9x1x32x32 .f32) : FVec F S3x1x32x32 .f32 :=
  k1_pay14 (k1_pay10 (View.ld x1 rH1_0)) (k1_pay11 (View.ld x1 rH1_3)) (k1_pay12 (View.ld x1 rH1_6))
    (k1_pay13 (View.ld x1 rH1_0) (View.ld x1 rH1_3) (View.ld x1 rH1_6))
/-- The halo slab above the tile (depth 17 of the scratch), from the next-slab block. -/
def haloHi1 (x2 : Vec F S1x9x1x32x32 .f32) : FVec F S3x1x32x32 .f32 :=
  k1_pay15 (View.ld x2 rH1_0) (View.ld x2 rH1_3) (View.ld x2 rH1_6)

/-- The body's three stores into the scratch, LAST FIRST: the tile's sixteen slabs at depths 1..16, the upper halo at
    depth 17, the lower halo at depth 0. -/
def pieces1 (x0 : Vec F S1x9x16x32x32 .f32) (x1 x2 : Vec F S1x9x1x32x32 .f32) : List (View.Piece (Elt F) S3x18x32x32 .f32) :=
  [⟨rW1_1, k1_pay16 (lsmA1 x0)⟩, ⟨rS1_hi, haloHi1 x2⟩, ⟨rS1_lo, haloLo1 x1⟩]

/-- The padded scratch contents those stores leave: one function of the three logit blocks. -/
def pad1 (x0 : Vec F S1x9x16x32x32 .f32) (x1 x2 : Vec F S1x9x1x32x32 .f32) : Vec F S3x18x32x32 .f32 :=
  View.canon (pieces1 x0 x1 x2)

/-- The three depth-shifted sixteen-slab windows of the padded scratch. -/
def slab1_0 (x0 : Vec F S1x9x16x32x32 .f32) (x1 x2 : Vec F S1x9x1x32x32 .f32) : FVec F S3x16x32x32 .f32 := View.ld (pad1 x0 x1 x2) rW1_0
def slab1_1 (x0 : Vec F S1x9x16x32x32 .f32) (x1 x2 : Vec F S1x9x1x32x32 .f32) : FVec F S3x16x32x32 .f32 := View.ld (pad1 x0 x1 x2) rW1_1
def slab1_2 (x0 : Vec F S1x9x16x32x32 .f32) (x1 x2 : Vec F S1x9x1x32x32 .f32) : FVec F S3x16x32x32 .f32 := View.ld (pad1 x0 x1 x2) rW1_2

/-! ## What the body leaves in each output window's buffer -/

/-- Output window 4's staging buffer after the body, from the four input blocks: its one whole-buffer store's payload. -/
def out1_4 (x0 : Vec F S1x9x16x32x32 .f32) (x1 x2 : Vec F S1x9x1x32x32 .f32) (x3 : Vec F S1x3x16x32x32 .f32) : Vec F S1x1x8x128 .f32 :=
  k1_pay22 (lsmA1 x0) (lsmB1 x0)
    (k1_pay17 (slab1_0 x0 x1 x2) (slab1_1 x0 x1 x2) (slab1_2 x0 x1 x2))
    (k1_pay18 (slab1_0 x0 x1 x2) (slab1_1 x0 x1 x2) (slab1_2 x0 x1 x2))
    (k1_pay19 (slab1_0 x0 x1 x2) (slab1_1 x0 x1 x2) (slab1_2 x0 x1 x2))
    k1_pay20 (Scalar.ofBits .f32 0xF149F2CA#32) (View.ld x3 rP1)

/-- Output window 5's staging buffer after the body. -/
def out1_5 (x0 : Vec F S1x9x16x32x32 .f32) (x1 x2 : Vec F S1x9x1x32x32 .f32) (x3 : Vec F S1x3x16x32x32 .f32) : Vec F S1x1x8x128 .f32 :=
  k1_pay1 (k1_pay23 (lsmA1 x0) (lsmB1 x0)
    (k1_pay17 (slab1_0 x0 x1 x2) (slab1_1 x0 x1 x2) (slab1_2 x0 x1 x2))
    (k1_pay18 (slab1_0 x0 x1 x2) (slab1_1 x0 x1 x2) (slab1_2 x0 x1 x2))
    (k1_pay19 (slab1_0 x0 x1 x2) (slab1_1 x0 x1 x2) (slab1_2 x0 x1 x2))
    k1_pay20 (Scalar.ofBits .f32 0xF149F2CA#32) (View.ld x3 rP1))

/-- One whole-buffer store covers an output's buffer. -/
theorem cover1_O (p0 : Vec F S1x1x8x128 .f32) (y : S1x1x8x128.Idx) :
    ∃ pc ∈ ([⟨rO1, p0⟩] : List (View.Piece (Elt F) S1x1x8x128 .f32)), y ∈ pc.1.set :=
  ⟨_, List.mem_singleton_self _, View.mem_set_unit_zero zeros4_1 inb_S1x1x8x128_S1x1x8x128_0_0_0_0 y⟩

/-! ## The body's triple -/

set_option maxHeartbeats 1000000 in
/-- The kernel body on whole memrefs — the four inputs' at read contents, the two outputs' and the scratch at anything —
    runs to the continuation holding the inputs' as they were, each output's at `out1_W` of the inputs', the scratch at
    some contents. -/
theorem sound_kernel1 (c : Dev nD) (E : Set ℕ) (i : grid1.Coords) (arg2 : Memref sig .tc .vmem S1x9x16x32x32 .f32) (harg2 : arg2.IsWhole) (arg3 : Memref sig .tc .vmem S1x9x1x32x32 .f32) (harg3 : arg3.IsWhole) (arg4 : Memref sig .tc .vmem S1x9x1x32x32 .f32) (harg4 : arg4.IsWhole) (arg5 : Memref sig .tc .vmem S1x3x16x32x32 .f32) (harg5 : arg5.IsWhole) (arg6 : Memref sig .tc .vmem S1x1x8x128 .f32) (harg6 : arg6.IsWhole) (arg7 : Memref sig .tc .vmem S1x1x8x128 .f32) (harg7 : arg7.IsWhole) (arg8 : Memref sig .tc .vmem S3x18x32x32 .f32) (harg8 : arg8.IsWhole)
    (x0 : Vec F S1x9x16x32x32 .f32) (x1 x2 : Vec F S1x9x1x32x32 .f32) (x3 : Vec F S1x3x16x32x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out1_4 x0 x1 x2 x3) ∗ owns (c : Thread nD τ) arg7 fullShare (out1_5 x0 x1 x2 x3)
            ∗ (∃ d, owns (c : Thread nD τ) arg8 fullShare d)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_eq_canon _ _ _ (cover1_O _), View.canon_unit_zero zeros4_1]
    sl_unfold_run_names
    simp only [View.readCov_eq_canon']
    rfl
  isplitl [H7]
  · iexists _; isplitr
    swap; · iexact H7
    ipureintro
    rw [View.read_writes_eq_canon _ _ _ (cover1_O _), View.canon_unit_zero zeros4_1]
    sl_unfold_run_names
    simp only [View.readCov_eq_canon']
    rfl
  iexists _; iexists _; isplitr
  swap; · iexact H8
  ipureintro; rfl

/-! ## The value form of the outputs -/

theorem zeros5_1 : (![0, 0, 0, 0, 0] : Fin 5 → Nat) = fun _ => 0 := funext fun a => by fin_cases a <;> rfl

/-- The whole-block load of the target block reads the block. -/
theorem ld_rP1 (x3 : Vec F S1x3x16x32x32 .f32) : View.ld x3 rP1 = x3 :=
  View.ld_unit_zero (S := S1x3x16x32x32) zeros5_1 inb_S1x3x16x32x32_S1x3x16x32x32_0_0_0_0_0 x3

/-- Output window 4 after the body, as the printed payload chain over the values read. -/
theorem out1_4_eq (x0 : Vec F S1x9x16x32x32 .f32) (x1 x2 : Vec F S1x9x1x32x32 .f32) (x3 : Vec F S1x3x16x32x32 .f32) :
    out1_4 x0 x1 x2 x3 = k1_pay22 (lsmA1 x0) (lsmB1 x0)
      (k1_pay17 (slab1_0 x0 x1 x2) (slab1_1 x0 x1 x2) (slab1_2 x0 x1 x2))
      (k1_pay18 (slab1_0 x0 x1 x2) (slab1_1 x0 x1 x2) (slab1_2 x0 x1 x2))
      (k1_pay19 (slab1_0 x0 x1 x2) (slab1_1 x0 x1 x2) (slab1_2 x0 x1 x2))
      k1_pay20 (Scalar.ofBits .f32 0xF149F2CA#32) x3 := by
  unfold out1_4; rw [ld_rP1]

/-- Output window 5 after the body. -/
theorem out1_5_eq (x0 : Vec F S1x9x16x32x32 .f32) (x1 x2 : Vec F S1x9x1x32x32 .f32) (x3 : Vec F S1x3x16x32x32 .f32) :
    out1_5 x0 x1 x2 x3 = k1_pay1 (k1_pay23 (lsmA1 x0) (lsmB1 x0)
      (k1_pay17 (slab1_0 x0 x1 x2) (slab1_1 x0 x1 x2) (slab1_2 x0 x1 x2))
      (k1_pay18 (slab1_0 x0 x1 x2) (slab1_1 x0 x1 x2) (slab1_2 x0 x1 x2))
      (k1_pay19 (slab1_0 x0 x1 x2) (slab1_1 x0 x1 x2) (slab1_2 x0 x1 x2))
      k1_pay20 (Scalar.ofBits .f32 0xF149F2CA#32) x3) := by
  unfold out1_5; rw [ld_rP1]

/-! ## The class invariant with the region's scratch taken out -/

/-- The scratch operand: a whole scoped buffer of the kernel's own, passed beside the windows. -/
abbrev scM1 : Memref sig .tc .vmem S3x18x32x32 .f32 := Memref.whole cc1_scratch0

/-- The core's scoped buffers that are no staging buffer of this call: its scratch, then every other one unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant with the scratch operand as a memref owned at some contents: what the body obligation hands
    the body's triple and takes back. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place (the window uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them; after the body at point `t` each
    input's buffer at its block and each output's at `out1_W` of the four input blocks; the invariant the class's (the
    scoped rest, the scratch among it, at anything, and the generator register); nothing owed; the logit array's share
    dealt among its three windows, full shares elsewhere. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q := fun w => match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' memrefs hold their blocks, so the body's triple applies; the invariant lends the
    scratch (at anything) and takes it back (at anything); the rest of it and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, PhiA1_eq]
  iintro ⟨⟨⟨HS, HR⟩, Hg⟩, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.HostFacts.lean ====
import proofs.«424358_j44040594653645_2_alg».proof.Proof.Gen.Kernel.Launch

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-- The seven argument arrays of @main. -/
def argRefs : List (Ref sig .tc) := [main_arg0, main_arg1, main_arg2, main_arg3, main_arg4, main_arg5, main_arg6]

/-- An operation whose one result buffer is no argument array writes no argument array. -/
theorem keeps_op {op : HloOp τ sig (Elt F)} (y : Ref sig .tc) (hw : op.writes = {Proc.devRef .tc y}) (hy : y ∉ argRefs)
    (r : Ref sig .tc) (hr : r ∈ argRefs) : (Proc.devRef .tc r : DevRef τ sig) ∉ op.writes := by
  rw [hw, Finset.mem_singleton]
  exact StableHlo.devRef_ne_of_ne (fun e => hy (e ▸ hr))

/-- The stretch allocates nothing. -/
theorem hostOps1_fresh : (hostOps1 : List (HloOp τ sig (Elt F))).Forall fun op => op.fresh = ∅ := by
  simp only [List.Forall]; repeat' constructor

/-- The stretch writes no argument array: each operation writes its one result buffer, which is none of them. -/
theorem hostOps1_keeps (r : Ref sig .tc) (hr : r ∈ argRefs) :
    ∀ op ∈ (hostOps1 : List (HloOp τ sig (Elt F))), (Proc.devRef .tc r : DevRef τ sig) ∉ op.writes := by
  have H : (hostOps1 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_fresh : (hostOps2 : List (HloOp τ sig (Elt F))).Forall fun op => op.fresh = ∅ := by
  simp only [List.Forall]; repeat' constructor

/-- The stretch writes no argument array: each operation writes its one result buffer, which is none of them. -/
theorem hostOps2_keeps (r : Ref sig .tc) (hr : r ∈ argRefs) :
    ∀ op ∈ (hostOps2 : List (HloOp τ sig (Elt F))), (Proc.devRef .tc r : DevRef τ sig) ∉ op.writes := by
  have H : (hostOps2 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_1_fresh : (hostOps2_1 : List (HloOp τ sig (Elt F))).Forall fun op => op.fresh = ∅ := by
  simp only [List.Forall]; repeat' constructor

/-- The stretch writes no argument array: each operation writes its one result buffer, which is none of them. -/
theorem hostOps2_1_keeps (r : Ref sig .tc) (hr : r ∈ argRefs) :
    ∀ op ∈ (hostOps2_1 : List (HloOp τ sig (Elt F))), (Proc.devRef .tc r : DevRef τ sig) ∉ op.writes := by
  have H : (hostOps2_1 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_2_fresh : (hostOps2_2 : List (HloOp τ sig (Elt F))).Forall fun op => op.fresh = ∅ := by
  simp only [List.Forall]; repeat' constructor

/-- The stretch writes no argument array: each operation writes its one result buffer, which is none of them. -/
theorem hostOps2_2_keeps (r : Ref sig .tc) (hr : r ∈ argRefs) :
    ∀ op ∈ (hostOps2_2 : List (HloOp τ sig (Elt F))), (Proc.devRef .tc r : DevRef τ sig) ∉ op.writes := by
  have H : (hostOps2_2 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_3_fresh : (hostOps2_3 : List (HloOp τ sig (Elt F))).Forall fun op => op.fresh = ∅ := by
  simp only [List.Forall]; repeat' constructor

/-- The stretch writes no argument array: each operation writes its one result buffer, which is none of them. -/
theorem hostOps2_3_keeps (r : Ref sig .tc) (hr : r ∈ argRefs) :
    ∀ op ∈ (hostOps2_3 : List (HloOp τ sig (Elt F))), (Proc.devRef .tc r : DevRef τ sig) ∉ op.writes := by
  have H : (hostOps2_3 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_4_fresh : (hostOps2_4 : List (HloOp τ sig (Elt F))).Forall fun op => op.fresh = ∅ := by
  simp only [List.Forall]; repeat' constructor

/-- The stretch writes no argument array: each operation writes its one result buffer, which is none of them. -/
theorem hostOps2_4_keeps (r : Ref sig .tc) (hr : r ∈ argRefs) :
    ∀ op ∈ (hostOps2_4 : List (HloOp τ sig (Elt F))), (Proc.devRef .tc r : DevRef τ sig) ∉ op.writes := by
  have H : (hostOps2_4 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_5_fresh : (hostOps2_5 : List (HloOp τ sig (Elt F))).Forall fun op => op.fresh = ∅ := by
  simp only [List.Forall]; repeat' constructor

/-- The stretch writes no argument array: each operation writes its one result buffer, which is none of them. -/
theorem hostOps2_5_keeps (r : Ref sig .tc) (hr : r ∈ argRefs) :
    ∀ op ∈ (hostOps2_5 : List (HloOp τ sig (Elt F))), (Proc.devRef .tc r : DevRef τ sig) ∉ op.writes := by
  have H : (hostOps2_5 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_6_fresh : (hostOps2_6 : List (HloOp τ sig (Elt F))).Forall fun op => op.fresh = ∅ := by
  simp only [List.Forall]; repeat' constructor

/-- The stretch writes no argument array: each operation writes its one result buffer, which is none of them. -/
theorem hostOps2_6_keeps (r : Ref sig .tc) (hr : r ∈ argRefs) :
    ∀ op ∈ (hostOps2_6 : List (HloOp τ sig (Elt F))), (Proc.devRef .tc r : DevRef τ sig) ∉ op.writes := by
  have H : (hostOps2_6 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_7_fresh : (hostOps2_7 : List (HloOp τ sig (Elt F))).Forall fun op => op.fresh = ∅ := by
  simp only [List.Forall]; repeat' constructor

/-- The stretch writes no argument array: each operation writes its one result buffer, which is none of them. -/
theorem hostOps2_7_keeps (r : Ref sig .tc) (hr : r ∈ argRefs) :
    ∀ op ∈ (hostOps2_7 : List (HloOp τ sig (Elt F))), (Proc.devRef .tc r : DevRef τ sig) ∉ op.writes := by
  have H : (hostOps2_7 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_8_fresh : (hostOps2_8 : List (HloOp τ sig (Elt F))).Forall fun op => op.fresh = ∅ := by
  simp only [List.Forall]; repeat' constructor

/-- The stretch writes no argument array: each operation writes its one result buffer, which is none of them. -/
theorem hostOps2_8_keeps (r : Ref sig .tc) (hr : r ∈ argRefs) :
    ∀ op ∈ (hostOps2_8 : List (HloOp τ sig (Elt F))), (Proc.devRef .tc r : DevRef τ sig) ∉ op.writes := by
  have H : (hostOps2_8 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_9_fresh : (hostOps2_9 : List (HloOp τ sig (Elt F))).Forall fun op => op.fresh = ∅ := by
  simp only [List.Forall]; repeat' constructor

/-- The stretch writes no argument array: each operation writes its one result buffer, which is none of them. -/
theorem hostOps2_9_keeps (r : Ref sig .tc) (hr : r ∈ argRefs) :
    ∀ op ∈ (hostOps2_9 : List (HloOp τ sig (Elt F))), (Proc.devRef .tc r : DevRef τ sig) ∉ op.writes := by
  have H : (hostOps2_9 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_10_fresh : (hostOps2_10 : List (HloOp τ sig (Elt F))).Forall fun op => op.fresh = ∅ := by
  simp only [List.Forall]; repeat' constructor

/-- The stretch writes no argument array: each operation writes its one result buffer, which is none of them. -/
theorem hostOps2_10_keeps (r : Ref sig .tc) (hr : r ∈ argRefs) :
    ∀ op ∈ (hostOps2_10 : List (HloOp τ sig (Elt F))), (Proc.devRef .tc r : DevRef τ sig) ∉ op.writes := by
  have H : (hostOps2_10 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_11_fresh : (hostOps2_11 : List (HloOp τ sig (Elt F))).Forall fun op => op.fresh = ∅ := by
  simp only [List.Forall]; repeat' constructor

/-- The stretch writes no argument array: each operation writes its one result buffer, which is none of them. -/
theorem hostOps2_11_keeps (r : Ref sig .tc) (hr : r ∈ argRefs) :
    ∀ op ∈ (hostOps2_11 : List (HloOp τ sig (Elt F))), (Proc.devRef .tc r : DevRef τ sig) ∉ op.writes := by
  have H : (hostOps2_11 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_12_fresh : (hostOps2_12 : List (HloOp τ sig (Elt F))).Forall fun op => op.fresh = ∅ := by
  simp only [List.Forall]; repeat' constructor

/-- The stretch writes no argument array: each operation writes its one result buffer, which is none of them. -/
theorem hostOps2_12_keeps (r : Ref sig .tc) (hr : r ∈ argRefs) :
    ∀ op ∈ (hostOps2_12 : List (HloOp τ sig (Elt F))), (Proc.devRef .tc r : DevRef τ sig) ∉ op.writes := by
  have H : (hostOps2_12 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_13_fresh : (hostOps2_13 : List (HloOp τ sig (Elt F))).Forall fun op => op.fresh = ∅ := by
  simp only [List.Forall]; repeat' constructor

/-- The stretch writes no argument array: each operation writes its one result buffer, which is none of them. -/
theorem hostOps2_13_keeps (r : Ref sig .tc) (hr : r ∈ argRefs) :
    ∀ op ∈ (hostOps2_13 : List (HloOp τ sig (Elt F))), (Proc.devRef .tc r : DevRef τ sig) ∉ op.writes := by
  have H : (hostOps2_13 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_14_fresh : (hostOps2_14 : List (HloOp τ sig (Elt F))).Forall fun op => op.fresh = ∅ := by
  simp only [List.Forall]; repeat' constructor

/-- The stretch writes no argument array: each operation writes its one result buffer, which is none of them. -/
theorem hostOps2_14_keeps (r : Ref sig .tc) (hr : r ∈ argRefs) :
    ∀ op ∈ (hostOps2_14 : List (HloOp τ sig (Elt F))), (Proc.devRef .tc r : DevRef τ sig) ∉ op.writes := by
  have H : (hostOps2_14 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_15_fresh : (hostOps2_15 : List (HloOp τ sig (Elt F))).Forall fun op => op.fresh = ∅ := by
  simp only [List.Forall]; repeat' constructor

/-- The stretch writes no argument array: each operation writes its one result buffer, which is none of them. -/
theorem hostOps2_15_keeps (r : Ref sig .tc) (hr : r ∈ argRefs) :
    ∀ op ∈ (hostOps2_15 : List (HloOp τ sig (Elt F))), (Proc.devRef .tc r : DevRef τ sig) ∉ op.writes := by
  have H : (hostOps2_15 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_16_fresh : (hostOps2_16 : List (HloOp τ sig (Elt F))).Forall fun op => op.fresh = ∅ := by
  simp only [List.Forall]; repeat' constructor

/-- The stretch writes no argument array: each operation writes its one result buffer, which is none of them. -/
theorem hostOps2_16_keeps (r : Ref sig .tc) (hr : r ∈ argRefs) :
    ∀ op ∈ (hostOps2_16 : List (HloOp τ sig (Elt F))), (Proc.devRef .tc r : DevRef τ sig) ∉ op.writes := by
  have H : (hostOps2_16 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_17_fresh : (hostOps2_17 : List (HloOp τ sig (Elt F))).Forall fun op => op.fresh = ∅ := by
  simp only [List.Forall]; repeat' constructor

/-- The stretch writes no argument array: each operation writes its one result buffer, which is none of them. -/
theorem hostOps2_17_keeps (r : Ref sig .tc) (hr : r ∈ argRefs) :
    ∀ op ∈ (hostOps2_17 : List (HloOp τ sig (Elt F))), (Proc.devRef .tc r : DevRef τ sig) ∉ op.writes := by
  have H : (hostOps2_17 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_18_fresh : (hostOps2_18 : List (HloOp τ sig (Elt F))).Forall fun op => op.fresh = ∅ := by
  simp only [List.Forall]; repeat' constructor

/-- The stretch writes no argument array: each operation writes its one result buffer, which is none of them. -/
theorem hostOps2_18_keeps (r : Ref sig .tc) (hr : r ∈ argRefs) :
    ∀ op ∈ (hostOps2_18 : List (HloOp τ sig (Elt F))), (Proc.devRef .tc r : DevRef τ sig) ∉ op.writes := by
  have H : (hostOps2_18 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_19_fresh : (hostOps2_19 : List (HloOp τ sig (Elt F))).Forall fun op => op.fresh = ∅ := by
  simp only [List.Forall]; repeat' constructor

/-- The stretch writes no argument array: each operation writes its one result buffer, which is none of them. -/
theorem hostOps2_19_keeps (r : Ref sig .tc) (hr : r ∈ argRefs) :
    ∀ op ∈ (hostOps2_19 : List (HloOp τ sig (Elt F))), (Proc.devRef .tc r : DevRef τ sig) ∉ op.writes := by
  have H : (hostOps2_19 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_20_fresh : (hostOps2_20 : List (HloOp τ sig (Elt F))).Forall fun op => op.fresh = ∅ := by
  simp only [List.Forall]; repeat' constructor

/-- The stretch writes no argument array: each operation writes its one result buffer, which is none of them. -/
theorem hostOps2_20_keeps (r : Ref sig .tc) (hr : r ∈ argRefs) :
    ∀ op ∈ (hostOps2_20 : List (HloOp τ sig (Elt F))), (Proc.devRef .tc r : DevRef τ sig) ∉ op.writes := by
  have H : (hostOps2_20 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

end Cert.Kernel.Hand

end
-- ==== Proof.K.Run.lean ====
/-
  THE RUN of @main.

  @main is a kernel call, a line of host operations, a second kernel call, and twenty-one more lines of host operations.
  The buffer contents at each of these boundaries are a fold from the launch memory: a line takes the contents to the
  line's result on them (`StableHlo.after`); a kernel call rewrites its two output arrays to what its write-backs leave and
  keeps every other buffer (its input arrays are only read). `W0 … W24` name the contents in order, `Wend` the last.

  In each kernel call three input windows sit on ONE array (the block, the slab before it, the slab after it), so the array's
  full share is dealt among the three windows — halved, the right half halved again — at the call's entry and rejoined at its
  exit; the two other arrays of a call are held whole.

  From these: every weakly fair execution of @main on the TensorCores terminates, nothing faulting, and the final memory
  holds every unscoped buffer at `Wend` (`run_post`, `run_main`); no operation and no call writes an argument array, so the
  arguments end as launched (`Wend_main_arg0 … 6`, `frame`); the result buffer ends at `Wend` of it (`run_result`), and `Wend` is
  the twenty-one lines after the second call, as one line, from that call's exit contents (`Wend_eq`).
  Everything is stated for any float interpretation `F`.
-/
import proofs.«424358_j44040594653645_2_alg».proof.Proof.K.Body0
import proofs.«424358_j44040594653645_2_alg».proof.Proof.K.Body1
import proofs.«424358_j44040594653645_2_alg».proof.Proof.K.HostFacts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory -/

/-- Core `c`'s buffers at launch (region 0's entry: no operation precedes it). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its two output arrays at what the write-backs leave, every other buffer as entered
    (the input windows' arrays are only read). -/
def W1 (c : Dev nD) : Valuation τ sig (Elt F) :=
  Function.update (Function.update (W0 m ρ c) (Proc.devRef .tc main_v0_0) ((dat0 (V0 m ρ) c).arrAt 4 cfg0.N))
    (Proc.devRef .tc main_v0_1) ((dat0 (V0 m ρ) c).arrAt 5 cfg0.N)
/-- The same read at the TensorCore's references. -/
abbrev V1 : (c : Dev nD) → (b : Ref sig .tc) → Buf (Elt F) ((c : Thread nD τ).loc b) := fun c b => W1 m ρ c b
/-- After `hostOps1` (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit: its two output arrays at what the write-backs leave, every other buffer as entered. -/
def W3 (c : Dev nD) : Valuation τ sig (Elt F) :=
  Function.update (Function.update (W2 m ρ c) (Proc.devRef .tc main_v7_0) ((dat1 (V2 m ρ) c).arrAt 4 cfg1.N))
    (Proc.devRef .tc main_v7_1) ((dat1 (V2 m ρ) c).arrAt 5 cfg1.N)
abbrev V3 : (c : Dev nD) → (b : Ref sig .tc) → Buf (Elt F) ((c : Thread nD τ).loc b) := fun c b => W3 m ρ c b
/-- After `hostOps2`. -/
abbrev W4 : Dev nD → Valuation τ sig (Elt F) := fun c => StableHlo.after hostOps2 (W3 m ρ c)
/-- After `hostOps2_1`. -/
abbrev W5 : Dev nD → Valuation τ sig (Elt F) := fun c => StableHlo.after hostOps2_1 (W4 m ρ c)
/-- After `hostOps2_2`. -/
abbrev W6 : Dev nD → Valuation τ sig (Elt F) := fun c => StableHlo.after hostOps2_2 (W5 m ρ c)
/-- After `hostOps2_3`. -/
abbrev W7 : Dev nD → Valuation τ sig (Elt F) := fun c => StableHlo.after hostOps2_3 (W6 m ρ c)
/-- After `hostOps2_4`. -/
abbrev W8 : Dev nD → Valuation τ sig (Elt F) := fun c => StableHlo.after hostOps2_4 (W7 m ρ c)
/-- After `hostOps2_5`. -/
abbrev W9 : Dev nD → Valuation τ sig (Elt F) := fun c => StableHlo.after hostOps2_5 (W8 m ρ c)
/-- After `hostOps2_6`. -/
abbrev W10 : Dev nD → Valuation τ sig (Elt F) := fun c => StableHlo.after hostOps2_6 (W9 m ρ c)
/-- After `hostOps2_7`. -/
abbrev W11 : Dev nD → Valuation τ sig (Elt F) := fun c => StableHlo.after hostOps2_7 (W10 m ρ c)
/-- After `hostOps2_8`. -/
abbrev W12 : Dev nD → Valuation τ sig (Elt F) := fun c => StableHlo.after hostOps2_8 (W11 m ρ c)
/-- After `hostOps2_9`. -/
abbrev W13 : Dev nD → Valuation τ sig (Elt F) := fun c => StableHlo.after hostOps2_9 (W12 m ρ c)
/-- After `hostOps2_10`. -/
abbrev W14 : Dev nD → Valuation τ sig (Elt F) := fun c => StableHlo.after hostOps2_10 (W13 m ρ c)
/-- After `hostOps2_11`. -/
abbrev W15 : Dev nD → Valuation τ sig (Elt F) := fun c => StableHlo.after hostOps2_11 (W14 m ρ c)
/-- After `hostOps2_12`. -/
abbrev W16 : Dev nD → Valuation τ sig (Elt F) := fun c => StableHlo.after hostOps2_12 (W15 m ρ c)
/-- After `hostOps2_13`. -/
abbrev W17 : Dev nD → Valuation τ sig (Elt F) := fun c => StableHlo.after hostOps2_13 (W16 m ρ c)
/-- After `hostOps2_14`. -/
abbrev W18 : Dev nD → Valuation τ sig (Elt F) := fun c => StableHlo.after hostOps2_14 (W17 m ρ c)
/-- After `hostOps2_15`. -/
abbrev W19 : Dev nD → Valuation τ sig (Elt F) := fun c => StableHlo.after hostOps2_15 (W18 m ρ c)
/-- After `hostOps2_16`. -/
abbrev W20 : Dev nD → Valuation τ sig (Elt F) := fun c => StableHlo.after hostOps2_16 (W19 m ρ c)
/-- After `hostOps2_17`. -/
abbrev W21 : Dev nD → Valuation τ sig (Elt F) := fun c => StableHlo.after hostOps2_17 (W20 m ρ c)
/-- After `hostOps2_18`. -/
abbrev W22 : Dev nD → Valuation τ sig (Elt F) := fun c => StableHlo.after hostOps2_18 (W21 m ρ c)
/-- After `hostOps2_19`. -/
abbrev W23 : Dev nD → Valuation τ sig (Elt F) := fun c => StableHlo.after hostOps2_19 (W22 m ρ c)
/-- After `hostOps2_20`. -/
abbrev W24 : Dev nD → Valuation τ sig (Elt F) := fun c => StableHlo.after hostOps2_20 (W23 m ρ c)
/-- The contents at the return. -/
abbrev Wend : Dev nD → Valuation τ sig (Elt F) := W24 m ρ

/-! ## The proof data family and the thread state -/

/-- The prefetched tables' admissible contents: no pipeline has a table. -/
abbrev adm : (p : Fin 2) → (pcfgs (F := F) p).Adm := fun p => (cfgs p).toPCfg_adm

/-! ## What a region's exit leaves in its arrays and in every other buffer -/

theorem W1_out4 (c : Dev nD) : W1 m ρ c (Proc.devRef .tc main_v0_0) = (dat0 (V0 m ρ) c).arrAt 4 cfg0.N := by
  unfold W1
  rw [Function.update_of_ne (StableHlo.devRef_ne_of_ne (by decide)), Function.update_self]
theorem W1_out5 (c : Dev nD) : W1 m ρ c (Proc.devRef .tc main_v0_1) = (dat0 (V0 m ρ) c).arrAt 5 cfg0.N := by
  unfold W1
  rw [Function.update_self]
/-- Every buffer but region 0's two output arrays is as the region found it. -/
theorem W1_of_ne (c : Dev nD) (b : Ref sig .tc) (h4 : b ≠ main_v0_0) (h5 : b ≠ main_v0_1) :
    W1 m ρ c (Proc.devRef .tc b) = W0 m ρ c (Proc.devRef .tc b) := by
  unfold W1
  rw [Function.update_of_ne (StableHlo.devRef_ne_of_ne h5), Function.update_of_ne (StableHlo.devRef_ne_of_ne h4)]
/-- An input window's array is never written: it ends as the region found it. -/
theorem arrAt0_in (c : Dev nD) (w : Fin 6) (hin : (cfg0.win w).isOut = false) (b : Ref sig .tc) (hb : Pipeline.arrRef spec0 w = b)
    (h4 : b ≠ main_v0_0) (h5 : b ≠ main_v0_1) :
    W1 m ρ c (Proc.devRef .tc (Pipeline.arrRef spec0 w)) = (dat0 (V0 m ρ) c).arrAt w cfg0.N := by
  subst hb
  exact (W1_of_ne m ρ c _ h4 h5).trans (((dat0 (V0 m ρ) c).arrAt_in w hin _).trans (A_eq0 (V0 m ρ) c w)).symm
/-- At region 0's exit each of its arrays holds what the pipeline leaves. -/
theorem W1_arr (c : Dev nD) : ∀ w : Fin 6,
    W1 m ρ c (Proc.devRef .tc (Pipeline.arrRef spec0 w)) = (dat0 (V0 m ρ) c).arrAt w cfg0.N
  | 0 => arrAt0_in m ρ c 0 rfl main_arg0 rfl (by decide) (by decide)
  | 1 => arrAt0_in m ρ c 1 rfl main_arg0 rfl (by decide) (by decide)
  | 2 => arrAt0_in m ρ c 2 rfl main_arg0 rfl (by decide) (by decide)
  | 3 => arrAt0_in m ρ c 3 rfl main_arg2 rfl (by decide) (by decide)
  | 4 => W1_out4 m ρ c
  | 5 => W1_out5 m ρ c
  | ⟨_ + 6, h⟩ => absurd h (Nat.not_lt.2 (Nat.le_add_left _ _))

theorem W3_out4 (c : Dev nD) : W3 m ρ c (Proc.devRef .tc main_v7_0) = (dat1 (V2 m ρ) c).arrAt 4 cfg1.N := by
  unfold W3
  rw [Function.update_of_ne (StableHlo.devRef_ne_of_ne (by decide)), Function.update_self]
theorem W3_out5 (c : Dev nD) : W3 m ρ c (Proc.devRef .tc main_v7_1) = (dat1 (V2 m ρ) c).arrAt 5 cfg1.N := by
  unfold W3
  rw [Function.update_self]
/-- Every buffer but region 1's two output arrays is as the region found it. -/
theorem W3_of_ne (c : Dev nD) (b : Ref sig .tc) (h4 : b ≠ main_v7_0) (h5 : b ≠ main_v7_1) :
    W3 m ρ c (Proc.devRef .tc b) = W2 m ρ c (Proc.devRef .tc b) := by
  unfold W3
  rw [Function.update_of_ne (StableHlo.devRef_ne_of_ne h5), Function.update_of_ne (StableHlo.devRef_ne_of_ne h4)]
theorem arrAt1_in (c : Dev nD) (w : Fin 6) (hin : (cfg1.win w).isOut = false) (b : Ref sig .tc) (hb : Pipeline.arrRef spec1 w = b)
    (h4 : b ≠ main_v7_0) (h5 : b ≠ main_v7_1) :
    W3 m ρ c (Proc.devRef .tc (Pipeline.arrRef spec1 w)) = (dat1 (V2 m ρ) c).arrAt w cfg1.N := by
  subst hb
  exact (W3_of_ne m ρ c _ h4 h5).trans (((dat1 (V2 m ρ) c).arrAt_in w hin _).trans (A_eq1 (V2 m ρ) c w)).symm
/-- At region 1's exit each of its arrays holds what the pipeline leaves. -/
theorem W3_arr (c : Dev nD) : ∀ w : Fin 6,
    W3 m ρ c (Proc.devRef .tc (Pipeline.arrRef spec1 w)) = (dat1 (V2 m ρ) c).arrAt w cfg1.N
  | 0 => arrAt1_in m ρ c 0 rfl main_arg1 rfl (by decide) (by decide)
  | 1 => arrAt1_in m ρ c 1 rfl main_arg1 rfl (by decide) (by decide)
  | 2 => arrAt1_in m ρ c 2 rfl main_arg1 rfl (by decide) (by decide)
  | 3 => arrAt1_in m ρ c 3 rfl main_arg3 rfl (by decide) (by decide)
  | 4 => W3_out4 m ρ c
  | 5 => W3_out5 m ρ c
  | ⟨_ + 6, h⟩ => absurd h (Nat.not_lt.2 (Nat.le_add_left _ _))

/-! ## Region 0: one array under three input windows — the array's full share dealt among them -/

section Shared0
variable (V : (c : Dev nD) → (b : Ref sig .tc) → Buf (Elt F) ((c : Thread nD τ).loc b))

/-- Region 0's arrays window by window: the three windows on `main_arg0` at the dealt shares. -/
theorem arrays0_eq (c : Dev nD) (G : (w : Fin cfg0.W) → Buf (Elt F) ((cfg0.win w).arr.view.loc (c : Thread nD τ))) :
    ((dat0 V c).arrays G : sProp 𝕄) = iprop(
      (((c : Thread nD τ).loc main_arg0) ↦{fullShare.left} G 0) ∗ (((c : Thread nD τ).loc main_arg0) ↦{fullShare.right.left} G 1)
      ∗ (((c : Thread nD τ).loc main_arg0) ↦{fullShare.right.right} G 2) ∗ (((c : Thread nD τ).loc main_arg2) ↦{fullShare} G 3)
      ∗ (((c : Thread nD τ).loc main_v0_0) ↦{fullShare} G 4) ∗ (((c : Thread nD τ).loc main_v0_1) ↦{fullShare} G 5)) := by
  have h1 : ((dat0 V c).arrays G : sProp 𝕄) = bigSep Finset.univ fun w : Fin 6 =>
      (((c : Thread nD τ).loc (Pipeline.arrRef spec0 w)) ↦{(dat0 V c).share w} G w : sProp 𝕄) := by
    unfold Dat.arrays
    exact bigSep_congr fun w _ => by rw [(arr_whole0 w).set_eq_univ]
  rw [h1, bigSep_W0]
  rfl

/-- The distinct buffers behind region 0's arrays, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄) = iprop(
      (((c : Thread nD τ).loc main_arg0) ↦{fullShare} V' main_arg0) ∗ (((c : Thread nD τ).loc main_arg2) ↦{fullShare} V' main_arg2)
      ∗ (((c : Thread nD τ).loc main_v0_0) ↦{fullShare} V' main_v0_0) ∗ (((c : Thread nD τ).loc main_v0_1) ↦{fullShare} V' main_v0_1)) := by
  unfold Pipeline.arrBufs
  exact bigSep_eq_bigSepL_of_eq [main_arg0, main_arg2, main_v0_0, main_v0_1] (by decide) (by decide) _

/-- The buffers behind the arrays, whole, are the arrays at the dealt shares, at the same contents: the shared
    array's full share halved, its right half halved again. -/
theorem arrays0_of_bufs (c : Dev nD) (V' : (b : Ref sig .tc) → Buf (Elt F) ((c : Thread nD τ).loc b))
    (G : (w : Fin cfg0.W) → Buf (Elt F) ((cfg0.win w).arr.view.loc (c : Thread nD τ)))
    (e0 : G 0 = V' main_arg0) (e1 : G 1 = V' main_arg0) (e2 : G 2 = V' main_arg0) (e3 : G 3 = V' main_arg2) (e4 : G 4 = V' main_v0_0) (e5 : G 5 = V' main_v0_1) :
    (Pipeline.arrBufs (Ix := Unit) (Name := ℕ) (U := UR sig nD τ) (Lvl := ℕ) spec0 c V' : sProp 𝕄) ⊢ (dat0 V c).arrays G := by
  rw [arrBufs0_eq, arrays0_eq, e0, e1, e2, e3, e4, e5]
  iintro ⟨H0, H3, H4, H5⟩
  ihave H0 := (pointsTo_share (PosShare.mem_left_op_right fullShare)).1 $$ H0
  icases H0 with ⟨H0l, H0r⟩
  ihave H0r := (pointsTo_share (PosShare.mem_left_op_right fullShare.right)).1 $$ H0r
  icases H0r with ⟨H0rl, H0rr⟩
  isplitl [H0l]; · iexact H0l
  isplitl [H0rl]; · iexact H0rl
  isplitl [H0rr]; · iexact H0rr
  isplitl [H3]; · iexact H3
  isplitl [H4]; · iexact H4
  iexact H5

/-- And back: the three shares of the shared array rejoin. -/
theorem bufs_of_arrays0 (c : Dev nD) (V' : (b : Ref sig .tc) → Buf (Elt F) ((c : Thread nD τ).loc b))
    (G : (w : Fin cfg0.W) → Buf (Elt F) ((cfg0.win w).arr.view.loc (c : Thread nD τ)))
    (e0 : G 0 = V' main_arg0) (e1 : G 1 = V' main_arg0) (e2 : G 2 = V' main_arg0) (e3 : G 3 = V' main_arg2) (e4 : G 4 = V' main_v0_0) (e5 : G 5 = V' main_v0_1) :
    ((dat0 V c).arrays G : sProp 𝕄) ⊢ Pipeline.arrBufs (Ix := Unit) (Name := ℕ) (U := UR sig nD τ) (Lvl := ℕ) spec0 c V' := by
  rw [arrBufs0_eq, arrays0_eq, e0, e1, e2, e3, e4, e5]
  iintro ⟨H0l, H0rl, H0rr, H3, H4, H5⟩
  ihave H0r := (pointsTo_share (PosShare.mem_left_op_right fullShare.right)).2 $$ [H0rl H0rr]
  · isplitl [H0rl]; · iexact H0rl
    iexact H0rr
  ihave H0 := (pointsTo_share (PosShare.mem_left_op_right fullShare)).2 $$ [H0l H0r]
  · isplitl [H0l]; · iexact H0l
    iexact H0r
  isplitl [H0]; · iexact H0
  isplitl [H3]; · iexact H3
  isplitl [H4]; · iexact H4
  iexact H5

end Shared0

/-! ## Region 1: one array under three input windows — the array's full share dealt among them -/

section Shared1
variable (V : (c : Dev nD) → (b : Ref sig .tc) → Buf (Elt F) ((c : Thread nD τ).loc b))

/-- Region 1's arrays window by window: the three windows on `main_arg1` at the dealt shares. -/
theorem arrays1_eq (c : Dev nD) (G : (w : Fin cfg1.W) → Buf (Elt F) ((cfg1.win w).arr.view.loc (c : Thread nD τ))) :
    ((dat1 V c).arrays G : sProp 𝕄) = iprop(
      (((c : Thread nD τ).loc main_arg1) ↦{fullShare.left} G 0) ∗ (((c : Thread nD τ).loc main_arg1) ↦{fullShare.right.left} G 1)
      ∗ (((c : Thread nD τ).loc main_arg1) ↦{fullShare.right.right} G 2) ∗ (((c : Thread nD τ).loc main_arg3) ↦{fullShare} G 3)
      ∗ (((c : Thread nD τ).loc main_v7_0) ↦{fullShare} G 4) ∗ (((c : Thread nD τ).loc main_v7_1) ↦{fullShare} G 5)) := by
  have h1 : ((dat1 V c).arrays G : sProp 𝕄) = bigSep Finset.univ fun w : Fin 6 =>
      (((c : Thread nD τ).loc (Pipeline.arrRef spec1 w)) ↦{(dat1 V c).share w} G w : sProp 𝕄) := by
    unfold Dat.arrays
    exact bigSep_congr fun w _ => by rw [(arr_whole1 w).set_eq_univ]
  rw [h1, bigSep_W1]
  rfl

/-- The distinct buffers behind region 1's arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄) = iprop(
      (((c : Thread nD τ).loc main_arg1) ↦{fullShare} V' main_arg1) ∗ (((c : Thread nD τ).loc main_arg3) ↦{fullShare} V' main_arg3)
      ∗ (((c : Thread nD τ).loc main_v7_0) ↦{fullShare} V' main_v7_0) ∗ (((c : Thread nD τ).loc main_v7_1) ↦{fullShare} V' main_v7_1)) := by
  unfold Pipeline.arrBufs
  exact bigSep_eq_bigSepL_of_eq [main_arg1, main_arg3, main_v7_0, main_v7_1] (by decide) (by decide) _

/-- The buffers behind the arrays, whole, are the arrays at the dealt shares, at the same contents: the shared
    array's full share halved, its right half halved again. -/
theorem arrays1_of_bufs (c : Dev nD) (V' : (b : Ref sig .tc) → Buf (Elt F) ((c : Thread nD τ).loc b))
    (G : (w : Fin cfg1.W) → Buf (Elt F) ((cfg1.win w).arr.view.loc (c : Thread nD τ)))
    (e0 : G 0 = V' main_arg1) (e1 : G 1 = V' main_arg1) (e2 : G 2 = V' main_arg1) (e3 : G 3 = V' main_arg3) (e4 : G 4 = V' main_v7_0) (e5 : G 5 = V' main_v7_1) :
    (Pipeline.arrBufs (Ix := Unit) (Name := ℕ) (U := UR sig nD τ) (Lvl := ℕ) spec1 c V' : sProp 𝕄) ⊢ (dat1 V c).arrays G := by
  rw [arrBufs1_eq, arrays1_eq, e0, e1, e2, e3, e4, e5]
  iintro ⟨H0, H3, H4, H5⟩
  ihave H0 := (pointsTo_share (PosShare.mem_left_op_right fullShare)).1 $$ H0
  icases H0 with ⟨H0l, H0r⟩
  ihave H0r := (pointsTo_share (PosShare.mem_left_op_right fullShare.right)).1 $$ H0r
  icases H0r with ⟨H0rl, H0rr⟩
  isplitl [H0l]; · iexact H0l
  isplitl [H0rl]; · iexact H0rl
  isplitl [H0rr]; · iexact H0rr
  isplitl [H3]; · iexact H3
  isplitl [H4]; · iexact H4
  iexact H5

/-- And back: the three shares of the shared array rejoin. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (e0 : G 0 = V' main_arg1) (e1 : G 1 = V' main_arg1) (e2 : G 2 = V' main_arg1) (e3 : G 3 = V' main_arg3) (e4 : G 4 = V' main_v7_0) (e5 : G 5 = V' main_v7_1) :
    ((dat1 V c).arrays G : sProp 𝕄) ⊢ Pipeline.arrBufs (Ix := Unit) (Name := ℕ) (U := UR sig nD τ) (Lvl := ℕ) spec1 c V' := by
  rw [arrBufs1_eq, arrays1_eq, e0, e1, e2, e3, e4, e5]
  iintro ⟨H0l, H0rl, H0rr, H3, H4, H5⟩
  ihave H0r := (pointsTo_share (PosShare.mem_left_op_right fullShare.right)).2 $$ [H0rl H0rr]
  · isplitl [H0rl]; · iexact H0rl
    iexact H0rr
  ihave H0 := (pointsTo_share (PosShare.mem_left_op_right fullShare)).2 $$ [H0l H0r]
  · isplitl [H0l]; · iexact H0l
    iexact H0r
  isplitl [H0]; · iexact H0
  isplitl [H3]; · iexact H3
  isplitl [H4]; · iexact H4
  iexact H5

end Shared1

/-- ENTRY of region 0: the unscoped buffers at the entry contents are the region's arrays at the dealt shares and the rest. -/
theorem entry0 (c : Dev nD) :
    (StableHlo.held (c : Thread nD τ) (Pipeline.ucRefs τ sig) (W0 m ρ c) : sProp 𝕄)
      ⊢ iprop((dat0 (V0 m ρ) c).arrays ((dat0 (V0 m ρ) c).arrAt · 0)
          ∗ Pipeline.unscopedRest (Ix := Unit) (Name := ℕ) (U := UR sig nD τ) (Lvl := ℕ) spec0 c (V0 m ρ c)) := by
  have h : (unscopedBufs (Ix := Unit) (Name := ℕ) (U := UR sig nD τ) (Lvl := ℕ) c (V0 m ρ c) : sProp 𝕄)
      ⊢ iprop((dat0 (V0 m ρ) c).arrays ((dat0 (V0 m ρ) c).arrAt · 0)
          ∗ Pipeline.unscopedRest (Ix := Unit) (Name := ℕ) (U := UR sig nD τ) (Lvl := ℕ) spec0 c (V0 m ρ c)) := by
    rw [Pipeline.unscopedBufs_split₀ (Pipeline.pin (pcfgs (F := F)) adm) (0 : Fin 2) winFacts₀0.arr_unscoped c (V0 m ρ c)]
    exact sep_mono (arrays0_of_bufs (V0 m ρ) c (V0 m ρ c) _ rfl rfl rfl rfl rfl rfl) .rfl
  rw [Pipeline.unscopedBufs_held] at h
  exact h

/-- EXIT of region 0: its arrays at what the pipeline leaves and the rest as entered are the unscoped buffers at the exit contents. -/
theorem exit0 (c : Dev nD) :
    iprop((dat0 (V0 m ρ) c).arrays ((dat0 (V0 m ρ) c).arrAt · cfg0.N)
        ∗ Pipeline.unscopedRest (Ix := Unit) (Name := ℕ) (U := UR sig nD τ) (Lvl := ℕ) spec0 c (V0 m ρ c))
      ⊢ (StableHlo.held (c : Thread nD τ) (Pipeline.ucRefs τ sig) (W1 m ρ c) : sProp 𝕄) := by
  have h : iprop((dat0 (V0 m ρ) c).arrays ((dat0 (V0 m ρ) c).arrAt · cfg0.N)
        ∗ Pipeline.unscopedRest (Ix := Unit) (Name := ℕ) (U := UR sig nD τ) (Lvl := ℕ) spec0 c (V0 m ρ c))
      ⊢ (unscopedBufs (Ix := Unit) (Name := ℕ) (U := UR sig nD τ) (Lvl := ℕ) c (V1 m ρ c) : sProp 𝕄) := by
    rw [Pipeline.unscopedBufs_split₀ (Pipeline.pin (pcfgs (F := F)) adm) (0 : Fin 2) winFacts₀0.arr_unscoped c (V1 m ρ c)]
    refine sep_mono (bufs_of_arrays0 (V0 m ρ) c (V1 m ρ c) _ (W1_arr m ρ c 0).symm (W1_arr m ρ c 1).symm (W1_arr m ρ c 2).symm
      (W1_arr m ρ c 3).symm (W1_arr m ρ c 4).symm (W1_arr m ρ c 5).symm) (Entails.of_eq ?_)
    unfold Pipeline.unscopedRest
    refine bigSep_congr fun b hb => ?_
    have hne : ∀ w, Pipeline.arrRef spec0 w ≠ b := fun w e => (Finset.mem_sdiff.mp hb).2 (Finset.mem_image.mpr ⟨w, Finset.mem_univ _, e⟩)
    rw [show V1 m ρ c b = V0 m ρ c b from W1_of_ne m ρ c b (hne 4).symm (hne 5).symm]
  rw [Pipeline.unscopedBufs_held] at h
  exact h

/-- ENTRY of region 1: the unscoped buffers at the entry contents are the region's arrays at the dealt shares and the rest. -/
theorem entry1 (c : Dev nD) :
    (StableHlo.held (c : Thread nD τ) (Pipeline.ucRefs τ sig) (W2 m ρ c) : sProp 𝕄)
      ⊢ iprop((dat1 (V2 m ρ) c).arrays ((dat1 (V2 m ρ) c).arrAt · 0)
          ∗ Pipeline.unscopedRest (Ix := Unit) (Name := ℕ) (U := UR sig nD τ) (Lvl := ℕ) spec1 c (V2 m ρ c)) := by
  have h : (unscopedBufs (Ix := Unit) (Name := ℕ) (U := UR sig nD τ) (Lvl := ℕ) c (V2 m ρ c) : sProp 𝕄)
      ⊢ iprop((dat1 (V2 m ρ) c).arrays ((dat1 (V2 m ρ) c).arrAt · 0)
          ∗ Pipeline.unscopedRest (Ix := Unit) (Name := ℕ) (U := UR sig nD τ) (Lvl := ℕ) spec1 c (V2 m ρ c)) := by
    rw [Pipeline.unscopedBufs_split₀ (Pipeline.pin (pcfgs (F := F)) adm) (1 : Fin 2) winFacts₀1.arr_unscoped c (V2 m ρ c)]
    exact sep_mono (arrays1_of_bufs (V2 m ρ) c (V2 m ρ c) _ rfl rfl rfl rfl rfl rfl) .rfl
  rw [Pipeline.unscopedBufs_held] at h
  exact h

/-- EXIT of region 1: its arrays at what the pipeline leaves and the rest as entered are the unscoped buffers at the exit contents. -/
theorem exit1 (c : Dev nD) :
    iprop((dat1 (V2 m ρ) c).arrays ((dat1 (V2 m ρ) c).arrAt · cfg1.N)
        ∗ Pipeline.unscopedRest (Ix := Unit) (Name := ℕ) (U := UR sig nD τ) (Lvl := ℕ) spec1 c (V2 m ρ c))
      ⊢ (StableHlo.held (c : Thread nD τ) (Pipeline.ucRefs τ sig) (W3 m ρ c) : sProp 𝕄) := by
  have h : iprop((dat1 (V2 m ρ) c).arrays ((dat1 (V2 m ρ) c).arrAt · cfg1.N)
        ∗ Pipeline.unscopedRest (Ix := Unit) (Name := ℕ) (U := UR sig nD τ) (Lvl := ℕ) spec1 c (V2 m ρ c))
      ⊢ (unscopedBufs (Ix := Unit) (Name := ℕ) (U := UR sig nD τ) (Lvl := ℕ) c (V3 m ρ c) : sProp 𝕄) := by
    rw [Pipeline.unscopedBufs_split₀ (Pipeline.pin (pcfgs (F := F)) adm) (1 : Fin 2) winFacts₀1.arr_unscoped c (V3 m ρ c)]
    refine sep_mono (bufs_of_arrays1 (V2 m ρ) c (V3 m ρ c) _ (W3_arr m ρ c 0).symm (W3_arr m ρ c 1).symm (W3_arr m ρ c 2).symm
      (W3_arr m ρ c 3).symm (W3_arr m ρ c 4).symm (W3_arr m ρ c 5).symm) (Entails.of_eq ?_)
    unfold Pipeline.unscopedRest
    refine bigSep_congr fun b hb => ?_
    have hne : ∀ w, Pipeline.arrRef spec1 w ≠ b := fun w e => (Finset.mem_sdiff.mp hb).2 (Finset.mem_image.mpr ⟨w, Finset.mem_univ _, e⟩)
    rw [show V3 m ρ c b = V2 m ρ c b from W3_of_ne m ρ c b (hne 4).symm (hne 5).symm]
  rw [Pipeline.unscopedBufs_held] at h
  exact h

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
/-- No core owes another anything: no level is assigned. -/
abbrev Lnone : GSem nD τ sig → Finset Unit := fun _ => ∅
abbrev lv0 : GSem nD τ sig → Unit → ℕ := fun _ _ => 0
/-- What rides beside the buffers through every segment: the core's generator register at some state and its `owes`, at nothing. -/
abbrev Rside (c : Dev nD) : sProp 𝕄 := iprop((∃ r, prngReg c r) ∗ ∃ W, owes (c : Thread nD τ) (0 : CellTallies nD τ sig Unit) W)
/-- A host stretch as a segment over the unscoped references from the contents `W`, `Rside` riding along: it runs to
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lnone lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rside
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tend (c : Dev nD) : sProp 𝕄 := iprop(StableHlo.held (c : Thread nD τ) (Pipeline.ucRefs τ sig) (Wend m ρ c) ∗ ∃ r, prngReg c r)

/-! ## The regions as segments -/

-- a library lemma stated over `pin pcs a p` unifies with the pinned configuration only when unification may unfold plain
-- definitions in a metavariable's type
set_option backward.isDefEq.respectTransparency.types false in
/-- REGION 0 (custom_call 0) over the thread state: entered from every unscoped buffer at `W0`, left at `W1`. Its arrays
    are split out of the unscoped buffers at the dealt shares (`entry0`) and put back at the exit contents (`exit0`); the
    generator register goes into the class invariant and comes out; nothing is owed; the kernel has no semaphore of its own. -/
def reg0 : Pipeline.RegionSeg (pcfgs (F := F)) adm (pdats m ρ) () defs₀ Variants.none Lnone lv0 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ Lnone lv0 0 fun _ _ => rfl
  pre c := iprop(StableHlo.held (c : Thread nD τ) (Pipeline.ucRefs τ sig) (W0 m ρ c) ∗ Rside c)
  post c := iprop(StableHlo.held (c : Thread nD τ) (Pipeline.ucRefs τ sig) (W1 m ρ c) ∗ Rside c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry0 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- REGION 1 (custom_call 1) over the thread state: entered from every unscoped buffer at `W2`, left at `W3`. Its arrays
    are split out of the unscoped buffers at the dealt shares (`entry1`) and put back at the exit contents (`exit1`); the
    generator register goes into the class invariant and comes out; nothing is owed; the kernel has no semaphore of its own. -/
def reg1 : Pipeline.RegionSeg (pcfgs (F := F)) adm (pdats m ρ) () defs₀ Variants.none Lnone lv0 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ Lnone lv0 1 fun _ _ => rfl
  pre c := iprop(StableHlo.held (c : Thread nD τ) (Pipeline.ucRefs τ sig) (W2 m ρ c) ∗ Rside c)
  post c := iprop(StableHlo.held (c : Thread nD τ) (Pipeline.ucRefs τ sig) (W3 m ρ c) ∗ Rside c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's 24 segments in order: a region per kernel call, a host segment per stretch from its boundary's contents. -/
abbrev segs : List (Pipeline.Seg (pcfgs (F := F)) adm (pdats m ρ) () defs₀ Variants.none Lnone lv0) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)),
    .host (hseg hostOps2_5 hostOps2_5_sub hostOps2_5_fresh (W8 m ρ)),
    .host (hseg hostOps2_6 hostOps2_6_sub hostOps2_6_fresh (W9 m ρ)),
    .host (hseg hostOps2_7 hostOps2_7_sub hostOps2_7_fresh (W10 m ρ)),
    .host (hseg hostOps2_8 hostOps2_8_sub hostOps2_8_fresh (W11 m ρ)),
    .host (hseg hostOps2_9 hostOps2_9_sub hostOps2_9_fresh (W12 m ρ)),
    .host (hseg hostOps2_10 hostOps2_10_sub hostOps2_10_fresh (W13 m ρ)),
    .host (hseg hostOps2_11 hostOps2_11_sub hostOps2_11_fresh (W14 m ρ)),
    .host (hseg hostOps2_12 hostOps2_12_sub hostOps2_12_fresh (W15 m ρ)),
    .host (hseg hostOps2_13 hostOps2_13_sub hostOps2_13_fresh (W16 m ρ)),
    .host (hseg hostOps2_14 hostOps2_14_sub hostOps2_14_fresh (W17 m ρ)),
    .host (hseg hostOps2_15 hostOps2_15_sub hostOps2_15_fresh (W18 m ρ)),
    .host (hseg hostOps2_16 hostOps2_16_sub hostOps2_16_fresh (W19 m ρ)),
    .host (hseg hostOps2_17 hostOps2_17_sub hostOps2_17_fresh (W20 m ρ)),
    .host (hseg hostOps2_18 hostOps2_18_sub hostOps2_18_fresh (W21 m ρ)),
    .host (hseg hostOps2_19 hostOps2_19_sub hostOps2_19_fresh (W22 m ρ)),
    .host (hseg hostOps2_20 hostOps2_20_sub hostOps2_20_fresh (W23 m ρ)) ]
/-- @main IS the run of the segments: the chain of its items, which the segments' run is by definitional unfolding. -/
theorem main_run (c : Dev nD) : main (F := F) c = Pipeline.Seg.run (segs m ρ) := (main_chain c).trans (by chain_rfl)

/-! ## The arguments end as launched: no host operation and no region writes one -/

theorem argRefs_ne : ∀ r ∈ argRefs, r ≠ main_v0_0 ∧ r ≠ main_v0_1 ∧ r ≠ main_v7_0 ∧ r ≠ main_v7_1 := by decide

/-- The fold at an argument's buffer walks back to the launch memory. -/
theorem Wend_arg (c : Dev nD) (r : Ref sig .tc) (hr : r ∈ argRefs) :
    Wend m ρ c (Proc.devRef .tc r) = m ((c : Thread nD τ).loc r) :=
    (StableHlo.after_of_forall_not_mem hostOps2_20 (W23 m ρ c) (hostOps2_20_keeps r hr)).trans <|
    (StableHlo.after_of_forall_not_mem hostOps2_19 (W22 m ρ c) (hostOps2_19_keeps r hr)).trans <|
    (StableHlo.after_of_forall_not_mem hostOps2_18 (W21 m ρ c) (hostOps2_18_keeps r hr)).trans <|
    (StableHlo.after_of_forall_not_mem hostOps2_17 (W20 m ρ c) (hostOps2_17_keeps r hr)).trans <|
    (StableHlo.after_of_forall_not_mem hostOps2_16 (W19 m ρ c) (hostOps2_16_keeps r hr)).trans <|
    (StableHlo.after_of_forall_not_mem hostOps2_15 (W18 m ρ c) (hostOps2_15_keeps r hr)).trans <|
    (StableHlo.after_of_forall_not_mem hostOps2_14 (W17 m ρ c) (hostOps2_14_keeps r hr)).trans <|
    (StableHlo.after_of_forall_not_mem hostOps2_13 (W16 m ρ c) (hostOps2_13_keeps r hr)).trans <|
    (StableHlo.after_of_forall_not_mem hostOps2_12 (W15 m ρ c) (hostOps2_12_keeps r hr)).trans <|
    (StableHlo.after_of_forall_not_mem hostOps2_11 (W14 m ρ c) (hostOps2_11_keeps r hr)).trans <|
    (StableHlo.after_of_forall_not_mem hostOps2_10 (W13 m ρ c) (hostOps2_10_keeps r hr)).trans <|
    (StableHlo.after_of_forall_not_mem hostOps2_9 (W12 m ρ c) (hostOps2_9_keeps r hr)).trans <|
    (StableHlo.after_of_forall_not_mem hostOps2_8 (W11 m ρ c) (hostOps2_8_keeps r hr)).trans <|
    (StableHlo.after_of_forall_not_mem hostOps2_7 (W10 m ρ c) (hostOps2_7_keeps r hr)).trans <|
    (StableHlo.after_of_forall_not_mem hostOps2_6 (W9 m ρ c) (hostOps2_6_keeps r hr)).trans <|
    (StableHlo.after_of_forall_not_mem hostOps2_5 (W8 m ρ c) (hostOps2_5_keeps r hr)).trans <|
    (StableHlo.after_of_forall_not_mem hostOps2_4 (W7 m ρ c) (hostOps2_4_keeps r hr)).trans <|
    (StableHlo.after_of_forall_not_mem hostOps2_3 (W6 m ρ c) (hostOps2_3_keeps r hr)).trans <|
    (StableHlo.after_of_forall_not_mem hostOps2_2 (W5 m ρ c) (hostOps2_2_keeps r hr)).trans <|
    (StableHlo.after_of_forall_not_mem hostOps2_1 (W4 m ρ c) (hostOps2_1_keeps r hr)).trans <|
    (StableHlo.after_of_forall_not_mem hostOps2 (W3 m ρ c) (hostOps2_keeps r hr)).trans <|
    (W3_of_ne m ρ c r (argRefs_ne r hr).2.2.1 (argRefs_ne r hr).2.2.2).trans <|
    (StableHlo.after_of_forall_not_mem hostOps1 (W1 m ρ c) (hostOps1_keeps r hr)).trans <|
    (W1_of_ne m ρ c r (argRefs_ne r hr).1 (argRefs_ne r hr).2.1).trans rfl

theorem Wend_main_arg0 (c : Dev nD) : Wend m ρ c (Proc.devRef .tc main_arg0) = m ((c : Thread nD τ).loc main_arg0) :=
  Wend_arg m ρ c main_arg0 (by decide)
theorem Wend_main_arg1 (c : Dev nD) : Wend m ρ c (Proc.devRef .tc main_arg1) = m ((c : Thread nD τ).loc main_arg1) :=
  Wend_arg m ρ c main_arg1 (by decide)
theorem Wend_main_arg2 (c : Dev nD) : Wend m ρ c (Proc.devRef .tc main_arg2) = m ((c : Thread nD τ).loc main_arg2) :=
  Wend_arg m ρ c main_arg2 (by decide)
theorem Wend_main_arg3 (c : Dev nD) : Wend m ρ c (Proc.devRef .tc main_arg3) = m ((c : Thread nD τ).loc main_arg3) :=
  Wend_arg m ρ c main_arg3 (by decide)
theorem Wend_main_arg4 (c : Dev nD) : Wend m ρ c (Proc.devRef .tc main_arg4) = m ((c : Thread nD τ).loc main_arg4) :=
  Wend_arg m ρ c main_arg4 (by decide)
theorem Wend_main_arg5 (c : Dev nD) : Wend m ρ c (Proc.devRef .tc main_arg5) = m ((c : Thread nD τ).loc main_arg5) :=
  Wend_arg m ρ c main_arg5 (by decide)
theorem Wend_main_arg6 (c : Dev nD) : Wend m ρ c (Proc.devRef .tc main_arg6) = m ((c : Thread nD τ).loc main_arg6) :=
  Wend_arg m ρ c main_arg6 (by decide)

/-! ## The stretches after region 1 as one line -/

theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => rw [List.cons_append, StableHlo.after_cons, StableHlo.after_cons, ih]

theorem after_flatten {τ : Topo} {sig : RefSig} {Val : EltTy → Type} (ls : List (List (HloOp τ sig Val))) (V : Valuation τ sig Val) :
    StableHlo.after ls.flatten V = ls.foldl (fun V l => StableHlo.after l V) V := by
  induction ls generalizing V with
  | nil => rfl
  | cons l ls ih => rw [List.flatten_cons, after_append, ih, List.foldl_cons]

/-- The contents at the return are the 21 stretches after region 1, as one line, from region 1's exit contents. -/
theorem Wend_eq (c : Dev nD) :
    Wend m ρ c = StableHlo.after (List.flatten [hostOps2, hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20]) (W3 m ρ c) :=
  (after_flatten [hostOps2, hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20] (W3 m ρ c)).symm

/-! ## The launch -/

/-- The last stretch's exit state is the last thread state beside the core owing nothing. -/
theorem tend_of (c : Dev nD) :
    iprop(StableHlo.held (c : Thread nD τ) (Pipeline.ucRefs τ sig) (Wend m ρ c) ∗ Rside c)
      ⊢ (iprop(Tend m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

-- the launch theorem's implicit arguments are found by unifying its conclusion with this one, which takes unfolding plain
-- definitions in a metavariable's type
set_option backward.isDefEq.respectTransparency.types false in
/-- THE RUN, at any post `Q` that follows from the final memory holding every unscoped buffer at `Wend`: from any memory
    with zero counters, every weakly fair execution of @main on the TensorCores terminates, nothing faulting, and the
    final state satisfies `Q`. The launch over the 24 segments; the last thread state read against the final state. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = Wend m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ Variants.none Lnone lv0 m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rside c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => tend_of m ρ c⟩)
    (hinit := by
      refine Pipeline.initEach Lnone lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := hQ)

/-- The run, the final memory read at every unscoped buffer. -/
theorem run_main : θ_run defs (onTc (τ := τ) (main (F := F))) ⟨m, fun _ => 0, ρ⟩
    (fun r => ∀ c : Dev nD, ∀ b ∈ Pipeline.ucRefs τ sig, r.2.mem (((c : Thread nD τ)).1, b) = Wend m ρ c b) :=
  run_post m ρ fun _ h => h

/-- THE FRAME: @main runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_post m ρ fun s h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c),
     (h c _ (mem_uc main_arg6 (by decide))).trans (Wend_main_arg6 m ρ c)⟩

/-- The run with the result buffer read: it holds the fold's last contents, and the argument arrays end as launched. -/
theorem run_result : θ_run defs (onTc (τ := τ) (main (F := F))) ⟨m, fun _ => 0, ρ⟩ (fun r => ∀ c : Dev nD,
      r.2.mem ((c.tc : Thread nD τ).loc main_v392) = Wend m ρ c (Proc.devRef .tc main_v392)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_post m ρ fun s h c =>
    ⟨h c _ (mem_uc main_v392 (by decide)),
     (h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c),
     (h c _ (mem_uc main_arg6 (by decide))).trans (Wend_main_arg6 m ρ c)⟩

end Cert.Kernel.Hand

end
-- ==== Proof.KI.Body0.lean ====
import proofs.«424358_j44040594653645_2_alg».proof.Proof.Gen.KernelIdeal.Launch
import proofs.«424358_j44040594653645_2_alg».proof.Proof.Gen.KernelIdeal.Skeleton
import proofs.«424358_j44040594653645_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The three channel groups of the logit block (channels 0-2, 3-5, 6-8), -/
abbrev rI0_0 : Rect S1x9x16x64x64 := Rect.unit (s := S1x9x16x64x64) ![0, 0, 0, 0, 0] S1x3x16x64x64.size inb_S1x9x16x64x64_S1x3x16x64x64_0_0_0_0_0
abbrev rI0_3 : Rect S1x9x16x64x64 := Rect.unit (s := S1x9x16x64x64) ![0, 3, 0, 0, 0] S1x3x16x64x64.size inb_S1x9x16x64x64_S1x3x16x64x64_0_3_0_0_0
abbrev rI0_6 : Rect S1x9x16x64x64 := Rect.unit (s := S1x9x16x64x64) ![0, 6, 0, 0, 0] S1x3x16x64x64.size inb_S1x9x16x64x64_S1x3x16x64x64_0_6_0_0_0
/-- of a one-slab neighbour block, -/
abbrev rH0_0 : Rect S1x9x1x64x64 := Rect.unit (s := S1x9x1x64x64) ![0, 0, 0, 0, 0] S1x3x1x64x64.size inb_S1x9x1x64x64_S1x3x1x64x64_0_0_0_0_0
abbrev rH0_3 : Rect S1x9x1x64x64 := Rect.unit (s := S1x9x1x64x64) ![0, 3, 0, 0, 0] S1x3x1x64x64.size inb_S1x9x1x64x64_S1x3x1x64x64_0_3_0_0_0
abbrev rH0_6 : Rect S1x9x1x64x64 := Rect.unit (s := S1x9x1x64x64) ![0, 6, 0, 0, 0] S1x3x1x64x64.size inb_S1x9x1x64x64_S1x3x1x64x64_0_6_0_0_0
/-- the whole target block and the whole output block, -/
abbrev rP0 : Rect S1x3x16x64x64 := Rect.unit (s := S1x3x16x64x64) ![0, 0, 0, 0, 0] S1x3x16x64x64.size inb_S1x3x16x64x64_S1x3x16x64x64_0_0_0_0_0
abbrev rO0 : Rect S1x1x8x128 := Rect.unit (s := S1x1x8x128) ![0, 0, 0, 0] S1x1x8x128.size inb_S1x1x8x128_S1x1x8x128_0_0_0_0
/-- the two halo slabs (depth 0 and depth 17) of the padded scratch -/
abbrev rS0_lo : Rect S3x18x64x64 := Rect.unit (s := S3x18x64x64) ![0, 0, 0, 0] S3x1x64x64.size inb_S3x18x64x64_S3x1x64x64_0_0_0_0
abbrev rS0_hi : Rect S3x18x64x64 := Rect.unit (s := S3x18x64x64) ![0, 17, 0, 0] S3x1x64x64.size inb_S3x18x64x64_S3x1x64x64_0_17_0_0
/-- and its three sixteen-slab windows at depth offsets 0, 1, 2 (offset 1 is also where the tile's own slabs are stored). -/
abbrev rW0_0 : Rect S3x18x64x64 := Rect.unit (s := S3x18x64x64) ![0, 0, 0, 0] S3x16x64x64.size inb_S3x18x64x64_S3x16x64x64_0_0_0_0
abbrev rW0_1 : Rect S3x18x64x64 := Rect.unit (s := S3x18x64x64) ![0, 1, 0, 0] S3x16x64x64.size inb_S3x18x64x64_S3x16x64x64_0_1_0_0
abbrev rW0_2 : Rect S3x18x64x64 := Rect.unit (s := S3x18x64x64) ![0, 2, 0, 0] S3x16x64x64.size inb_S3x18x64x64_S3x16x64x64_0_2_0_0

theorem zeros4_0 : (![0, 0, 0, 0] : Fin 4 → Nat) = fun _ => 0 := funext fun a => by fin_cases a <;> rfl

/-! ## The values the body computes, from the four input blocks -/

/-- The first value of the tile's three-class log-softmax stage, from the logit block's three channel groups. -/
def lsmA0 (x0 : Vec F S1x9x16x64x64 .f32) : FVec F S3x16x64x64 .f32 :=
  k0_pay8 (View.ld x0 rI0_0) (View.ld x0 rI0_3) (View.ld x0 rI0_6)
/-- The second value of that stage. -/
def lsmB0 (x0 : Vec F S1x9x16x64x64 .f32) : FVec F S3x16x64x64 .f32 :=
  k0_pay9 (View.ld x0 rI0_0) (View.ld x0 rI0_3) (View.ld x0 rI0_6)
/-- The halo slab below the tile (depth 0 of the scratch), from the previous-slab block. -/
def haloLo0 (x1 : Vec F S1x9x1x64x64 .f32) : FVec F S3x1x64x64 .f32 :=
  k0_pay14 (k0_pay10 (View.ld x1 rH0_0)) (k0_pay11 (View.ld x1 rH0_3)) (k0_pay12 (View.ld x1 rH0_6))
    (k0_pay13 (View.ld x1 rH0_0) (View.ld x1 rH0_3) (View.ld x1 rH0_6))
/-- The halo slab above the tile (depth 17 of the scratch), from the next-slab block. -/
def haloHi0 (x2 : Vec F S1x9x1x64x64 .f32) : FVec F S3x1x64x64 .f32 :=
  k0_pay15 (View.ld x2 rH0_0) (View.ld x2 rH0_3) (View.ld x2 rH0_6)

/-- The body's three stores into the scratch, LAST FIRST: the tile's sixteen slabs at depths 1..16, the upper halo at
    depth 17, the lower halo at depth 0. -/
def pieces0 (x0 : Vec F S1x9x16x64x64 .f32) (x1 x2 : Vec F S1x9x1x64x64 .f32) : List (View.Piece (Elt F) S3x18x64x64 .f32) :=
  [⟨rW0_1, k0_pay16 (lsmA0 x0)⟩, ⟨rS0_hi, haloHi0 x2⟩, ⟨rS0_lo, haloLo0 x1⟩]

/-- The padded scratch contents those stores leave: one function of the three logit blocks. -/
def pad0 (x0 : Vec F S1x9x16x64x64 .f32) (x1 x2 : Vec F S1x9x1x64x64 .f32) : Vec F S3x18x64x64 .f32 :=
  View.canon (pieces0 x0 x1 x2)

/-- The three depth-shifted sixteen-slab windows of the padded scratch. -/
def slab0_0 (x0 : Vec F S1x9x16x64x64 .f32) (x1 x2 : Vec F S1x9x1x64x64 .f32) : FVec F S3x16x64x64 .f32 := View.ld (pad0 x0 x1 x2) rW0_0
def slab0_1 (x0 : Vec F S1x9x16x64x64 .f32) (x1 x2 : Vec F S1x9x1x64x64 .f32) : FVec F S3x16x64x64 .f32 := View.ld (pad0 x0 x1 x2) rW0_1
def slab0_2 (x0 : Vec F S1x9x16x64x64 .f32) (x1 x2 : Vec F S1x9x1x64x64 .f32) : FVec F S3x16x64x64 .f32 := View.ld (pad0 x0 x1 x2) rW0_2

/-! ## What the body leaves in each output window's buffer -/

/-- Output window 4's staging buffer after the body, from the four input blocks: its one whole-buffer store's payload. -/
def out0_4 (x0 : Vec F S1x9x16x64x64 .f32) (x1 x2 : Vec F S1x9x1x64x64 .f32) (x3 : Vec F S1x3x16x64x64 .f32) : Vec F S1x1x8x128 .f32 :=
  k0_pay22 (lsmA0 x0) (lsmB0 x0)
    (k0_pay17 (slab0_0 x0 x1 x2) (slab0_1 x0 x1 x2) (slab0_2 x0 x1 x2))
    (k0_pay18 (slab0_0 x0 x1 x2) (slab0_1 x0 x1 x2) (slab0_2 x0 x1 x2))
    (k0_pay19 (slab0_0 x0 x1 x2) (slab0_1 x0 x1 x2) (slab0_2 x0 x1 x2))
    k0_pay20 (Scalar.ofBits .f32 0xF149F2CA#32) (View.ld x3 rP0)

/-- Output window 5's staging buffer after the body. -/
def out0_5 (x0 : Vec F S1x9x16x64x64 .f32) (x1 x2 : Vec F S1x9x1x64x64 .f32) (x3 : Vec F S1x3x16x64x64 .f32) : Vec F S1x1x8x128 .f32 :=
  k0_pay1 (k0_pay23 (lsmA0 x0) (lsmB0 x0)
    (k0_pay17 (slab0_0 x0 x1 x2) (slab0_1 x0 x1 x2) (slab0_2 x0 x1 x2))
    (k0_pay18 (slab0_0 x0 x1 x2) (slab0_1 x0 x1 x2) (slab0_2 x0 x1 x2))
    (k0_pay19 (slab0_0 x0 x1 x2) (slab0_1 x0 x1 x2) (slab0_2 x0 x1 x2))
    k0_pay20 (Scalar.ofBits .f32 0xF149F2CA#32) (View.ld x3 rP0))

/-- One whole-buffer store covers an output's buffer. -/
theorem cover0_O (p0 : Vec F S1x1x8x128 .f32) (y : S1x1x8x128.Idx) :
    ∃ pc ∈ ([⟨rO0, p0⟩] : List (View.Piece (Elt F) S1x1x8x128 .f32)), y ∈ pc.1.set :=
  ⟨_, List.mem_singleton_self _, View.mem_set_unit_zero zeros4_0 inb_S1x1x8x128_S1x1x8x128_0_0_0_0 y⟩

/-! ## The body's triple -/

set_option maxHeartbeats 1000000 in
/-- The kernel body on whole memrefs — the four inputs' at read contents, the two outputs' and the scratch at anything —
    runs to the continuation holding the inputs' as they were, each output's at `out0_W` of the inputs', the scratch at
    some contents. -/
theorem sound_kernel0 (c : Dev nD) (E : Set ℕ) (i : grid0.Coords) (arg2 : Memref sig .tc .vmem S1x9x16x64x64 .f32) (harg2 : arg2.IsWhole) (arg3 : Memref sig .tc .vmem S1x9x1x64x64 .f32) (harg3 : arg3.IsWhole) (arg4 : Memref sig .tc .vmem S1x9x1x64x64 .f32) (harg4 : arg4.IsWhole) (arg5 : Memref sig .tc .vmem S1x3x16x64x64 .f32) (harg5 : arg5.IsWhole) (arg6 : Memref sig .tc .vmem S1x1x8x128 .f32) (harg6 : arg6.IsWhole) (arg7 : Memref sig .tc .vmem S1x1x8x128 .f32) (harg7 : arg7.IsWhole) (arg8 : Memref sig .tc .vmem S3x18x64x64 .f32) (harg8 : arg8.IsWhole)
    (x0 : Vec F S1x9x16x64x64 .f32) (x1 x2 : Vec F S1x9x1x64x64 .f32) (x3 : Vec F S1x3x16x64x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1 x2 x3) ∗ owns (c : Thread nD τ) arg7 fullShare (out0_5 x0 x1 x2 x3)
            ∗ (∃ d, owns (c : Thread nD τ) arg8 fullShare d)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_eq_canon _ _ _ (cover0_O _), View.canon_unit_zero zeros4_0]
    sl_unfold_run_names
    simp only [View.readCov_eq_canon']
    rfl
  isplitl [H7]
  · iexists _; isplitr
    swap; · iexact H7
    ipureintro
    rw [View.read_writes_eq_canon _ _ _ (cover0_O _), View.canon_unit_zero zeros4_0]
    sl_unfold_run_names
    simp only [View.readCov_eq_canon']
    rfl
  iexists _; iexists _; isplitr
  swap; · iexact H8
  ipureintro; rfl

/-! ## The value form of the outputs -/

theorem zeros5_0 : (![0, 0, 0, 0, 0] : Fin 5 → Nat) = fun _ => 0 := funext fun a => by fin_cases a <;> rfl

/-- The whole-block load of the target block reads the block. -/
theorem ld_rP0 (x3 : Vec F S1x3x16x64x64 .f32) : View.ld x3 rP0 = x3 :=
  View.ld_unit_zero (S := S1x3x16x64x64) zeros5_0 inb_S1x3x16x64x64_S1x3x16x64x64_0_0_0_0_0 x3

/-- Output window 4 after the body, as the printed payload chain over the values read. -/
theorem out0_4_eq (x0 : Vec F S1x9x16x64x64 .f32) (x1 x2 : Vec F S1x9x1x64x64 .f32) (x3 : Vec F S1x3x16x64x64 .f32) :
    out0_4 x0 x1 x2 x3 = k0_pay22 (lsmA0 x0) (lsmB0 x0)
      (k0_pay17 (slab0_0 x0 x1 x2) (slab0_1 x0 x1 x2) (slab0_2 x0 x1 x2))
      (k0_pay18 (slab0_0 x0 x1 x2) (slab0_1 x0 x1 x2) (slab0_2 x0 x1 x2))
      (k0_pay19 (slab0_0 x0 x1 x2) (slab0_1 x0 x1 x2) (slab0_2 x0 x1 x2))
      k0_pay20 (Scalar.ofBits .f32 0xF149F2CA#32) x3 := by
  unfold out0_4; rw [ld_rP0]

/-- Output window 5 after the body. -/
theorem out0_5_eq (x0 : Vec F S1x9x16x64x64 .f32) (x1 x2 : Vec F S1x9x1x64x64 .f32) (x3 : Vec F S1x3x16x64x64 .f32) :
    out0_5 x0 x1 x2 x3 = k0_pay1 (k0_pay23 (lsmA0 x0) (lsmB0 x0)
      (k0_pay17 (slab0_0 x0 x1 x2) (slab0_1 x0 x1 x2) (slab0_2 x0 x1 x2))
      (k0_pay18 (slab0_0 x0 x1 x2) (slab0_1 x0 x1 x2) (slab0_2 x0 x1 x2))
      (k0_pay19 (slab0_0 x0 x1 x2) (slab0_1 x0 x1 x2) (slab0_2 x0 x1 x2))
      k0_pay20 (Scalar.ofBits .f32 0xF149F2CA#32) x3) := by
  unfold out0_5; rw [ld_rP0]

/-! ## The class invariant with the region's scratch taken out -/

/-- The scratch operand: a whole scoped buffer of the kernel's own, passed beside the windows. -/
abbrev scM0 : Memref sig .tc .vmem S3x18x64x64 .f32 := Memref.whole cc0_scratch0

/-- The core's scoped buffers that are no staging buffer of this call: its scratch, then every other one unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The class invariant with the scratch operand as a memref owned at some contents: what the body obligation hands
    the body's triple and takes back. -/
theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place (the window uncut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them; after the body at point `t` each
    input's buffer at its block and each output's at `out0_W` of the four input blocks; the invariant the class's (the
    scoped rest, the scratch among it, at anything, and the generator register); nothing owed; the logit array's share
    dealt among its three windows, full shares elsewhere. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q := fun w => match w with
    | ⟨0, _⟩ => fullShare.left
    | ⟨1, _⟩ => fullShare.right.left
    | ⟨2, _⟩ => fullShare.right.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' memrefs hold their blocks, so the body's triple applies; the invariant lends the
    scratch (at anything) and takes it back (at anything); the rest of it and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2, after0_3, after0_4, after0_5, PhiA0_eq]
  iintro ⟨⟨⟨HS, HR⟩, Hg⟩, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Body1.lean ====
import proofs.«424358_j44040594653645_2_alg».proof.Proof.Gen.KernelIdeal.Launch
import proofs.«424358_j44040594653645_2_alg».proof.Proof.Gen.KernelIdeal.Skeleton
import proofs.«424358_j44040594653645_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The three channel groups of the logit block (channels 0-2, 3-5, 6-8), -/
abbrev rI1_0 : Rect S1x9x16x32x32 := Rect.unit (s := S1x9x16x32x32) ![0, 0, 0, 0, 0] S1x3x16x32x32.size inb_S1x9x16x32x32_S1x3x16x32x32_0_0_0_0_0
abbrev rI1_3 : Rect S1x9x16x32x32 := Rect.unit (s := S1x9x16x32x32) ![0, 3, 0, 0, 0] S1x3x16x32x32.size inb_S1x9x16x32x32_S1x3x16x32x32_0_3_0_0_0
abbrev rI1_6 : Rect S1x9x16x32x32 := Rect.unit (s := S1x9x16x32x32) ![0, 6, 0, 0, 0] S1x3x16x32x32.size inb_S1x9x16x32x32_S1x3x16x32x32_0_6_0_0_0
/-- of a one-slab neighbour block, -/
abbrev rH1_0 : Rect S1x9x1x32x32 := Rect.unit (s := S1x9x1x32x32) ![0, 0, 0, 0, 0] S1x3x1x32x32.size inb_S1x9x1x32x32_S1x3x1x32x32_0_0_0_0_0
abbrev rH1_3 : Rect S1x9x1x32x32 := Rect.unit (s := S1x9x1x32x32) ![0, 3, 0, 0, 0] S1x3x1x32x32.size inb_S1x9x1x32x32_S1x3x1x32x32_0_3_0_0_0
abbrev rH1_6 : Rect S1x9x1x32x32 := Rect.unit (s := S1x9x1x32x32) ![0, 6, 0, 0, 0] S1x3x1x32x32.size inb_S1x9x1x32x32_S1x3x1x32x32_0_6_0_0_0
/-- the whole target block and the whole output block, -/
abbrev rP1 : Rect S1x3x16x32x32 := Rect.unit (s := S1x3x16x32x32) ![0, 0, 0, 0, 0] S1x3x16x32x32.size inb_S1x3x16x32x32_S1x3x16x32x32_0_0_0_0_0
abbrev rO1 : Rect S1x1x8x128 := Rect.unit (s := S1x1x8x128) ![0, 0, 0, 0] S1x1x8x128.size inb_S1x1x8x128_S1x1x8x128_0_0_0_0
/-- the two halo slabs (depth 0 and depth 17) of the padded scratch -/
abbrev rS1_lo : Rect S3x18x32x32 := Rect.unit (s := S3x18x32x32) ![0, 0, 0, 0] S3x1x32x32.size inb_S3x18x32x32_S3x1x32x32_0_0_0_0
abbrev rS1_hi : Rect S3x18x32x32 := Rect.unit (s := S3x18x32x32) ![0, 17, 0, 0] S3x1x32x32.size inb_S3x18x32x32_S3x1x32x32_0_17_0_0
/-- and its three sixteen-slab windows at depth offsets 0, 1, 2 (offset 1 is also where the tile's own slabs are stored). -/
abbrev rW1_0 : Rect S3x18x32x32 := Rect.unit (s := S3x18x32x32) ![0, 0, 0, 0] S3x16x32x32.size inb_S3x18x32x32_S3x16x32x32_0_0_0_0
abbrev rW1_1 : Rect S3x18x32x32 := Rect.unit (s := S3x18x32x32) ![0, 1, 0, 0] S3x16x32x32.size inb_S3x18x32x32_S3x16x32x32_0_1_0_0
abbrev rW1_2 : Rect S3x18x32x32 := Rect.unit (s := S3x18x32x32) ![0, 2, 0, 0] S3x16x32x32.size inb_S3x18x32x32_S3x16x32x32_0_2_0_0

theorem zeros4_1 : (![0, 0, 0, 0] : Fin 4 → Nat) = fun _ => 0 := funext fun a => by fin_cases a <;> rfl

/-! ## The values the body computes, from the four input blocks -/

/-- The first value of the tile's three-class log-softmax stage, from the logit block's three channel groups. -/
def lsmA1 (x0 : Vec F S1x9x16x32x32 .f32) : FVec F S3x16x32x32 .f32 :=
  k1_pay8 (View.ld x0 rI1_0) (View.ld x0 rI1_3) (View.ld x0 rI1_6)
/-- The second value of that stage. -/
def lsmB1 (x0 : Vec F S1x9x16x32x32 .f32) : FVec F S3x16x32x32 .f32 :=
  k1_pay9 (View.ld x0 rI1_0) (View.ld x0 rI1_3) (View.ld x0 rI1_6)
/-- The halo slab below the tile (depth 0 of the scratch), from the previous-slab block. -/
def haloLo1 (x1 : Vec F S1x9x1x32x32 .f32) : FVec F S3x1x32x32 .f32 :=
  k1_pay14 (k1_pay10 (View.ld x1 rH1_0)) (k1_pay11 (View.ld x1 rH1_3)) (k1_pay12 (View.ld x1 rH1_6))
    (k1_pay13 (View.ld x1 rH1_0) (View.ld x1 rH1_3) (View.ld x1 rH1_6))
/-- The halo slab above the tile (depth 17 of the scratch), from the next-slab block. -/
def haloHi1 (x2 : Vec F S1x9x1x32x32 .f32) : FVec F S3x1x32x32 .f32 :=
  k1_pay15 (View.ld x2 rH1_0) (View.ld x2 rH1_3) (View.ld x2 rH1_6)

/-- The body's three stores into the scratch, LAST FIRST: the tile's sixteen slabs at depths 1..16, the upper halo at
    depth 17, the lower halo at depth 0. -/
def pieces1 (x0 : Vec F S1x9x16x32x32 .f32) (x1 x2 : Vec F S1x9x1x32x32 .f32) : List (View.Piece (Elt F) S3x18x32x32 .f32) :=
  [⟨rW1_1, k1_pay16 (lsmA1 x0)⟩, ⟨rS1_hi, haloHi1 x2⟩, ⟨rS1_lo, haloLo1 x1⟩]

/-- The padded scratch contents those stores leave: one function of the three logit blocks. -/
def pad1 (x0 : Vec F S1x9x16x32x32 .f32) (x1 x2 : Vec F S1x9x1x32x32 .f32) : Vec F S3x18x32x32 .f32 :=
  View.canon (pieces1 x0 x1 x2)

/-- The three depth-shifted sixteen-slab windows of the padded scratch. -/
def slab1_0 (x0 : Vec F S1x9x16x32x32 .f32) (x1 x2 : Vec F S1x9x1x32x32 .f32) : FVec F S3x16x32x32 .f32 := View.ld (pad1 x0 x1 x2) rW1_0
def slab1_1 (x0 : Vec F S1x9x16x32x32 .f32) (x1 x2 : Vec F S1x9x1x32x32 .f32) : FVec F S3x16x32x32 .f32 := View.ld (pad1 x0 x1 x2) rW1_1
def slab1_2 (x0 : Vec F S1x9x16x32x32 .f32) (x1 x2 : Vec F S1x9x1x32x32 .f32) : FVec F S3x16x32x32 .f32 := View.ld (pad1 x0 x1 x2) rW1_2

/-! ## What the body leaves in each output window's buffer -/

/-- Output window 4's staging buffer after the body, from the four input blocks: its one whole-buffer store's payload. -/
def out1_4 (x0 : Vec F S1x9x16x32x32 .f32) (x1 x2 : Vec F S1x9x1x32x32 .f32) (x3 : Vec F S1x3x16x32x32 .f32) : Vec F S1x1x8x128 .f32 :=
  k1_pay22 (lsmA1 x0) (lsmB1 x0)
    (k1_pay17 (slab1_0 x0 x1 x2) (slab1_1 x0 x1 x2) (slab1_2 x0 x1 x2))
    (k1_pay18 (slab1_0 x0 x1 x2) (slab1_1 x0 x1 x2) (slab1_2 x0 x1 x2))
    (k1_pay19 (slab1_0 x0 x1 x2) (slab1_1 x0 x1 x2) (slab1_2 x0 x1 x2))
    k1_pay20 (Scalar.ofBits .f32 0xF149F2CA#32) (View.ld x3 rP1)

/-- Output window 5's staging buffer after the body. -/
def out1_5 (x0 : Vec F S1x9x16x32x32 .f32) (x1 x2 : Vec F S1x9x1x32x32 .f32) (x3 : Vec F S1x3x16x32x32 .f32) : Vec F S1x1x8x128 .f32 :=
  k1_pay1 (k1_pay23 (lsmA1 x0) (lsmB1 x0)
    (k1_pay17 (slab1_0 x0 x1 x2) (slab1_1 x0 x1 x2) (slab1_2 x0 x1 x2))
    (k1_pay18 (slab1_0 x0 x1 x2) (slab1_1 x0 x1 x2) (slab1_2 x0 x1 x2))
    (k1_pay19 (slab1_0 x0 x1 x2) (slab1_1 x0 x1 x2) (slab1_2 x0 x1 x2))
    k1_pay20 (Scalar.ofBits .f32 0xF149F2CA#32) (View.ld x3 rP1))

/-- One whole-buffer store covers an output's buffer. -/
theorem cover1_O (p0 : Vec F S1x1x8x128 .f32) (y : S1x1x8x128.Idx) :
    ∃ pc ∈ ([⟨rO1, p0⟩] : List (View.Piece (Elt F) S1x1x8x128 .f32)), y ∈ pc.1.set :=
  ⟨_, List.mem_singleton_self _, View.mem_set_unit_zero zeros4_1 inb_S1x1x8x128_S1x1x8x128_0_0_0_0 y⟩

/-! ## The body's triple -/

set_option maxHeartbeats 1000000 in
/-- The kernel body on whole memrefs — the four inputs' at read contents, the two outputs' and the scratch at anything —
    runs to the continuation holding the inputs' as they were, each output's at `out1_W` of the inputs', the scratch at
    some contents. -/
theorem sound_kernel1 (c : Dev nD) (E : Set ℕ) (i : grid1.Coords) (arg2 : Memref sig .tc .vmem S1x9x16x32x32 .f32) (harg2 : arg2.IsWhole) (arg3 : Memref sig .tc .vmem S1x9x1x32x32 .f32) (harg3 : arg3.IsWhole) (arg4 : Memref sig .tc .vmem S1x9x1x32x32 .f32) (harg4 : arg4.IsWhole) (arg5 : Memref sig .tc .vmem S1x3x16x32x32 .f32) (harg5 : arg5.IsWhole) (arg6 : Memref sig .tc .vmem S1x1x8x128 .f32) (harg6 : arg6.IsWhole) (arg7 : Memref sig .tc .vmem S1x1x8x128 .f32) (harg7 : arg7.IsWhole) (arg8 : Memref sig .tc .vmem S3x18x32x32 .f32) (harg8 : arg8.IsWhole)
    (x0 : Vec F S1x9x16x32x32 .f32) (x1 x2 : Vec F S1x9x1x32x32 .f32) (x3 : Vec F S1x3x16x32x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out1_4 x0 x1 x2 x3) ∗ owns (c : Thread nD τ) arg7 fullShare (out1_5 x0 x1 x2 x3)
            ∗ (∃ d, owns (c : Thread nD τ) arg8 fullShare d)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_eq_canon _ _ _ (cover1_O _), View.canon_unit_zero zeros4_1]
    sl_unfold_run_names
    simp only [View.readCov_eq_canon']
    rfl
  isplitl [H7]
  · iexists _; isplitr
    swap; · iexact H7
    ipureintro
    rw [View.read_writes_eq_canon _ _ _ (cover1_O _), View.canon_unit_zero zeros4_1]
    sl_unfold_run_names
    simp only [View.readCov_eq_canon']
    rfl
  iexists _; iexists _; isplitr
  swap; · iexact H8
  ipureintro; rfl

/-! ## The value form of the outputs -/

theorem zeros5_1 : (![0, 0, 0, 0, 0] : Fin 5 → Nat) = fun _ => 0 := funext fun a => by fin_cases a <;> rfl

/-- The whole-block load of the target block reads the block. -/
theorem ld_rP1 (x3 : Vec F S1x3x16x32x32 .f32) : View.ld x3 rP1 = x3 :=
  View.ld_unit_zero (S := S1x3x16x32x32) zeros5_1 inb_S1x3x16x32x32_S1x3x16x32x32_0_0_0_0_0 x3

/-- Output window 4 after the body, as the printed payload chain over the values read. -/
theorem out1_4_eq (x0 : Vec F S1x9x16x32x32 .f32) (x1 x2 : Vec F S1x9x1x32x32 .f32) (x3 : Vec F S1x3x16x32x32 .f32) :
    out1_4 x0 x1 x2 x3 = k1_pay22 (lsmA1 x0) (lsmB1 x0)
      (k1_pay17 (slab1_0 x0 x1 x2) (slab1_1 x0 x1 x2) (slab1_2 x0 x1 x2))
      (k1_pay18 (slab1_0 x0 x1 x2) (slab1_1 x0 x1 x2) (slab1_2 x0 x1 x2))
      (k1_pay19 (slab1_0 x0 x1 x2) (slab1_1 x0 x1 x2) (slab1_2 x0 x1 x2))
      k1_pay20 (Scalar.ofBits .f32 0xF149F2CA#32) x3 := by
  unfold out1_4; rw [ld_rP1]

/-- Output window 5 after the body. -/
theorem out1_5_eq (x0 : Vec F S1x9x16x32x32 .f32) (x1 x2 : Vec F S1x9x1x32x32 .f32) (x3 : Vec F S1x3x16x32x32 .f32) :
    out1_5 x0 x1 x2 x3 = k1_pay1 (k1_pay23 (lsmA1 x0) (lsmB1 x0)
      (k1_pay17 (slab1_0 x0 x1 x2) (slab1_1 x0 x1 x2) (slab1_2 x0 x1 x2))
      (k1_pay18 (slab1_0 x0 x1 x2) (slab1_1 x0 x1 x2) (slab1_2 x0 x1 x2))
      (k1_pay19 (slab1_0 x0 x1 x2) (slab1_1 x0 x1 x2) (slab1_2 x0 x1 x2))
      k1_pay20 (Scalar.ofBits .f32 0xF149F2CA#32) x3) := by
  unfold out1_5; rw [ld_rP1]

/-! ## The class invariant with the region's scratch taken out -/

/-- The scratch operand: a whole scoped buffer of the kernel's own, passed beside the windows. -/
abbrev scM1 : Memref sig .tc .vmem S3x18x32x32 .f32 := Memref.whole cc1_scratch0

/-- The core's scoped buffers that are no staging buffer of this call: its scratch, then every other one unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant with the scratch operand as a memref owned at some contents: what the body obligation hands
    the body's triple and takes back. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place (the window uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them; after the body at point `t` each
    input's buffer at its block and each output's at `out1_W` of the four input blocks; the invariant the class's (the
    scoped rest, the scratch among it, at anything, and the generator register); nothing owed; the logit array's share
    dealt among its three windows, full shares elsewhere. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q := fun w => match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' memrefs hold their blocks, so the body's triple applies; the invariant lends the
    scratch (at anything) and takes it back (at anything); the rest of it and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, PhiA1_eq]
  iintro ⟨⟨⟨HS, HR⟩, Hg⟩, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.HostFacts.lean ====
import proofs.«424358_j44040594653645_2_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The seven argument arrays of @main. -/
def argRefs : List (Ref sig .tc) := [main_arg0, main_arg1, main_arg2, main_arg3, main_arg4, main_arg5, main_arg6]

/-- An operation whose one result buffer is no argument array writes no argument array. -/
theorem keeps_op {op : HloOp τ sig (Elt F)} (y : Ref sig .tc) (hw : op.writes = {Proc.devRef .tc y}) (hy : y ∉ argRefs)
    (r : Ref sig .tc) (hr : r ∈ argRefs) : (Proc.devRef .tc r : DevRef τ sig) ∉ op.writes := by
  rw [hw, Finset.mem_singleton]
  exact StableHlo.devRef_ne_of_ne (fun e => hy (e ▸ hr))

/-- The stretch allocates nothing. -/
theorem hostOps1_fresh : (hostOps1 : List (HloOp τ sig (Elt F))).Forall fun op => op.fresh = ∅ := by
  simp only [List.Forall]; repeat' constructor

/-- The stretch writes no argument array: each operation writes its one result buffer, which is none of them. -/
theorem hostOps1_keeps (r : Ref sig .tc) (hr : r ∈ argRefs) :
    ∀ op ∈ (hostOps1 : List (HloOp τ sig (Elt F))), (Proc.devRef .tc r : DevRef τ sig) ∉ op.writes := by
  have H : (hostOps1 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_fresh : (hostOps2 : List (HloOp τ sig (Elt F))).Forall fun op => op.fresh = ∅ := by
  simp only [List.Forall]; repeat' constructor

/-- The stretch writes no argument array: each operation writes its one result buffer, which is none of them. -/
theorem hostOps2_keeps (r : Ref sig .tc) (hr : r ∈ argRefs) :
    ∀ op ∈ (hostOps2 : List (HloOp τ sig (Elt F))), (Proc.devRef .tc r : DevRef τ sig) ∉ op.writes := by
  have H : (hostOps2 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_1_fresh : (hostOps2_1 : List (HloOp τ sig (Elt F))).Forall fun op => op.fresh = ∅ := by
  simp only [List.Forall]; repeat' constructor

/-- The stretch writes no argument array: each operation writes its one result buffer, which is none of them. -/
theorem hostOps2_1_keeps (r : Ref sig .tc) (hr : r ∈ argRefs) :
    ∀ op ∈ (hostOps2_1 : List (HloOp τ sig (Elt F))), (Proc.devRef .tc r : DevRef τ sig) ∉ op.writes := by
  have H : (hostOps2_1 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_2_fresh : (hostOps2_2 : List (HloOp τ sig (Elt F))).Forall fun op => op.fresh = ∅ := by
  simp only [List.Forall]; repeat' constructor

/-- The stretch writes no argument array: each operation writes its one result buffer, which is none of them. -/
theorem hostOps2_2_keeps (r : Ref sig .tc) (hr : r ∈ argRefs) :
    ∀ op ∈ (hostOps2_2 : List (HloOp τ sig (Elt F))), (Proc.devRef .tc r : DevRef τ sig) ∉ op.writes := by
  have H : (hostOps2_2 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_3_fresh : (hostOps2_3 : List (HloOp τ sig (Elt F))).Forall fun op => op.fresh = ∅ := by
  simp only [List.Forall]; repeat' constructor

/-- The stretch writes no argument array: each operation writes its one result buffer, which is none of them. -/
theorem hostOps2_3_keeps (r : Ref sig .tc) (hr : r ∈ argRefs) :
    ∀ op ∈ (hostOps2_3 : List (HloOp τ sig (Elt F))), (Proc.devRef .tc r : DevRef τ sig) ∉ op.writes := by
  have H : (hostOps2_3 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_4_fresh : (hostOps2_4 : List (HloOp τ sig (Elt F))).Forall fun op => op.fresh = ∅ := by
  simp only [List.Forall]; repeat' constructor

/-- The stretch writes no argument array: each operation writes its one result buffer, which is none of them. -/
theorem hostOps2_4_keeps (r : Ref sig .tc) (hr : r ∈ argRefs) :
    ∀ op ∈ (hostOps2_4 : List (HloOp τ sig (Elt F))), (Proc.devRef .tc r : DevRef τ sig) ∉ op.writes := by
  have H : (hostOps2_4 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_5_fresh : (hostOps2_5 : List (HloOp τ sig (Elt F))).Forall fun op => op.fresh = ∅ := by
  simp only [List.Forall]; repeat' constructor

/-- The stretch writes no argument array: each operation writes its one result buffer, which is none of them. -/
theorem hostOps2_5_keeps (r : Ref sig .tc) (hr : r ∈ argRefs) :
    ∀ op ∈ (hostOps2_5 : List (HloOp τ sig (Elt F))), (Proc.devRef .tc r : DevRef τ sig) ∉ op.writes := by
  have H : (hostOps2_5 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_6_fresh : (hostOps2_6 : List (HloOp τ sig (Elt F))).Forall fun op => op.fresh = ∅ := by
  simp only [List.Forall]; repeat' constructor

/-- The stretch writes no argument array: each operation writes its one result buffer, which is none of them. -/
theorem hostOps2_6_keeps (r : Ref sig .tc) (hr : r ∈ argRefs) :
    ∀ op ∈ (hostOps2_6 : List (HloOp τ sig (Elt F))), (Proc.devRef .tc r : DevRef τ sig) ∉ op.writes := by
  have H : (hostOps2_6 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_7_fresh : (hostOps2_7 : List (HloOp τ sig (Elt F))).Forall fun op => op.fresh = ∅ := by
  simp only [List.Forall]; repeat' constructor

/-- The stretch writes no argument array: each operation writes its one result buffer, which is none of them. -/
theorem hostOps2_7_keeps (r : Ref sig .tc) (hr : r ∈ argRefs) :
    ∀ op ∈ (hostOps2_7 : List (HloOp τ sig (Elt F))), (Proc.devRef .tc r : DevRef τ sig) ∉ op.writes := by
  have H : (hostOps2_7 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_8_fresh : (hostOps2_8 : List (HloOp τ sig (Elt F))).Forall fun op => op.fresh = ∅ := by
  simp only [List.Forall]; repeat' constructor

/-- The stretch writes no argument array: each operation writes its one result buffer, which is none of them. -/
theorem hostOps2_8_keeps (r : Ref sig .tc) (hr : r ∈ argRefs) :
    ∀ op ∈ (hostOps2_8 : List (HloOp τ sig (Elt F))), (Proc.devRef .tc r : DevRef τ sig) ∉ op.writes := by
  have H : (hostOps2_8 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_9_fresh : (hostOps2_9 : List (HloOp τ sig (Elt F))).Forall fun op => op.fresh = ∅ := by
  simp only [List.Forall]; repeat' constructor

/-- The stretch writes no argument array: each operation writes its one result buffer, which is none of them. -/
theorem hostOps2_9_keeps (r : Ref sig .tc) (hr : r ∈ argRefs) :
    ∀ op ∈ (hostOps2_9 : List (HloOp τ sig (Elt F))), (Proc.devRef .tc r : DevRef τ sig) ∉ op.writes := by
  have H : (hostOps2_9 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_10_fresh : (hostOps2_10 : List (HloOp τ sig (Elt F))).Forall fun op => op.fresh = ∅ := by
  simp only [List.Forall]; repeat' constructor

/-- The stretch writes no argument array: each operation writes its one result buffer, which is none of them. -/
theorem hostOps2_10_keeps (r : Ref sig .tc) (hr : r ∈ argRefs) :
    ∀ op ∈ (hostOps2_10 : List (HloOp τ sig (Elt F))), (Proc.devRef .tc r : DevRef τ sig) ∉ op.writes := by
  have H : (hostOps2_10 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_11_fresh : (hostOps2_11 : List (HloOp τ sig (Elt F))).Forall fun op => op.fresh = ∅ := by
  simp only [List.Forall]; repeat' constructor

/-- The stretch writes no argument array: each operation writes its one result buffer, which is none of them. -/
theorem hostOps2_11_keeps (r : Ref sig .tc) (hr : r ∈ argRefs) :
    ∀ op ∈ (hostOps2_11 : List (HloOp τ sig (Elt F))), (Proc.devRef .tc r : DevRef τ sig) ∉ op.writes := by
  have H : (hostOps2_11 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_12_fresh : (hostOps2_12 : List (HloOp τ sig (Elt F))).Forall fun op => op.fresh = ∅ := by
  simp only [List.Forall]; repeat' constructor

/-- The stretch writes no argument array: each operation writes its one result buffer, which is none of them. -/
theorem hostOps2_12_keeps (r : Ref sig .tc) (hr : r ∈ argRefs) :
    ∀ op ∈ (hostOps2_12 : List (HloOp τ sig (Elt F))), (Proc.devRef .tc r : DevRef τ sig) ∉ op.writes := by
  have H : (hostOps2_12 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_13_fresh : (hostOps2_13 : List (HloOp τ sig (Elt F))).Forall fun op => op.fresh = ∅ := by
  simp only [List.Forall]; repeat' constructor

/-- The stretch writes no argument array: each operation writes its one result buffer, which is none of them. -/
theorem hostOps2_13_keeps (r : Ref sig .tc) (hr : r ∈ argRefs) :
    ∀ op ∈ (hostOps2_13 : List (HloOp τ sig (Elt F))), (Proc.devRef .tc r : DevRef τ sig) ∉ op.writes := by
  have H : (hostOps2_13 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_14_fresh : (hostOps2_14 : List (HloOp τ sig (Elt F))).Forall fun op => op.fresh = ∅ := by
  simp only [List.Forall]; repeat' constructor

/-- The stretch writes no argument array: each operation writes its one result buffer, which is none of them. -/
theorem hostOps2_14_keeps (r : Ref sig .tc) (hr : r ∈ argRefs) :
    ∀ op ∈ (hostOps2_14 : List (HloOp τ sig (Elt F))), (Proc.devRef .tc r : DevRef τ sig) ∉ op.writes := by
  have H : (hostOps2_14 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_15_fresh : (hostOps2_15 : List (HloOp τ sig (Elt F))).Forall fun op => op.fresh = ∅ := by
  simp only [List.Forall]; repeat' constructor

/-- The stretch writes no argument array: each operation writes its one result buffer, which is none of them. -/
theorem hostOps2_15_keeps (r : Ref sig .tc) (hr : r ∈ argRefs) :
    ∀ op ∈ (hostOps2_15 : List (HloOp τ sig (Elt F))), (Proc.devRef .tc r : DevRef τ sig) ∉ op.writes := by
  have H : (hostOps2_15 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_16_fresh : (hostOps2_16 : List (HloOp τ sig (Elt F))).Forall fun op => op.fresh = ∅ := by
  simp only [List.Forall]; repeat' constructor

/-- The stretch writes no argument array: each operation writes its one result buffer, which is none of them. -/
theorem hostOps2_16_keeps (r : Ref sig .tc) (hr : r ∈ argRefs) :
    ∀ op ∈ (hostOps2_16 : List (HloOp τ sig (Elt F))), (Proc.devRef .tc r : DevRef τ sig) ∉ op.writes := by
  have H : (hostOps2_16 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_17_fresh : (hostOps2_17 : List (HloOp τ sig (Elt F))).Forall fun op => op.fresh = ∅ := by
  simp only [List.Forall]; repeat' constructor

/-- The stretch writes no argument array: each operation writes its one result buffer, which is none of them. -/
theorem hostOps2_17_keeps (r : Ref sig .tc) (hr : r ∈ argRefs) :
    ∀ op ∈ (hostOps2_17 : List (HloOp τ sig (Elt F))), (Proc.devRef .tc r : DevRef τ sig) ∉ op.writes := by
  have H : (hostOps2_17 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_18_fresh : (hostOps2_18 : List (HloOp τ sig (Elt F))).Forall fun op => op.fresh = ∅ := by
  simp only [List.Forall]; repeat' constructor

/-- The stretch writes no argument array: each operation writes its one result buffer, which is none of them. -/
theorem hostOps2_18_keeps (r : Ref sig .tc) (hr : r ∈ argRefs) :
    ∀ op ∈ (hostOps2_18 : List (HloOp τ sig (Elt F))), (Proc.devRef .tc r : DevRef τ sig) ∉ op.writes := by
  have H : (hostOps2_18 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_19_fresh : (hostOps2_19 : List (HloOp τ sig (Elt F))).Forall fun op => op.fresh = ∅ := by
  simp only [List.Forall]; repeat' constructor

/-- The stretch writes no argument array: each operation writes its one result buffer, which is none of them. -/
theorem hostOps2_19_keeps (r : Ref sig .tc) (hr : r ∈ argRefs) :
    ∀ op ∈ (hostOps2_19 : List (HloOp τ sig (Elt F))), (Proc.devRef .tc r : DevRef τ sig) ∉ op.writes := by
  have H : (hostOps2_19 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

/-- The stretch allocates nothing. -/
theorem hostOps2_20_fresh : (hostOps2_20 : List (HloOp τ sig (Elt F))).Forall fun op => op.fresh = ∅ := by
  simp only [List.Forall]; repeat' constructor

/-- The stretch writes no argument array: each operation writes its one result buffer, which is none of them. -/
theorem hostOps2_20_keeps (r : Ref sig .tc) (hr : r ∈ argRefs) :
    ∀ op ∈ (hostOps2_20 : List (HloOp τ sig (Elt F))), (Proc.devRef .tc r : DevRef τ sig) ∉ op.writes := by
  have H : (hostOps2_20 : List (HloOp τ sig (Elt F))).Forall fun op => ∀ r ∈ argRefs, (Proc.devRef .tc r : DevRef τ sig) ∉ op.writes := by
    simp only [List.Forall]
    repeat' apply And.intro
    all_goals exact keeps_op _ rfl (by decide)
  exact fun op hop => (List.forall_iff_forall_mem.mp H) op hop r hr

end Cert.KernelIdeal.Hand

end
-- ==== Proof.KI.Run.lean ====
/-
  THE RUN of @main.

  @main is a kernel call, a line of host operations, a second kernel call, and twenty-one more lines of host operations.
  The buffer contents at each of these boundaries are a fold from the launch memory: a line takes the contents to the
  line's result on them (`StableHlo.after`); a kernel call rewrites its two output arrays to what its write-backs leave and
  keeps every other buffer (its input arrays are only read). `W0 … W24` name the contents in order, `Wend` the last.

  In each kernel call three input windows sit on ONE array (the block, the slab before it, the slab after it), so the array's
  full share is dealt among the three windows — halved, the right half halved again — at the call's entry and rejoined at its
  exit; the two other arrays of a call are held whole.

  From these: every weakly fair execution of @main on the TensorCores terminates, nothing faulting, and the final memory
  holds every unscoped buffer at `Wend` (`run_post`, `run_main`); no operation and no call writes an argument array, so the
  arguments end as launched (`Wend_main_arg0 … 6`, `frame`); the result buffer ends at `Wend` of it (`run_result`), and `Wend` is
  the twenty-one lines after the second call, as one line, from that call's exit contents (`Wend_eq`).
  Everything is stated for any float interpretation `F`.
-/
import proofs.«424358_j44040594653645_2_alg».proof.Proof.KI.Body0
import proofs.«424358_j44040594653645_2_alg».proof.Proof.KI.Body1
import proofs.«424358_j44040594653645_2_alg».proof.Proof.KI.HostFacts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory -/

/-- Core `c`'s buffers at launch (region 0's entry: no operation precedes it). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its two output arrays at what the write-backs leave, every other buffer as entered
    (the input windows' arrays are only read). -/
def W1 (c : Dev nD) : Valuation τ sig (Elt F) :=
  Function.update (Function.update (W0 m ρ c) (Proc.devRef .tc main_v0_0) ((dat0 (V0 m ρ) c).arrAt 4 cfg0.N))
    (Proc.devRef .tc main_v0_1) ((dat0 (V0 m ρ) c).arrAt 5 cfg0.N)
/-- The same read at the TensorCore's references. -/
abbrev V1 : (c : Dev nD) → (b : Ref sig .tc) → Buf (Elt F) ((c : Thread nD τ).loc b) := fun c b => W1 m ρ c b
/-- After `hostOps1` (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit: its two output arrays at what the write-backs leave, every other buffer as entered. -/
def W3 (c : Dev nD) : Valuation τ sig (Elt F) :=
  Function.update (Function.update (W2 m ρ c) (Proc.devRef .tc main_v7_0) ((dat1 (V2 m ρ) c).arrAt 4 cfg1.N))
    (Proc.devRef .tc main_v7_1) ((dat1 (V2 m ρ) c).arrAt 5 cfg1.N)
abbrev V3 : (c : Dev nD) → (b : Ref sig .tc) → Buf (Elt F) ((c : Thread nD τ).loc b) := fun c b => W3 m ρ c b
/-- After `hostOps2`. -/
abbrev W4 : Dev nD → Valuation τ sig (Elt F) := fun c => StableHlo.after hostOps2 (W3 m ρ c)
/-- After `hostOps2_1`. -/
abbrev W5 : Dev nD → Valuation τ sig (Elt F) := fun c => StableHlo.after hostOps2_1 (W4 m ρ c)
/-- After `hostOps2_2`. -/
abbrev W6 : Dev nD → Valuation τ sig (Elt F) := fun c => StableHlo.after hostOps2_2 (W5 m ρ c)
/-- After `hostOps2_3`. -/
abbrev W7 : Dev nD → Valuation τ sig (Elt F) := fun c => StableHlo.after hostOps2_3 (W6 m ρ c)
/-- After `hostOps2_4`. -/
abbrev W8 : Dev nD → Valuation τ sig (Elt F) := fun c => StableHlo.after hostOps2_4 (W7 m ρ c)
/-- After `hostOps2_5`. -/
abbrev W9 : Dev nD → Valuation τ sig (Elt F) := fun c => StableHlo.after hostOps2_5 (W8 m ρ c)
/-- After `hostOps2_6`. -/
abbrev W10 : Dev nD → Valuation τ sig (Elt F) := fun c => StableHlo.after hostOps2_6 (W9 m ρ c)
/-- After `hostOps2_7`. -/
abbrev W11 : Dev nD → Valuation τ sig (Elt F) := fun c => StableHlo.after hostOps2_7 (W10 m ρ c)
/-- After `hostOps2_8`. -/
abbrev W12 : Dev nD → Valuation τ sig (Elt F) := fun c => StableHlo.after hostOps2_8 (W11 m ρ c)
/-- After `hostOps2_9`. -/
abbrev W13 : Dev nD → Valuation τ sig (Elt F) := fun c => StableHlo.after hostOps2_9 (W12 m ρ c)
/-- After `hostOps2_10`. -/
abbrev W14 : Dev nD → Valuation τ sig (Elt F) := fun c => StableHlo.after hostOps2_10 (W13 m ρ c)
/-- After `hostOps2_11`. -/
abbrev W15 : Dev nD → Valuation τ sig (Elt F) := fun c => StableHlo.after hostOps2_11 (W14 m ρ c)
/-- After `hostOps2_12`. -/
abbrev W16 : Dev nD → Valuation τ sig (Elt F) := fun c => StableHlo.after hostOps2_12 (W15 m ρ c)
/-- After `hostOps2_13`. -/
abbrev W17 : Dev nD → Valuation τ sig (Elt F) := fun c => StableHlo.after hostOps2_13 (W16 m ρ c)
/-- After `hostOps2_14`. -/
abbrev W18 : Dev nD → Valuation τ sig (Elt F) := fun c => StableHlo.after hostOps2_14 (W17 m ρ c)
/-- After `hostOps2_15`. -/
abbrev W19 : Dev nD → Valuation τ sig (Elt F) := fun c => StableHlo.after hostOps2_15 (W18 m ρ c)
/-- After `hostOps2_16`. -/
abbrev W20 : Dev nD → Valuation τ sig (Elt F) := fun c => StableHlo.after hostOps2_16 (W19 m ρ c)
/-- After `hostOps2_17`. -/
abbrev W21 : Dev nD → Valuation τ sig (Elt F) := fun c => StableHlo.after hostOps2_17 (W20 m ρ c)
/-- After `hostOps2_18`. -/
abbrev W22 : Dev nD → Valuation τ sig (Elt F) := fun c => StableHlo.after hostOps2_18 (W21 m ρ c)
/-- After `hostOps2_19`. -/
abbrev W23 : Dev nD → Valuation τ sig (Elt F) := fun c => StableHlo.after hostOps2_19 (W22 m ρ c)
/-- After `hostOps2_20`. -/
abbrev W24 : Dev nD → Valuation τ sig (Elt F) := fun c => StableHlo.after hostOps2_20 (W23 m ρ c)
/-- The contents at the return. -/
abbrev Wend : Dev nD → Valuation τ sig (Elt F) := W24 m ρ

/-! ## The proof data family and the thread state -/

/-- The prefetched tables' admissible contents: no pipeline has a table. -/
abbrev adm : (p : Fin 2) → (pcfgs (F := F) p).Adm := fun p => (cfgs p).toPCfg_adm

/-! ## What a region's exit leaves in its arrays and in every other buffer -/

theorem W1_out4 (c : Dev nD) : W1 m ρ c (Proc.devRef .tc main_v0_0) = (dat0 (V0 m ρ) c).arrAt 4 cfg0.N := by
  unfold W1
  rw [Function.update_of_ne (StableHlo.devRef_ne_of_ne (by decide)), Function.update_self]
theorem W1_out5 (c : Dev nD) : W1 m ρ c (Proc.devRef .tc main_v0_1) = (dat0 (V0 m ρ) c).arrAt 5 cfg0.N := by
  unfold W1
  rw [Function.update_self]
/-- Every buffer but region 0's two output arrays is as the region found it. -/
theorem W1_of_ne (c : Dev nD) (b : Ref sig .tc) (h4 : b ≠ main_v0_0) (h5 : b ≠ main_v0_1) :
    W1 m ρ c (Proc.devRef .tc b) = W0 m ρ c (Proc.devRef .tc b) := by
  unfold W1
  rw [Function.update_of_ne (StableHlo.devRef_ne_of_ne h5), Function.update_of_ne (StableHlo.devRef_ne_of_ne h4)]
/-- An input window's array is never written: it ends as the region found it. -/
theorem arrAt0_in (c : Dev nD) (w : Fin 6) (hin : (cfg0.win w).isOut = false) (b : Ref sig .tc) (hb : Pipeline.arrRef spec0 w = b)
    (h4 : b ≠ main_v0_0) (h5 : b ≠ main_v0_1) :
    W1 m ρ c (Proc.devRef .tc (Pipeline.arrRef spec0 w)) = (dat0 (V0 m ρ) c).arrAt w cfg0.N := by
  subst hb
  exact (W1_of_ne m ρ c _ h4 h5).trans (((dat0 (V0 m ρ) c).arrAt_in w hin _).trans (A_eq0 (V0 m ρ) c w)).symm
/-- At region 0's exit each of its arrays holds what the pipeline leaves. -/
theorem W1_arr (c : Dev nD) : ∀ w : Fin 6,
    W1 m ρ c (Proc.devRef .tc (Pipeline.arrRef spec0 w)) = (dat0 (V0 m ρ) c).arrAt w cfg0.N
  | 0 => arrAt0_in m ρ c 0 rfl main_arg0 rfl (by decide) (by decide)
  | 1 => arrAt0_in m ρ c 1 rfl main_arg0 rfl (by decide) (by decide)
  | 2 => arrAt0_in m ρ c 2 rfl main_arg0 rfl (by decide) (by decide)
  | 3 => arrAt0_in m ρ c 3 rfl main_arg2 rfl (by decide) (by decide)
  | 4 => W1_out4 m ρ c
  | 5 => W1_out5 m ρ c
  | ⟨_ + 6, h⟩ => absurd h (Nat.not_lt.2 (Nat.le_add_left _ _))

theorem W3_out4 (c : Dev nD) : W3 m ρ c (Proc.devRef .tc main_v7_0) = (dat1 (V2 m ρ) c).arrAt 4 cfg1.N := by
  unfold W3
  rw [Function.update_of_ne (StableHlo.devRef_ne_of_ne (by decide)), Function.update_self]
theorem W3_out5 (c : Dev nD) : W3 m ρ c (Proc.devRef .tc main_v7_1) = (dat1 (V2 m ρ) c).arrAt 5 cfg1.N := by
  unfold W3
  rw [Function.update_self]
/-- Every buffer but region 1's two output arrays is as the region found it. -/
theorem W3_of_ne (c : Dev nD) (b : Ref sig .tc) (h4 : b ≠ main_v7_0) (h5 : b ≠ main_v7_1) :
    W3 m ρ c (Proc.devRef .tc b) = W2 m ρ c (Proc.devRef .tc b) := by
  unfold W3
  rw [Function.update_of_ne (StableHlo.devRef_ne_of_ne h5), Function.update_of_ne (StableHlo.devRef_ne_of_ne h4)]
theorem arrAt1_in (c : Dev nD) (w : Fin 6) (hin : (cfg1.win w).isOut = false) (b : Ref sig .tc) (hb : Pipeline.arrRef spec1 w = b)
    (h4 : b ≠ main_v7_0) (h5 : b ≠ main_v7_1) :
    W3 m ρ c (Proc.devRef .tc (Pipeline.arrRef spec1 w)) = (dat1 (V2 m ρ) c).arrAt w cfg1.N := by
  subst hb
  exact (W3_of_ne m ρ c _ h4 h5).trans (((dat1 (V2 m ρ) c).arrAt_in w hin _).trans (A_eq1 (V2 m ρ) c w)).symm
/-- At region 1's exit each of its arrays holds what the pipeline leaves. -/
theorem W3_arr (c : Dev nD) : ∀ w : Fin 6,
    W3 m ρ c (Proc.devRef .tc (Pipeline.arrRef spec1 w)) = (dat1 (V2 m ρ) c).arrAt w cfg1.N
  | 0 => arrAt1_in m ρ c 0 rfl main_arg1 rfl (by decide) (by decide)
  | 1 => arrAt1_in m ρ c 1 rfl main_arg1 rfl (by decide) (by decide)
  | 2 => arrAt1_in m ρ c 2 rfl main_arg1 rfl (by decide) (by decide)
  | 3 => arrAt1_in m ρ c 3 rfl main_arg3 rfl (by decide) (by decide)
  | 4 => W3_out4 m ρ c
  | 5 => W3_out5 m ρ c
  | ⟨_ + 6, h⟩ => absurd h (Nat.not_lt.2 (Nat.le_add_left _ _))

/-! ## Region 0: one array under three input windows — the array's full share dealt among them -/

section Shared0
variable (V : (c : Dev nD) → (b : Ref sig .tc) → Buf (Elt F) ((c : Thread nD τ).loc b))

/-- Region 0's arrays window by window: the three windows on `main_arg0` at the dealt shares. -/
theorem arrays0_eq (c : Dev nD) (G : (w : Fin cfg0.W) → Buf (Elt F) ((cfg0.win w).arr.view.loc (c : Thread nD τ))) :
    ((dat0 V c).arrays G : sProp 𝕄) = iprop(
      (((c : Thread nD τ).loc main_arg0) ↦{fullShare.left} G 0) ∗ (((c : Thread nD τ).loc main_arg0) ↦{fullShare.right.left} G 1)
      ∗ (((c : Thread nD τ).loc main_arg0) ↦{fullShare.right.right} G 2) ∗ (((c : Thread nD τ).loc main_arg2) ↦{fullShare} G 3)
      ∗ (((c : Thread nD τ).loc main_v0_0) ↦{fullShare} G 4) ∗ (((c : Thread nD τ).loc main_v0_1) ↦{fullShare} G 5)) := by
  have h1 : ((dat0 V c).arrays G : sProp 𝕄) = bigSep Finset.univ fun w : Fin 6 =>
      (((c : Thread nD τ).loc (Pipeline.arrRef spec0 w)) ↦{(dat0 V c).share w} G w : sProp 𝕄) := by
    unfold Dat.arrays
    exact bigSep_congr fun w _ => by rw [(arr_whole0 w).set_eq_univ]
  rw [h1, bigSep_W0]
  rfl

/-- The distinct buffers behind region 0's arrays, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄) = iprop(
      (((c : Thread nD τ).loc main_arg0) ↦{fullShare} V' main_arg0) ∗ (((c : Thread nD τ).loc main_arg2) ↦{fullShare} V' main_arg2)
      ∗ (((c : Thread nD τ).loc main_v0_0) ↦{fullShare} V' main_v0_0) ∗ (((c : Thread nD τ).loc main_v0_1) ↦{fullShare} V' main_v0_1)) := by
  unfold Pipeline.arrBufs
  exact bigSep_eq_bigSepL_of_eq [main_arg0, main_arg2, main_v0_0, main_v0_1] (by decide) (by decide) _

/-- The buffers behind the arrays, whole, are the arrays at the dealt shares, at the same contents: the shared
    array's full share halved, its right half halved again. -/
theorem arrays0_of_bufs (c : Dev nD) (V' : (b : Ref sig .tc) → Buf (Elt F) ((c : Thread nD τ).loc b))
    (G : (w : Fin cfg0.W) → Buf (Elt F) ((cfg0.win w).arr.view.loc (c : Thread nD τ)))
    (e0 : G 0 = V' main_arg0) (e1 : G 1 = V' main_arg0) (e2 : G 2 = V' main_arg0) (e3 : G 3 = V' main_arg2) (e4 : G 4 = V' main_v0_0) (e5 : G 5 = V' main_v0_1) :
    (Pipeline.arrBufs (Ix := Unit) (Name := ℕ) (U := UR sig nD τ) (Lvl := ℕ) spec0 c V' : sProp 𝕄) ⊢ (dat0 V c).arrays G := by
  rw [arrBufs0_eq, arrays0_eq, e0, e1, e2, e3, e4, e5]
  iintro ⟨H0, H3, H4, H5⟩
  ihave H0 := (pointsTo_share (PosShare.mem_left_op_right fullShare)).1 $$ H0
  icases H0 with ⟨H0l, H0r⟩
  ihave H0r := (pointsTo_share (PosShare.mem_left_op_right fullShare.right)).1 $$ H0r
  icases H0r with ⟨H0rl, H0rr⟩
  isplitl [H0l]; · iexact H0l
  isplitl [H0rl]; · iexact H0rl
  isplitl [H0rr]; · iexact H0rr
  isplitl [H3]; · iexact H3
  isplitl [H4]; · iexact H4
  iexact H5

/-- And back: the three shares of the shared array rejoin. -/
theorem bufs_of_arrays0 (c : Dev nD) (V' : (b : Ref sig .tc) → Buf (Elt F) ((c : Thread nD τ).loc b))
    (G : (w : Fin cfg0.W) → Buf (Elt F) ((cfg0.win w).arr.view.loc (c : Thread nD τ)))
    (e0 : G 0 = V' main_arg0) (e1 : G 1 = V' main_arg0) (e2 : G 2 = V' main_arg0) (e3 : G 3 = V' main_arg2) (e4 : G 4 = V' main_v0_0) (e5 : G 5 = V' main_v0_1) :
    ((dat0 V c).arrays G : sProp 𝕄) ⊢ Pipeline.arrBufs (Ix := Unit) (Name := ℕ) (U := UR sig nD τ) (Lvl := ℕ) spec0 c V' := by
  rw [arrBufs0_eq, arrays0_eq, e0, e1, e2, e3, e4, e5]
  iintro ⟨H0l, H0rl, H0rr, H3, H4, H5⟩
  ihave H0r := (pointsTo_share (PosShare.mem_left_op_right fullShare.right)).2 $$ [H0rl H0rr]
  · isplitl [H0rl]; · iexact H0rl
    iexact H0rr
  ihave H0 := (pointsTo_share (PosShare.mem_left_op_right fullShare)).2 $$ [H0l H0r]
  · isplitl [H0l]; · iexact H0l
    iexact H0r
  isplitl [H0]; · iexact H0
  isplitl [H3]; · iexact H3
  isplitl [H4]; · iexact H4
  iexact H5

end Shared0

/-! ## Region 1: one array under three input windows — the array's full share dealt among them -/

section Shared1
variable (V : (c : Dev nD) → (b : Ref sig .tc) → Buf (Elt F) ((c : Thread nD τ).loc b))

/-- Region 1's arrays window by window: the three windows on `main_arg1` at the dealt shares. -/
theorem arrays1_eq (c : Dev nD) (G : (w : Fin cfg1.W) → Buf (Elt F) ((cfg1.win w).arr.view.loc (c : Thread nD τ))) :
    ((dat1 V c).arrays G : sProp 𝕄) = iprop(
      (((c : Thread nD τ).loc main_arg1) ↦{fullShare.left} G 0) ∗ (((c : Thread nD τ).loc main_arg1) ↦{fullShare.right.left} G 1)
      ∗ (((c : Thread nD τ).loc main_arg1) ↦{fullShare.right.right} G 2) ∗ (((c : Thread nD τ).loc main_arg3) ↦{fullShare} G 3)
      ∗ (((c : Thread nD τ).loc main_v7_0) ↦{fullShare} G 4) ∗ (((c : Thread nD τ).loc main_v7_1) ↦{fullShare} G 5)) := by
  have h1 : ((dat1 V c).arrays G : sProp 𝕄) = bigSep Finset.univ fun w : Fin 6 =>
      (((c : Thread nD τ).loc (Pipeline.arrRef spec1 w)) ↦{(dat1 V c).share w} G w : sProp 𝕄) := by
    unfold Dat.arrays
    exact bigSep_congr fun w _ => by rw [(arr_whole1 w).set_eq_univ]
  rw [h1, bigSep_W1]
  rfl

/-- The distinct buffers behind region 1's arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄) = iprop(
      (((c : Thread nD τ).loc main_arg1) ↦{fullShare} V' main_arg1) ∗ (((c : Thread nD τ).loc main_arg3) ↦{fullShare} V' main_arg3)
      ∗ (((c : Thread nD τ).loc main_v7_0) ↦{fullShare} V' main_v7_0) ∗ (((c : Thread nD τ).loc main_v7_1) ↦{fullShare} V' main_v7_1)) := by
  unfold Pipeline.arrBufs
  exact bigSep_eq_bigSepL_of_eq [main_arg1, main_arg3, main_v7_0, main_v7_1] (by decide) (by decide) _

/-- The buffers behind the arrays, whole, are the arrays at the dealt shares, at the same contents: the shared
    array's full share halved, its right half halved again. -/
theorem arrays1_of_bufs (c : Dev nD) (V' : (b : Ref sig .tc) → Buf (Elt F) ((c : Thread nD τ).loc b))
    (G : (w : Fin cfg1.W) → Buf (Elt F) ((cfg1.win w).arr.view.loc (c : Thread nD τ)))
    (e0 : G 0 = V' main_arg1) (e1 : G 1 = V' main_arg1) (e2 : G 2 = V' main_arg1) (e3 : G 3 = V' main_arg3) (e4 : G 4 = V' main_v7_0) (e5 : G 5 = V' main_v7_1) :
    (Pipeline.arrBufs (Ix := Unit) (Name := ℕ) (U := UR sig nD τ) (Lvl := ℕ) spec1 c V' : sProp 𝕄) ⊢ (dat1 V c).arrays G := by
  rw [arrBufs1_eq, arrays1_eq, e0, e1, e2, e3, e4, e5]
  iintro ⟨H0, H3, H4, H5⟩
  ihave H0 := (pointsTo_share (PosShare.mem_left_op_right fullShare)).1 $$ H0
  icases H0 with ⟨H0l, H0r⟩
  ihave H0r := (pointsTo_share (PosShare.mem_left_op_right fullShare.right)).1 $$ H0r
  icases H0r with ⟨H0rl, H0rr⟩
  isplitl [H0l]; · iexact H0l
  isplitl [H0rl]; · iexact H0rl
  isplitl [H0rr]; · iexact H0rr
  isplitl [H3]; · iexact H3
  isplitl [H4]; · iexact H4
  iexact H5

/-- And back: the three shares of the shared array rejoin. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (e0 : G 0 = V' main_arg1) (e1 : G 1 = V' main_arg1) (e2 : G 2 = V' main_arg1) (e3 : G 3 = V' main_arg3) (e4 : G 4 = V' main_v7_0) (e5 : G 5 = V' main_v7_1) :
    ((dat1 V c).arrays G : sProp 𝕄) ⊢ Pipeline.arrBufs (Ix := Unit) (Name := ℕ) (U := UR sig nD τ) (Lvl := ℕ) spec1 c V' := by
  rw [arrBufs1_eq, arrays1_eq, e0, e1, e2, e3, e4, e5]
  iintro ⟨H0l, H0rl, H0rr, H3, H4, H5⟩
  ihave H0r := (pointsTo_share (PosShare.mem_left_op_right fullShare.right)).2 $$ [H0rl H0rr]
  · isplitl [H0rl]; · iexact H0rl
    iexact H0rr
  ihave H0 := (pointsTo_share (PosShare.mem_left_op_right fullShare)).2 $$ [H0l H0r]
  · isplitl [H0l]; · iexact H0l
    iexact H0r
  isplitl [H0]; · iexact H0
  isplitl [H3]; · iexact H3
  isplitl [H4]; · iexact H4
  iexact H5

end Shared1

/-- ENTRY of region 0: the unscoped buffers at the entry contents are the region's arrays at the dealt shares and the rest. -/
theorem entry0 (c : Dev nD) :
    (StableHlo.held (c : Thread nD τ) (Pipeline.ucRefs τ sig) (W0 m ρ c) : sProp 𝕄)
      ⊢ iprop((dat0 (V0 m ρ) c).arrays ((dat0 (V0 m ρ) c).arrAt · 0)
          ∗ Pipeline.unscopedRest (Ix := Unit) (Name := ℕ) (U := UR sig nD τ) (Lvl := ℕ) spec0 c (V0 m ρ c)) := by
  have h : (unscopedBufs (Ix := Unit) (Name := ℕ) (U := UR sig nD τ) (Lvl := ℕ) c (V0 m ρ c) : sProp 𝕄)
      ⊢ iprop((dat0 (V0 m ρ) c).arrays ((dat0 (V0 m ρ) c).arrAt · 0)
          ∗ Pipeline.unscopedRest (Ix := Unit) (Name := ℕ) (U := UR sig nD τ) (Lvl := ℕ) spec0 c (V0 m ρ c)) := by
    rw [Pipeline.unscopedBufs_split₀ (Pipeline.pin (pcfgs (F := F)) adm) (0 : Fin 2) winFacts₀0.arr_unscoped c (V0 m ρ c)]
    exact sep_mono (arrays0_of_bufs (V0 m ρ) c (V0 m ρ c) _ rfl rfl rfl rfl rfl rfl) .rfl
  rw [Pipeline.unscopedBufs_held] at h
  exact h

/-- EXIT of region 0: its arrays at what the pipeline leaves and the rest as entered are the unscoped buffers at the exit contents. -/
theorem exit0 (c : Dev nD) :
    iprop((dat0 (V0 m ρ) c).arrays ((dat0 (V0 m ρ) c).arrAt · cfg0.N)
        ∗ Pipeline.unscopedRest (Ix := Unit) (Name := ℕ) (U := UR sig nD τ) (Lvl := ℕ) spec0 c (V0 m ρ c))
      ⊢ (StableHlo.held (c : Thread nD τ) (Pipeline.ucRefs τ sig) (W1 m ρ c) : sProp 𝕄) := by
  have h : iprop((dat0 (V0 m ρ) c).arrays ((dat0 (V0 m ρ) c).arrAt · cfg0.N)
        ∗ Pipeline.unscopedRest (Ix := Unit) (Name := ℕ) (U := UR sig nD τ) (Lvl := ℕ) spec0 c (V0 m ρ c))
      ⊢ (unscopedBufs (Ix := Unit) (Name := ℕ) (U := UR sig nD τ) (Lvl := ℕ) c (V1 m ρ c) : sProp 𝕄) := by
    rw [Pipeline.unscopedBufs_split₀ (Pipeline.pin (pcfgs (F := F)) adm) (0 : Fin 2) winFacts₀0.arr_unscoped c (V1 m ρ c)]
    refine sep_mono (bufs_of_arrays0 (V0 m ρ) c (V1 m ρ c) _ (W1_arr m ρ c 0).symm (W1_arr m ρ c 1).symm (W1_arr m ρ c 2).symm
      (W1_arr m ρ c 3).symm (W1_arr m ρ c 4).symm (W1_arr m ρ c 5).symm) (Entails.of_eq ?_)
    unfold Pipeline.unscopedRest
    refine bigSep_congr fun b hb => ?_
    have hne : ∀ w, Pipeline.arrRef spec0 w ≠ b := fun w e => (Finset.mem_sdiff.mp hb).2 (Finset.mem_image.mpr ⟨w, Finset.mem_univ _, e⟩)
    rw [show V1 m ρ c b = V0 m ρ c b from W1_of_ne m ρ c b (hne 4).symm (hne 5).symm]
  rw [Pipeline.unscopedBufs_held] at h
  exact h

/-- ENTRY of region 1: the unscoped buffers at the entry contents are the region's arrays at the dealt shares and the rest. -/
theorem entry1 (c : Dev nD) :
    (StableHlo.held (c : Thread nD τ) (Pipeline.ucRefs τ sig) (W2 m ρ c) : sProp 𝕄)
      ⊢ iprop((dat1 (V2 m ρ) c).arrays ((dat1 (V2 m ρ) c).arrAt · 0)
          ∗ Pipeline.unscopedRest (Ix := Unit) (Name := ℕ) (U := UR sig nD τ) (Lvl := ℕ) spec1 c (V2 m ρ c)) := by
  have h : (unscopedBufs (Ix := Unit) (Name := ℕ) (U := UR sig nD τ) (Lvl := ℕ) c (V2 m ρ c) : sProp 𝕄)
      ⊢ iprop((dat1 (V2 m ρ) c).arrays ((dat1 (V2 m ρ) c).arrAt · 0)
          ∗ Pipeline.unscopedRest (Ix := Unit) (Name := ℕ) (U := UR sig nD τ) (Lvl := ℕ) spec1 c (V2 m ρ c)) := by
    rw [Pipeline.unscopedBufs_split₀ (Pipeline.pin (pcfgs (F := F)) adm) (1 : Fin 2) winFacts₀1.arr_unscoped c (V2 m ρ c)]
    exact sep_mono (arrays1_of_bufs (V2 m ρ) c (V2 m ρ c) _ rfl rfl rfl rfl rfl rfl) .rfl
  rw [Pipeline.unscopedBufs_held] at h
  exact h

/-- EXIT of region 1: its arrays at what the pipeline leaves and the rest as entered are the unscoped buffers at the exit contents. -/
theorem exit1 (c : Dev nD) :
    iprop((dat1 (V2 m ρ) c).arrays ((dat1 (V2 m ρ) c).arrAt · cfg1.N)
        ∗ Pipeline.unscopedRest (Ix := Unit) (Name := ℕ) (U := UR sig nD τ) (Lvl := ℕ) spec1 c (V2 m ρ c))
      ⊢ (StableHlo.held (c : Thread nD τ) (Pipeline.ucRefs τ sig) (W3 m ρ c) : sProp 𝕄) := by
  have h : iprop((dat1 (V2 m ρ) c).arrays ((dat1 (V2 m ρ) c).arrAt · cfg1.N)
        ∗ Pipeline.unscopedRest (Ix := Unit) (Name := ℕ) (U := UR sig nD τ) (Lvl := ℕ) spec1 c (V2 m ρ c))
      ⊢ (unscopedBufs (Ix := Unit) (Name := ℕ) (U := UR sig nD τ) (Lvl := ℕ) c (V3 m ρ c) : sProp 𝕄) := by
    rw [Pipeline.unscopedBufs_split₀ (Pipeline.pin (pcfgs (F := F)) adm) (1 : Fin 2) winFacts₀1.arr_unscoped c (V3 m ρ c)]
    refine sep_mono (bufs_of_arrays1 (V2 m ρ) c (V3 m ρ c) _ (W3_arr m ρ c 0).symm (W3_arr m ρ c 1).symm (W3_arr m ρ c 2).symm
      (W3_arr m ρ c 3).symm (W3_arr m ρ c 4).symm (W3_arr m ρ c 5).symm) (Entails.of_eq ?_)
    unfold Pipeline.unscopedRest
    refine bigSep_congr fun b hb => ?_
    have hne : ∀ w, Pipeline.arrRef spec1 w ≠ b := fun w e => (Finset.mem_sdiff.mp hb).2 (Finset.mem_image.mpr ⟨w, Finset.mem_univ _, e⟩)
    rw [show V3 m ρ c b = V2 m ρ c b from W3_of_ne m ρ c b (hne 4).symm (hne 5).symm]
  rw [Pipeline.unscopedBufs_held] at h
  exact h

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
/-- No core owes another anything: no level is assigned. -/
abbrev Lnone : GSem nD τ sig → Finset Unit := fun _ => ∅
abbrev lv0 : GSem nD τ sig → Unit → ℕ := fun _ _ => 0
/-- What rides beside the buffers through every segment: the core's generator register at some state and its `owes`, at nothing. -/
abbrev Rside (c : Dev nD) : sProp 𝕄 := iprop((∃ r, prngReg c r) ∗ ∃ W, owes (c : Thread nD τ) (0 : CellTallies nD τ sig Unit) W)
/-- A host stretch as a segment over the unscoped references from the contents `W`, `Rside` riding along: it runs to
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lnone lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rside
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tend (c : Dev nD) : sProp 𝕄 := iprop(StableHlo.held (c : Thread nD τ) (Pipeline.ucRefs τ sig) (Wend m ρ c) ∗ ∃ r, prngReg c r)

/-! ## The regions as segments -/

-- a library lemma stated over `pin pcs a p` unifies with the pinned configuration only when unification may unfold plain
-- definitions in a metavariable's type
set_option backward.isDefEq.respectTransparency.types false in
/-- REGION 0 (custom_call 0) over the thread state: entered from every unscoped buffer at `W0`, left at `W1`. Its arrays
    are split out of the unscoped buffers at the dealt shares (`entry0`) and put back at the exit contents (`exit0`); the
    generator register goes into the class invariant and comes out; nothing is owed; the kernel has no semaphore of its own. -/
def reg0 : Pipeline.RegionSeg (pcfgs (F := F)) adm (pdats m ρ) () defs₀ Variants.none Lnone lv0 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ Lnone lv0 0 fun _ _ => rfl
  pre c := iprop(StableHlo.held (c : Thread nD τ) (Pipeline.ucRefs τ sig) (W0 m ρ c) ∗ Rside c)
  post c := iprop(StableHlo.held (c : Thread nD τ) (Pipeline.ucRefs τ sig) (W1 m ρ c) ∗ Rside c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry0 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- REGION 1 (custom_call 1) over the thread state: entered from every unscoped buffer at `W2`, left at `W3`. Its arrays
    are split out of the unscoped buffers at the dealt shares (`entry1`) and put back at the exit contents (`exit1`); the
    generator register goes into the class invariant and comes out; nothing is owed; the kernel has no semaphore of its own. -/
def reg1 : Pipeline.RegionSeg (pcfgs (F := F)) adm (pdats m ρ) () defs₀ Variants.none Lnone lv0 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ Lnone lv0 1 fun _ _ => rfl
  pre c := iprop(StableHlo.held (c : Thread nD τ) (Pipeline.ucRefs τ sig) (W2 m ρ c) ∗ Rside c)
  post c := iprop(StableHlo.held (c : Thread nD τ) (Pipeline.ucRefs τ sig) (W3 m ρ c) ∗ Rside c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's 24 segments in order: a region per kernel call, a host segment per stretch from its boundary's contents. -/
abbrev segs : List (Pipeline.Seg (pcfgs (F := F)) adm (pdats m ρ) () defs₀ Variants.none Lnone lv0) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)),
    .host (hseg hostOps2_5 hostOps2_5_sub hostOps2_5_fresh (W8 m ρ)),
    .host (hseg hostOps2_6 hostOps2_6_sub hostOps2_6_fresh (W9 m ρ)),
    .host (hseg hostOps2_7 hostOps2_7_sub hostOps2_7_fresh (W10 m ρ)),
    .host (hseg hostOps2_8 hostOps2_8_sub hostOps2_8_fresh (W11 m ρ)),
    .host (hseg hostOps2_9 hostOps2_9_sub hostOps2_9_fresh (W12 m ρ)),
    .host (hseg hostOps2_10 hostOps2_10_sub hostOps2_10_fresh (W13 m ρ)),
    .host (hseg hostOps2_11 hostOps2_11_sub hostOps2_11_fresh (W14 m ρ)),
    .host (hseg hostOps2_12 hostOps2_12_sub hostOps2_12_fresh (W15 m ρ)),
    .host (hseg hostOps2_13 hostOps2_13_sub hostOps2_13_fresh (W16 m ρ)),
    .host (hseg hostOps2_14 hostOps2_14_sub hostOps2_14_fresh (W17 m ρ)),
    .host (hseg hostOps2_15 hostOps2_15_sub hostOps2_15_fresh (W18 m ρ)),
    .host (hseg hostOps2_16 hostOps2_16_sub hostOps2_16_fresh (W19 m ρ)),
    .host (hseg hostOps2_17 hostOps2_17_sub hostOps2_17_fresh (W20 m ρ)),
    .host (hseg hostOps2_18 hostOps2_18_sub hostOps2_18_fresh (W21 m ρ)),
    .host (hseg hostOps2_19 hostOps2_19_sub hostOps2_19_fresh (W22 m ρ)),
    .host (hseg hostOps2_20 hostOps2_20_sub hostOps2_20_fresh (W23 m ρ)) ]
/-- @main IS the run of the segments: the chain of its items, which the segments' run is by definitional unfolding. -/
theorem main_run (c : Dev nD) : main (F := F) c = Pipeline.Seg.run (segs m ρ) := (main_chain c).trans (by chain_rfl)

/-! ## The arguments end as launched: no host operation and no region writes one -/

theorem argRefs_ne : ∀ r ∈ argRefs, r ≠ main_v0_0 ∧ r ≠ main_v0_1 ∧ r ≠ main_v7_0 ∧ r ≠ main_v7_1 := by decide

/-- The fold at an argument's buffer walks back to the launch memory. -/
theorem Wend_arg (c : Dev nD) (r : Ref sig .tc) (hr : r ∈ argRefs) :
    Wend m ρ c (Proc.devRef .tc r) = m ((c : Thread nD τ).loc r) :=
    (StableHlo.after_of_forall_not_mem hostOps2_20 (W23 m ρ c) (hostOps2_20_keeps r hr)).trans <|
    (StableHlo.after_of_forall_not_mem hostOps2_19 (W22 m ρ c) (hostOps2_19_keeps r hr)).trans <|
    (StableHlo.after_of_forall_not_mem hostOps2_18 (W21 m ρ c) (hostOps2_18_keeps r hr)).trans <|
    (StableHlo.after_of_forall_not_mem hostOps2_17 (W20 m ρ c) (hostOps2_17_keeps r hr)).trans <|
    (StableHlo.after_of_forall_not_mem hostOps2_16 (W19 m ρ c) (hostOps2_16_keeps r hr)).trans <|
    (StableHlo.after_of_forall_not_mem hostOps2_15 (W18 m ρ c) (hostOps2_15_keeps r hr)).trans <|
    (StableHlo.after_of_forall_not_mem hostOps2_14 (W17 m ρ c) (hostOps2_14_keeps r hr)).trans <|
    (StableHlo.after_of_forall_not_mem hostOps2_13 (W16 m ρ c) (hostOps2_13_keeps r hr)).trans <|
    (StableHlo.after_of_forall_not_mem hostOps2_12 (W15 m ρ c) (hostOps2_12_keeps r hr)).trans <|
    (StableHlo.after_of_forall_not_mem hostOps2_11 (W14 m ρ c) (hostOps2_11_keeps r hr)).trans <|
    (StableHlo.after_of_forall_not_mem hostOps2_10 (W13 m ρ c) (hostOps2_10_keeps r hr)).trans <|
    (StableHlo.after_of_forall_not_mem hostOps2_9 (W12 m ρ c) (hostOps2_9_keeps r hr)).trans <|
    (StableHlo.after_of_forall_not_mem hostOps2_8 (W11 m ρ c) (hostOps2_8_keeps r hr)).trans <|
    (StableHlo.after_of_forall_not_mem hostOps2_7 (W10 m ρ c) (hostOps2_7_keeps r hr)).trans <|
    (StableHlo.after_of_forall_not_mem hostOps2_6 (W9 m ρ c) (hostOps2_6_keeps r hr)).trans <|
    (StableHlo.after_of_forall_not_mem hostOps2_5 (W8 m ρ c) (hostOps2_5_keeps r hr)).trans <|
    (StableHlo.after_of_forall_not_mem hostOps2_4 (W7 m ρ c) (hostOps2_4_keeps r hr)).trans <|
    (StableHlo.after_of_forall_not_mem hostOps2_3 (W6 m ρ c) (hostOps2_3_keeps r hr)).trans <|
    (StableHlo.after_of_forall_not_mem hostOps2_2 (W5 m ρ c) (hostOps2_2_keeps r hr)).trans <|
    (StableHlo.after_of_forall_not_mem hostOps2_1 (W4 m ρ c) (hostOps2_1_keeps r hr)).trans <|
    (StableHlo.after_of_forall_not_mem hostOps2 (W3 m ρ c) (hostOps2_keeps r hr)).trans <|
    (W3_of_ne m ρ c r (argRefs_ne r hr).2.2.1 (argRefs_ne r hr).2.2.2).trans <|
    (StableHlo.after_of_forall_not_mem hostOps1 (W1 m ρ c) (hostOps1_keeps r hr)).trans <|
    (W1_of_ne m ρ c r (argRefs_ne r hr).1 (argRefs_ne r hr).2.1).trans rfl

theorem Wend_main_arg0 (c : Dev nD) : Wend m ρ c (Proc.devRef .tc main_arg0) = m ((c : Thread nD τ).loc main_arg0) :=
  Wend_arg m ρ c main_arg0 (by decide)
theorem Wend_main_arg1 (c : Dev nD) : Wend m ρ c (Proc.devRef .tc main_arg1) = m ((c : Thread nD τ).loc main_arg1) :=
  Wend_arg m ρ c main_arg1 (by decide)
theorem Wend_main_arg2 (c : Dev nD) : Wend m ρ c (Proc.devRef .tc main_arg2) = m ((c : Thread nD τ).loc main_arg2) :=
  Wend_arg m ρ c main_arg2 (by decide)
theorem Wend_main_arg3 (c : Dev nD) : Wend m ρ c (Proc.devRef .tc main_arg3) = m ((c : Thread nD τ).loc main_arg3) :=
  Wend_arg m ρ c main_arg3 (by decide)
theorem Wend_main_arg4 (c : Dev nD) : Wend m ρ c (Proc.devRef .tc main_arg4) = m ((c : Thread nD τ).loc main_arg4) :=
  Wend_arg m ρ c main_arg4 (by decide)
theorem Wend_main_arg5 (c : Dev nD) : Wend m ρ c (Proc.devRef .tc main_arg5) = m ((c : Thread nD τ).loc main_arg5) :=
  Wend_arg m ρ c main_arg5 (by decide)
theorem Wend_main_arg6 (c : Dev nD) : Wend m ρ c (Proc.devRef .tc main_arg6) = m ((c : Thread nD τ).loc main_arg6) :=
  Wend_arg m ρ c main_arg6 (by decide)

/-! ## The stretches after region 1 as one line -/

theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => rw [List.cons_append, StableHlo.after_cons, StableHlo.after_cons, ih]

theorem after_flatten {τ : Topo} {sig : RefSig} {Val : EltTy → Type} (ls : List (List (HloOp τ sig Val))) (V : Valuation τ sig Val) :
    StableHlo.after ls.flatten V = ls.foldl (fun V l => StableHlo.after l V) V := by
  induction ls generalizing V with
  | nil => rfl
  | cons l ls ih => rw [List.flatten_cons, after_append, ih, List.foldl_cons]

/-- The contents at the return are the 21 stretches after region 1, as one line, from region 1's exit contents. -/
theorem Wend_eq (c : Dev nD) :
    Wend m ρ c = StableHlo.after (List.flatten [hostOps2, hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20]) (W3 m ρ c) :=
  (after_flatten [hostOps2, hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20] (W3 m ρ c)).symm

/-! ## The launch -/

/-- The last stretch's exit state is the last thread state beside the core owing nothing. -/
theorem tend_of (c : Dev nD) :
    iprop(StableHlo.held (c : Thread nD τ) (Pipeline.ucRefs τ sig) (Wend m ρ c) ∗ Rside c)
      ⊢ (iprop(Tend m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

-- the launch theorem's implicit arguments are found by unifying its conclusion with this one, which takes unfolding plain
-- definitions in a metavariable's type
set_option backward.isDefEq.respectTransparency.types false in
/-- THE RUN, at any post `Q` that follows from the final memory holding every unscoped buffer at `Wend`: from any memory
    with zero counters, every weakly fair execution of @main on the TensorCores terminates, nothing faulting, and the
    final state satisfies `Q`. The launch over the 24 segments; the last thread state read against the final state. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = Wend m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ Variants.none Lnone lv0 m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rside c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => tend_of m ρ c⟩)
    (hinit := by
      refine Pipeline.initEach Lnone lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := hQ)

/-- The run, the final memory read at every unscoped buffer. -/
theorem run_main : θ_run defs (onTc (τ := τ) (main (F := F))) ⟨m, fun _ => 0, ρ⟩
    (fun r => ∀ c : Dev nD, ∀ b ∈ Pipeline.ucRefs τ sig, r.2.mem (((c : Thread nD τ)).1, b) = Wend m ρ c b) :=
  run_post m ρ fun _ h => h

/-- THE FRAME: @main runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_post m ρ fun s h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c),
     (h c _ (mem_uc main_arg6 (by decide))).trans (Wend_main_arg6 m ρ c)⟩

/-- The run with the result buffer read: it holds the fold's last contents, and the argument arrays end as launched. -/
theorem run_result : θ_run defs (onTc (τ := τ) (main (F := F))) ⟨m, fun _ => 0, ρ⟩ (fun r => ∀ c : Dev nD,
      r.2.mem ((c.tc : Thread nD τ).loc main_v392) = Wend m ρ c (Proc.devRef .tc main_v392)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_post m ρ fun s h c =>
    ⟨h c _ (mem_uc main_v392 (by decide)),
     (h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c),
     (h c _ (mem_uc main_arg6 (by decide))).trans (Wend_main_arg6 m ρ c)⟩

end Cert.KernelIdeal.Hand

end
-- ==== Proof.Spec.lean ====
/-
  The value both programs compute, as plain mathematics over the extended reals.

  A pyramid level has spatial extent `n` (64 or 32), logits `X b ch d h w` (nine channels: class `k` of anchor `a` is
  channel `3 * k + a`), a label map `P b a d h w` (-1 on background voxels, a class id elsewhere), positive-sample
  coordinates `Cd b p j` (anchor, depth, height, width; a negative anchor marks padding) and class weights `Wc k`. Arrays are
  read through functions of natural-number indices; each program's side relates its buffers to these readers.

  Per voxel: the three class logits' log-softmax; the class-0 negative log-likelihood `nll`; its 3x3x3 neighbourhood
  maximum (non-maximum suppression); the focal weight `(1 - p)^2` masked to background voxels that are local maxima. The
  negative loss and count sum these over the volume. Per positive sample: the same log-softmax read at the sample's voxel
  and at the class the label map holds there.

  Two arrangements of the same quantities are named: the textbook one (`logp`, `pool`) and the tiled one (`nllK`, `probK`,
  `poolK`: the maximum's shift, a quotient for the probability, neighbours fetched with clamped depth and a finite fill
  on the height and width borders); a separate module shows them equal on finite inputs.
-/
import Idealize.ShloMosaic.PureOps.Ideal

noncomputable section

namespace Cert.Hand.Spec

open Idealize.ShloMosaic

/-! ## Three logits -/

/-- The maximum of three logits. -/
def m3 (x0 x1 x2 : EReal) : EReal := max (max x0 x1) x2

/-- The sum of the three exponentials shifted by the maximum. -/
def s3 (x0 x1 x2 : EReal) : EReal :=
  Ideal.exp (x0 - m3 x0 x1 x2) + Ideal.exp (x1 - m3 x0 x1 x2) + Ideal.exp (x2 - m3 x0 x1 x2)

/-- The log-softmax of the logit `xk` among `x0, x1, x2`. -/
def logp (xk x0 x1 x2 : EReal) : EReal := (xk - m3 x0 x1 x2) - Ideal.log (s3 x0 x1 x2)

/-- The softmax probability of the logit `xk`: the exponential of its log-softmax. -/
def prob (xk x0 x1 x2 : EReal) : EReal := Ideal.exp (logp xk x0 x1 x2)

/-- The tiled arrangement of class 0's negative log-likelihood: maximum plus log-sum-exp minus the logit. -/
def nllK (x0 x1 x2 : EReal) : EReal := (m3 x0 x1 x2 + Ideal.log (s3 x0 x1 x2)) - x0

/-- The tiled arrangement of class 0's probability: its shifted exponential over the sum. -/
def probK (x0 x1 x2 : EReal) : EReal := Ideal.div (Ideal.exp (x0 - m3 x0 x1 x2)) (s3 x0 x1 x2)

/-- An indicator as an extended real. -/
def ind (p : Prop) [Decidable p] : EReal := if p then 1 else 0

/-! ## A level's voxels -/

section Level

variable (n : ℕ) (X : ℕ → ℕ → ℕ → ℕ → ℕ → EReal) (P : ℕ → ℕ → ℕ → ℕ → ℕ → EReal)

/-- Class `k`'s logit of anchor `a` at a voxel. -/
def xk (k b a d h w : ℕ) : EReal := X b (3 * k + a) d h w

/-- Class `k`'s log-softmax at a voxel. -/
def logpAt (k b a d h w : ℕ) : EReal :=
  logp (xk X k b a d h w) (xk X 0 b a d h w) (xk X 1 b a d h w) (xk X 2 b a d h w)

/-- Class `k`'s probability at a voxel. -/
def probAt (k b a d h w : ℕ) : EReal :=
  prob (xk X k b a d h w) (xk X 0 b a d h w) (xk X 1 b a d h w) (xk X 2 b a d h w)

/-- Class 0's negative log-likelihood at a voxel. -/
def nllAt (b a d h w : ℕ) : EReal := -logpAt X 0 b a d h w

/-- The neighbour at offset `(i - 1, j - 1, k - 1)` of voxel `(d, h, w)` in a volume of extent `n`, or `⊥` outside it. -/
def nb (f : ℕ → ℕ → ℕ → EReal) (d h w i j k : ℕ) : EReal :=
  if 1 ≤ d + i ∧ d + i - 1 < n ∧ 1 ≤ h + j ∧ h + j - 1 < n ∧ 1 ≤ w + k ∧ w + k - 1 < n then f (d + i - 1) (h + j - 1) (w + k - 1) else ⊥

/-- The 3x3x3 neighbourhood maximum with `⊥` beyond the volume. -/
def pool (f : ℕ → ℕ → ℕ → EReal) (d h w : ℕ) : EReal :=
  (Finset.range 3).sup fun i => (Finset.range 3).sup fun j => (Finset.range 3).sup fun k => nb n f d h w i j k

/-- The tiled arrangement of the depth maximum: the slab before (the first slab repeated at the front), the slab itself and
    the slab after (the last slab repeated at the back). -/
def dmaxK (f : ℕ → ℕ → ℕ → EReal) (d h w : ℕ) : EReal :=
  max (max (f (d - 1) h w) (f d h w)) (f (min (d + 1) (n - 1)) h w)

/-- Then the height maximum, the neighbours beyond the border replaced by the fill `c`. -/
def hmaxK (c : EReal) (f : ℕ → ℕ → ℕ → EReal) (d h w : ℕ) : EReal :=
  max (max (if h = 0 then c else dmaxK n f d (h - 1) w) (dmaxK n f d h w)) (if h = n - 1 then c else dmaxK n f d (h + 1) w)

/-- Then the width maximum, likewise. -/
def poolK (c : EReal) (f : ℕ → ℕ → ℕ → EReal) (d h w : ℕ) : EReal :=
  max (max (if w = 0 then c else hmaxK n c f d h (w - 1)) (hmaxK n c f d h w)) (if w = n - 1 then c else hmaxK n c f d h (w + 1))

/-- The masked focal weight of a voxel: `(1 - p)^2` on background voxels that are local maxima of `nll`, else zero. -/
def wneg (b a d h w : ℕ) : EReal :=
  (1 - probAt X 0 b a d h w) * (1 - probAt X 0 b a d h w)
    * (ind (P b a d h w = -1) * ind (pool n (nllAt X b a) d h w = nllAt X b a d h w))

/-- The negative loss: `nll` times the weight, over the volume. -/
def lossNeg : EReal :=
  ∑ b ∈ Finset.range 4, ∑ a ∈ Finset.range 3, ∑ d ∈ Finset.range n, ∑ h ∈ Finset.range n, ∑ w ∈ Finset.range n,
    nllAt X b a d h w * wneg n X P b a d h w

/-- The negative count: the weights' sum. -/
def countNeg : EReal :=
  ∑ b ∈ Finset.range 4, ∑ a ∈ Finset.range 3, ∑ d ∈ Finset.range n, ∑ h ∈ Finset.range n, ∑ w ∈ Finset.range n,
    wneg n X P b a d h w

/-- The tiled arrangement of the weight, over the tiled `nllK`, `probK` and `poolK` with fill `c`. -/
def wnegK (c : EReal) (b a d h w : ℕ) : EReal :=
  (1 - probK (xk X 0 b a d h w) (xk X 1 b a d h w) (xk X 2 b a d h w)) * (1 - probK (xk X 0 b a d h w) (xk X 1 b a d h w) (xk X 2 b a d h w))
    * (ind (P b a d h w = -1)
        * ind (poolK n c (fun d' h' w' => nllK (xk X 0 b a d' h' w') (xk X 1 b a d' h' w') (xk X 2 b a d' h' w')) d h w
            = nllK (xk X 0 b a d h w) (xk X 1 b a d h w) (xk X 2 b a d h w)))

/-- One depth tile's loss in the tiled arrangement: batch `b`, slabs `16 * dt … 16 * dt + 15`. -/
def tileLossK (c : EReal) (b dt : ℕ) : EReal :=
  ∑ w ∈ Finset.range n, ∑ h ∈ Finset.range n, ∑ dd ∈ Finset.range 16, ∑ a ∈ Finset.range 3,
    nllK (xk X 0 b a (16 * dt + dd) h w) (xk X 1 b a (16 * dt + dd) h w) (xk X 2 b a (16 * dt + dd) h w) * wnegK n X P c b a (16 * dt + dd) h w

/-- One depth tile's count in the tiled arrangement. -/
def tileCountK (c : EReal) (b dt : ℕ) : EReal :=
  ∑ w ∈ Finset.range n, ∑ h ∈ Finset.range n, ∑ dd ∈ Finset.range 16, ∑ a ∈ Finset.range 3, wnegK n X P c b a (16 * dt + dd) h w

/-! ## A level's positive samples -/

variable (Cd : ℕ → ℕ → ℕ → BitVec 32) (Wc : ℕ → EReal)

/-- An index word as an array position along an axis of extent `e`: a negative word counts from the end, and the
    position is clamped into the axis. -/
def nidx (x : BitVec 32) (e : ℕ) : ℕ :=
  min (if x.slt 0#32 then x + BitVec.ofNat 32 e else x).toInt.toNat (e - 1)

/-- A sample is valid when its anchor word is not negative. -/
def valid (b p : ℕ) : Prop := (4294967295#32).slt (Cd b p 0)

instance (b p : ℕ) : Decidable (valid Cd b p) := by unfold valid; infer_instance

/-- A sample's coordinate word `j`, zero for a padding sample. -/
def cj (b p j : ℕ) : BitVec 32 := if valid Cd b p then Cd b p j else 0#32

/-- A sample's class word: the label map at its voxel, truncated to an integer; zero for a padding sample. -/
def clsOf (b p : ℕ) : BitVec 32 :=
  if valid Cd b p then
    Ideal.fptosi 32 (P b (nidx (cj Cd b p 0) 3) (nidx (cj Cd b p 1) n) (nidx (cj Cd b p 2) n) (nidx (cj Cd b p 3) n))
  else 0#32

/-- The probability of the sample's class at its voxel. -/
def ptAt (b p : ℕ) : EReal :=
  probAt X (nidx (clsOf n P Cd b p) 3) b (nidx (cj Cd b p 0) 3) (nidx (cj Cd b p 1) n) (nidx (cj Cd b p 2) n) (nidx (cj Cd b p 3) n)

/-- The negative log-likelihood of the sample's class at its voxel. -/
def nlltAt (b p : ℕ) : EReal :=
  -logpAt X (nidx (clsOf n P Cd b p) 3) b (nidx (cj Cd b p 0) 3) (nidx (cj Cd b p 1) n) (nidx (cj Cd b p 2) n) (nidx (cj Cd b p 3) n)

/-- The sample's focal weight: `(1 - p)^2` times its class weight, zero for a padding sample. -/
def wpos (b p : ℕ) : EReal :=
  (1 - ptAt n X P Cd b p) * (1 - ptAt n X P Cd b p) * Wc (nidx (clsOf n P Cd b p) 3) * ind (valid Cd b p)

/-- The positive loss. -/
def lossPos : EReal := ∑ b ∈ Finset.range 4, ∑ p ∈ Finset.range 128, nlltAt n X P Cd b p * wpos n X P Cd Wc b p

/-- The positive count. -/
def countPos : EReal := ∑ b ∈ Finset.range 4, ∑ p ∈ Finset.range 128, wpos n X P Cd Wc b p

end Level

/-! ## The four results -/

/-- Positive loss, negative loss, positive count, negative count, each summed over the two levels. -/
def result (X0 X1 P0 P1 : ℕ → ℕ → ℕ → ℕ → ℕ → EReal) (Cd0 Cd1 : ℕ → ℕ → ℕ → BitVec 32) (Wc : ℕ → EReal) : ℕ → EReal
  | 0 => lossPos 64 X0 P0 Cd0 Wc + lossPos 32 X1 P1 Cd1 Wc
  | 1 => lossNeg 64 X0 P0 + lossNeg 32 X1 P1
  | 2 => countPos 64 X0 P0 Cd0 Wc + countPos 32 X1 P1 Cd1 Wc
  | _ => countNeg 64 X0 P0 + countNeg 32 X1 P1

end Cert.Hand.Spec

end
-- ==== Proof.Readers.lean ====
/-
  Arrays as functions of natural-number indices: an array of a literal shape read at coordinates inside it, and a fixed
  value (zero) outside. The specification is written over such readers; each program's side relates its buffers to them.
-/
import proofs.«424358_j44040594653645_2_alg».proof.Proof.Spec
import Idealize.ShloMosaic.Lib.ValueIdx

noncomputable section

namespace Cert.Hand.Readers

open Idealize.ShloMosaic Idealize.ShloMosaic.ValueIdx

/-- A rank-5 array read at natural-number coordinates (zero outside the array). -/
def rd5 {α : Type} [Zero α] {n0 n1 n2 n3 n4 : ℕ} (x : (⟨5, ![n0, n1, n2, n3, n4]⟩ : Shape).Idx → α) (i0 i1 i2 i3 i4 : ℕ) : α :=
  if h : i0 < n0 ∧ i1 < n1 ∧ i2 < n2 ∧ i3 < n3 ∧ i4 < n4 then
    x (ix5 ⟨i0, h.1⟩ ⟨i1, h.2.1⟩ ⟨i2, h.2.2.1⟩ ⟨i3, h.2.2.2.1⟩ ⟨i4, h.2.2.2.2⟩)
  else 0

/-- Inside the array the reader is the array. -/
theorem rd5_ix5 {α : Type} [Zero α] {n0 n1 n2 n3 n4 : ℕ} (x : (⟨5, ![n0, n1, n2, n3, n4]⟩ : Shape).Idx → α)
    (a : Fin n0) (b : Fin n1) (c : Fin n2) (d : Fin n3) (e : Fin n4) :
    rd5 x a.val b.val c.val d.val e.val = x (ix5 a b c d e) := by
  unfold rd5; rw [dif_pos ⟨a.isLt, b.isLt, c.isLt, d.isLt, e.isLt⟩]

/-- A rank-3 array read at natural-number coordinates (zero outside the array). -/
def rd3 {α : Type} [Zero α] {n0 n1 n2 : ℕ} (x : (⟨3, ![n0, n1, n2]⟩ : Shape).Idx → α) (i0 i1 i2 : ℕ) : α :=
  if h : i0 < n0 ∧ i1 < n1 ∧ i2 < n2 then x (ix3 ⟨i0, h.1⟩ ⟨i1, h.2.1⟩ ⟨i2, h.2.2⟩) else 0

theorem rd3_ix3 {α : Type} [Zero α] {n0 n1 n2 : ℕ} (x : (⟨3, ![n0, n1, n2]⟩ : Shape).Idx → α)
    (a : Fin n0) (b : Fin n1) (c : Fin n2) : rd3 x a.val b.val c.val = x (ix3 a b c) := by
  unfold rd3; rw [dif_pos ⟨a.isLt, b.isLt, c.isLt⟩]

/-- A vector read at a natural-number position (zero outside it). -/
def rd1 {α : Type} [Zero α] {n0 : ℕ} (x : (⟨1, ![n0]⟩ : Shape).Idx → α) (i0 : ℕ) : α :=
  if h : i0 < n0 then x (ix1 ⟨i0, h⟩) else 0

theorem rd1_ix1 {α : Type} [Zero α] {n0 : ℕ} (x : (⟨1, ![n0]⟩ : Shape).Idx → α) (a : Fin n0) : rd1 x a.val = x (ix1 a) := by
  unfold rd1; rw [dif_pos a.isLt]

/-- The four results over the seven argument arrays. -/
def G (a0 : (⟨5, ![4, 9, 64, 64, 64]⟩ : Shape).Idx → EReal) (a1 : (⟨5, ![4, 9, 32, 32, 32]⟩ : Shape).Idx → EReal)
    (a2 : (⟨5, ![4, 3, 64, 64, 64]⟩ : Shape).Idx → EReal) (a3 : (⟨5, ![4, 3, 32, 32, 32]⟩ : Shape).Idx → EReal)
    (a4 a5 : (⟨3, ![4, 128, 4]⟩ : Shape).Idx → BitVec 32) (a6 : (⟨1, ![3]⟩ : Shape).Idx → EReal) :
    (⟨1, ![4]⟩ : Shape).Idx → EReal :=
  fun i => Spec.result (rd5 a0) (rd5 a1) (rd5 a2) (rd5 a3) (rd3 a4) (rd3 a5) (rd1 a6) (i 0).val

end Cert.Hand.Readers

end
-- ==== Proof.PreFacts.lean ====
import proofs.«424358_j44040594653645_2_alg».proof.Pre_finite_inputs
import Idealize.ShloMosaic.Lib.ReduceAll
import Idealize.ShloMosaic.Lib.StableHlo.Predicate
import Idealize.ShloMosaic.Lib.ValueIdx
import Idealize.ShloMosaic.PureOps.Ideal

/-!
  The stated precondition, read back into arithmetic facts about the seven inputs.

  The precondition is one boolean: a conjunction of nine "every entry satisfies p" statements, each a reduction by
  "and" of an array of one-bit words. From "the conjunction is 1" we get, entry by entry:
  * every entry of the five float inputs is a real number (its absolute value is below +infinity);
  * the first component of every row of the two coordinate tables is below 3 (read signed);
  * every entry of the two class-map inputs, converted to a 32-bit integer toward zero, lies in [-3, 3).
-/

noncomputable section

namespace Cert.Hand.PreFacts

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-! ## One entry -/

/-- The f32 pattern 0x7F800000 denotes +infinity. -/
theorem inf_pattern : Ideal.ofBits .f32 0x7F800000#32 = (⊤ : EReal) := by simp [Ideal.ofBits, Ideal.ieee]

/-- An extended real whose absolute value is strictly below +infinity is a real number. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => exact absurd h (by simp [Ideal.cmp])
  | coe r => exact ⟨r, rfl⟩
  | top => exact absurd h (by simp [Ideal.cmp])

/-- The vector conversion to a 32-bit integer, at an index, converts the entry. -/
theorem fptosi_apply {s : Shape} (x : FVec Ideal s .f32) (i : s.Idx) :
    fptosi (F := Ideal) 32 x i = Ideal.fptosi 32 (x i) := rfl

/-- A 32-bit word that is at least the word -3 and below the word 3, both read signed, lies in [-3, 3). -/
theorem range_of_words (w : BitVec 32)
    (h : IntOp.andi (IntOp.cmpi .sge w 4294967293#32) (IntOp.cmpi .slt w 3#32) = 1#1) :
    (-3 : Int) ≤ w.toInt ∧ w.toInt < 3 := by
  obtain ⟨h1, h2⟩ := IntOp.andi_eq_one.1 h
  have e1 : (4294967293#32 : BitVec 32).toInt = -3 := by decide
  have e2 : (3#32 : BitVec 32).toInt = 3 := by decide
  exact ⟨e1 ▸ IntOp.cmpi_sge.1 h1, e2 ▸ IntOp.cmpi_slt.1 h2⟩

/-- Row-major matching of the [4,128] rectangle with the [4,128,1] block: (b, p) is matched with (b, p, 0). -/
theorem reshape_read (b : Fin 4) (p : Fin 128) :
    Shape.reshapeEquiv (Facts.shapeCasts_S4x128x1_S4x128) (ix2 b p : S4x128.Idx) = (ix3 b p 0 : S4x128x1.Idx) := by
  apply Shape.reshapeEquiv_eq_of_rowMajor
  rw [Shape.rowMajor_val_three, Shape.rowMajor_val_two]
  show ((b.val * 128 + p.val) * 1 + 0) = b.val * 128 + p.val
  omega

/-- The slice [0:4, 0:128, 0:1] of a [4,128,4] table reads, at (b, p, 0), the table at (b, p, 0). -/
theorem slice_read (a : IVec S4x128x4 32) (b : Fin 4) (p : Fin 128) :
    extractStridedSlice S4x128x1 ![0, 0, 0] a Facts.slices_S4x128x4_S4x128x1_0_0_0 (ix3 b p 0) = a (ix3 b p 0) := by
  unfold extractStridedSlice
  congr 1
  funext d
  match d with
  | ⟨0, _⟩ => exact Fin.ext (Nat.zero_add _)
  | ⟨1, _⟩ => exact Fin.ext (Nat.zero_add _)
  | ⟨2, _⟩ => exact Fin.ext (Nat.zero_add _)

/-- The printed first-component column of a coordinate table, at (b, p), is the table at (b, p, 0). -/
theorem column_read (a : IVec S4x128x4 32) (b : Fin 4) (p : Fin 128) :
    shapeCast S4x128 (extractStridedSlice S4x128x1 ![0, 0, 0] a Facts.slices_S4x128x4_S4x128x1_0_0_0)
      Facts.shapeCasts_S4x128x1_S4x128 (ix2 b p) = a (ix3 b p 0) := by
  show extractStridedSlice S4x128x1 ![0, 0, 0] a Facts.slices_S4x128x4_S4x128x1_0_0_0
    (Shape.reshapeEquiv (Facts.shapeCasts_S4x128x1_S4x128) (ix2 b p)) = _
  rw [reshape_read, slice_read]

/-! ## The conversion's word as an integer -/

/-- The clamped integer part lies between the clamp's ends. -/
theorem toIntClamped_mem (lo hi : Int) (hlh : lo ≤ hi) (x : EReal) :
    lo ≤ Ideal.toIntClamped lo hi x ∧ Ideal.toIntClamped lo hi x ≤ hi := by
  induction x using EReal.rec with
  | bot => exact ⟨le_refl _, hlh⟩
  | coe r => exact ⟨le_max_left _ _, max_le hlh (min_le_left _ _)⟩
  | top => exact ⟨hlh, le_refl _⟩

/-- The 32-bit conversion's word, read signed, is the integer part clamped to the 32-bit range: nothing wraps. -/
theorem toInt_fptosi (x : EReal) :
    (Ideal.fptosi 32 x).toInt = Ideal.toIntClamped (-2147483648) 2147483647 x := by
  obtain ⟨h1, h2⟩ := toIntClamped_mem (-2147483648) 2147483647 (by norm_num) x
  have e : Ideal.fptosi 32 x = BitVec.ofInt 32 (Ideal.toIntClamped (-2147483648) 2147483647 x) := by
    unfold Ideal.fptosi; norm_num
  rw [e]
  exact BitVec.toInt_ofInt_eq_self (by decide) (by norm_num; omega) (by norm_num; omega)

/-- At a real number: the integer part toward zero, clamped. -/
theorem toInt_fptosi_coe (r : ℝ) :
    (Ideal.fptosi 32 (r : EReal)).toInt = max (-2147483648) (min 2147483647 (if 0 ≤ r then ⌊r⌋ else ⌈r⌉)) := by
  rw [toInt_fptosi, Ideal.toIntClamped_coe]

/-- A real whose converted word lies in [-3, 3) has its integer part toward zero in [-3, 3), and the word is that
    integer part. -/
theorem trunc_of_range (r : ℝ)
    (h : (-3 : Int) ≤ (Ideal.fptosi 32 (r : EReal)).toInt ∧ (Ideal.fptosi 32 (r : EReal)).toInt < 3) :
    (Ideal.fptosi 32 (r : EReal)).toInt = (if 0 ≤ r then ⌊r⌋ else ⌈r⌉)
      ∧ (-3 : Int) ≤ (if 0 ≤ r then ⌊r⌋ else ⌈r⌉) ∧ (if 0 ≤ r then ⌊r⌋ else ⌈r⌉) < 3 := by
  rw [toInt_fptosi_coe] at h ⊢
  generalize (if 0 ≤ r then ⌊r⌋ else ⌈r⌉) = t at h ⊢
  omega

/-! ## The nine conjuncts -/

variable (a0 : FVec Ideal S4x9x64x64x64 .f32) (a1 : FVec Ideal S4x9x32x32x32 .f32)
  (a2 : FVec Ideal S4x3x64x64x64 .f32) (a3 : FVec Ideal S4x3x32x32x32 .f32)
  (a4 a5 : IVec S4x128x4 32) (a6 : FVec Ideal S3 .f32)

/-- All nine facts at once: the conjunction is split, each "for all entries" is read at an entry, and each entry's
    one-bit word is read as the comparison it is. -/
theorem decoded (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a6 i = (r : EReal))
    ∧ (∀ (b : Fin 4) (p : Fin 128), (a4 (ix3 b p 0)).toInt < 3)
    ∧ (∀ (b : Fin 4) (p : Fin 128), (a5 (ix3 b p 0)).toInt < 3)
    ∧ (∀ i : S4x3x64x64x64.Idx, (-3 : Int) ≤ (fptosi (F := Ideal) 32 a2 i).toInt ∧ (fptosi (F := Ideal) 32 a2 i).toInt < 3)
    ∧ (∀ i : S4x3x32x32x32.Idx, (-3 : Int) ≤ (fptosi (F := Ideal) 32 a3 i).toInt ∧ (fptosi (F := Ideal) 32 a3 i).toInt < 3) := by
  have h0 := congrFun h ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨c0, c1⟩, c2⟩, c3⟩, c6⟩, c4⟩, c5⟩, c7⟩, c8⟩ := h0
  have e3 : (3#32 : BitVec 32).toInt = 3 := by decide
  refine ⟨fun i => ?_, fun i => ?_, fun i => ?_, fun i => ?_, fun i => ?_, fun b p => ?_, fun b p => ?_, fun i => ?_, fun i => ?_⟩
  · exact real_of_abs_lt_inf (a0 i) (Host.reduce_andi_all _ _ _ _ _ c0 i)
  · exact real_of_abs_lt_inf (a1 i) (Host.reduce_andi_all _ _ _ _ _ c1 i)
  · exact real_of_abs_lt_inf (a2 i) (Host.reduce_andi_all _ _ _ _ _ c2 i)
  · exact real_of_abs_lt_inf (a3 i) (Host.reduce_andi_all _ _ _ _ _ c3 i)
  · exact real_of_abs_lt_inf (a6 i) (Host.reduce_andi_all _ _ _ _ _ c6 i)
  · have e := Host.reduce_andi_all _ _ _ _ _ c4 (ix2 b p)
    have e' : IntOp.cmpi .slt (a4 (ix3 b p 0)) 3#32 = 1#1 := by rw [← column_read a4 b p]; exact e
    exact e3 ▸ IntOp.cmpi_slt.1 e'
  · have e := Host.reduce_andi_all _ _ _ _ _ c5 (ix2 b p)
    have e' : IntOp.cmpi .slt (a5 (ix3 b p 0)) 3#32 = 1#1 := by rw [← column_read a5 b p]; exact e
    exact e3 ▸ IntOp.cmpi_slt.1 e'
  · exact range_of_words _ (Host.reduce_andi_all _ _ _ _ _ c7 i)
  · exact range_of_words _ (Host.reduce_andi_all _ _ _ _ _ c8 i)

/-! ## The facts, one by one -/

section Facts
variable {a0 a1 a2 a3 a4 a5 a6}
variable (h : Cert.Pre_finite_inputs.fn (F := Ideal) a0 a1 a2 a3 a4 a5 a6 = fun _ => 1#1)
include h

theorem finite_a0 : ∀ i, ∃ r : ℝ, a0 i = (r : EReal) := (decoded a0 a1 a2 a3 a4 a5 a6 h).1
theorem finite_a1 : ∀ i, ∃ r : ℝ, a1 i = (r : EReal) := (decoded a0 a1 a2 a3 a4 a5 a6 h).2.1
theorem finite_a2 : ∀ i, ∃ r : ℝ, a2 i = (r : EReal) := (decoded a0 a1 a2 a3 a4 a5 a6 h).2.2.1
theorem finite_a3 : ∀ i, ∃ r : ℝ, a3 i = (r : EReal) := (decoded a0 a1 a2 a3 a4 a5 a6 h).2.2.2.1
theorem finite_a6 : ∀ i, ∃ r : ℝ, a6 i = (r : EReal) := (decoded a0 a1 a2 a3 a4 a5 a6 h).2.2.2.2.1

/-- Level 0: the first component of every coordinate row is below 3, read signed. -/
theorem coord0_lt : ∀ (b : Fin 4) (p : Fin 128), (a4 (ix3 b p 0)).toInt < 3 := (decoded a0 a1 a2 a3 a4 a5 a6 h).2.2.2.2.2.1
/-- Level 1 likewise. -/
theorem coord1_lt : ∀ (b : Fin 4) (p : Fin 128), (a5 (ix3 b p 0)).toInt < 3 := (decoded a0 a1 a2 a3 a4 a5 a6 h).2.2.2.2.2.2.1

/-- The same as a signed comparison of words. -/
theorem coord0_slt (b : Fin 4) (p : Fin 128) : (a4 (ix3 b p 0)).slt 3#32 = true := by
  rw [BitVec.slt_iff_toInt_lt]; exact coord0_lt h b p
theorem coord1_slt (b : Fin 4) (p : Fin 128) : (a5 (ix3 b p 0)).slt 3#32 = true := by
  rw [BitVec.slt_iff_toInt_lt]; exact coord1_lt h b p

/-- Level 0: every class-map entry, converted to a 32-bit integer, lies in [-3, 3). -/
theorem cls0_range : ∀ i : S4x3x64x64x64.Idx,
    (-3 : Int) ≤ (fptosi (F := Ideal) 32 a2 i).toInt ∧ (fptosi (F := Ideal) 32 a2 i).toInt < 3 :=
  (decoded a0 a1 a2 a3 a4 a5 a6 h).2.2.2.2.2.2.2.1
/-- Level 1 likewise. -/
theorem cls1_range : ∀ i : S4x3x32x32x32.Idx,
    (-3 : Int) ≤ (fptosi (F := Ideal) 32 a3 i).toInt ∧ (fptosi (F := Ideal) 32 a3 i).toInt < 3 :=
  (decoded a0 a1 a2 a3 a4 a5 a6 h).2.2.2.2.2.2.2.2

/-- Level 0, on the real value: where the class-map entry is the real r, the converted word is r's integer part
    toward zero, which lies in [-3, 3). -/
theorem cls0_trunc (i : S4x3x64x64x64.Idx) (r : ℝ) (hr : a2 i = (r : EReal)) :
    (fptosi (F := Ideal) 32 a2 i).toInt = (if 0 ≤ r then ⌊r⌋ else ⌈r⌉)
      ∧ (-3 : Int) ≤ (if 0 ≤ r then ⌊r⌋ else ⌈r⌉) ∧ (if 0 ≤ r then ⌊r⌋ else ⌈r⌉) < 3 := by
  have e : fptosi (F := Ideal) 32 a2 i = Ideal.fptosi 32 (r : EReal) := by rw [fptosi_apply, hr]
  rw [e]; exact trunc_of_range r (e ▸ cls0_range h i)
/-- Level 1 likewise. -/
theorem cls1_trunc (i : S4x3x32x32x32.Idx) (r : ℝ) (hr : a3 i = (r : EReal)) :
    (fptosi (F := Ideal) 32 a3 i).toInt = (if 0 ≤ r then ⌊r⌋ else ⌈r⌉)
      ∧ (-3 : Int) ≤ (if 0 ≤ r then ⌊r⌋ else ⌈r⌉) ∧ (if 0 ≤ r then ⌊r⌋ else ⌈r⌉) < 3 := by
  have e : fptosi (F := Ideal) 32 a3 i = Ideal.fptosi 32 (r : EReal) := by rw [fptosi_apply, hr]
  rw [e]; exact trunc_of_range r (e ▸ cls1_range h i)

end Facts

end Cert.Hand.PreFacts
-- ==== Proof.KI.HostNeg.lean ====
import proofs.«424358_j44040594653645_2_alg».proof.Proof.Gen.KernelIdeal.Launch
import proofs.«424358_j44040594653645_2_alg».proof.Proof.Spec
import proofs.«424358_j44040594653645_2_alg».proof.Proof.Readers
import Idealize.ShloMosaic.Lib.StableHlo.Run
import Idealize.ShloMosaic.Lib.Pipeline.Value
import Idealize.ShloMosaic.Lib.ValueIdx
import Idealize.ShloMosaic.PureOps.Ideal.Laws

set_option maxRecDepth 4272

noncomputable section

/-
  The host sums of the tiled negative loss and count. Each level's kernel leaves two arrays [4, T, 8, 128] whose entry
  [b, dt, i, j] is tile (b, dt)'s loss (resp. count) for every i, j. The host reads entry [b, dt, 0, 0] of each, flattens
  to [4, T] and adds everything up starting from zero: the result is the double sum over b and dt of the tile values.
-/

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx
open scoped BigOperators

/-- The tile sums of level 0: read entry [.., .., 0, 0] of every tile, flatten to [4,4], add everything up from zero. -/
theorem sliceSum0 (x : S4x4x8x128.Idx → EReal) (i : S_.Idx) :
    Host.reduceAdd (F := Ideal)
      (shapeCast S4x4 (extractStridedSlice S4x4x1x1 ![0, 0, 0, 0] x slices_S4x4x8x128_S4x4x1x1_0_0_0_0) shapeCasts_S4x4x1x1_S4x4)
      (constant (F := Ideal) S_ .f32 0x00000000#32) reducesTo_S4x4_S_d0_1 h_S_ i
      = ∑ b : Fin 4, ∑ dt : Fin 4, x (ix4 b dt 0 0) := by
  simp only [Host.reduceAdd, Ideal.hostReduceAdd_def]
  rw [Ideal.hostReduceAdd_total reducesTo_S4x4_S_d0_1 (fun b => b.elim0), constant_apply, Ideal.ofBits_zero_f32, zero_add,
    sum_idx2]
  refine Finset.sum_congr rfl fun b _ => Finset.sum_congr rfl fun dt _ => ?_
  rw [shapeCast_apply _ shapeCasts_S4x4x1x1_S4x4 (ix2 b dt) (ix4 b dt 0 0)
      (by rewrite [Shape.rowMajor_val_four, Shape.rowMajor_val_two]; show ((b.val * 4 + dt.val) * 1 + 0) * 1 + 0 = b.val * 4 + dt.val; omega)]
  exact extractStridedSlice_apply ![0, 0, 0, 0] x slices_S4x4x8x128_S4x4x1x1_0_0_0_0 (ix4 b dt 0 0) (ix4 b dt 0 0) (fun a => match a with
    | ⟨0, _⟩ => by show b.val = 0 + b.val; omega
    | ⟨1, _⟩ => by show dt.val = 0 + dt.val; omega
    | ⟨2, _⟩ => by show (0 : ℕ) = 0 + 0; omega
    | ⟨3, _⟩ => by show (0 : ℕ) = 0 + 0; omega)

/-- The tile sums of level 1: read entry [.., .., 0, 0] of every tile, flatten to [4,2], add everything up from zero. -/
theorem sliceSum1 (x : S4x2x8x128.Idx → EReal) (i : S_.Idx) :
    Host.reduceAdd (F := Ideal)
      (shapeCast S4x2 (extractStridedSlice S4x2x1x1 ![0, 0, 0, 0] x slices_S4x2x8x128_S4x2x1x1_0_0_0_0) shapeCasts_S4x2x1x1_S4x2)
      (constant (F := Ideal) S_ .f32 0x00000000#32) reducesTo_S4x2_S_d0_1 h_S_ i
      = ∑ b : Fin 4, ∑ dt : Fin 2, x (ix4 b dt 0 0) := by
  simp only [Host.reduceAdd, Ideal.hostReduceAdd_def]
  rw [Ideal.hostReduceAdd_total reducesTo_S4x2_S_d0_1 (fun b => b.elim0), constant_apply, Ideal.ofBits_zero_f32, zero_add,
    sum_idx2]
  refine Finset.sum_congr rfl fun b _ => Finset.sum_congr rfl fun dt _ => ?_
  rw [shapeCast_apply _ shapeCasts_S4x2x1x1_S4x2 (ix2 b dt) (ix4 b dt 0 0)
      (by rewrite [Shape.rowMajor_val_four, Shape.rowMajor_val_two]; show ((b.val * 2 + dt.val) * 1 + 0) * 1 + 0 = b.val * 2 + dt.val; omega)]
  exact extractStridedSlice_apply ![0, 0, 0, 0] x slices_S4x2x8x128_S4x2x1x1_0_0_0_0 (ix4 b dt 0 0) (ix4 b dt 0 0) (fun a => match a with
    | ⟨0, _⟩ => by show b.val = 0 + b.val; omega
    | ⟨1, _⟩ => by show dt.val = 0 + dt.val; omega
    | ⟨2, _⟩ => by show (0 : ℕ) = 0 + 0; omega
    | ⟨3, _⟩ => by show (0 : ℕ) = 0 + 0; omega)

/-- After the stretch, the scalar holds the sum over the tiles of each tile's loss at level 0 (entry [b, dt, 0, 0] of the tile array `x`). -/
theorem hostOps1_v3 (W : Valuation τ sig (Elt Ideal)) (x : S4x4x8x128.Idx → EReal) (hx : W (Proc.devRef .tc main_v0_0) = x) :
    (StableHlo.after (hostOps1 (F := Ideal)) W (Proc.devRef .tc main_v3) : S_.Idx → EReal)
      = fun _ => ∑ b : Fin 4, ∑ dt : Fin 4, x (ix4 b dt 0 0) := by
  subst hx
  show StableHlo.after hostOps1 _ (Proc.devRef .tc main_v3) = _
  after_results
  funext i
  exact sliceSum0 _ i

/-- After the stretch, the scalar holds the sum over the tiles of each tile's count at level 0 (entry [b, dt, 0, 0] of the tile array `x`). -/
theorem hostOps1_v6 (W : Valuation τ sig (Elt Ideal)) (x : S4x4x8x128.Idx → EReal) (hx : W (Proc.devRef .tc main_v0_1) = x) :
    (StableHlo.after (hostOps1 (F := Ideal)) W (Proc.devRef .tc main_v6) : S_.Idx → EReal)
      = fun _ => ∑ b : Fin 4, ∑ dt : Fin 4, x (ix4 b dt 0 0) := by
  subst hx
  show StableHlo.after hostOps1 _ (Proc.devRef .tc main_v6) = _
  after_results
  funext i
  exact sliceSum0 _ i

/-- After the stretch, the scalar holds the sum over the tiles of each tile's loss at level 1 (entry [b, dt, 0, 0] of the tile array `x`). -/
theorem hostOps2_v10 (W : Valuation τ sig (Elt Ideal)) (x : S4x2x8x128.Idx → EReal) (hx : W (Proc.devRef .tc main_v7_0) = x) :
    (StableHlo.after (hostOps2 (F := Ideal)) W (Proc.devRef .tc main_v10) : S_.Idx → EReal)
      = fun _ => ∑ b : Fin 4, ∑ dt : Fin 2, x (ix4 b dt 0 0) := by
  subst hx
  show StableHlo.after hostOps2 _ (Proc.devRef .tc main_v10) = _
  after_results
  funext i
  exact sliceSum1 _ i

/-- After the stretch, the scalar holds the sum over the tiles of each tile's count at level 1 (entry [b, dt, 0, 0] of the tile array `x`). -/
theorem hostOps2_v13 (W : Valuation τ sig (Elt Ideal)) (x : S4x2x8x128.Idx → EReal) (hx : W (Proc.devRef .tc main_v7_1) = x) :
    (StableHlo.after (hostOps2 (F := Ideal)) W (Proc.devRef .tc main_v13) : S_.Idx → EReal)
      = fun _ => ∑ b : Fin 4, ∑ dt : Fin 2, x (ix4 b dt 0 0) := by
  subst hx
  show StableHlo.after hostOps2 _ (Proc.devRef .tc main_v13) = _
  after_results
  funext i
  exact sliceSum1 _ i

/-- A sum over `Fin 4 × Fin k` of a function of the coordinates' values is the sum over the ranges. -/
theorem sum_fin_range (k : ℕ) (f : ℕ → ℕ → EReal) :
    ∑ b : Fin 4, ∑ dt : Fin k, f b.val dt.val = ∑ b ∈ Finset.range 4, ∑ dt ∈ Finset.range k, f b dt := by
  rw [Finset.sum_fin_eq_sum_range]
  refine Finset.sum_congr rfl fun b hb => ?_
  rw [dif_pos (Finset.mem_range.mp hb), Finset.sum_fin_eq_sum_range]
  refine Finset.sum_congr rfl fun dt hdt => ?_
  rw [dif_pos (Finset.mem_range.mp hdt)]

end Cert.KernelIdeal.Hand

end
-- ==== Proof.Math.lean ====
import proofs.«424358_j44040594653645_2_alg».proof.Proof.Spec

/-!
  The two arrangements of the level's quantities are equal on finite inputs.

  * three logits: the tiled negative log-likelihood and probability are the textbook log-softmax's (real arithmetic: the
    shifted exponentials' sum is at least 1 because the maximal logit's term is 1);
  * the neighbourhood maximum: clamped depth neighbours and a border fill no larger than any value give the maximum
    over the neighbours inside the volume (each axis separately; the three axes commute);
  * the weights and the sums: the tiled weight is the textbook one, and the volume sum is the sum of the depth tiles' sums.
-/

noncomputable section

namespace Cert.Hand.Math

open Idealize.ShloMosaic Cert.Hand

/-! ## Three logits -/

/-- The maximum of three reals. -/
def M (r0 r1 r2 : ℝ) : ℝ := max (max r0 r1) r2

/-- The sum of the three exponentials shifted by the maximum. -/
def S (r0 r1 r2 : ℝ) : ℝ :=
  Real.exp (r0 - M r0 r1 r2) + Real.exp (r1 - M r0 r1 r2) + Real.exp (r2 - M r0 r1 r2)

theorem le_M0 (r0 r1 r2 : ℝ) : r0 ≤ M r0 r1 r2 := le_trans (le_max_left _ _) (le_max_left _ _)

/-- The sum is at least 1: the maximal logit's shifted exponential is 1 and the others are positive. -/
theorem one_le_S (r0 r1 r2 : ℝ) : 1 ≤ S r0 r1 r2 := by
  have p0 := Real.exp_pos (r0 - M r0 r1 r2)
  have p1 := Real.exp_pos (r1 - M r0 r1 r2)
  have p2 := Real.exp_pos (r2 - M r0 r1 r2)
  have hM : M r0 r1 r2 = r0 ∨ M r0 r1 r2 = r1 ∨ M r0 r1 r2 = r2 := by
    unfold M
    rcases max_choice (max r0 r1) r2 with h | h
    · rcases max_choice r0 r1 with h' | h'
      · left; rw [h, h']
      · right; left; rw [h, h']
    · right; right; exact h
  unfold S
  rcases hM with h | h | h
  · have e : Real.exp (r0 - M r0 r1 r2) = 1 := by rw [h, sub_self, Real.exp_zero]
    linarith
  · have e : Real.exp (r1 - M r0 r1 r2) = 1 := by rw [h, sub_self, Real.exp_zero]
    linarith
  · have e : Real.exp (r2 - M r0 r1 r2) = 1 := by rw [h, sub_self, Real.exp_zero]
    linarith

theorem S_pos (r0 r1 r2 : ℝ) : 0 < S r0 r1 r2 := lt_of_lt_of_le one_pos (one_le_S r0 r1 r2)

theorem m3_coe (r0 r1 r2 : ℝ) : Spec.m3 r0 r1 r2 = ((M r0 r1 r2 : ℝ) : EReal) := by
  unfold Spec.m3 M
  rw [EReal.coe_strictMono.monotone.map_max, EReal.coe_strictMono.monotone.map_max]

theorem s3_coe (r0 r1 r2 : ℝ) : Spec.s3 r0 r1 r2 = ((S r0 r1 r2 : ℝ) : EReal) := by
  unfold Spec.s3 S
  rw [m3_coe, ← EReal.coe_sub, ← EReal.coe_sub, ← EReal.coe_sub, Ideal.exp_coe, Ideal.exp_coe, Ideal.exp_coe,
    ← EReal.coe_add, ← EReal.coe_add]

theorem log_s3 (r0 r1 r2 : ℝ) : Ideal.log (Spec.s3 r0 r1 r2) = ((Real.log (S r0 r1 r2) : ℝ) : EReal) := by
  rw [s3_coe, Ideal.log_coe, if_neg (not_le.2 (S_pos r0 r1 r2))]

/-- The log-softmax of real logits is the real number (xk - max) - log(sum). -/
theorem logp_coe (rk r0 r1 r2 : ℝ) :
    Spec.logp rk r0 r1 r2 = ((rk - M r0 r1 r2 - Real.log (S r0 r1 r2) : ℝ) : EReal) := by
  unfold Spec.logp; rw [m3_coe, log_s3, ← EReal.coe_sub, ← EReal.coe_sub]

theorem nllK_coe (r0 r1 r2 : ℝ) :
    Spec.nllK r0 r1 r2 = ((M r0 r1 r2 + Real.log (S r0 r1 r2) - r0 : ℝ) : EReal) := by
  unfold Spec.nllK; rw [m3_coe, log_s3, ← EReal.coe_add, ← EReal.coe_sub]

/-- The tiled negative log-likelihood is minus the log-softmax of class 0. -/
theorem nllK_eq (r0 r1 r2 : ℝ) : Spec.nllK r0 r1 r2 = -Spec.logp r0 r0 r1 r2 := by
  rw [nllK_coe, logp_coe, ← EReal.coe_neg]; congr 1; ring

/-- The tiled probability, a quotient, is the exponential of the log-softmax. -/
theorem probK_eq (r0 r1 r2 : ℝ) : Spec.probK r0 r1 r2 = Spec.prob r0 r0 r1 r2 := by
  unfold Spec.probK Spec.prob
  rw [logp_coe, m3_coe, s3_coe, ← EReal.coe_sub, Ideal.exp_coe, Ideal.exp_coe, Ideal.div_coe (S_pos r0 r1 r2).ne',
    ← EReal.coe_mul]
  congr 1
  rw [Real.exp_sub (r0 - M r0 r1 r2) (Real.log (S r0 r1 r2)), Real.exp_log (S_pos r0 r1 r2)]
  ring

theorem nll_nonneg (r0 r1 r2 : ℝ) : (0 : EReal) ≤ -Spec.logp r0 r0 r1 r2 := by
  rw [logp_coe, ← EReal.coe_neg]
  have h1 := le_M0 r0 r1 r2
  have h2 := Real.log_nonneg (one_le_S r0 r1 r2)
  exact EReal.coe_nonneg.2 (by linarith)

theorem logp_real (rk r0 r1 r2 : ℝ) : ∃ r : ℝ, Spec.logp rk r0 r1 r2 = (r : EReal) := ⟨_, logp_coe rk r0 r1 r2⟩

/-! ## The fill -/

/-- The fill of the height and width borders: a negative finite number. -/
def fill : EReal := Ideal.ofBits .f32 0xF149F2CA#32

/-- The fill's value: sign 1, exponent field 226, fraction field 4846282, so -(2^23 + 4846282) * 2^(226 - 127 - 23). -/
theorem fill_eq : fill = ((-(13234890 * 2 ^ 76) : ℝ) : EReal) := by
  unfold fill
  simp [Ideal.ofBits, Ideal.ieee]

theorem fill_le_zero : fill ≤ 0 := by
  rw [fill_eq]
  exact EReal.coe_nonpos.2 (neg_nonpos.2 (by positivity))

/-! ## The neighbourhood maximum -/

/-- One axis: the maximum over those of the three neighbours x - 1, x, x + 1 that lie in [0, n), `⊥` for the others. -/
def pool1 (n : ℕ) (g : ℕ → EReal) (x : ℕ) : EReal :=
  (Finset.range 3).sup fun i => if 1 ≤ x + i ∧ x + i - 1 < n then g (x + i - 1) else ⊥

/-- A supremum over three offsets, written out. -/
theorem sup3 (f : ℕ → EReal) : (Finset.range 3).sup f = max (max (f 0) (f 1)) (f 2) := by
  rw [Finset.range_add_one, Finset.range_add_one, Finset.range_add_one, Finset.range_zero, Finset.sup_insert, Finset.sup_insert,
    Finset.sup_insert, Finset.sup_empty, sup_bot_eq]
  apply le_antisymm
  · exact sup_le (le_max_right _ _)
      (sup_le (le_trans (le_max_right _ _) (le_max_left _ _)) (le_trans (le_max_left _ _) (le_max_left _ _)))
  · exact max_le (max_le (le_sup_of_le_right le_sup_right) (le_sup_of_le_right le_sup_left)) le_sup_left

/-- A condition that does not depend on the index comes out of a supremum. -/
theorem sup_ite_const {ι : Type} (s : Finset ι) (p : Prop) [Decidable p] (a : ι → EReal) :
    (s.sup fun i => if p then a i else ⊥) = if p then s.sup a else ⊥ := by
  by_cases hp : p
  · simp only [if_pos hp]
  · simp only [if_neg hp, Finset.sup_bot]

/-- At a position inside the axis the centre is always there; the left neighbour is missing at 0 and the right one at n - 1. -/
theorem pool1_of_lt (n : ℕ) (g : ℕ → EReal) (x : ℕ) (hx : x < n) :
    pool1 n g x = max (max (if x = 0 then ⊥ else g (x - 1)) (g x)) (if x = n - 1 then ⊥ else g (x + 1)) := by
  unfold pool1
  rw [sup3]
  have e0 : (if 1 ≤ x + 0 ∧ x + 0 - 1 < n then g (x + 0 - 1) else ⊥) = (if x = 0 then ⊥ else g (x - 1)) := by
    by_cases h : x = 0
    · rw [if_pos h, if_neg (show ¬(1 ≤ x + 0 ∧ x + 0 - 1 < n) by omega)]
    · rw [if_neg h, if_pos (show 1 ≤ x + 0 ∧ x + 0 - 1 < n by omega)]; rfl
  have e1 : (if 1 ≤ x + 1 ∧ x + 1 - 1 < n then g (x + 1 - 1) else ⊥) = g x := by
    rw [if_pos (show 1 ≤ x + 1 ∧ x + 1 - 1 < n by omega)]; rfl
  have e2 : (if 1 ≤ x + 2 ∧ x + 2 - 1 < n then g (x + 2 - 1) else ⊥) = (if x = n - 1 then ⊥ else g (x + 1)) := by
    by_cases h : x = n - 1
    · rw [if_pos h, if_neg (show ¬(1 ≤ x + 2 ∧ x + 2 - 1 < n) by omega)]
    · rw [if_neg h, if_pos (show 1 ≤ x + 2 ∧ x + 2 - 1 < n by omega)]; rfl
  rw [e0, e1, e2]

/-- Functions that agree on [0, n) have the same one-axis maximum. -/
theorem pool1_congr (n : ℕ) (g g' : ℕ → EReal) (x : ℕ) (hg : ∀ y, y < n → g y = g' y) : pool1 n g x = pool1 n g' x := by
  unfold pool1
  refine Finset.sup_congr rfl fun i _ => ?_
  by_cases hcond : 1 ≤ x + i ∧ x + i - 1 < n
  · rw [if_pos hcond, if_pos hcond, hg _ hcond.2]
  · rw [if_neg hcond, if_neg hcond]

/-- A border fill no larger than the centre: the filled three-point maximum is the maximum over the neighbours inside. -/
theorem fill_axis (n : ℕ) (c : EReal) (g : ℕ → EReal) (x : ℕ) (hx : x < n) (hc : c ≤ g x) :
    max (max (if x = 0 then c else g (x - 1)) (g x)) (if x = n - 1 then c else g (x + 1)) = pool1 n g x := by
  rw [pool1_of_lt n g x hx]
  have eA : max (if x = 0 then c else g (x - 1)) (g x) = max (if x = 0 then ⊥ else g (x - 1)) (g x) := by
    by_cases h0 : x = 0
    · rw [if_pos h0, if_pos h0, max_eq_right hc, max_eq_right bot_le]
    · rw [if_neg h0, if_neg h0]
  rw [eA]
  by_cases h1 : x = n - 1
  · rw [if_pos h1, if_pos h1, max_eq_left (le_trans hc (le_max_right _ _)), max_eq_left bot_le]
  · rw [if_neg h1, if_neg h1]

/-- Clamped neighbours (the end value repeated past each end): the three-point maximum is again the maximum over the
    neighbours inside, the repeated value being the centre. -/
theorem clamp_axis (n : ℕ) (g : ℕ → EReal) (x : ℕ) (hx : x < n) :
    max (max (g (x - 1)) (g x)) (g (min (x + 1) (n - 1))) = pool1 n g x := by
  rw [pool1_of_lt n g x hx]
  have eA : max (g (x - 1)) (g x) = max (if x = 0 then ⊥ else g (x - 1)) (g x) := by
    by_cases h0 : x = 0
    · rw [if_pos h0, max_eq_right bot_le]; subst h0; exact max_self _
    · rw [if_neg h0]
  rw [eA]
  by_cases h1 : x = n - 1
  · have e : min (x + 1) (n - 1) = x := by omega
    rw [if_pos h1, e, max_eq_left (le_max_right _ _), max_eq_left bot_le]
  · have e : min (x + 1) (n - 1) = x + 1 := by omega
    rw [if_neg h1, e]

/-- The neighbour's condition, axis by axis. -/
theorem nb_eq (n : ℕ) (f : ℕ → ℕ → ℕ → EReal) (d h w i j k : ℕ) :
    Spec.nb n f d h w i j k =
      if 1 ≤ d + i ∧ d + i - 1 < n then
        (if 1 ≤ h + j ∧ h + j - 1 < n then
          (if 1 ≤ w + k ∧ w + k - 1 < n then f (d + i - 1) (h + j - 1) (w + k - 1) else ⊥) else ⊥) else ⊥ := by
  unfold Spec.nb
  by_cases hA : 1 ≤ d + i ∧ d + i - 1 < n
  · by_cases hB : 1 ≤ h + j ∧ h + j - 1 < n
    · by_cases hC : 1 ≤ w + k ∧ w + k - 1 < n
      · rw [if_pos hA, if_pos hB, if_pos hC, if_pos ⟨hA.1, hA.2, hB.1, hB.2, hC.1, hC.2⟩]
      · rw [if_pos hA, if_pos hB, if_neg hC, if_neg (fun q => hC ⟨q.2.2.2.2.1, q.2.2.2.2.2⟩)]
    · rw [if_pos hA, if_neg hB, if_neg (fun q => hB ⟨q.2.2.1, q.2.2.2.1⟩)]
  · rw [if_neg hA, if_neg (fun q => hA ⟨q.1, q.2.1⟩)]

/-- The 3x3x3 maximum is the one-axis maximum along the depth of the one along the height of the one along the width. -/
theorem pool_eq_nested (n : ℕ) (f : ℕ → ℕ → ℕ → EReal) (d h w : ℕ) :
    Spec.pool n f d h w = pool1 n (fun d' => pool1 n (fun h' => pool1 n (fun w' => f d' h' w') w) h) d := by
  unfold Spec.pool pool1
  simp only [nb_eq, sup_ite_const]

/-- One-axis maxima along two different axes commute. -/
theorem pool1_comm (n : ℕ) (G : ℕ → ℕ → EReal) (x y : ℕ) :
    pool1 n (fun x' => pool1 n (fun y' => G x' y') y) x = pool1 n (fun y' => pool1 n (fun x' => G x' y') x) y := by
  unfold pool1
  simp only [← sup_ite_const]
  rw [Finset.sup_comm]
  refine Finset.sup_congr rfl fun j _ => Finset.sup_congr rfl fun i _ => ?_
  split_ifs <;> rfl

/-- The tiled neighbourhood maximum (clamped depth neighbours, then height and width neighbours with a fill at the
    borders) is the 3x3x3 maximum over the neighbours inside the volume, when the fill is no larger than any value. -/
theorem poolK_eq (n : ℕ) (hn : 2 ≤ n) (c : EReal) (f : ℕ → ℕ → ℕ → EReal)
    (hc : ∀ d h w, d < n → h < n → w < n → c ≤ f d h w) :
    ∀ d h w, d < n → h < n → w < n → Spec.poolK n c f d h w = Spec.pool n f d h w := by
  intro d h w hd hh hw
  have _ := hn
  have hdm : ∀ h' w', Spec.dmaxK n f d h' w' = pool1 n (fun d' => f d' h' w') d := fun h' w' => by
    unfold Spec.dmaxK; exact clamp_axis n (fun d' => f d' h' w') d hd
  have hdge : ∀ h' w', f d h' w' ≤ Spec.dmaxK n f d h' w' := fun h' w' => by
    unfold Spec.dmaxK; exact le_trans (le_max_right _ _) (le_max_left _ _)
  have hhm : ∀ w', w' < n → Spec.hmaxK n c f d h w' = pool1 n (fun h' => pool1 n (fun d' => f d' h' w') d) h :=
    fun w' hw' => by
      have e : Spec.hmaxK n c f d h w' = pool1 n (fun h' => Spec.dmaxK n f d h' w') h := by
        unfold Spec.hmaxK
        exact fill_axis n c (fun h' => Spec.dmaxK n f d h' w') h hh (le_trans (hc d h w' hd hh hw') (hdge h w'))
      rw [e]; congr 1; funext h'; exact hdm h' w'
  have hhge : f d h w ≤ Spec.hmaxK n c f d h w := by
    unfold Spec.hmaxK; exact le_trans (hdge h w) (le_trans (le_max_right _ _) (le_max_left _ _))
  have e : Spec.poolK n c f d h w = pool1 n (fun w' => Spec.hmaxK n c f d h w') w := by
    unfold Spec.poolK
    exact fill_axis n c (fun w' => Spec.hmaxK n c f d h w') w hw (le_trans (hc d h w hd hh hw) hhge)
  rw [e, pool1_congr n _ (fun w' => pool1 n (fun h' => pool1 n (fun d' => f d' h' w') d) h) w hhm, pool_eq_nested]
  symm
  calc pool1 n (fun d' => pool1 n (fun h' => pool1 n (fun w' => f d' h' w') w) h) d
      = pool1 n (fun d' => pool1 n (fun w' => pool1 n (fun h' => f d' h' w') h) w) d := by
        congr 1; funext d'; exact pool1_comm n (fun h' w' => f d' h' w') h w
    _ = pool1 n (fun w' => pool1 n (fun d' => pool1 n (fun h' => f d' h' w') h) d) w :=
        pool1_comm n (fun d' w' => pool1 n (fun h' => f d' h' w') h) d w
    _ = pool1 n (fun w' => pool1 n (fun h' => pool1 n (fun d' => f d' h' w') d) h) w := by
        congr 1; funext w'; exact pool1_comm n (fun d' h' => f d' h' w') d h

/-! ## The weight and the summand -/

section Voxel
variable (X : ℕ → ℕ → ℕ → ℕ → ℕ → EReal) (hX : ∀ b ch d h w, ∃ r : ℝ, X b ch d h w = (r : EReal))
include hX

/-- On finite logits the tiled negative log-likelihood at a voxel is the textbook one. -/
theorem nllK_at (b a d h w : ℕ) :
    Spec.nllK (Spec.xk X 0 b a d h w) (Spec.xk X 1 b a d h w) (Spec.xk X 2 b a d h w) = Spec.nllAt X b a d h w := by
  obtain ⟨r0, e0⟩ := hX b (3 * 0 + a) d h w
  obtain ⟨r1, e1⟩ := hX b (3 * 1 + a) d h w
  obtain ⟨r2, e2⟩ := hX b (3 * 2 + a) d h w
  unfold Spec.nllAt Spec.logpAt Spec.xk
  rw [e0, e1, e2]
  exact nllK_eq r0 r1 r2

/-- Likewise the tiled probability of class 0. -/
theorem probK_at (b a d h w : ℕ) :
    Spec.probK (Spec.xk X 0 b a d h w) (Spec.xk X 1 b a d h w) (Spec.xk X 2 b a d h w) = Spec.probAt X 0 b a d h w := by
  obtain ⟨r0, e0⟩ := hX b (3 * 0 + a) d h w
  obtain ⟨r1, e1⟩ := hX b (3 * 1 + a) d h w
  obtain ⟨r2, e2⟩ := hX b (3 * 2 + a) d h w
  unfold Spec.probAt Spec.xk
  rw [e0, e1, e2]
  exact probK_eq r0 r1 r2

/-- The negative log-likelihood of finite logits is not negative. -/
theorem nllAt_nonneg (b a d h w : ℕ) : (0 : EReal) ≤ Spec.nllAt X b a d h w := by
  obtain ⟨r0, e0⟩ := hX b (3 * 0 + a) d h w
  obtain ⟨r1, e1⟩ := hX b (3 * 1 + a) d h w
  obtain ⟨r2, e2⟩ := hX b (3 * 2 + a) d h w
  unfold Spec.nllAt Spec.logpAt Spec.xk
  rw [e0, e1, e2]
  exact nll_nonneg r0 r1 r2

end Voxel

/-- The tiled weight is the textbook weight at every voxel of the volume. -/
theorem wnegK_eq (n : ℕ) (hn : 2 ≤ n) (X P : ℕ → ℕ → ℕ → ℕ → ℕ → EReal)
    (hX : ∀ b ch d h w, ∃ r : ℝ, X b ch d h w = (r : EReal)) (b a d h w : ℕ) (hd : d < n) (hh : h < n) (hw : w < n) :
    Spec.wnegK n X P fill b a d h w = Spec.wneg n X P b a d h w := by
  have hf : (fun d' h' w' => Spec.nllK (Spec.xk X 0 b a d' h' w') (Spec.xk X 1 b a d' h' w') (Spec.xk X 2 b a d' h' w'))
      = Spec.nllAt X b a := by
    funext d' h' w'; exact nllK_at X hX b a d' h' w'
  unfold Spec.wnegK Spec.wneg
  rw [hf, nllK_at X hX, probK_at X hX,
    poolK_eq n hn fill (Spec.nllAt X b a) (fun d' h' w' _ _ _ => le_trans fill_le_zero (nllAt_nonneg X hX b a d' h' w'))
      d h w hd hh hw]

/-- So is the summand of the loss. -/
theorem term_eq (n : ℕ) (hn : 2 ≤ n) (X P : ℕ → ℕ → ℕ → ℕ → ℕ → EReal)
    (hX : ∀ b ch d h w, ∃ r : ℝ, X b ch d h w = (r : EReal)) (b a d h w : ℕ) (hd : d < n) (hh : h < n) (hw : w < n) :
    Spec.nllK (Spec.xk X 0 b a d h w) (Spec.xk X 1 b a d h w) (Spec.xk X 2 b a d h w) * Spec.wnegK n X P fill b a d h w
      = Spec.nllAt X b a d h w * Spec.wneg n X P b a d h w := by
  rw [nllK_at X hX, wnegK_eq n hn X P hX b a d h w hd hh hw]

/-! ## The sums -/

/-- A sum over 16 k consecutive depths is the sum over k tiles of the sums over each tile's 16 depths. -/
theorem sum_tiles (k : ℕ) (g : ℕ → EReal) :
    ∑ d ∈ Finset.range (16 * k), g d = ∑ dt ∈ Finset.range k, ∑ dd ∈ Finset.range 16, g (16 * dt + dd) := by
  induction k with
  | zero => simp
  | succ k ih =>
    rw [Nat.mul_succ, Finset.sum_range_add, ih,
      Finset.sum_range_succ (fun dt => ∑ dd ∈ Finset.range 16, g (16 * dt + dd)) k]

/-- Three nested sums in the reverse order. -/
theorem sum_rev3 (A B C : Finset ℕ) (F : ℕ → ℕ → ℕ → EReal) :
    ∑ a ∈ A, ∑ b ∈ B, ∑ c ∈ C, F a b c = ∑ c ∈ C, ∑ b ∈ B, ∑ a ∈ A, F a b c :=
  calc ∑ a ∈ A, ∑ b ∈ B, ∑ c ∈ C, F a b c
      = ∑ b ∈ B, ∑ a ∈ A, ∑ c ∈ C, F a b c := Finset.sum_comm
    _ = ∑ b ∈ B, ∑ c ∈ C, ∑ a ∈ A, F a b c := Finset.sum_congr rfl fun b _ => Finset.sum_comm
    _ = ∑ c ∈ C, ∑ b ∈ B, ∑ a ∈ A, F a b c := Finset.sum_comm

/-- Four nested sums in the reverse order. -/
theorem sum_rev4 (A B C D : Finset ℕ) (F : ℕ → ℕ → ℕ → ℕ → EReal) :
    ∑ a ∈ A, ∑ b ∈ B, ∑ c ∈ C, ∑ d ∈ D, F a b c d = ∑ d ∈ D, ∑ c ∈ C, ∑ b ∈ B, ∑ a ∈ A, F a b c d :=
  calc ∑ a ∈ A, ∑ b ∈ B, ∑ c ∈ C, ∑ d ∈ D, F a b c d
      = ∑ a ∈ A, ∑ d ∈ D, ∑ c ∈ C, ∑ b ∈ B, F a b c d := Finset.sum_congr rfl fun a _ => sum_rev3 B C D (F a)
    _ = ∑ d ∈ D, ∑ a ∈ A, ∑ c ∈ C, ∑ b ∈ B, F a b c d := Finset.sum_comm
    _ = ∑ d ∈ D, ∑ c ∈ C, ∑ a ∈ A, ∑ b ∈ B, F a b c d := Finset.sum_congr rfl fun d _ => Finset.sum_comm
    _ = ∑ d ∈ D, ∑ c ∈ C, ∑ b ∈ B, ∑ a ∈ A, F a b c d :=
        Finset.sum_congr rfl fun d _ => Finset.sum_congr rfl fun c _ => Finset.sum_comm

/-- The volume's sum (anchors, depths, heights, widths) is the sum over depth tiles of each tile's sum in its own order
    (widths, heights, the tile's depths, anchors). -/
theorem rearrange (n k : ℕ) (T : ℕ → ℕ → ℕ → ℕ → EReal) :
    ∑ a ∈ Finset.range 3, ∑ d ∈ Finset.range (16 * k), ∑ h ∈ Finset.range n, ∑ w ∈ Finset.range n, T a d h w
      = ∑ dt ∈ Finset.range k, ∑ w ∈ Finset.range n, ∑ h ∈ Finset.range n, ∑ dd ∈ Finset.range 16, ∑ a ∈ Finset.range 3,
          T a (16 * dt + dd) h w :=
  calc ∑ a ∈ Finset.range 3, ∑ d ∈ Finset.range (16 * k), ∑ h ∈ Finset.range n, ∑ w ∈ Finset.range n, T a d h w
      = ∑ a ∈ Finset.range 3, ∑ dt ∈ Finset.range k, ∑ dd ∈ Finset.range 16, ∑ h ∈ Finset.range n, ∑ w ∈ Finset.range n,
          T a (16 * dt + dd) h w :=
        Finset.sum_congr rfl fun a _ => sum_tiles k fun d => ∑ h ∈ Finset.range n, ∑ w ∈ Finset.range n, T a d h w
    _ = ∑ dt ∈ Finset.range k, ∑ a ∈ Finset.range 3, ∑ dd ∈ Finset.range 16, ∑ h ∈ Finset.range n, ∑ w ∈ Finset.range n,
          T a (16 * dt + dd) h w := Finset.sum_comm
    _ = ∑ dt ∈ Finset.range k, ∑ w ∈ Finset.range n, ∑ h ∈ Finset.range n, ∑ dd ∈ Finset.range 16, ∑ a ∈ Finset.range 3,
          T a (16 * dt + dd) h w :=
        Finset.sum_congr rfl fun dt _ =>
          sum_rev4 (Finset.range 3) (Finset.range 16) (Finset.range n) (Finset.range n) fun a dd h w => T a (16 * dt + dd) h w

/-- The negative loss over a volume of extent 16 k is the sum of the depth tiles' losses in the tiled arrangement. -/
theorem lossNeg_eq_tiles (k : ℕ) (hk : 1 ≤ k) (X P : ℕ → ℕ → ℕ → ℕ → ℕ → EReal)
    (hX : ∀ b ch d h w, ∃ r : ℝ, X b ch d h w = (r : EReal)) :
    Spec.lossNeg (16 * k) X P
      = ∑ b ∈ Finset.range 4, ∑ dt ∈ Finset.range k, Spec.tileLossK (16 * k) X P fill b dt := by
  unfold Spec.lossNeg Spec.tileLossK
  refine Finset.sum_congr rfl fun b _ => ?_
  refine Eq.trans ?_ (rearrange (16 * k) k fun a d h w =>
    Spec.nllK (Spec.xk X 0 b a d h w) (Spec.xk X 1 b a d h w) (Spec.xk X 2 b a d h w) * Spec.wnegK (16 * k) X P fill b a d h w)
  refine Finset.sum_congr rfl fun a _ => Finset.sum_congr rfl fun d hd => Finset.sum_congr rfl fun h hh =>
    Finset.sum_congr rfl fun w hw => ?_
  exact (term_eq (16 * k) (by omega) X P hX b a d h w (Finset.mem_range.1 hd) (Finset.mem_range.1 hh)
    (Finset.mem_range.1 hw)).symm

/-- The negative count likewise. -/
theorem countNeg_eq_tiles (k : ℕ) (hk : 1 ≤ k) (X P : ℕ → ℕ → ℕ → ℕ → ℕ → EReal)
    (hX : ∀ b ch d h w, ∃ r : ℝ, X b ch d h w = (r : EReal)) :
    Spec.countNeg (16 * k) X P
      = ∑ b ∈ Finset.range 4, ∑ dt ∈ Finset.range k, Spec.tileCountK (16 * k) X P fill b dt := by
  unfold Spec.countNeg Spec.tileCountK
  refine Finset.sum_congr rfl fun b _ => ?_
  refine Eq.trans ?_ (rearrange (16 * k) k fun a d h w => Spec.wnegK (16 * k) X P fill b a d h w)
  refine Finset.sum_congr rfl fun a _ => Finset.sum_congr rfl fun d hd => Finset.sum_congr rfl fun h hh =>
    Finset.sum_congr rfl fun w hw => ?_
  exact (wnegK_eq (16 * k) (by omega) X P hX b a d h w (Finset.mem_range.1 hd) (Finset.mem_range.1 hh)
    (Finset.mem_range.1 hw)).symm

end Cert.Hand.Math
-- ==== Proof.KI.NegGlue.lean ====
import proofs.«424358_j44040594653645_2_alg».proof.Proof.Spec
import proofs.«424358_j44040594653645_2_alg».proof.Proof.Readers
import proofs.«424358_j44040594653645_2_alg».proof.Proof.Math
import proofs.«424358_j44040594653645_2_alg».proof.Proof.PreFacts

/-!
  From the depth tiles to the level: when the host adds up, over batches and depth tiles, numbers that are each the tiled
  arrangement's loss (or count) of one tile, and the logits are finite, the total is the level's negative loss (or
  count) in the textbook arrangement. The sum is stated in the forms a host reduction presents: over index ranges, over
  finite index types, and over the indices of a [4, k] rectangle.
-/

noncomputable section

namespace Cert.KernelIdeal.Hand

open Idealize.ShloMosaic Idealize.ShloMosaic.ValueIdx Cert.Hand Cert.Hand.Readers

/-- A reader of an array of real numbers is real-valued at every natural-number position (zero outside the array). -/
theorem rd5_real {n0 n1 n2 n3 n4 : ℕ} (x : (⟨5, ![n0, n1, n2, n3, n4]⟩ : Shape).Idx → EReal)
    (hx : ∀ i, ∃ r : ℝ, x i = (r : EReal)) (i0 i1 i2 i3 i4 : ℕ) : ∃ r : ℝ, rd5 x i0 i1 i2 i3 i4 = (r : EReal) := by
  unfold rd5
  split
  · exact hx _
  · exact ⟨0, EReal.coe_zero.symm⟩

section Level

variable (k : ℕ) (hk : 1 ≤ k) (X P : ℕ → ℕ → ℕ → ℕ → ℕ → EReal)
  (hX : ∀ b ch d h w, ∃ r : ℝ, X b ch d h w = (r : EReal))
include hk hX

/-- Sums over index ranges. -/
theorem lossNeg_of_tiles_range (T : ℕ → ℕ → EReal)
    (hT : ∀ b dt, b < 4 → dt < k → T b dt = Spec.tileLossK (16 * k) X P Math.fill b dt) :
    ∑ b ∈ Finset.range 4, ∑ dt ∈ Finset.range k, T b dt = Spec.lossNeg (16 * k) X P := by
  rw [Math.lossNeg_eq_tiles k hk X P hX]
  exact Finset.sum_congr rfl fun b hb => Finset.sum_congr rfl fun dt hdt =>
    hT b dt (Finset.mem_range.1 hb) (Finset.mem_range.1 hdt)

theorem countNeg_of_tiles_range (T : ℕ → ℕ → EReal)
    (hT : ∀ b dt, b < 4 → dt < k → T b dt = Spec.tileCountK (16 * k) X P Math.fill b dt) :
    ∑ b ∈ Finset.range 4, ∑ dt ∈ Finset.range k, T b dt = Spec.countNeg (16 * k) X P := by
  rw [Math.countNeg_eq_tiles k hk X P hX]
  exact Finset.sum_congr rfl fun b hb => Finset.sum_congr rfl fun dt hdt =>
    hT b dt (Finset.mem_range.1 hb) (Finset.mem_range.1 hdt)

/-- Sums over the finite index types. -/
theorem lossNeg_of_tiles_fin (T : Fin 4 → Fin k → EReal)
    (hT : ∀ b dt, T b dt = Spec.tileLossK (16 * k) X P Math.fill b.val dt.val) :
    ∑ b : Fin 4, ∑ dt : Fin k, T b dt = Spec.lossNeg (16 * k) X P := by
  rw [Math.lossNeg_eq_tiles k hk X P hX, ← Fin.sum_univ_eq_sum_range (fun b => ∑ dt ∈ Finset.range k, Spec.tileLossK (16 * k) X P Math.fill b dt) 4]
  refine Finset.sum_congr rfl fun b _ => ?_
  rw [← Fin.sum_univ_eq_sum_range (fun dt => Spec.tileLossK (16 * k) X P Math.fill b.val dt) k]
  exact Finset.sum_congr rfl fun dt _ => hT b dt

theorem countNeg_of_tiles_fin (T : Fin 4 → Fin k → EReal)
    (hT : ∀ b dt, T b dt = Spec.tileCountK (16 * k) X P Math.fill b.val dt.val) :
    ∑ b : Fin 4, ∑ dt : Fin k, T b dt = Spec.countNeg (16 * k) X P := by
  rw [Math.countNeg_eq_tiles k hk X P hX, ← Fin.sum_univ_eq_sum_range (fun b => ∑ dt ∈ Finset.range k, Spec.tileCountK (16 * k) X P Math.fill b dt) 4]
  refine Finset.sum_congr rfl fun b _ => ?_
  rw [← Fin.sum_univ_eq_sum_range (fun dt => Spec.tileCountK (16 * k) X P Math.fill b.val dt) k]
  exact Finset.sum_congr rfl fun dt _ => hT b dt

/-- Sums over the indices of a [4, k] rectangle (a host reduction over both axes). -/
theorem lossNeg_of_tiles_idx (T : (⟨2, ![4, k]⟩ : Shape).Idx → EReal)
    (hT : ∀ (b : Fin 4) (dt : Fin k), T (ix2 b dt) = Spec.tileLossK (16 * k) X P Math.fill b.val dt.val) :
    ∑ j : (⟨2, ![4, k]⟩ : Shape).Idx, T j = Spec.lossNeg (16 * k) X P := by
  rw [sum_idx2]
  exact lossNeg_of_tiles_fin k hk X P hX (fun b dt => T (ix2 b dt)) hT

theorem countNeg_of_tiles_idx (T : (⟨2, ![4, k]⟩ : Shape).Idx → EReal)
    (hT : ∀ (b : Fin 4) (dt : Fin k), T (ix2 b dt) = Spec.tileCountK (16 * k) X P Math.fill b.val dt.val) :
    ∑ j : (⟨2, ![4, k]⟩ : Shape).Idx, T j = Spec.countNeg (16 * k) X P := by
  rw [sum_idx2]
  exact countNeg_of_tiles_fin k hk X P hX (fun b dt => T (ix2 b dt)) hT

end Level

/-! ## The two levels, over the argument arrays and the kernel's [4, k, 8, 128] arrays of tile sums -/

/-- Level 0 (extent 64, four depth tiles): the loss. -/
theorem lossNeg0 (a0 : (⟨5, ![4, 9, 64, 64, 64]⟩ : Shape).Idx → EReal) (a2 : (⟨5, ![4, 3, 64, 64, 64]⟩ : Shape).Idx → EReal)
    (hfin : ∀ i, ∃ r : ℝ, a0 i = (r : EReal)) (A : (⟨4, ![4, 4, 8, 128]⟩ : Shape).Idx → EReal)
    (htile : ∀ (b dt : Fin 4), A (ix4 b dt 0 0) = Spec.tileLossK 64 (rd5 a0) (rd5 a2) Math.fill b.val dt.val) :
    ∑ b : Fin 4, ∑ dt : Fin 4, A (ix4 b dt 0 0) = Spec.lossNeg 64 (rd5 a0) (rd5 a2) :=
  lossNeg_of_tiles_fin 4 (by norm_num) (rd5 a0) (rd5 a2) (rd5_real a0 hfin) (fun b dt => A (ix4 b dt 0 0)) htile

/-- Level 0: the count. -/
theorem countNeg0 (a0 : (⟨5, ![4, 9, 64, 64, 64]⟩ : Shape).Idx → EReal) (a2 : (⟨5, ![4, 3, 64, 64, 64]⟩ : Shape).Idx → EReal)
    (hfin : ∀ i, ∃ r : ℝ, a0 i = (r : EReal)) (A : (⟨4, ![4, 4, 8, 128]⟩ : Shape).Idx → EReal)
    (htile : ∀ (b dt : Fin 4), A (ix4 b dt 0 0) = Spec.tileCountK 64 (rd5 a0) (rd5 a2) Math.fill b.val dt.val) :
    ∑ b : Fin 4, ∑ dt : Fin 4, A (ix4 b dt 0 0) = Spec.countNeg 64 (rd5 a0) (rd5 a2) :=
  countNeg_of_tiles_fin 4 (by norm_num) (rd5 a0) (rd5 a2) (rd5_real a0 hfin) (fun b dt => A (ix4 b dt 0 0)) htile

/-- Level 1 (extent 32, two depth tiles): the loss. -/
theorem lossNeg1 (a1 : (⟨5, ![4, 9, 32, 32, 32]⟩ : Shape).Idx → EReal) (a3 : (⟨5, ![4, 3, 32, 32, 32]⟩ : Shape).Idx → EReal)
    (hfin : ∀ i, ∃ r : ℝ, a1 i = (r : EReal)) (A : (⟨4, ![4, 2, 8, 128]⟩ : Shape).Idx → EReal)
    (htile : ∀ (b : Fin 4) (dt : Fin 2), A (ix4 b dt 0 0) = Spec.tileLossK 32 (rd5 a1) (rd5 a3) Math.fill b.val dt.val) :
    ∑ b : Fin 4, ∑ dt : Fin 2, A (ix4 b dt 0 0) = Spec.lossNeg 32 (rd5 a1) (rd5 a3) :=
  lossNeg_of_tiles_fin 2 (by norm_num) (rd5 a1) (rd5 a3) (rd5_real a1 hfin) (fun b dt => A (ix4 b dt 0 0)) htile

/-- Level 1: the count. -/
theorem countNeg1 (a1 : (⟨5, ![4, 9, 32, 32, 32]⟩ : Shape).Idx → EReal) (a3 : (⟨5, ![4, 3, 32, 32, 32]⟩ : Shape).Idx → EReal)
    (hfin : ∀ i, ∃ r : ℝ, a1 i = (r : EReal)) (A : (⟨4, ![4, 2, 8, 128]⟩ : Shape).Idx → EReal)
    (htile : ∀ (b : Fin 4) (dt : Fin 2), A (ix4 b dt 0 0) = Spec.tileCountK 32 (rd5 a1) (rd5 a3) Math.fill b.val dt.val) :
    ∑ b : Fin 4, ∑ dt : Fin 2, A (ix4 b dt 0 0) = Spec.countNeg 32 (rd5 a1) (rd5 a3) :=
  countNeg_of_tiles_fin 2 (by norm_num) (rd5 a1) (rd5 a3) (rd5_real a1 hfin) (fun b dt => A (ix4 b dt 0 0)) htile

/-! ## Finiteness of the readers from the stated precondition -/

section Pre
open Cert.Pre_finite_inputs
variable [Cert.Pre_finite_inputs.Facts]
variable {a0 : FVec Ideal S4x9x64x64x64 .f32} {a1 : FVec Ideal S4x9x32x32x32 .f32}
  {a2 : FVec Ideal S4x3x64x64x64 .f32} {a3 : FVec Ideal S4x3x32x32x32 .f32}
  {a4 a5 : IVec S4x128x4 32} {a6 : FVec Ideal S3 .f32}

/-- Under the precondition the level-0 logits' reader is real-valued everywhere. -/
theorem X0_real (h : Cert.Pre_finite_inputs.fn (F := Ideal) a0 a1 a2 a3 a4 a5 a6 = fun _ => 1#1) (b ch d hh w : ℕ) :
    ∃ r : ℝ, rd5 a0 b ch d hh w = (r : EReal) := rd5_real a0 (PreFacts.finite_a0 h) b ch d hh w

/-- Likewise the level-1 logits' reader. -/
theorem X1_real (h : Cert.Pre_finite_inputs.fn (F := Ideal) a0 a1 a2 a3 a4 a5 a6 = fun _ => 1#1) (b ch d hh w : ℕ) :
    ∃ r : ℝ, rd5 a1 b ch d hh w = (r : EReal) := rd5_real a1 (PreFacts.finite_a1 h) b ch d hh w

end Pre

end Cert.KernelIdeal.Hand
-- ==== Proof.SpecTile.lean ====
/-
  One depth tile in its own coordinates. A tile sees eighteen slabs: slab 0 is the slab before the tile (the first slab of the
  volume repeated when there is none), slabs 1 to 16 are the tile's own, slab 17 is the slab after (the last slab repeated
  when there is none). `XL k a s h w` is class `k`'s logit of anchor `a` on padded slab `s`; `PL a dd h w` the label map on
  the tile's own slab `dd`. The depth maximum at own slab `dd` reads padded slabs `dd, dd + 1, dd + 2`.
-/
import proofs.«424358_j44040594653645_2_alg».proof.Proof.Spec

noncomputable section

namespace Cert.Hand.SpecTile

open Cert.Hand.Spec

variable (n : ℕ) (c : EReal)

/-- The depth maximum over the padded slabs `dd, dd + 1, dd + 2`. -/
def dmaxL (N : ℕ → ℕ → ℕ → EReal) (dd h w : ℕ) : EReal := max (max (N dd h w) (N (dd + 1) h w)) (N (dd + 2) h w)

/-- Then the height maximum, the neighbours beyond the border replaced by the fill `c`. -/
def hmaxL (N : ℕ → ℕ → ℕ → EReal) (dd h w : ℕ) : EReal :=
  max (max (if h = 0 then c else dmaxL N dd (h - 1) w) (dmaxL N dd h w)) (if h = n - 1 then c else dmaxL N dd (h + 1) w)

/-- Then the width maximum, likewise. -/
def poolL (N : ℕ → ℕ → ℕ → EReal) (dd h w : ℕ) : EReal :=
  max (max (if w = 0 then c else hmaxL n c N dd h (w - 1)) (hmaxL n c N dd h w)) (if w = n - 1 then c else hmaxL n c N dd h (w + 1))

variable (XL : ℕ → ℕ → ℕ → ℕ → ℕ → EReal) (PL : ℕ → ℕ → ℕ → ℕ → EReal)

/-- Class 0's negative log-likelihood on padded slab `s`, in the tiled arrangement. -/
def nllL (a s h w : ℕ) : EReal := nllK (XL 0 a s h w) (XL 1 a s h w) (XL 2 a s h w)

/-- Class 0's probability on padded slab `s`, in the tiled arrangement. -/
def probL (a s h w : ℕ) : EReal := probK (XL 0 a s h w) (XL 1 a s h w) (XL 2 a s h w)

/-- The masked focal weight at own slab `dd` (padded slab `dd + 1`). -/
def wnegL (a dd h w : ℕ) : EReal :=
  (1 - probL XL a (dd + 1) h w) * (1 - probL XL a (dd + 1) h w)
    * (ind (PL a dd h w = -1) * ind (poolL n c (nllL XL a) dd h w = nllL XL a (dd + 1) h w))

/-- The tile's loss. -/
def tileLossL : EReal :=
  ∑ w ∈ Finset.range n, ∑ h ∈ Finset.range n, ∑ dd ∈ Finset.range 16, ∑ a ∈ Finset.range 3,
    nllL XL a (dd + 1) h w * wnegL n c XL PL a dd h w

/-- The tile's count. -/
def tileCountL : EReal :=
  ∑ w ∈ Finset.range n, ∑ h ∈ Finset.range n, ∑ dd ∈ Finset.range 16, ∑ a ∈ Finset.range 3, wnegL n c XL PL a dd h w

/-- The volume's slab that padded slab `s` of tile `dt` is. -/
def rowOf (dt s : ℕ) : ℕ := if s = 0 then 16 * dt - 1 else if s = 17 then min (16 * dt + 16) (n - 1) else 16 * dt + s - 1

end Cert.Hand.SpecTile

end
-- ==== Proof.KI.TileDefs0.lean ====
/-
  A depth tile's padded logits and labels, read off the blocks the tile is given.

  The tile receives four blocks: the sixteen own slabs of the nine logit channels, the one slab before, the one slab after,
  and the sixteen own slabs of the label map. Padded slab 0 is the slab before, padded slabs 1 to 16 the own slabs, padded
  slab 17 the slab after; class `k` of anchor `a` is channel `3 * k + a`.
-/
import proofs.«424358_j44040594653645_2_alg».proof.Proof.Readers

noncomputable section

namespace Cert.KernelIdeal.Hand

open Idealize.ShloMosaic Cert.Hand.Readers

/-- Class `k`'s logit of anchor `a` on padded slab `s` of a 64-wide tile, over the own block `x0`, the block before `x1`
    and the block after `x2`. -/
def XL0 (x0 : (⟨5, ![1, 9, 16, 64, 64]⟩ : Shape).Idx → EReal) (x1 x2 : (⟨5, ![1, 9, 1, 64, 64]⟩ : Shape).Idx → EReal)
    (k a s h w : ℕ) : EReal :=
  if s = 0 then rd5 x1 0 (3 * k + a) 0 h w else if s = 17 then rd5 x2 0 (3 * k + a) 0 h w else rd5 x0 0 (3 * k + a) (s - 1) h w

/-- The label map of anchor `a` on own slab `dd` of a 64-wide tile, over the label block `x3`. -/
def PL0 (x3 : (⟨5, ![1, 3, 16, 64, 64]⟩ : Shape).Idx → EReal) (a dd h w : ℕ) : EReal := rd5 x3 0 a dd h w

end Cert.KernelIdeal.Hand

end
-- ==== Proof.KI.Pad0.lean ====
import proofs.«424358_j44040594653645_2_alg».proof.Proof.KI.Body0
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The padded scratch read at an index, slab by slab -/

section PadAt
open Idealize.ShloMosaic.ValueIdx

/-- An index of the scratch at depth `o + d` is the image of the local index at depth `d` under the unit rectangle at depth offset `o`. -/
theorem emb_depth0 {D : Nat} (o : Nat) (inb : ∀ a, (![0, o, 0, 0] : Fin 4 → Nat) a + (![3, D, 64, 64] : Fin 4 → Nat) a ≤ S3x18x64x64.size a)
    (c : Fin 3) (d : Fin D) (h w : Fin 64) (hd : o + d.val < 18) :
    (Rect.unit (s := S3x18x64x64) ![0, o, 0, 0] ![3, D, 64, 64] inb).emb (ix4 c d h w) = ix4 c ⟨o + d.val, hd⟩ h w := by
  funext a
  match a with
  | ⟨0, _⟩ => exact Fin.ext (by show 0 + 1 * c.val = c.val; omega)
  | ⟨1, _⟩ => exact Fin.ext (by show o + 1 * d.val = o + d.val; omega)
  | ⟨2, _⟩ => exact Fin.ext (by show 0 + 1 * h.val = h.val; omega)
  | ⟨3, _⟩ => exact Fin.ext (by show 0 + 1 * w.val = w.val; omega)

/-- An index of the scratch whose depth is outside `[o, o + D)` is not in the unit rectangle of `D` slabs at depth offset `o`. -/
theorem not_mem_depth0 {D : Nat} (o : Nat) (inb : ∀ a, (![0, o, 0, 0] : Fin 4 → Nat) a + (![3, D, 64, 64] : Fin 4 → Nat) a ≤ S3x18x64x64.size a)
    (c : Fin 3) (d : Fin 18) (h w : Fin 64) (hd : d.val < o ∨ o + D ≤ d.val) :
    (ix4 c d h w : S3x18x64x64.Idx) ∉ (Rect.unit (s := S3x18x64x64) ![0, o, 0, 0] ![3, D, 64, 64] inb).set := by
  intro hm
  have h1 : o ≤ d.val ∧ d.val < o + D := (Rect.mem_set_unit.mp hm) 1
  omega

/-- Off the last store's slabs, the canonical contents are the earlier stores'; -/
theorem canon_skip_depth0 {D : Nat} (o : Nat) (inb : ∀ a, (![0, o, 0, 0] : Fin 4 → Nat) a + (![3, D, 64, 64] : Fin 4 → Nat) a ≤ S3x18x64x64.size a)
    (p : (⟨4, ![3, D, 64, 64]⟩ : Shape).Idx → Elt F .f32) (L : List (View.Piece (Elt F) S3x18x64x64 .f32))
    (c : Fin 3) (d : Fin 18) (h w : Fin 64) (hd : d.val < o ∨ o + D ≤ d.val) :
    View.canon ((⟨Rect.unit (s := S3x18x64x64) ![0, o, 0, 0] ![3, D, 64, 64] inb, p⟩ : View.Piece (Elt F) S3x18x64x64 .f32) :: L) (ix4 c d h w)
      = View.canon L (ix4 c d h w) :=
  View.canon_cons_of_not_mem _ L (not_mem_depth0 o inb c d h w hd)

/-- on them, its payload. -/
theorem canon_hit_depth0 {D : Nat} (o : Nat) (inb : ∀ a, (![0, o, 0, 0] : Fin 4 → Nat) a + (![3, D, 64, 64] : Fin 4 → Nat) a ≤ S3x18x64x64.size a)
    (p : (⟨4, ![3, D, 64, 64]⟩ : Shape).Idx → Elt F .f32) (L : List (View.Piece (Elt F) S3x18x64x64 .f32))
    (c : Fin 3) (d : Fin D) (h w : Fin 64) (hd : o + d.val < 18) :
    View.canon ((⟨Rect.unit (s := S3x18x64x64) ![0, o, 0, 0] ![3, D, 64, 64] inb, p⟩ : View.Piece (Elt F) S3x18x64x64 .f32) :: L) (ix4 c ⟨o + d.val, hd⟩ h w)
      = p (ix4 c d h w) := by
  rw [← emb_depth0 o inb c d h w hd]
  exact View.canon_cons_emb (Rect.unit (s := S3x18x64x64) ![0, o, 0, 0] ![3, D, 64, 64] inb) p L (ix4 c d h w)

variable (x0 : Vec F S1x9x16x64x64 .f32) (x1 x2 : Vec F S1x9x1x64x64 .f32)

/-- Depths 1 to 16 of the padded scratch hold the tile's own slabs, -/
theorem pad0_mid (c : Fin 3) (d : Fin 16) (h w : Fin 64) :
    pad0 x0 x1 x2 (ix4 c ⟨1 + d.val, by omega⟩ h w) = k0_pay16 (lsmA0 x0) (ix4 c d h w) := by
  unfold pad0 pieces0
  exact canon_hit_depth0 (D := 16) 1 inb_S3x18x64x64_S3x16x64x64_0_1_0_0 _ _ c d h w (by omega)

/-- depth 17 the upper halo slab, -/
theorem pad0_hi (c : Fin 3) (h w : Fin 64) :
    pad0 x0 x1 x2 (ix4 c ⟨17, by omega⟩ h w) = haloHi0 x2 (ix4 c (0 : Fin 1) h w) := by
  unfold pad0 pieces0
  exact (canon_skip_depth0 (D := 16) 1 inb_S3x18x64x64_S3x16x64x64_0_1_0_0 _ _ c ⟨17, by omega⟩ h w (Or.inr (Nat.le_refl 17))).trans
    (canon_hit_depth0 (D := 1) 17 inb_S3x18x64x64_S3x1x64x64_0_17_0_0 _ _ c (0 : Fin 1) h w (by decide))

/-- and depth 0 the lower halo slab. -/
theorem pad0_lo (c : Fin 3) (h w : Fin 64) :
    pad0 x0 x1 x2 (ix4 c ⟨0, by omega⟩ h w) = haloLo0 x1 (ix4 c (0 : Fin 1) h w) := by
  unfold pad0 pieces0
  exact ((canon_skip_depth0 (D := 16) 1 inb_S3x18x64x64_S3x16x64x64_0_1_0_0 _ _ c ⟨0, by omega⟩ h w (Or.inl Nat.one_pos)).trans
    (canon_skip_depth0 (D := 1) 17 inb_S3x18x64x64_S3x1x64x64_0_17_0_0 _ _ c ⟨0, by omega⟩ h w (Or.inl (by decide)))).trans
    (canon_hit_depth0 (D := 1) 0 inb_S3x18x64x64_S3x1x64x64_0_0_0_0 _ _ c (0 : Fin 1) h w (by decide))

/-- The three windows of the padded scratch read it at depths `d`, `d + 1`, `d + 2`. -/
theorem slab0_0_apply (c : Fin 3) (d : Fin 16) (h w : Fin 64) :
    slab0_0 x0 x1 x2 (ix4 c d h w) = pad0 x0 x1 x2 (ix4 c ⟨0 + d.val, by omega⟩ h w) := by
  unfold slab0_0
  show pad0 x0 x1 x2 (rW0_0.emb (ix4 c d h w)) = _
  rw [emb_depth0 (D := 16) 0 inb_S3x18x64x64_S3x16x64x64_0_0_0_0 c d h w (by omega)]
theorem slab0_1_apply (c : Fin 3) (d : Fin 16) (h w : Fin 64) :
    slab0_1 x0 x1 x2 (ix4 c d h w) = pad0 x0 x1 x2 (ix4 c ⟨1 + d.val, by omega⟩ h w) := by
  unfold slab0_1
  show pad0 x0 x1 x2 (rW0_1.emb (ix4 c d h w)) = _
  rw [emb_depth0 (D := 16) 1 inb_S3x18x64x64_S3x16x64x64_0_1_0_0 c d h w (by omega)]
theorem slab0_2_apply (c : Fin 3) (d : Fin 16) (h w : Fin 64) :
    slab0_2 x0 x1 x2 (ix4 c d h w) = pad0 x0 x1 x2 (ix4 c ⟨2 + d.val, by omega⟩ h w) := by
  unfold slab0_2
  show pad0 x0 x1 x2 (rW0_2.emb (ix4 c d h w)) = _
  rw [emb_depth0 (D := 16) 2 inb_S3x18x64x64_S3x16x64x64_0_2_0_0 c d h w (by omega)]

end PadAt

end Cert.KernelIdeal.Hand

end
-- ==== Proof.KI.Tile0.lean ====
/-
  One depth tile of the first pyramid level, read at an index.

  The tile's body computes, from the three class groups of the logits' sixteen slabs and of the two border slabs, class 0's
  negative log-likelihood and probability, the 3x3x3 neighbourhood maximum (depth by three shifted windows of the eighteen
  padded slabs, height and width by rotations whose wrapped entry is replaced by a finite fill), the masked focal weight, and
  the two sums over the tile. Each vector operation is read at explicit coordinates and matched with the tile's
  specification in its own coordinates.
-/
import proofs.«424358_j44040594653645_2_alg».proof.Proof.Gen.KernelIdeal.Skeleton
import proofs.«424358_j44040594653645_2_alg».proof.Proof.SpecTile
import proofs.«424358_j44040594653645_2_alg».proof.Proof.Readers
import proofs.«424358_j44040594653645_2_alg».proof.Proof.Math
import proofs.«424358_j44040594653645_2_alg».proof.Proof.KI.TileDefs0
import proofs.«424358_j44040594653645_2_alg».proof.Proof.KI.Pad0
import Idealize.ShloMosaic.Lib.KernelVsHost
import Idealize.ShloMosaic.Lib.IdealHost
import Idealize.ShloMosaic.Lib.ValueLayout

noncomputable section

namespace Cert.KernelIdeal.Hand

open Cert.KernelIdeal Cert.KernelIdeal.Gen Cert.Hand.Spec Cert.Hand.SpecTile Cert.Hand.Readers
open Idealize.ShloMosaic Idealize.ShloMosaic.ValueIdx

/-- The finite fill the height and width borders take: the f32 word of -1e30. -/
abbrev fillw : EReal := Ideal.ofBits .f32 0xF149F2CA#32

/-! ## Shape casts and rotations at explicit coordinates -/

/-- Dropping a leading unit axis of a rank-5 block reads `(0, a, b, c, d)` at `(a, b, c, d)`. -/
theorem sc54 {n1 n2 n3 n4 : ℕ} {α : Type} (v : (⟨5, ![1, n1, n2, n3, n4]⟩ : Shape).Idx → α)
    (hc : (⟨5, ![1, n1, n2, n3, n4]⟩ : Shape).ShapeCasts ⟨4, ![n1, n2, n3, n4]⟩)
    (a : Fin n1) (b : Fin n2) (c : Fin n3) (d : Fin n4) :
    shapeCast ⟨4, ![n1, n2, n3, n4]⟩ v hc (ix4 a b c d) = v (ix5 0 a b c d) := by
  refine (shapeCast_dropUnit_apply ![n1, n2, n3, n4] v hc (ix4 a b c d)).trans (congrArg v ?_)
  funext i
  match i with
  | ⟨0, _⟩ => rfl
  | ⟨1, _⟩ => rfl
  | ⟨2, _⟩ => rfl
  | ⟨3, _⟩ => rfl
  | ⟨4, _⟩ => rfl

/-! ## The log-softmax payloads -/

section Softmax

variable (v0 v2 v4 : Vec Ideal S1x3x16x64x64 .f32)

theorem pay2_apply (a : Fin 3) (dd : Fin 16) (h w : Fin 64) :
    k0_pay2 (F := Ideal) v0 (ix4 a dd h w) = v0 (ix5 0 a dd h w) :=
  sc54 v0 shapeCasts_S1x3x16x64x64_S3x16x64x64 a dd h w

theorem pay3_apply (a : Fin 3) (dd : Fin 16) (h w : Fin 64) :
    k0_pay3 (F := Ideal) v2 (ix4 a dd h w) = v2 (ix5 0 a dd h w) :=
  sc54 v2 shapeCasts_S1x3x16x64x64_S3x16x64x64 a dd h w

theorem pay4_apply (a : Fin 3) (dd : Fin 16) (h w : Fin 64) :
    k0_pay4 (F := Ideal) v4 (ix4 a dd h w) = v4 (ix5 0 a dd h w) :=
  sc54 v4 shapeCasts_S1x3x16x64x64_S3x16x64x64 a dd h w

/-- Class 0's negative log-likelihood of the tile's own slabs, at an index. -/
theorem pay8_apply (a : Fin 3) (dd : Fin 16) (h w : Fin 64) :
    k0_pay8 (F := Ideal) v0 v2 v4 (ix4 a dd h w)
      = nllK (v0 (ix5 0 a dd h w)) (v2 (ix5 0 a dd h w)) (v4 (ix5 0 a dd h w)) := by
  rw [← pay2_apply v0 a dd h w, ← pay3_apply v2 a dd h w, ← pay4_apply v4 a dd h w]
  rfl

/-- Class 0's probability on the tile's own slabs, at an index. -/
theorem pay9_apply (a : Fin 3) (dd : Fin 16) (h w : Fin 64) :
    k0_pay9 (F := Ideal) v0 v2 v4 (ix4 a dd h w)
      = probK (v0 (ix5 0 a dd h w)) (v2 (ix5 0 a dd h w)) (v4 (ix5 0 a dd h w)) := by
  rw [← pay2_apply v0 a dd h w, ← pay3_apply v2 a dd h w, ← pay4_apply v4 a dd h w]
  rfl

end Softmax

/-! ## The border slabs -/

section Border

variable (u0 u2 u4 : Vec Ideal S1x3x1x64x64 .f32)

theorem pay10_apply (a : Fin 3) (h w : Fin 64) : k0_pay10 (F := Ideal) u0 (ix4 a 0 h w) = u0 (ix5 0 a 0 h w) :=
  sc54 u0 shapeCasts_S1x3x1x64x64_S3x1x64x64 a 0 h w

theorem pay11_apply (a : Fin 3) (h w : Fin 64) : k0_pay11 (F := Ideal) u2 (ix4 a 0 h w) = u2 (ix5 0 a 0 h w) :=
  sc54 u2 shapeCasts_S1x3x1x64x64_S3x1x64x64 a 0 h w

theorem pay12_apply (a : Fin 3) (h w : Fin 64) : k0_pay12 (F := Ideal) u4 (ix4 a 0 h w) = u4 (ix5 0 a 0 h w) :=
  sc54 u4 shapeCasts_S1x3x1x64x64_S3x1x64x64 a 0 h w

/-- Class 0's negative log-likelihood of the slab before the tile, at an index. -/
theorem pay14_apply (a : Fin 3) (h w : Fin 64) :
    k0_pay14 (F := Ideal) (k0_pay10 u0) (k0_pay11 u2) (k0_pay12 u4) (k0_pay13 u0 u2 u4) (ix4 a 0 h w)
      = nllK (u0 (ix5 0 a 0 h w)) (u2 (ix5 0 a 0 h w)) (u4 (ix5 0 a 0 h w)) := by
  unfold k0_pay14
  simp only [shapeCast_self]
  rw [← pay10_apply u0 a h w, ← pay11_apply u2 a h w, ← pay12_apply u4 a h w]
  rfl

/-- Class 0's negative log-likelihood of the slab after the tile, at an index. -/
theorem pay15_apply (a : Fin 3) (h w : Fin 64) :
    k0_pay15 (F := Ideal) u0 u2 u4 (ix4 a 0 h w)
      = nllK (u0 (ix5 0 a 0 h w)) (u2 (ix5 0 a 0 h w)) (u4 (ix5 0 a 0 h w)) := by
  unfold k0_pay15
  simp only [shapeCast_self]
  rw [← sc54 u0 shapeCasts_S1x3x1x64x64_S3x1x64x64 a 0 h w,
    ← sc54 u2 shapeCasts_S1x3x1x64x64_S3x1x64x64 a 0 h w, ← sc54 u4 shapeCasts_S1x3x1x64x64_S3x1x64x64 a 0 h w]
  rfl

end Border

/-- The tile's own slabs go to the scratch unchanged. -/
theorem pay16_eq (v18 : FVec Ideal S3x16x64x64 .f32) : k0_pay16 (F := Ideal) v18 = v18 :=
  shapeCast_self v18 shapeCasts_S3x16x64x64_S3x16x64x64

/-! ## Rotations, coordinate words and selects -/

/-- A rotation along the height axis at explicit coordinates. -/
theorem rotH_apply {α : Type} (x : S3x16x64x64.Idx → α) (sb : BitVec 32) (hr : S3x16x64x64.Rotates 2 none)
    (a : Fin 3) (dd : Fin 16) (h w : Fin 64) :
    dynamicRotate 2 sb none x hr (ix4 a dd h w)
      = x (ix4 a dd ⟨(h.val + 64 - sb.toNat % 64) % 64, Nat.mod_lt _ (by norm_num)⟩ w) :=
  dynamicRotate_apply 2 sb x hr _ _ fun b => match b with
    | ⟨0, _⟩ => rfl
    | ⟨1, _⟩ => rfl
    | ⟨2, _⟩ => rfl
    | ⟨3, _⟩ => rfl

/-- A rotation along the width axis at explicit coordinates. -/
theorem rotW_apply {α : Type} (x : S3x16x64x64.Idx → α) (sb : BitVec 32) (hr : S3x16x64x64.Rotates 3 none)
    (a : Fin 3) (dd : Fin 16) (h w : Fin 64) :
    dynamicRotate 3 sb none x hr (ix4 a dd h w)
      = x (ix4 a dd h ⟨(w.val + 64 - sb.toNat % 64) % 64, Nat.mod_lt _ (by norm_num)⟩) :=
  dynamicRotate_apply 3 sb x hr _ _ fun b => match b with
    | ⟨0, _⟩ => rfl
    | ⟨1, _⟩ => rfl
    | ⟨2, _⟩ => rfl
    | ⟨3, _⟩ => rfl

/-- A select on "the coordinate word equals the word of `c`" is the `if` on the coordinates. -/
theorem sel_eq {α : Type} (n : ℕ) (hn : n < 64) (c : ℕ) (hc : c < 64) (A B : α) :
    Scalar.select (IntOp.cmpi .eq (BitVec.ofNat 32 n) (BitVec.ofNat 32 c)) A B = if n = c then A else B := by
  have hiff : BitVec.ofNat 32 n = BitVec.ofNat 32 c → n = c := fun hh => by
    have := congrArg BitVec.toNat hh
    simp only [BitVec.toNat_ofNat] at this
    omega
  show (if BitVec.ofBool (BitVec.ofNat 32 n == BitVec.ofNat 32 c) = 1#1 then A else B) = _
  by_cases hnc : n = c
  · subst hnc; simp
  · have hne : (BitVec.ofNat 32 n == BitVec.ofNat 32 c) = false := by
      rw [beq_eq_false_iff_ne]; exact fun hh => hnc (hiff hh)
    rw [hne, if_neg hnc]; simp

/-! ## The neighbourhood maximum -/

section Pool

variable (v67 v68 v70 : Vec Ideal S3x16x64x64 .f32) (a : Fin 3) (N : ℕ → ℕ → ℕ → EReal)
  (h67 : ∀ (dd : Fin 16) (h w : Fin 64), v67 (ix4 a dd h w) = N dd.val h.val w.val)
  (h68 : ∀ (dd : Fin 16) (h w : Fin 64), v68 (ix4 a dd h w) = N (dd.val + 1) h.val w.val)
  (h70 : ∀ (dd : Fin 16) (h w : Fin 64), v70 (ix4 a dd h w) = N (dd.val + 2) h.val w.val)

include h67 h68 h70

/-- The depth maximum of the three shifted windows, then the height maximum, at an index. -/
theorem pay17_apply (dd : Fin 16) (h w : Fin 64) :
    k0_pay17 (F := Ideal) v67 v68 v70 (ix4 a dd h w) = hmaxL 64 fillw N dd.val h.val w.val := by
  have hD : ∀ (dd : Fin 16) (h w : Fin 64),
      (maximumf (maximumf v67 v68) v70 : FVec Ideal S3x16x64x64 .f32) (ix4 a dd h w) = dmaxL N dd.val h.val w.val :=
    fun dd h w => by
      show max (max (v67 _) (v68 _)) (v70 _) = _
      rw [h67, h68, h70]; rfl
  have e : k0_pay17 (F := Ideal) v67 v68 v70 (ix4 a dd h w)
      = max (max (Scalar.select (IntOp.cmpi .eq (iota .tc S3x16x64x64 32 [2] iota_S3x16x64x64_d2_w32 (ix4 a dd h w)) 0#32) fillw
                    (dynamicRotate 2 1#32 none (maximumf (maximumf v67 v68) v70 : FVec Ideal S3x16x64x64 .f32) rotates_S3x16x64x64_d2 (ix4 a dd h w)))
                 ((maximumf (maximumf v67 v68) v70 : FVec Ideal S3x16x64x64 .f32) (ix4 a dd h w)))
            (Scalar.select (IntOp.cmpi .eq (iota .tc S3x16x64x64 32 [2] iota_S3x16x64x64_d2_w32 (ix4 a dd h w)) 63#32) fillw
                    (dynamicRotate 2 63#32 none (maximumf (maximumf v67 v68) v70 : FVec Ideal S3x16x64x64 .f32) rotates_S3x16x64x64_d2 (ix4 a dd h w))) := rfl
  rw [e, iota_single_apply, rotH_apply, rotH_apply, hD, hD, hD]
  show max (max (Scalar.select (IntOp.cmpi .eq (BitVec.ofNat 32 h.val) (BitVec.ofNat 32 0)) fillw
                  (dmaxL N dd.val ((h.val + 64 - 1) % 64) w.val)) (dmaxL N dd.val h.val w.val))
      (Scalar.select (IntOp.cmpi .eq (BitVec.ofNat 32 h.val) (BitVec.ofNat 32 63)) fillw
                  (dmaxL N dd.val ((h.val + 64 - 63) % 64) w.val)) = _
  rw [sel_eq _ h.isLt 0 (by norm_num), sel_eq _ h.isLt 63 (by norm_num)]
  have hlt := h.isLt
  have eA : (if h.val = 0 then fillw else dmaxL N dd.val ((h.val + 64 - 1) % 64) w.val)
      = (if h.val = 0 then fillw else dmaxL N dd.val (h.val - 1) w.val) := by
    by_cases h0 : h.val = 0
    · rw [if_pos h0, if_pos h0]
    · rw [if_neg h0, if_neg h0, show (h.val + 64 - 1) % 64 = h.val - 1 by omega]
  have eB : (if h.val = 63 then fillw else dmaxL N dd.val ((h.val + 64 - 63) % 64) w.val)
      = (if h.val = 64 - 1 then fillw else dmaxL N dd.val (h.val + 1) w.val) := by
    by_cases h63 : h.val = 63
    · rw [if_pos h63, if_pos (by omega)]
    · rw [if_neg h63, if_neg (by omega), show (h.val + 64 - 63) % 64 = h.val + 1 by omega]
  rw [eA, eB]
  rfl

include h67 h68 h70 in
/-- The height maximum's right-hand width neighbour, wrapped: column `(w + 1) mod 64`. -/
theorem pay18_apply (dd : Fin 16) (h w : Fin 64) :
    k0_pay18 (F := Ideal) v67 v68 v70 (ix4 a dd h w) = hmaxL 64 fillw N dd.val h.val ((w.val + 64 - 63) % 64) := by
  show dynamicRotate 3 63#32 none (k0_pay17 (F := Ideal) v67 v68 v70) rotates_S3x16x64x64_d3 (ix4 a dd h w) = _
  rw [rotW_apply, pay17_apply v67 v68 v70 a N h67 h68 h70]
  rfl

include h67 h68 h70 in
/-- The height maximum's left-hand width neighbour, the fill on the first column. -/
theorem pay19_apply (dd : Fin 16) (h w : Fin 64) :
    k0_pay19 (F := Ideal) v67 v68 v70 (ix4 a dd h w)
      = if w.val = 0 then fillw else hmaxL 64 fillw N dd.val h.val (w.val - 1) := by
  have e : k0_pay19 (F := Ideal) v67 v68 v70 (ix4 a dd h w)
      = Scalar.select (IntOp.cmpi .eq (iota .tc S3x16x64x64 32 [3] iota_S3x16x64x64_d3_w32 (ix4 a dd h w)) 0#32) fillw
          (dynamicRotate 3 1#32 none (k0_pay17 (F := Ideal) v67 v68 v70) rotates_S3x16x64x64_d3 (ix4 a dd h w)) := rfl
  rw [e, iota_single_apply, rotW_apply, pay17_apply v67 v68 v70 a N h67 h68 h70]
  show Scalar.select (IntOp.cmpi .eq (BitVec.ofNat 32 w.val) (BitVec.ofNat 32 0)) fillw
      (hmaxL 64 fillw N dd.val h.val ((w.val + 64 - 1) % 64)) = _
  rw [sel_eq _ w.isLt 0 (by norm_num)]
  have hlt := w.isLt
  by_cases h0 : w.val = 0
  · rw [if_pos h0, if_pos h0]
  · rw [if_neg h0, if_neg h0, show (w.val + 64 - 1) % 64 = w.val - 1 by omega]

end Pool

/-- The last column's condition, at an index. -/
theorem pay20_apply (a : Fin 3) (dd : Fin 16) (h w : Fin 64) :
    k0_pay20 (ix4 a dd h w) = IntOp.cmpi .eq (BitVec.ofNat 32 w.val) (BitVec.ofNat 32 63) := by
  show IntOp.cmpi .eq (iota .tc S3x16x64x64 32 [3] iota_S3x16x64x64_d3_w32 (ix4 a dd h w)) 63#32 = _
  rw [iota_single_apply]

/-! ## Literal words and a comparison's bit as an extended real -/

/-- The f32 pattern `0xBF800000` is minus one. -/
theorem ofBits_neg_one_f32 : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- The f32 pattern of zero is zero. -/
theorem ofBits_zero_f32 : Ideal.ofBits .f32 0x00000000#32 = 0 := by simp [Ideal.ofBits, Ideal.ieee]

/-- An ordered-equal comparison's bit, widened and converted, is the indicator of the equality. -/
theorem bit_ind (x y : EReal) :
    (FloatOps.sitofp (F := Ideal) .f32 ((FloatOps.cmpf (F := Ideal) (φ := .f32) .oeq x y).setWidth 32) : EReal) = ind (x = y) := by
  show ((((BitVec.ofBool (decide (x = y))).setWidth 32).toInt : ℝ) : EReal) = _
  unfold ind
  by_cases hxy : x = y
  · rw [if_pos hxy, decide_eq_true hxy]; simp
  · rw [if_neg hxy, decide_eq_false hxy]; simp

/-! ## The masked focal weight -/

section Weight

variable (v67 v68 v70 : Vec Ideal S3x16x64x64 .f32) (a : Fin 3) (N : ℕ → ℕ → ℕ → EReal)
  (h67 : ∀ (dd : Fin 16) (h w : Fin 64), v67 (ix4 a dd h w) = N dd.val h.val w.val)
  (h68 : ∀ (dd : Fin 16) (h w : Fin 64), v68 (ix4 a dd h w) = N (dd.val + 1) h.val w.val)
  (h70 : ∀ (dd : Fin 16) (h w : Fin 64), v70 (ix4 a dd h w) = N (dd.val + 2) h.val w.val)
  (v18 v19 : FVec Ideal S3x16x64x64 .f32) (x3 : Vec Ideal S1x3x16x64x64 .f32)

include h67 h68 h70 in
/-- The masked focal weight at an index: `(1 - p)^2` on background voxels where the neighbourhood maximum is the value. -/
theorem pay21_apply (dd : Fin 16) (h w : Fin 64) :
    k0_pay21 (F := Ideal) v18 v19 (k0_pay17 v67 v68 v70) (k0_pay18 v67 v68 v70) (k0_pay19 v67 v68 v70) k0_pay20
        (Scalar.ofBits .f32 0xF149F2CA#32) x3 (ix4 a dd h w)
      = (1 - v19 (ix4 a dd h w)) * (1 - v19 (ix4 a dd h w))
          * (ind (x3 (ix5 0 a dd h w) = -1) * ind (poolL 64 fillw N dd.val h.val w.val = v18 (ix4 a dd h w))) := by
  have e : k0_pay21 (F := Ideal) v18 v19 (k0_pay17 v67 v68 v70) (k0_pay18 v67 v68 v70) (k0_pay19 v67 v68 v70) k0_pay20
        (Scalar.ofBits .f32 0xF149F2CA#32) x3 (ix4 a dd h w)
      = (Ideal.ofBits .f32 0x3F800000#32 - v19 (ix4 a dd h w)) * (Ideal.ofBits .f32 0x3F800000#32 - v19 (ix4 a dd h w))
          * (FloatOps.sitofp (F := Ideal) .f32 ((FloatOps.cmpf (F := Ideal) (φ := .f32) .oeq
                (shapeCast S3x16x64x64 x3 shapeCasts_S1x3x16x64x64_S3x16x64x64 (ix4 a dd h w))
                (Ideal.ofBits .f32 0xBF800000#32)).setWidth 32)
             * FloatOps.sitofp (F := Ideal) .f32 ((FloatOps.cmpf (F := Ideal) (φ := .f32) .oeq
                (max (max (k0_pay19 (F := Ideal) v67 v68 v70 (ix4 a dd h w)) (k0_pay17 (F := Ideal) v67 v68 v70 (ix4 a dd h w)))
                  (Scalar.select (k0_pay20 (ix4 a dd h w)) fillw (k0_pay18 (F := Ideal) v67 v68 v70 (ix4 a dd h w))))
                (v18 (ix4 a dd h w))).setWidth 32)) := rfl
  rw [e, bit_ind, bit_ind, sc54, Ideal.ofBits_one_f32, ofBits_neg_one_f32,
    pay19_apply v67 v68 v70 a N h67 h68 h70, pay17_apply v67 v68 v70 a N h67 h68 h70,
    pay18_apply v67 v68 v70 a N h67 h68 h70, pay20_apply, sel_eq _ w.isLt 63 (by norm_num)]
  have hlt := w.isLt
  have eB : (if w.val = 63 then fillw else hmaxL 64 fillw N dd.val h.val ((w.val + 64 - 63) % 64))
      = (if w.val = 64 - 1 then fillw else hmaxL 64 fillw N dd.val h.val (w.val + 1)) := by
    by_cases h63 : w.val = 63
    · rw [if_pos h63, if_pos (by omega)]
    · rw [if_neg h63, if_neg (by omega), show (w.val + 64 - 63) % 64 = w.val + 1 by omega]
  rw [eB]
  rfl

end Weight

/-! ## The tile sums -/

/-- The four reductions (anchors, slabs, rows, then the remaining vector) and the extraction of the one element. -/
def tot (g : FVec Ideal S3x16x64x64 .f32) : EReal :=
  extractAt ![0, 0]
    (shapeCast S1x1
      (multiReduction .add [1] S1
        (shapeCast S1x64
          (multiReduction .add [0] S64
            (multiReduction .add [0] S64x64
              (multiReduction .add [0] S16x64x64 g 0x00000000#32 reduces_S3x16x64x64_S16x64x64 (.inl rfl) rfl)
              0x00000000#32 reduces_S16x64x64_S64x64 (.inl rfl) rfl)
            0x00000000#32 reduces_S64x64_S64 (.inl rfl) rfl)
          shapeCasts_S64_S1x64)
        0x00000000#32 reduces_S1x64_S1 (.inl rfl) rfl)
      shapeCasts_S1_S1x1)
    inpos_S1x1_p0_0

theorem lift_a (hr : S3x16x64x64.Reduces [0] S16x64x64) (dd : Fin 16) (h w : Fin 64) (a : Fin 3) :
    hr.lift (ix3 dd h w) a = ix4 a dd h w := by
  funext c; apply Fin.ext
  match c with
  | ⟨0, _⟩ => rfl
  | ⟨1, _⟩ => rfl
  | ⟨2, _⟩ => rfl
  | ⟨3, _⟩ => rfl

theorem lift_d (hr : S16x64x64.Reduces [0] S64x64) (h w : Fin 64) (dd : Fin 16) :
    hr.lift (ix2 h w) dd = ix3 dd h w := by
  funext c; apply Fin.ext
  match c with
  | ⟨0, _⟩ => rfl
  | ⟨1, _⟩ => rfl
  | ⟨2, _⟩ => rfl

theorem lift_h (hr : S64x64.Reduces [0] S64) (w : Fin 64) (h : Fin 64) :
    hr.lift (ix1 w) h = ix2 h w := by
  funext c; apply Fin.ext
  match c with
  | ⟨0, _⟩ => rfl
  | ⟨1, _⟩ => rfl

theorem lift_w (hr : S1x64.Reduces [1] S1) (u : Fin 1) (w : Fin 64) :
    hr.lift (ix1 u) w = ix2 u w := by
  funext c; apply Fin.ext
  match c with
  | ⟨0, _⟩ => rfl
  | ⟨1, _⟩ => rfl

/-- The reductions' total is the sum over the tile, columns outermost. -/
theorem tot_eq (g : FVec Ideal S3x16x64x64 .f32) :
    tot g = ∑ w : Fin 64, ∑ h : Fin 64, ∑ dd : Fin 16, ∑ a : Fin 3, g (ix4 a dd h w) := by
  have hidx : (fun a => (⟨![0, 0] a, inpos_S1x1_p0_0 a⟩ : Fin (S1x1.size a))) = ix2 (0 : Fin 1) (0 : Fin 1) := by
    funext a
    match a with
    | ⟨0, _⟩ => rfl
    | ⟨1, _⟩ => rfl
  unfold tot extractAt
  rw [hidx]
  refine (shapeCast_a_1a_apply _ _ _ _).trans ?_
  refine (Ideal.multiReduction_add_single _ _ _ _ _ (ix1 0)).trans (Finset.sum_congr rfl fun (w : Fin 64) _ => ?_)
  rw [lift_w]
  refine (shapeCast_a_1a_apply _ _ _ _).trans ?_
  refine (Ideal.multiReduction_add_single _ _ _ _ _ (ix1 w)).trans (Finset.sum_congr rfl fun (h : Fin 64) _ => ?_)
  rw [lift_h]
  refine (Ideal.multiReduction_add_single _ _ _ _ _ (ix2 h w)).trans (Finset.sum_congr rfl fun (dd : Fin 16) _ => ?_)
  rw [lift_d]
  refine (Ideal.multiReduction_add_single _ _ _ _ _ (ix3 dd h w)).trans (Finset.sum_congr rfl fun (a : Fin 3) _ => ?_)
  rw [lift_a]

/-- Sums over the tile's coordinates as sums over ranges of natural numbers. -/
theorem sum4_range (g : S3x16x64x64.Idx → EReal) (G : ℕ → ℕ → ℕ → ℕ → EReal)
    (hg : ∀ (a : Fin 3) (dd : Fin 16) (h w : Fin 64), g (ix4 a dd h w) = G a.val dd.val h.val w.val) :
    (∑ w : Fin 64, ∑ h : Fin 64, ∑ dd : Fin 16, ∑ a : Fin 3, g (ix4 a dd h w))
      = ∑ w ∈ Finset.range 64, ∑ h ∈ Finset.range 64, ∑ dd ∈ Finset.range 16, ∑ a ∈ Finset.range 3, G a dd h w := by
  rw [← Fin.sum_univ_eq_sum_range (fun w => ∑ h ∈ Finset.range 64, ∑ dd ∈ Finset.range 16, ∑ a ∈ Finset.range 3, G a dd h w) 64]
  refine Finset.sum_congr rfl fun w _ => ?_
  rw [← Fin.sum_univ_eq_sum_range (fun h => ∑ dd ∈ Finset.range 16, ∑ a ∈ Finset.range 3, G a dd h w.val) 64]
  refine Finset.sum_congr rfl fun h _ => ?_
  rw [← Fin.sum_univ_eq_sum_range (fun dd => ∑ a ∈ Finset.range 3, G a dd h.val w.val) 16]
  refine Finset.sum_congr rfl fun dd _ => ?_
  rw [← Fin.sum_univ_eq_sum_range (fun a => G a dd.val h.val w.val) 3]
  exact Finset.sum_congr rfl fun a _ => hg a dd h w

section Sums

variable (v18 v19 v84 v86 v91 : FVec Ideal S3x16x64x64 .f32) (v93 : IVec S3x16x64x64 1) (c : EReal)
  (x3 : Vec Ideal S1x3x16x64x64 .f32)

/-- The loss block holds the tile's total of value times weight, at every position. -/
theorem pay22_apply (i : Fin 8) (j : Fin 128) :
    k0_pay22 (F := Ideal) v18 v19 v84 v86 v91 v93 c x3 (ix4 0 0 i j)
      = ∑ w : Fin 64, ∑ h : Fin 64, ∑ dd : Fin 16, ∑ a : Fin 3,
          v18 (ix4 a dd h w) * k0_pay21 (F := Ideal) v18 v19 v84 v86 v91 v93 c x3 (ix4 a dd h w) := by
  have e : k0_pay22 (F := Ideal) v18 v19 v84 v86 v91 v93 c x3 (ix4 0 0 i j)
      = tot (mulf v18 (k0_pay21 (F := Ideal) v18 v19 v84 v86 v91 v93 c x3)) := rfl
  rw [e, tot_eq]
  rfl

/-- The count block holds the tile's total weight, at every position. -/
theorem pay23_apply (i : Fin 8) (j : Fin 128) :
    k0_pay1 (F := Ideal) (k0_pay23 (F := Ideal) v18 v19 v84 v86 v91 v93 c x3) (ix4 0 0 i j)
      = ∑ w : Fin 64, ∑ h : Fin 64, ∑ dd : Fin 16, ∑ a : Fin 3,
          k0_pay21 (F := Ideal) v18 v19 v84 v86 v91 v93 c x3 (ix4 a dd h w) := by
  have e : k0_pay1 (F := Ideal) (k0_pay23 (F := Ideal) v18 v19 v84 v86 v91 v93 c x3) (ix4 0 0 i j)
      = tot (k0_pay21 (F := Ideal) v18 v19 v84 v86 v91 v93 c x3) := rfl
  rw [e, tot_eq]

end Sums

/-! ## The tile's loss and count over the four blocks -/

/-- A load of three consecutive channels from channel `o` of a nine-channel block, at an index. -/
theorem ld_chan {D : ℕ} (o : ℕ) (x : Vec Ideal (⟨5, ![1, 9, D, 64, 64]⟩ : Shape) .f32)
    (inb : ∀ a, (![0, o, 0, 0, 0] : Fin 5 → ℕ) a + (![1, 3, D, 64, 64] : Fin 5 → ℕ) a ≤ (⟨5, ![1, 9, D, 64, 64]⟩ : Shape).size a)
    (a : Fin 3) (d : Fin D) (h w : Fin 64) :
    View.ld x (Rect.unit (s := ⟨5, ![1, 9, D, 64, 64]⟩) ![0, o, 0, 0, 0] ![1, 3, D, 64, 64] inb) (ix5 0 a d h w)
      = rd5 x 0 (o + a.val) d.val h.val w.val := by
  have h1 : o + 3 ≤ 9 := inb 1
  have ha : o + a.val < 9 := by have := a.isLt; omega
  rw [show rd5 x 0 (o + a.val) d.val h.val w.val = x (ix5 0 ⟨o + a.val, ha⟩ d h w) from rd5_ix5 x 0 ⟨o + a.val, ha⟩ d h w]
  show x ((Rect.unit (s := ⟨5, ![1, 9, D, 64, 64]⟩) ![0, o, 0, 0, 0] ![1, 3, D, 64, 64] inb).emb (ix5 0 a d h w)) = _
  congr 1
  funext c
  match c with
  | ⟨0, _⟩ => exact Fin.ext (by show 0 + 1 * 0 = 0; omega)
  | ⟨1, _⟩ => exact Fin.ext (by show o + 1 * a.val = o + a.val; omega)
  | ⟨2, _⟩ => exact Fin.ext (by show 0 + 1 * d.val = d.val; omega)
  | ⟨3, _⟩ => exact Fin.ext (by show 0 + 1 * h.val = h.val; omega)
  | ⟨4, _⟩ => exact Fin.ext (by show 0 + 1 * w.val = w.val; omega)

section Tile

variable (x0 : Vec Ideal S1x9x16x64x64 .f32) (x1 x2 : Vec Ideal S1x9x1x64x64 .f32) (x3 : Vec Ideal S1x3x16x64x64 .f32)

/-- The padded logits on the tile's own slabs are the own block. -/
theorem XL0_mid (k a dd h w : ℕ) (hdd : dd < 16) :
    XL0 x0 x1 x2 k a (dd + 1) h w = rd5 x0 0 (3 * k + a) dd h w := by
  unfold XL0
  rw [if_neg (by omega), if_neg (by omega)]
  rfl

/-- Padded slab 0 is the block before. -/
theorem XL0_lo (k a h w : ℕ) : XL0 x0 x1 x2 k a 0 h w = rd5 x1 0 (3 * k + a) 0 h w := by
  unfold XL0
  rw [if_pos rfl]

/-- Padded slab 17 is the block after. -/
theorem XL0_hi (k a h w : ℕ) : XL0 x0 x1 x2 k a 17 h w = rd5 x2 0 (3 * k + a) 0 h w := by
  unfold XL0
  rw [if_neg (by norm_num), if_pos rfl]

/-- Class 0's negative log-likelihood on the tile's own slabs. -/
theorem lsmA0_apply (a : Fin 3) (dd : Fin 16) (h w : Fin 64) :
    lsmA0 (F := Ideal) x0 (ix4 a dd h w) = nllL (XL0 x0 x1 x2) a.val (dd.val + 1) h.val w.val := by
  have e0 : View.ld x0 rI0_0 (ix5 0 a dd h w) = rd5 x0 0 (0 + a.val) dd.val h.val w.val := ld_chan 0 x0 _ a dd h w
  have e3 : View.ld x0 rI0_3 (ix5 0 a dd h w) = rd5 x0 0 (3 + a.val) dd.val h.val w.val := ld_chan 3 x0 _ a dd h w
  have e6 : View.ld x0 rI0_6 (ix5 0 a dd h w) = rd5 x0 0 (6 + a.val) dd.val h.val w.val := ld_chan 6 x0 _ a dd h w
  unfold lsmA0
  rw [pay8_apply, e0, e3, e6]
  unfold nllL
  rw [XL0_mid x0 x1 x2 0 a.val dd.val h.val w.val dd.isLt, XL0_mid x0 x1 x2 1 a.val dd.val h.val w.val dd.isLt,
    XL0_mid x0 x1 x2 2 a.val dd.val h.val w.val dd.isLt]

/-- Class 0's probability on the tile's own slabs. -/
theorem lsmB0_apply (a : Fin 3) (dd : Fin 16) (h w : Fin 64) :
    lsmB0 (F := Ideal) x0 (ix4 a dd h w) = probL (XL0 x0 x1 x2) a.val (dd.val + 1) h.val w.val := by
  have e0 : View.ld x0 rI0_0 (ix5 0 a dd h w) = rd5 x0 0 (0 + a.val) dd.val h.val w.val := ld_chan 0 x0 _ a dd h w
  have e3 : View.ld x0 rI0_3 (ix5 0 a dd h w) = rd5 x0 0 (3 + a.val) dd.val h.val w.val := ld_chan 3 x0 _ a dd h w
  have e6 : View.ld x0 rI0_6 (ix5 0 a dd h w) = rd5 x0 0 (6 + a.val) dd.val h.val w.val := ld_chan 6 x0 _ a dd h w
  unfold lsmB0
  rw [pay9_apply, e0, e3, e6]
  unfold probL
  rw [XL0_mid x0 x1 x2 0 a.val dd.val h.val w.val dd.isLt, XL0_mid x0 x1 x2 1 a.val dd.val h.val w.val dd.isLt,
    XL0_mid x0 x1 x2 2 a.val dd.val h.val w.val dd.isLt]

/-- The slab before the tile holds padded slab 0's negative log-likelihood. -/
theorem haloLo0_apply (a : Fin 3) (h w : Fin 64) :
    haloLo0 (F := Ideal) x1 (ix4 a 0 h w) = nllL (XL0 x0 x1 x2) a.val 0 h.val w.val := by
  have e0 : View.ld x1 rH0_0 (ix5 0 a 0 h w) = rd5 x1 0 (0 + a.val) 0 h.val w.val := ld_chan 0 x1 _ a 0 h w
  have e3 : View.ld x1 rH0_3 (ix5 0 a 0 h w) = rd5 x1 0 (3 + a.val) 0 h.val w.val := ld_chan 3 x1 _ a 0 h w
  have e6 : View.ld x1 rH0_6 (ix5 0 a 0 h w) = rd5 x1 0 (6 + a.val) 0 h.val w.val := ld_chan 6 x1 _ a 0 h w
  unfold haloLo0
  rw [pay14_apply, e0, e3, e6]
  unfold nllL
  rw [XL0_lo, XL0_lo, XL0_lo]

/-- The slab after the tile holds padded slab 17's negative log-likelihood. -/
theorem haloHi0_apply (a : Fin 3) (h w : Fin 64) :
    haloHi0 (F := Ideal) x2 (ix4 a 0 h w) = nllL (XL0 x0 x1 x2) a.val 17 h.val w.val := by
  have e0 : View.ld x2 rH0_0 (ix5 0 a 0 h w) = rd5 x2 0 (0 + a.val) 0 h.val w.val := ld_chan 0 x2 _ a 0 h w
  have e3 : View.ld x2 rH0_3 (ix5 0 a 0 h w) = rd5 x2 0 (3 + a.val) 0 h.val w.val := ld_chan 3 x2 _ a 0 h w
  have e6 : View.ld x2 rH0_6 (ix5 0 a 0 h w) = rd5 x2 0 (6 + a.val) 0 h.val w.val := ld_chan 6 x2 _ a 0 h w
  unfold haloHi0
  rw [pay15_apply, e0, e3, e6]
  unfold nllL
  rw [XL0_hi, XL0_hi, XL0_hi]

omit x0 x1 x2 x3 in
theorem one_add_lt (d : Fin 16) : 1 + d.val < 18 := by have := d.isLt; omega

/-- The eighteen padded slabs of the scratch hold the padded negative log-likelihood. -/
theorem pad0_apply (a : Fin 3) (s : Fin 18) (h w : Fin 64) :
    pad0 (F := Ideal) x0 x1 x2 (ix4 a s h w) = nllL (XL0 x0 x1 x2) a.val s.val h.val w.val := by
  have hlt := s.isLt
  by_cases h0 : s.val = 0
  · obtain rfl : s = ⟨0, Nat.zero_lt_succ 17⟩ := Fin.ext h0
    rw [pad0_lo, haloLo0_apply x0 x1 x2]
  · by_cases h17 : s.val = 17
    · obtain rfl : s = ⟨17, Nat.lt_succ_self 17⟩ := Fin.ext h17
      rw [pad0_hi, haloHi0_apply x0 x1 x2]
    · obtain ⟨d, rfl⟩ : ∃ d : Fin 16, s = ⟨1 + d.val, one_add_lt d⟩ :=
        ⟨⟨s.val - 1, by omega⟩, Fin.ext (by show s.val = 1 + (s.val - 1); omega)⟩
      rw [pad0_mid, pay16_eq, lsmA0_apply x0 x1 x2]
      show nllL _ a.val (d.val + 1) _ _ = nllL _ a.val (1 + d.val) _ _
      rw [Nat.add_comm]

theorem slab0_0_at (a : Fin 3) (dd : Fin 16) (h w : Fin 64) :
    slab0_0 (F := Ideal) x0 x1 x2 (ix4 a dd h w) = nllL (XL0 x0 x1 x2) a.val dd.val h.val w.val := by
  rw [slab0_0_apply, pad0_apply]
  show nllL _ a.val (0 + dd.val) _ _ = _
  rw [Nat.zero_add]

theorem slab0_1_at (a : Fin 3) (dd : Fin 16) (h w : Fin 64) :
    slab0_1 (F := Ideal) x0 x1 x2 (ix4 a dd h w) = nllL (XL0 x0 x1 x2) a.val (dd.val + 1) h.val w.val := by
  rw [slab0_1_apply, pad0_apply]
  show nllL _ a.val (1 + dd.val) _ _ = _
  rw [Nat.add_comm]

theorem slab0_2_at (a : Fin 3) (dd : Fin 16) (h w : Fin 64) :
    slab0_2 (F := Ideal) x0 x1 x2 (ix4 a dd h w) = nllL (XL0 x0 x1 x2) a.val (dd.val + 2) h.val w.val := by
  rw [slab0_2_apply, pad0_apply]
  show nllL _ a.val (2 + dd.val) _ _ = _
  rw [Nat.add_comm]

/-- The label block at an index is the tile's label map. -/
theorem x3_apply (a : Fin 3) (dd : Fin 16) (h w : Fin 64) : x3 (ix5 0 a dd h w) = PL0 x3 a.val dd.val h.val w.val :=
  (rd5_ix5 x3 0 a dd h w).symm

/-- The masked focal weight of the tile, over the four blocks. -/
def Wtile0 : FVec Ideal S3x16x64x64 .f32 :=
  k0_pay21 (F := Ideal) (lsmA0 x0) (lsmB0 x0)
    (k0_pay17 (slab0_0 x0 x1 x2) (slab0_1 x0 x1 x2) (slab0_2 x0 x1 x2))
    (k0_pay18 (slab0_0 x0 x1 x2) (slab0_1 x0 x1 x2) (slab0_2 x0 x1 x2))
    (k0_pay19 (slab0_0 x0 x1 x2) (slab0_1 x0 x1 x2) (slab0_2 x0 x1 x2))
    k0_pay20 (Scalar.ofBits .f32 0xF149F2CA#32) x3

/-- The tile's weight at an index is the specification's. -/
theorem Wtile0_apply (a : Fin 3) (dd : Fin 16) (h w : Fin 64) :
    Wtile0 x0 x1 x2 x3 (ix4 a dd h w) = wnegL 64 fillw (XL0 x0 x1 x2) (PL0 x3) a.val dd.val h.val w.val := by
  unfold Wtile0
  rw [pay21_apply (slab0_0 x0 x1 x2) (slab0_1 x0 x1 x2) (slab0_2 x0 x1 x2) a (nllL (XL0 x0 x1 x2) a.val)
      (slab0_0_at x0 x1 x2 a) (slab0_1_at x0 x1 x2 a) (slab0_2_at x0 x1 x2 a) (lsmA0 x0) (lsmB0 x0) x3 dd h w,
    lsmA0_apply x0 x1 x2, lsmB0_apply x0 x1 x2, x3_apply x3 a dd h w]
  rfl

/-- The loss block after the body holds the tile's loss, at every position. -/
theorem out0_4_at (i : Fin 8) (j : Fin 128) :
    out0_4 (F := Ideal) x0 x1 x2 x3 (ix4 0 0 i j) = tileLossL 64 fillw (XL0 x0 x1 x2) (PL0 x3) := by
  rw [out0_4_eq, pay22_apply]
  exact sum4_range (fun idx => lsmA0 (F := Ideal) x0 idx * Wtile0 x0 x1 x2 x3 idx)
    (fun a dd h w => nllL (XL0 x0 x1 x2) a (dd + 1) h w * wnegL 64 fillw (XL0 x0 x1 x2) (PL0 x3) a dd h w)
    (fun a dd h w => by rw [lsmA0_apply x0 x1 x2, Wtile0_apply])

/-- The count block after the body holds the tile's count, at every position. -/
theorem out0_5_at (i : Fin 8) (j : Fin 128) :
    out0_5 (F := Ideal) x0 x1 x2 x3 (ix4 0 0 i j) = tileCountL 64 fillw (XL0 x0 x1 x2) (PL0 x3) := by
  rw [out0_5_eq, pay23_apply]
  exact sum4_range (fun idx => Wtile0 x0 x1 x2 x3 idx)
    (fun a dd h w => wnegL 64 fillw (XL0 x0 x1 x2) (PL0 x3) a dd h w)
    (fun a dd h w => Wtile0_apply x0 x1 x2 x3 a dd h w)

/-- The loss block, with the fill named as the specification names it. -/
theorem out0_4_apply (i : Fin 8) (j : Fin 128) :
    out0_4 (F := Ideal) x0 x1 x2 x3 (ix4 0 0 i j) = tileLossL 64 Cert.Hand.Math.fill (XL0 x0 x1 x2) (PL0 x3) :=
  out0_4_at x0 x1 x2 x3 i j

/-- The count block, likewise. -/
theorem out0_5_apply (i : Fin 8) (j : Fin 128) :
    out0_5 (F := Ideal) x0 x1 x2 x3 (ix4 0 0 i j) = tileCountL 64 Cert.Hand.Math.fill (XL0 x0 x1 x2) (PL0 x3) :=
  out0_5_at x0 x1 x2 x3 i j

end Tile

end Cert.KernelIdeal.Hand

end
-- ==== Proof.KI.TileDefs1.lean ====
/-
  A depth tile's padded logits and labels, read off the blocks the tile is given.

  The tile receives four blocks: the sixteen own slabs of the nine logit channels, the one slab before, the one slab after,
  and the sixteen own slabs of the label map. Padded slab 0 is the slab before, padded slabs 1 to 16 the own slabs, padded
  slab 17 the slab after; class `k` of anchor `a` is channel `3 * k + a`.
-/
import proofs.«424358_j44040594653645_2_alg».proof.Proof.Readers

noncomputable section

namespace Cert.KernelIdeal.Hand

open Idealize.ShloMosaic Cert.Hand.Readers

/-- Class `k`'s logit of anchor `a` on padded slab `s` of a 32-wide tile, over the own block `x0`, the block before `x1`
    and the block after `x2`. -/
def XL1 (x0 : (⟨5, ![1, 9, 16, 32, 32]⟩ : Shape).Idx → EReal) (x1 x2 : (⟨5, ![1, 9, 1, 32, 32]⟩ : Shape).Idx → EReal)
    (k a s h w : ℕ) : EReal :=
  if s = 0 then rd5 x1 0 (3 * k + a) 0 h w else if s = 17 then rd5 x2 0 (3 * k + a) 0 h w else rd5 x0 0 (3 * k + a) (s - 1) h w

/-- The label map of anchor `a` on own slab `dd` of a 32-wide tile, over the label block `x3`. -/
def PL1 (x3 : (⟨5, ![1, 3, 16, 32, 32]⟩ : Shape).Idx → EReal) (a dd h w : ℕ) : EReal := rd5 x3 0 a dd h w

end Cert.KernelIdeal.Hand

end
-- ==== Proof.KI.Pad1.lean ====
import proofs.«424358_j44040594653645_2_alg».proof.Proof.KI.Body1
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The padded scratch read at an index, slab by slab -/

section PadAt
open Idealize.ShloMosaic.ValueIdx

/-- An index of the scratch at depth `o + d` is the image of the local index at depth `d` under the unit rectangle at depth offset `o`. -/
theorem emb_depth1 {D : Nat} (o : Nat) (inb : ∀ a, (![0, o, 0, 0] : Fin 4 → Nat) a + (![3, D, 32, 32] : Fin 4 → Nat) a ≤ S3x18x32x32.size a)
    (c : Fin 3) (d : Fin D) (h w : Fin 32) (hd : o + d.val < 18) :
    (Rect.unit (s := S3x18x32x32) ![0, o, 0, 0] ![3, D, 32, 32] inb).emb (ix4 c d h w) = ix4 c ⟨o + d.val, hd⟩ h w := by
  funext a
  match a with
  | ⟨0, _⟩ => exact Fin.ext (by show 0 + 1 * c.val = c.val; omega)
  | ⟨1, _⟩ => exact Fin.ext (by show o + 1 * d.val = o + d.val; omega)
  | ⟨2, _⟩ => exact Fin.ext (by show 0 + 1 * h.val = h.val; omega)
  | ⟨3, _⟩ => exact Fin.ext (by show 0 + 1 * w.val = w.val; omega)

/-- An index of the scratch whose depth is outside `[o, o + D)` is not in the unit rectangle of `D` slabs at depth offset `o`. -/
theorem not_mem_depth1 {D : Nat} (o : Nat) (inb : ∀ a, (![0, o, 0, 0] : Fin 4 → Nat) a + (![3, D, 32, 32] : Fin 4 → Nat) a ≤ S3x18x32x32.size a)
    (c : Fin 3) (d : Fin 18) (h w : Fin 32) (hd : d.val < o ∨ o + D ≤ d.val) :
    (ix4 c d h w : S3x18x32x32.Idx) ∉ (Rect.unit (s := S3x18x32x32) ![0, o, 0, 0] ![3, D, 32, 32] inb).set := by
  intro hm
  have h1 : o ≤ d.val ∧ d.val < o + D := (Rect.mem_set_unit.mp hm) 1
  omega

/-- Off the last store's slabs, the canonical contents are the earlier stores'; -/
theorem canon_skip_depth1 {D : Nat} (o : Nat) (inb : ∀ a, (![0, o, 0, 0] : Fin 4 → Nat) a + (![3, D, 32, 32] : Fin 4 → Nat) a ≤ S3x18x32x32.size a)
    (p : (⟨4, ![3, D, 32, 32]⟩ : Shape).Idx → Elt F .f32) (L : List (View.Piece (Elt F) S3x18x32x32 .f32))
    (c : Fin 3) (d : Fin 18) (h w : Fin 32) (hd : d.val < o ∨ o + D ≤ d.val) :
    View.canon ((⟨Rect.unit (s := S3x18x32x32) ![0, o, 0, 0] ![3, D, 32, 32] inb, p⟩ : View.Piece (Elt F) S3x18x32x32 .f32) :: L) (ix4 c d h w)
      = View.canon L (ix4 c d h w) :=
  View.canon_cons_of_not_mem _ L (not_mem_depth1 o inb c d h w hd)

/-- on them, its payload. -/
theorem canon_hit_depth1 {D : Nat} (o : Nat) (inb : ∀ a, (![0, o, 0, 0] : Fin 4 → Nat) a + (![3, D, 32, 32] : Fin 4 → Nat) a ≤ S3x18x32x32.size a)
    (p : (⟨4, ![3, D, 32, 32]⟩ : Shape).Idx → Elt F .f32) (L : List (View.Piece (Elt F) S3x18x32x32 .f32))
    (c : Fin 3) (d : Fin D) (h w : Fin 32) (hd : o + d.val < 18) :
    View.canon ((⟨Rect.unit (s := S3x18x32x32) ![0, o, 0, 0] ![3, D, 32, 32] inb, p⟩ : View.Piece (Elt F) S3x18x32x32 .f32) :: L) (ix4 c ⟨o + d.val, hd⟩ h w)
      = p (ix4 c d h w) := by
  rw [← emb_depth1 o inb c d h w hd]
  exact View.canon_cons_emb (Rect.unit (s := S3x18x32x32) ![0, o, 0, 0] ![3, D, 32, 32] inb) p L (ix4 c d h w)

variable (x0 : Vec F S1x9x16x32x32 .f32) (x1 x2 : Vec F S1x9x1x32x32 .f32)

/-- Depths 1 to 16 of the padded scratch hold the tile's own slabs, -/
theorem pad1_mid (c : Fin 3) (d : Fin 16) (h w : Fin 32) :
    pad1 x0 x1 x2 (ix4 c ⟨1 + d.val, by omega⟩ h w) = k1_pay16 (lsmA1 x0) (ix4 c d h w) := by
  unfold pad1 pieces1
  exact canon_hit_depth1 (D := 16) 1 inb_S3x18x32x32_S3x16x32x32_0_1_0_0 _ _ c d h w (by omega)

/-- depth 17 the upper halo slab, -/
theorem pad1_hi (c : Fin 3) (h w : Fin 32) :
    pad1 x0 x1 x2 (ix4 c ⟨17, by omega⟩ h w) = haloHi1 x2 (ix4 c (0 : Fin 1) h w) := by
  unfold pad1 pieces1
  exact (canon_skip_depth1 (D := 16) 1 inb_S3x18x32x32_S3x16x32x32_0_1_0_0 _ _ c ⟨17, by omega⟩ h w (Or.inr (Nat.le_refl 17))).trans
    (canon_hit_depth1 (D := 1) 17 inb_S3x18x32x32_S3x1x32x32_0_17_0_0 _ _ c (0 : Fin 1) h w (by decide))

/-- and depth 0 the lower halo slab. -/
theorem pad1_lo (c : Fin 3) (h w : Fin 32) :
    pad1 x0 x1 x2 (ix4 c ⟨0, by omega⟩ h w) = haloLo1 x1 (ix4 c (0 : Fin 1) h w) := by
  unfold pad1 pieces1
  exact ((canon_skip_depth1 (D := 16) 1 inb_S3x18x32x32_S3x16x32x32_0_1_0_0 _ _ c ⟨0, by omega⟩ h w (Or.inl Nat.one_pos)).trans
    (canon_skip_depth1 (D := 1) 17 inb_S3x18x32x32_S3x1x32x32_0_17_0_0 _ _ c ⟨0, by omega⟩ h w (Or.inl (by decide)))).trans
    (canon_hit_depth1 (D := 1) 0 inb_S3x18x32x32_S3x1x32x32_0_0_0_0 _ _ c (0 : Fin 1) h w (by decide))

/-- The three windows of the padded scratch read it at depths `d`, `d + 1`, `d + 2`. -/
theorem slab1_0_apply (c : Fin 3) (d : Fin 16) (h w : Fin 32) :
    slab1_0 x0 x1 x2 (ix4 c d h w) = pad1 x0 x1 x2 (ix4 c ⟨0 + d.val, by omega⟩ h w) := by
  unfold slab1_0
  show pad1 x0 x1 x2 (rW1_0.emb (ix4 c d h w)) = _
  rw [emb_depth1 (D := 16) 0 inb_S3x18x32x32_S3x16x32x32_0_0_0_0 c d h w (by omega)]
theorem slab1_1_apply (c : Fin 3) (d : Fin 16) (h w : Fin 32) :
    slab1_1 x0 x1 x2 (ix4 c d h w) = pad1 x0 x1 x2 (ix4 c ⟨1 + d.val, by omega⟩ h w) := by
  unfold slab1_1
  show pad1 x0 x1 x2 (rW1_1.emb (ix4 c d h w)) = _
  rw [emb_depth1 (D := 16) 1 inb_S3x18x32x32_S3x16x32x32_0_1_0_0 c d h w (by omega)]
theorem slab1_2_apply (c : Fin 3) (d : Fin 16) (h w : Fin 32) :
    slab1_2 x0 x1 x2 (ix4 c d h w) = pad1 x0 x1 x2 (ix4 c ⟨2 + d.val, by omega⟩ h w) := by
  unfold slab1_2
  show pad1 x0 x1 x2 (rW1_2.emb (ix4 c d h w)) = _
  rw [emb_depth1 (D := 16) 2 inb_S3x18x32x32_S3x16x32x32_0_2_0_0 c d h w (by omega)]

end PadAt

end Cert.KernelIdeal.Hand

end
-- ==== Proof.KI.Tile1.lean ====
/-
  One depth tile of the second pyramid level, read at an index.

  The tile's body computes, from the three class groups of the logits' sixteen slabs and of the two border slabs, class 0's
  negative log-likelihood and probability, the 3x3x3 neighbourhood maximum (depth by three shifted windows of the eighteen
  padded slabs, height and width by rotations whose wrapped entry is replaced by a finite fill), the masked focal weight, and
  the two sums over the tile. Each vector operation is read at explicit coordinates and matched with the tile's
  specification in its own coordinates.
-/
import proofs.«424358_j44040594653645_2_alg».proof.Proof.Gen.KernelIdeal.Skeleton
import proofs.«424358_j44040594653645_2_alg».proof.Proof.SpecTile
import proofs.«424358_j44040594653645_2_alg».proof.Proof.Readers
import proofs.«424358_j44040594653645_2_alg».proof.Proof.Math
import proofs.«424358_j44040594653645_2_alg».proof.Proof.KI.TileDefs1
import proofs.«424358_j44040594653645_2_alg».proof.Proof.KI.Pad1
import Idealize.ShloMosaic.Lib.KernelVsHost
import Idealize.ShloMosaic.Lib.IdealHost
import Idealize.ShloMosaic.Lib.ValueLayout

noncomputable section

namespace Cert.KernelIdeal.Hand.L1

open Cert.KernelIdeal Cert.KernelIdeal.Gen Cert.Hand.Spec Cert.Hand.SpecTile Cert.Hand.Readers
open Idealize.ShloMosaic Idealize.ShloMosaic.ValueIdx

/-- The finite fill the height and width borders take: the f32 word of -1e30. -/
abbrev fillw : EReal := Ideal.ofBits .f32 0xF149F2CA#32

/-! ## Shape casts and rotations at explicit coordinates -/

/-- Dropping a leading unit axis of a rank-5 block reads `(0, a, b, c, d)` at `(a, b, c, d)`. -/
theorem sc54 {n1 n2 n3 n4 : ℕ} {α : Type} (v : (⟨5, ![1, n1, n2, n3, n4]⟩ : Shape).Idx → α)
    (hc : (⟨5, ![1, n1, n2, n3, n4]⟩ : Shape).ShapeCasts ⟨4, ![n1, n2, n3, n4]⟩)
    (a : Fin n1) (b : Fin n2) (c : Fin n3) (d : Fin n4) :
    shapeCast ⟨4, ![n1, n2, n3, n4]⟩ v hc (ix4 a b c d) = v (ix5 0 a b c d) := by
  refine (shapeCast_dropUnit_apply ![n1, n2, n3, n4] v hc (ix4 a b c d)).trans (congrArg v ?_)
  funext i
  match i with
  | ⟨0, _⟩ => rfl
  | ⟨1, _⟩ => rfl
  | ⟨2, _⟩ => rfl
  | ⟨3, _⟩ => rfl
  | ⟨4, _⟩ => rfl

/-! ## The log-softmax payloads -/

section Softmax

variable (v0 v2 v4 : Vec Ideal S1x3x16x32x32 .f32)

theorem pay2_apply (a : Fin 3) (dd : Fin 16) (h w : Fin 32) :
    k1_pay2 (F := Ideal) v0 (ix4 a dd h w) = v0 (ix5 0 a dd h w) :=
  sc54 v0 shapeCasts_S1x3x16x32x32_S3x16x32x32 a dd h w

theorem pay3_apply (a : Fin 3) (dd : Fin 16) (h w : Fin 32) :
    k1_pay3 (F := Ideal) v2 (ix4 a dd h w) = v2 (ix5 0 a dd h w) :=
  sc54 v2 shapeCasts_S1x3x16x32x32_S3x16x32x32 a dd h w

theorem pay4_apply (a : Fin 3) (dd : Fin 16) (h w : Fin 32) :
    k1_pay4 (F := Ideal) v4 (ix4 a dd h w) = v4 (ix5 0 a dd h w) :=
  sc54 v4 shapeCasts_S1x3x16x32x32_S3x16x32x32 a dd h w

/-- Class 0's negative log-likelihood of the tile's own slabs, at an index. -/
theorem pay8_apply (a : Fin 3) (dd : Fin 16) (h w : Fin 32) :
    k1_pay8 (F := Ideal) v0 v2 v4 (ix4 a dd h w)
      = nllK (v0 (ix5 0 a dd h w)) (v2 (ix5 0 a dd h w)) (v4 (ix5 0 a dd h w)) := by
  rw [← pay2_apply v0 a dd h w, ← pay3_apply v2 a dd h w, ← pay4_apply v4 a dd h w]
  rfl

/-- Class 0's probability on the tile's own slabs, at an index. -/
theorem pay9_apply (a : Fin 3) (dd : Fin 16) (h w : Fin 32) :
    k1_pay9 (F := Ideal) v0 v2 v4 (ix4 a dd h w)
      = probK (v0 (ix5 0 a dd h w)) (v2 (ix5 0 a dd h w)) (v4 (ix5 0 a dd h w)) := by
  rw [← pay2_apply v0 a dd h w, ← pay3_apply v2 a dd h w, ← pay4_apply v4 a dd h w]
  rfl

end Softmax

/-! ## The border slabs -/

section Border

variable (u0 u2 u4 : Vec Ideal S1x3x1x32x32 .f32)

theorem pay10_apply (a : Fin 3) (h w : Fin 32) : k1_pay10 (F := Ideal) u0 (ix4 a 0 h w) = u0 (ix5 0 a 0 h w) :=
  sc54 u0 shapeCasts_S1x3x1x32x32_S3x1x32x32 a 0 h w

theorem pay11_apply (a : Fin 3) (h w : Fin 32) : k1_pay11 (F := Ideal) u2 (ix4 a 0 h w) = u2 (ix5 0 a 0 h w) :=
  sc54 u2 shapeCasts_S1x3x1x32x32_S3x1x32x32 a 0 h w

theorem pay12_apply (a : Fin 3) (h w : Fin 32) : k1_pay12 (F := Ideal) u4 (ix4 a 0 h w) = u4 (ix5 0 a 0 h w) :=
  sc54 u4 shapeCasts_S1x3x1x32x32_S3x1x32x32 a 0 h w

/-- Class 0's negative log-likelihood of the slab before the tile, at an index. -/
theorem pay14_apply (a : Fin 3) (h w : Fin 32) :
    k1_pay14 (F := Ideal) (k1_pay10 u0) (k1_pay11 u2) (k1_pay12 u4) (k1_pay13 u0 u2 u4) (ix4 a 0 h w)
      = nllK (u0 (ix5 0 a 0 h w)) (u2 (ix5 0 a 0 h w)) (u4 (ix5 0 a 0 h w)) := by
  unfold k1_pay14
  simp only [shapeCast_self]
  rw [← pay10_apply u0 a h w, ← pay11_apply u2 a h w, ← pay12_apply u4 a h w]
  rfl

/-- Class 0's negative log-likelihood of the slab after the tile, at an index. -/
theorem pay15_apply (a : Fin 3) (h w : Fin 32) :
    k1_pay15 (F := Ideal) u0 u2 u4 (ix4 a 0 h w)
      = nllK (u0 (ix5 0 a 0 h w)) (u2 (ix5 0 a 0 h w)) (u4 (ix5 0 a 0 h w)) := by
  unfold k1_pay15
  simp only [shapeCast_self]
  rw [← sc54 u0 shapeCasts_S1x3x1x32x32_S3x1x32x32 a 0 h w,
    ← sc54 u2 shapeCasts_S1x3x1x32x32_S3x1x32x32 a 0 h w, ← sc54 u4 shapeCasts_S1x3x1x32x32_S3x1x32x32 a 0 h w]
  rfl

end Border

/-- The tile's own slabs go to the scratch unchanged. -/
theorem pay16_eq (v18 : FVec Ideal S3x16x32x32 .f32) : k1_pay16 (F := Ideal) v18 = v18 :=
  shapeCast_self v18 shapeCasts_S3x16x32x32_S3x16x32x32

/-! ## Rotations, coordinate words and selects -/

/-- A rotation along the height axis at explicit coordinates. -/
theorem rotH_apply {α : Type} (x : S3x16x32x32.Idx → α) (sb : BitVec 32) (hr : S3x16x32x32.Rotates 2 none)
    (a : Fin 3) (dd : Fin 16) (h w : Fin 32) :
    dynamicRotate 2 sb none x hr (ix4 a dd h w)
      = x (ix4 a dd ⟨(h.val + 32 - sb.toNat % 32) % 32, Nat.mod_lt _ (by norm_num)⟩ w) :=
  dynamicRotate_apply 2 sb x hr _ _ fun b => match b with
    | ⟨0, _⟩ => rfl
    | ⟨1, _⟩ => rfl
    | ⟨2, _⟩ => rfl
    | ⟨3, _⟩ => rfl

/-- A rotation along the width axis at explicit coordinates. -/
theorem rotW_apply {α : Type} (x : S3x16x32x32.Idx → α) (sb : BitVec 32) (hr : S3x16x32x32.Rotates 3 none)
    (a : Fin 3) (dd : Fin 16) (h w : Fin 32) :
    dynamicRotate 3 sb none x hr (ix4 a dd h w)
      = x (ix4 a dd h ⟨(w.val + 32 - sb.toNat % 32) % 32, Nat.mod_lt _ (by norm_num)⟩) :=
  dynamicRotate_apply 3 sb x hr _ _ fun b => match b with
    | ⟨0, _⟩ => rfl
    | ⟨1, _⟩ => rfl
    | ⟨2, _⟩ => rfl
    | ⟨3, _⟩ => rfl

/-- A select on "the coordinate word equals the word of `c`" is the `if` on the coordinates. -/
theorem sel_eq {α : Type} (n : ℕ) (hn : n < 32) (c : ℕ) (hc : c < 32) (A B : α) :
    Scalar.select (IntOp.cmpi .eq (BitVec.ofNat 32 n) (BitVec.ofNat 32 c)) A B = if n = c then A else B := by
  have hiff : BitVec.ofNat 32 n = BitVec.ofNat 32 c → n = c := fun hh => by
    have := congrArg BitVec.toNat hh
    simp only [BitVec.toNat_ofNat] at this
    omega
  show (if BitVec.ofBool (BitVec.ofNat 32 n == BitVec.ofNat 32 c) = 1#1 then A else B) = _
  by_cases hnc : n = c
  · subst hnc; simp
  · have hne : (BitVec.ofNat 32 n == BitVec.ofNat 32 c) = false := by
      rw [beq_eq_false_iff_ne]; exact fun hh => hnc (hiff hh)
    rw [hne, if_neg hnc]; simp

/-! ## The neighbourhood maximum -/

section Pool

variable (v67 v68 v70 : Vec Ideal S3x16x32x32 .f32) (a : Fin 3) (N : ℕ → ℕ → ℕ → EReal)
  (h67 : ∀ (dd : Fin 16) (h w : Fin 32), v67 (ix4 a dd h w) = N dd.val h.val w.val)
  (h68 : ∀ (dd : Fin 16) (h w : Fin 32), v68 (ix4 a dd h w) = N (dd.val + 1) h.val w.val)
  (h70 : ∀ (dd : Fin 16) (h w : Fin 32), v70 (ix4 a dd h w) = N (dd.val + 2) h.val w.val)

include h67 h68 h70

/-- The depth maximum of the three shifted windows, then the height maximum, at an index. -/
theorem pay17_apply (dd : Fin 16) (h w : Fin 32) :
    k1_pay17 (F := Ideal) v67 v68 v70 (ix4 a dd h w) = hmaxL 32 fillw N dd.val h.val w.val := by
  have hD : ∀ (dd : Fin 16) (h w : Fin 32),
      (maximumf (maximumf v67 v68) v70 : FVec Ideal S3x16x32x32 .f32) (ix4 a dd h w) = dmaxL N dd.val h.val w.val :=
    fun dd h w => by
      show max (max (v67 _) (v68 _)) (v70 _) = _
      rw [h67, h68, h70]; rfl
  have e : k1_pay17 (F := Ideal) v67 v68 v70 (ix4 a dd h w)
      = max (max (Scalar.select (IntOp.cmpi .eq (iota .tc S3x16x32x32 32 [2] iota_S3x16x32x32_d2_w32 (ix4 a dd h w)) 0#32) fillw
                    (dynamicRotate 2 1#32 none (maximumf (maximumf v67 v68) v70 : FVec Ideal S3x16x32x32 .f32) rotates_S3x16x32x32_d2 (ix4 a dd h w)))
                 ((maximumf (maximumf v67 v68) v70 : FVec Ideal S3x16x32x32 .f32) (ix4 a dd h w)))
            (Scalar.select (IntOp.cmpi .eq (iota .tc S3x16x32x32 32 [2] iota_S3x16x32x32_d2_w32 (ix4 a dd h w)) 31#32) fillw
                    (dynamicRotate 2 31#32 none (maximumf (maximumf v67 v68) v70 : FVec Ideal S3x16x32x32 .f32) rotates_S3x16x32x32_d2 (ix4 a dd h w))) := rfl
  rw [e, iota_single_apply, rotH_apply, rotH_apply, hD, hD, hD]
  show max (max (Scalar.select (IntOp.cmpi .eq (BitVec.ofNat 32 h.val) (BitVec.ofNat 32 0)) fillw
                  (dmaxL N dd.val ((h.val + 32 - 1) % 32) w.val)) (dmaxL N dd.val h.val w.val))
      (Scalar.select (IntOp.cmpi .eq (BitVec.ofNat 32 h.val) (BitVec.ofNat 32 31)) fillw
                  (dmaxL N dd.val ((h.val + 32 - 31) % 32) w.val)) = _
  rw [sel_eq _ h.isLt 0 (by norm_num), sel_eq _ h.isLt 31 (by norm_num)]
  have hlt := h.isLt
  have eA : (if h.val = 0 then fillw else dmaxL N dd.val ((h.val + 32 - 1) % 32) w.val)
      = (if h.val = 0 then fillw else dmaxL N dd.val (h.val - 1) w.val) := by
    by_cases h0 : h.val = 0
    · rw [if_pos h0, if_pos h0]
    · rw [if_neg h0, if_neg h0, show (h.val + 32 - 1) % 32 = h.val - 1 by omega]
  have eB : (if h.val = 31 then fillw else dmaxL N dd.val ((h.val + 32 - 31) % 32) w.val)
      = (if h.val = 32 - 1 then fillw else dmaxL N dd.val (h.val + 1) w.val) := by
    by_cases h63 : h.val = 31
    · rw [if_pos h63, if_pos (by omega)]
    · rw [if_neg h63, if_neg (by omega), show (h.val + 32 - 31) % 32 = h.val + 1 by omega]
  rw [eA, eB]
  rfl

include h67 h68 h70 in
/-- The height maximum's right-hand width neighbour, wrapped: column `(w + 1) mod 32`. -/
theorem pay18_apply (dd : Fin 16) (h w : Fin 32) :
    k1_pay18 (F := Ideal) v67 v68 v70 (ix4 a dd h w) = hmaxL 32 fillw N dd.val h.val ((w.val + 32 - 31) % 32) := by
  show dynamicRotate 3 31#32 none (k1_pay17 (F := Ideal) v67 v68 v70) rotates_S3x16x32x32_d3 (ix4 a dd h w) = _
  rw [rotW_apply, pay17_apply v67 v68 v70 a N h67 h68 h70]
  rfl

include h67 h68 h70 in
/-- The height maximum's left-hand width neighbour, the fill on the first column. -/
theorem pay19_apply (dd : Fin 16) (h w : Fin 32) :
    k1_pay19 (F := Ideal) v67 v68 v70 (ix4 a dd h w)
      = if w.val = 0 then fillw else hmaxL 32 fillw N dd.val h.val (w.val - 1) := by
  have e : k1_pay19 (F := Ideal) v67 v68 v70 (ix4 a dd h w)
      = Scalar.select (IntOp.cmpi .eq (iota .tc S3x16x32x32 32 [3] iota_S3x16x32x32_d3_w32 (ix4 a dd h w)) 0#32) fillw
          (dynamicRotate 3 1#32 none (k1_pay17 (F := Ideal) v67 v68 v70) rotates_S3x16x32x32_d3 (ix4 a dd h w)) := rfl
  rw [e, iota_single_apply, rotW_apply, pay17_apply v67 v68 v70 a N h67 h68 h70]
  show Scalar.select (IntOp.cmpi .eq (BitVec.ofNat 32 w.val) (BitVec.ofNat 32 0)) fillw
      (hmaxL 32 fillw N dd.val h.val ((w.val + 32 - 1) % 32)) = _
  rw [sel_eq _ w.isLt 0 (by norm_num)]
  have hlt := w.isLt
  by_cases h0 : w.val = 0
  · rw [if_pos h0, if_pos h0]
  · rw [if_neg h0, if_neg h0, show (w.val + 32 - 1) % 32 = w.val - 1 by omega]

end Pool

/-- The last column's condition, at an index. -/
theorem pay20_apply (a : Fin 3) (dd : Fin 16) (h w : Fin 32) :
    k1_pay20 (ix4 a dd h w) = IntOp.cmpi .eq (BitVec.ofNat 32 w.val) (BitVec.ofNat 32 31) := by
  show IntOp.cmpi .eq (iota .tc S3x16x32x32 32 [3] iota_S3x16x32x32_d3_w32 (ix4 a dd h w)) 31#32 = _
  rw [iota_single_apply]

/-! ## Literal words and a comparison's bit as an extended real -/

/-- The f32 pattern `0xBF800000` is minus one. -/
theorem ofBits_neg_one_f32 : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- The f32 pattern of zero is zero. -/
theorem ofBits_zero_f32 : Ideal.ofBits .f32 0x00000000#32 = 0 := by simp [Ideal.ofBits, Ideal.ieee]

/-- An ordered-equal comparison's bit, widened and converted, is the indicator of the equality. -/
theorem bit_ind (x y : EReal) :
    (FloatOps.sitofp (F := Ideal) .f32 ((FloatOps.cmpf (F := Ideal) (φ := .f32) .oeq x y).setWidth 32) : EReal) = ind (x = y) := by
  show ((((BitVec.ofBool (decide (x = y))).setWidth 32).toInt : ℝ) : EReal) = _
  unfold ind
  by_cases hxy : x = y
  · rw [if_pos hxy, decide_eq_true hxy]; simp
  · rw [if_neg hxy, decide_eq_false hxy]; simp

/-! ## The masked focal weight -/

section Weight

variable (v67 v68 v70 : Vec Ideal S3x16x32x32 .f32) (a : Fin 3) (N : ℕ → ℕ → ℕ → EReal)
  (h67 : ∀ (dd : Fin 16) (h w : Fin 32), v67 (ix4 a dd h w) = N dd.val h.val w.val)
  (h68 : ∀ (dd : Fin 16) (h w : Fin 32), v68 (ix4 a dd h w) = N (dd.val + 1) h.val w.val)
  (h70 : ∀ (dd : Fin 16) (h w : Fin 32), v70 (ix4 a dd h w) = N (dd.val + 2) h.val w.val)
  (v18 v19 : FVec Ideal S3x16x32x32 .f32) (x3 : Vec Ideal S1x3x16x32x32 .f32)

include h67 h68 h70 in
/-- The masked focal weight at an index: `(1 - p)^2` on background voxels where the neighbourhood maximum is the value. -/
theorem pay21_apply (dd : Fin 16) (h w : Fin 32) :
    k1_pay21 (F := Ideal) v18 v19 (k1_pay17 v67 v68 v70) (k1_pay18 v67 v68 v70) (k1_pay19 v67 v68 v70) k1_pay20
        (Scalar.ofBits .f32 0xF149F2CA#32) x3 (ix4 a dd h w)
      = (1 - v19 (ix4 a dd h w)) * (1 - v19 (ix4 a dd h w))
          * (ind (x3 (ix5 0 a dd h w) = -1) * ind (poolL 32 fillw N dd.val h.val w.val = v18 (ix4 a dd h w))) := by
  have e : k1_pay21 (F := Ideal) v18 v19 (k1_pay17 v67 v68 v70) (k1_pay18 v67 v68 v70) (k1_pay19 v67 v68 v70) k1_pay20
        (Scalar.ofBits .f32 0xF149F2CA#32) x3 (ix4 a dd h w)
      = (Ideal.ofBits .f32 0x3F800000#32 - v19 (ix4 a dd h w)) * (Ideal.ofBits .f32 0x3F800000#32 - v19 (ix4 a dd h w))
          * (FloatOps.sitofp (F := Ideal) .f32 ((FloatOps.cmpf (F := Ideal) (φ := .f32) .oeq
                (shapeCast S3x16x32x32 x3 shapeCasts_S1x3x16x32x32_S3x16x32x32 (ix4 a dd h w))
                (Ideal.ofBits .f32 0xBF800000#32)).setWidth 32)
             * FloatOps.sitofp (F := Ideal) .f32 ((FloatOps.cmpf (F := Ideal) (φ := .f32) .oeq
                (max (max (k1_pay19 (F := Ideal) v67 v68 v70 (ix4 a dd h w)) (k1_pay17 (F := Ideal) v67 v68 v70 (ix4 a dd h w)))
                  (Scalar.select (k1_pay20 (ix4 a dd h w)) fillw (k1_pay18 (F := Ideal) v67 v68 v70 (ix4 a dd h w))))
                (v18 (ix4 a dd h w))).setWidth 32)) := rfl
  rw [e, bit_ind, bit_ind, sc54, Ideal.ofBits_one_f32, ofBits_neg_one_f32,
    pay19_apply v67 v68 v70 a N h67 h68 h70, pay17_apply v67 v68 v70 a N h67 h68 h70,
    pay18_apply v67 v68 v70 a N h67 h68 h70, pay20_apply, sel_eq _ w.isLt 31 (by norm_num)]
  have hlt := w.isLt
  have eB : (if w.val = 31 then fillw else hmaxL 32 fillw N dd.val h.val ((w.val + 32 - 31) % 32))
      = (if w.val = 32 - 1 then fillw else hmaxL 32 fillw N dd.val h.val (w.val + 1)) := by
    by_cases h63 : w.val = 31
    · rw [if_pos h63, if_pos (by omega)]
    · rw [if_neg h63, if_neg (by omega), show (w.val + 32 - 31) % 32 = w.val + 1 by omega]
  rw [eB]
  rfl

end Weight

/-! ## The tile sums -/

/-- The four reductions (anchors, slabs, rows, then the remaining vector) and the extraction of the one element. -/
def tot (g : FVec Ideal S3x16x32x32 .f32) : EReal :=
  extractAt ![0, 0]
    (shapeCast S1x1
      (multiReduction .add [1] S1
        (shapeCast S1x32
          (multiReduction .add [0] S32
            (multiReduction .add [0] S32x32
              (multiReduction .add [0] S16x32x32 g 0x00000000#32 reduces_S3x16x32x32_S16x32x32 (.inl rfl) rfl)
              0x00000000#32 reduces_S16x32x32_S32x32 (.inl rfl) rfl)
            0x00000000#32 reduces_S32x32_S32 (.inl rfl) rfl)
          shapeCasts_S32_S1x32)
        0x00000000#32 reduces_S1x32_S1 (.inl rfl) rfl)
      shapeCasts_S1_S1x1)
    inpos_S1x1_p0_0

theorem lift_a (hr : S3x16x32x32.Reduces [0] S16x32x32) (dd : Fin 16) (h w : Fin 32) (a : Fin 3) :
    hr.lift (ix3 dd h w) a = ix4 a dd h w := by
  funext c; apply Fin.ext
  match c with
  | ⟨0, _⟩ => rfl
  | ⟨1, _⟩ => rfl
  | ⟨2, _⟩ => rfl
  | ⟨3, _⟩ => rfl

theorem lift_d (hr : S16x32x32.Reduces [0] S32x32) (h w : Fin 32) (dd : Fin 16) :
    hr.lift (ix2 h w) dd = ix3 dd h w := by
  funext c; apply Fin.ext
  match c with
  | ⟨0, _⟩ => rfl
  | ⟨1, _⟩ => rfl
  | ⟨2, _⟩ => rfl

theorem lift_h (hr : S32x32.Reduces [0] S32) (w : Fin 32) (h : Fin 32) :
    hr.lift (ix1 w) h = ix2 h w := by
  funext c; apply Fin.ext
  match c with
  | ⟨0, _⟩ => rfl
  | ⟨1, _⟩ => rfl

theorem lift_w (hr : S1x32.Reduces [1] S1) (u : Fin 1) (w : Fin 32) :
    hr.lift (ix1 u) w = ix2 u w := by
  funext c; apply Fin.ext
  match c with
  | ⟨0, _⟩ => rfl
  | ⟨1, _⟩ => rfl

/-- The reductions' total is the sum over the tile, columns outermost. -/
theorem tot_eq (g : FVec Ideal S3x16x32x32 .f32) :
    tot g = ∑ w : Fin 32, ∑ h : Fin 32, ∑ dd : Fin 16, ∑ a : Fin 3, g (ix4 a dd h w) := by
  have hidx : (fun a => (⟨![0, 0] a, inpos_S1x1_p0_0 a⟩ : Fin (S1x1.size a))) = ix2 (0 : Fin 1) (0 : Fin 1) := by
    funext a
    match a with
    | ⟨0, _⟩ => rfl
    | ⟨1, _⟩ => rfl
  unfold tot extractAt
  rw [hidx]
  refine (shapeCast_a_1a_apply _ _ _ _).trans ?_
  refine (Ideal.multiReduction_add_single _ _ _ _ _ (ix1 0)).trans (Finset.sum_congr rfl fun (w : Fin 32) _ => ?_)
  rw [lift_w]
  refine (shapeCast_a_1a_apply _ _ _ _).trans ?_
  refine (Ideal.multiReduction_add_single _ _ _ _ _ (ix1 w)).trans (Finset.sum_congr rfl fun (h : Fin 32) _ => ?_)
  rw [lift_h]
  refine (Ideal.multiReduction_add_single _ _ _ _ _ (ix2 h w)).trans (Finset.sum_congr rfl fun (dd : Fin 16) _ => ?_)
  rw [lift_d]
  refine (Ideal.multiReduction_add_single _ _ _ _ _ (ix3 dd h w)).trans (Finset.sum_congr rfl fun (a : Fin 3) _ => ?_)
  rw [lift_a]

/-- Sums over the tile's coordinates as sums over ranges of natural numbers. -/
theorem sum4_range (g : S3x16x32x32.Idx → EReal) (G : ℕ → ℕ → ℕ → ℕ → EReal)
    (hg : ∀ (a : Fin 3) (dd : Fin 16) (h w : Fin 32), g (ix4 a dd h w) = G a.val dd.val h.val w.val) :
    (∑ w : Fin 32, ∑ h : Fin 32, ∑ dd : Fin 16, ∑ a : Fin 3, g (ix4 a dd h w))
      = ∑ w ∈ Finset.range 32, ∑ h ∈ Finset.range 32, ∑ dd ∈ Finset.range 16, ∑ a ∈ Finset.range 3, G a dd h w := by
  rw [← Fin.sum_univ_eq_sum_range (fun w => ∑ h ∈ Finset.range 32, ∑ dd ∈ Finset.range 16, ∑ a ∈ Finset.range 3, G a dd h w) 32]
  refine Finset.sum_congr rfl fun w _ => ?_
  rw [← Fin.sum_univ_eq_sum_range (fun h => ∑ dd ∈ Finset.range 16, ∑ a ∈ Finset.range 3, G a dd h w.val) 32]
  refine Finset.sum_congr rfl fun h _ => ?_
  rw [← Fin.sum_univ_eq_sum_range (fun dd => ∑ a ∈ Finset.range 3, G a dd h.val w.val) 16]
  refine Finset.sum_congr rfl fun dd _ => ?_
  rw [← Fin.sum_univ_eq_sum_range (fun a => G a dd.val h.val w.val) 3]
  exact Finset.sum_congr rfl fun a _ => hg a dd h w

section Sums

variable (v18 v19 v84 v86 v91 : FVec Ideal S3x16x32x32 .f32) (v93 : IVec S3x16x32x32 1) (c : EReal)
  (x3 : Vec Ideal S1x3x16x32x32 .f32)

/-- The loss block holds the tile's total of value times weight, at every position. -/
theorem pay22_apply (i : Fin 8) (j : Fin 128) :
    k1_pay22 (F := Ideal) v18 v19 v84 v86 v91 v93 c x3 (ix4 0 0 i j)
      = ∑ w : Fin 32, ∑ h : Fin 32, ∑ dd : Fin 16, ∑ a : Fin 3,
          v18 (ix4 a dd h w) * k1_pay21 (F := Ideal) v18 v19 v84 v86 v91 v93 c x3 (ix4 a dd h w) := by
  have e : k1_pay22 (F := Ideal) v18 v19 v84 v86 v91 v93 c x3 (ix4 0 0 i j)
      = tot (mulf v18 (k1_pay21 (F := Ideal) v18 v19 v84 v86 v91 v93 c x3)) := rfl
  rw [e, tot_eq]
  rfl

/-- The count block holds the tile's total weight, at every position. -/
theorem pay23_apply (i : Fin 8) (j : Fin 128) :
    k1_pay1 (F := Ideal) (k1_pay23 (F := Ideal) v18 v19 v84 v86 v91 v93 c x3) (ix4 0 0 i j)
      = ∑ w : Fin 32, ∑ h : Fin 32, ∑ dd : Fin 16, ∑ a : Fin 3,
          k1_pay21 (F := Ideal) v18 v19 v84 v86 v91 v93 c x3 (ix4 a dd h w) := by
  have e : k1_pay1 (F := Ideal) (k1_pay23 (F := Ideal) v18 v19 v84 v86 v91 v93 c x3) (ix4 0 0 i j)
      = tot (k1_pay21 (F := Ideal) v18 v19 v84 v86 v91 v93 c x3) := rfl
  rw [e, tot_eq]

end Sums

/-! ## The tile's loss and count over the four blocks -/

/-- A load of three consecutive channels from channel `o` of a nine-channel block, at an index. -/
theorem ld_chan {D : ℕ} (o : ℕ) (x : Vec Ideal (⟨5, ![1, 9, D, 32, 32]⟩ : Shape) .f32)
    (inb : ∀ a, (![0, o, 0, 0, 0] : Fin 5 → ℕ) a + (![1, 3, D, 32, 32] : Fin 5 → ℕ) a ≤ (⟨5, ![1, 9, D, 32, 32]⟩ : Shape).size a)
    (a : Fin 3) (d : Fin D) (h w : Fin 32) :
    View.ld x (Rect.unit (s := ⟨5, ![1, 9, D, 32, 32]⟩) ![0, o, 0, 0, 0] ![1, 3, D, 32, 32] inb) (ix5 0 a d h w)
      = rd5 x 0 (o + a.val) d.val h.val w.val := by
  have h1 : o + 3 ≤ 9 := inb 1
  have ha : o + a.val < 9 := by have := a.isLt; omega
  rw [show rd5 x 0 (o + a.val) d.val h.val w.val = x (ix5 0 ⟨o + a.val, ha⟩ d h w) from rd5_ix5 x 0 ⟨o + a.val, ha⟩ d h w]
  show x ((Rect.unit (s := ⟨5, ![1, 9, D, 32, 32]⟩) ![0, o, 0, 0, 0] ![1, 3, D, 32, 32] inb).emb (ix5 0 a d h w)) = _
  congr 1
  funext c
  match c with
  | ⟨0, _⟩ => exact Fin.ext (by show 0 + 1 * 0 = 0; omega)
  | ⟨1, _⟩ => exact Fin.ext (by show o + 1 * a.val = o + a.val; omega)
  | ⟨2, _⟩ => exact Fin.ext (by show 0 + 1 * d.val = d.val; omega)
  | ⟨3, _⟩ => exact Fin.ext (by show 0 + 1 * h.val = h.val; omega)
  | ⟨4, _⟩ => exact Fin.ext (by show 0 + 1 * w.val = w.val; omega)

section Tile

variable (x0 : Vec Ideal S1x9x16x32x32 .f32) (x1 x2 : Vec Ideal S1x9x1x32x32 .f32) (x3 : Vec Ideal S1x3x16x32x32 .f32)

/-- The padded logits on the tile's own slabs are the own block. -/
theorem XL1_mid (k a dd h w : ℕ) (hdd : dd < 16) :
    XL1 x0 x1 x2 k a (dd + 1) h w = rd5 x0 0 (3 * k + a) dd h w := by
  unfold XL1
  rw [if_neg (by omega), if_neg (by omega)]
  rfl

/-- Padded slab 0 is the block before. -/
theorem XL1_lo (k a h w : ℕ) : XL1 x0 x1 x2 k a 0 h w = rd5 x1 0 (3 * k + a) 0 h w := by
  unfold XL1
  rw [if_pos rfl]

/-- Padded slab 17 is the block after. -/
theorem XL1_hi (k a h w : ℕ) : XL1 x0 x1 x2 k a 17 h w = rd5 x2 0 (3 * k + a) 0 h w := by
  unfold XL1
  rw [if_neg (by norm_num), if_pos rfl]

/-- Class 0's negative log-likelihood on the tile's own slabs. -/
theorem lsmA1_apply (a : Fin 3) (dd : Fin 16) (h w : Fin 32) :
    lsmA1 (F := Ideal) x0 (ix4 a dd h w) = nllL (XL1 x0 x1 x2) a.val (dd.val + 1) h.val w.val := by
  have e0 : View.ld x0 rI1_0 (ix5 0 a dd h w) = rd5 x0 0 (0 + a.val) dd.val h.val w.val := ld_chan 0 x0 _ a dd h w
  have e3 : View.ld x0 rI1_3 (ix5 0 a dd h w) = rd5 x0 0 (3 + a.val) dd.val h.val w.val := ld_chan 3 x0 _ a dd h w
  have e6 : View.ld x0 rI1_6 (ix5 0 a dd h w) = rd5 x0 0 (6 + a.val) dd.val h.val w.val := ld_chan 6 x0 _ a dd h w
  unfold lsmA1
  rw [pay8_apply, e0, e3, e6]
  unfold nllL
  rw [XL1_mid x0 x1 x2 0 a.val dd.val h.val w.val dd.isLt, XL1_mid x0 x1 x2 1 a.val dd.val h.val w.val dd.isLt,
    XL1_mid x0 x1 x2 2 a.val dd.val h.val w.val dd.isLt]

/-- Class 0's probability on the tile's own slabs. -/
theorem lsmB1_apply (a : Fin 3) (dd : Fin 16) (h w : Fin 32) :
    lsmB1 (F := Ideal) x0 (ix4 a dd h w) = probL (XL1 x0 x1 x2) a.val (dd.val + 1) h.val w.val := by
  have e0 : View.ld x0 rI1_0 (ix5 0 a dd h w) = rd5 x0 0 (0 + a.val) dd.val h.val w.val := ld_chan 0 x0 _ a dd h w
  have e3 : View.ld x0 rI1_3 (ix5 0 a dd h w) = rd5 x0 0 (3 + a.val) dd.val h.val w.val := ld_chan 3 x0 _ a dd h w
  have e6 : View.ld x0 rI1_6 (ix5 0 a dd h w) = rd5 x0 0 (6 + a.val) dd.val h.val w.val := ld_chan 6 x0 _ a dd h w
  unfold lsmB1
  rw [pay9_apply, e0, e3, e6]
  unfold probL
  rw [XL1_mid x0 x1 x2 0 a.val dd.val h.val w.val dd.isLt, XL1_mid x0 x1 x2 1 a.val dd.val h.val w.val dd.isLt,
    XL1_mid x0 x1 x2 2 a.val dd.val h.val w.val dd.isLt]

/-- The slab before the tile holds padded slab 0's negative log-likelihood. -/
theorem haloLo1_apply (a : Fin 3) (h w : Fin 32) :
    haloLo1 (F := Ideal) x1 (ix4 a 0 h w) = nllL (XL1 x0 x1 x2) a.val 0 h.val w.val := by
  have e0 : View.ld x1 rH1_0 (ix5 0 a 0 h w) = rd5 x1 0 (0 + a.val) 0 h.val w.val := ld_chan 0 x1 _ a 0 h w
  have e3 : View.ld x1 rH1_3 (ix5 0 a 0 h w) = rd5 x1 0 (3 + a.val) 0 h.val w.val := ld_chan 3 x1 _ a 0 h w
  have e6 : View.ld x1 rH1_6 (ix5 0 a 0 h w) = rd5 x1 0 (6 + a.val) 0 h.val w.val := ld_chan 6 x1 _ a 0 h w
  unfold haloLo1
  rw [pay14_apply, e0, e3, e6]
  unfold nllL
  rw [XL1_lo, XL1_lo, XL1_lo]

/-- The slab after the tile holds padded slab 17's negative log-likelihood. -/
theorem haloHi1_apply (a : Fin 3) (h w : Fin 32) :
    haloHi1 (F := Ideal) x2 (ix4 a 0 h w) = nllL (XL1 x0 x1 x2) a.val 17 h.val w.val := by
  have e0 : View.ld x2 rH1_0 (ix5 0 a 0 h w) = rd5 x2 0 (0 + a.val) 0 h.val w.val := ld_chan 0 x2 _ a 0 h w
  have e3 : View.ld x2 rH1_3 (ix5 0 a 0 h w) = rd5 x2 0 (3 + a.val) 0 h.val w.val := ld_chan 3 x2 _ a 0 h w
  have e6 : View.ld x2 rH1_6 (ix5 0 a 0 h w) = rd5 x2 0 (6 + a.val) 0 h.val w.val := ld_chan 6 x2 _ a 0 h w
  unfold haloHi1
  rw [pay15_apply, e0, e3, e6]
  unfold nllL
  rw [XL1_hi, XL1_hi, XL1_hi]

omit x0 x1 x2 x3 in
theorem one_add_lt (d : Fin 16) : 1 + d.val < 18 := by have := d.isLt; omega

/-- The eighteen padded slabs of the scratch hold the padded negative log-likelihood. -/
theorem pad1_apply (a : Fin 3) (s : Fin 18) (h w : Fin 32) :
    pad1 (F := Ideal) x0 x1 x2 (ix4 a s h w) = nllL (XL1 x0 x1 x2) a.val s.val h.val w.val := by
  have hlt := s.isLt
  by_cases h0 : s.val = 0
  · obtain rfl : s = ⟨0, Nat.zero_lt_succ 17⟩ := Fin.ext h0
    rw [pad1_lo, haloLo1_apply x0 x1 x2]
  · by_cases h17 : s.val = 17
    · obtain rfl : s = ⟨17, Nat.lt_succ_self 17⟩ := Fin.ext h17
      rw [pad1_hi, haloHi1_apply x0 x1 x2]
    · obtain ⟨d, rfl⟩ : ∃ d : Fin 16, s = ⟨1 + d.val, one_add_lt d⟩ :=
        ⟨⟨s.val - 1, by omega⟩, Fin.ext (by show s.val = 1 + (s.val - 1); omega)⟩
      rw [pad1_mid, pay16_eq, lsmA1_apply x0 x1 x2]
      show nllL _ a.val (d.val + 1) _ _ = nllL _ a.val (1 + d.val) _ _
      rw [Nat.add_comm]

theorem slab1_0_at (a : Fin 3) (dd : Fin 16) (h w : Fin 32) :
    slab1_0 (F := Ideal) x0 x1 x2 (ix4 a dd h w) = nllL (XL1 x0 x1 x2) a.val dd.val h.val w.val := by
  rw [slab1_0_apply, pad1_apply]
  show nllL _ a.val (0 + dd.val) _ _ = _
  rw [Nat.zero_add]

theorem slab1_1_at (a : Fin 3) (dd : Fin 16) (h w : Fin 32) :
    slab1_1 (F := Ideal) x0 x1 x2 (ix4 a dd h w) = nllL (XL1 x0 x1 x2) a.val (dd.val + 1) h.val w.val := by
  rw [slab1_1_apply, pad1_apply]
  show nllL _ a.val (1 + dd.val) _ _ = _
  rw [Nat.add_comm]

theorem slab1_2_at (a : Fin 3) (dd : Fin 16) (h w : Fin 32) :
    slab1_2 (F := Ideal) x0 x1 x2 (ix4 a dd h w) = nllL (XL1 x0 x1 x2) a.val (dd.val + 2) h.val w.val := by
  rw [slab1_2_apply, pad1_apply]
  show nllL _ a.val (2 + dd.val) _ _ = _
  rw [Nat.add_comm]

/-- The label block at an index is the tile's label map. -/
theorem x3_apply (a : Fin 3) (dd : Fin 16) (h w : Fin 32) : x3 (ix5 0 a dd h w) = PL1 x3 a.val dd.val h.val w.val :=
  (rd5_ix5 x3 0 a dd h w).symm

/-- The masked focal weight of the tile, over the four blocks. -/
def Wtile1 : FVec Ideal S3x16x32x32 .f32 :=
  k1_pay21 (F := Ideal) (lsmA1 x0) (lsmB1 x0)
    (k1_pay17 (slab1_0 x0 x1 x2) (slab1_1 x0 x1 x2) (slab1_2 x0 x1 x2))
    (k1_pay18 (slab1_0 x0 x1 x2) (slab1_1 x0 x1 x2) (slab1_2 x0 x1 x2))
    (k1_pay19 (slab1_0 x0 x1 x2) (slab1_1 x0 x1 x2) (slab1_2 x0 x1 x2))
    k1_pay20 (Scalar.ofBits .f32 0xF149F2CA#32) x3

/-- The tile's weight at an index is the specification's. -/
theorem Wtile1_apply (a : Fin 3) (dd : Fin 16) (h w : Fin 32) :
    Wtile1 x0 x1 x2 x3 (ix4 a dd h w) = wnegL 32 fillw (XL1 x0 x1 x2) (PL1 x3) a.val dd.val h.val w.val := by
  unfold Wtile1
  rw [pay21_apply (slab1_0 x0 x1 x2) (slab1_1 x0 x1 x2) (slab1_2 x0 x1 x2) a (nllL (XL1 x0 x1 x2) a.val)
      (slab1_0_at x0 x1 x2 a) (slab1_1_at x0 x1 x2 a) (slab1_2_at x0 x1 x2 a) (lsmA1 x0) (lsmB1 x0) x3 dd h w,
    lsmA1_apply x0 x1 x2, lsmB1_apply x0 x1 x2, x3_apply x3 a dd h w]
  rfl

/-- The loss block after the body holds the tile's loss, at every position. -/
theorem out1_4_at (i : Fin 8) (j : Fin 128) :
    out1_4 (F := Ideal) x0 x1 x2 x3 (ix4 0 0 i j) = tileLossL 32 fillw (XL1 x0 x1 x2) (PL1 x3) := by
  rw [out1_4_eq, pay22_apply]
  exact sum4_range (fun idx => lsmA1 (F := Ideal) x0 idx * Wtile1 x0 x1 x2 x3 idx)
    (fun a dd h w => nllL (XL1 x0 x1 x2) a (dd + 1) h w * wnegL 32 fillw (XL1 x0 x1 x2) (PL1 x3) a dd h w)
    (fun a dd h w => by rw [lsmA1_apply x0 x1 x2, Wtile1_apply])

/-- The count block after the body holds the tile's count, at every position. -/
theorem out1_5_at (i : Fin 8) (j : Fin 128) :
    out1_5 (F := Ideal) x0 x1 x2 x3 (ix4 0 0 i j) = tileCountL 32 fillw (XL1 x0 x1 x2) (PL1 x3) := by
  rw [out1_5_eq, pay23_apply]
  exact sum4_range (fun idx => Wtile1 x0 x1 x2 x3 idx)
    (fun a dd h w => wnegL 32 fillw (XL1 x0 x1 x2) (PL1 x3) a dd h w)
    (fun a dd h w => Wtile1_apply x0 x1 x2 x3 a dd h w)

/-- The loss block, with the fill named as the specification names it. -/
theorem out1_4_apply (i : Fin 8) (j : Fin 128) :
    out1_4 (F := Ideal) x0 x1 x2 x3 (ix4 0 0 i j) = tileLossL 32 Cert.Hand.Math.fill (XL1 x0 x1 x2) (PL1 x3) :=
  out1_4_at x0 x1 x2 x3 i j

/-- The count block, likewise. -/
theorem out1_5_apply (i : Fin 8) (j : Fin 128) :
    out1_5 (F := Ideal) x0 x1 x2 x3 (ix4 0 0 i j) = tileCountL 32 Cert.Hand.Math.fill (XL1 x0 x1 x2) (PL1 x3) :=
  out1_5_at x0 x1 x2 x3 i j

end Tile

end Cert.KernelIdeal.Hand.L1

end
-- ==== Proof.TileMath.lean ====
/-
  A depth tile in its own coordinates against the same tile read in the volume's coordinates.

  Tile `dt` of batch `b` owns the slabs `16 * dt … 16 * dt + 15`. Its eighteen padded slabs are the volume's slabs
  `rowOf n dt s`: at own slab `dd` (volume slab `d = 16 * dt + dd`) padded slab `dd` is slab `d - 1` (slab 0 when
  `d = 0`), padded slab `dd + 1` is slab `d`, padded slab `dd + 2` is slab `min (d + 1) (n - 1)`. So the tile's depth
  maximum is the volume's clamped depth maximum, hence so are the height and width maxima, the weights, and the two sums.
-/
import proofs.«424358_j44040594653645_2_alg».proof.Proof.Spec
import proofs.«424358_j44040594653645_2_alg».proof.Proof.SpecTile

noncomputable section

namespace Cert.Hand.TileMath

open Cert.Hand.Spec Cert.Hand.SpecTile

/-- Padded slab `dd` is the slab before own slab `dd`. -/
theorem rowOf_before (n dt dd : ℕ) (hdd : dd < 16) : rowOf n dt dd = 16 * dt + dd - 1 := by
  unfold rowOf
  split_ifs <;> omega

/-- Padded slab `dd + 1` is own slab `dd`. -/
theorem rowOf_self (n dt dd : ℕ) (hdd : dd < 16) : rowOf n dt (dd + 1) = 16 * dt + dd := by
  unfold rowOf
  rw [if_neg (by omega), if_neg (by omega)]
  omega

/-- Padded slab `dd + 2` is the slab after own slab `dd`, the last slab repeated at the volume's end. -/
theorem rowOf_after (n dt dd : ℕ) (hdt : 16 * dt + 16 ≤ n) (hdd : dd < 16) :
    rowOf n dt (dd + 2) = min (16 * dt + dd + 1) (n - 1) := by
  unfold rowOf
  rw [if_neg (by omega)]
  by_cases h : dd = 15
  · subst h
    rw [if_pos (by omega)]
  · rw [if_neg (by omega), Nat.min_eq_left (by omega)]
    omega

section Tile

variable (n : ℕ) (c : EReal) (X P : ℕ → ℕ → ℕ → ℕ → ℕ → EReal)
  (XL : ℕ → ℕ → ℕ → ℕ → ℕ → EReal) (PL : ℕ → ℕ → ℕ → ℕ → EReal) (b dt : ℕ)

/-- The volume's class-0 negative log-likelihood of anchor `a` in batch `b`, as a function of the voxel. -/
def nllV (a : ℕ) : ℕ → ℕ → ℕ → EReal :=
  fun d' h' w' => nllK (xk X 0 b a d' h' w') (xk X 1 b a d' h' w') (xk X 2 b a d' h' w')

variable (hdt : 16 * dt + 16 ≤ n)
  (hXL : ∀ k a s h w, s < 18 → XL k a s h w = X b (3 * k + a) (rowOf n dt s) h w)
  (hPL : ∀ a dd h w, dd < 16 → PL a dd h w = P b a (16 * dt + dd) h w)

include hXL in
theorem nllL_eq (a s h w : ℕ) (hs : s < 18) : nllL XL a s h w = nllV X b a (rowOf n dt s) h w := by
  unfold nllL nllV xk
  rw [hXL 0 a s h w hs, hXL 1 a s h w hs, hXL 2 a s h w hs]

include hXL in
theorem probL_eq (a s h w : ℕ) (hs : s < 18) :
    probL XL a s h w
      = probK (xk X 0 b a (rowOf n dt s) h w) (xk X 1 b a (rowOf n dt s) h w) (xk X 2 b a (rowOf n dt s) h w) := by
  unfold probL xk
  rw [hXL 0 a s h w hs, hXL 1 a s h w hs, hXL 2 a s h w hs]

include hdt hXL in
theorem dmaxL_eq (a dd h w : ℕ) (hdd : dd < 16) :
    dmaxL (nllL XL a) dd h w = dmaxK n (nllV X b a) (16 * dt + dd) h w := by
  unfold dmaxL dmaxK
  rw [nllL_eq n X XL b dt hXL a dd h w (by omega), nllL_eq n X XL b dt hXL a (dd + 1) h w (by omega),
    nllL_eq n X XL b dt hXL a (dd + 2) h w (by omega), rowOf_before n dt dd hdd, rowOf_self n dt dd hdd,
    rowOf_after n dt dd hdt hdd]

include hdt hXL in
theorem hmaxL_eq (a dd h w : ℕ) (hdd : dd < 16) :
    hmaxL n c (nllL XL a) dd h w = hmaxK n c (nllV X b a) (16 * dt + dd) h w := by
  unfold hmaxL hmaxK
  rw [dmaxL_eq n X XL b dt hdt hXL a dd (h - 1) w hdd, dmaxL_eq n X XL b dt hdt hXL a dd h w hdd,
    dmaxL_eq n X XL b dt hdt hXL a dd (h + 1) w hdd]

include hdt hXL in
theorem poolL_eq (a dd h w : ℕ) (hdd : dd < 16) :
    poolL n c (nllL XL a) dd h w = poolK n c (nllV X b a) (16 * dt + dd) h w := by
  unfold poolL poolK
  rw [hmaxL_eq n c X XL b dt hdt hXL a dd h (w - 1) hdd, hmaxL_eq n c X XL b dt hdt hXL a dd h w hdd,
    hmaxL_eq n c X XL b dt hdt hXL a dd h (w + 1) hdd]

include hdt hXL hPL in
theorem wnegL_eq (a dd h w : ℕ) (hdd : dd < 16) :
    wnegL n c XL PL a dd h w = wnegK n X P c b a (16 * dt + dd) h w := by
  unfold wnegL wnegK
  rw [probL_eq n X XL b dt hXL a (dd + 1) h w (by omega), poolL_eq n c X XL b dt hdt hXL a dd h w hdd,
    nllL_eq n X XL b dt hXL a (dd + 1) h w (by omega), rowOf_self n dt dd hdd, hPL a dd h w hdd]
  rfl

include hdt hXL hPL in
/-- The tile's loss in its own coordinates is the volume's tile loss. -/
theorem tileLossL_eq : tileLossL n c XL PL = tileLossK n X P c b dt := by
  unfold tileLossL tileLossK
  refine Finset.sum_congr rfl fun w _ => Finset.sum_congr rfl fun h _ => Finset.sum_congr rfl fun dd hdd =>
    Finset.sum_congr rfl fun a _ => ?_
  have hdd' : dd < 16 := Finset.mem_range.mp hdd
  rw [wnegL_eq n c X P XL PL b dt hdt hXL hPL a dd h w hdd', nllL_eq n X XL b dt hXL a (dd + 1) h w (by omega),
    rowOf_self n dt dd hdd']
  rfl

include hdt hXL hPL in
/-- The tile's count in its own coordinates is the volume's tile count. -/
theorem tileCountL_eq : tileCountL n c XL PL = tileCountK n X P c b dt := by
  unfold tileCountL tileCountK
  refine Finset.sum_congr rfl fun w _ => Finset.sum_congr rfl fun h _ => Finset.sum_congr rfl fun dd hdd =>
    Finset.sum_congr rfl fun a _ => ?_
  exact wnegL_eq n c X P XL PL b dt hdt hXL hPL a dd h w (Finset.mem_range.mp hdd)

end Tile

end Cert.Hand.TileMath

end
-- ==== Proof.KI.Arr0.lean ====
/-
  From the depth tiles to the two output arrays of the first pyramid level.

  The grid is four batches by four depth tiles; point `t` is tile `t % 4` of batch `t / 4`. Each input block at a point is
  the array read at the window's place: the sixteen own slabs of the logits, the one slab before (slab 0 repeated for the
  first tile), the one slab after (slab 63 repeated for the last tile), and the sixteen own slabs of the label map. So the
  tile's padded logits and labels are the volume's on the slabs `rowOf 64 dt s`. Each output block (1, 1, 8, 128) sits at
  block index (batch, tile, 0, 0); every point writes its block back and the blocks cover the output array, so the array at
  `(b, dt, i, j)` is what tile `dt` of batch `b` left at `(0, 0, i, j)`: that tile's loss (first output) and count
  (second output) in the volume's coordinates.
-/
import proofs.«424358_j44040594653645_2_alg».proof.Proof.KI.Body0
import proofs.«424358_j44040594653645_2_alg».proof.Proof.Gen.KernelIdeal.Launch
import proofs.«424358_j44040594653645_2_alg».proof.Proof.Gen.KernelIdeal.Points
import proofs.«424358_j44040594653645_2_alg».proof.Proof.SpecTile
import proofs.«424358_j44040594653645_2_alg».proof.Proof.Readers
import proofs.«424358_j44040594653645_2_alg».proof.Proof.TileMath
import proofs.«424358_j44040594653645_2_alg».proof.Proof.KI.TileDefs0
import Idealize.ShloMosaic.Lib.Pipeline.Value
import Idealize.ShloMosaic.Lib.Pipeline.FrameBody
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Hand.Spec Cert.Hand.SpecTile Cert.Hand.Readers

variable (V : (c : Dev nD) → (b : Ref sig .tc) → Buf (Elt Ideal) ((c : Thread nD τ).loc b))

/-! ## The grid's points and the printed index maps -/

/-- The printed index maps, decided over the grid: point `t` is tile `t % 4` of batch `t / 4`; the slab before is slab
    `16 * (t % 4) - 1` (slab 0 for the first tile), the slab after is slab `min (16 * (t % 4) + 16) 63`. -/
theorem idx0 : ∀ t : Fin cfg0.N,
    win0_0.index t (0 : Fin 5) = t.val / 4 ∧ win0_0.index t (1 : Fin 5) = 0 ∧ win0_0.index t (2 : Fin 5) = t.val % 4
      ∧ win0_0.index t (3 : Fin 5) = 0 ∧ win0_0.index t (4 : Fin 5) = 0
    ∧ win0_1.index t (0 : Fin 5) = t.val / 4 ∧ win0_1.index t (1 : Fin 5) = 0 ∧ win0_1.index t (2 : Fin 5) = 16 * (t.val % 4) - 1
      ∧ win0_1.index t (3 : Fin 5) = 0 ∧ win0_1.index t (4 : Fin 5) = 0
    ∧ win0_2.index t (0 : Fin 5) = t.val / 4 ∧ win0_2.index t (1 : Fin 5) = 0 ∧ win0_2.index t (2 : Fin 5) = min (16 * (t.val % 4) + 16) 63
      ∧ win0_2.index t (3 : Fin 5) = 0 ∧ win0_2.index t (4 : Fin 5) = 0
    ∧ win0_3.index t (0 : Fin 5) = t.val / 4 ∧ win0_3.index t (1 : Fin 5) = 0 ∧ win0_3.index t (2 : Fin 5) = t.val % 4
      ∧ win0_3.index t (3 : Fin 5) = 0 ∧ win0_3.index t (4 : Fin 5) = 0
    ∧ win0_4.index t (0 : Fin 4) = t.val / 4 ∧ win0_4.index t (1 : Fin 4) = t.val % 4 ∧ win0_4.index t (2 : Fin 4) = 0
      ∧ win0_4.index t (3 : Fin 4) = 0
    ∧ win0_5.index t (0 : Fin 4) = t.val / 4 ∧ win0_5.index t (1 : Fin 4) = t.val % 4 ∧ win0_5.index t (2 : Fin 4) = 0
      ∧ win0_5.index t (3 : Fin 4) = 0 :=
  (by decide +kernel : ∀ t : Fin grid0.N, _)

/-- The point of tile `dt` of batch `b`. -/
def pt0 (b dt : Fin 4) : Fin cfg0.N := ⟨4 * b.val + dt.val, by rw [show cfg0.N = 16 from N_0]; omega⟩

theorem pt0_val (b dt : Fin 4) : (pt0 b dt).val = 4 * b.val + dt.val := rfl

/-! ## Each input block is the array read at the window's place -/

/-- The own block: slabs `16 * dt … 16 * dt + 15` of batch `b`, all nine channels. -/
theorem blk0_0 (c : Dev nD) (b dt : Fin 4) (ch : Fin 9) (dd : Fin 16) (h w : Fin 64) :
    iblk0 V c 0 (pt0 b dt) (ix5 0 ch dd h w)
      = V c main_arg0 (ix5 b ch ⟨16 * dt.val + dd.val, by omega⟩ h w) := by
  show V c main_arg0 (((cfg0.win 0).blk (pt0 b dt)).view.emb (ix5 0 ch dd h w)) = V c main_arg0 _
  refine congrArg _ ?_
  obtain ⟨e0, e1, e2, e3, e4, -⟩ := idx0 (pt0 b dt)
  rw [pt0_val] at e0 e2
  funext a; apply Fin.ext
  match a with
  | ⟨0, _⟩ => show win0_0.index (pt0 b dt) (0 : Fin 5) * 1 + 1 * (0 : ℕ) = b.val; omega
  | ⟨1, _⟩ => show win0_0.index (pt0 b dt) (1 : Fin 5) * 9 + 1 * ch.val = ch.val; omega
  | ⟨2, _⟩ => show win0_0.index (pt0 b dt) (2 : Fin 5) * 16 + 1 * dd.val = 16 * dt.val + dd.val; omega
  | ⟨3, _⟩ => show win0_0.index (pt0 b dt) (3 : Fin 5) * 64 + 1 * h.val = h.val; omega
  | ⟨4, _⟩ => show win0_0.index (pt0 b dt) (4 : Fin 5) * 64 + 1 * w.val = w.val; omega

/-- The block before: the one slab `16 * dt - 1` (slab 0 for the first tile). -/
theorem blk0_1 (c : Dev nD) (b dt : Fin 4) (ch : Fin 9) (h w : Fin 64) :
    iblk0 V c 1 (pt0 b dt) (ix5 0 ch 0 h w)
      = V c main_arg0 (ix5 b ch ⟨16 * dt.val - 1, by omega⟩ h w) := by
  show V c main_arg0 (((cfg0.win 1).blk (pt0 b dt)).view.emb (ix5 0 ch 0 h w)) = V c main_arg0 _
  refine congrArg _ ?_
  obtain ⟨-, -, -, -, -, e0, e1, e2, e3, e4, -⟩ := idx0 (pt0 b dt)
  rw [pt0_val] at e0 e2
  funext a; apply Fin.ext
  match a with
  | ⟨0, _⟩ => show win0_1.index (pt0 b dt) (0 : Fin 5) * 1 + 1 * (0 : ℕ) = b.val; omega
  | ⟨1, _⟩ => show win0_1.index (pt0 b dt) (1 : Fin 5) * 9 + 1 * ch.val = ch.val; omega
  | ⟨2, _⟩ => show win0_1.index (pt0 b dt) (2 : Fin 5) * 1 + 1 * (0 : ℕ) = 16 * dt.val - 1; omega
  | ⟨3, _⟩ => show win0_1.index (pt0 b dt) (3 : Fin 5) * 64 + 1 * h.val = h.val; omega
  | ⟨4, _⟩ => show win0_1.index (pt0 b dt) (4 : Fin 5) * 64 + 1 * w.val = w.val; omega

/-- The block after: the one slab `min (16 * dt + 16) 63`. -/
theorem blk0_2 (c : Dev nD) (b dt : Fin 4) (ch : Fin 9) (h w : Fin 64) :
    iblk0 V c 2 (pt0 b dt) (ix5 0 ch 0 h w)
      = V c main_arg0 (ix5 b ch ⟨min (16 * dt.val + 16) 63, by omega⟩ h w) := by
  show V c main_arg0 (((cfg0.win 2).blk (pt0 b dt)).view.emb (ix5 0 ch 0 h w)) = V c main_arg0 _
  refine congrArg _ ?_
  obtain ⟨-, -, -, -, -, -, -, -, -, -, e0, e1, e2, e3, e4, -⟩ := idx0 (pt0 b dt)
  rw [pt0_val] at e0 e2
  funext a; apply Fin.ext
  match a with
  | ⟨0, _⟩ => show win0_2.index (pt0 b dt) (0 : Fin 5) * 1 + 1 * (0 : ℕ) = b.val; omega
  | ⟨1, _⟩ => show win0_2.index (pt0 b dt) (1 : Fin 5) * 9 + 1 * ch.val = ch.val; omega
  | ⟨2, _⟩ => show win0_2.index (pt0 b dt) (2 : Fin 5) * 1 + 1 * (0 : ℕ) = min (16 * dt.val + 16) 63; omega
  | ⟨3, _⟩ => show win0_2.index (pt0 b dt) (3 : Fin 5) * 64 + 1 * h.val = h.val; omega
  | ⟨4, _⟩ => show win0_2.index (pt0 b dt) (4 : Fin 5) * 64 + 1 * w.val = w.val; omega

/-- The label block: slabs `16 * dt … 16 * dt + 15` of batch `b`, the three anchors. -/
theorem blk0_3 (c : Dev nD) (b dt : Fin 4) (a : Fin 3) (dd : Fin 16) (h w : Fin 64) :
    iblk0 V c 3 (pt0 b dt) (ix5 0 a dd h w)
      = V c main_arg2 (ix5 b a ⟨16 * dt.val + dd.val, by omega⟩ h w) := by
  show V c main_arg2 (((cfg0.win 3).blk (pt0 b dt)).view.emb (ix5 0 a dd h w)) = V c main_arg2 _
  refine congrArg _ ?_
  obtain ⟨-, -, -, -, -, -, -, -, -, -, -, -, -, -, -, e0, e1, e2, e3, e4, -⟩ := idx0 (pt0 b dt)
  rw [pt0_val] at e0 e2
  funext x; apply Fin.ext
  match x with
  | ⟨0, _⟩ => show win0_3.index (pt0 b dt) (0 : Fin 5) * 1 + 1 * (0 : ℕ) = b.val; omega
  | ⟨1, _⟩ => show win0_3.index (pt0 b dt) (1 : Fin 5) * 3 + 1 * a.val = a.val; omega
  | ⟨2, _⟩ => show win0_3.index (pt0 b dt) (2 : Fin 5) * 16 + 1 * dd.val = 16 * dt.val + dd.val; omega
  | ⟨3, _⟩ => show win0_3.index (pt0 b dt) (3 : Fin 5) * 64 + 1 * h.val = h.val; omega
  | ⟨4, _⟩ => show win0_3.index (pt0 b dt) (4 : Fin 5) * 64 + 1 * w.val = w.val; omega

/-! ## The same at the readers -/

theorem rd5_pos {α : Type} [Zero α] {n0 n1 n2 n3 n4 : ℕ} (x : (⟨5, ![n0, n1, n2, n3, n4]⟩ : Shape).Idx → α) (i0 i1 i2 i3 i4 : ℕ)
    (h : i0 < n0 ∧ i1 < n1 ∧ i2 < n2 ∧ i3 < n3 ∧ i4 < n4) :
    rd5 x i0 i1 i2 i3 i4 = x (ix5 ⟨i0, h.1⟩ ⟨i1, h.2.1⟩ ⟨i2, h.2.2.1⟩ ⟨i3, h.2.2.2.1⟩ ⟨i4, h.2.2.2.2⟩) := by
  unfold rd5; rw [dif_pos h]

theorem rd5_neg {α : Type} [Zero α] {n0 n1 n2 n3 n4 : ℕ} (x : (⟨5, ![n0, n1, n2, n3, n4]⟩ : Shape).Idx → α) (i0 i1 i2 i3 i4 : ℕ)
    (h : ¬(i0 < n0 ∧ i1 < n1 ∧ i2 < n2 ∧ i3 < n3 ∧ i4 < n4)) : rd5 x i0 i1 i2 i3 i4 = 0 := by
  unfold rd5; rw [dif_neg h]

theorem rd_blk0_0 (c : Dev nD) (b dt : Fin 4) (ch dd h w : ℕ) (hdd : dd < 16) :
    @rd5 EReal _ 1 9 16 64 64 (iblk0 V c 0 (pt0 b dt)) 0 ch dd h w = rd5 (α := EReal) (V c main_arg0) b.val ch (16 * dt.val + dd) h w := by
  by_cases hr : ch < 9 ∧ h < 64 ∧ w < 64
  · rw [rd5_pos _ _ _ _ _ _ ⟨by omega, hr.1, hdd, hr.2.1, hr.2.2⟩, rd5_pos _ _ _ _ _ _ ⟨b.isLt, hr.1, by omega, hr.2.1, hr.2.2⟩]
    exact blk0_0 V c b dt ⟨ch, hr.1⟩ ⟨dd, hdd⟩ ⟨h, hr.2.1⟩ ⟨w, hr.2.2⟩
  · rw [rd5_neg _ _ _ _ _ _ (fun hh => hr ⟨hh.2.1, hh.2.2.2.1, hh.2.2.2.2⟩),
      rd5_neg _ _ _ _ _ _ (fun hh => hr ⟨hh.2.1, hh.2.2.2.1, hh.2.2.2.2⟩)]

theorem rd_blk0_1 (c : Dev nD) (b dt : Fin 4) (ch h w : ℕ) :
    @rd5 EReal _ 1 9 1 64 64 (iblk0 V c 1 (pt0 b dt)) 0 ch 0 h w = rd5 (α := EReal) (V c main_arg0) b.val ch (16 * dt.val - 1) h w := by
  by_cases hr : ch < 9 ∧ h < 64 ∧ w < 64
  · rw [rd5_pos _ _ _ _ _ _ ⟨by omega, hr.1, by omega, hr.2.1, hr.2.2⟩, rd5_pos _ _ _ _ _ _ ⟨b.isLt, hr.1, by omega, hr.2.1, hr.2.2⟩]
    exact blk0_1 V c b dt ⟨ch, hr.1⟩ ⟨h, hr.2.1⟩ ⟨w, hr.2.2⟩
  · rw [rd5_neg _ _ _ _ _ _ (fun hh => hr ⟨hh.2.1, hh.2.2.2.1, hh.2.2.2.2⟩),
      rd5_neg _ _ _ _ _ _ (fun hh => hr ⟨hh.2.1, hh.2.2.2.1, hh.2.2.2.2⟩)]

theorem rd_blk0_2 (c : Dev nD) (b dt : Fin 4) (ch h w : ℕ) :
    @rd5 EReal _ 1 9 1 64 64 (iblk0 V c 2 (pt0 b dt)) 0 ch 0 h w
      = rd5 (α := EReal) (V c main_arg0) b.val ch (min (16 * dt.val + 16) 63) h w := by
  by_cases hr : ch < 9 ∧ h < 64 ∧ w < 64
  · rw [rd5_pos _ _ _ _ _ _ ⟨by omega, hr.1, by omega, hr.2.1, hr.2.2⟩, rd5_pos _ _ _ _ _ _ ⟨b.isLt, hr.1, by omega, hr.2.1, hr.2.2⟩]
    exact blk0_2 V c b dt ⟨ch, hr.1⟩ ⟨h, hr.2.1⟩ ⟨w, hr.2.2⟩
  · rw [rd5_neg _ _ _ _ _ _ (fun hh => hr ⟨hh.2.1, hh.2.2.2.1, hh.2.2.2.2⟩),
      rd5_neg _ _ _ _ _ _ (fun hh => hr ⟨hh.2.1, hh.2.2.2.1, hh.2.2.2.2⟩)]

theorem rd_blk0_3 (c : Dev nD) (b dt : Fin 4) (a dd h w : ℕ) (hdd : dd < 16) :
    @rd5 EReal _ 1 3 16 64 64 (iblk0 V c 3 (pt0 b dt)) 0 a dd h w = rd5 (α := EReal) (V c main_arg2) b.val a (16 * dt.val + dd) h w := by
  by_cases hr : a < 3 ∧ h < 64 ∧ w < 64
  · rw [rd5_pos _ _ _ _ _ _ ⟨by omega, hr.1, hdd, hr.2.1, hr.2.2⟩, rd5_pos _ _ _ _ _ _ ⟨b.isLt, hr.1, by omega, hr.2.1, hr.2.2⟩]
    exact blk0_3 V c b dt ⟨a, hr.1⟩ ⟨dd, hdd⟩ ⟨h, hr.2.1⟩ ⟨w, hr.2.2⟩
  · rw [rd5_neg _ _ _ _ _ _ (fun hh => hr ⟨hh.2.1, hh.2.2.2.1, hh.2.2.2.2⟩),
      rd5_neg _ _ _ _ _ _ (fun hh => hr ⟨hh.2.1, hh.2.2.2.1, hh.2.2.2.2⟩)]

/-- The tile's padded logits are the volume's logits on the slabs `rowOf 64 dt s`. -/
theorem XL0_iblk (c : Dev nD) (b dt : Fin 4) (k a s h w : ℕ) (hs : s < 18) :
    XL0 (iblk0 V c 0 (pt0 b dt)) (iblk0 V c 1 (pt0 b dt)) (iblk0 V c 2 (pt0 b dt)) k a s h w
      = rd5 (α := EReal) (V c main_arg0) b.val (3 * k + a) (rowOf 64 dt.val s) h w := by
  unfold XL0 rowOf
  by_cases h0 : s = 0
  · rw [if_pos h0, if_pos h0]; exact rd_blk0_1 V c b dt _ h w
  · rw [if_neg h0, if_neg h0]
    by_cases h17 : s = 17
    · rw [if_pos h17, if_pos h17]; exact rd_blk0_2 V c b dt _ h w
    · rw [if_neg h17, if_neg h17, show 16 * dt.val + s - 1 = 16 * dt.val + (s - 1) by omega]
      exact rd_blk0_0 V c b dt _ (s - 1) h w (by omega)

/-- The tile's labels are the volume's labels on its own slabs. -/
theorem PL0_iblk (c : Dev nD) (b dt : Fin 4) (a dd h w : ℕ) (hdd : dd < 16) :
    PL0 (iblk0 V c 3 (pt0 b dt)) a dd h w = rd5 (α := EReal) (V c main_arg2) b.val a (16 * dt.val + dd) h w := by
  unfold PL0; exact rd_blk0_3 V c b dt a dd h w hdd

/-! ## From the tiles to the two output arrays -/

/-- What point `t` leaves in the first output's staging buffer. -/
def tile4 (c : Dev nD) (t : Fin cfg0.N) : S1x1x8x128.Idx → EReal :=
  out0_4 (iblk0 V c 0 t) (iblk0 V c 1 t) (iblk0 V c 2 t) (iblk0 V c 3 t)

/-- What point `t` leaves in the second output's staging buffer. -/
def tile5 (c : Dev nD) (t : Fin cfg0.N) : S1x1x8x128.Idx → EReal :=
  out0_5 (iblk0 V c 0 t) (iblk0 V c 1 t) (iblk0 V c 2 t) (iblk0 V c 3 t)

/-- The first output array as one function: at `(b, dt, i, j)` what tile `dt` of batch `b` leaves at `(0, 0, i, j)`. -/
def G4 (c : Dev nD) : S4x4x8x128.Idx → EReal := fun i => tile4 V c (pt0 (i 0) (i 1)) (ix4 0 0 (i 2) (i 3))

/-- The second output array likewise. -/
def G5 (c : Dev nD) : S4x4x8x128.Idx → EReal := fun i => tile5 V c (pt0 (i 0) (i 1)) (ix4 0 0 (i 2) (i 3))

/-- A point is the point of its own batch and tile. -/
theorem pt0_self (t : Fin cfg0.N) (b dt : Fin 4) (hb : b.val = t.val / 4) (hd : dt.val = t.val % 4) : pt0 b dt = t :=
  Fin.ext (by rw [pt0_val]; omega)

/-- What point `t` writes back through the first output's window is its block of `G4`. -/
theorem flushed0_4 (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  obtain ⟨-, -, -, -, -, -, -, -, -, -, -, -, -, -, -, -, -, -, -, -, e0, e1, e2, e3, -⟩ := idx0 t
  funext y
  have y0 : (y 0).val < 1 := (y 0).isLt
  have y1 : (y 1).val < 1 := (y 1).isLt
  let e : S4x4x8x128.Idx := ((cfg0.win 4).blk t).view.emb y
  have h0 : (e 0).val = win0_4.index t (0 : Fin 4) * 1 + 1 * (y 0).val := rfl
  have h1 : (e 1).val = win0_4.index t (1 : Fin 4) * 1 + 1 * (y 1).val := rfl
  have h2 : (e 2).val = win0_4.index t (2 : Fin 4) * 8 + 1 * (y 2).val := rfl
  have h3 : (e 3).val = win0_4.index t (3 : Fin 4) * 128 + 1 * (y 3).val := rfl
  have hp : pt0 (e 0) (e 1) = t := pt0_self t _ _ (by omega) (by omega)
  have hi : (ix4 (0 : Fin 1) (0 : Fin 1) (e 2) (e 3) : S1x1x8x128.Idx) = y := by
    funext a; apply Fin.ext
    match a with
    | ⟨0, _⟩ => show (0 : ℕ) = (y 0).val; omega
    | ⟨1, _⟩ => show (0 : ℕ) = (y 1).val; omega
    | ⟨2, _⟩ => show (e 2).val = (y 2).val; omega
    | ⟨3, _⟩ => show (e 3).val = (y 3).val; omega
  show tile4 V c t y = tile4 V c (pt0 (e 0) (e 1)) (ix4 0 0 (e 2) (e 3))
  rw [hp, hi]

/-- What point `t` writes back through the second output's window is its block of `G5`. -/
theorem flushed0_5 (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  obtain ⟨-, -, -, -, -, -, -, -, -, -, -, -, -, -, -, -, -, -, -, -, -, -, -, -, e0, e1, e2, e3⟩ := idx0 t
  funext y
  have y0 : (y 0).val < 1 := (y 0).isLt
  have y1 : (y 1).val < 1 := (y 1).isLt
  let e : S4x4x8x128.Idx := ((cfg0.win 5).blk t).view.emb y
  have h0 : (e 0).val = win0_5.index t (0 : Fin 4) * 1 + 1 * (y 0).val := rfl
  have h1 : (e 1).val = win0_5.index t (1 : Fin 4) * 1 + 1 * (y 1).val := rfl
  have h2 : (e 2).val = win0_5.index t (2 : Fin 4) * 8 + 1 * (y 2).val := rfl
  have h3 : (e 3).val = win0_5.index t (3 : Fin 4) * 128 + 1 * (y 3).val := rfl
  have hp : pt0 (e 0) (e 1) = t := pt0_self t _ _ (by omega) (by omega)
  have hi : (ix4 (0 : Fin 1) (0 : Fin 1) (e 2) (e 3) : S1x1x8x128.Idx) = y := by
    funext a; apply Fin.ext
    match a with
    | ⟨0, _⟩ => show (0 : ℕ) = (y 0).val; omega
    | ⟨1, _⟩ => show (0 : ℕ) = (y 1).val; omega
    | ⟨2, _⟩ => show (e 2).val = (y 2).val; omega
    | ⟨3, _⟩ => show (e 3).val = (y 3).val; omega
  show tile5 V c t y = tile5 V c (pt0 (e 0) (e 1)) (ix4 0 0 (e 2) (e 3))
  rw [hp, hi]

/-- An index of the first output array is in point `t`'s block iff each coordinate is in the block's range on its axis. -/
theorem mem_blk0_4 (t : Fin cfg0.N) (i : S4x4x8x128.Idx) :
    i ∈ ((cfg0.win 4).blk t).view.set ↔ ∀ a : Fin 4, win0_4.index t a * S1x1x8x128.size a ≤ (i a).val ∧ (i a).val < win0_4.index t a * S1x1x8x128.size a + S1x1x8x128.size a := by
  show i ∈ ((View.whole main_v0_0).slice (win0_4.rect t)).set ↔ _
  rw [View.set_slice_whole, Rect.mem_set_unit]
  exact Iff.rfl

theorem mem_blk0_5 (t : Fin cfg0.N) (i : S4x4x8x128.Idx) :
    i ∈ ((cfg0.win 5).blk t).view.set ↔ ∀ a : Fin 4, win0_5.index t a * S1x1x8x128.size a ≤ (i a).val ∧ (i a).val < win0_5.index t a * S1x1x8x128.size a + S1x1x8x128.size a := by
  show i ∈ ((View.whole main_v0_1).slice (win0_5.rect t)).set ↔ _
  rw [View.set_slice_whole, Rect.mem_set_unit]
  exact Iff.rfl

/-- Every index of the first output array is in the block of the point of its batch and tile. -/
theorem cover0_4 (i : S4x4x8x128.Idx) : ∃ t : Fin cfg0.N, (cfg0.win 4).flush t = true ∧ i ∈ ((cfg0.win 4).blk t).view.set := by
  refine ⟨pt0 (i 0) (i 1), flush0_4 _, ?_⟩
  rw [mem_blk0_4]
  obtain ⟨-, -, -, -, -, -, -, -, -, -, -, -, -, -, -, -, -, -, -, -, e0, e1, e2, e3, -⟩ := idx0 (pt0 (i 0) (i 1))
  have hv : (pt0 (i 0) (i 1)).val = 4 * (i 0).val + (i 1).val := rfl
  have i0 : (i 0).val < 4 := (i 0).isLt
  have i1 : (i 1).val < 4 := (i 1).isLt
  have i2 : (i 2).val < 8 := (i 2).isLt
  have i3 : (i 3).val < 128 := (i 3).isLt
  intro a
  match a with
  | ⟨0, _⟩ => show win0_4.index (pt0 (i 0) (i 1)) (0 : Fin 4) * 1 ≤ (i 0).val ∧ (i 0).val < win0_4.index (pt0 (i 0) (i 1)) (0 : Fin 4) * 1 + 1; omega
  | ⟨1, _⟩ => show win0_4.index (pt0 (i 0) (i 1)) (1 : Fin 4) * 1 ≤ (i 1).val ∧ (i 1).val < win0_4.index (pt0 (i 0) (i 1)) (1 : Fin 4) * 1 + 1; omega
  | ⟨2, _⟩ => show win0_4.index (pt0 (i 0) (i 1)) (2 : Fin 4) * 8 ≤ (i 2).val ∧ (i 2).val < win0_4.index (pt0 (i 0) (i 1)) (2 : Fin 4) * 8 + 8; omega
  | ⟨3, _⟩ => show win0_4.index (pt0 (i 0) (i 1)) (3 : Fin 4) * 128 ≤ (i 3).val ∧ (i 3).val < win0_4.index (pt0 (i 0) (i 1)) (3 : Fin 4) * 128 + 128; omega

theorem cover0_5 (i : S4x4x8x128.Idx) : ∃ t : Fin cfg0.N, (cfg0.win 5).flush t = true ∧ i ∈ ((cfg0.win 5).blk t).view.set := by
  refine ⟨pt0 (i 0) (i 1), flush0_5 _, ?_⟩
  rw [mem_blk0_5]
  obtain ⟨-, -, -, -, -, -, -, -, -, -, -, -, -, -, -, -, -, -, -, -, -, -, -, -, e0, e1, e2, e3⟩ := idx0 (pt0 (i 0) (i 1))
  have hv : (pt0 (i 0) (i 1)).val = 4 * (i 0).val + (i 1).val := rfl
  have i0 : (i 0).val < 4 := (i 0).isLt
  have i1 : (i 1).val < 4 := (i 1).isLt
  have i2 : (i 2).val < 8 := (i 2).isLt
  have i3 : (i 3).val < 128 := (i 3).isLt
  intro a
  match a with
  | ⟨0, _⟩ => show win0_5.index (pt0 (i 0) (i 1)) (0 : Fin 4) * 1 ≤ (i 0).val ∧ (i 0).val < win0_5.index (pt0 (i 0) (i 1)) (0 : Fin 4) * 1 + 1; omega
  | ⟨1, _⟩ => show win0_5.index (pt0 (i 0) (i 1)) (1 : Fin 4) * 1 ≤ (i 1).val ∧ (i 1).val < win0_5.index (pt0 (i 0) (i 1)) (1 : Fin 4) * 1 + 1; omega
  | ⟨2, _⟩ => show win0_5.index (pt0 (i 0) (i 1)) (2 : Fin 4) * 8 ≤ (i 2).val ∧ (i 2).val < win0_5.index (pt0 (i 0) (i 1)) (2 : Fin 4) * 8 + 8; omega
  | ⟨3, _⟩ => show win0_5.index (pt0 (i 0) (i 1)) (3 : Fin 4) * 128 ≤ (i 3).val ∧ (i 3).val < win0_5.index (pt0 (i 0) (i 1)) (3 : Fin 4) * 128 + 128; omega

/-- The first output array after the run: at `(b, dt, i, j)` what tile `dt` of batch `b` left at `(0, 0, i, j)`. -/
theorem arr0_4 (c : Dev nD) (b dt : Fin 4) (i : Fin 8) (j : Fin 128) :
    (dat0 V c).arrAt 4 cfg0.N (ix4 b dt i j)
      = out0_4 (iblk0 V c 0 (pt0 b dt)) (iblk0 V c 1 (pt0 b dt)) (iblk0 V c 2 (pt0 b dt)) (iblk0 V c 3 (pt0 b dt)) (ix4 0 0 i j) := by
  rw [(dat0 V c).arrAt_eq_of_cover 4 (G4 V c) (fun t _ => flushed0_4 V c t) cover0_4]
  rfl

/-- The second output array after the run. -/
theorem arr0_5 (c : Dev nD) (b dt : Fin 4) (i : Fin 8) (j : Fin 128) :
    (dat0 V c).arrAt 5 cfg0.N (ix4 b dt i j)
      = out0_5 (iblk0 V c 0 (pt0 b dt)) (iblk0 V c 1 (pt0 b dt)) (iblk0 V c 2 (pt0 b dt)) (iblk0 V c 3 (pt0 b dt)) (ix4 0 0 i j) := by
  rw [(dat0 V c).arrAt_eq_of_cover 5 (G5 V c) (fun t _ => flushed0_5 V c t) cover0_5]
  rfl

/-! ## The two output arrays are the tiles' sums -/

/-- The finite fill the height and width borders take. -/
abbrev fill0 : EReal := Ideal.ofBits .f32 0xF149F2CA#32

/-- The first output array holds, at every position of the block of tile `dt` of batch `b`, that tile's loss: from the
    tile's body read in its own coordinates (`hout`), the blocks read off the arrays, and the tile against the volume. -/
theorem arr0_loss_of
    (hout : ∀ (x0 : S1x9x16x64x64.Idx → EReal) (x1 x2 : S1x9x1x64x64.Idx → EReal) (x3 : S1x3x16x64x64.Idx → EReal)
      (i : Fin 8) (j : Fin 128), out0_4 (F := Ideal) x0 x1 x2 x3 (ix4 0 0 i j) = tileLossL 64 fill0 (XL0 x0 x1 x2) (PL0 x3))
    (c : Dev nD) (b dt : Fin 4) (i : Fin 8) (j : Fin 128) :
    (dat0 V c).arrAt 4 cfg0.N (ix4 b dt i j)
      = tileLossK 64 (rd5 (α := EReal) (V c main_arg0)) (rd5 (α := EReal) (V c main_arg2)) fill0 b.val dt.val := by
  rw [arr0_4, hout]
  exact Cert.Hand.TileMath.tileLossL_eq 64 fill0 (rd5 (α := EReal) (V c main_arg0)) (rd5 (α := EReal) (V c main_arg2)) _ _ b.val dt.val
    (by omega) (fun k a s h w hs => XL0_iblk V c b dt k a s h w hs) (fun a dd h w hdd => PL0_iblk V c b dt a dd h w hdd)

/-- The second output array holds, at every position of the block of tile `dt` of batch `b`, that tile's count. -/
theorem arr0_count_of
    (hout : ∀ (x0 : S1x9x16x64x64.Idx → EReal) (x1 x2 : S1x9x1x64x64.Idx → EReal) (x3 : S1x3x16x64x64.Idx → EReal)
      (i : Fin 8) (j : Fin 128), out0_5 (F := Ideal) x0 x1 x2 x3 (ix4 0 0 i j) = tileCountL 64 fill0 (XL0 x0 x1 x2) (PL0 x3))
    (c : Dev nD) (b dt : Fin 4) (i : Fin 8) (j : Fin 128) :
    (dat0 V c).arrAt 5 cfg0.N (ix4 b dt i j)
      = tileCountK 64 (rd5 (α := EReal) (V c main_arg0)) (rd5 (α := EReal) (V c main_arg2)) fill0 b.val dt.val := by
  rw [arr0_5, hout]
  exact Cert.Hand.TileMath.tileCountL_eq 64 fill0 (rd5 (α := EReal) (V c main_arg0)) (rd5 (α := EReal) (V c main_arg2)) _ _ b.val dt.val
    (by omega) (fun k a s h w hs => XL0_iblk V c b dt k a s h w hs) (fun a dd h w hdd => PL0_iblk V c b dt a dd h w hdd)

end Cert.KernelIdeal.Hand

end
-- ==== Proof.KI.Arr1.lean ====
/-
  From the depth tiles to the two output arrays of the second pyramid level.

  The grid is four batches by two depth tiles; point `t` is tile `t % 2` of batch `t / 2`. Each input block at a point is
  the array read at the window's place: the sixteen own slabs of the logits, the one slab before (slab 0 repeated for the
  first tile), the one slab after (slab 31 repeated for the last tile), and the sixteen own slabs of the label map. So the
  tile's padded logits and labels are the volume's on the slabs `rowOf 32 dt s`. Each output block (1, 1, 8, 128) sits at
  block index (batch, tile, 0, 0); every point writes its block back and the blocks cover the output array, so the array at
  `(b, dt, i, j)` is what tile `dt` of batch `b` left at `(0, 0, i, j)`: that tile's loss (first output) and count
  (second output) in the volume's coordinates.
-/
import proofs.«424358_j44040594653645_2_alg».proof.Proof.KI.Body1
import proofs.«424358_j44040594653645_2_alg».proof.Proof.KI.Arr0
import proofs.«424358_j44040594653645_2_alg».proof.Proof.Gen.KernelIdeal.Launch
import proofs.«424358_j44040594653645_2_alg».proof.Proof.Gen.KernelIdeal.Points
import proofs.«424358_j44040594653645_2_alg».proof.Proof.SpecTile
import proofs.«424358_j44040594653645_2_alg».proof.Proof.Readers
import proofs.«424358_j44040594653645_2_alg».proof.Proof.TileMath
import proofs.«424358_j44040594653645_2_alg».proof.Proof.KI.TileDefs1
import Idealize.ShloMosaic.Lib.Pipeline.Value
import Idealize.ShloMosaic.Lib.Pipeline.FrameBody
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Hand.Spec Cert.Hand.SpecTile Cert.Hand.Readers

variable (V : (c : Dev nD) → (b : Ref sig .tc) → Buf (Elt Ideal) ((c : Thread nD τ).loc b))

/-! ## The grid's points and the printed index maps -/

/-- The printed index maps, decided over the grid: point `t` is tile `t % 2` of batch `t / 2`; the slab before is slab
    `16 * (t % 2) - 1` (slab 0 for the first tile), the slab after is slab `min (16 * (t % 2) + 16) 31`. -/
theorem idx1 : ∀ t : Fin cfg1.N,
    win1_0.index t (0 : Fin 5) = t.val / 2 ∧ win1_0.index t (1 : Fin 5) = 0 ∧ win1_0.index t (2 : Fin 5) = t.val % 2
      ∧ win1_0.index t (3 : Fin 5) = 0 ∧ win1_0.index t (4 : Fin 5) = 0
    ∧ win1_1.index t (0 : Fin 5) = t.val / 2 ∧ win1_1.index t (1 : Fin 5) = 0 ∧ win1_1.index t (2 : Fin 5) = 16 * (t.val % 2) - 1
      ∧ win1_1.index t (3 : Fin 5) = 0 ∧ win1_1.index t (4 : Fin 5) = 0
    ∧ win1_2.index t (0 : Fin 5) = t.val / 2 ∧ win1_2.index t (1 : Fin 5) = 0 ∧ win1_2.index t (2 : Fin 5) = min (16 * (t.val % 2) + 16) 31
      ∧ win1_2.index t (3 : Fin 5) = 0 ∧ win1_2.index t (4 : Fin 5) = 0
    ∧ win1_3.index t (0 : Fin 5) = t.val / 2 ∧ win1_3.index t (1 : Fin 5) = 0 ∧ win1_3.index t (2 : Fin 5) = t.val % 2
      ∧ win1_3.index t (3 : Fin 5) = 0 ∧ win1_3.index t (4 : Fin 5) = 0
    ∧ win1_4.index t (0 : Fin 4) = t.val / 2 ∧ win1_4.index t (1 : Fin 4) = t.val % 2 ∧ win1_4.index t (2 : Fin 4) = 0
      ∧ win1_4.index t (3 : Fin 4) = 0
    ∧ win1_5.index t (0 : Fin 4) = t.val / 2 ∧ win1_5.index t (1 : Fin 4) = t.val % 2 ∧ win1_5.index t (2 : Fin 4) = 0
      ∧ win1_5.index t (3 : Fin 4) = 0 :=
  (by decide +kernel : ∀ t : Fin grid1.N, _)

/-- The point of tile `dt` of batch `b`. -/
def pt1 (b : Fin 4) (dt : Fin 2) : Fin cfg1.N := ⟨2 * b.val + dt.val, by rw [show cfg1.N = 8 from N_1]; omega⟩

theorem pt1_val (b : Fin 4) (dt : Fin 2) : (pt1 b dt).val = 2 * b.val + dt.val := rfl

/-! ## Each input block is the array read at the window's place -/

/-- The own block: slabs `16 * dt … 16 * dt + 15` of batch `b`, all nine channels. -/
theorem blk1_0 (c : Dev nD) (b : Fin 4) (dt : Fin 2) (ch : Fin 9) (dd : Fin 16) (h w : Fin 32) :
    iblk1 V c 0 (pt1 b dt) (ix5 0 ch dd h w)
      = V c main_arg1 (ix5 b ch ⟨16 * dt.val + dd.val, by omega⟩ h w) := by
  show V c main_arg1 (((cfg1.win 0).blk (pt1 b dt)).view.emb (ix5 0 ch dd h w)) = V c main_arg1 _
  refine congrArg _ ?_
  obtain ⟨e0, e1, e2, e3, e4, -⟩ := idx1 (pt1 b dt)
  rw [pt1_val] at e0 e2
  funext a; apply Fin.ext
  match a with
  | ⟨0, _⟩ => show win1_0.index (pt1 b dt) (0 : Fin 5) * 1 + 1 * (0 : ℕ) = b.val; omega
  | ⟨1, _⟩ => show win1_0.index (pt1 b dt) (1 : Fin 5) * 9 + 1 * ch.val = ch.val; omega
  | ⟨2, _⟩ => show win1_0.index (pt1 b dt) (2 : Fin 5) * 16 + 1 * dd.val = 16 * dt.val + dd.val; omega
  | ⟨3, _⟩ => show win1_0.index (pt1 b dt) (3 : Fin 5) * 32 + 1 * h.val = h.val; omega
  | ⟨4, _⟩ => show win1_0.index (pt1 b dt) (4 : Fin 5) * 32 + 1 * w.val = w.val; omega

/-- The block before: the one slab `16 * dt - 1` (slab 0 for the first tile). -/
theorem blk1_1 (c : Dev nD) (b : Fin 4) (dt : Fin 2) (ch : Fin 9) (h w : Fin 32) :
    iblk1 V c 1 (pt1 b dt) (ix5 0 ch 0 h w)
      = V c main_arg1 (ix5 b ch ⟨16 * dt.val - 1, by omega⟩ h w) := by
  show V c main_arg1 (((cfg1.win 1).blk (pt1 b dt)).view.emb (ix5 0 ch 0 h w)) = V c main_arg1 _
  refine congrArg _ ?_
  obtain ⟨-, -, -, -, -, e0, e1, e2, e3, e4, -⟩ := idx1 (pt1 b dt)
  rw [pt1_val] at e0 e2
  funext a; apply Fin.ext
  match a with
  | ⟨0, _⟩ => show win1_1.index (pt1 b dt) (0 : Fin 5) * 1 + 1 * (0 : ℕ) = b.val; omega
  | ⟨1, _⟩ => show win1_1.index (pt1 b dt) (1 : Fin 5) * 9 + 1 * ch.val = ch.val; omega
  | ⟨2, _⟩ => show win1_1.index (pt1 b dt) (2 : Fin 5) * 1 + 1 * (0 : ℕ) = 16 * dt.val - 1; omega
  | ⟨3, _⟩ => show win1_1.index (pt1 b dt) (3 : Fin 5) * 32 + 1 * h.val = h.val; omega
  | ⟨4, _⟩ => show win1_1.index (pt1 b dt) (4 : Fin 5) * 32 + 1 * w.val = w.val; omega

/-- The block after: the one slab `min (16 * dt + 16) 31`. -/
theorem blk1_2 (c : Dev nD) (b : Fin 4) (dt : Fin 2) (ch : Fin 9) (h w : Fin 32) :
    iblk1 V c 2 (pt1 b dt) (ix5 0 ch 0 h w)
      = V c main_arg1 (ix5 b ch ⟨min (16 * dt.val + 16) 31, by omega⟩ h w) := by
  show V c main_arg1 (((cfg1.win 2).blk (pt1 b dt)).view.emb (ix5 0 ch 0 h w)) = V c main_arg1 _
  refine congrArg _ ?_
  obtain ⟨-, -, -, -, -, -, -, -, -, -, e0, e1, e2, e3, e4, -⟩ := idx1 (pt1 b dt)
  rw [pt1_val] at e0 e2
  funext a; apply Fin.ext
  match a with
  | ⟨0, _⟩ => show win1_2.index (pt1 b dt) (0 : Fin 5) * 1 + 1 * (0 : ℕ) = b.val; omega
  | ⟨1, _⟩ => show win1_2.index (pt1 b dt) (1 : Fin 5) * 9 + 1 * ch.val = ch.val; omega
  | ⟨2, _⟩ => show win1_2.index (pt1 b dt) (2 : Fin 5) * 1 + 1 * (0 : ℕ) = min (16 * dt.val + 16) 31; omega
  | ⟨3, _⟩ => show win1_2.index (pt1 b dt) (3 : Fin 5) * 32 + 1 * h.val = h.val; omega
  | ⟨4, _⟩ => show win1_2.index (pt1 b dt) (4 : Fin 5) * 32 + 1 * w.val = w.val; omega

/-- The label block: slabs `16 * dt … 16 * dt + 15` of batch `b`, the three anchors. -/
theorem blk1_3 (c : Dev nD) (b : Fin 4) (dt : Fin 2) (a : Fin 3) (dd : Fin 16) (h w : Fin 32) :
    iblk1 V c 3 (pt1 b dt) (ix5 0 a dd h w)
      = V c main_arg3 (ix5 b a ⟨16 * dt.val + dd.val, by omega⟩ h w) := by
  show V c main_arg3 (((cfg1.win 3).blk (pt1 b dt)).view.emb (ix5 0 a dd h w)) = V c main_arg3 _
  refine congrArg _ ?_
  obtain ⟨-, -, -, -, -, -, -, -, -, -, -, -, -, -, -, e0, e1, e2, e3, e4, -⟩ := idx1 (pt1 b dt)
  rw [pt1_val] at e0 e2
  funext x; apply Fin.ext
  match x with
  | ⟨0, _⟩ => show win1_3.index (pt1 b dt) (0 : Fin 5) * 1 + 1 * (0 : ℕ) = b.val; omega
  | ⟨1, _⟩ => show win1_3.index (pt1 b dt) (1 : Fin 5) * 3 + 1 * a.val = a.val; omega
  | ⟨2, _⟩ => show win1_3.index (pt1 b dt) (2 : Fin 5) * 16 + 1 * dd.val = 16 * dt.val + dd.val; omega
  | ⟨3, _⟩ => show win1_3.index (pt1 b dt) (3 : Fin 5) * 32 + 1 * h.val = h.val; omega
  | ⟨4, _⟩ => show win1_3.index (pt1 b dt) (4 : Fin 5) * 32 + 1 * w.val = w.val; omega

/-! ## The same at the readers -/

theorem rd_blk1_0 (c : Dev nD) (b : Fin 4) (dt : Fin 2) (ch dd h w : ℕ) (hdd : dd < 16) :
    @rd5 EReal _ 1 9 16 32 32 (iblk1 V c 0 (pt1 b dt)) 0 ch dd h w = rd5 (α := EReal) (V c main_arg1) b.val ch (16 * dt.val + dd) h w := by
  by_cases hr : ch < 9 ∧ h < 32 ∧ w < 32
  · rw [rd5_pos _ _ _ _ _ _ ⟨by omega, hr.1, hdd, hr.2.1, hr.2.2⟩, rd5_pos _ _ _ _ _ _ ⟨b.isLt, hr.1, by omega, hr.2.1, hr.2.2⟩]
    exact blk1_0 V c b dt ⟨ch, hr.1⟩ ⟨dd, hdd⟩ ⟨h, hr.2.1⟩ ⟨w, hr.2.2⟩
  · rw [rd5_neg _ _ _ _ _ _ (fun hh => hr ⟨hh.2.1, hh.2.2.2.1, hh.2.2.2.2⟩),
      rd5_neg _ _ _ _ _ _ (fun hh => hr ⟨hh.2.1, hh.2.2.2.1, hh.2.2.2.2⟩)]

theorem rd_blk1_1 (c : Dev nD) (b : Fin 4) (dt : Fin 2) (ch h w : ℕ) :
    @rd5 EReal _ 1 9 1 32 32 (iblk1 V c 1 (pt1 b dt)) 0 ch 0 h w = rd5 (α := EReal) (V c main_arg1) b.val ch (16 * dt.val - 1) h w := by
  by_cases hr : ch < 9 ∧ h < 32 ∧ w < 32
  · rw [rd5_pos _ _ _ _ _ _ ⟨by omega, hr.1, by omega, hr.2.1, hr.2.2⟩, rd5_pos _ _ _ _ _ _ ⟨b.isLt, hr.1, by omega, hr.2.1, hr.2.2⟩]
    exact blk1_1 V c b dt ⟨ch, hr.1⟩ ⟨h, hr.2.1⟩ ⟨w, hr.2.2⟩
  · rw [rd5_neg _ _ _ _ _ _ (fun hh => hr ⟨hh.2.1, hh.2.2.2.1, hh.2.2.2.2⟩),
      rd5_neg _ _ _ _ _ _ (fun hh => hr ⟨hh.2.1, hh.2.2.2.1, hh.2.2.2.2⟩)]

theorem rd_blk1_2 (c : Dev nD) (b : Fin 4) (dt : Fin 2) (ch h w : ℕ) :
    @rd5 EReal _ 1 9 1 32 32 (iblk1 V c 2 (pt1 b dt)) 0 ch 0 h w
      = rd5 (α := EReal) (V c main_arg1) b.val ch (min (16 * dt.val + 16) 31) h w := by
  by_cases hr : ch < 9 ∧ h < 32 ∧ w < 32
  · rw [rd5_pos _ _ _ _ _ _ ⟨by omega, hr.1, by omega, hr.2.1, hr.2.2⟩, rd5_pos _ _ _ _ _ _ ⟨b.isLt, hr.1, by omega, hr.2.1, hr.2.2⟩]
    exact blk1_2 V c b dt ⟨ch, hr.1⟩ ⟨h, hr.2.1⟩ ⟨w, hr.2.2⟩
  · rw [rd5_neg _ _ _ _ _ _ (fun hh => hr ⟨hh.2.1, hh.2.2.2.1, hh.2.2.2.2⟩),
      rd5_neg _ _ _ _ _ _ (fun hh => hr ⟨hh.2.1, hh.2.2.2.1, hh.2.2.2.2⟩)]

theorem rd_blk1_3 (c : Dev nD) (b : Fin 4) (dt : Fin 2) (a dd h w : ℕ) (hdd : dd < 16) :
    @rd5 EReal _ 1 3 16 32 32 (iblk1 V c 3 (pt1 b dt)) 0 a dd h w = rd5 (α := EReal) (V c main_arg3) b.val a (16 * dt.val + dd) h w := by
  by_cases hr : a < 3 ∧ h < 32 ∧ w < 32
  · rw [rd5_pos _ _ _ _ _ _ ⟨by omega, hr.1, hdd, hr.2.1, hr.2.2⟩, rd5_pos _ _ _ _ _ _ ⟨b.isLt, hr.1, by omega, hr.2.1, hr.2.2⟩]
    exact blk1_3 V c b dt ⟨a, hr.1⟩ ⟨dd, hdd⟩ ⟨h, hr.2.1⟩ ⟨w, hr.2.2⟩
  · rw [rd5_neg _ _ _ _ _ _ (fun hh => hr ⟨hh.2.1, hh.2.2.2.1, hh.2.2.2.2⟩),
      rd5_neg _ _ _ _ _ _ (fun hh => hr ⟨hh.2.1, hh.2.2.2.1, hh.2.2.2.2⟩)]

/-- The tile's padded logits are the volume's logits on the slabs `rowOf 32 dt s`. -/
theorem XL1_iblk (c : Dev nD) (b : Fin 4) (dt : Fin 2) (k a s h w : ℕ) (hs : s < 18) :
    XL1 (iblk1 V c 0 (pt1 b dt)) (iblk1 V c 1 (pt1 b dt)) (iblk1 V c 2 (pt1 b dt)) k a s h w
      = rd5 (α := EReal) (V c main_arg1) b.val (3 * k + a) (rowOf 32 dt.val s) h w := by
  unfold XL1 rowOf
  by_cases h0 : s = 0
  · rw [if_pos h0, if_pos h0]; exact rd_blk1_1 V c b dt _ h w
  · rw [if_neg h0, if_neg h0]
    by_cases h17 : s = 17
    · rw [if_pos h17, if_pos h17]; exact rd_blk1_2 V c b dt _ h w
    · rw [if_neg h17, if_neg h17, show 16 * dt.val + s - 1 = 16 * dt.val + (s - 1) by omega]
      exact rd_blk1_0 V c b dt _ (s - 1) h w (by omega)

/-- The tile's labels are the volume's labels on its own slabs. -/
theorem PL1_iblk (c : Dev nD) (b : Fin 4) (dt : Fin 2) (a dd h w : ℕ) (hdd : dd < 16) :
    PL1 (iblk1 V c 3 (pt1 b dt)) a dd h w = rd5 (α := EReal) (V c main_arg3) b.val a (16 * dt.val + dd) h w := by
  unfold PL1; exact rd_blk1_3 V c b dt a dd h w hdd

/-! ## From the tiles to the two output arrays -/

/-- What point `t` leaves in the first output's staging buffer. -/
def tile1_4 (c : Dev nD) (t : Fin cfg1.N) : S1x1x8x128.Idx → EReal :=
  out1_4 (iblk1 V c 0 t) (iblk1 V c 1 t) (iblk1 V c 2 t) (iblk1 V c 3 t)

/-- What point `t` leaves in the second output's staging buffer. -/
def tile1_5 (c : Dev nD) (t : Fin cfg1.N) : S1x1x8x128.Idx → EReal :=
  out1_5 (iblk1 V c 0 t) (iblk1 V c 1 t) (iblk1 V c 2 t) (iblk1 V c 3 t)

/-- The first output array as one function: at `(b, dt, i, j)` what tile `dt` of batch `b` leaves at `(0, 0, i, j)`. -/
def G1_4 (c : Dev nD) : S4x2x8x128.Idx → EReal := fun i => tile1_4 V c (pt1 (i 0) (i 1)) (ix4 0 0 (i 2) (i 3))

/-- The second output array likewise. -/
def G1_5 (c : Dev nD) : S4x2x8x128.Idx → EReal := fun i => tile1_5 V c (pt1 (i 0) (i 1)) (ix4 0 0 (i 2) (i 3))

/-- A point is the point of its own batch and tile. -/
theorem pt1_self (t : Fin cfg1.N) (b : Fin 4) (dt : Fin 2) (hb : b.val = t.val / 2) (hd : dt.val = t.val % 2) : pt1 b dt = t :=
  Fin.ext (by rw [pt1_val]; omega)

/-- What point `t` writes back through the first output's window is its block of `G1_4`. -/
theorem flushed1_4 (c : Dev nD) (t : Fin cfg1.N) :
    (dat1 V c).flushed 4 t = ((cfg1.win 4).blk t).view.read (Elt Ideal) (G1_4 V c) := by
  show (cfg1.win 4).cut (grid1.coords t) ((dat1 V c).after 4 t) = _
  rw [after1_4]
  obtain ⟨-, -, -, -, -, -, -, -, -, -, -, -, -, -, -, -, -, -, -, -, e0, e1, e2, e3, -⟩ := idx1 t
  funext y
  have y0 : (y 0).val < 1 := (y 0).isLt
  have y1 : (y 1).val < 1 := (y 1).isLt
  let e : S4x2x8x128.Idx := ((cfg1.win 4).blk t).view.emb y
  have h0 : (e 0).val = win1_4.index t (0 : Fin 4) * 1 + 1 * (y 0).val := rfl
  have h1 : (e 1).val = win1_4.index t (1 : Fin 4) * 1 + 1 * (y 1).val := rfl
  have h2 : (e 2).val = win1_4.index t (2 : Fin 4) * 8 + 1 * (y 2).val := rfl
  have h3 : (e 3).val = win1_4.index t (3 : Fin 4) * 128 + 1 * (y 3).val := rfl
  have hp : pt1 (e 0) (e 1) = t := pt1_self t _ _ (by omega) (by omega)
  have hi : (ix4 (0 : Fin 1) (0 : Fin 1) (e 2) (e 3) : S1x1x8x128.Idx) = y := by
    funext a; apply Fin.ext
    match a with
    | ⟨0, _⟩ => show (0 : ℕ) = (y 0).val; omega
    | ⟨1, _⟩ => show (0 : ℕ) = (y 1).val; omega
    | ⟨2, _⟩ => show (e 2).val = (y 2).val; omega
    | ⟨3, _⟩ => show (e 3).val = (y 3).val; omega
  show tile1_4 V c t y = tile1_4 V c (pt1 (e 0) (e 1)) (ix4 0 0 (e 2) (e 3))
  rw [hp, hi]

/-- What point `t` writes back through the second output's window is its block of `G1_5`. -/
theorem flushed1_5 (c : Dev nD) (t : Fin cfg1.N) :
    (dat1 V c).flushed 5 t = ((cfg1.win 5).blk t).view.read (Elt Ideal) (G1_5 V c) := by
  show (cfg1.win 5).cut (grid1.coords t) ((dat1 V c).after 5 t) = _
  rw [after1_5]
  obtain ⟨-, -, -, -, -, -, -, -, -, -, -, -, -, -, -, -, -, -, -, -, -, -, -, -, e0, e1, e2, e3⟩ := idx1 t
  funext y
  have y0 : (y 0).val < 1 := (y 0).isLt
  have y1 : (y 1).val < 1 := (y 1).isLt
  let e : S4x2x8x128.Idx := ((cfg1.win 5).blk t).view.emb y
  have h0 : (e 0).val = win1_5.index t (0 : Fin 4) * 1 + 1 * (y 0).val := rfl
  have h1 : (e 1).val = win1_5.index t (1 : Fin 4) * 1 + 1 * (y 1).val := rfl
  have h2 : (e 2).val = win1_5.index t (2 : Fin 4) * 8 + 1 * (y 2).val := rfl
  have h3 : (e 3).val = win1_5.index t (3 : Fin 4) * 128 + 1 * (y 3).val := rfl
  have hp : pt1 (e 0) (e 1) = t := pt1_self t _ _ (by omega) (by omega)
  have hi : (ix4 (0 : Fin 1) (0 : Fin 1) (e 2) (e 3) : S1x1x8x128.Idx) = y := by
    funext a; apply Fin.ext
    match a with
    | ⟨0, _⟩ => show (0 : ℕ) = (y 0).val; omega
    | ⟨1, _⟩ => show (0 : ℕ) = (y 1).val; omega
    | ⟨2, _⟩ => show (e 2).val = (y 2).val; omega
    | ⟨3, _⟩ => show (e 3).val = (y 3).val; omega
  show tile1_5 V c t y = tile1_5 V c (pt1 (e 0) (e 1)) (ix4 0 0 (e 2) (e 3))
  rw [hp, hi]

/-- An index of the first output array is in point `t`'s block iff each coordinate is in the block's range on its axis. -/
theorem mem_blk1_4 (t : Fin cfg1.N) (i : S4x2x8x128.Idx) :
    i ∈ ((cfg1.win 4).blk t).view.set ↔ ∀ a : Fin 4, win1_4.index t a * S1x1x8x128.size a ≤ (i a).val ∧ (i a).val < win1_4.index t a * S1x1x8x128.size a + S1x1x8x128.size a := by
  show i ∈ ((View.whole main_v7_0).slice (win1_4.rect t)).set ↔ _
  rw [View.set_slice_whole, Rect.mem_set_unit]
  exact Iff.rfl

theorem mem_blk1_5 (t : Fin cfg1.N) (i : S4x2x8x128.Idx) :
    i ∈ ((cfg1.win 5).blk t).view.set ↔ ∀ a : Fin 4, win1_5.index t a * S1x1x8x128.size a ≤ (i a).val ∧ (i a).val < win1_5.index t a * S1x1x8x128.size a + S1x1x8x128.size a := by
  show i ∈ ((View.whole main_v7_1).slice (win1_5.rect t)).set ↔ _
  rw [View.set_slice_whole, Rect.mem_set_unit]
  exact Iff.rfl

/-- Every index of the first output array is in the block of the point of its batch and tile. -/
theorem cover1_4 (i : S4x2x8x128.Idx) : ∃ t : Fin cfg1.N, (cfg1.win 4).flush t = true ∧ i ∈ ((cfg1.win 4).blk t).view.set := by
  refine ⟨pt1 (i 0) (i 1), flush1_4 _, ?_⟩
  rw [mem_blk1_4]
  obtain ⟨-, -, -, -, -, -, -, -, -, -, -, -, -, -, -, -, -, -, -, -, e0, e1, e2, e3, -⟩ := idx1 (pt1 (i 0) (i 1))
  have hv : (pt1 (i 0) (i 1)).val = 2 * (i 0).val + (i 1).val := rfl
  have i0 : (i 0).val < 4 := (i 0).isLt
  have i1 : (i 1).val < 2 := (i 1).isLt
  have i2 : (i 2).val < 8 := (i 2).isLt
  have i3 : (i 3).val < 128 := (i 3).isLt
  intro a
  match a with
  | ⟨0, _⟩ => show win1_4.index (pt1 (i 0) (i 1)) (0 : Fin 4) * 1 ≤ (i 0).val ∧ (i 0).val < win1_4.index (pt1 (i 0) (i 1)) (0 : Fin 4) * 1 + 1; omega
  | ⟨1, _⟩ => show win1_4.index (pt1 (i 0) (i 1)) (1 : Fin 4) * 1 ≤ (i 1).val ∧ (i 1).val < win1_4.index (pt1 (i 0) (i 1)) (1 : Fin 4) * 1 + 1; omega
  | ⟨2, _⟩ => show win1_4.index (pt1 (i 0) (i 1)) (2 : Fin 4) * 8 ≤ (i 2).val ∧ (i 2).val < win1_4.index (pt1 (i 0) (i 1)) (2 : Fin 4) * 8 + 8; omega
  | ⟨3, _⟩ => show win1_4.index (pt1 (i 0) (i 1)) (3 : Fin 4) * 128 ≤ (i 3).val ∧ (i 3).val < win1_4.index (pt1 (i 0) (i 1)) (3 : Fin 4) * 128 + 128; omega

theorem cover1_5 (i : S4x2x8x128.Idx) : ∃ t : Fin cfg1.N, (cfg1.win 5).flush t = true ∧ i ∈ ((cfg1.win 5).blk t).view.set := by
  refine ⟨pt1 (i 0) (i 1), flush1_5 _, ?_⟩
  rw [mem_blk1_5]
  obtain ⟨-, -, -, -, -, -, -, -, -, -, -, -, -, -, -, -, -, -, -, -, -, -, -, -, e0, e1, e2, e3⟩ := idx1 (pt1 (i 0) (i 1))
  have hv : (pt1 (i 0) (i 1)).val = 2 * (i 0).val + (i 1).val := rfl
  have i0 : (i 0).val < 4 := (i 0).isLt
  have i1 : (i 1).val < 2 := (i 1).isLt
  have i2 : (i 2).val < 8 := (i 2).isLt
  have i3 : (i 3).val < 128 := (i 3).isLt
  intro a
  match a with
  | ⟨0, _⟩ => show win1_5.index (pt1 (i 0) (i 1)) (0 : Fin 4) * 1 ≤ (i 0).val ∧ (i 0).val < win1_5.index (pt1 (i 0) (i 1)) (0 : Fin 4) * 1 + 1; omega
  | ⟨1, _⟩ => show win1_5.index (pt1 (i 0) (i 1)) (1 : Fin 4) * 1 ≤ (i 1).val ∧ (i 1).val < win1_5.index (pt1 (i 0) (i 1)) (1 : Fin 4) * 1 + 1; omega
  | ⟨2, _⟩ => show win1_5.index (pt1 (i 0) (i 1)) (2 : Fin 4) * 8 ≤ (i 2).val ∧ (i 2).val < win1_5.index (pt1 (i 0) (i 1)) (2 : Fin 4) * 8 + 8; omega
  | ⟨3, _⟩ => show win1_5.index (pt1 (i 0) (i 1)) (3 : Fin 4) * 128 ≤ (i 3).val ∧ (i 3).val < win1_5.index (pt1 (i 0) (i 1)) (3 : Fin 4) * 128 + 128; omega

/-- The first output array after the run: at `(b, dt, i, j)` what tile `dt` of batch `b` left at `(0, 0, i, j)`. -/
theorem arr1_4 (c : Dev nD) (b : Fin 4) (dt : Fin 2) (i : Fin 8) (j : Fin 128) :
    (dat1 V c).arrAt 4 cfg1.N (ix4 b dt i j)
      = out1_4 (iblk1 V c 0 (pt1 b dt)) (iblk1 V c 1 (pt1 b dt)) (iblk1 V c 2 (pt1 b dt)) (iblk1 V c 3 (pt1 b dt)) (ix4 0 0 i j) := by
  rw [(dat1 V c).arrAt_eq_of_cover 4 (G1_4 V c) (fun t _ => flushed1_4 V c t) cover1_4]
  rfl

/-- The second output array after the run. -/
theorem arr1_5 (c : Dev nD) (b : Fin 4) (dt : Fin 2) (i : Fin 8) (j : Fin 128) :
    (dat1 V c).arrAt 5 cfg1.N (ix4 b dt i j)
      = out1_5 (iblk1 V c 0 (pt1 b dt)) (iblk1 V c 1 (pt1 b dt)) (iblk1 V c 2 (pt1 b dt)) (iblk1 V c 3 (pt1 b dt)) (ix4 0 0 i j) := by
  rw [(dat1 V c).arrAt_eq_of_cover 5 (G1_5 V c) (fun t _ => flushed1_5 V c t) cover1_5]
  rfl

/-! ## The two output arrays are the tiles' sums -/

/-- The first output array holds, at every position of the block of tile `dt` of batch `b`, that tile's loss: from the
    tile's body read in its own coordinates (`hout`), the blocks read off the arrays, and the tile against the volume. -/
theorem arr1_loss_of
    (hout : ∀ (x0 : S1x9x16x32x32.Idx → EReal) (x1 x2 : S1x9x1x32x32.Idx → EReal) (x3 : S1x3x16x32x32.Idx → EReal)
      (i : Fin 8) (j : Fin 128), out1_4 (F := Ideal) x0 x1 x2 x3 (ix4 0 0 i j) = tileLossL 32 fill0 (XL1 x0 x1 x2) (PL1 x3))
    (c : Dev nD) (b : Fin 4) (dt : Fin 2) (i : Fin 8) (j : Fin 128) :
    (dat1 V c).arrAt 4 cfg1.N (ix4 b dt i j)
      = tileLossK 32 (rd5 (α := EReal) (V c main_arg1)) (rd5 (α := EReal) (V c main_arg3)) fill0 b.val dt.val := by
  rw [arr1_4, hout]
  exact Cert.Hand.TileMath.tileLossL_eq 32 fill0 (rd5 (α := EReal) (V c main_arg1)) (rd5 (α := EReal) (V c main_arg3)) _ _ b.val dt.val
    (by omega) (fun k a s h w hs => XL1_iblk V c b dt k a s h w hs) (fun a dd h w hdd => PL1_iblk V c b dt a dd h w hdd)

/-- The second output array holds, at every position of the block of tile `dt` of batch `b`, that tile's count. -/
theorem arr1_count_of
    (hout : ∀ (x0 : S1x9x16x32x32.Idx → EReal) (x1 x2 : S1x9x1x32x32.Idx → EReal) (x3 : S1x3x16x32x32.Idx → EReal)
      (i : Fin 8) (j : Fin 128), out1_5 (F := Ideal) x0 x1 x2 x3 (ix4 0 0 i j) = tileCountL 32 fill0 (XL1 x0 x1 x2) (PL1 x3))
    (c : Dev nD) (b : Fin 4) (dt : Fin 2) (i : Fin 8) (j : Fin 128) :
    (dat1 V c).arrAt 5 cfg1.N (ix4 b dt i j)
      = tileCountK 32 (rd5 (α := EReal) (V c main_arg1)) (rd5 (α := EReal) (V c main_arg3)) fill0 b.val dt.val := by
  rw [arr1_5, hout]
  exact Cert.Hand.TileMath.tileCountL_eq 32 fill0 (rd5 (α := EReal) (V c main_arg1)) (rd5 (α := EReal) (V c main_arg3)) _ _ b.val dt.val
    (by omega) (fun k a s h w hs => XL1_iblk V c b dt k a s h w hs) (fun a dd h w hdd => PL1_iblk V c b dt a dd h w hdd)

end Cert.KernelIdeal.Hand

end
-- ==== Proof.KI.ArrFinal.lean ====
/-
  The two output arrays of each pyramid level hold the depth tiles' sums.

  At every position of the block of tile `dt` of batch `b`, the first output array of a level holds that tile's loss and the
  second its count, in the volume's coordinates: the tile's body read in its own coordinates, joined to the blocks read off
  the arrays and to the tile against the volume.
-/
import proofs.«424358_j44040594653645_2_alg».proof.Proof.Math
import proofs.«424358_j44040594653645_2_alg».proof.Proof.KI.Tile0
import proofs.«424358_j44040594653645_2_alg».proof.Proof.KI.Tile1
import proofs.«424358_j44040594653645_2_alg».proof.Proof.KI.Arr0
import proofs.«424358_j44040594653645_2_alg».proof.Proof.KI.Arr1

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Hand.Spec Cert.Hand.SpecTile Cert.Hand.Readers

/-! ## The first level (extent 64, four tiles a batch) -/

section Level0

variable (V : (c : Dev nD) → (b : Ref sig .tc) → Buf (Elt Ideal) ((c : Thread nD τ).loc b))

/-- The first level's loss array at `(b, dt, i, j)` is the loss of tile `dt` of batch `b`. -/
theorem arr0_loss (c : Dev nD) (b dt : Fin 4) (i : Fin 8) (j : Fin 128) :
    (dat0 V c).arrAt 4 cfg0.N (ix4 b dt i j)
      = tileLossK 64 (rd5 (α := EReal) (V c main_arg0)) (rd5 (α := EReal) (V c main_arg2)) Cert.Hand.Math.fill b.val dt.val :=
  arr0_loss_of V (fun x0 x1 x2 x3 i j => out0_4_at x0 x1 x2 x3 i j) c b dt i j

/-- The first level's count array at `(b, dt, i, j)` is the count of tile `dt` of batch `b`. -/
theorem arr0_count (c : Dev nD) (b dt : Fin 4) (i : Fin 8) (j : Fin 128) :
    (dat0 V c).arrAt 5 cfg0.N (ix4 b dt i j)
      = tileCountK 64 (rd5 (α := EReal) (V c main_arg0)) (rd5 (α := EReal) (V c main_arg2)) Cert.Hand.Math.fill b.val dt.val :=
  arr0_count_of V (fun x0 x1 x2 x3 i j => out0_5_at x0 x1 x2 x3 i j) c b dt i j

end Level0

/-! ## The second level (extent 32, two tiles a batch) -/

section Level1

variable (V : (c : Dev nD) → (b : Ref sig .tc) → Buf (Elt Ideal) ((c : Thread nD τ).loc b))

/-- The second level's loss array at `(b, dt, i, j)` is the loss of tile `dt` of batch `b`. -/
theorem arr1_loss (c : Dev nD) (b : Fin 4) (dt : Fin 2) (i : Fin 8) (j : Fin 128) :
    (dat1 V c).arrAt 4 cfg1.N (ix4 b dt i j)
      = tileLossK 32 (rd5 (α := EReal) (V c main_arg1)) (rd5 (α := EReal) (V c main_arg3)) Cert.Hand.Math.fill b.val dt.val :=
  arr1_loss_of V (fun x0 x1 x2 x3 i j => L1.out1_4_at x0 x1 x2 x3 i j) c b dt i j

/-- The second level's count array at `(b, dt, i, j)` is the count of tile `dt` of batch `b`. -/
theorem arr1_count (c : Dev nD) (b : Fin 4) (dt : Fin 2) (i : Fin 8) (j : Fin 128) :
    (dat1 V c).arrAt 5 cfg1.N (ix4 b dt i j)
      = tileCountK 32 (rd5 (α := EReal) (V c main_arg1)) (rd5 (α := EReal) (V c main_arg3)) Cert.Hand.Math.fill b.val dt.val :=
  arr1_count_of V (fun x0 x1 x2 x3 i j => L1.out1_5_at x0 x1 x2 x3 i j) c b dt i j

end Level1

end Cert.KernelIdeal.Hand

end
-- ==== Proof.KI.Writes.lean ====
import proofs.«424358_j44040594653645_2_alg».proof.Proof.Gen.KernelIdeal.Launch
import Idealize.ShloMosaic.Lib.StableHlo.Run
import Idealize.ShloMosaic.Lib.StableHlo.RunLoop
import Idealize.ShloMosaic.Lib.Pipeline.Frame

set_option maxRecDepth 4272
set_option maxHeartbeats 4000000

noncomputable section

/-
  Which buffers each host stretch after the second kernel call writes, and the consequence used downstream: a buffer that
  none of a run of stretches writes holds, after the run, what it held before it.
-/

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The references `hostOps2`'s operations write. -/
abbrev hostOps2_W : List (Ref sig .tc) := [main_v8, main_v9, main_cst_1, main_v10, main_v11, main_v12, main_cst_2, main_v13, main_v14, main_v15, main_c, main_v16, main_v17, main_v18, main_c_3]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_1`'s operations write. -/
abbrev hostOps2_1_W : List (Ref sig .tc) := [main_call0_v0, main_call0_v1, main_call0_v2, main_v19]
theorem hostOps2_1_writes : (hostOps2_1 : List (HloOp τ sig (Elt F))).Forall fun op => op.writes ⊆ (hostOps2_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_2`'s operations write. -/
abbrev hostOps2_2_W : List (Ref sig .tc) := [main_v20, main_v21, main_v22, main_v23, main_v24, main_v25, main_v26, main_v27, main_v28, main_v29, main_c_4, main_v30, main_v31, main_c_5, main_v32, main_v33, main_v34, main_c_6, main_v35, main_v36, main_c_7, main_v37, main_v38, main_v39, main_c_8, main_v40, main_v41, main_c_9, main_v42, main_v43, main_v44, main_c_10, main_v45, main_v46, main_c_11, main_v47, main_v48, main_v49, main_c_12, main_v50, main_v51, main_c_13, main_v52, main_v53, main_v54, main_v55, main_v56, main_v57, main_v58, main_v59, main_v60, main_v61, main_v62, main_v63, main_c_14]
theorem hostOps2_2_writes : (hostOps2_2 : List (HloOp τ sig (Elt F))).Forall fun op => op.writes ⊆ (hostOps2_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_3`'s operations write. -/
abbrev hostOps2_3_W : List (Ref sig .tc) := [main_call1_v0, main_call1_v1, main_v64]
theorem hostOps2_3_writes : (hostOps2_3 : List (HloOp τ sig (Elt F))).Forall fun op => op.writes ⊆ (hostOps2_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_4`'s operations write. -/
abbrev hostOps2_4_W : List (Ref sig .tc) := [main_c_15, main_v65, main_v66, main_c_16, main_v67, main_v68, main_c_17, main_v69, main_v70, main_v71, main_c_18, main_v72, main_v73, main_c_19, main_v74, main_v75, main_v76, main_c_20, main_v77, main_v78, main_c_21, main_v79, main_v80, main_v81, main_c_22, main_v82, main_v83, main_c_23, main_v84, main_v85, main_v86, main_c_24, main_v87, main_v88, main_c_25, main_v89, main_v90, main_v91, main_v92, main_v93, main_v94, main_v95, main_v96, main_v97, main_v98, main_v99, main_c_26, main_v100, main_v101, main_c_27, main_v102, main_v103, main_c_28, main_v104, main_v105, main_v106, main_c_29, main_v107, main_v108, main_c_30, main_v109, main_v110, main_v111, main_c_31, main_v112, main_v113, main_c_32, main_v114, main_v115, main_v116, main_c_33, main_v117, main_v118, main_c_34, main_v119, main_v120, main_v121, main_c_35, main_v122, main_v123, main_c_36, main_v124, main_v125, main_v126, main_v127, main_v128, main_v129, main_v130, main_v131, main_v132, main_v133, main_v134, main_c_37, main_v135, main_v136, main_c_38, main_v137, main_v138, main_c_39, main_v139, main_v140, main_v141, main_c_40, main_v142, main_v143, main_c_41, main_v144, main_v145, main_v146, main_c_42, main_v147, main_v148, main_c_43, main_v149, main_v150, main_v151, main_c_44, main_v152, main_v153, main_c_45, main_v154, main_v155, main_v156, main_c_46, main_v157, main_v158, main_c_47, main_v159, main_v160, main_v161, main_v162, main_v163, main_v164, main_v165, main_v166, main_v167, main_v168, main_v169, main_v170, main_v171, main_v172, main_v173]
theorem hostOps2_4_writes : (hostOps2_4 : List (HloOp τ sig (Elt F))).Forall fun op => op.writes ⊆ (hostOps2_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_5`'s operations write. -/
abbrev hostOps2_5_W : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v174]
theorem hostOps2_5_writes : (hostOps2_5 : List (HloOp τ sig (Elt F))).Forall fun op => op.writes ⊆ (hostOps2_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_6`'s operations write. -/
abbrev hostOps2_6_W : List (Ref sig .tc) := [main_v175, main_v176]
theorem hostOps2_6_writes : (hostOps2_6 : List (HloOp τ sig (Elt F))).Forall fun op => op.writes ⊆ (hostOps2_6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_7`'s operations write. -/
abbrev hostOps2_7_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v177]
theorem hostOps2_7_writes : (hostOps2_7 : List (HloOp τ sig (Elt F))).Forall fun op => op.writes ⊆ (hostOps2_7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_8`'s operations write. -/
abbrev hostOps2_8_W : List (Ref sig .tc) := [main_v178, main_v179]
theorem hostOps2_8_writes : (hostOps2_8 : List (HloOp τ sig (Elt F))).Forall fun op => op.writes ⊆ (hostOps2_8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_9`'s operations write. -/
abbrev hostOps2_9_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v180]
theorem hostOps2_9_writes : (hostOps2_9 : List (HloOp τ sig (Elt F))).Forall fun op => op.writes ⊆ (hostOps2_9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_10`'s operations write. -/
abbrev hostOps2_10_W : List (Ref sig .tc) := [main_v181, main_v182, main_cst_48, main_v183, main_v184, main_v185, main_c_49, main_v186, main_v187, main_c_50, main_v188, main_v189, main_v190, main_v191, main_v192, main_v193, main_v194, main_v195, main_v196, main_cst_51, main_v197, main_cst_52, main_v198, main_v199, main_v200, main_c_53, main_v201, main_v202, main_v203, main_c_54]
theorem hostOps2_10_writes : (hostOps2_10 : List (HloOp τ sig (Elt F))).Forall fun op => op.writes ⊆ (hostOps2_10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_11`'s operations write. -/
abbrev hostOps2_11_W : List (Ref sig .tc) := [main_call5_v0, main_call5_v1, main_call5_v2, main_v204]
theorem hostOps2_11_writes : (hostOps2_11 : List (HloOp τ sig (Elt F))).Forall fun op => op.writes ⊆ (hostOps2_11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_12`'s operations write. -/
abbrev hostOps2_12_W : List (Ref sig .tc) := [main_v205, main_v206, main_v207, main_v208, main_v209, main_v210, main_v211, main_v212, main_v213, main_v214, main_c_55, main_v215, main_v216, main_c_56, main_v217, main_v218, main_v219, main_c_57, main_v220, main_v221, main_c_58, main_v222, main_v223, main_v224, main_c_59, main_v225, main_v226, main_c_60, main_v227, main_v228, main_v229, main_c_61, main_v230, main_v231, main_c_62, main_v232, main_v233, main_v234, main_c_63, main_v235, main_v236, main_c_64, main_v237, main_v238, main_v239, main_v240, main_v241, main_v242, main_v243, main_v244, main_v245, main_v246, main_v247, main_v248, main_c_65]
theorem hostOps2_12_writes : (hostOps2_12 : List (HloOp τ sig (Elt F))).Forall fun op => op.writes ⊆ (hostOps2_12_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_13`'s operations write. -/
abbrev hostOps2_13_W : List (Ref sig .tc) := [main_call6_v0, main_call6_v1, main_v249]
theorem hostOps2_13_writes : (hostOps2_13 : List (HloOp τ sig (Elt F))).Forall fun op => op.writes ⊆ (hostOps2_13_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_14`'s operations write. -/
abbrev hostOps2_14_W : List (Ref sig .tc) := [main_c_66, main_v250, main_v251, main_c_67, main_v252, main_v253, main_c_68, main_v254, main_v255, main_v256, main_c_69, main_v257, main_v258, main_c_70, main_v259, main_v260, main_v261, main_c_71, main_v262, main_v263, main_c_72, main_v264, main_v265, main_v266, main_c_73, main_v267, main_v268, main_c_74, main_v269, main_v270, main_v271, main_c_75, main_v272, main_v273, main_c_76, main_v274, main_v275, main_v276, main_v277, main_v278, main_v279, main_v280, main_v281, main_v282, main_v283, main_v284, main_c_77, main_v285, main_v286, main_c_78, main_v287, main_v288, main_c_79, main_v289, main_v290, main_v291, main_c_80, main_v292, main_v293, main_c_81, main_v294, main_v295, main_v296, main_c_82, main_v297, main_v298, main_c_83, main_v299, main_v300, main_v301, main_c_84, main_v302, main_v303, main_c_85, main_v304, main_v305, main_v306, main_c_86, main_v307, main_v308, main_c_87, main_v309, main_v310, main_v311, main_v312, main_v313, main_v314, main_v315, main_v316, main_v317, main_v318, main_v319, main_c_88, main_v320, main_v321, main_c_89, main_v322, main_v323, main_c_90, main_v324, main_v325, main_v326, main_c_91, main_v327, main_v328, main_c_92, main_v329, main_v330, main_v331, main_c_93, main_v332, main_v333, main_c_94, main_v334, main_v335, main_v336, main_c_95, main_v337, main_v338, main_c_96, main_v339, main_v340, main_v341, main_c_97, main_v342, main_v343, main_c_98, main_v344, main_v345, main_v346, main_v347, main_v348, main_v349, main_v350, main_v351, main_v352, main_v353, main_v354, main_v355, main_v356, main_v357, main_v358]
theorem hostOps2_14_writes : (hostOps2_14 : List (HloOp τ sig (Elt F))).Forall fun op => op.writes ⊆ (hostOps2_14_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_15`'s operations write. -/
abbrev hostOps2_15_W : List (Ref sig .tc) := [main_call7_cst, main_call7_v0, main_call7_cst_0, main_call7_v1, main_call7_v2, main_call7_v3, main_call7_v4, main_call7_v5, main_call7_v6, main_call7_cst_1, main_call7_v7, main_call7_v8, main_call7_v9, main_call7_v10, main_v359]
theorem hostOps2_15_writes : (hostOps2_15 : List (HloOp τ sig (Elt F))).Forall fun op => op.writes ⊆ (hostOps2_15_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_16`'s operations write. -/
abbrev hostOps2_16_W : List (Ref sig .tc) := [main_v360, main_v361]
theorem hostOps2_16_writes : (hostOps2_16 : List (HloOp τ sig (Elt F))).Forall fun op => op.writes ⊆ (hostOps2_16_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_17`'s operations write. -/
abbrev hostOps2_17_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v362]
theorem hostOps2_17_writes : (hostOps2_17 : List (HloOp τ sig (Elt F))).Forall fun op => op.writes ⊆ (hostOps2_17_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_18`'s operations write. -/
abbrev hostOps2_18_W : List (Ref sig .tc) := [main_v363, main_v364]
theorem hostOps2_18_writes : (hostOps2_18 : List (HloOp τ sig (Elt F))).Forall fun op => op.writes ⊆ (hostOps2_18_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_19`'s operations write. -/
abbrev hostOps2_19_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_cst, main_call9_v14, main_v365]
theorem hostOps2_19_writes : (hostOps2_19 : List (HloOp τ sig (Elt F))).Forall fun op => op.writes ⊆ (hostOps2_19_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `hostOps2_20`'s operations write. -/
abbrev hostOps2_20_W : List (Ref sig .tc) := [main_v366, main_v367, main_cst_99, main_v368, main_v369, main_v370, main_c_100, main_v371, main_v372, main_c_101, main_v373, main_v374, main_v375, main_v376, main_v377, main_v378, main_v379, main_v380, main_v381, main_cst_102, main_v382, main_cst_103, main_v383, main_v384, main_v385, main_v386, main_v387, main_v388, main_v389, main_v390, main_v391, main_v392]
theorem hostOps2_20_writes : (hostOps2_20 : List (HloOp τ sig (Elt F))).Forall fun op => op.writes ⊆ (hostOps2_20_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## Runs of stretches -/

/-- Every operation of the stretch writes only references of the list. -/
def WritesIn (ops : List (HloOp τ sig (Elt F))) (W : List (Ref sig .tc)) : Prop :=
  ops.Forall fun op => op.writes ⊆ (W.map (Proc.devRef (τ := τ) .tc)).toFinset

/-- A reference on none of the stretches' lists keeps its contents over the run. -/
theorem afterL_keep {items : List (List (HloOp τ sig (Elt F)))} {Ws : List (List (Ref sig .tc))}
    (h : List.Forall₂ WritesIn items Ws) (r : Ref sig .tc) (hr : ∀ W ∈ Ws, r ∉ W) (V : Valuation τ sig (Elt F)) :
    StableHlo.afterL items V (Proc.devRef .tc r) = V (Proc.devRef .tc r) := by
  induction h generalizing V with
  | nil => rfl
  | @cons ops W items Ws h₁ _ ih =>
    rw [StableHlo.afterL_cons, ih (fun W' hW' => hr W' (List.mem_cons_of_mem _ hW'))]
    exact StableHlo.after_of_writes_sub ops V h₁ (hr W List.mem_cons_self)

/-- Two runs one after the other. -/
theorem afterL_append : ∀ (l₁ l₂ : List (List (HloOp τ sig (Elt F)))) (V : Valuation τ sig (Elt F)),
    StableHlo.afterL (l₁ ++ l₂) V = StableHlo.afterL l₂ (StableHlo.afterL l₁ V)
  | [], _, _ => rfl
  | ops :: l₁, l₂, V => by rw [List.cons_append, StableHlo.afterL_cons, StableHlo.afterL_cons, afterL_append l₁ l₂]

/-- The host stretches after the second kernel call, in order. -/
abbrev tailStretches : List (List (HloOp τ sig (Elt F))) :=
  [hostOps2, hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20]

/-- Their written references, in the same order. -/
abbrev tailWs : List (List (Ref sig .tc)) :=
  [hostOps2_W, hostOps2_1_W, hostOps2_2_W, hostOps2_3_W, hostOps2_4_W, hostOps2_5_W, hostOps2_6_W, hostOps2_7_W, hostOps2_8_W, hostOps2_9_W, hostOps2_10_W, hostOps2_11_W, hostOps2_12_W, hostOps2_13_W, hostOps2_14_W, hostOps2_15_W, hostOps2_16_W, hostOps2_17_W, hostOps2_18_W, hostOps2_19_W, hostOps2_20_W]

theorem tailStretches_writes : List.Forall₂ WritesIn (tailStretches : List (List (HloOp τ sig (Elt F)))) tailWs :=
  .cons hostOps2_writes (.cons hostOps2_1_writes (.cons hostOps2_2_writes (.cons hostOps2_3_writes (.cons hostOps2_4_writes (.cons hostOps2_5_writes (.cons hostOps2_6_writes (.cons hostOps2_7_writes (.cons hostOps2_8_writes (.cons hostOps2_9_writes (.cons hostOps2_10_writes (.cons hostOps2_11_writes (.cons hostOps2_12_writes (.cons hostOps2_13_writes (.cons hostOps2_14_writes (.cons hostOps2_15_writes (.cons hostOps2_16_writes (.cons hostOps2_17_writes (.cons hostOps2_18_writes (.cons hostOps2_19_writes (.cons hostOps2_20_writes (.nil)))))))))))))))))))))

end Cert.KernelIdeal.Hand

end
-- ==== Proof.KI.Value.lean ====
import proofs.«424358_j44040594653645_2_alg».proof.Proof.Gen.KernelIdeal.Launch
import proofs.«424358_j44040594653645_2_alg».proof.Proof.Spec
import proofs.«424358_j44040594653645_2_alg».proof.Proof.Readers
import proofs.«424358_j44040594653645_2_alg».proof.Proof.KI.HostNeg
import proofs.«424358_j44040594653645_2_alg».proof.Proof.KI.Writes
import Idealize.ShloMosaic.Lib.StableHlo.Run
import Idealize.ShloMosaic.Lib.StableHlo.RunLoop
import Idealize.ShloMosaic.Lib.Pipeline.Frame
import Idealize.ShloMosaic.Lib.Pipeline.Value
import Idealize.ShloMosaic.Lib.ValueIdx
import Idealize.ShloMosaic.PureOps.Ideal.Laws

set_option maxRecDepth 4272

noncomputable section

/-
  The assembly of the kernel program's value. The program ends by adding the two levels' sums pairwise (positive loss,
  negative loss, positive count, negative count), spreading each of the four scalars to a vector of one element and joining
  the four vectors. Position i of the result is therefore the i-th pair's sum; with each of the eight scalars equal to the
  specification's corresponding sum, the result is the specification's four results. The eight scalars are written once
  each (level 0's negative sums before the second kernel call, level 1's in the first stretch after it, level 0's positive
  sums in the eleventh, level 1's in the last), and no later operation writes them again.
-/

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx
open scoped BigOperators

variable {F : FTy → Type} [FloatOps F]

/-! ## The program's last nine operations -/

/-- The two levels' sums added pairwise, and each of the four sums spread to a vector of one element. -/
abbrev tailAdds : List (HloOp τ sig (Elt F)) :=
  [ StableHlo.binary main_v197 main_v382 main_v384 (addf : (⟨S_, .f32⟩ : BufTy).Contents (Elt F) → (⟨S_, .f32⟩ : BufTy).Contents (Elt F) → (⟨S_, .f32⟩ : BufTy).Contents (Elt F)),
    StableHlo.binary main_v3 main_v10 main_v385 (addf : (⟨S_, .f32⟩ : BufTy).Contents (Elt F) → (⟨S_, .f32⟩ : BufTy).Contents (Elt F) → (⟨S_, .f32⟩ : BufTy).Contents (Elt F)),
    StableHlo.binary main_v198 main_v383 main_v386 (addf : (⟨S_, .f32⟩ : BufTy).Contents (Elt F) → (⟨S_, .f32⟩ : BufTy).Contents (Elt F) → (⟨S_, .f32⟩ : BufTy).Contents (Elt F)),
    StableHlo.binary main_v6 main_v13 main_v387 (addf : (⟨S_, .f32⟩ : BufTy).Contents (Elt F) → (⟨S_, .f32⟩ : BufTy).Contents (Elt F) → (⟨S_, .f32⟩ : BufTy).Contents (Elt F)),
    StableHlo.unary main_v384 main_v388 (broadcastInDim S1 ![] bcast_S_S1 : (⟨S_, .f32⟩ : BufTy).Contents (Elt F) → (⟨S1, .f32⟩ : BufTy).Contents (Elt F)),
    StableHlo.unary main_v385 main_v389 (broadcastInDim S1 ![] bcast_S_S1 : (⟨S_, .f32⟩ : BufTy).Contents (Elt F) → (⟨S1, .f32⟩ : BufTy).Contents (Elt F)),
    StableHlo.unary main_v386 main_v390 (broadcastInDim S1 ![] bcast_S_S1 : (⟨S_, .f32⟩ : BufTy).Contents (Elt F) → (⟨S1, .f32⟩ : BufTy).Contents (Elt F)),
    StableHlo.unary main_v387 main_v391 (broadcastInDim S1 ![] bcast_S_S1 : (⟨S_, .f32⟩ : BufTy).Contents (Elt F) → (⟨S1, .f32⟩ : BufTy).Contents (Elt F)) ]

/-- The four vectors joined, in the order positive loss, negative loss, positive count, negative count. -/
abbrev tailJoin : HloOp τ sig (Elt F) :=
  StableHlo.nary ![main_v388, main_v389, main_v390, main_v391] main_v392 (fun u => concatenate S4 0 [⟨S1, u 0⟩, ⟨S1, u 1⟩, ⟨S1, u 2⟩, ⟨S1, u 3⟩] concatenates_S1_S1_S1_S1_S4_d0)

/-- They are the last stretch's tail. -/
theorem hostOps2_20_split : (hostOps2_20 : List (HloOp τ sig (Elt F))) = List.take 23 hostOps2_20 ++ (tailAdds ++ [tailJoin]) := rfl

/-- The join's result: the four one-element vectors side by side. -/
theorem tailJoin_result (R : Valuation τ sig (Elt F)) :
    (tailJoin (F := F)).result R (Proc.devRef .tc main_v392)
      = concatenate S4 0 [⟨S1, R (Proc.devRef .tc main_v388)⟩, ⟨S1, R (Proc.devRef .tc main_v389)⟩, ⟨S1, R (Proc.devRef .tc main_v390)⟩, ⟨S1, R (Proc.devRef .tc main_v391)⟩]
          concatenates_S1_S1_S1_S1_S4_d0 := by
  show (StableHlo.nary ![main_v388, main_v389, main_v390, main_v391] main_v392 _).result R (Proc.devRef .tc main_v392) = _
  rw [nary4_result]
  rfl

/-- A scalar spread to a vector of one element reads that scalar. -/
theorem bcast1_apply (x : S_.Idx → EReal) (i : S1.Idx) : broadcastInDim S1 ![] bcast_S_S1 x i = x ix0 :=
  broadcastInDim_apply ![] bcast_S_S1 x i ix0 (fun a => a.elim0)

/-- Four one-element vectors joined: position `i` reads the `i`-th vector's element. -/
theorem concat4_apply (x0 x1 x2 x3 : S1.Idx → EReal) (i : Fin 4) :
    concatenate S4 0 [⟨S1, x0⟩, ⟨S1, x1⟩, ⟨S1, x2⟩, ⟨S1, x3⟩] concatenates_S1_S1_S1_S1_S4_d0 (ix1 i)
      = (![x0, x1, x2, x3] i) (ix1 0) := by
  have hi : ∀ (j : S4.Idx) (b : Fin S1.rank), b.cast (rfl : S1.rank = S4.rank) ≠ (0 : Fin S4.rank) →
      ((ix1 (0 : Fin 1) : S1.Idx) b).val = (j (b.cast rfl)).val :=
    fun j b hb => (hb (Fin.ext (by have hb1 : b.val < 1 := b.isLt; show b.val = 0; omega))).elim
  match i with
  | 0 => exact concatenate_apply_piece (t := S4) 0 [⟨S1, x0⟩, ⟨S1, x1⟩, ⟨S1, x2⟩, ⟨S1, x3⟩] concatenates_S1_S1_S1_S1_S4_d0 (ix1 0) 0 (by show (0 : ℕ) < 4; omega) S1 x0 rfl rfl 0 rfl (ix1 0) (hi _) rfl
  | 1 => exact concatenate_apply_piece (t := S4) 0 [⟨S1, x0⟩, ⟨S1, x1⟩, ⟨S1, x2⟩, ⟨S1, x3⟩] concatenates_S1_S1_S1_S1_S4_d0 (ix1 1) 1 (by show (1 : ℕ) < 4; omega) S1 x1 rfl rfl 1 rfl (ix1 0) (hi _) rfl
  | 2 => exact concatenate_apply_piece (t := S4) 0 [⟨S1, x0⟩, ⟨S1, x1⟩, ⟨S1, x2⟩, ⟨S1, x3⟩] concatenates_S1_S1_S1_S1_S4_d0 (ix1 2) 2 (by show (2 : ℕ) < 4; omega) S1 x2 rfl rfl 2 rfl (ix1 0) (hi _) rfl
  | 3 => exact concatenate_apply_piece (t := S4) 0 [⟨S1, x0⟩, ⟨S1, x1⟩, ⟨S1, x2⟩, ⟨S1, x3⟩] concatenates_S1_S1_S1_S1_S4_d0 (ix1 3) 3 (by show (3 : ℕ) < 4; omega) S1 x3 rfl rfl 3 rfl (ix1 0) (hi _) rfl

theorem tailAdds_v388 (V : Valuation τ sig (Elt Ideal)) (x y : EReal)
    (hx : V (Proc.devRef .tc main_v197) = fun _ => x) (hy : V (Proc.devRef .tc main_v382) = fun _ => y) :
    StableHlo.after (tailAdds (F := Ideal)) V (Proc.devRef .tc main_v388) = fun _ => x + y := by
  show StableHlo.after tailAdds _ (Proc.devRef .tc main_v388) = _
  after_results
  rw [hx, hy]
  funext i
  rw [bcast1_apply]
  rfl

theorem tailAdds_v389 (V : Valuation τ sig (Elt Ideal)) (x y : EReal)
    (hx : V (Proc.devRef .tc main_v3) = fun _ => x) (hy : V (Proc.devRef .tc main_v10) = fun _ => y) :
    StableHlo.after (tailAdds (F := Ideal)) V (Proc.devRef .tc main_v389) = fun _ => x + y := by
  show StableHlo.after tailAdds _ (Proc.devRef .tc main_v389) = _
  after_results
  rw [hx, hy]
  funext i
  rw [bcast1_apply]
  rfl

theorem tailAdds_v390 (V : Valuation τ sig (Elt Ideal)) (x y : EReal)
    (hx : V (Proc.devRef .tc main_v198) = fun _ => x) (hy : V (Proc.devRef .tc main_v383) = fun _ => y) :
    StableHlo.after (tailAdds (F := Ideal)) V (Proc.devRef .tc main_v390) = fun _ => x + y := by
  show StableHlo.after tailAdds _ (Proc.devRef .tc main_v390) = _
  after_results
  rw [hx, hy]
  funext i
  rw [bcast1_apply]
  rfl

theorem tailAdds_v391 (V : Valuation τ sig (Elt Ideal)) (x y : EReal)
    (hx : V (Proc.devRef .tc main_v6) = fun _ => x) (hy : V (Proc.devRef .tc main_v13) = fun _ => y) :
    StableHlo.after (tailAdds (F := Ideal)) V (Proc.devRef .tc main_v391) = fun _ => x + y := by
  show StableHlo.after tailAdds _ (Proc.devRef .tc main_v391) = _
  after_results
  rw [hx, hy]
  funext i
  rw [bcast1_apply]
  rfl

/-- The last nine operations' result from the eight scalars they read. -/
theorem tail_v392 (V : Valuation τ sig (Elt Ideal)) (p0 p1 n0 n1 cp0 cp1 cn0 cn1 : EReal)
    (h197 : V (Proc.devRef .tc main_v197) = fun _ => p0) (h382 : V (Proc.devRef .tc main_v382) = fun _ => p1)
    (h3 : V (Proc.devRef .tc main_v3) = fun _ => n0) (h10 : V (Proc.devRef .tc main_v10) = fun _ => n1)
    (h198 : V (Proc.devRef .tc main_v198) = fun _ => cp0) (h383 : V (Proc.devRef .tc main_v383) = fun _ => cp1)
    (h6 : V (Proc.devRef .tc main_v6) = fun _ => cn0) (h13 : V (Proc.devRef .tc main_v13) = fun _ => cn1) :
    (StableHlo.after (tailAdds (F := Ideal) ++ [tailJoin]) V (Proc.devRef .tc main_v392) : S4.Idx → EReal)
      = fun j => ![p0 + p1, n0 + n1, cp0 + cp1, cn0 + cn1] (j 0) := by
  rw [StableHlo.after_append]
  show (tailJoin (F := Ideal)).result (StableHlo.after tailAdds V) (Proc.devRef .tc main_v392) = _
  rw [tailJoin_result, tailAdds_v388 V p0 p1 h197 h382, tailAdds_v389 V n0 n1 h3 h10, tailAdds_v390 V cp0 cp1 h198 h383,
    tailAdds_v391 V cn0 cn1 h6 h13]
  funext j
  obtain ⟨i, rfl⟩ : ∃ i : Fin 4, j = ix1 i := ⟨j 0, eq_ix1 j⟩
  show _ = ![p0 + p1, n0 + n1, cp0 + cp1, cn0 + cn1] i
  rw [concat4_apply]
  match i with
  | 0 => rfl
  | 1 => rfl
  | 2 => rfl
  | 3 => rfl

/-- None of the last nine operations writes a buffer outside `main_v384 … main_v392`. -/
theorem tail_keep (V : Valuation τ sig (Elt F)) (r : Ref sig .tc)
    (hr : r ∉ ([main_v384, main_v385, main_v386, main_v387, main_v388, main_v389, main_v390, main_v391, main_v392] : List (Ref sig .tc))) :
    StableHlo.after (tailAdds (F := F) ++ [tailJoin]) V (Proc.devRef .tc r) = V (Proc.devRef .tc r) := by
  refine StableHlo.after_of_writes_sub (W := [main_v384, main_v385, main_v386, main_v387, main_v388, main_v389, main_v390, main_v391, main_v392]) _ V ?_ hr
  simp only [List.cons_append, List.nil_append, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The last stretch's result from the eight scalars its tail reads, each taken AFTER the stretch (the tail writes none of
    them, so they are what the tail read). -/
theorem hostOps2_20_v392 (V : Valuation τ sig (Elt Ideal)) (p0 p1 n0 n1 cp0 cp1 cn0 cn1 : EReal)
    (h197 : StableHlo.after (hostOps2_20 (F := Ideal)) V (Proc.devRef .tc main_v197) = fun _ => p0)
    (h382 : StableHlo.after (hostOps2_20 (F := Ideal)) V (Proc.devRef .tc main_v382) = fun _ => p1)
    (h3 : StableHlo.after (hostOps2_20 (F := Ideal)) V (Proc.devRef .tc main_v3) = fun _ => n0)
    (h10 : StableHlo.after (hostOps2_20 (F := Ideal)) V (Proc.devRef .tc main_v10) = fun _ => n1)
    (h198 : StableHlo.after (hostOps2_20 (F := Ideal)) V (Proc.devRef .tc main_v198) = fun _ => cp0)
    (h383 : StableHlo.after (hostOps2_20 (F := Ideal)) V (Proc.devRef .tc main_v383) = fun _ => cp1)
    (h6 : StableHlo.after (hostOps2_20 (F := Ideal)) V (Proc.devRef .tc main_v6) = fun _ => cn0)
    (h13 : StableHlo.after (hostOps2_20 (F := Ideal)) V (Proc.devRef .tc main_v13) = fun _ => cn1) :
    (StableHlo.after (hostOps2_20 (F := Ideal)) V (Proc.devRef .tc main_v392) : S4.Idx → EReal)
      = fun j => ![p0 + p1, n0 + n1, cp0 + cp1, cn0 + cn1] (j 0) := by
  rw [hostOps2_20_split, StableHlo.after_append] at h197 h382 h3 h10 h198 h383 h6 h13 ⊢
  rw [tail_keep _ _ (by decide)] at h197 h382 h3 h10 h198 h383 h6 h13
  exact tail_v392 _ p0 p1 n0 n1 cp0 cp1 cn0 cn1 h197 h382 h3 h10 h198 h383 h6 h13

/-! ## The whole run after the second kernel call -/

/-- The run is its first twenty stretches and then the last one. -/
theorem tailStretches_last (W3 : Valuation τ sig (Elt F)) :
    StableHlo.afterL (tailStretches (F := F)) W3 = StableHlo.after hostOps2_20 (StableHlo.afterL (List.take 20 tailStretches) W3) := by
  show StableHlo.afterL (List.take 20 tailStretches ++ [hostOps2_20]) W3 = _
  rw [afterL_append]
  rfl

/-- The run as one line of operations. -/
theorem tailStretches_flatten (W3 : Valuation τ sig (Elt F)) :
    StableHlo.after (List.flatten (tailStretches (F := F))) W3 = StableHlo.afterL tailStretches W3 :=
  (StableHlo.afterL_eq_after_flatten _ _).symm

/-- The level-0 negative sums, computed before the second kernel call, are not written again. -/
theorem Wend_v3 (W3 : Valuation τ sig (Elt F)) :
    StableHlo.afterL (tailStretches (F := F)) W3 (Proc.devRef .tc main_v3) = W3 (Proc.devRef .tc main_v3) :=
  afterL_keep tailStretches_writes main_v3 (by decide) W3
theorem Wend_v6 (W3 : Valuation τ sig (Elt F)) :
    StableHlo.afterL (tailStretches (F := F)) W3 (Proc.devRef .tc main_v6) = W3 (Proc.devRef .tc main_v6) :=
  afterL_keep tailStretches_writes main_v6 (by decide) W3

/-- The level-1 negative sums are the first stretch's and are not written again. -/
theorem Wend_v10 (W3 : Valuation τ sig (Elt F)) :
    StableHlo.afterL (tailStretches (F := F)) W3 (Proc.devRef .tc main_v10) = StableHlo.after hostOps2 W3 (Proc.devRef .tc main_v10) := by
  show StableHlo.afterL (List.drop 1 tailStretches) (StableHlo.after hostOps2 W3) _ = _
  exact afterL_keep (List.forall₂_drop 1 tailStretches_writes) main_v10 (by decide) _
theorem Wend_v13 (W3 : Valuation τ sig (Elt F)) :
    StableHlo.afterL (tailStretches (F := F)) W3 (Proc.devRef .tc main_v13) = StableHlo.after hostOps2 W3 (Proc.devRef .tc main_v13) := by
  show StableHlo.afterL (List.drop 1 tailStretches) (StableHlo.after hostOps2 W3) _ = _
  exact afterL_keep (List.forall₂_drop 1 tailStretches_writes) main_v13 (by decide) _

/-- The level-0 positive sums are written in the eleventh stretch (`hostOps2_10`) and not again. -/
theorem Wend_v197 (W3 : Valuation τ sig (Elt F)) :
    StableHlo.afterL (tailStretches (F := F)) W3 (Proc.devRef .tc main_v197)
      = StableHlo.afterL (List.take 11 tailStretches) W3 (Proc.devRef .tc main_v197) := by
  show StableHlo.afterL (List.take 11 tailStretches ++ List.drop 11 tailStretches) W3 _ = _
  rw [afterL_append]
  exact afterL_keep (List.forall₂_drop 11 tailStretches_writes) main_v197 (by decide) _
theorem Wend_v198 (W3 : Valuation τ sig (Elt F)) :
    StableHlo.afterL (tailStretches (F := F)) W3 (Proc.devRef .tc main_v198)
      = StableHlo.afterL (List.take 11 tailStretches) W3 (Proc.devRef .tc main_v198) := by
  show StableHlo.afterL (List.take 11 tailStretches ++ List.drop 11 tailStretches) W3 _ = _
  rw [afterL_append]
  exact afterL_keep (List.forall₂_drop 11 tailStretches_writes) main_v198 (by decide) _

/-- The program's result from the eight sums, each read at the end of the run. -/
theorem result_of_sums (W3 : Valuation τ sig (Elt Ideal)) (p0 p1 n0 n1 cp0 cp1 cn0 cn1 : EReal)
    (h197 : StableHlo.afterL (tailStretches (F := Ideal)) W3 (Proc.devRef .tc main_v197) = fun _ => p0)
    (h382 : StableHlo.afterL (tailStretches (F := Ideal)) W3 (Proc.devRef .tc main_v382) = fun _ => p1)
    (h3 : StableHlo.afterL (tailStretches (F := Ideal)) W3 (Proc.devRef .tc main_v3) = fun _ => n0)
    (h10 : StableHlo.afterL (tailStretches (F := Ideal)) W3 (Proc.devRef .tc main_v10) = fun _ => n1)
    (h198 : StableHlo.afterL (tailStretches (F := Ideal)) W3 (Proc.devRef .tc main_v198) = fun _ => cp0)
    (h383 : StableHlo.afterL (tailStretches (F := Ideal)) W3 (Proc.devRef .tc main_v383) = fun _ => cp1)
    (h6 : StableHlo.afterL (tailStretches (F := Ideal)) W3 (Proc.devRef .tc main_v6) = fun _ => cn0)
    (h13 : StableHlo.afterL (tailStretches (F := Ideal)) W3 (Proc.devRef .tc main_v13) = fun _ => cn1) :
    (StableHlo.afterL (tailStretches (F := Ideal)) W3 (Proc.devRef .tc main_v392) : S4.Idx → EReal)
      = fun j => ![p0 + p1, n0 + n1, cp0 + cp1, cn0 + cn1] (j 0) := by
  rw [tailStretches_last] at h197 h382 h3 h10 h198 h383 h6 h13 ⊢
  exact hostOps2_20_v392 _ p0 p1 n0 n1 cp0 cp1 cn0 cn1 h197 h382 h3 h10 h198 h383 h6 h13

/-- One position of the result. -/
theorem result_apply (W3 : Valuation τ sig (Elt Ideal)) (p0 p1 n0 n1 cp0 cp1 cn0 cn1 : EReal)
    (h197 : StableHlo.afterL (tailStretches (F := Ideal)) W3 (Proc.devRef .tc main_v197) = fun _ => p0)
    (h382 : StableHlo.afterL (tailStretches (F := Ideal)) W3 (Proc.devRef .tc main_v382) = fun _ => p1)
    (h3 : StableHlo.afterL (tailStretches (F := Ideal)) W3 (Proc.devRef .tc main_v3) = fun _ => n0)
    (h10 : StableHlo.afterL (tailStretches (F := Ideal)) W3 (Proc.devRef .tc main_v10) = fun _ => n1)
    (h198 : StableHlo.afterL (tailStretches (F := Ideal)) W3 (Proc.devRef .tc main_v198) = fun _ => cp0)
    (h383 : StableHlo.afterL (tailStretches (F := Ideal)) W3 (Proc.devRef .tc main_v383) = fun _ => cp1)
    (h6 : StableHlo.afterL (tailStretches (F := Ideal)) W3 (Proc.devRef .tc main_v6) = fun _ => cn0)
    (h13 : StableHlo.afterL (tailStretches (F := Ideal)) W3 (Proc.devRef .tc main_v13) = fun _ => cn1) (i : Fin 4) :
    (StableHlo.afterL (tailStretches (F := Ideal)) W3 (Proc.devRef .tc main_v392) : S4.Idx → EReal) (ix1 i)
      = match i with
        | 0 => p0 + p1
        | 1 => n0 + n1
        | 2 => cp0 + cp1
        | 3 => cn0 + cn1 := by
  rw [result_of_sums W3 p0 p1 n0 n1 cp0 cp1 cn0 cn1 h197 h382 h3 h10 h198 h383 h6 h13]
  match i with
  | 0 => rfl
  | 1 => rfl
  | 2 => rfl
  | 3 => rfl

open Cert.Hand Cert.Hand.Readers in
/-- The kernel program's value: with each of the eight sums the specification's, the result buffer holds the four results. -/
theorem ker_value (W3 : Valuation τ sig (Elt Ideal))
    (a0 : (⟨5, ![4, 9, 64, 64, 64]⟩ : Shape).Idx → EReal) (a1 : (⟨5, ![4, 9, 32, 32, 32]⟩ : Shape).Idx → EReal)
    (a2 : (⟨5, ![4, 3, 64, 64, 64]⟩ : Shape).Idx → EReal) (a3 : (⟨5, ![4, 3, 32, 32, 32]⟩ : Shape).Idx → EReal)
    (a4 a5 : (⟨3, ![4, 128, 4]⟩ : Shape).Idx → BitVec 32) (a6 : (⟨1, ![3]⟩ : Shape).Idx → EReal)
    (hpos0 : StableHlo.afterL (tailStretches (F := Ideal)) W3 (Proc.devRef .tc main_v197)
      = fun _ => Spec.lossPos 64 (rd5 a0) (rd5 a2) (rd3 a4) (rd1 a6))
    (hpos1 : StableHlo.afterL (tailStretches (F := Ideal)) W3 (Proc.devRef .tc main_v382)
      = fun _ => Spec.lossPos 32 (rd5 a1) (rd5 a3) (rd3 a5) (rd1 a6))
    (hneg0 : StableHlo.afterL (tailStretches (F := Ideal)) W3 (Proc.devRef .tc main_v3)
      = fun _ => Spec.lossNeg 64 (rd5 a0) (rd5 a2))
    (hneg1 : StableHlo.afterL (tailStretches (F := Ideal)) W3 (Proc.devRef .tc main_v10)
      = fun _ => Spec.lossNeg 32 (rd5 a1) (rd5 a3))
    (hcpos0 : StableHlo.afterL (tailStretches (F := Ideal)) W3 (Proc.devRef .tc main_v198)
      = fun _ => Spec.countPos 64 (rd5 a0) (rd5 a2) (rd3 a4) (rd1 a6))
    (hcpos1 : StableHlo.afterL (tailStretches (F := Ideal)) W3 (Proc.devRef .tc main_v383)
      = fun _ => Spec.countPos 32 (rd5 a1) (rd5 a3) (rd3 a5) (rd1 a6))
    (hcneg0 : StableHlo.afterL (tailStretches (F := Ideal)) W3 (Proc.devRef .tc main_v6)
      = fun _ => Spec.countNeg 64 (rd5 a0) (rd5 a2))
    (hcneg1 : StableHlo.afterL (tailStretches (F := Ideal)) W3 (Proc.devRef .tc main_v13)
      = fun _ => Spec.countNeg 32 (rd5 a1) (rd5 a3)) :
    (StableHlo.afterL (tailStretches (F := Ideal)) W3 (Proc.devRef .tc main_v392) : S4.Idx → EReal)
      = Readers.G a0 a1 a2 a3 a4 a5 a6 := by
  rw [result_of_sums W3 _ _ _ _ _ _ _ _ hpos0 hpos1 hneg0 hneg1 hcpos0 hcpos1 hcneg0 hcneg1]
  funext j
  obtain ⟨i, rfl⟩ : ∃ i : Fin 4, j = ix1 i := ⟨j 0, eq_ix1 j⟩
  unfold Readers.G
  match i with
  | 0 => rfl
  | 1 => rfl
  | 2 => rfl
  | 3 => rfl

open Cert.Hand Cert.Hand.Readers in
/-- The same with the negative sums given where they are computed: level 0's in the valuation the run starts from, level
    1's as the sums over the tiles of the second kernel call's two arrays. -/
theorem ker_value_of_tiles (W3 : Valuation τ sig (Elt Ideal))
    (a0 : (⟨5, ![4, 9, 64, 64, 64]⟩ : Shape).Idx → EReal) (a1 : (⟨5, ![4, 9, 32, 32, 32]⟩ : Shape).Idx → EReal)
    (a2 : (⟨5, ![4, 3, 64, 64, 64]⟩ : Shape).Idx → EReal) (a3 : (⟨5, ![4, 3, 32, 32, 32]⟩ : Shape).Idx → EReal)
    (a4 a5 : (⟨3, ![4, 128, 4]⟩ : Shape).Idx → BitVec 32) (a6 : (⟨1, ![3]⟩ : Shape).Idx → EReal)
    (xl xc : S4x2x8x128.Idx → EReal)
    (hxl : W3 (Proc.devRef .tc main_v7_0) = xl) (hxc : W3 (Proc.devRef .tc main_v7_1) = xc)
    (hpos0 : StableHlo.afterL (List.take 11 (tailStretches (F := Ideal))) W3 (Proc.devRef .tc main_v197)
      = fun _ => Spec.lossPos 64 (rd5 a0) (rd5 a2) (rd3 a4) (rd1 a6))
    (hpos1 : StableHlo.afterL (tailStretches (F := Ideal)) W3 (Proc.devRef .tc main_v382)
      = fun _ => Spec.lossPos 32 (rd5 a1) (rd5 a3) (rd3 a5) (rd1 a6))
    (hneg0 : W3 (Proc.devRef .tc main_v3) = fun _ => Spec.lossNeg 64 (rd5 a0) (rd5 a2))
    (hneg1 : ∑ b : Fin 4, ∑ dt : Fin 2, xl (ix4 b dt 0 0) = Spec.lossNeg 32 (rd5 a1) (rd5 a3))
    (hcpos0 : StableHlo.afterL (List.take 11 (tailStretches (F := Ideal))) W3 (Proc.devRef .tc main_v198)
      = fun _ => Spec.countPos 64 (rd5 a0) (rd5 a2) (rd3 a4) (rd1 a6))
    (hcpos1 : StableHlo.afterL (tailStretches (F := Ideal)) W3 (Proc.devRef .tc main_v383)
      = fun _ => Spec.countPos 32 (rd5 a1) (rd5 a3) (rd3 a5) (rd1 a6))
    (hcneg0 : W3 (Proc.devRef .tc main_v6) = fun _ => Spec.countNeg 64 (rd5 a0) (rd5 a2))
    (hcneg1 : ∑ b : Fin 4, ∑ dt : Fin 2, xc (ix4 b dt 0 0) = Spec.countNeg 32 (rd5 a1) (rd5 a3)) :
    (StableHlo.afterL (tailStretches (F := Ideal)) W3 (Proc.devRef .tc main_v392) : S4.Idx → EReal)
      = Readers.G a0 a1 a2 a3 a4 a5 a6 := by
  refine ker_value W3 a0 a1 a2 a3 a4 a5 a6 ?_ hpos1 ?_ ?_ ?_ hcpos1 ?_ ?_
  · rw [Wend_v197]; exact hpos0
  · rw [Wend_v3]; exact hneg0
  · rw [Wend_v10, hostOps2_v10 W3 xl hxl, hneg1]
  · rw [Wend_v198]; exact hcpos0
  · rw [Wend_v6]; exact hcneg0
  · rw [Wend_v13, hostOps2_v13 W3 xc hxc, hcneg1]

end Cert.KernelIdeal.Hand

end
-- ==== Proof.KI.KerValue.lean ====
/-
  The kernel program's result buffer holds the specification's four numbers of the launch memory's argument arrays.

  The negative parts. Level 0's loss and count are the host's sums, after the first kernel call, over the tiles of the
  call's two output arrays; each tile entry is the tiled arrangement's loss (count) of that tile, so on finite logits
  the sums are the level's negative loss and count; the second kernel call does not touch them. Level 1's are the sums
  over the tiles of the second call's two output arrays, likewise. Neither kernel call nor the stretch between them
  writes an argument array, so every reader is of the launch memory. The positive parts are taken where the host
  computes them; the last operations add the levels pairwise and lay the four sums side by side.
-/
import proofs.«424358_j44040594653645_2_alg».proof.Defs
import proofs.«424358_j44040594653645_2_alg».proof.Proof.Readers
import proofs.«424358_j44040594653645_2_alg».proof.Proof.PreFacts
import proofs.«424358_j44040594653645_2_alg».proof.Proof.KI.Run
import proofs.«424358_j44040594653645_2_alg».proof.Proof.KI.HostNeg
import proofs.«424358_j44040594653645_2_alg».proof.Proof.KI.HostFacts
import proofs.«424358_j44040594653645_2_alg».proof.Proof.KI.NegGlue
import proofs.«424358_j44040594653645_2_alg».proof.Proof.KI.ArrFinal
import proofs.«424358_j44040594653645_2_alg».proof.Proof.KI.Writes
import proofs.«424358_j44040594653645_2_alg».proof.Proof.KI.Value
import Idealize.ShloMosaic.Lib.StableHlo.RunLoop

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

/-! # The kernel's result buffer is the specification's four numbers -/

section KerValue

open Idealize.ShloMosaic.ValueIdx Idealize.ShloMosaic.StableHlo Cert.Hand Cert.Hand.Readers

variable (m : (ℓ : Loc nD τ sig) → Buf (Elt Ideal) ℓ) (g : Dev nD → PrngReg)

/-! ## The argument arrays stay the launch memory's up to the second kernel call's exit -/

theorem kv_W0_arg (c : Dev nD) (r : Ref sig .tc) : W0 m g c (Proc.devRef .tc r) = m ((c.tc : Thread nD τ).loc r) := rfl

theorem kv_arg_ne : ∀ r ∈ argRefs, r ≠ main_v0_0 ∧ r ≠ main_v0_1 ∧ r ≠ main_v7_0 ∧ r ≠ main_v7_1 := by decide

/-- The first kernel call and the stretch after it leave the argument arrays. -/
theorem kv_W2_arg (c : Dev nD) (r : Ref sig .tc) (hr : r ∈ argRefs) :
    W2 m g c (Proc.devRef .tc r) = m ((c.tc : Thread nD τ).loc r) := by
  show StableHlo.after hostOps1 (W1 m g c) (Proc.devRef .tc r) = _
  rw [StableHlo.after_of_forall_not_mem hostOps1 _ (hostOps1_keeps r hr), W1_of_ne m g c r (kv_arg_ne r hr).1 (kv_arg_ne r hr).2.1]

/-- So does the second kernel call. -/
theorem kv_W3_arg (c : Dev nD) (r : Ref sig .tc) (hr : r ∈ argRefs) :
    W3 m g c (Proc.devRef .tc r) = m ((c.tc : Thread nD τ).loc r) := by
  rw [W3_of_ne m g c r (kv_arg_ne r hr).2.2.1 (kv_arg_ne r hr).2.2.2]
  exact kv_W2_arg m g c r hr

/-- The contents at the return are the stretches after the second kernel call, run in order from its exit. -/
theorem kv_Wend_eq (c : Dev nD) : Wend m g c = StableHlo.afterL (tailStretches (F := Ideal)) (W3 m g c) := rfl

/-! ## The negative sums -/

section Neg

variable [Cert.Pre_finite_inputs.Facts]
variable (hpre : Cert.Pre_KernelIdeal m) (c : Dev nD)

include hpre in
/-- Level 0's negative loss, where the host computes it (the stretch after the first kernel call), still there at the
    second call's exit. -/
theorem neg0_loss : W3 m g c (Proc.devRef .tc main_v3)
    = fun _ => Spec.lossNeg 64 (rd5 (α := EReal) (m ((c.tc : Thread nD τ).loc main_arg0))) (rd5 (α := EReal) (m ((c.tc : Thread nD τ).loc main_arg2))) := by
  rw [W3_of_ne m g c main_v3 (by decide) (by decide)]
  show StableHlo.after hostOps1 (W1 m g c) (Proc.devRef .tc main_v3) = _
  rw [hostOps1_v3 (W1 m g c) _ (W1_out4 m g c)]
  funext _
  exact lossNeg0 (m ((c.tc : Thread nD τ).loc main_arg0)) (m ((c.tc : Thread nD τ).loc main_arg2)) (PreFacts.finite_a0 (hpre c)) _ (fun b dt => arr0_loss (V0 m g) c b dt 0 0)

include hpre in
theorem neg0_count : W3 m g c (Proc.devRef .tc main_v6)
    = fun _ => Spec.countNeg 64 (rd5 (α := EReal) (m ((c.tc : Thread nD τ).loc main_arg0))) (rd5 (α := EReal) (m ((c.tc : Thread nD τ).loc main_arg2))) := by
  rw [W3_of_ne m g c main_v6 (by decide) (by decide)]
  show StableHlo.after hostOps1 (W1 m g c) (Proc.devRef .tc main_v6) = _
  rw [hostOps1_v6 (W1 m g c) _ (W1_out5 m g c)]
  funext _
  exact countNeg0 (m ((c.tc : Thread nD τ).loc main_arg0)) (m ((c.tc : Thread nD τ).loc main_arg2)) (PreFacts.finite_a0 (hpre c)) _ (fun b dt => arr0_count (V0 m g) c b dt 0 0)

include hpre in
/-- Level 1's negative loss as the sum over the tiles of the second call's first output array. -/
theorem neg1_loss (xl : S4x2x8x128.Idx → EReal) (hxl : W3 m g c (Proc.devRef .tc main_v7_0) = xl) :
    ∑ b : Fin 4, ∑ dt : Fin 2, xl (ix4 b dt 0 0) = Spec.lossNeg 32 (rd5 (α := EReal) (m ((c.tc : Thread nD τ).loc main_arg1))) (rd5 (α := EReal) (m ((c.tc : Thread nD τ).loc main_arg3))) := by
  have e : xl = (dat1 (V2 m g) c).arrAt 4 cfg1.N := hxl.symm.trans (W3_out4 m g c)
  refine lossNeg1 (m ((c.tc : Thread nD τ).loc main_arg1)) (m ((c.tc : Thread nD τ).loc main_arg3)) (PreFacts.finite_a1 (hpre c)) xl (fun b dt => ?_)
  rw [e, arr1_loss (V2 m g) c b dt 0 0]
  show Spec.tileLossK 32 (rd5 (α := EReal) (W2 m g c (Proc.devRef .tc main_arg1))) (rd5 (α := EReal) (W2 m g c (Proc.devRef .tc main_arg3))) _ _ _ = _
  rw [kv_W2_arg m g c main_arg1 (by decide), kv_W2_arg m g c main_arg3 (by decide)]

include hpre in
theorem neg1_count (xc : S4x2x8x128.Idx → EReal) (hxc : W3 m g c (Proc.devRef .tc main_v7_1) = xc) :
    ∑ b : Fin 4, ∑ dt : Fin 2, xc (ix4 b dt 0 0) = Spec.countNeg 32 (rd5 (α := EReal) (m ((c.tc : Thread nD τ).loc main_arg1))) (rd5 (α := EReal) (m ((c.tc : Thread nD τ).loc main_arg3))) := by
  have e : xc = (dat1 (V2 m g) c).arrAt 5 cfg1.N := hxc.symm.trans (W3_out5 m g c)
  refine countNeg1 (m ((c.tc : Thread nD τ).loc main_arg1)) (m ((c.tc : Thread nD τ).loc main_arg3)) (PreFacts.finite_a1 (hpre c)) xc (fun b dt => ?_)
  rw [e, arr1_count (V2 m g) c b dt 0 0]
  show Spec.tileCountK 32 (rd5 (α := EReal) (W2 m g c (Proc.devRef .tc main_arg1))) (rd5 (α := EReal) (W2 m g c (Proc.devRef .tc main_arg3))) _ _ _ = _
  rw [kv_W2_arg m g c main_arg1 (by decide), kv_W2_arg m g c main_arg3 (by decide)]

/-! ## The assembly -/

include hpre in
/-- The kernel's result buffer, given the four positive sums where the host computes them. -/
theorem ker_value_of_pos
    (hpos0 : StableHlo.afterL (List.take 11 (tailStretches (F := Ideal))) (W3 m g c) (Proc.devRef .tc main_v197)
      = fun _ => Spec.lossPos 64 (rd5 (α := EReal) (m ((c.tc : Thread nD τ).loc main_arg0))) (rd5 (α := EReal) (m ((c.tc : Thread nD τ).loc main_arg2))) (rd3 (α := BitVec 32) (m ((c.tc : Thread nD τ).loc main_arg4))) (rd1 (α := EReal) (m ((c.tc : Thread nD τ).loc main_arg6))))
    (hcpos0 : StableHlo.afterL (List.take 11 (tailStretches (F := Ideal))) (W3 m g c) (Proc.devRef .tc main_v198)
      = fun _ => Spec.countPos 64 (rd5 (α := EReal) (m ((c.tc : Thread nD τ).loc main_arg0))) (rd5 (α := EReal) (m ((c.tc : Thread nD τ).loc main_arg2))) (rd3 (α := BitVec 32) (m ((c.tc : Thread nD τ).loc main_arg4))) (rd1 (α := EReal) (m ((c.tc : Thread nD τ).loc main_arg6))))
    (hpos1 : StableHlo.afterL (tailStretches (F := Ideal)) (W3 m g c) (Proc.devRef .tc main_v382)
      = fun _ => Spec.lossPos 32 (rd5 (α := EReal) (m ((c.tc : Thread nD τ).loc main_arg1))) (rd5 (α := EReal) (m ((c.tc : Thread nD τ).loc main_arg3))) (rd3 (α := BitVec 32) (m ((c.tc : Thread nD τ).loc main_arg5))) (rd1 (α := EReal) (m ((c.tc : Thread nD τ).loc main_arg6))))
    (hcpos1 : StableHlo.afterL (tailStretches (F := Ideal)) (W3 m g c) (Proc.devRef .tc main_v383)
      = fun _ => Spec.countPos 32 (rd5 (α := EReal) (m ((c.tc : Thread nD τ).loc main_arg1))) (rd5 (α := EReal) (m ((c.tc : Thread nD τ).loc main_arg3))) (rd3 (α := BitVec 32) (m ((c.tc : Thread nD τ).loc main_arg5))) (rd1 (α := EReal) (m ((c.tc : Thread nD τ).loc main_arg6)))) :
    Wend m g c (Proc.devRef .tc main_v392) = Readers.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [kv_Wend_eq m g c]
  exact ker_value_of_tiles (W3 m g c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (W3 m g c (Proc.devRef .tc main_v7_0)) (W3 m g c (Proc.devRef .tc main_v7_1)) rfl rfl
    hpos0 hpos1 (neg0_loss m g hpre c) (neg1_loss m g hpre c _ rfl) hcpos0 hcpos1 (neg0_count m g hpre c) (neg1_count m g hpre c _ rfl)

end Neg

end KerValue

end Cert.KernelIdeal.Hand

end
-- ==== Proof.KI.Pos0Base.lean ====
import proofs.«424358_j44040594653645_2_alg».proof.Proof.Gen.KernelIdeal.Launch
import proofs.«424358_j44040594653645_2_alg».proof.Proof.Spec
import proofs.«424358_j44040594653645_2_alg».proof.Proof.Readers
import proofs.«424358_j44040594653645_2_alg».proof.Proof.PreFacts
import Idealize.ShloMosaic.Lib.StableHlo.Run
import Idealize.ShloMosaic.Lib.StableHlo.Predicate
import Idealize.ShloMosaic.Lib.Pipeline.Value
import Idealize.ShloMosaic.PureOps.Ideal.Laws

set_option maxRecDepth 16384

noncomputable section

/-!
  The host part of the kernel program that computes the positive-sample loss: the tools to read it.

  * the run's result lemmas for an operation with several operands, and the buffers after a line of operations as one
    simp pass (`after_read`);
  * each layout operation of the literal shapes read at an index (broadcasts, column slices, reshapes, the concatenations
    of unit columns), the point gather from a rank-5 array, `take_along_axis`'s batched gather and the weight gather,
    each element read signed and clamped into its axis; the reductions over three entries, over a unit axis and over
    the whole `[4,128]` rectangle;
  * the positive part at a sample, in the program's own words (`K0`).
-/
namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.Hand Cert.Hand.Readers
open Facts₀

/-! ## The run's results for a three- and a five-operand operation

The library states the literal-family result for four operands; the same for three and five. -/

section Nary
variable {Val : EltTy → Type}

theorem nary3_result {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

theorem nary3_result' {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

theorem nary5_result {x a b c e y : Ref sig .tc}
    (f : ((k : Fin 5) → ((![x, a, b, c, e] : Fin 5 → Ref sig .tc) k).ty.Contents Val) → y.ty.Contents Val) (hxs hy)
    (G : Valuation τ sig Val) :
    (nary (τ := τ) ![x, a, b, c, e] y f hxs hy).result G (Proc.devRef .tc y)
      = f (Fin.cons (G (Proc.devRef .tc x)) (Fin.cons (G (Proc.devRef .tc a)) (Fin.cons (G (Proc.devRef .tc b))
          (Fin.cons (G (Proc.devRef .tc c)) (Fin.cons (G (Proc.devRef .tc e)) (fun i => i.elim0)))))) := by
  rw [nary_result]; congr 1; funext k; fin_cases k <;> rfl

theorem nary5_result' {x a b c e y : Ref sig .tc}
    (f : ((k : Fin 5) → ((![x, a, b, c, e] : Fin 5 → Ref sig .tc) k).ty.Contents Val) → y.ty.Contents Val) (hxs hy)
    (G : Valuation τ sig Val) :
    (nary (τ := τ) ![x, a, b, c, e] y f hxs hy).result G (no_index (Proc.devRef .tc y))
      = f (Fin.cons (G (Proc.devRef .tc x)) (Fin.cons (G (Proc.devRef .tc a)) (Fin.cons (G (Proc.devRef .tc b))
          (Fin.cons (G (Proc.devRef .tc c)) (Fin.cons (G (Proc.devRef .tc e)) (fun i => i.elim0)))))) :=
  nary5_result f hxs hy G

end Nary

/-- The buffers after a line of operations, as one simp pass: the library's pass with the three- and five-operand results. -/
macro "after_read" : tactic =>
  `(tactic| (simp (disch := decide) only [after_cons, after_nil,
      nullary_result', unary_result', binary_result', ternary_result', quaternary_result', reshape_result', nary_result',
      Matrix.cons_val_zero, Matrix.cons_val_one, Matrix.cons_val_two, Matrix.cons_val_three, Matrix.cons_val_four, Matrix.tail_cons, Matrix.head_cons,
      nullary_result_ne', unary_result_ne', binary_result_ne', ternary_result_ne', quaternary_result_ne', reshape_result_ne',
      nary_result_ne']))

/-! ## Layout operations of the literal shapes, read at an index -/

section Idx
variable {α : Type}

/-- A broadcast scalar reads the scalar everywhere. -/
theorem bc_sc {t : Shape} (dims : Fin S_.rank → Fin t.rank) (h : S_.BroadcastsInDim t dims) (v : S_.Idx → α) (j : t.Idx) :
    broadcastInDim t dims h v j = v ix0 := by
  unfold broadcastInDim; congr 1; funext a; exact a.elim0

theorem bc_2_3 (h : S4x128.BroadcastsInDim S4x128x1 ![0, 1]) (x : S4x128.Idx → α) (b : Fin 4) (p : Fin 128) (z : Fin 1) :
    broadcastInDim S4x128x1 ![0, 1] h x (ix3 b p z) = x (ix2 b p) := by
  unfold broadcastInDim; congr 1; funext a; fin_cases a <;> rfl

theorem bc_col (h : S4x1.BroadcastsInDim S4x128 ![0, 1]) (x : S4x1.Idx → α) (b : Fin 4) (p : Fin 128) :
    broadcastInDim S4x128 ![0, 1] h x (ix2 b p) = x (ix2 b 0) := by
  unfold broadcastInDim; congr 1; funext a; fin_cases a <;> rfl

theorem bc_1_2 (h : S4.BroadcastsInDim S4x1 ![0]) (x : S4.Idx → α) (b : Fin 4) (z : Fin 1) :
    broadcastInDim S4x1 ![0] h x (ix2 b z) = x (ix1 b) := by
  unfold broadcastInDim; congr 1; funext a; fin_cases a; rfl

theorem bc_3_4 (h : S4x128x1.BroadcastsInDim S4x128x4 ![0, 1, 2]) (x : S4x128x1.Idx → α) (b : Fin 4) (p : Fin 128) (j : Fin 4) :
    broadcastInDim S4x128x4 ![0, 1, 2] h x (ix3 b p j) = x (ix3 b p 0) := by
  unfold broadcastInDim; congr 1; funext a; fin_cases a <;> rfl

theorem bc_3_3 (h : S4x128x1.BroadcastsInDim S4x128x3 ![0, 1, 2]) (x : S4x128x1.Idx → α) (b : Fin 4) (p : Fin 128) (j : Fin 3) :
    broadcastInDim S4x128x3 ![0, 1, 2] h x (ix3 b p j) = x (ix3 b p 0) := by
  unfold broadcastInDim; congr 1; funext a; fin_cases a <;> rfl

theorem bc_1_4 (h : S1.BroadcastsInDim S1x1x1x1 ![3]) (x : S1.Idx → α) (j : S1x1x1x1.Idx) :
    broadcastInDim S1x1x1x1 ![3] h x j = x (ix1 0) := by
  unfold broadcastInDim; congr 1; funext a; fin_cases a; rfl

theorem bc_4_4 (h : S1x1x1x1.BroadcastsInDim S4x128x1x1 ![0, 1, 2, 3]) (x : S1x1x1x1.Idx → α) (j : S4x128x1x1.Idx) :
    broadcastInDim S4x128x1x1 ![0, 1, 2, 3] h x j = x (ix4 0 0 0 0) := by
  unfold broadcastInDim; congr 1; funext a; fin_cases a <;> rfl

/-- Column `j` of a `[4,128,4]` table. -/
theorem sl_colj (j : Fin 4) (h : S4x128x4.Slices ![0, 0, j.val] S4x128x1) (x : S4x128x4.Idx → α) (b : Fin 4) (p : Fin 128) (z : Fin 1) :
    extractStridedSlice S4x128x1 ![0, 0, j.val] x h (ix3 b p z) = x (ix3 b p j) := by
  refine extractStridedSlice_apply _ x h _ _ fun a => ?_
  fin_cases a
  · exact (Nat.zero_add _).symm
  · exact (Nat.zero_add _).symm
  · show j.val = j.val + z.val
    have : z.val = 0 := by omega
    omega

theorem sl_col0 (h : S4x128x4.Slices ![0, 0, 0] S4x128x1) (x : S4x128x4.Idx → α) (b : Fin 4) (p : Fin 128) (z : Fin 1) :
    extractStridedSlice S4x128x1 ![0, 0, 0] x h (ix3 b p z) = x (ix3 b p 0) := sl_colj 0 h x b p z
theorem sl_col1 (h : S4x128x4.Slices ![0, 0, 1] S4x128x1) (x : S4x128x4.Idx → α) (b : Fin 4) (p : Fin 128) (z : Fin 1) :
    extractStridedSlice S4x128x1 ![0, 0, 1] x h (ix3 b p z) = x (ix3 b p 1) := sl_colj 1 h x b p z
theorem sl_col2 (h : S4x128x4.Slices ![0, 0, 2] S4x128x1) (x : S4x128x4.Idx → α) (b : Fin 4) (p : Fin 128) (z : Fin 1) :
    extractStridedSlice S4x128x1 ![0, 0, 2] x h (ix3 b p z) = x (ix3 b p 2) := sl_colj 2 h x b p z
theorem sl_col3 (h : S4x128x4.Slices ![0, 0, 3] S4x128x1) (x : S4x128x4.Idx → α) (b : Fin 4) (p : Fin 128) (z : Fin 1) :
    extractStridedSlice S4x128x1 ![0, 0, 3] x h (ix3 b p z) = x (ix3 b p 3) := sl_colj 3 h x b p z

theorem rs_3_2 (h : S4x128x1.ShapeCasts S4x128) (x : S4x128x1.Idx → α) (b : Fin 4) (p : Fin 128) :
    shapeCast S4x128 x h (ix2 b p) = x (ix3 b p 0) := by
  refine shapeCast_apply x h _ _ ?_
  rw [Shape.rowMajor_val_three, Shape.rowMajor_val_two]
  show ((b.val * 128 + p.val) * 1 + 0) = b.val * 128 + p.val
  omega

theorem rs_3_4 (h : S4x128x1.ShapeCasts S4x128x1x1) (x : S4x128x1.Idx → α) (b : Fin 4) (p : Fin 128) (z w : Fin 1) :
    shapeCast S4x128x1x1 x h (ix4 b p z w) = x (ix3 b p 0) := by
  refine shapeCast_apply x h _ _ ?_
  rw [Shape.rowMajor_val_three, Shape.rowMajor_val_four]
  show ((b.val * 128 + p.val) * 1 + 0) = ((b.val * 128 + p.val) * 1 + z.val) * 1 + w.val
  have : z.val = 0 := by omega
  have : w.val = 0 := by omega
  omega

theorem cmpi_ap {s : Shape} {w : Nat} (pr : CmpIPredicate) (x y : IVec s w) (i : s.Idx) : cmpi pr x y i = IntOp.cmpi pr (x i) (y i) := rfl
theorem addi_ap {s : Shape} {w : Nat} (x y : IVec s w) (i : s.Idx) : addi x y i = IntOp.addi (x i) (y i) := rfl
theorem andi_ap {s : Shape} {w : Nat} (x y : IVec s w) (i : s.Idx) : andi x y i = IntOp.andi (x i) (y i) := rfl
theorem constantI_ap {s : Shape} {w : Nat} (c : BitVec w) (i : s.Idx) : constantI s w c i = c := rfl
theorem fptosi_ap {s : Shape} (x : FVec Ideal s .f32) (i : s.Idx) : fptosi (F := Ideal) 32 x i = Ideal.fptosi 32 (x i) := rfl

end Idx

/-! ## Concatenations and gathers read at an index -/

section CatGather
variable {α : Type}

/-- A concatenation of five unit columns reads column `k`. -/
theorem cc5 (h : Shape.Concatenates [S4x128x1, S4x128x1, S4x128x1, S4x128x1, S4x128x1] S4x128x5 2)
    (u0 u1 u2 u3 u4 : S4x128x1.Idx → α) (b : Fin 4) (p : Fin 128) (k : Fin 5) :
    concatenate S4x128x5 2 [⟨S4x128x1, u0⟩, ⟨S4x128x1, u1⟩, ⟨S4x128x1, u2⟩, ⟨S4x128x1, u3⟩, ⟨S4x128x1, u4⟩] h (ix3 b p k)
      = (![u0, u1, u2, u3, u4] k) (ix3 b p 0) := by
  have hi : ∀ c : Fin S4x128x1.rank, c.cast (rfl : S4x128x1.rank = S4x128x5.rank) ≠ (2 : Fin 3) →
      ((ix3 b p (0 : Fin 1) : S4x128x1.Idx) c).val = ((ix3 b p k : S4x128x5.Idx) (c.cast rfl)).val := by
    intro c hc; fin_cases c
    · rfl
    · rfl
    · exact absurd rfl hc
  fin_cases k
  · exact concatenate_apply_piece 2 [⟨S4x128x1, u0⟩, ⟨S4x128x1, u1⟩, ⟨S4x128x1, u2⟩, ⟨S4x128x1, u3⟩, ⟨S4x128x1, u4⟩] h _ 0 (by simp) S4x128x1 u0 rfl rfl 0 rfl (ix3 b p 0) hi rfl
  · exact concatenate_apply_piece 2 [⟨S4x128x1, u0⟩, ⟨S4x128x1, u1⟩, ⟨S4x128x1, u2⟩, ⟨S4x128x1, u3⟩, ⟨S4x128x1, u4⟩] h _ 1 (by simp) S4x128x1 u1 rfl rfl 1 rfl (ix3 b p 0) hi rfl
  · exact concatenate_apply_piece 2 [⟨S4x128x1, u0⟩, ⟨S4x128x1, u1⟩, ⟨S4x128x1, u2⟩, ⟨S4x128x1, u3⟩, ⟨S4x128x1, u4⟩] h _ 2 (by simp) S4x128x1 u2 rfl rfl 2 rfl (ix3 b p 0) hi rfl
  · exact concatenate_apply_piece 2 [⟨S4x128x1, u0⟩, ⟨S4x128x1, u1⟩, ⟨S4x128x1, u2⟩, ⟨S4x128x1, u3⟩, ⟨S4x128x1, u4⟩] h _ 3 (by simp) S4x128x1 u3 rfl rfl 3 rfl (ix3 b p 0) hi rfl
  · exact concatenate_apply_piece 2 [⟨S4x128x1, u0⟩, ⟨S4x128x1, u1⟩, ⟨S4x128x1, u2⟩, ⟨S4x128x1, u3⟩, ⟨S4x128x1, u4⟩] h _ 4 (by simp) S4x128x1 u4 rfl rfl 4 rfl (ix3 b p 0) hi rfl

/-- A concatenation of three unit columns reads column `k`. -/
theorem cc3 (h : Shape.Concatenates [S4x128x1, S4x128x1, S4x128x1] S4x128x3 2)
    (u0 u1 u2 : S4x128x1.Idx → α) (b : Fin 4) (p : Fin 128) (k : Fin 3) :
    concatenate S4x128x3 2 [⟨S4x128x1, u0⟩, ⟨S4x128x1, u1⟩, ⟨S4x128x1, u2⟩] h (ix3 b p k)
      = (![u0, u1, u2] k) (ix3 b p 0) := by
  have hi : ∀ c : Fin S4x128x1.rank, c.cast (rfl : S4x128x1.rank = S4x128x3.rank) ≠ (2 : Fin 3) →
      ((ix3 b p (0 : Fin 1) : S4x128x1.Idx) c).val = ((ix3 b p k : S4x128x3.Idx) (c.cast rfl)).val := by
    intro c hc; fin_cases c
    · rfl
    · rfl
    · exact absurd rfl hc
  fin_cases k
  · exact concatenate_apply_piece 2 [⟨S4x128x1, u0⟩, ⟨S4x128x1, u1⟩, ⟨S4x128x1, u2⟩] h _ 0 (by simp) S4x128x1 u0 rfl rfl 0 rfl (ix3 b p 0) hi rfl
  · exact concatenate_apply_piece 2 [⟨S4x128x1, u0⟩, ⟨S4x128x1, u1⟩, ⟨S4x128x1, u2⟩] h _ 1 (by simp) S4x128x1 u1 rfl rfl 1 rfl (ix3 b p 0) hi rfl
  · exact concatenate_apply_piece 2 [⟨S4x128x1, u0⟩, ⟨S4x128x1, u1⟩, ⟨S4x128x1, u2⟩] h _ 2 (by simp) S4x128x1 u2 rfl rfl 2 rfl (ix3 b p 0) hi rfl

/-- The dimension numbers of a point gather from a rank-5 array at `[4,128,5]` start indices. -/
abbrev ptDims (n0 n1 n2 n3 n4 : Nat)
    (wf : GatherDims.WF ⟨5, ![n0, n1, n2, n3, n4]⟩ S4x128x5 S4x128 [] [0, 1, 2, 3, 4] [] [0, 1, 2, 3, 4] [] 2 ![1, 1, 1, 1, 1]) :
    GatherDims ⟨5, ![n0, n1, n2, n3, n4]⟩ S4x128x5 S4x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := wf

/-- The point gather at `(b, p)`: the array at the five start words, each read signed and clamped into its axis. -/
theorem gather_pt_apply (n0 n1 n2 n3 n4 : Nat) (wf) (x : (⟨5, ![n0, n1, n2, n3, n4]⟩ : Shape).Idx → α) (idx : IVec S4x128x5 32)
    (b : Fin 4) (p : Fin 128) (k : (⟨5, ![n0, n1, n2, n3, n4]⟩ : Shape).Idx)
    (hk : ∀ a : Fin 5, (k a).val = min (idx (ix3 b p a)).toInt.toNat ((![n0, n1, n2, n3, n4] : Fin 5 → Nat) a - 1)) :
    Host.gather (ptDims n0 n1 n2 n3 n4 wf) x idx (ix2 b p) = x k := by
  unfold Host.gather
  congr 1
  funext a
  refine Fin.ext ?_
  rw [hk a]
  show (ptDims n0 n1 n2 n3 n4 wf).start (ix2 b p) idx a + (ptDims n0 n1 n2 n3 n4 wf).batchCoord (ix2 b p) a
    + (ptDims n0 n1 n2 n3 n4 wf).offCoord (ix2 b p) a = _
  have hmem : a ∈ ([0, 1, 2, 3, 4] : List (Fin 5)) := by
    have : ∀ a : Fin 5, a ∈ ([0, 1, 2, 3, 4] : List (Fin 5)) := by decide
    exact this a
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos (show a ∈ (ptDims n0 n1 n2 n3 n4 wf).startIndexMap from hmem)]
  have hsi : (ptDims n0 n1 n2 n3 n4 wf).siIdx (ix2 b p) ⟨List.idxOf a (ptDims n0 n1 n2 n3 n4 wf).startIndexMap,
      List.idxOf_lt_length_iff.2 hmem⟩ = ix3 b p a := by
    funext c; refine Fin.ext ?_
    fin_cases a <;> (match c with
      | ⟨0, _⟩ => rfl
      | ⟨1, _⟩ => rfl
      | ⟨2, _⟩ => rfl)
  rw [hsi]
  fin_cases a <;> rfl

/-- The gather of `take_along_axis` on the last axis of a `[4,128,3]` array: batch axes 0 and 1, the picked position read
    signed and clamped. -/
abbrev taaDims (wf : GatherDims.WF S4x128x3 S4x128x1x1 S4x128x1 [] [2] [0, 1] [2] [0, 1] 3 ![1, 1, 1]) :
    GatherDims S4x128x3 S4x128x1x1 S4x128x1 where
  offsetDims := []
  collapsedSliceDims := [2]
  operandBatchingDims := [0, 1]
  startIndicesBatchingDims := [0, 1]
  startIndexMap := [2]
  indexVectorDim := 3
  sliceSizes := ![1, 1, 1]
  wf := wf

theorem gather_taa_apply (wf) (x : S4x128x3.Idx → α) (idx : IVec S4x128x1x1 32) (b : Fin 4) (p : Fin 128) (z : Fin 1) (k : Fin 3)
    (hk : k.val = min (idx (ix4 b p z 0)).toInt.toNat 2) :
    Host.gather (taaDims wf) x idx (ix3 b p z) = x (ix3 b p k) := by
  unfold Host.gather
  congr 1
  funext a
  refine Fin.ext ?_
  show (taaDims wf).start (ix3 b p z) idx a + (taaDims wf).batchCoord (ix3 b p z) a + (taaDims wf).offCoord (ix3 b p z) a = _
  have m0 : (0 : Fin 3) ∈ ([0, 1] : List (Fin 3)) := by decide
  have m1 : (1 : Fin 3) ∈ ([0, 1] : List (Fin 3)) := by decide
  have m2 : (2 : Fin 3) ∉ ([0, 1] : List (Fin 3)) := by decide
  have c2 : (2 : Fin 3) ∈ ([2] : List (Fin 3)) := by decide
  match a with
  | ⟨0, _⟩ =>
    rw [GatherDims.start_batching _ _ _ _ m0,
      GatherDims.offCoord_eq_zero _ _ _ (fun h => ((GatherDims.mem_sKept _ _).mp h).2 m0)]
    simp only [Nat.zero_add, Nat.add_zero]
    unfold GatherDims.batchCoord
    rw [dif_pos (show (⟨0, _⟩ : Fin 3) ∈ (taaDims wf).operandBatchingDims from m0)]
    rfl
  | ⟨1, _⟩ =>
    rw [GatherDims.start_batching _ _ _ _ m1,
      GatherDims.offCoord_eq_zero _ _ _ (fun h => ((GatherDims.mem_sKept _ _).mp h).2 m1)]
    simp only [Nat.zero_add, Nat.add_zero]
    unfold GatherDims.batchCoord
    rw [dif_pos (show (⟨1, _⟩ : Fin 3) ∈ (taaDims wf).operandBatchingDims from m1)]
    rfl
  | ⟨2, _⟩ =>
    rw [GatherDims.batchCoord_eq_zero _ _ _ m2,
      GatherDims.offCoord_eq_zero _ _ _ (fun h => ((GatherDims.mem_sKept _ _).mp h).1 c2)]
    simp only [Nat.add_zero]
    unfold GatherDims.start
    rw [dif_pos (show (⟨2, _⟩ : Fin 3) ∈ (taaDims wf).startIndexMap from c2)]
    have hsi : (taaDims wf).siIdx (ix3 b p z) ⟨List.idxOf (2 : Fin 3) (taaDims wf).startIndexMap,
        List.idxOf_lt_length_iff.2 c2⟩ = ix4 b p z 0 := by
      funext c; refine Fin.ext ?_
      match c with
      | ⟨0, _⟩ => rfl
      | ⟨1, _⟩ => rfl
      | ⟨2, _⟩ => rfl
      | ⟨3, _⟩ => rfl
    exact (congrArg (fun q => min (idx q).toInt.toNat 2) hsi).trans hk.symm

end CatGather

/-! ## Index words -/

/-- A start word read signed and clamped into an axis of extent `n + 1`. -/
def clampFin (n : ℕ) (w : BitVec 32) : Fin (n + 1) := ⟨min w.toInt.toNat n, Nat.lt_succ_of_le (Nat.min_le_right _ _)⟩

/-- An index word with a negative value counted from the end of an axis of extent `e`. -/
def nw (x e : BitVec 32) : BitVec 32 := Scalar.select (IntOp.cmpi .slt x 0#32) (IntOp.addi x e) x

section Gathers
variable {α : Type}

theorem gather_arg2 (x : S4x3x64x64x64.Idx → α) (idx : IVec S4x128x5 32) (b : Fin 4) (p : Fin 128) :
    Host.gather gather_S4x3x64x64x64_S4x128x5_S4x128_n_01234_n_n_01234_2_11111 x idx (ix2 b p)
      = x (ix5 (clampFin 3 (idx (ix3 b p 0)) : Fin 4) (clampFin 2 (idx (ix3 b p 1)) : Fin 3) (clampFin 63 (idx (ix3 b p 2)) : Fin 64)
          (clampFin 63 (idx (ix3 b p 3)) : Fin 64) (clampFin 63 (idx (ix3 b p 4)) : Fin 64)) :=
  gather_pt_apply 4 3 64 64 64 _ x idx b p _ fun a => by fin_cases a <;> rfl

theorem gather_arg0 (x : S4x9x64x64x64.Idx → α) (idx : IVec S4x128x5 32) (b : Fin 4) (p : Fin 128) :
    Host.gather gather_S4x9x64x64x64_S4x128x5_S4x128_n_01234_n_n_01234_2_11111 x idx (ix2 b p)
      = x (ix5 (clampFin 3 (idx (ix3 b p 0)) : Fin 4) (clampFin 8 (idx (ix3 b p 1)) : Fin 9) (clampFin 63 (idx (ix3 b p 2)) : Fin 64)
          (clampFin 63 (idx (ix3 b p 3)) : Fin 64) (clampFin 63 (idx (ix3 b p 4)) : Fin 64)) :=
  gather_pt_apply 4 9 64 64 64 _ x idx b p _ fun a => by fin_cases a <;> rfl

theorem gather_taa (x : S4x128x3.Idx → α) (idx : IVec S4x128x1x1 32) (b : Fin 4) (p : Fin 128) (z : Fin 1) :
    Host.gather gather_S4x128x3_S4x128x1x1_S4x128x1_n_2_01_01_2_3_111 x idx (ix3 b p z)
      = x (ix3 b p (clampFin 2 (idx (ix4 b p z 0)) : Fin 3)) :=
  gather_taa_apply _ x idx b p z _ rfl

theorem gather_arg6 (x : S3.Idx → α) (idx : IVec S4x128x1 32) (b : Fin 4) (p : Fin 128) :
    Host.gather gather_S3_S4x128x1_S4x128_n_0_n_n_0_2_1 x idx (ix2 b p) = x (ix1 (clampFin 2 (idx (ix3 b p 0)) : Fin 3)) := by
  have e := gather_take_apply (N := 3) (R := 4) (C := 128) (by decide) Facts₀.gather_S3_S4x128x1_S4x128_n_0_n_n_0_2_1_wf x idx (ix2 b p)
  have hi : takeIdx (ix2 b p : (⟨2, ![4, 128]⟩ : Shape).Idx) = ix3 b p 0 := by
    funext a; refine Fin.ext ?_
    match a with
    | ⟨0, _⟩ => rfl
    | ⟨1, _⟩ => rfl
    | ⟨2, _⟩ => rfl
  refine e.trans (congrArg x ?_)
  funext a; refine Fin.ext ?_
  match a with
  | ⟨0, _⟩ =>
    show min (idx (takeIdx (ix2 b p : (⟨2, ![4, 128]⟩ : Shape).Idx))).toInt.toNat (3 - 1) = min (idx (ix3 b p 0)).toInt.toNat 2
    rw [hi]

end Gathers

/-! ## Reductions read at an index -/

section Reduce

theorem lift3 (h : S4x128x3.Reduces [2] S4x128) (b : Fin 4) (p : Fin 128) (k : Fin 3) :
    h.lift (ix2 b p) k = ix3 b p k := by
  funext a; refine Fin.ext ?_
  match a with
  | ⟨0, _⟩ => rfl
  | ⟨1, _⟩ => rfl
  | ⟨2, _⟩ => rfl

theorem lift1 (h : S4x128x1x1.Reduces [3] S4x128x1) (b : Fin 4) (p : Fin 128) (z : Fin 1) (k : Fin 1) :
    h.lift (ix3 b p z) k = ix4 b p z k := by
  funext a; refine Fin.ext ?_
  match a with
  | ⟨0, _⟩ => rfl
  | ⟨1, _⟩ => rfl
  | ⟨2, _⟩ => rfl
  | ⟨3, _⟩ => rfl

/-- The maximum over the last axis of a `[4,128,3]` array, from the initial value. -/
theorem red_max3 (x : S4x128x3.Idx → EReal) (init : S_.Idx → EReal) (h' : S4x128x3.ReducesTo [2] S4x128) (hu : 0 < S_.numel)
    (b : Fin 4) (p : Fin 128) :
    Host.reduce (FloatOps.maximumf (F := Ideal) (φ := .f32)) x init h' hu (ix2 b p)
      = max (x (ix3 b p 0)) (max (x (ix3 b p 1)) (max (x (ix3 b p 2)) (init (Shape.Idx.first hu)))) := by
  have h : S4x128x3.Reduces [2] S4x128 := by decide
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single _ x init h' h hu]
  show Finset.fold (FloatOps.maximumf (F := Ideal) (φ := .f32)) (init (Shape.Idx.first hu)) (fun k : Fin 3 => x (h.lift (ix2 b p) k))
    (Finset.univ : Finset (Fin 3)) = _
  have hU : (Finset.univ : Finset (Fin 3)) = {0, 1, 2} := by decide
  rw [hU, Finset.fold_insert (by decide), Finset.fold_insert (by decide), Finset.fold_singleton]
  simp only [lift3]
  rfl

/-- The sum over the last axis of a `[4,128,3]` array, from the initial value. -/
theorem red_add3 (x : FVec Ideal S4x128x3 .f32) (init : S_.Idx → EReal) (h' : S4x128x3.ReducesTo [2] S4x128) (hu : 0 < S_.numel)
    (b : Fin 4) (p : Fin 128) :
    Host.reduceAdd (F := Ideal) x init h' hu (ix2 b p)
      = init (Shape.Idx.first hu) + (x (ix3 b p 0) + x (ix3 b p 1) + x (ix3 b p 2)) := by
  have h : S4x128x3.Reduces [2] S4x128 := by decide
  show Ideal.hostReduceAdd h' x (init (Shape.Idx.first hu)) (ix2 b p) = _
  rw [Ideal.hostReduceAdd_single h' h]
  have e : (∑ k : Fin (S4x128x3.size 2), x (h.lift (ix2 b p) k)) = ∑ k : Fin 3, x (ix3 b p k) :=
    Finset.sum_congr rfl fun k _ => congrArg x (lift3 h b p k)
  rw [e, Fin.sum_univ_three]

/-- The sum of a `[4,128]` array, from the initial value. -/
theorem red_add_all (x : FVec Ideal S4x128 .f32) (init : S_.Idx → EReal) (h' : S4x128.ReducesTo [0, 1] S_) (hu : 0 < S_.numel)
    (i : S_.Idx) :
    Host.reduceAdd (F := Ideal) x init h' hu i = init (Shape.Idx.first hu) + ∑ b : Fin 4, ∑ p : Fin 128, x (ix2 b p) := by
  show Ideal.hostReduceAdd h' x (init (Shape.Idx.first hu)) i = _
  rw [Ideal.hostReduceAdd_total h' (fun b => b.elim0), sum_idx2]

/-- The conjunction over a unit axis, from the initial value. -/
theorem red_and1 (x : S4x128x1x1.Idx → BitVec 1) (init : S_.Idx → BitVec 1) (h' : S4x128x1x1.ReducesTo [3] S4x128x1) (hu : 0 < S_.numel)
    (b : Fin 4) (p : Fin 128) (z : Fin 1) :
    Host.reduce IntOp.andi x init h' hu (ix3 b p z) = IntOp.andi (x (ix4 b p z 0)) (init (Shape.Idx.first hu)) := by
  have h : S4x128x1x1.Reduces [3] S4x128x1 := by decide
  haveI : Std.Commutative (IntOp.andi (w := 1)) := ⟨fun a b => BitVec.and_comm a b⟩
  haveI : Std.Associative (IntOp.andi (w := 1)) := ⟨fun a b c => BitVec.and_assoc a b c⟩
  rw [Host.reduce_eq_fold_single _ x init h' h hu]
  show Finset.fold (IntOp.andi (w := 1)) (init (Shape.Idx.first hu)) (fun k : Fin 1 => x (h.lift (ix3 b p z) k))
    (Finset.univ : Finset (Fin 1)) = _
  have hU : (Finset.univ : Finset (Fin 1)) = {0} := by decide
  rw [hU, Finset.fold_singleton]
  simp only [lift1]

end Reduce

/-- The layout operations of a goal read at its index, one rewrite at a time, and the elementwise ones by definition. -/
macro "lay" : tactic =>
  `(tactic| repeat (first
      | rw [bc_sc] | rw [bc_2_3] | rw [bc_col] | rw [bc_1_2] | rw [bc_3_4] | rw [bc_3_3] | rw [bc_1_4] | rw [bc_4_4]
      | rw [sl_col0] | rw [sl_col1] | rw [sl_col2] | rw [sl_col3] | rw [rs_3_2] | erw [rs_3_2] | rw [rs_3_4] | erw [rs_3_4]
      | rw [cc5] | rw [cc3] | rw [gather_arg2] | rw [gather_arg0] | rw [gather_taa] | rw [gather_arg6]
      | rw [red_max3] | rw [red_add3] | rw [red_and1]
      | simp only [select_apply, cmpi_ap, addi_ap, andi_ap, constantI_ap, fptosi_ap, Matrix.cons_val_zero, Matrix.cons_val_one,
          Matrix.cons_val_two, Matrix.cons_val_three, Matrix.cons_val_four, Matrix.tail_cons, Matrix.head_cons]))

/-! ## The positive part of level 0 at a sample, in the program's own words

What the host operations compute at sample `(b, p)` from the logits `x0`, the label map `x2`, the coordinate table `x4` and
the class weights `x6`: the validity bit, the masked coordinate words, the class word, the three gathered logits, their
log-softmax, the picked entries under `take_along_axis`'s in-bounds mask, and the sample's weight. -/

namespace K0

variable (x0 : S4x9x64x64x64.Idx → EReal) (x2 : S4x3x64x64x64.Idx → EReal) (x4 : S4x128x4.Idx → BitVec 32) (x6 : S3.Idx → EReal)

/-- The validity bit: the anchor word is greater than -1. -/
def vbit (b : Fin 4) (p : Fin 128) : BitVec 1 := IntOp.cmpi .sgt (x4 (ix3 b p 0)) 4294967295#32
/-- Coordinate word `j`, zero for a padding sample. -/
def cw (b : Fin 4) (p : Fin 128) (j : Fin 4) : BitVec 32 := Scalar.select (vbit x4 b p) (x4 (ix3 b p j)) 0#32
/-- The batch position. -/
def bat (b : Fin 4) : Fin 4 := clampFin 3 (nw (BitVec.ofNat 32 b.val) 4#32)
/-- The class word. -/
def cls (b : Fin 4) (p : Fin 128) : BitVec 32 :=
  Scalar.select (vbit x4 b p)
    (Ideal.fptosi 32 (x2 (ix5 (bat b) (clampFin 2 (nw (cw x4 b p 0) 3#32) : Fin 3) (clampFin 63 (nw (cw x4 b p 1) 64#32) : Fin 64)
      (clampFin 63 (nw (cw x4 b p 2) 64#32) : Fin 64) (clampFin 63 (nw (cw x4 b p 3) 64#32) : Fin 64)))) 0#32
/-- The logit gathered at channel word `K + anchor`. -/
def lg (K : BitVec 32) (b : Fin 4) (p : Fin 128) : EReal :=
  x0 (ix5 (bat b) (clampFin 8 (nw (IntOp.addi K (cw x4 b p 0)) 9#32) : Fin 9) (clampFin 63 (nw (cw x4 b p 1) 64#32) : Fin 64)
    (clampFin 63 (nw (cw x4 b p 2) 64#32) : Fin 64) (clampFin 63 (nw (cw x4 b p 3) 64#32) : Fin 64))
/-- The three class logits. -/
def lgk (b : Fin 4) (p : Fin 128) (k : Fin 3) : EReal :=
  (![lg x0 x4 0#32 b p, lg x0 x4 3#32 b p, lg x0 x4 6#32 b p] : Fin 3 → EReal) k
/-- Their log-softmax. -/
def lp (b : Fin 4) (p : Fin 128) (k : Fin 3) : EReal :=
  Spec.logp (lgk x0 x4 b p k) (lgk x0 x4 b p 0) (lgk x0 x4 b p 1) (lgk x0 x4 b p 2)
/-- The class word counted from the end when negative. -/
def pw (b : Fin 4) (p : Fin 128) : BitVec 32 := nw (cls x2 x4 b p) 3#32
/-- The in-bounds mask of the pick. -/
def msk (b : Fin 4) (p : Fin 128) : BitVec 1 :=
  IntOp.andi (IntOp.andi (IntOp.cmpi .sge (pw x2 x4 b p) 0#32) (IntOp.cmpi .sle (pw x2 x4 b p) 2#32)) 1#1
/-- The fill of an out-of-bounds pick. -/
def nan : EReal := Ideal.ofBits .f32 0x7FC00000#32
/-- The picked probability. -/
def pt (b : Fin 4) (p : Fin 128) : EReal :=
  Scalar.select (msk x2 x4 b p) (Ideal.exp (lp x0 x4 b p (clampFin 2 (pw x2 x4 b p) : Fin 3))) nan
/-- The picked log-probability. -/
def lt (b : Fin 4) (p : Fin 128) : EReal :=
  Scalar.select (msk x2 x4 b p) (lp x0 x4 b p (clampFin 2 (pw x2 x4 b p) : Fin 3)) nan
/-- The sample's weight. -/
def wp (b : Fin 4) (p : Fin 128) : EReal :=
  (((Ideal.ofBits .f32 0x3F800000#32 - pt x0 x2 x4 b p) * (Ideal.ofBits .f32 0x3F800000#32 - pt x0 x2 x4 b p))
      * x6 (ix1 (clampFin 2 (pw x2 x4 b p) : Fin 3)))
    * (((vbit x4 b p).toNat : ℝ) : EReal)

end K0

end Cert.KernelIdeal.Hand
end
-- ==== Proof.KI.Pos0Stretch.lean ====
import proofs.«424358_j44040594653645_2_alg».proof.Proof.KI.Pos0Base

set_option maxRecDepth 16384

noncomputable section

/-!
  The short stretches of the positive part of level 0, each read at a sample from the buffers it starts from: the validity
  bit, the masked coordinate table and its four columns, the batch column, the class word's select, the probabilities as
  the exponential of the log-probabilities, and the reshapes and broadcasts around the two picks.
-/

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.Hand Cert.Hand.Readers
open Facts₀

section Stretches
variable (V : Valuation τ sig (Elt Ideal))

theorem st2_v17 (b : Fin 4) (p : Fin 128) :
    (StableHlo.after (hostOps2 (F := Ideal)) V (Proc.devRef .tc main_v17) : S4x128.Idx → BitVec 1) (ix2 b p)
      = IntOp.cmpi .sgt ((V (Proc.devRef .tc main_arg4) : S4x128x4.Idx → BitVec 32) (ix3 b p 0)) 4294967295#32 := by
  after_read
  lay

theorem st2_v18 (b : Fin 4) (p : Fin 128) (z : Fin 1) :
    (StableHlo.after (hostOps2 (F := Ideal)) V (Proc.devRef .tc main_v18) : S4x128x1.Idx → BitVec 1) (ix3 b p z)
      = IntOp.cmpi .sgt ((V (Proc.devRef .tc main_arg4) : S4x128x4.Idx → BitVec 32) (ix3 b p 0)) 4294967295#32 := by
  after_read
  lay

theorem st2_c3 (i : S_.Idx) :
    (StableHlo.after (hostOps2 (F := Ideal)) V (Proc.devRef .tc main_c_3) : S_.Idx → BitVec 32) i = 0#32 := by
  after_read
  rfl

theorem st2_1_v19 (b : Fin 4) (p : Fin 128) (j : Fin 4) :
    (StableHlo.after (hostOps2_1 (F := Ideal)) V (Proc.devRef .tc main_v19) : S4x128x4.Idx → BitVec 32) (ix3 b p j)
      = Scalar.select ((V (Proc.devRef .tc main_v18) : S4x128x1.Idx → BitVec 1) (ix3 b p 0))
          ((V (Proc.devRef .tc main_arg4) : S4x128x4.Idx → BitVec 32) (ix3 b p j))
          ((V (Proc.devRef .tc main_c_3) : S_.Idx → BitVec 32) ix0) := by
  after_read
  simp only [TRef.toBuf, TRef.ofBuf, cast_eq, id_eq]
  lay

theorem st2_2_col (b : Fin 4) (p : Fin 128) :
    (StableHlo.after (hostOps2_2 (F := Ideal)) V (Proc.devRef .tc main_v21) : S4x128.Idx → BitVec 32) (ix2 b p)
        = (V (Proc.devRef .tc main_v19) : S4x128x4.Idx → BitVec 32) (ix3 b p 0)
    ∧ (StableHlo.after (hostOps2_2 (F := Ideal)) V (Proc.devRef .tc main_v23) : S4x128.Idx → BitVec 32) (ix2 b p)
        = (V (Proc.devRef .tc main_v19) : S4x128x4.Idx → BitVec 32) (ix3 b p 1)
    ∧ (StableHlo.after (hostOps2_2 (F := Ideal)) V (Proc.devRef .tc main_v25) : S4x128.Idx → BitVec 32) (ix2 b p)
        = (V (Proc.devRef .tc main_v19) : S4x128x4.Idx → BitVec 32) (ix3 b p 2)
    ∧ (StableHlo.after (hostOps2_2 (F := Ideal)) V (Proc.devRef .tc main_v27) : S4x128.Idx → BitVec 32) (ix2 b p)
        = (V (Proc.devRef .tc main_v19) : S4x128x4.Idx → BitVec 32) (ix3 b p 3) := by
  refine ⟨?_, ?_, ?_, ?_⟩ <;> (after_read; lay)

theorem st2_2_v29 (b : Fin 4) (z : Fin 1) :
    (StableHlo.after (hostOps2_2 (F := Ideal)) V (Proc.devRef .tc main_v29) : S4x1.Idx → BitVec 32) (ix2 b z)
      = BitVec.ofNat 32 b.val := by
  after_read
  lay
  rfl

theorem st2_2_c14 (i : S_.Idx) :
    (StableHlo.after (hostOps2_2 (F := Ideal)) V (Proc.devRef .tc main_c_14) : S_.Idx → BitVec 32) i = 0#32 := by
  after_read
  rfl

theorem st2_3_v64 (b : Fin 4) (p : Fin 128) :
    (StableHlo.after (hostOps2_3 (F := Ideal)) V (Proc.devRef .tc main_v64) : S4x128.Idx → BitVec 32) (ix2 b p)
      = Scalar.select ((V (Proc.devRef .tc main_v17) : S4x128.Idx → BitVec 1) (ix2 b p))
          ((V (Proc.devRef .tc main_v63) : S4x128.Idx → BitVec 32) (ix2 b p))
          ((V (Proc.devRef .tc main_c_14) : S_.Idx → BitVec 32) ix0) := by
  after_read
  simp only [TRef.toBuf, TRef.ofBuf, cast_eq, id_eq]
  lay

theorem st2_6_v175 (i : S4x128x3.Idx) :
    (StableHlo.after (hostOps2_6 (F := Ideal)) V (Proc.devRef .tc main_v175) : S4x128x3.Idx → EReal) i = Ideal.exp ((V (Proc.devRef .tc main_v174) : S4x128x3.Idx → EReal) i) := by
  after_read
  rfl

theorem st2_6_v176 (b : Fin 4) (p : Fin 128) (z : Fin 1) :
    (StableHlo.after (hostOps2_6 (F := Ideal)) V (Proc.devRef .tc main_v176) : S4x128x1.Idx → BitVec 32) (ix3 b p z) = (V (Proc.devRef .tc main_v64) : S4x128.Idx → BitVec 32) (ix2 b p) := by
  after_read
  lay

theorem st2_8_v178 (b : Fin 4) (p : Fin 128) :
    (StableHlo.after (hostOps2_8 (F := Ideal)) V (Proc.devRef .tc main_v178) : S4x128.Idx → EReal) (ix2 b p) = (V (Proc.devRef .tc main_v177) : S4x128x1.Idx → EReal) (ix3 b p 0) := by
  after_read
  lay

theorem st2_8_v179 (b : Fin 4) (p : Fin 128) (z : Fin 1) :
    (StableHlo.after (hostOps2_8 (F := Ideal)) V (Proc.devRef .tc main_v179) : S4x128x1.Idx → BitVec 32) (ix3 b p z) = (V (Proc.devRef .tc main_v64) : S4x128.Idx → BitVec 32) (ix2 b p) := by
  after_read
  lay

end Stretches

end Cert.KernelIdeal.Hand
end
-- ==== Proof.KI.Pos0Frames.lean ====
/-
  Frames of the host stretches of the positive part, level 0: a buffer that no operation of a stretch writes holds after
  the stretch what it held before. Each operation writes its one result buffer; the listed buffers are none of those.
-/
import proofs.«424358_j44040594653645_2_alg».proof.Proof.Gen.KernelIdeal.Launch
import Idealize.ShloMosaic.Lib.StableHlo.Run
import Idealize.ShloMosaic.PureOps.Ideal

set_option maxRecDepth 16384

noncomputable section

namespace Cert.KernelIdeal.Hand.P0F

open Cert.KernelIdeal Cert.KernelIdeal.Gen Idealize.ShloMosaic Idealize.ShloMosaic.StableHlo
open Idealize.ShloMosaic.TcCoe Idealize.SL Idealize.SL.Sem

/-- An operation whose one result buffer is outside a list of buffers writes none of the list. -/
theorem keeps_list {op : HloOp τ sig (Elt Ideal)} (y : Ref sig .tc) (hw : op.writes = {Proc.devRef .tc y}) (R : List (Ref sig .tc))
    (hy : y ∉ R) (r : Ref sig .tc) (hr : r ∈ R) : (Proc.devRef .tc r : DevRef τ sig) ∉ op.writes := by
  rw [hw, Finset.mem_singleton]
  exact StableHlo.devRef_ne_of_ne (fun e => hy (e ▸ hr))

/-- A buffer of a list no operation of the line writes into keeps its contents. -/
theorem frame_of (ops : List (HloOp τ sig (Elt Ideal))) (V : Valuation τ sig (Elt Ideal)) (R : List (Ref sig .tc))
    (H : ops.Forall fun op => ∀ r ∈ R, (Proc.devRef .tc r : DevRef τ sig) ∉ op.writes) (r : Ref sig .tc) (hr : r ∈ R) :
    StableHlo.after ops V (Proc.devRef .tc r) = V (Proc.devRef .tc r) :=
  StableHlo.after_of_forall_not_mem ops V fun op hop => (List.forall_iff_forall_mem.mp H) op hop r hr

/-- Operation by operation: the one result buffer is outside the list. -/
macro "stretch_keeps0" : tactic =>
  `(tactic| (simp only [List.Forall]; (repeat' apply And.intro); all_goals exact keeps_list _ rfl _ (by decide)))

/-- No operation of stretch 0 writes any of these buffers. -/
theorem keeps_0 : (hostOps2 (F := Ideal) : List (HloOp τ sig (Elt Ideal))).Forall fun op =>
    ∀ r ∈ [main_arg0, main_arg2, main_arg4, main_arg6], (Proc.devRef .tc r : DevRef τ sig) ∉ op.writes := by stretch_keeps0
theorem fr_0_arg0 (V : Valuation τ sig (Elt Ideal)) :
    StableHlo.after (hostOps2 (F := Ideal)) V (Proc.devRef .tc main_arg0) = V (Proc.devRef .tc main_arg0) :=
  frame_of (hostOps2 (F := Ideal)) V _ keeps_0 main_arg0 (by decide)
theorem fr_0_arg2 (V : Valuation τ sig (Elt Ideal)) :
    StableHlo.after (hostOps2 (F := Ideal)) V (Proc.devRef .tc main_arg2) = V (Proc.devRef .tc main_arg2) :=
  frame_of (hostOps2 (F := Ideal)) V _ keeps_0 main_arg2 (by decide)
theorem fr_0_arg4 (V : Valuation τ sig (Elt Ideal)) :
    StableHlo.after (hostOps2 (F := Ideal)) V (Proc.devRef .tc main_arg4) = V (Proc.devRef .tc main_arg4) :=
  frame_of (hostOps2 (F := Ideal)) V _ keeps_0 main_arg4 (by decide)
theorem fr_0_arg6 (V : Valuation τ sig (Elt Ideal)) :
    StableHlo.after (hostOps2 (F := Ideal)) V (Proc.devRef .tc main_arg6) = V (Proc.devRef .tc main_arg6) :=
  frame_of (hostOps2 (F := Ideal)) V _ keeps_0 main_arg6 (by decide)

/-- No operation of stretch 1 writes any of these buffers. -/
theorem keeps_1 : (hostOps2_1 (F := Ideal) : List (HloOp τ sig (Elt Ideal))).Forall fun op =>
    ∀ r ∈ [main_arg0, main_arg2, main_arg6, main_v17], (Proc.devRef .tc r : DevRef τ sig) ∉ op.writes := by stretch_keeps0
theorem fr_1_arg0 (V : Valuation τ sig (Elt Ideal)) :
    StableHlo.after (hostOps2_1 (F := Ideal)) V (Proc.devRef .tc main_arg0) = V (Proc.devRef .tc main_arg0) :=
  frame_of (hostOps2_1 (F := Ideal)) V _ keeps_1 main_arg0 (by decide)
theorem fr_1_arg2 (V : Valuation τ sig (Elt Ideal)) :
    StableHlo.after (hostOps2_1 (F := Ideal)) V (Proc.devRef .tc main_arg2) = V (Proc.devRef .tc main_arg2) :=
  frame_of (hostOps2_1 (F := Ideal)) V _ keeps_1 main_arg2 (by decide)
theorem fr_1_arg6 (V : Valuation τ sig (Elt Ideal)) :
    StableHlo.after (hostOps2_1 (F := Ideal)) V (Proc.devRef .tc main_arg6) = V (Proc.devRef .tc main_arg6) :=
  frame_of (hostOps2_1 (F := Ideal)) V _ keeps_1 main_arg6 (by decide)
theorem fr_1_v17 (V : Valuation τ sig (Elt Ideal)) :
    StableHlo.after (hostOps2_1 (F := Ideal)) V (Proc.devRef .tc main_v17) = V (Proc.devRef .tc main_v17) :=
  frame_of (hostOps2_1 (F := Ideal)) V _ keeps_1 main_v17 (by decide)

/-- No operation of stretch 2 writes any of these buffers. -/
theorem keeps_2 : (hostOps2_2 (F := Ideal) : List (HloOp τ sig (Elt Ideal))).Forall fun op =>
    ∀ r ∈ [main_arg0, main_arg6, main_v17], (Proc.devRef .tc r : DevRef τ sig) ∉ op.writes := by stretch_keeps0
theorem fr_2_arg0 (V : Valuation τ sig (Elt Ideal)) :
    StableHlo.after (hostOps2_2 (F := Ideal)) V (Proc.devRef .tc main_arg0) = V (Proc.devRef .tc main_arg0) :=
  frame_of (hostOps2_2 (F := Ideal)) V _ keeps_2 main_arg0 (by decide)
theorem fr_2_arg6 (V : Valuation τ sig (Elt Ideal)) :
    StableHlo.after (hostOps2_2 (F := Ideal)) V (Proc.devRef .tc main_arg6) = V (Proc.devRef .tc main_arg6) :=
  frame_of (hostOps2_2 (F := Ideal)) V _ keeps_2 main_arg6 (by decide)
theorem fr_2_v17 (V : Valuation τ sig (Elt Ideal)) :
    StableHlo.after (hostOps2_2 (F := Ideal)) V (Proc.devRef .tc main_v17) = V (Proc.devRef .tc main_v17) :=
  frame_of (hostOps2_2 (F := Ideal)) V _ keeps_2 main_v17 (by decide)

/-- No operation of stretch 3 writes any of these buffers. -/
theorem keeps_3 : (hostOps2_3 (F := Ideal) : List (HloOp τ sig (Elt Ideal))).Forall fun op =>
    ∀ r ∈ [main_arg0, main_arg6, main_v17, main_v21, main_v23, main_v25, main_v27, main_v29], (Proc.devRef .tc r : DevRef τ sig) ∉ op.writes := by stretch_keeps0
theorem fr_3_arg0 (V : Valuation τ sig (Elt Ideal)) :
    StableHlo.after (hostOps2_3 (F := Ideal)) V (Proc.devRef .tc main_arg0) = V (Proc.devRef .tc main_arg0) :=
  frame_of (hostOps2_3 (F := Ideal)) V _ keeps_3 main_arg0 (by decide)
theorem fr_3_arg6 (V : Valuation τ sig (Elt Ideal)) :
    StableHlo.after (hostOps2_3 (F := Ideal)) V (Proc.devRef .tc main_arg6) = V (Proc.devRef .tc main_arg6) :=
  frame_of (hostOps2_3 (F := Ideal)) V _ keeps_3 main_arg6 (by decide)
theorem fr_3_v17 (V : Valuation τ sig (Elt Ideal)) :
    StableHlo.after (hostOps2_3 (F := Ideal)) V (Proc.devRef .tc main_v17) = V (Proc.devRef .tc main_v17) :=
  frame_of (hostOps2_3 (F := Ideal)) V _ keeps_3 main_v17 (by decide)
theorem fr_3_v21 (V : Valuation τ sig (Elt Ideal)) :
    StableHlo.after (hostOps2_3 (F := Ideal)) V (Proc.devRef .tc main_v21) = V (Proc.devRef .tc main_v21) :=
  frame_of (hostOps2_3 (F := Ideal)) V _ keeps_3 main_v21 (by decide)
theorem fr_3_v23 (V : Valuation τ sig (Elt Ideal)) :
    StableHlo.after (hostOps2_3 (F := Ideal)) V (Proc.devRef .tc main_v23) = V (Proc.devRef .tc main_v23) :=
  frame_of (hostOps2_3 (F := Ideal)) V _ keeps_3 main_v23 (by decide)
theorem fr_3_v25 (V : Valuation τ sig (Elt Ideal)) :
    StableHlo.after (hostOps2_3 (F := Ideal)) V (Proc.devRef .tc main_v25) = V (Proc.devRef .tc main_v25) :=
  frame_of (hostOps2_3 (F := Ideal)) V _ keeps_3 main_v25 (by decide)
theorem fr_3_v27 (V : Valuation τ sig (Elt Ideal)) :
    StableHlo.after (hostOps2_3 (F := Ideal)) V (Proc.devRef .tc main_v27) = V (Proc.devRef .tc main_v27) :=
  frame_of (hostOps2_3 (F := Ideal)) V _ keeps_3 main_v27 (by decide)
theorem fr_3_v29 (V : Valuation τ sig (Elt Ideal)) :
    StableHlo.after (hostOps2_3 (F := Ideal)) V (Proc.devRef .tc main_v29) = V (Proc.devRef .tc main_v29) :=
  frame_of (hostOps2_3 (F := Ideal)) V _ keeps_3 main_v29 (by decide)

/-- No operation of stretch 4 writes any of these buffers. -/
theorem keeps_4 : (hostOps2_4 (F := Ideal) : List (HloOp τ sig (Elt Ideal))).Forall fun op =>
    ∀ r ∈ [main_arg6, main_v17, main_v64], (Proc.devRef .tc r : DevRef τ sig) ∉ op.writes := by stretch_keeps0
theorem fr_4_arg6 (V : Valuation τ sig (Elt Ideal)) :
    StableHlo.after (hostOps2_4 (F := Ideal)) V (Proc.devRef .tc main_arg6) = V (Proc.devRef .tc main_arg6) :=
  frame_of (hostOps2_4 (F := Ideal)) V _ keeps_4 main_arg6 (by decide)
theorem fr_4_v17 (V : Valuation τ sig (Elt Ideal)) :
    StableHlo.after (hostOps2_4 (F := Ideal)) V (Proc.devRef .tc main_v17) = V (Proc.devRef .tc main_v17) :=
  frame_of (hostOps2_4 (F := Ideal)) V _ keeps_4 main_v17 (by decide)
theorem fr_4_v64 (V : Valuation τ sig (Elt Ideal)) :
    StableHlo.after (hostOps2_4 (F := Ideal)) V (Proc.devRef .tc main_v64) = V (Proc.devRef .tc main_v64) :=
  frame_of (hostOps2_4 (F := Ideal)) V _ keeps_4 main_v64 (by decide)

/-- No operation of stretch 5 writes any of these buffers. -/
theorem keeps_5 : (hostOps2_5 (F := Ideal) : List (HloOp τ sig (Elt Ideal))).Forall fun op =>
    ∀ r ∈ [main_arg6, main_v17, main_v64], (Proc.devRef .tc r : DevRef τ sig) ∉ op.writes := by stretch_keeps0
theorem fr_5_arg6 (V : Valuation τ sig (Elt Ideal)) :
    StableHlo.after (hostOps2_5 (F := Ideal)) V (Proc.devRef .tc main_arg6) = V (Proc.devRef .tc main_arg6) :=
  frame_of (hostOps2_5 (F := Ideal)) V _ keeps_5 main_arg6 (by decide)
theorem fr_5_v17 (V : Valuation τ sig (Elt Ideal)) :
    StableHlo.after (hostOps2_5 (F := Ideal)) V (Proc.devRef .tc main_v17) = V (Proc.devRef .tc main_v17) :=
  frame_of (hostOps2_5 (F := Ideal)) V _ keeps_5 main_v17 (by decide)
theorem fr_5_v64 (V : Valuation τ sig (Elt Ideal)) :
    StableHlo.after (hostOps2_5 (F := Ideal)) V (Proc.devRef .tc main_v64) = V (Proc.devRef .tc main_v64) :=
  frame_of (hostOps2_5 (F := Ideal)) V _ keeps_5 main_v64 (by decide)

/-- No operation of stretch 6 writes any of these buffers. -/
theorem keeps_6 : (hostOps2_6 (F := Ideal) : List (HloOp τ sig (Elt Ideal))).Forall fun op =>
    ∀ r ∈ [main_arg6, main_v17, main_v64, main_v174], (Proc.devRef .tc r : DevRef τ sig) ∉ op.writes := by stretch_keeps0
theorem fr_6_arg6 (V : Valuation τ sig (Elt Ideal)) :
    StableHlo.after (hostOps2_6 (F := Ideal)) V (Proc.devRef .tc main_arg6) = V (Proc.devRef .tc main_arg6) :=
  frame_of (hostOps2_6 (F := Ideal)) V _ keeps_6 main_arg6 (by decide)
theorem fr_6_v17 (V : Valuation τ sig (Elt Ideal)) :
    StableHlo.after (hostOps2_6 (F := Ideal)) V (Proc.devRef .tc main_v17) = V (Proc.devRef .tc main_v17) :=
  frame_of (hostOps2_6 (F := Ideal)) V _ keeps_6 main_v17 (by decide)
theorem fr_6_v64 (V : Valuation τ sig (Elt Ideal)) :
    StableHlo.after (hostOps2_6 (F := Ideal)) V (Proc.devRef .tc main_v64) = V (Proc.devRef .tc main_v64) :=
  frame_of (hostOps2_6 (F := Ideal)) V _ keeps_6 main_v64 (by decide)
theorem fr_6_v174 (V : Valuation τ sig (Elt Ideal)) :
    StableHlo.after (hostOps2_6 (F := Ideal)) V (Proc.devRef .tc main_v174) = V (Proc.devRef .tc main_v174) :=
  frame_of (hostOps2_6 (F := Ideal)) V _ keeps_6 main_v174 (by decide)

/-- No operation of stretch 7 writes any of these buffers. -/
theorem keeps_7 : (hostOps2_7 (F := Ideal) : List (HloOp τ sig (Elt Ideal))).Forall fun op =>
    ∀ r ∈ [main_arg6, main_v17, main_v64, main_v174], (Proc.devRef .tc r : DevRef τ sig) ∉ op.writes := by stretch_keeps0
theorem fr_7_arg6 (V : Valuation τ sig (Elt Ideal)) :
    StableHlo.after (hostOps2_7 (F := Ideal)) V (Proc.devRef .tc main_arg6) = V (Proc.devRef .tc main_arg6) :=
  frame_of (hostOps2_7 (F := Ideal)) V _ keeps_7 main_arg6 (by decide)
theorem fr_7_v17 (V : Valuation τ sig (Elt Ideal)) :
    StableHlo.after (hostOps2_7 (F := Ideal)) V (Proc.devRef .tc main_v17) = V (Proc.devRef .tc main_v17) :=
  frame_of (hostOps2_7 (F := Ideal)) V _ keeps_7 main_v17 (by decide)
theorem fr_7_v64 (V : Valuation τ sig (Elt Ideal)) :
    StableHlo.after (hostOps2_7 (F := Ideal)) V (Proc.devRef .tc main_v64) = V (Proc.devRef .tc main_v64) :=
  frame_of (hostOps2_7 (F := Ideal)) V _ keeps_7 main_v64 (by decide)
theorem fr_7_v174 (V : Valuation τ sig (Elt Ideal)) :
    StableHlo.after (hostOps2_7 (F := Ideal)) V (Proc.devRef .tc main_v174) = V (Proc.devRef .tc main_v174) :=
  frame_of (hostOps2_7 (F := Ideal)) V _ keeps_7 main_v174 (by decide)

/-- No operation of stretch 8 writes any of these buffers. -/
theorem keeps_8 : (hostOps2_8 (F := Ideal) : List (HloOp τ sig (Elt Ideal))).Forall fun op =>
    ∀ r ∈ [main_arg6, main_v17, main_v64, main_v174], (Proc.devRef .tc r : DevRef τ sig) ∉ op.writes := by stretch_keeps0
theorem fr_8_arg6 (V : Valuation τ sig (Elt Ideal)) :
    StableHlo.after (hostOps2_8 (F := Ideal)) V (Proc.devRef .tc main_arg6) = V (Proc.devRef .tc main_arg6) :=
  frame_of (hostOps2_8 (F := Ideal)) V _ keeps_8 main_arg6 (by decide)
theorem fr_8_v17 (V : Valuation τ sig (Elt Ideal)) :
    StableHlo.after (hostOps2_8 (F := Ideal)) V (Proc.devRef .tc main_v17) = V (Proc.devRef .tc main_v17) :=
  frame_of (hostOps2_8 (F := Ideal)) V _ keeps_8 main_v17 (by decide)
theorem fr_8_v64 (V : Valuation τ sig (Elt Ideal)) :
    StableHlo.after (hostOps2_8 (F := Ideal)) V (Proc.devRef .tc main_v64) = V (Proc.devRef .tc main_v64) :=
  frame_of (hostOps2_8 (F := Ideal)) V _ keeps_8 main_v64 (by decide)
theorem fr_8_v174 (V : Valuation τ sig (Elt Ideal)) :
    StableHlo.after (hostOps2_8 (F := Ideal)) V (Proc.devRef .tc main_v174) = V (Proc.devRef .tc main_v174) :=
  frame_of (hostOps2_8 (F := Ideal)) V _ keeps_8 main_v174 (by decide)

/-- No operation of stretch 9 writes any of these buffers. -/
theorem keeps_9 : (hostOps2_9 (F := Ideal) : List (HloOp τ sig (Elt Ideal))).Forall fun op =>
    ∀ r ∈ [main_arg6, main_v17, main_v64, main_v178], (Proc.devRef .tc r : DevRef τ sig) ∉ op.writes := by stretch_keeps0
theorem fr_9_arg6 (V : Valuation τ sig (Elt Ideal)) :
    StableHlo.after (hostOps2_9 (F := Ideal)) V (Proc.devRef .tc main_arg6) = V (Proc.devRef .tc main_arg6) :=
  frame_of (hostOps2_9 (F := Ideal)) V _ keeps_9 main_arg6 (by decide)
theorem fr_9_v17 (V : Valuation τ sig (Elt Ideal)) :
    StableHlo.after (hostOps2_9 (F := Ideal)) V (Proc.devRef .tc main_v17) = V (Proc.devRef .tc main_v17) :=
  frame_of (hostOps2_9 (F := Ideal)) V _ keeps_9 main_v17 (by decide)
theorem fr_9_v64 (V : Valuation τ sig (Elt Ideal)) :
    StableHlo.after (hostOps2_9 (F := Ideal)) V (Proc.devRef .tc main_v64) = V (Proc.devRef .tc main_v64) :=
  frame_of (hostOps2_9 (F := Ideal)) V _ keeps_9 main_v64 (by decide)
theorem fr_9_v178 (V : Valuation τ sig (Elt Ideal)) :
    StableHlo.after (hostOps2_9 (F := Ideal)) V (Proc.devRef .tc main_v178) = V (Proc.devRef .tc main_v178) :=
  frame_of (hostOps2_9 (F := Ideal)) V _ keeps_9 main_v178 (by decide)

end Cert.KernelIdeal.Hand.P0F

end
-- ==== Proof.KI.NaryLemmas.lean ====
/-
  Reading a line of host operations at one buffer, through concatenates of any number of operands.

  The library's one-pass reading of a line (its result lemmas stated for `simp`) stops at a concatenate of three or five
  operands: the operands' contents stand under a binder at the reference `![x₀, …] k`, which is no literal. Two ways past
  it are given here. (1) The result of such an operation with each operand's contents at its own reference
  (`nary3_result`, `nary5_result`), for rewriting. (2) `line_results`: the library's pass together with the evaluation of
  a literal vector at a literal position, so that after the operation's function is applied the operand `u k` reads
  `F ↑xₖ` and the pass goes on through it.
-/
import Idealize.ShloMosaic.Lib.StableHlo.Run
import Mathlib.Data.Fin.VecNotation

noncomputable section

namespace Cert.Hand.Nary

open Idealize.ShloMosaic Idealize.ShloMosaic.StableHlo

variable {τ : Topo} {sig : RefSig} {Val : EltTy → Type}

theorem nary5_result {x0 x1 x2 x3 x4 y : Ref sig .tc}
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) := by
  rw [nary_result]; congr 1; funext k; fin_cases k <;> rfl

theorem nary3_result {x0 x1 x2 y : Ref sig .tc}
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = f (Fin.cons (F (Proc.devRef .tc x0)) (Fin.cons (F (Proc.devRef .tc x1)) (Fin.cons (F (Proc.devRef .tc x2))
          (fun i => i.elim0)))) := by
  rw [nary_result]; congr 1; funext k; fin_cases k <;> rfl

end Cert.Hand.Nary

/-- One pass over a line of operations: each operation's result at its own buffer is its function's value, at any other
    buffer what was there; a concatenate's operand `u k` is read at its own buffer (the literal vector of references
    evaluated at the literal `k`). -/
macro "line_results" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nary_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Matrix.cons_val]))

end
-- ==== Proof.KI.Pos0Cls.lean ====
import proofs.«424358_j44040594653645_2_alg».proof.Proof.KI.Pos0Base
import proofs.«424358_j44040594653645_2_alg».proof.Proof.KI.NaryLemmas
import proofs.«424358_j44040594653645_2_alg».proof.Proof.KI.Writes

set_option maxRecDepth 16384

noncomputable section

/-
  The class word of a positive sample before masking. The stretch cuts the masked coordinate table into its four columns,
  counts each word from the end of its axis when it is negative (extents 3, 64, 64, 64), does the same for the batch
  number (extent 4), joins the five columns into one start-index table, gathers the label map at it (every start word read
  signed and clamped into its axis) and truncates the gathered value to an integer. The columns are read first, each on
  its own; the join, the gather and the truncation are the stretch's last operations and are read from the valuation the
  earlier ones leave.
-/

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.Hand Cert.Hand.Readers
open Facts₀
open scoped BigOperators

variable {F : FTy → Type} [FloatOps F]

/-! ## The stretch's last four operations -/

/-- The five index columns joined, the label map gathered at them, the gathered value truncated to an integer (and a zero
    constant for the next stretch). -/
abbrev last4_2 : List (HloOp τ sig (Elt F)) :=
  [ StableHlo.nary ![main_v56, main_v57, main_v58, main_v59, main_v60] main_v61 (fun u => concatenate S4x128x5 2 [⟨S4x128x1, u 0⟩, ⟨S4x128x1, u 1⟩, ⟨S4x128x1, u 2⟩, ⟨S4x128x1, u 3⟩, ⟨S4x128x1, u 4⟩] Gen.concatenates_S4x128x1_S4x128x1_S4x128x1_S4x128x1_S4x128x1_S4x128x5_d2),
    StableHlo.binary main_arg2 main_v61 main_v62 ((fun x i => Host.gather gather_S4x3x64x64x64_S4x128x5_S4x128_n_01234_n_n_01234_2_11111 x i) : (⟨S4x3x64x64x64, .f32⟩ : BufTy).Contents (Elt F) → (⟨S4x128x5, .i32⟩ : BufTy).Contents (Elt F) → (⟨S4x128, .f32⟩ : BufTy).Contents (Elt F)),
    StableHlo.unary main_v62 main_v63 (fptosi 32 : (⟨S4x128, .f32⟩ : BufTy).Contents (Elt F) → (⟨S4x128, .i32⟩ : BufTy).Contents (Elt F)),
    StableHlo.nullary main_c_14 (constantI S_ 32 0#32) ]

/-- They are the stretch's tail. -/
theorem hostOps2_2_split : (hostOps2_2 : List (HloOp τ sig (Elt F))) = List.take 51 hostOps2_2 ++ last4_2 := rfl

/-- They write four buffers only. -/
theorem last4_2_keep (Vp : Valuation τ sig (Elt F)) (r : Ref sig .tc)
    (hr : r ∉ ([main_v61, main_v62, main_v63, main_c_14] : List (Ref sig .tc))) :
    StableHlo.after (last4_2 (F := F)) Vp (Proc.devRef .tc r) = Vp (Proc.devRef .tc r) := by
  refine StableHlo.after_of_writes_sub (W := [main_v61, main_v62, main_v63, main_c_14]) _ Vp ?_ hr
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the stretch does not write is unchanged after its first operations. -/
theorem take_2_keep (n : ℕ) (V : Valuation τ sig (Elt F)) (r : Ref sig .tc) (hr : r ∉ hostOps2_2_W) :
    StableHlo.after (List.take n (hostOps2_2 (F := F))) V (Proc.devRef .tc r) = V (Proc.devRef .tc r) :=
  StableHlo.after_of_writes_sub _ V
    (List.forall_iff_forall_mem.mpr fun op hop => (List.forall_iff_forall_mem.mp hostOps2_2_writes) op (List.mem_of_mem_take hop)) hr

/-- A buffer the last four operations do not write holds at the stretch's end what it held before them. -/
theorem before_last4_2 (V : Valuation τ sig (Elt F)) (r : Ref sig .tc)
    (hr : r ∉ ([main_v61, main_v62, main_v63, main_c_14] : List (Ref sig .tc))) :
    StableHlo.after (List.take 51 (hostOps2_2 (F := F))) V (Proc.devRef .tc r) = StableHlo.after hostOps2_2 V (Proc.devRef .tc r) := by
  conv_rhs => rw [hostOps2_2_split, StableHlo.after_append]
  exact (last4_2_keep _ r hr).symm

/-- The batch column: the batch number, counted from the end when negative. -/
theorem st2_2_v56 (V : Valuation τ sig (Elt Ideal)) (b : Fin 4) (p : Fin 128) :
    (StableHlo.after (hostOps2_2 (F := Ideal)) V (Proc.devRef .tc main_v56) : S4x128x1.Idx → BitVec 32) (ix3 b p 0)
      = nw (BitVec.ofNat 32 b.val) 4#32 := by
  show StableHlo.after hostOps2_2 _ (Proc.devRef .tc main_v56) _ = _
  line_results
  lay
  rfl

/-- Coordinate column 0: the masked coordinate word, counted from the end of its axis (extent 3) when negative. -/
theorem st2_2_v57 (V : Valuation τ sig (Elt Ideal)) (b : Fin 4) (p : Fin 128) :
    (StableHlo.after (hostOps2_2 (F := Ideal)) V (Proc.devRef .tc main_v57) : S4x128x1.Idx → BitVec 32) (ix3 b p 0)
      = nw ((V (Proc.devRef .tc main_v19) : S4x128x4.Idx → BitVec 32) (ix3 b p 0)) 3#32 := by
  show StableHlo.after hostOps2_2 _ (Proc.devRef .tc main_v57) _ = _
  line_results
  lay
  rfl

/-- Coordinate column 1: the masked coordinate word, counted from the end of its axis (extent 64) when negative. -/
theorem st2_2_v58 (V : Valuation τ sig (Elt Ideal)) (b : Fin 4) (p : Fin 128) :
    (StableHlo.after (hostOps2_2 (F := Ideal)) V (Proc.devRef .tc main_v58) : S4x128x1.Idx → BitVec 32) (ix3 b p 0)
      = nw ((V (Proc.devRef .tc main_v19) : S4x128x4.Idx → BitVec 32) (ix3 b p 1)) 64#32 := by
  show StableHlo.after hostOps2_2 _ (Proc.devRef .tc main_v58) _ = _
  line_results
  lay
  rfl

/-- Coordinate column 2: the masked coordinate word, counted from the end of its axis (extent 64) when negative. -/
theorem st2_2_v59 (V : Valuation τ sig (Elt Ideal)) (b : Fin 4) (p : Fin 128) :
    (StableHlo.after (hostOps2_2 (F := Ideal)) V (Proc.devRef .tc main_v59) : S4x128x1.Idx → BitVec 32) (ix3 b p 0)
      = nw ((V (Proc.devRef .tc main_v19) : S4x128x4.Idx → BitVec 32) (ix3 b p 2)) 64#32 := by
  show StableHlo.after hostOps2_2 _ (Proc.devRef .tc main_v59) _ = _
  line_results
  lay
  rfl

/-- Coordinate column 3: the masked coordinate word, counted from the end of its axis (extent 64) when negative. -/
theorem st2_2_v60 (V : Valuation τ sig (Elt Ideal)) (b : Fin 4) (p : Fin 128) :
    (StableHlo.after (hostOps2_2 (F := Ideal)) V (Proc.devRef .tc main_v60) : S4x128x1.Idx → BitVec 32) (ix3 b p 0)
      = nw ((V (Proc.devRef .tc main_v19) : S4x128x4.Idx → BitVec 32) (ix3 b p 3)) 64#32 := by
  show StableHlo.after hostOps2_2 _ (Proc.devRef .tc main_v60) _ = _
  line_results
  lay
  rfl

/-- The last four operations read at a sample, from the valuation before them. -/
theorem last4_2_v63 (Vp : Valuation τ sig (Elt Ideal)) (b : Fin 4) (p : Fin 128) :
    (StableHlo.after (last4_2 (F := Ideal)) Vp (Proc.devRef .tc main_v63) : S4x128.Idx → BitVec 32) (ix2 b p)
      = Ideal.fptosi 32 ((Vp (Proc.devRef .tc main_arg2) : S4x3x64x64x64.Idx → EReal)
          (ix5 (clampFin 3 ((Vp (Proc.devRef .tc main_v56) : S4x128x1.Idx → BitVec 32) (ix3 b p 0)) : Fin 4)
            (clampFin 2 ((Vp (Proc.devRef .tc main_v57) : S4x128x1.Idx → BitVec 32) (ix3 b p 0)) : Fin 3)
            (clampFin 63 ((Vp (Proc.devRef .tc main_v58) : S4x128x1.Idx → BitVec 32) (ix3 b p 0)) : Fin 64)
            (clampFin 63 ((Vp (Proc.devRef .tc main_v59) : S4x128x1.Idx → BitVec 32) (ix3 b p 0)) : Fin 64)
            (clampFin 63 ((Vp (Proc.devRef .tc main_v60) : S4x128x1.Idx → BitVec 32) (ix3 b p 0)) : Fin 64))) := by
  show StableHlo.after last4_2 _ (Proc.devRef .tc main_v63) _ = _
  line_results
  lay

/-- The class word before masking, at a sample: the label map at the batch number and the four masked coordinate words
    (each counted from the end of its axis when negative, read signed and clamped into the axis), truncated to an integer. -/
theorem st2_2_v63 (V : Valuation τ sig (Elt Ideal)) (b : Fin 4) (p : Fin 128) :
    (StableHlo.after (hostOps2_2 (F := Ideal)) V (Proc.devRef .tc main_v63) : S4x128.Idx → BitVec 32) (ix2 b p)
      = Ideal.fptosi 32 ((V (Proc.devRef .tc main_arg2) : S4x3x64x64x64.Idx → EReal)
          (ix5 (clampFin 3 (nw (BitVec.ofNat 32 b.val) 4#32) : Fin 4)
            (clampFin 2 (nw ((V (Proc.devRef .tc main_v19) : S4x128x4.Idx → BitVec 32) (ix3 b p 0)) 3#32) : Fin 3)
            (clampFin 63 (nw ((V (Proc.devRef .tc main_v19) : S4x128x4.Idx → BitVec 32) (ix3 b p 1)) 64#32) : Fin 64)
            (clampFin 63 (nw ((V (Proc.devRef .tc main_v19) : S4x128x4.Idx → BitVec 32) (ix3 b p 2)) 64#32) : Fin 64)
            (clampFin 63 (nw ((V (Proc.devRef .tc main_v19) : S4x128x4.Idx → BitVec 32) (ix3 b p 3)) 64#32) : Fin 64))) := by
  rw [← st2_2_v56 V b p, ← st2_2_v57 V b p, ← st2_2_v58 V b p, ← st2_2_v59 V b p, ← st2_2_v60 V b p,
    ← before_last4_2 V main_v56 (by decide), ← before_last4_2 V main_v57 (by decide), ← before_last4_2 V main_v58 (by decide),
    ← before_last4_2 V main_v59 (by decide), ← before_last4_2 V main_v60 (by decide),
    ← take_2_keep 51 V main_arg2 (by decide)]
  conv_lhs => rw [hostOps2_2_split, StableHlo.after_append]
  exact last4_2_v63 _ b p

end Cert.KernelIdeal.Hand

end
-- ==== Proof.KI.Pos0Logits.lean ====
import proofs.«424358_j44040594653645_2_alg».proof.Proof.KI.Pos0Base

set_option maxRecDepth 16384

noncomputable section

/-!
  The stretch of the positive part of level 0 that gathers the three class logits of every sample: each logit read at a
  sample from the coordinate columns, the batch column and the logit array — the array at the batch position, the channel
  word (class offset plus anchor word), and the depth, height and width words, each counted from the end when negative and
  clamped into its axis.
-/

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.Hand Cert.Hand.Readers
open Facts₀

/-- The buffers after a line of operations, as one simp pass that also evaluates a literal vector of references at a
    literal position (a concatenation's operands). A concatenation under a gather is read once the gather has been read at
    the index: hence two passes below. -/
macro "after_read2" : tactic =>
  `(tactic| (simp (disch := decide) only [after_cons, after_nil,
      nullary_result', unary_result', binary_result', ternary_result', quaternary_result', reshape_result', nary_result',
      Matrix.cons_val,
      nullary_result_ne', unary_result_ne', binary_result_ne', ternary_result_ne', quaternary_result_ne', reshape_result_ne',
      nary_result_ne']))

section Logits
variable (V : Valuation τ sig (Elt Ideal))

set_option maxHeartbeats 4000000 in
theorem st2_4_v173 (b : Fin 4) (p : Fin 128) :
    (StableHlo.after (hostOps2_4 (F := Ideal)) V (Proc.devRef .tc main_v173) : S4x128x3.Idx → EReal) (ix3 b p 0)
        = (V (Proc.devRef .tc main_arg0) : S4x9x64x64x64.Idx → EReal) (ix5 (clampFin 3 (nw ((V (Proc.devRef .tc main_v29) : S4x1.Idx → BitVec 32) (ix2 b 0)) 4#32) : Fin 4)
            (clampFin 8 (nw (IntOp.addi 0#32 ((V (Proc.devRef .tc main_v21) : S4x128.Idx → BitVec 32) (ix2 b p))) 9#32) : Fin 9)
            (clampFin 63 (nw ((V (Proc.devRef .tc main_v23) : S4x128.Idx → BitVec 32) (ix2 b p)) 64#32) : Fin 64)
            (clampFin 63 (nw ((V (Proc.devRef .tc main_v25) : S4x128.Idx → BitVec 32) (ix2 b p)) 64#32) : Fin 64)
            (clampFin 63 (nw ((V (Proc.devRef .tc main_v27) : S4x128.Idx → BitVec 32) (ix2 b p)) 64#32) : Fin 64))
    ∧ (StableHlo.after (hostOps2_4 (F := Ideal)) V (Proc.devRef .tc main_v173) : S4x128x3.Idx → EReal) (ix3 b p 1)
        = (V (Proc.devRef .tc main_arg0) : S4x9x64x64x64.Idx → EReal) (ix5 (clampFin 3 (nw ((V (Proc.devRef .tc main_v29) : S4x1.Idx → BitVec 32) (ix2 b 0)) 4#32) : Fin 4)
            (clampFin 8 (nw (IntOp.addi 3#32 ((V (Proc.devRef .tc main_v21) : S4x128.Idx → BitVec 32) (ix2 b p))) 9#32) : Fin 9)
            (clampFin 63 (nw ((V (Proc.devRef .tc main_v23) : S4x128.Idx → BitVec 32) (ix2 b p)) 64#32) : Fin 64)
            (clampFin 63 (nw ((V (Proc.devRef .tc main_v25) : S4x128.Idx → BitVec 32) (ix2 b p)) 64#32) : Fin 64)
            (clampFin 63 (nw ((V (Proc.devRef .tc main_v27) : S4x128.Idx → BitVec 32) (ix2 b p)) 64#32) : Fin 64))
    ∧ (StableHlo.after (hostOps2_4 (F := Ideal)) V (Proc.devRef .tc main_v173) : S4x128x3.Idx → EReal) (ix3 b p 2)
        = (V (Proc.devRef .tc main_arg0) : S4x9x64x64x64.Idx → EReal) (ix5 (clampFin 3 (nw ((V (Proc.devRef .tc main_v29) : S4x1.Idx → BitVec 32) (ix2 b 0)) 4#32) : Fin 4)
            (clampFin 8 (nw (IntOp.addi 6#32 ((V (Proc.devRef .tc main_v21) : S4x128.Idx → BitVec 32) (ix2 b p))) 9#32) : Fin 9)
            (clampFin 63 (nw ((V (Proc.devRef .tc main_v23) : S4x128.Idx → BitVec 32) (ix2 b p)) 64#32) : Fin 64)
            (clampFin 63 (nw ((V (Proc.devRef .tc main_v25) : S4x128.Idx → BitVec 32) (ix2 b p)) 64#32) : Fin 64)
            (clampFin 63 (nw ((V (Proc.devRef .tc main_v27) : S4x128.Idx → BitVec 32) (ix2 b p)) 64#32) : Fin 64)) := by
  refine ⟨?_, ?_, ?_⟩ <;> (after_read2; lay; after_read2; lay; rfl)

end Logits

end Cert.KernelIdeal.Hand
end
-- ==== Proof.Ref.LsmLemmas.lean ====
/-
  The log-softmax over three classes as an array program, at any spatial extent `n`: the logits [4, 9, n, n, n] recast
  as [4, 3, 3, n, n, n] (class, anchor), the class maximum by a reduction from -∞, the sum of the shifted exponentials,
  and the shifted logit minus that sum's logarithm. Read at an index it is the specification's `logpAt` over the
  logits' reader: the maximum from -∞ of three numbers is their maximum, and zero plus a sum is the sum.
-/
import proofs.«424358_j44040594653645_2_alg».proof.Proof.Spec
import proofs.«424358_j44040594653645_2_alg».proof.Proof.Readers
import Idealize.ShloMosaic.Lib.ValueIdxRank6
import Idealize.ShloMosaic.Lib.Pipeline.Value
import Idealize.ShloMosaic.Lib.IdealHost
import Idealize.ShloMosaic.PureOps.Ideal.Laws
import Idealize.ShloMosaic.PureOps.Reduce

noncomputable section

namespace Cert.Hand.RefLsm

open Idealize.ShloMosaic Idealize.ShloMosaic.ValueIdx Cert.Hand Cert.Hand.Readers

/-! ## Shapes of a level -/

/-- The logits: batch, nine channels, three spatial axes. -/
abbrev SA (n : ℕ) : Shape := ⟨5, ![4, 9, n, n, n]⟩
/-- One value per batch, anchor and voxel. -/
abbrev SB (n : ℕ) : Shape := ⟨5, ![4, 3, n, n, n]⟩
/-- The logits by class and anchor. -/
abbrev SC (n : ℕ) : Shape := ⟨6, ![4, 3, 3, n, n, n]⟩
/-- One class kept. -/
abbrev SD (n : ℕ) : Shape := ⟨6, ![4, 1, 3, n, n, n]⟩
/-- The scalar shape. -/
abbrev SZ : Shape := ⟨0, ![]⟩

/-- The shape relations the log-softmax's operations rest on. -/
structure LsmFacts (n : ℕ) : Prop where
  cast0 : (SA n).ShapeCasts (SC n)
  red1 : (SC n).ReducesTo [1] (SB n)
  red1' : (SC n).Reduces [1] (SB n)
  hZ : 0 < SZ.numel
  bZB : SZ.BroadcastsInDim (SB n) (![] : Fin 0 → Fin (SB n).rank)
  bBD : (SB n).BroadcastsInDim (SD n) (![0, 2, 3, 4, 5] : Fin 5 → Fin (SD n).rank)
  bDC : (SD n).BroadcastsInDim (SC n) (![0, 1, 2, 3, 4, 5] : Fin 6 → Fin (SC n).rank)

/-! ## Small facts -/

/-- The f32 pattern of -∞ is the least extended real. -/
theorem ofBits_negInf_f32 : Ideal.ofBits .f32 0xFF800000#32 = ⊥ := by simp [Ideal.ofBits, Ideal.ieee]

/-- A fold over three positions, written out. -/
theorem fold_univ_fin3 {α : Type} (f : α → α → α) [Std.Commutative f] [Std.Associative f] (b : α) (g : Fin 3 → α) :
    (Finset.univ : Finset (Fin 3)).fold f b g = f (g 0) (f (g 1) (f (g 2) b)) := by
  simp only [Fin.univ_succ, Finset.fold_cons, Finset.fold_map, Finset.univ_unique, Finset.fold_singleton]
  rfl

/-- A coordinate of an axis of extent `n` read through a broadcast: itself, also when the extent is one. -/
theorem bcast_coord {n : ℕ} (d : Fin n) : d.val = if n = 1 then 0 else d.val := by
  split_ifs with h1
  · have := d.isLt; omega
  · rfl

section Level

variable {n : ℕ} (L : LsmFacts n)

/-! ## The operations -/

/-- The logits by class and anchor. -/
def v0 (x0 : FVec Ideal (SA n) .f32) : FVec Ideal (SC n) .f32 := shapeCast _ x0 L.cast0
/-- The scalar -∞. -/
def negInf : FVec Ideal SZ .f32 := constant SZ .f32 0xFF800000#32
/-- The scalar zero. -/
def zero : FVec Ideal SZ .f32 := constant SZ .f32 0x00000000#32
/-- The class maximum. -/
def c0 (x0 : FVec Ideal (SA n) .f32) : FVec Ideal (SB n) .f32 := Host.reduce FloatOps.maximumf (v0 L x0) negInf L.red1 L.hZ
def c1 : FVec Ideal (SB n) .f32 := broadcastInDim (SB n) ![] L.bZB negInf
def c2 (x0 : FVec Ideal (SA n) .f32) : FVec Ideal (SB n) .f32 := maximumf (c1 L) (c0 L x0)
def c3 (x0 : FVec Ideal (SA n) .f32) : FVec Ideal (SD n) .f32 := broadcastInDim (SD n) ![0, 2, 3, 4, 5] L.bBD (c2 L x0)
def c4 (x0 : FVec Ideal (SA n) .f32) : FVec Ideal (SC n) .f32 := broadcastInDim (SC n) ![0, 1, 2, 3, 4, 5] L.bDC (c3 L x0)
/-- The shifted logits. -/
def c5 (x0 : FVec Ideal (SA n) .f32) : FVec Ideal (SC n) .f32 := subf (v0 L x0) (c4 L x0)
def c6 (x0 : FVec Ideal (SA n) .f32) : FVec Ideal (SC n) .f32 := Host.exp (c5 L x0)
/-- The sum of the shifted exponentials over the classes. -/
def c7 (x0 : FVec Ideal (SA n) .f32) : FVec Ideal (SB n) .f32 := Host.reduceAdd (c6 L x0) zero L.red1 L.hZ
def c8 (x0 : FVec Ideal (SA n) .f32) : FVec Ideal (SD n) .f32 := broadcastInDim (SD n) ![0, 2, 3, 4, 5] L.bBD (c7 L x0)
def c9 (x0 : FVec Ideal (SA n) .f32) : FVec Ideal (SD n) .f32 := Host.log (c8 L x0)
def c10 (x0 : FVec Ideal (SA n) .f32) : FVec Ideal (SC n) .f32 := broadcastInDim (SC n) ![0, 1, 2, 3, 4, 5] L.bDC (c9 L x0)
/-- The log-softmax. -/
def v1 (x0 : FVec Ideal (SA n) .f32) : FVec Ideal (SC n) .f32 := subf (c5 L x0) (c10 L x0)

/-! ## Read at an index -/

variable (x0 : FVec Ideal (SA n) .f32) (b : Fin 4) (k a : Fin 3) (d h w : Fin n)

/-- Channel `3 k + a` is class `k` of anchor `a`. -/
theorem chan_lt : 3 * k.val + a.val < 9 := by have := k.isLt; have := a.isLt; omega

/-- The recast logits at (b, k, a, d, h, w) are the logits at channel `3 k + a`. -/
theorem v0_apply : v0 L x0 (ix6 b k a d h w) = x0 (ix5 b ⟨3 * k.val + a.val, chan_lt k a⟩ d h w) := by
  unfold v0
  refine shapeCast_apply x0 L.cast0 _ _ ?_
  rw [Shape.rowMajor_val_five, Shape.rowMajor_val_six]
  show (((b.val * 9 + (3 * k.val + a.val)) * n + d.val) * n + h.val) * n + w.val
      = ((((b.val * 3 + k.val) * 3 + a.val) * n + d.val) * n + h.val) * n + w.val
  have e : b.val * 9 + (3 * k.val + a.val) = (b.val * 3 + k.val) * 3 + a.val := by omega
  rw [e]

/-- The reduced index (b, a, d, h, w) with class `k` put back. -/
theorem lift_ix5 (R : (SC n).Reduces [1] (SB n)) (k : Fin ((SC n).size 1)) :
    R.lift (ix5 b a d h w) k = ix6 b (⟨k.val, k.isLt⟩ : Fin 3) a d h w := by
  funext c; apply Fin.ext
  fin_cases c <;> rfl

/-- The class maximum at (b, a, d, h, w): the maximum of the three class logits of anchor `a`. -/
theorem c0_apply : c0 L x0 (ix5 b a d h w)
    = Spec.m3 (x0 (ix5 b ⟨3 * (0 : Fin 3).val + a.val, chan_lt 0 a⟩ d h w)) (x0 (ix5 b ⟨3 * (1 : Fin 3).val + a.val, chan_lt 1 a⟩ d h w))
        (x0 (ix5 b ⟨3 * (2 : Fin 3).val + a.val, chan_lt 2 a⟩ d h w)) := by
  unfold c0
  rw [Host.reduce_eq_fold_single FloatOps.maximumf (v0 L x0) negInf L.red1 L.red1' L.hZ]
  have e := fold_univ_fin3 (FloatOps.maximumf (F := Ideal) (φ := .f32)) (negInf (Shape.Idx.first L.hZ))
    (fun k : Fin 3 => v0 L x0 (ix6 b k a d h w))
  refine Eq.trans ?_ (e.trans ?_)
  · exact congrArg (fun f => Finset.fold (FloatOps.maximumf (F := Ideal) (φ := .f32)) (negInf (Shape.Idx.first L.hZ)) f
      (Finset.univ : Finset (Fin 3))) (funext fun k => congrArg (v0 L x0) (lift_ix5 b a d h w L.red1' k))
  · rw [v0_apply, v0_apply, v0_apply]
    show max _ (max _ (max _ (Ideal.ofBits .f32 0xFF800000#32))) = _
    rw [ofBits_negInf_f32, max_bot_right, ← max_assoc]
    rfl

/-- The broadcast -∞. -/
theorem c1_apply (j : (SB n).Idx) : c1 L j = ⊥ := by
  unfold c1
  rw [broadcastInDim_apply _ L.bZB negInf j ix0 (fun a => a.elim0)]
  exact ofBits_negInf_f32

theorem c2_apply : c2 L x0 (ix5 b a d h w)
    = Spec.m3 (x0 (ix5 b ⟨3 * (0 : Fin 3).val + a.val, chan_lt 0 a⟩ d h w)) (x0 (ix5 b ⟨3 * (1 : Fin 3).val + a.val, chan_lt 1 a⟩ d h w))
        (x0 (ix5 b ⟨3 * (2 : Fin 3).val + a.val, chan_lt 2 a⟩ d h w)) := by
  show max (c1 L (ix5 b a d h w)) (c0 L x0 (ix5 b a d h w)) = _
  rw [c1_apply, c0_apply, max_bot_left]

/-- A value per (b, a, d, h, w) broadcast over a unit class axis. -/
theorem bBD_apply (y : FVec Ideal (SB n) .f32) (z : Fin 1) :
    broadcastInDim (SD n) ![0, 2, 3, 4, 5] L.bBD y (ix6 b z a d h w) = y (ix5 b a d h w) :=
  broadcastInDim_apply _ L.bBD y (ix6 b z a d h w) (ix5 b a d h w) (fun c => match c with
    | ⟨0, _⟩ => by show b.val = if (4 : Nat) = 1 then 0 else b.val; rw [if_neg (by decide)]
    | ⟨1, _⟩ => by show a.val = if (3 : Nat) = 1 then 0 else a.val; rw [if_neg (by decide)]
    | ⟨2, _⟩ => bcast_coord d
    | ⟨3, _⟩ => bcast_coord h
    | ⟨4, _⟩ => bcast_coord w)

/-- The unit class axis broadcast over the three classes. -/
theorem bDC_apply (y : FVec Ideal (SD n) .f32) :
    broadcastInDim (SC n) ![0, 1, 2, 3, 4, 5] L.bDC y (ix6 b k a d h w) = y (ix6 b (0 : Fin 1) a d h w) :=
  broadcastInDim_apply _ L.bDC y (ix6 b k a d h w) (ix6 b (0 : Fin 1) a d h w) (fun c => match c with
    | ⟨0, _⟩ => by show b.val = if (4 : Nat) = 1 then 0 else b.val; rw [if_neg (by decide)]
    | ⟨1, _⟩ => by show 0 = if (1 : Nat) = 1 then 0 else k.val; rw [if_pos rfl]
    | ⟨2, _⟩ => by show a.val = if (3 : Nat) = 1 then 0 else a.val; rw [if_neg (by decide)]
    | ⟨3, _⟩ => bcast_coord d
    | ⟨4, _⟩ => bcast_coord h
    | ⟨5, _⟩ => bcast_coord w)

theorem c4_apply : c4 L x0 (ix6 b k a d h w) = c2 L x0 (ix5 b a d h w) := by
  unfold c4 c3
  rw [bDC_apply L, bBD_apply L]

/-- The sum of the shifted exponentials at (b, a, d, h, w). -/
theorem c7_apply : c7 L x0 (ix5 b a d h w) = 0 + ∑ k' : Fin 3, c6 L x0 (ix6 b k' a d h w) := by
  unfold c7
  simp only [Host.reduceAdd, Ideal.hostReduceAdd_def]
  rw [Ideal.hostReduceAdd_single L.red1 L.red1']
  refine congrArg₂ (· + ·) ?_ (Finset.sum_congr rfl fun k' _ => ?_)
  · show Ideal.ofBits .f32 0x00000000#32 = 0
    exact Ideal.ofBits_zero_f32
  · exact congrArg (c6 L x0) (lift_ix5 b a d h w L.red1' k')

theorem c10_apply : c10 L x0 (ix6 b k a d h w) = Ideal.log (c7 L x0 (ix5 b a d h w)) := by
  unfold c10
  rw [bDC_apply L]
  show Ideal.log (c8 L x0 (ix6 b (0 : Fin 1) a d h w)) = _
  unfold c8
  rw [bBD_apply L]

/-- The logits' reader at class `k` of anchor `a`. -/
theorem xk_rd5 : Spec.xk (rd5 x0) k.val b.val a.val d.val h.val w.val = x0 (ix5 b ⟨3 * k.val + a.val, chan_lt k a⟩ d h w) :=
  rd5_ix5 x0 b ⟨3 * k.val + a.val, chan_lt k a⟩ d h w

/-- THE LOG-SOFTMAX READ AT (b, k, a, d, h, w): the specification's over the logits' reader. -/
theorem v1_apply : v1 L x0 (ix6 b k a d h w) = Spec.logpAt (rd5 x0) k.val b.val a.val d.val h.val w.val := by
  have e5 : ∀ k' : Fin 3, c5 L x0 (ix6 b k' a d h w)
      = Spec.xk (rd5 x0) k'.val b.val a.val d.val h.val w.val
        - Spec.m3 (Spec.xk (rd5 x0) 0 b.val a.val d.val h.val w.val) (Spec.xk (rd5 x0) 1 b.val a.val d.val h.val w.val)
            (Spec.xk (rd5 x0) 2 b.val a.val d.val h.val w.val) := by
    intro k'
    show v0 L x0 (ix6 b k' a d h w) - c4 L x0 (ix6 b k' a d h w) = _
    rw [v0_apply, c4_apply, c2_apply, xk_rd5]
    exact congrArg₂ (· - ·) rfl (congrArg₂ _ (congrArg₂ _ (xk_rd5 x0 b 0 a d h w).symm (xk_rd5 x0 b 1 a d h w).symm) (xk_rd5 x0 b 2 a d h w).symm)
  show c5 L x0 (ix6 b k a d h w) - c10 L x0 (ix6 b k a d h w) = _
  rw [c10_apply, c7_apply, zero_add, Fin.sum_univ_three]
  show c5 L x0 (ix6 b k a d h w) - Ideal.log (Ideal.exp (c5 L x0 (ix6 b 0 a d h w)) + Ideal.exp (c5 L x0 (ix6 b 1 a d h w))
    + Ideal.exp (c5 L x0 (ix6 b 2 a d h w))) = _
  rw [e5, e5, e5, e5]
  rfl

end Level

end Cert.Hand.RefLsm

end
-- ==== Proof.KI.Lsm3.lean ====
/-
  The log-softmax along the last axis of an array `[R, C, 3]` as an array program: the row maximum by a reduction from -∞,
  the sum of the shifted exponentials, and the shifted entry minus that sum's logarithm. Read at an index it is the
  specification's `logp` of the row's three entries.
-/
import proofs.«424358_j44040594653645_2_alg».proof.Proof.Spec
import proofs.«424358_j44040594653645_2_alg».proof.Proof.Ref.LsmLemmas

noncomputable section

namespace Cert.Hand.Lsm3

open Idealize.ShloMosaic Idealize.ShloMosaic.ValueIdx Cert.Hand Cert.Hand.RefLsm

/-- The rows of three. -/
abbrev SX (R C : ℕ) : Shape := ⟨3, ![R, C, 3]⟩
/-- One value per row. -/
abbrev SY (R C : ℕ) : Shape := ⟨2, ![R, C]⟩
/-- One value per row, on a unit last axis. -/
abbrev SW (R C : ℕ) : Shape := ⟨3, ![R, C, 1]⟩

/-- The shape relations the operations rest on. -/
structure Facts (R C : ℕ) : Prop where
  red : (SX R C).ReducesTo [2] (SY R C)
  red' : (SX R C).Reduces [2] (SY R C)
  hZ : 0 < SZ.numel
  bZY : SZ.BroadcastsInDim (SY R C) (![] : Fin 0 → Fin (SY R C).rank)
  bYW : (SY R C).BroadcastsInDim (SW R C) (![0, 1] : Fin 2 → Fin (SW R C).rank)
  bWX : (SW R C).BroadcastsInDim (SX R C) (![0, 1, 2] : Fin 3 → Fin (SX R C).rank)

section
variable {R C : ℕ} (L : Facts R C)

def c0 (x : FVec Ideal (SX R C) .f32) : FVec Ideal (SY R C) .f32 :=
  Host.reduce FloatOps.maximumf x (constant SZ .f32 0xFF800000#32) L.red L.hZ
def c1 : FVec Ideal (SY R C) .f32 := broadcastInDim (SY R C) ![] L.bZY (constant SZ .f32 0xFF800000#32)
def c2 (x : FVec Ideal (SX R C) .f32) : FVec Ideal (SY R C) .f32 := maximumf (c1 L) (c0 L x)
def c3 (x : FVec Ideal (SX R C) .f32) : FVec Ideal (SW R C) .f32 := broadcastInDim (SW R C) ![0, 1] L.bYW (c2 L x)
def c4 (x : FVec Ideal (SX R C) .f32) : FVec Ideal (SX R C) .f32 := broadcastInDim (SX R C) ![0, 1, 2] L.bWX (c3 L x)
/-- The shifted entries. -/
def c5 (x : FVec Ideal (SX R C) .f32) : FVec Ideal (SX R C) .f32 := subf x (c4 L x)
def c6 (x : FVec Ideal (SX R C) .f32) : FVec Ideal (SX R C) .f32 := Host.exp (c5 L x)
def c7 (x : FVec Ideal (SX R C) .f32) : FVec Ideal (SY R C) .f32 :=
  Host.reduceAdd (c6 L x) (constant SZ .f32 0x00000000#32) L.red L.hZ
def c8 (x : FVec Ideal (SX R C) .f32) : FVec Ideal (SW R C) .f32 := broadcastInDim (SW R C) ![0, 1] L.bYW (c7 L x)
def c9 (x : FVec Ideal (SX R C) .f32) : FVec Ideal (SW R C) .f32 := Host.log (c8 L x)
def c10 (x : FVec Ideal (SX R C) .f32) : FVec Ideal (SX R C) .f32 := broadcastInDim (SX R C) ![0, 1, 2] L.bWX (c9 L x)
/-- The log-softmax. -/
def v (x : FVec Ideal (SX R C) .f32) : FVec Ideal (SX R C) .f32 := subf (c5 L x) (c10 L x)

variable (x : FVec Ideal (SX R C) .f32) (r : Fin R) (c : Fin C) (k : Fin 3)

/-- The reduced index `(r, c)` with position `k` put back. -/
theorem lift_ix2 (Rd : (SX R C).Reduces [2] (SY R C)) (k : Fin ((SX R C).size 2)) :
    Rd.lift (ix2 r c) k = ix3 r c (⟨k.val, k.isLt⟩ : Fin 3) := by
  funext a; apply Fin.ext
  fin_cases a <;> rfl

/-- The row maximum. -/
theorem c0_apply : c0 L x (ix2 r c) = Spec.m3 (x (ix3 r c 0)) (x (ix3 r c 1)) (x (ix3 r c 2)) := by
  unfold c0
  rw [Host.reduce_eq_fold_single FloatOps.maximumf x _ L.red L.red' L.hZ]
  have e := fold_univ_fin3 (FloatOps.maximumf (F := Ideal) (φ := .f32)) ((constant SZ .f32 0xFF800000#32 : FVec Ideal SZ .f32) (Shape.Idx.first L.hZ))
    (fun k : Fin 3 => x (ix3 r c k))
  refine Eq.trans ?_ (e.trans ?_)
  · exact congrArg (fun f => Finset.fold (FloatOps.maximumf (F := Ideal) (φ := .f32)) _ f
      (Finset.univ : Finset (Fin 3))) (funext fun k => congrArg x (lift_ix2 r c L.red' k))
  · show max _ (max _ (max _ (Ideal.ofBits .f32 0xFF800000#32))) = _
    rw [ofBits_negInf_f32, max_bot_right, ← max_assoc]
    rfl

theorem c1_apply (j : (SY R C).Idx) : c1 L j = ⊥ := by
  unfold c1
  rw [broadcastInDim_apply _ L.bZY _ j ix0 (fun a => a.elim0)]
  exact ofBits_negInf_f32

theorem c2_apply : c2 L x (ix2 r c) = Spec.m3 (x (ix3 r c 0)) (x (ix3 r c 1)) (x (ix3 r c 2)) := by
  show max (c1 L (ix2 r c)) (c0 L x (ix2 r c)) = _
  rw [c1_apply, c0_apply, max_bot_left]

/-- A value per row broadcast onto a unit last axis. -/
theorem bYW_apply (y : FVec Ideal (SY R C) .f32) (z : Fin 1) :
    broadcastInDim (SW R C) ![0, 1] L.bYW y (ix3 r c z) = y (ix2 r c) :=
  broadcastInDim_apply _ L.bYW y (ix3 r c z) (ix2 r c) (fun a => match a with
    | ⟨0, _⟩ => bcast_coord r
    | ⟨1, _⟩ => bcast_coord c)

/-- The unit last axis broadcast over the three positions. -/
theorem bWX_apply (y : FVec Ideal (SW R C) .f32) :
    broadcastInDim (SX R C) ![0, 1, 2] L.bWX y (ix3 r c k) = y (ix3 r c (0 : Fin 1)) :=
  broadcastInDim_apply _ L.bWX y (ix3 r c k) (ix3 r c (0 : Fin 1)) (fun a => match a with
    | ⟨0, _⟩ => bcast_coord r
    | ⟨1, _⟩ => bcast_coord c
    | ⟨2, _⟩ => by show 0 = if (1 : Nat) = 1 then 0 else k.val; rw [if_pos rfl])

theorem c4_apply : c4 L x (ix3 r c k) = c2 L x (ix2 r c) := by
  unfold c4 c3
  rw [bWX_apply L, bYW_apply L]

theorem c7_apply : c7 L x (ix2 r c) = 0 + ∑ k' : Fin 3, c6 L x (ix3 r c k') := by
  unfold c7
  simp only [Host.reduceAdd, Ideal.hostReduceAdd_def]
  rw [Ideal.hostReduceAdd_single L.red L.red']
  refine congrArg₂ (· + ·) ?_ (Finset.sum_congr rfl fun k' _ => ?_)
  · show Ideal.ofBits .f32 0x00000000#32 = 0
    exact Ideal.ofBits_zero_f32
  · exact congrArg (c6 L x) (lift_ix2 r c L.red' k')

theorem c10_apply : c10 L x (ix3 r c k) = Ideal.log (c7 L x (ix2 r c)) := by
  unfold c10
  rw [bWX_apply L]
  show Ideal.log (c8 L x (ix3 r c (0 : Fin 1))) = _
  unfold c8
  rw [bYW_apply L]

/-- THE LOG-SOFTMAX READ AT `(r, c, k)`: the specification's over the row's three entries. -/
theorem v_apply : v L x (ix3 r c k) = Spec.logp (x (ix3 r c k)) (x (ix3 r c 0)) (x (ix3 r c 1)) (x (ix3 r c 2)) := by
  have e5 : ∀ k' : Fin 3, c5 L x (ix3 r c k') = x (ix3 r c k') - Spec.m3 (x (ix3 r c 0)) (x (ix3 r c 1)) (x (ix3 r c 2)) := by
    intro k'
    show x (ix3 r c k') - c4 L x (ix3 r c k') = _
    rw [c4_apply, c2_apply]
  show c5 L x (ix3 r c k) - c10 L x (ix3 r c k) = _
  rw [c10_apply, c7_apply, zero_add, Fin.sum_univ_three]
  show c5 L x (ix3 r c k) - Ideal.log (Ideal.exp (c5 L x (ix3 r c 0)) + Ideal.exp (c5 L x (ix3 r c 1)) + Ideal.exp (c5 L x (ix3 r c 2))) = _
  rw [e5, e5, e5, e5]
  rfl

end

/-! ## The and-reduction over a unit axis -/

/-- One bit per row on two unit axes. -/
abbrev SM (R C : ℕ) : Shape := ⟨4, ![R, C, 1, 1]⟩

/-- An and-reduction over the last, unit axis of `[R, C, 1, 1]` is the one element and the initial bit. -/
theorem and_reduce_unit {R C : ℕ} {u : Shape} (h : (SM R C).ReducesTo [3] (SW R C)) (h' : (SM R C).Reduces [3] (SW R C))
    (hu : 0 < u.numel) (x : IVec (SM R C) 1) (init : u.Idx → BitVec 1) (r : Fin R) (c : Fin C) :
    Host.reduce IntOp.andi x init h hu (ix3 r c (0 : Fin 1))
      = IntOp.andi (x (ix4 r c (0 : Fin 1) (0 : Fin 1))) (init (Shape.Idx.first hu)) := by
  rw [Host.reduce_eq_fold_single IntOp.andi x init h h' hu]
  change Finset.fold IntOp.andi (init (Shape.Idx.first hu)) (fun k : Fin 1 => x (h'.lift (ix3 r c (0 : Fin 1)) k))
    (Finset.univ : Finset (Fin 1)) = _
  rw [show (Finset.univ : Finset (Fin 1)) = {0} from by decide, Finset.fold_singleton]
  refine congrArg (fun i => IntOp.andi (x i) (init (Shape.Idx.first hu))) ?_
  funext a; apply Fin.ext
  fin_cases a <;> rfl

end Cert.Hand.Lsm3

end
-- ==== Proof.KI.Pos0LogSoftmax.lean ====
/-
  The kernel program's host part, the rows-of-three log-softmax line of each level: after the line, the result buffer
  read at a sample `(b, p)` and class `k` is the specification's `logp` of the three logits the line's operand holds
  at that sample.
-/
import proofs.«424358_j44040594653645_2_alg».proof.Proof.KI.Pos0Base
import proofs.«424358_j44040594653645_2_alg».proof.Proof.KI.Lsm3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.Hand Cert.Hand.Readers
open Facts₀

/-- The shape relations of the rows-of-three log-softmax, at the sample table's extents. -/
theorem lsmFacts : Lsm3.Facts 4 128 where
  red := Facts₀.reducesTo_S4x128x3_S4x128_d2
  red' := by decide
  hZ := Facts₀.h_S_
  bZY := Facts₀.bcast_S_S4x128
  bYW := Facts₀.bcast_S4x128_S4x128x1_0_1
  bWX := Facts₀.bcast_S4x128x1_S4x128x3_0_1_2

/-- Level 0: after the log-softmax's line the result buffer at a sample is the specification's `logp` of the sample's
    three gathered logits. -/
theorem st2_5_v174 (V : Valuation τ sig (Elt Ideal)) (b : Fin 4) (p : Fin 128) (k : Fin 3) :
    (StableHlo.after (hostOps2_5 (F := Ideal)) V (Proc.devRef .tc main_v174) : S4x128x3.Idx → EReal) (ix3 b p k)
      = Spec.logp ((V (Proc.devRef .tc main_v173) : S4x128x3.Idx → EReal) (ix3 b p k))
          ((V (Proc.devRef .tc main_v173) : S4x128x3.Idx → EReal) (ix3 b p 0))
          ((V (Proc.devRef .tc main_v173) : S4x128x3.Idx → EReal) (ix3 b p 1))
          ((V (Proc.devRef .tc main_v173) : S4x128x3.Idx → EReal) (ix3 b p 2)) := by
  after_read
  simp only [TRef.toBuf, TRef.ofBuf, cast_eq, id_eq]
  exact Lsm3.v_apply lsmFacts (V (Proc.devRef .tc main_v173)) b p k

/-- Level 1: the same line on the second level's buffers. -/
theorem st2_15_v359 (V : Valuation τ sig (Elt Ideal)) (b : Fin 4) (p : Fin 128) (k : Fin 3) :
    (StableHlo.after (hostOps2_15 (F := Ideal)) V (Proc.devRef .tc main_v359) : S4x128x3.Idx → EReal) (ix3 b p k)
      = Spec.logp ((V (Proc.devRef .tc main_v358) : S4x128x3.Idx → EReal) (ix3 b p k))
          ((V (Proc.devRef .tc main_v358) : S4x128x3.Idx → EReal) (ix3 b p 0))
          ((V (Proc.devRef .tc main_v358) : S4x128x3.Idx → EReal) (ix3 b p 1))
          ((V (Proc.devRef .tc main_v358) : S4x128x3.Idx → EReal) (ix3 b p 2)) := by
  after_read
  simp only [TRef.toBuf, TRef.ofBuf, cast_eq, id_eq]
  exact Lsm3.v_apply lsmFacts (V (Proc.devRef .tc main_v358)) b p k

end Cert.KernelIdeal.Hand

end
-- ==== Proof.KI.Pos0Take.lean ====
/-
  The kernel program's host part, level 0: the two lines that pick one entry of a row of three at the sample's class
  word. After each line the result buffer read at a sample is the row's entry at the normalised class word clamped into
  the row, under the in-bounds mask of that word, and the fill where the mask is clear.
-/
import proofs.«424358_j44040594653645_2_alg».proof.Proof.KI.Pos0Base

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.Hand Cert.Hand.Readers
open Facts₀

/-! ## The two picks of level 0 -/

section Take
variable (V : Valuation τ sig (Elt Ideal)) (b : Fin 4) (p : Fin 128)

/-- After the first pick's line: the result at a sample is the probability row's entry at the clamped pick word under
    the in-bounds mask, the fill otherwise. -/
theorem st2_7_v177 :
    (StableHlo.after (hostOps2_7 (F := Ideal)) V (Proc.devRef .tc main_v177) : S4x128x1.Idx → EReal) (ix3 b p 0)
      = Scalar.select
          (IntOp.andi (IntOp.andi (IntOp.cmpi .sge (nw ((V (Proc.devRef .tc main_v176) : S4x128x1.Idx → BitVec 32) (ix3 b p 0)) 3#32) 0#32)
            (IntOp.cmpi .sle (nw ((V (Proc.devRef .tc main_v176) : S4x128x1.Idx → BitVec 32) (ix3 b p 0)) 3#32) 2#32)) 1#1)
          ((V (Proc.devRef .tc main_v175) : S4x128x3.Idx → EReal)
            (ix3 b p (clampFin 2 (nw ((V (Proc.devRef .tc main_v176) : S4x128x1.Idx → BitVec 32) (ix3 b p 0)) 3#32) : Fin 3)))
          (Ideal.ofBits .f32 0x7FC00000#32) := by
  after_read
  simp only [TRef.toBuf, TRef.ofBuf, cast_eq, id_eq]
  lay
  rfl

/-- After the second pick's line: the same over the log-probability row. -/
theorem st2_9_v180 :
    (StableHlo.after (hostOps2_9 (F := Ideal)) V (Proc.devRef .tc main_v180) : S4x128x1.Idx → EReal) (ix3 b p 0)
      = Scalar.select
          (IntOp.andi (IntOp.andi (IntOp.cmpi .sge (nw ((V (Proc.devRef .tc main_v179) : S4x128x1.Idx → BitVec 32) (ix3 b p 0)) 3#32) 0#32)
            (IntOp.cmpi .sle (nw ((V (Proc.devRef .tc main_v179) : S4x128x1.Idx → BitVec 32) (ix3 b p 0)) 3#32) 2#32)) 1#1)
          ((V (Proc.devRef .tc main_v174) : S4x128x3.Idx → EReal)
            (ix3 b p (clampFin 2 (nw ((V (Proc.devRef .tc main_v179) : S4x128x1.Idx → BitVec 32) (ix3 b p 0)) 3#32) : Fin 3)))
          (Ideal.ofBits .f32 0x7FC00000#32) := by
  after_read
  simp only [TRef.toBuf, TRef.ofBuf, cast_eq, id_eq]
  lay
  rfl

end Take

end Cert.KernelIdeal.Hand

end
-- ==== Proof.KI.Pos0Sum.lean ====
import proofs.«424358_j44040594653645_2_alg».proof.Proof.KI.Pos0Base

set_option maxRecDepth 16384

noncomputable section

/-
  The end of level 0's positive part. From the picked log-probability, the picked probability, the class word and the
  validity bit of every sample, the stretch forms the sample's weight — the squared complement of the probability, times
  the class weight at the class word (counted from the end when negative, clamped into the three classes), times the
  validity bit — and the product of the negated log-probability with it, and adds each up over the [4, 128] samples from
  zero.
-/

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.Hand Cert.Hand.Readers
open Facts₀
open scoped BigOperators

/-- The host's negation at an index, on extended reals. -/
theorem hnegf_ap {s : Shape} {φ : FTy} (x : FVec Ideal s φ) (i : s.Idx) : Host.negf x i = -(x i) := rfl
/-- A word read unsigned at an index. -/
theorem uitofp_ap {s : Shape} {w : Nat} (φ : FTy) (x : IVec s w) (i : s.Idx) : uitofp (F := Ideal) φ x i = (((x i).toNat : ℝ) : EReal) := rfl

/-- Level 0's positive loss: zero plus the sum over the samples of the negated picked log-probability times the weight. -/
theorem hostOps2_10_v197 (V : Valuation τ sig (Elt Ideal))
    (x0 : S4x9x64x64x64.Idx → EReal) (x2 : S4x3x64x64x64.Idx → EReal) (x4 : S4x128x4.Idx → BitVec 32) (x6 : S3.Idx → EReal)
    (h180 : ∀ (b : Fin 4) (p : Fin 128), (V (Proc.devRef .tc main_v180) : S4x128x1.Idx → EReal) (ix3 b p 0) = K0.lt x0 x2 x4 b p)
    (h178 : ∀ (b : Fin 4) (p : Fin 128), (V (Proc.devRef .tc main_v178) : S4x128.Idx → EReal) (ix2 b p) = K0.pt x0 x2 x4 b p)
    (h64 : ∀ (b : Fin 4) (p : Fin 128), (V (Proc.devRef .tc main_v64) : S4x128.Idx → BitVec 32) (ix2 b p) = K0.cls x2 x4 b p)
    (h6 : V (Proc.devRef .tc main_arg6) = x6)
    (h17 : ∀ (b : Fin 4) (p : Fin 128), (V (Proc.devRef .tc main_v17) : S4x128.Idx → BitVec 1) (ix2 b p) = K0.vbit x4 b p) :
    (StableHlo.after (hostOps2_10 (F := Ideal)) V (Proc.devRef .tc main_v197) : S_.Idx → EReal)
      = fun _ => Ideal.ofBits .f32 0x00000000#32 + ∑ b : Fin 4, ∑ p : Fin 128, (-(K0.lt x0 x2 x4 b p)) * K0.wp x0 x2 x4 x6 b p := by
  show StableHlo.after hostOps2_10 _ (Proc.devRef .tc main_v197) = _
  after_read
  funext i
  rw [red_add_all, constant_apply]
  refine congrArg _ (Finset.sum_congr rfl fun b _ => Finset.sum_congr rfl fun p _ => ?_)
  simp only [mulf_apply, subf_apply, hnegf_ap, uitofp_ap]
  lay
  rw [h180, h178, h64, h17, h6]
  rfl

/-- Level 0's positive count: zero plus the sum over the samples of the weight. -/
theorem hostOps2_10_v198 (V : Valuation τ sig (Elt Ideal))
    (x0 : S4x9x64x64x64.Idx → EReal) (x2 : S4x3x64x64x64.Idx → EReal) (x4 : S4x128x4.Idx → BitVec 32) (x6 : S3.Idx → EReal)
    (h180 : ∀ (b : Fin 4) (p : Fin 128), (V (Proc.devRef .tc main_v180) : S4x128x1.Idx → EReal) (ix3 b p 0) = K0.lt x0 x2 x4 b p)
    (h178 : ∀ (b : Fin 4) (p : Fin 128), (V (Proc.devRef .tc main_v178) : S4x128.Idx → EReal) (ix2 b p) = K0.pt x0 x2 x4 b p)
    (h64 : ∀ (b : Fin 4) (p : Fin 128), (V (Proc.devRef .tc main_v64) : S4x128.Idx → BitVec 32) (ix2 b p) = K0.cls x2 x4 b p)
    (h6 : V (Proc.devRef .tc main_arg6) = x6)
    (h17 : ∀ (b : Fin 4) (p : Fin 128), (V (Proc.devRef .tc main_v17) : S4x128.Idx → BitVec 1) (ix2 b p) = K0.vbit x4 b p) :
    (StableHlo.after (hostOps2_10 (F := Ideal)) V (Proc.devRef .tc main_v198) : S_.Idx → EReal)
      = fun _ => Ideal.ofBits .f32 0x00000000#32 + ∑ b : Fin 4, ∑ p : Fin 128, K0.wp x0 x2 x4 x6 b p := by
  show StableHlo.after hostOps2_10 _ (Proc.devRef .tc main_v198) = _
  after_read
  funext i
  rw [red_add_all, constant_apply]
  refine congrArg _ (Finset.sum_congr rfl fun b _ => Finset.sum_congr rfl fun p _ => ?_)
  simp only [mulf_apply, subf_apply, hnegf_ap, uitofp_ap]
  lay
  rw [h178, h64, h17, h6]
  rfl

end Cert.KernelIdeal.Hand

end
-- ==== Proof.KI.PosWords.lean ====
/-
  Word arithmetic of the positive samples' indexing. An index word is normalised ("negative counts from the end") and
  the gather clamps it: together that is the specification's `nidx`. A channel word is a class offset 0, 3 or 6 plus an
  anchor word in [0, 3), so its position among nine channels is the offset plus the anchor's position among three. A
  class word in [-3, 3) normalised against three lies in [0, 2], so the pick's in-bounds mask is set. A validity
  comparison against -1 selects like an `if` and converts to the specification's indicator.
-/
import proofs.«424358_j44040594653645_2_alg».proof.Proof.Spec

noncomputable section

namespace Cert.Hand.PosWords

open Idealize.ShloMosaic Cert.Hand

/-- An index word normalised against the extent word `e`: a negative word counts from the end. -/
def nrm (e x : BitVec 32) : BitVec 32 := Scalar.select (IntOp.cmpi .slt x 0#32) (IntOp.addi x e) x

/-! ## Selects and comparisons -/

/-- A select on a Boolean's bit is the `if`. -/
theorem sel_ofBool {α : Type} (c : Bool) (a b : α) : Scalar.select (BitVec.ofBool c) a b = if c then a else b := by
  cases c <;> rfl

/-- The normalised word as an `if`. -/
theorem nrm_eq (e x : BitVec 32) : nrm e x = if x.slt 0#32 then x + e else x := by
  unfold nrm IntOp.addi
  exact sel_ofBool _ _ _

/-- "Greater than -1" as the bit of the signed comparison. -/
theorem sgt_valid (x : BitVec 32) : IntOp.cmpi .sgt x 4294967295#32 = BitVec.ofBool ((4294967295#32).slt x) := rfl

/-- A select on "greater than -1" is the `if` on it. -/
theorem sel_sgt {α : Type} (x : BitVec 32) (u v : α) :
    Scalar.select (IntOp.cmpi .sgt x 4294967295#32) u v = if (4294967295#32).slt x then u else v :=
  sel_ofBool _ _ _

/-- A one-bit word as a number is the indicator of its being set. -/
theorem ind_bit (c : BitVec 1) : (((c.toNat : ℝ) : EReal)) = Spec.ind (c = 1#1) := by
  unfold Spec.ind
  rcases BitVec.eq_zero_or_eq_one c with h | h <;> subst h <;> simp

/-- "Greater than -1" as a number is the indicator of the signed comparison. -/
theorem ind_sgt (x : BitVec 32) :
    ((((IntOp.cmpi .sgt x 4294967295#32).toNat : ℝ) : EReal)) = Spec.ind ((4294967295#32).slt x) := by
  rw [sgt_valid]
  unfold Spec.ind
  cases (4294967295#32).slt x <;> simp

/-! ## Normalise and clamp: `nidx` -/

/-- The normalised word, clamped into the axis, is the specification's position. -/
theorem nidx_select (x E : BitVec 32) (e : ℕ) (hE : E = BitVec.ofNat 32 e) :
    min (Scalar.select (IntOp.cmpi .slt x 0#32) (IntOp.addi x E) x).toInt.toNat (e - 1) = Spec.nidx x e := by
  subst hE
  unfold Spec.nidx IntOp.addi
  rw [show IntOp.cmpi .slt x 0#32 = BitVec.ofBool (x.slt 0#32) from rfl, sel_ofBool]

theorem min_nrm (e : ℕ) (x : BitVec 32) : min (nrm (BitVec.ofNat 32 e) x).toInt.toNat (e - 1) = Spec.nidx x e :=
  nidx_select x _ e rfl

theorem min_nrm3 (x : BitVec 32) : min (nrm 3#32 x).toInt.toNat 2 = Spec.nidx x 3 := min_nrm 3 x
theorem min_nrm4 (x : BitVec 32) : min (nrm 4#32 x).toInt.toNat 3 = Spec.nidx x 4 := min_nrm 4 x
theorem min_nrm9 (x : BitVec 32) : min (nrm 9#32 x).toInt.toNat 8 = Spec.nidx x 9 := min_nrm 9 x
theorem min_nrm32 (x : BitVec 32) : min (nrm 32#32 x).toInt.toNat 31 = Spec.nidx x 32 := min_nrm 32 x
theorem min_nrm64 (x : BitVec 32) : min (nrm 64#32 x).toInt.toNat 63 = Spec.nidx x 64 := min_nrm 64 x

/-- A position is inside its axis. -/
theorem nidx_lt (x : BitVec 32) (e : ℕ) (he : 0 < e) : Spec.nidx x e < e := by
  unfold Spec.nidx
  exact Nat.lt_of_le_of_lt (Nat.min_le_right _ _) (by omega)

/-- The zero word is position zero. -/
theorem nidx_zero (e : ℕ) : Spec.nidx 0#32 e = 0 := by
  unfold Spec.nidx
  rw [if_neg (by decide)]
  simp

/-- A word that is not negative, as a natural number. -/
theorem toNat_of_nonneg (x : BitVec 32) (h0 : 0 ≤ x.toInt) : (x.toNat : ℤ) = x.toInt := by
  have h := BitVec.toInt_eq_toNat_cond x
  have hlt := x.isLt
  split_ifs at h <;> omega

/-- A word in [0, 3) is 0, 1 or 2. -/
theorem small_cases (a : BitVec 32) (h0 : 0 ≤ a.toInt) (h3 : a.toInt < 3) : a = 0#32 ∨ a = 1#32 ∨ a = 2#32 := by
  have e := toNat_of_nonneg a h0
  have hn : a.toNat < 3 := by omega
  have h012 : a.toNat = 0 ∨ a.toNat = 1 ∨ a.toNat = 2 := by omega
  rcases h012 with h | h | h
  · exact Or.inl (BitVec.eq_of_toNat_eq (by rw [h]; rfl))
  · exact Or.inr (Or.inl (BitVec.eq_of_toNat_eq (by rw [h]; rfl)))
  · exact Or.inr (Or.inr (BitVec.eq_of_toNat_eq (by rw [h]; rfl)))

/-- "Not negative" from the signed comparison with zero. -/
theorem nonneg_of_not_slt (a : BitVec 32) (h0 : ¬ a.slt 0#32 = true) : 0 ≤ a.toInt := by
  have : ¬ a.toInt < (0#32 : BitVec 32).toInt := by simpa [BitVec.slt] using h0
  have z : (0#32 : BitVec 32).toInt = 0 := by decide
  omega

/-- A word in [0, e) is its own position. -/
theorem nidx_small (a : BitVec 32) (h0 : 0 ≤ a.toInt) (h3 : a.toInt < 3) : Spec.nidx a 3 = a.toInt.toNat ∧ Spec.nidx a 3 < 3 := by
  rcases small_cases a h0 h3 with rfl | rfl | rfl <;> decide

/-! ## The batch word -/

/-- A batch number's word is its own position. -/
theorem batch_nidx (b : Fin 4) : Spec.nidx (BitVec.ofNat 32 b.val) 4 = b.val := by
  fin_cases b <;> decide

theorem batch_nrm (b : Fin 4) : min (nrm 4#32 (BitVec.ofNat 32 b.val)).toInt.toNat 3 = b.val := by
  rw [min_nrm4, batch_nidx]

/-! ## The channel word -/

/-- Channel offset `3 k` plus an anchor word in [0, 3): position `3 k` plus the anchor's position. -/
theorem chan_nidx (k : ℕ) (hk : k < 3) (a : BitVec 32) (h0 : 0 ≤ a.toInt) (h3 : a.toInt < 3) :
    Spec.nidx (IntOp.addi (BitVec.ofNat 32 (3 * k)) a) 9 = 3 * k + Spec.nidx a 3 := by
  rcases small_cases a h0 h3 with rfl | rfl | rfl <;> interval_cases k <;> decide

theorem chan_nidx0 (a : BitVec 32) (h : ¬ a.slt 0#32 = true ∧ a.toInt < 3) : Spec.nidx (IntOp.addi 0#32 a) 9 = 3 * 0 + Spec.nidx a 3 :=
  chan_nidx 0 (by omega) a (nonneg_of_not_slt a h.1) h.2
theorem chan_nidx1 (a : BitVec 32) (h : ¬ a.slt 0#32 = true ∧ a.toInt < 3) : Spec.nidx (IntOp.addi 3#32 a) 9 = 3 * 1 + Spec.nidx a 3 :=
  chan_nidx 1 (by omega) a (nonneg_of_not_slt a h.1) h.2
theorem chan_nidx2 (a : BitVec 32) (h : ¬ a.slt 0#32 = true ∧ a.toInt < 3) : Spec.nidx (IntOp.addi 6#32 a) 9 = 3 * 2 + Spec.nidx a 3 :=
  chan_nidx 2 (by omega) a (nonneg_of_not_slt a h.1) h.2

theorem chan_nrm (k : ℕ) (hk : k < 3) (a : BitVec 32) (h0 : 0 ≤ a.toInt) (h3 : a.toInt < 3) :
    min (nrm 9#32 (IntOp.addi (BitVec.ofNat 32 (3 * k)) a)).toInt.toNat 8 = 3 * k + Spec.nidx a 3 := by
  rw [min_nrm9, chan_nidx k hk a h0 h3]

/-! ## Validity and the coordinate words -/

/-- A coordinate word made zero on a padding sample stays in [0, 3) when the word is below 3. -/
theorem cj_range (x : BitVec 32) (hx : x.toInt < 3) :
    0 ≤ (if (4294967295#32).slt x then x else 0#32).toInt ∧ (if (4294967295#32).slt x then x else 0#32).toInt < 3 := by
  by_cases hv : (4294967295#32).slt x = true
  · rw [if_pos hv]
    have : (4294967295#32 : BitVec 32).toInt < x.toInt := by simpa [BitVec.slt] using hv
    have z : (4294967295#32 : BitVec 32).toInt = -1 := by decide
    omega
  · rw [if_neg hv]
    decide

/-! ## The class pick -/

/-- A class word in [-3, 3) is one of six words. -/
theorem cls_cases (w : BitVec 32) (h0 : -3 ≤ w.toInt) (h3 : w.toInt < 3) :
    w = 4294967293#32 ∨ w = 4294967294#32 ∨ w = 4294967295#32 ∨ w = 0#32 ∨ w = 1#32 ∨ w = 2#32 := by
  have hw : w = BitVec.ofInt 32 w.toInt := (BitVec.ofInt_toInt).symm
  generalize w.toInt = z at *
  subst hw
  interval_cases z <;> decide

/-- The in-bounds mask of the normalised class word is set. -/
theorem mask_one (w : BitVec 32) (h0 : -3 ≤ w.toInt) (h3 : w.toInt < 3) :
    IntOp.andi (IntOp.cmpi .sge (Scalar.select (IntOp.cmpi .slt w 0#32) (IntOp.addi w 3#32) w) 0#32)
      (IntOp.cmpi .sle (Scalar.select (IntOp.cmpi .slt w 0#32) (IntOp.addi w 3#32) w) 2#32) = 1#1 := by
  rcases cls_cases w h0 h3 with rfl | rfl | rfl | rfl | rfl | rfl <;> decide

theorem mask_one_nrm (c : BitVec 32) (h : -3 ≤ c.toInt ∧ c.toInt < 3) :
    IntOp.andi (IntOp.cmpi .sge (nrm 3#32 c) 0#32) (IntOp.cmpi .sle (nrm 3#32 c) 2#32) = 1#1 :=
  mask_one c h.1 h.2

/-- The same folded with the reduction's initial bit, on either side. -/
theorem mask_one_and (c : BitVec 32) (h : -3 ≤ c.toInt ∧ c.toInt < 3) :
    IntOp.andi (IntOp.andi (IntOp.cmpi .sge (nrm 3#32 c) 0#32) (IntOp.cmpi .sle (nrm 3#32 c) 2#32)) 1#1 = 1#1 := by
  rw [mask_one_nrm c h]; rfl

theorem mask_one_and' (c : BitVec 32) (h : -3 ≤ c.toInt ∧ c.toInt < 3) :
    IntOp.andi 1#1 (IntOp.andi (IntOp.cmpi .sge (nrm 3#32 c) 0#32) (IntOp.cmpi .sle (nrm 3#32 c) 2#32)) = 1#1 := by
  rw [mask_one_nrm c h]; rfl

/-- The clamped pick is the class word's position among three. -/
theorem pick_nidx (w : BitVec 32) :
    min (Scalar.select (IntOp.cmpi .slt w 0#32) (IntOp.addi w 3#32) w).toInt.toNat 2 = Spec.nidx w 3 :=
  nidx_select w 3#32 3 rfl

end Cert.Hand.PosWords

end
-- ==== Proof.KI.Pos0Math.lean ====
/-
  The positive samples of the first pyramid level: the host program's words at a sample are the specification's.

  At sample `(b, p)` the program forms a validity bit from the anchor word, coordinate words made zero on padding samples,
  positions by "negative counts from the end" followed by a clamp into the axis, a class word from the label map at the
  sample's voxel, three class logits at channels `3 k + anchor`, their log-softmax, and the entry picked at the class
  position under an in-bounds mask. With anchor words below three and label values in [-3, 3) each of these is the
  specification's quantity: the clamp of a normalised word is `nidx`, the channel position is three times the class plus
  the anchor's position, the mask is set, and the validity bit as a number is the indicator. Summed over the samples
  these give the positive loss and count.
-/
import proofs.«424358_j44040594653645_2_alg».proof.Proof.KI.Pos0Base
import proofs.«424358_j44040594653645_2_alg».proof.Proof.KI.PosWords
import proofs.«424358_j44040594653645_2_alg».proof.Proof.Readers
import Idealize.ShloMosaic.Lib.ValueIdx
import Idealize.ShloMosaic.Lib.IdealHost

noncomputable section

namespace Cert.KernelIdeal.Hand

open Cert.KernelIdeal Cert.KernelIdeal.Gen
open Idealize.ShloMosaic Idealize.ShloMosaic.ValueIdx
open Cert.Hand Cert.Hand.Readers

namespace K0

open Cert.Hand.PosWords

variable (x0 : S4x9x64x64x64.Idx → EReal) (x2 : S4x3x64x64x64.Idx → EReal) (x4 : S4x128x4.Idx → BitVec 32) (x6 : S3.Idx → EReal)

/-- The validity bit's select is the `if` on the specification's validity. -/
theorem valid_iff (b : Fin 4) (p : Fin 128) :
    Spec.valid (rd3 x4) b.val p.val ↔ (4294967295#32).slt (x4 (ix3 b p 0)) = true := by
  have e0 : rd3 x4 b.val p.val 0 = x4 (ix3 b p 0) := rd3_ix3 x4 b p 0
  unfold Spec.valid
  rw [e0]

/-- A coordinate word is the specification's. -/
theorem cw_eq (b : Fin 4) (p : Fin 128) (j : Fin 4) : cw x4 b p j = Spec.cj (rd3 x4) b.val p.val j.val := by
  have ej : rd3 x4 b.val p.val j.val = x4 (ix3 b p j) := rd3_ix3 x4 b p j
  unfold cw vbit Spec.cj
  rw [sel_sgt, ej]
  by_cases hv : (4294967295#32).slt (x4 (ix3 b p 0)) = true
  · rw [if_pos hv, if_pos ((valid_iff x4 b p).2 hv)]
  · rw [if_neg hv, if_neg (fun h => hv ((valid_iff x4 b p).1 h))]

/-- The batch position is the batch. -/
theorem bat_val (b : Fin 4) : (bat b).val = b.val := batch_nrm b

theorem clamp3_val (x : BitVec 32) : (clampFin 2 (nw x 3#32)).val = Spec.nidx x 3 := min_nrm3 x
theorem clamp64_val (x : BitVec 32) : (clampFin 63 (nw x 64#32)).val = Spec.nidx x 64 := min_nrm64 x

/-- A rank-5 array at the program's five positions is the reader at the specification's. -/
theorem rd5_at {C : ℕ} (x : (⟨5, ![4, C, 64, 64, 64]⟩ : Shape).Idx → EReal) (b : Fin 4) (c : Fin C) (cn : ℕ) (hc : c.val = cn)
    (w1 w2 w3 : BitVec 32) :
    x (ix5 (bat b) c (clampFin 63 (nw w1 64#32) : Fin 64) (clampFin 63 (nw w2 64#32) : Fin 64) (clampFin 63 (nw w3 64#32) : Fin 64))
      = rd5 x b.val cn (Spec.nidx w1 64) (Spec.nidx w2 64) (Spec.nidx w3 64) := by
  refine (rd5_ix5 x _ _ _ _ _).symm.trans ?_
  rw [bat_val, hc, clamp64_val, clamp64_val, clamp64_val]

/-- The class word is the specification's. -/
theorem cls_eq (b : Fin 4) (p : Fin 128) : cls x2 x4 b p = Spec.clsOf 64 (rd5 x2) (rd3 x4) b.val p.val := by
  unfold cls Spec.clsOf
  rw [show vbit x4 b p = IntOp.cmpi .sgt (x4 (ix3 b p 0)) 4294967295#32 from rfl, sel_sgt,
    rd5_at x2 b _ _ (clamp3_val _), cw_eq x4 b p 0, cw_eq x4 b p 1, cw_eq x4 b p 2, cw_eq x4 b p 3]
  by_cases hv : (4294967295#32).slt (x4 (ix3 b p 0)) = true
  · rw [if_pos hv, if_pos ((valid_iff x4 b p).2 hv)]
    rfl
  · rw [if_neg hv, if_neg (fun h => hv ((valid_iff x4 b p).1 h))]

/-- A gathered logit is the specification's class logit at the sample's voxel. -/
theorem lg_eq (k : ℕ) (hk : k < 3) (b : Fin 4) (p : Fin 128) (hA : (x4 (ix3 b p 0)).toInt < 3) :
    lg x0 x4 (BitVec.ofNat 32 (3 * k)) b p
      = Spec.xk (rd5 x0) k b.val (Spec.nidx (Spec.cj (rd3 x4) b.val p.val 0) 3) (Spec.nidx (Spec.cj (rd3 x4) b.val p.val 1) 64)
          (Spec.nidx (Spec.cj (rd3 x4) b.val p.val 2) 64) (Spec.nidx (Spec.cj (rd3 x4) b.val p.val 3) 64) := by
  have hr := cj_range (x4 (ix3 b p 0)) hA
  have hcw : cw x4 b p 0 = if (4294967295#32).slt (x4 (ix3 b p 0)) then x4 (ix3 b p 0) else 0#32 := sel_sgt _ _ _
  have hc : (clampFin 8 (nw (IntOp.addi (BitVec.ofNat 32 (3 * k)) (cw x4 b p 0)) 9#32)).val = 3 * k + Spec.nidx (cw x4 b p 0) 3 :=
    chan_nrm k hk (cw x4 b p 0) (by rw [hcw]; exact hr.1) (by rw [hcw]; exact hr.2)
  unfold lg Spec.xk
  rw [rd5_at x0 b _ _ hc, cw_eq x4 b p 0, cw_eq x4 b p 1, cw_eq x4 b p 2, cw_eq x4 b p 3]
  rfl

theorem lgk_eq (b : Fin 4) (p : Fin 128) (hA : (x4 (ix3 b p 0)).toInt < 3) (k : Fin 3) :
    lgk x0 x4 b p k
      = Spec.xk (rd5 x0) k.val b.val (Spec.nidx (Spec.cj (rd3 x4) b.val p.val 0) 3) (Spec.nidx (Spec.cj (rd3 x4) b.val p.val 1) 64)
          (Spec.nidx (Spec.cj (rd3 x4) b.val p.val 2) 64) (Spec.nidx (Spec.cj (rd3 x4) b.val p.val 3) 64) := by
  fin_cases k
  · exact lg_eq x0 x4 0 (by norm_num) b p hA
  · exact lg_eq x0 x4 1 (by norm_num) b p hA
  · exact lg_eq x0 x4 2 (by norm_num) b p hA

/-- The log-softmax of the gathered logits is the specification's at the sample's voxel. -/
theorem lp_eq (b : Fin 4) (p : Fin 128) (hA : (x4 (ix3 b p 0)).toInt < 3) (k : Fin 3) :
    lp x0 x4 b p k
      = Spec.logpAt (rd5 x0) k.val b.val (Spec.nidx (Spec.cj (rd3 x4) b.val p.val 0) 3) (Spec.nidx (Spec.cj (rd3 x4) b.val p.val 1) 64)
          (Spec.nidx (Spec.cj (rd3 x4) b.val p.val 2) 64) (Spec.nidx (Spec.cj (rd3 x4) b.val p.val 3) 64) := by
  unfold lp Spec.logpAt
  rw [lgk_eq x0 x4 b p hA k, lgk_eq x0 x4 b p hA 0, lgk_eq x0 x4 b p hA 1, lgk_eq x0 x4 b p hA 2]
  rfl

section Range

variable (hC : ∀ i : S4x3x64x64x64.Idx, (-3 : Int) ≤ (Ideal.fptosi 32 (x2 i)).toInt ∧ (Ideal.fptosi 32 (x2 i)).toInt < 3)
include hC

/-- The class word lies in [-3, 3): the label map's range on a valid sample, zero on a padding one. -/
theorem cls_range (b : Fin 4) (p : Fin 128) : -3 ≤ (cls x2 x4 b p).toInt ∧ (cls x2 x4 b p).toInt < 3 := by
  unfold cls
  rw [show vbit x4 b p = IntOp.cmpi .sgt (x4 (ix3 b p 0)) 4294967295#32 from rfl, sel_sgt]
  split_ifs
  · exact hC _
  · decide

/-- So the pick is in bounds. -/
theorem msk_eq (b : Fin 4) (p : Fin 128) : msk x2 x4 b p = 1#1 :=
  mask_one_and (cls x2 x4 b p) (cls_range x2 x4 hC b p)

end Range

/-- The picked position is the specification's class position. -/
theorem pick_val (b : Fin 4) (p : Fin 128) :
    (clampFin 2 (pw x2 x4 b p)).val = Spec.nidx (Spec.clsOf 64 (rd5 x2) (rd3 x4) b.val p.val) 3 := by
  rw [← cls_eq]
  exact min_nrm3 _

/-- The validity bit as a number is the specification's indicator. -/
theorem ind_valid (b : Fin 4) (p : Fin 128) :
    (((vbit x4 b p).toNat : ℝ) : EReal) = Spec.ind (Spec.valid (rd3 x4) b.val p.val) := by
  unfold vbit
  rw [ind_sgt]
  unfold Spec.ind
  by_cases hv : (4294967295#32).slt (x4 (ix3 b p 0)) = true
  · rw [if_pos hv, if_pos ((valid_iff x4 b p).2 hv)]
  · rw [if_neg hv, if_neg (fun h => hv ((valid_iff x4 b p).1 h))]

theorem ofBits_zero : Ideal.ofBits .f32 0x00000000#32 = 0 := by simp [Ideal.ofBits, Ideal.ieee]

section Sums

variable (hA : ∀ (b : Fin 4) (p : Fin 128), (x4 (ix3 b p 0)).toInt < 3)
  (hC : ∀ i : S4x3x64x64x64.Idx, (-3 : Int) ≤ (Ideal.fptosi 32 (x2 i)).toInt ∧ (Ideal.fptosi 32 (x2 i)).toInt < 3)
include hA hC

/-- The picked probability is the specification's. -/
theorem pt_eq (b : Fin 4) (p : Fin 128) : pt x0 x2 x4 b p = Spec.ptAt 64 (rd5 x0) (rd5 x2) (rd3 x4) b.val p.val := by
  unfold pt
  rw [msk_eq x2 x4 hC b p, select_one, lp_eq x0 x4 b p (hA b p), pick_val]
  rfl

/-- The picked log-probability, negated, is the specification's negative log-likelihood. -/
theorem lt_eq (b : Fin 4) (p : Fin 128) : -(lt x0 x2 x4 b p) = Spec.nlltAt 64 (rd5 x0) (rd5 x2) (rd3 x4) b.val p.val := by
  unfold lt
  rw [msk_eq x2 x4 hC b p, select_one, lp_eq x0 x4 b p (hA b p), pick_val]
  rfl

/-- The sample's weight is the specification's. -/
theorem wp_eq (b : Fin 4) (p : Fin 128) :
    wp x0 x2 x4 x6 b p = Spec.wpos 64 (rd5 x0) (rd5 x2) (rd3 x4) (rd1 x6) b.val p.val := by
  unfold wp Spec.wpos
  rw [pt_eq x0 x2 x4 hA hC b p, Ideal.ofBits_one_f32, ind_valid x4 b p, ← rd1_ix1 x6 (clampFin 2 (pw x2 x4 b p)), pick_val]

/-- The positive loss. -/
theorem loss_eq :
    Ideal.ofBits .f32 0x00000000#32 + ∑ b : Fin 4, ∑ p : Fin 128, (-(lt x0 x2 x4 b p)) * wp x0 x2 x4 x6 b p
      = Spec.lossPos 64 (rd5 x0) (rd5 x2) (rd3 x4) (rd1 x6) := by
  rw [ofBits_zero, zero_add]
  unfold Spec.lossPos
  rw [← Fin.sum_univ_eq_sum_range (fun b => ∑ p ∈ Finset.range 128,
    Spec.nlltAt 64 (rd5 x0) (rd5 x2) (rd3 x4) b p * Spec.wpos 64 (rd5 x0) (rd5 x2) (rd3 x4) (rd1 x6) b p) 4]
  refine Finset.sum_congr rfl fun b _ => ?_
  rw [← Fin.sum_univ_eq_sum_range (fun p =>
    Spec.nlltAt 64 (rd5 x0) (rd5 x2) (rd3 x4) b.val p * Spec.wpos 64 (rd5 x0) (rd5 x2) (rd3 x4) (rd1 x6) b.val p) 128]
  refine Finset.sum_congr rfl fun p _ => ?_
  rw [lt_eq x0 x2 x4 hA hC b p, wp_eq x0 x2 x4 x6 hA hC b p]

/-- The positive count. -/
theorem count_eq :
    Ideal.ofBits .f32 0x00000000#32 + ∑ b : Fin 4, ∑ p : Fin 128, wp x0 x2 x4 x6 b p
      = Spec.countPos 64 (rd5 x0) (rd5 x2) (rd3 x4) (rd1 x6) := by
  rw [ofBits_zero, zero_add]
  unfold Spec.countPos
  rw [← Fin.sum_univ_eq_sum_range (fun b => ∑ p ∈ Finset.range 128, Spec.wpos 64 (rd5 x0) (rd5 x2) (rd3 x4) (rd1 x6) b p) 4]
  refine Finset.sum_congr rfl fun b _ => ?_
  rw [← Fin.sum_univ_eq_sum_range (fun p => Spec.wpos 64 (rd5 x0) (rd5 x2) (rd3 x4) (rd1 x6) b.val p) 128]
  exact Finset.sum_congr rfl fun p _ => wp_eq x0 x2 x4 x6 hA hC b p

end Sums

end K0

end Cert.KernelIdeal.Hand

end
-- ==== Proof.KI.Pos0.lean ====
import proofs.«424358_j44040594653645_2_alg».proof.Proof.KI.Pos0Base
import proofs.«424358_j44040594653645_2_alg».proof.Proof.KI.Pos0Stretch
import proofs.«424358_j44040594653645_2_alg».proof.Proof.KI.Pos0Frames
import proofs.«424358_j44040594653645_2_alg».proof.Proof.KI.Pos0Cls
import proofs.«424358_j44040594653645_2_alg».proof.Proof.KI.Pos0Logits
import proofs.«424358_j44040594653645_2_alg».proof.Proof.KI.Pos0LogSoftmax
import proofs.«424358_j44040594653645_2_alg».proof.Proof.KI.Pos0Take
import proofs.«424358_j44040594653645_2_alg».proof.Proof.KI.Pos0Sum
import proofs.«424358_j44040594653645_2_alg».proof.Proof.KI.Pos0Math

set_option maxRecDepth 16384

noncomputable section

/-!
  The kernel program's positive part, level 0, is the specification's.

  The host part of @main after the second kernel runs stretch by stretch; the positive loss and count of level 0 are
  written in the eleventh. `V0 W … V10 W` are the buffers after each of the first eleven stretches from an arbitrary
  start `W`. Each stretch's results at a sample `(b, p)` are read from the buffers it starts from (the stretch readers),
  what a stretch does not write it keeps (the frames), and composing the two gives every buffer of the chain at a sample
  in the program's own words (`K0`): the validity bit, the masked coordinate words, the class word, the three gathered
  logits and their log-softmax, the two picks, the weight. The last stretch sums them, and under the precondition's
  index-range facts those sums are the specification's positive loss and count.
-/

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.Hand Cert.Hand.Readers
open Facts₀

namespace P0

/-! ## The valuations after each stretch -/

/-- The four arguments of the positive part, as the arrays they are. -/
abbrev A0 (W : Valuation τ sig (Elt Ideal)) : S4x9x64x64x64.Idx → EReal := W (Proc.devRef .tc main_arg0)
abbrev A2 (W : Valuation τ sig (Elt Ideal)) : S4x3x64x64x64.Idx → EReal := W (Proc.devRef .tc main_arg2)
abbrev A4 (W : Valuation τ sig (Elt Ideal)) : S4x128x4.Idx → BitVec 32 := W (Proc.devRef .tc main_arg4)
abbrev A6 (W : Valuation τ sig (Elt Ideal)) : S3.Idx → EReal := W (Proc.devRef .tc main_arg6)

section Chain
variable (W : Valuation τ sig (Elt Ideal))

/-- The buffers after the first stretch … -/
def V0 : Valuation τ sig (Elt Ideal) := StableHlo.after (hostOps2 (F := Ideal)) W
/-- … and after stretch 1. -/
def V1 : Valuation τ sig (Elt Ideal) := StableHlo.after (hostOps2_1 (F := Ideal)) (V0 W)
/-- … and after stretch 2. -/
def V2 : Valuation τ sig (Elt Ideal) := StableHlo.after (hostOps2_2 (F := Ideal)) (V1 W)
/-- … and after stretch 3. -/
def V3 : Valuation τ sig (Elt Ideal) := StableHlo.after (hostOps2_3 (F := Ideal)) (V2 W)
/-- … and after stretch 4. -/
def V4 : Valuation τ sig (Elt Ideal) := StableHlo.after (hostOps2_4 (F := Ideal)) (V3 W)
/-- … and after stretch 5. -/
def V5 : Valuation τ sig (Elt Ideal) := StableHlo.after (hostOps2_5 (F := Ideal)) (V4 W)
/-- … and after stretch 6. -/
def V6 : Valuation τ sig (Elt Ideal) := StableHlo.after (hostOps2_6 (F := Ideal)) (V5 W)
/-- … and after stretch 7. -/
def V7 : Valuation τ sig (Elt Ideal) := StableHlo.after (hostOps2_7 (F := Ideal)) (V6 W)
/-- … and after stretch 8. -/
def V8 : Valuation τ sig (Elt Ideal) := StableHlo.after (hostOps2_8 (F := Ideal)) (V7 W)
/-- … and after stretch 9. -/
def V9 : Valuation τ sig (Elt Ideal) := StableHlo.after (hostOps2_9 (F := Ideal)) (V8 W)
/-- … and after stretch 10. -/
def V10 : Valuation τ sig (Elt Ideal) := StableHlo.after (hostOps2_10 (F := Ideal)) (V9 W)

open P0F

/-! What the later stretches leave alone, from where it was written to where it is read. -/
theorem keep_arg4_0 : V0 W (Proc.devRef .tc main_arg4) = W (Proc.devRef .tc main_arg4) :=
  (fr_0_arg4 (W))
theorem keep_arg2_1 : V1 W (Proc.devRef .tc main_arg2) = W (Proc.devRef .tc main_arg2) :=
  ((fr_1_arg2 (V0 W)).trans (fr_0_arg2 (W)))
theorem keep_arg0_3 : V3 W (Proc.devRef .tc main_arg0) = W (Proc.devRef .tc main_arg0) :=
  ((fr_3_arg0 (V2 W)).trans ((fr_2_arg0 (V1 W)).trans ((fr_1_arg0 (V0 W)).trans (fr_0_arg0 (W)))))
theorem keep_arg6_9 : V9 W (Proc.devRef .tc main_arg6) = W (Proc.devRef .tc main_arg6) :=
  ((fr_9_arg6 (V8 W)).trans ((fr_8_arg6 (V7 W)).trans ((fr_7_arg6 (V6 W)).trans ((fr_6_arg6 (V5 W)).trans ((fr_5_arg6 (V4 W)).trans ((fr_4_arg6 (V3 W)).trans ((fr_3_arg6 (V2 W)).trans ((fr_2_arg6 (V1 W)).trans ((fr_1_arg6 (V0 W)).trans (fr_0_arg6 (W)))))))))))
theorem keep_v17_2 : V2 W (Proc.devRef .tc main_v17) = V0 W (Proc.devRef .tc main_v17) :=
  ((fr_2_v17 (V1 W)).trans (fr_1_v17 (V0 W)))
theorem keep_v17_9 : V9 W (Proc.devRef .tc main_v17) = V0 W (Proc.devRef .tc main_v17) :=
  ((fr_9_v17 (V8 W)).trans ((fr_8_v17 (V7 W)).trans ((fr_7_v17 (V6 W)).trans ((fr_6_v17 (V5 W)).trans ((fr_5_v17 (V4 W)).trans ((fr_4_v17 (V3 W)).trans ((fr_3_v17 (V2 W)).trans ((fr_2_v17 (V1 W)).trans (fr_1_v17 (V0 W))))))))))
theorem keep_v21_3 : V3 W (Proc.devRef .tc main_v21) = V2 W (Proc.devRef .tc main_v21) :=
  (fr_3_v21 (V2 W))
theorem keep_v23_3 : V3 W (Proc.devRef .tc main_v23) = V2 W (Proc.devRef .tc main_v23) :=
  (fr_3_v23 (V2 W))
theorem keep_v25_3 : V3 W (Proc.devRef .tc main_v25) = V2 W (Proc.devRef .tc main_v25) :=
  (fr_3_v25 (V2 W))
theorem keep_v27_3 : V3 W (Proc.devRef .tc main_v27) = V2 W (Proc.devRef .tc main_v27) :=
  (fr_3_v27 (V2 W))
theorem keep_v29_3 : V3 W (Proc.devRef .tc main_v29) = V2 W (Proc.devRef .tc main_v29) :=
  (fr_3_v29 (V2 W))
theorem keep_v64_5 : V5 W (Proc.devRef .tc main_v64) = V3 W (Proc.devRef .tc main_v64) :=
  ((fr_5_v64 (V4 W)).trans (fr_4_v64 (V3 W)))
theorem keep_v64_7 : V7 W (Proc.devRef .tc main_v64) = V3 W (Proc.devRef .tc main_v64) :=
  ((fr_7_v64 (V6 W)).trans ((fr_6_v64 (V5 W)).trans ((fr_5_v64 (V4 W)).trans (fr_4_v64 (V3 W)))))
theorem keep_v64_9 : V9 W (Proc.devRef .tc main_v64) = V3 W (Proc.devRef .tc main_v64) :=
  ((fr_9_v64 (V8 W)).trans ((fr_8_v64 (V7 W)).trans ((fr_7_v64 (V6 W)).trans ((fr_6_v64 (V5 W)).trans ((fr_5_v64 (V4 W)).trans (fr_4_v64 (V3 W)))))))
theorem keep_v174_8 : V8 W (Proc.devRef .tc main_v174) = V5 W (Proc.devRef .tc main_v174) :=
  ((fr_8_v174 (V7 W)).trans ((fr_7_v174 (V6 W)).trans (fr_6_v174 (V5 W))))
theorem keep_v178_9 : V9 W (Proc.devRef .tc main_v178) = V8 W (Proc.devRef .tc main_v178) :=
  (fr_9_v178 (V8 W))

/-! ### Each stretch's results at a sample, in `K0`'s words -/

theorem c_v17_0 (b : Fin 4) (p : Fin 128) :
    (V0 W (Proc.devRef .tc main_v17) : S4x128.Idx → BitVec 1) (ix2 b p) = K0.vbit (A4 W) b p := st2_v17 W b p

theorem c_v18_0 (b : Fin 4) (p : Fin 128) (z : Fin 1) :
    (V0 W (Proc.devRef .tc main_v18) : S4x128x1.Idx → BitVec 1) (ix3 b p z) = K0.vbit (A4 W) b p := st2_v18 W b p z

theorem c_v19_1 (b : Fin 4) (p : Fin 128) (j : Fin 4) :
    (V1 W (Proc.devRef .tc main_v19) : S4x128x4.Idx → BitVec 32) (ix3 b p j) = K0.cw (A4 W) b p j := by
  refine (st2_1_v19 (V0 W) b p j).trans ?_
  have h3 : (V0 W (Proc.devRef .tc main_c_3) : S_.Idx → BitVec 32) ix0 = 0#32 := st2_c3 W ix0
  rw [c_v18_0, keep_arg4_0, h3]
  rfl

theorem c_cols_2 (b : Fin 4) (p : Fin 128) :
    (V2 W (Proc.devRef .tc main_v21) : S4x128.Idx → BitVec 32) (ix2 b p) = K0.cw (A4 W) b p 0
    ∧ (V2 W (Proc.devRef .tc main_v23) : S4x128.Idx → BitVec 32) (ix2 b p) = K0.cw (A4 W) b p 1
    ∧ (V2 W (Proc.devRef .tc main_v25) : S4x128.Idx → BitVec 32) (ix2 b p) = K0.cw (A4 W) b p 2
    ∧ (V2 W (Proc.devRef .tc main_v27) : S4x128.Idx → BitVec 32) (ix2 b p) = K0.cw (A4 W) b p 3 := by
  obtain ⟨e0, e1, e2, e3⟩ := st2_2_col (V1 W) b p
  exact ⟨e0.trans (c_v19_1 W b p 0), e1.trans (c_v19_1 W b p 1), e2.trans (c_v19_1 W b p 2), e3.trans (c_v19_1 W b p 3)⟩

theorem c_v29_2 (b : Fin 4) (z : Fin 1) :
    (V2 W (Proc.devRef .tc main_v29) : S4x1.Idx → BitVec 32) (ix2 b z) = BitVec.ofNat 32 b.val := st2_2_v29 (V1 W) b z

theorem c_v64_3 (b : Fin 4) (p : Fin 128) :
    (V3 W (Proc.devRef .tc main_v64) : S4x128.Idx → BitVec 32) (ix2 b p) = K0.cls (A2 W) (A4 W) b p := by
  refine (st2_3_v64 (V2 W) b p).trans ?_
  have h14 : (V2 W (Proc.devRef .tc main_c_14) : S_.Idx → BitVec 32) ix0 = 0#32 := st2_2_c14 (V1 W) ix0
  rw [keep_v17_2, c_v17_0, h14]
  refine congrArg (fun t => Scalar.select (K0.vbit (A4 W) b p) t 0#32) ?_
  refine (st2_2_v63 (V1 W) b p).trans ?_
  rw [keep_arg2_1, c_v19_1, c_v19_1, c_v19_1, c_v19_1]
  rfl

theorem c_v173_4 (b : Fin 4) (p : Fin 128) (k : Fin 3) :
    (V4 W (Proc.devRef .tc main_v173) : S4x128x3.Idx → EReal) (ix3 b p k) = K0.lgk (A0 W) (A4 W) b p k := by
  obtain ⟨e0, e1, e2⟩ := st2_4_v173 (V3 W) b p
  obtain ⟨h21, h23, h25, h27⟩ := c_cols_2 W b p
  rw [keep_arg0_3, keep_v21_3, keep_v23_3, keep_v25_3, keep_v27_3, keep_v29_3, c_v29_2, h21, h23, h25, h27] at e0 e1 e2
  fin_cases k
  · exact e0
  · exact e1
  · exact e2

theorem c_v174_5 (b : Fin 4) (p : Fin 128) (k : Fin 3) :
    (V5 W (Proc.devRef .tc main_v174) : S4x128x3.Idx → EReal) (ix3 b p k) = K0.lp (A0 W) (A4 W) b p k := by
  refine (st2_5_v174 (V4 W) b p k).trans ?_
  rw [c_v173_4, c_v173_4, c_v173_4, c_v173_4]
  rfl

theorem c_v176_6 (b : Fin 4) (p : Fin 128) (z : Fin 1) :
    (V6 W (Proc.devRef .tc main_v176) : S4x128x1.Idx → BitVec 32) (ix3 b p z) = K0.cls (A2 W) (A4 W) b p :=
  (st2_6_v176 (V5 W) b p z).trans ((congrFun (keep_v64_5 W) (ix2 b p)).trans (c_v64_3 W b p))

theorem c_v177_7 (b : Fin 4) (p : Fin 128) :
    (V7 W (Proc.devRef .tc main_v177) : S4x128x1.Idx → EReal) (ix3 b p 0) = K0.pt (A0 W) (A2 W) (A4 W) b p := by
  refine (st2_7_v177 (V6 W) b p).trans ?_
  have h175 : ∀ i, (V6 W (Proc.devRef .tc main_v175) : S4x128x3.Idx → EReal) i
      = Ideal.exp ((V5 W (Proc.devRef .tc main_v174) : S4x128x3.Idx → EReal) i) := fun i => st2_6_v175 (V5 W) i
  rw [c_v176_6, h175, c_v174_5]
  rfl

theorem c_v178_8 (b : Fin 4) (p : Fin 128) :
    (V8 W (Proc.devRef .tc main_v178) : S4x128.Idx → EReal) (ix2 b p) = K0.pt (A0 W) (A2 W) (A4 W) b p :=
  (st2_8_v178 (V7 W) b p).trans (c_v177_7 W b p)

theorem c_v179_8 (b : Fin 4) (p : Fin 128) (z : Fin 1) :
    (V8 W (Proc.devRef .tc main_v179) : S4x128x1.Idx → BitVec 32) (ix3 b p z) = K0.cls (A2 W) (A4 W) b p :=
  (st2_8_v179 (V7 W) b p z).trans ((congrFun (keep_v64_7 W) (ix2 b p)).trans (c_v64_3 W b p))

theorem c_v180_9 (b : Fin 4) (p : Fin 128) :
    (V9 W (Proc.devRef .tc main_v180) : S4x128x1.Idx → EReal) (ix3 b p 0) = K0.lt (A0 W) (A2 W) (A4 W) b p := by
  refine (st2_9_v180 (V8 W) b p).trans ?_
  rw [c_v179_8, keep_v174_8, c_v174_5]
  rfl

end Chain

/-! ## The positive part of level 0 is the specification's -/

section Final
variable (W : Valuation τ sig (Elt Ideal))

variable (hA : ∀ (b : Fin 4) (p : Fin 128), ((A4 W) (ix3 b p 0)).toInt < 3)
  (hC : ∀ i : S4x3x64x64x64.Idx, (-3 : Int) ≤ (Ideal.fptosi 32 ((A2 W) i)).toInt ∧ (Ideal.fptosi 32 ((A2 W) i)).toInt < 3)
include hA hC

/-- The positive loss of level 0, after the first eleven stretches of the host part. -/
theorem ker_lossPos0_nested :
    (V10 W (Proc.devRef .tc main_v197) : S_.Idx → EReal) = fun _ => Spec.lossPos 64 (rd5 (A0 W)) (rd5 (A2 W)) (rd3 (A4 W)) (rd1 (A6 W)) := by
  refine (hostOps2_10_v197 (V9 W) (A0 W) (A2 W) (A4 W) (A6 W) (c_v180_9 W)
    (fun b p => (congrFun (keep_v178_9 W) (ix2 b p)).trans (c_v178_8 W b p))
    (fun b p => (congrFun (keep_v64_9 W) (ix2 b p)).trans (c_v64_3 W b p))
    (keep_arg6_9 W)
    (fun b p => (congrFun (keep_v17_9 W) (ix2 b p)).trans (c_v17_0 W b p))).trans ?_
  funext _
  exact K0.loss_eq (A0 W) (A2 W) (A4 W) (A6 W) hA hC

/-- The positive count of level 0 likewise. -/
theorem ker_countPos0_nested :
    (V10 W (Proc.devRef .tc main_v198) : S_.Idx → EReal) = fun _ => Spec.countPos 64 (rd5 (A0 W)) (rd5 (A2 W)) (rd3 (A4 W)) (rd1 (A6 W)) := by
  refine (hostOps2_10_v198 (V9 W) (A0 W) (A2 W) (A4 W) (A6 W) (c_v180_9 W)
    (fun b p => (congrFun (keep_v178_9 W) (ix2 b p)).trans (c_v178_8 W b p))
    (fun b p => (congrFun (keep_v64_9 W) (ix2 b p)).trans (c_v64_3 W b p))
    (keep_arg6_9 W)
    (fun b p => (congrFun (keep_v17_9 W) (ix2 b p)).trans (c_v17_0 W b p))).trans ?_
  funext _
  exact K0.count_eq (A0 W) (A2 W) (A4 W) (A6 W) hA hC

end Final

end P0

/-- The positive loss of level 0 after the first eleven stretches (the nested form). -/
theorem ker_lossPos0_nested (W : Valuation τ sig (Elt Ideal))
    (hA : ∀ (b : Fin 4) (p : Fin 128), ((P0.A4 W) (ix3 b p 0)).toInt < 3)
    (hC : ∀ i : S4x3x64x64x64.Idx, (-3 : Int) ≤ (Ideal.fptosi 32 ((P0.A2 W) i)).toInt ∧ (Ideal.fptosi 32 ((P0.A2 W) i)).toInt < 3) :
    (StableHlo.after (hostOps2_10 (F := Ideal)) (StableHlo.after (hostOps2_9 (F := Ideal)) (StableHlo.after (hostOps2_8 (F := Ideal))
      (StableHlo.after (hostOps2_7 (F := Ideal)) (StableHlo.after (hostOps2_6 (F := Ideal)) (StableHlo.after (hostOps2_5 (F := Ideal))
      (StableHlo.after (hostOps2_4 (F := Ideal)) (StableHlo.after (hostOps2_3 (F := Ideal)) (StableHlo.after (hostOps2_2 (F := Ideal))
      (StableHlo.after (hostOps2_1 (F := Ideal)) (StableHlo.after (hostOps2 (F := Ideal)) W))))))))))
        (Proc.devRef .tc main_v197) : S_.Idx → EReal)
      = fun _ => Spec.lossPos 64 (rd5 (P0.A0 W)) (rd5 (P0.A2 W)) (rd3 (P0.A4 W)) (rd1 (P0.A6 W)) :=
  P0.ker_lossPos0_nested W hA hC

/-- The positive count of level 0 likewise. -/
theorem ker_countPos0_nested (W : Valuation τ sig (Elt Ideal))
    (hA : ∀ (b : Fin 4) (p : Fin 128), ((P0.A4 W) (ix3 b p 0)).toInt < 3)
    (hC : ∀ i : S4x3x64x64x64.Idx, (-3 : Int) ≤ (Ideal.fptosi 32 ((P0.A2 W) i)).toInt ∧ (Ideal.fptosi 32 ((P0.A2 W) i)).toInt < 3) :
    (StableHlo.after (hostOps2_10 (F := Ideal)) (StableHlo.after (hostOps2_9 (F := Ideal)) (StableHlo.after (hostOps2_8 (F := Ideal))
      (StableHlo.after (hostOps2_7 (F := Ideal)) (StableHlo.after (hostOps2_6 (F := Ideal)) (StableHlo.after (hostOps2_5 (F := Ideal))
      (StableHlo.after (hostOps2_4 (F := Ideal)) (StableHlo.after (hostOps2_3 (F := Ideal)) (StableHlo.after (hostOps2_2 (F := Ideal))
      (StableHlo.after (hostOps2_1 (F := Ideal)) (StableHlo.after (hostOps2 (F := Ideal)) W))))))))))
        (Proc.devRef .tc main_v198) : S_.Idx → EReal)
      = fun _ => Spec.countPos 64 (rd5 (P0.A0 W)) (rd5 (P0.A2 W)) (rd3 (P0.A4 W)) (rd1 (P0.A6 W)) :=
  P0.ker_countPos0_nested W hA hC

end Cert.KernelIdeal.Hand
end
-- ==== Proof.KI.Pos1Frames.lean ====
/-
  Frames of the host stretches of the positive part, level 1: a buffer that no operation of a stretch writes holds after
  the stretch what it held before. Each operation writes its one result buffer; the listed buffers are none of those.
-/
import proofs.«424358_j44040594653645_2_alg».proof.Proof.Gen.KernelIdeal.Launch
import Idealize.ShloMosaic.Lib.StableHlo.Run
import Idealize.ShloMosaic.PureOps.Ideal

set_option maxRecDepth 16384

noncomputable section

namespace Cert.KernelIdeal.Hand.P1F

open Cert.KernelIdeal Cert.KernelIdeal.Gen Idealize.ShloMosaic Idealize.ShloMosaic.StableHlo
open Idealize.ShloMosaic.TcCoe Idealize.SL Idealize.SL.Sem

/-- An operation whose one result buffer is outside a list of buffers writes none of the list. -/
theorem keeps_list {op : HloOp τ sig (Elt Ideal)} (y : Ref sig .tc) (hw : op.writes = {Proc.devRef .tc y}) (R : List (Ref sig .tc))
    (hy : y ∉ R) (r : Ref sig .tc) (hr : r ∈ R) : (Proc.devRef .tc r : DevRef τ sig) ∉ op.writes := by
  rw [hw, Finset.mem_singleton]
  exact StableHlo.devRef_ne_of_ne (fun e => hy (e ▸ hr))

/-- A buffer of a list no operation of the line writes into keeps its contents. -/
theorem frame_of (ops : List (HloOp τ sig (Elt Ideal))) (V : Valuation τ sig (Elt Ideal)) (R : List (Ref sig .tc))
    (H : ops.Forall fun op => ∀ r ∈ R, (Proc.devRef .tc r : DevRef τ sig) ∉ op.writes) (r : Ref sig .tc) (hr : r ∈ R) :
    StableHlo.after ops V (Proc.devRef .tc r) = V (Proc.devRef .tc r) :=
  StableHlo.after_of_forall_not_mem ops V fun op hop => (List.forall_iff_forall_mem.mp H) op hop r hr

/-- Operation by operation: the one result buffer is outside the list. -/
macro "stretch_keeps" : tactic =>
  `(tactic| (simp only [List.Forall]; (repeat' apply And.intro); all_goals exact keeps_list _ rfl _ (by decide)))

/-- The stretch leaves these buffers as they were. -/
theorem fr0 (V : Valuation τ sig (Elt Ideal)) :
    StableHlo.after (hostOps2 (F := Ideal)) V (Proc.devRef .tc main_arg1) = V (Proc.devRef .tc main_arg1)
      ∧ StableHlo.after (hostOps2 (F := Ideal)) V (Proc.devRef .tc main_arg3) = V (Proc.devRef .tc main_arg3)
      ∧ StableHlo.after (hostOps2 (F := Ideal)) V (Proc.devRef .tc main_arg5) = V (Proc.devRef .tc main_arg5)
      ∧ StableHlo.after (hostOps2 (F := Ideal)) V (Proc.devRef .tc main_arg6) = V (Proc.devRef .tc main_arg6) := by
  have H : (hostOps2 (F := Ideal) : List (HloOp τ sig (Elt Ideal))).Forall fun op =>
      ∀ r ∈ [main_arg1, main_arg3, main_arg5, main_arg6], (Proc.devRef .tc r : DevRef τ sig) ∉ op.writes := by stretch_keeps
  have K := fun r hr => frame_of (hostOps2 (F := Ideal)) V _ H r hr
  exact ⟨K _ (by decide), K _ (by decide), K _ (by decide), K _ (by decide)⟩

/-- The stretch leaves these buffers as they were. -/
theorem fr1 (V : Valuation τ sig (Elt Ideal)) :
    StableHlo.after (hostOps2_1 (F := Ideal)) V (Proc.devRef .tc main_arg1) = V (Proc.devRef .tc main_arg1)
      ∧ StableHlo.after (hostOps2_1 (F := Ideal)) V (Proc.devRef .tc main_arg3) = V (Proc.devRef .tc main_arg3)
      ∧ StableHlo.after (hostOps2_1 (F := Ideal)) V (Proc.devRef .tc main_arg5) = V (Proc.devRef .tc main_arg5)
      ∧ StableHlo.after (hostOps2_1 (F := Ideal)) V (Proc.devRef .tc main_arg6) = V (Proc.devRef .tc main_arg6) := by
  have H : (hostOps2_1 (F := Ideal) : List (HloOp τ sig (Elt Ideal))).Forall fun op =>
      ∀ r ∈ [main_arg1, main_arg3, main_arg5, main_arg6], (Proc.devRef .tc r : DevRef τ sig) ∉ op.writes := by stretch_keeps
  have K := fun r hr => frame_of (hostOps2_1 (F := Ideal)) V _ H r hr
  exact ⟨K _ (by decide), K _ (by decide), K _ (by decide), K _ (by decide)⟩

/-- The stretch leaves these buffers as they were. -/
theorem fr2 (V : Valuation τ sig (Elt Ideal)) :
    StableHlo.after (hostOps2_2 (F := Ideal)) V (Proc.devRef .tc main_arg1) = V (Proc.devRef .tc main_arg1)
      ∧ StableHlo.after (hostOps2_2 (F := Ideal)) V (Proc.devRef .tc main_arg3) = V (Proc.devRef .tc main_arg3)
      ∧ StableHlo.after (hostOps2_2 (F := Ideal)) V (Proc.devRef .tc main_arg5) = V (Proc.devRef .tc main_arg5)
      ∧ StableHlo.after (hostOps2_2 (F := Ideal)) V (Proc.devRef .tc main_arg6) = V (Proc.devRef .tc main_arg6) := by
  have H : (hostOps2_2 (F := Ideal) : List (HloOp τ sig (Elt Ideal))).Forall fun op =>
      ∀ r ∈ [main_arg1, main_arg3, main_arg5, main_arg6], (Proc.devRef .tc r : DevRef τ sig) ∉ op.writes := by stretch_keeps
  have K := fun r hr => frame_of (hostOps2_2 (F := Ideal)) V _ H r hr
  exact ⟨K _ (by decide), K _ (by decide), K _ (by decide), K _ (by decide)⟩

/-- The stretch leaves these buffers as they were. -/
theorem fr3 (V : Valuation τ sig (Elt Ideal)) :
    StableHlo.after (hostOps2_3 (F := Ideal)) V (Proc.devRef .tc main_arg1) = V (Proc.devRef .tc main_arg1)
      ∧ StableHlo.after (hostOps2_3 (F := Ideal)) V (Proc.devRef .tc main_arg3) = V (Proc.devRef .tc main_arg3)
      ∧ StableHlo.after (hostOps2_3 (F := Ideal)) V (Proc.devRef .tc main_arg5) = V (Proc.devRef .tc main_arg5)
      ∧ StableHlo.after (hostOps2_3 (F := Ideal)) V (Proc.devRef .tc main_arg6) = V (Proc.devRef .tc main_arg6) := by
  have H : (hostOps2_3 (F := Ideal) : List (HloOp τ sig (Elt Ideal))).Forall fun op =>
      ∀ r ∈ [main_arg1, main_arg3, main_arg5, main_arg6], (Proc.devRef .tc r : DevRef τ sig) ∉ op.writes := by stretch_keeps
  have K := fun r hr => frame_of (hostOps2_3 (F := Ideal)) V _ H r hr
  exact ⟨K _ (by decide), K _ (by decide), K _ (by decide), K _ (by decide)⟩

/-- The stretch leaves these buffers as they were. -/
theorem fr4 (V : Valuation τ sig (Elt Ideal)) :
    StableHlo.after (hostOps2_4 (F := Ideal)) V (Proc.devRef .tc main_arg1) = V (Proc.devRef .tc main_arg1)
      ∧ StableHlo.after (hostOps2_4 (F := Ideal)) V (Proc.devRef .tc main_arg3) = V (Proc.devRef .tc main_arg3)
      ∧ StableHlo.after (hostOps2_4 (F := Ideal)) V (Proc.devRef .tc main_arg5) = V (Proc.devRef .tc main_arg5)
      ∧ StableHlo.after (hostOps2_4 (F := Ideal)) V (Proc.devRef .tc main_arg6) = V (Proc.devRef .tc main_arg6) := by
  have H : (hostOps2_4 (F := Ideal) : List (HloOp τ sig (Elt Ideal))).Forall fun op =>
      ∀ r ∈ [main_arg1, main_arg3, main_arg5, main_arg6], (Proc.devRef .tc r : DevRef τ sig) ∉ op.writes := by stretch_keeps
  have K := fun r hr => frame_of (hostOps2_4 (F := Ideal)) V _ H r hr
  exact ⟨K _ (by decide), K _ (by decide), K _ (by decide), K _ (by decide)⟩

/-- The stretch leaves these buffers as they were. -/
theorem fr5 (V : Valuation τ sig (Elt Ideal)) :
    StableHlo.after (hostOps2_5 (F := Ideal)) V (Proc.devRef .tc main_arg1) = V (Proc.devRef .tc main_arg1)
      ∧ StableHlo.after (hostOps2_5 (F := Ideal)) V (Proc.devRef .tc main_arg3) = V (Proc.devRef .tc main_arg3)
      ∧ StableHlo.after (hostOps2_5 (F := Ideal)) V (Proc.devRef .tc main_arg5) = V (Proc.devRef .tc main_arg5)
      ∧ StableHlo.after (hostOps2_5 (F := Ideal)) V (Proc.devRef .tc main_arg6) = V (Proc.devRef .tc main_arg6) := by
  have H : (hostOps2_5 (F := Ideal) : List (HloOp τ sig (Elt Ideal))).Forall fun op =>
      ∀ r ∈ [main_arg1, main_arg3, main_arg5, main_arg6], (Proc.devRef .tc r : DevRef τ sig) ∉ op.writes := by stretch_keeps
  have K := fun r hr => frame_of (hostOps2_5 (F := Ideal)) V _ H r hr
  exact ⟨K _ (by decide), K _ (by decide), K _ (by decide), K _ (by decide)⟩

/-- The stretch leaves these buffers as they were. -/
theorem fr6 (V : Valuation τ sig (Elt Ideal)) :
    StableHlo.after (hostOps2_6 (F := Ideal)) V (Proc.devRef .tc main_arg1) = V (Proc.devRef .tc main_arg1)
      ∧ StableHlo.after (hostOps2_6 (F := Ideal)) V (Proc.devRef .tc main_arg3) = V (Proc.devRef .tc main_arg3)
      ∧ StableHlo.after (hostOps2_6 (F := Ideal)) V (Proc.devRef .tc main_arg5) = V (Proc.devRef .tc main_arg5)
      ∧ StableHlo.after (hostOps2_6 (F := Ideal)) V (Proc.devRef .tc main_arg6) = V (Proc.devRef .tc main_arg6) := by
  have H : (hostOps2_6 (F := Ideal) : List (HloOp τ sig (Elt Ideal))).Forall fun op =>
      ∀ r ∈ [main_arg1, main_arg3, main_arg5, main_arg6], (Proc.devRef .tc r : DevRef τ sig) ∉ op.writes := by stretch_keeps
  have K := fun r hr => frame_of (hostOps2_6 (F := Ideal)) V _ H r hr
  exact ⟨K _ (by decide), K _ (by decide), K _ (by decide), K _ (by decide)⟩

/-- The stretch leaves these buffers as they were. -/
theorem fr7 (V : Valuation τ sig (Elt Ideal)) :
    StableHlo.after (hostOps2_7 (F := Ideal)) V (Proc.devRef .tc main_arg1) = V (Proc.devRef .tc main_arg1)
      ∧ StableHlo.after (hostOps2_7 (F := Ideal)) V (Proc.devRef .tc main_arg3) = V (Proc.devRef .tc main_arg3)
      ∧ StableHlo.after (hostOps2_7 (F := Ideal)) V (Proc.devRef .tc main_arg5) = V (Proc.devRef .tc main_arg5)
      ∧ StableHlo.after (hostOps2_7 (F := Ideal)) V (Proc.devRef .tc main_arg6) = V (Proc.devRef .tc main_arg6) := by
  have H : (hostOps2_7 (F := Ideal) : List (HloOp τ sig (Elt Ideal))).Forall fun op =>
      ∀ r ∈ [main_arg1, main_arg3, main_arg5, main_arg6], (Proc.devRef .tc r : DevRef τ sig) ∉ op.writes := by stretch_keeps
  have K := fun r hr => frame_of (hostOps2_7 (F := Ideal)) V _ H r hr
  exact ⟨K _ (by decide), K _ (by decide), K _ (by decide), K _ (by decide)⟩

/-- The stretch leaves these buffers as they were. -/
theorem fr8 (V : Valuation τ sig (Elt Ideal)) :
    StableHlo.after (hostOps2_8 (F := Ideal)) V (Proc.devRef .tc main_arg1) = V (Proc.devRef .tc main_arg1)
      ∧ StableHlo.after (hostOps2_8 (F := Ideal)) V (Proc.devRef .tc main_arg3) = V (Proc.devRef .tc main_arg3)
      ∧ StableHlo.after (hostOps2_8 (F := Ideal)) V (Proc.devRef .tc main_arg5) = V (Proc.devRef .tc main_arg5)
      ∧ StableHlo.after (hostOps2_8 (F := Ideal)) V (Proc.devRef .tc main_arg6) = V (Proc.devRef .tc main_arg6) := by
  have H : (hostOps2_8 (F := Ideal) : List (HloOp τ sig (Elt Ideal))).Forall fun op =>
      ∀ r ∈ [main_arg1, main_arg3, main_arg5, main_arg6], (Proc.devRef .tc r : DevRef τ sig) ∉ op.writes := by stretch_keeps
  have K := fun r hr => frame_of (hostOps2_8 (F := Ideal)) V _ H r hr
  exact ⟨K _ (by decide), K _ (by decide), K _ (by decide), K _ (by decide)⟩

/-- The stretch leaves these buffers as they were. -/
theorem fr9 (V : Valuation τ sig (Elt Ideal)) :
    StableHlo.after (hostOps2_9 (F := Ideal)) V (Proc.devRef .tc main_arg1) = V (Proc.devRef .tc main_arg1)
      ∧ StableHlo.after (hostOps2_9 (F := Ideal)) V (Proc.devRef .tc main_arg3) = V (Proc.devRef .tc main_arg3)
      ∧ StableHlo.after (hostOps2_9 (F := Ideal)) V (Proc.devRef .tc main_arg5) = V (Proc.devRef .tc main_arg5)
      ∧ StableHlo.after (hostOps2_9 (F := Ideal)) V (Proc.devRef .tc main_arg6) = V (Proc.devRef .tc main_arg6) := by
  have H : (hostOps2_9 (F := Ideal) : List (HloOp τ sig (Elt Ideal))).Forall fun op =>
      ∀ r ∈ [main_arg1, main_arg3, main_arg5, main_arg6], (Proc.devRef .tc r : DevRef τ sig) ∉ op.writes := by stretch_keeps
  have K := fun r hr => frame_of (hostOps2_9 (F := Ideal)) V _ H r hr
  exact ⟨K _ (by decide), K _ (by decide), K _ (by decide), K _ (by decide)⟩

/-- The stretch leaves these buffers as they were. -/
theorem fr10 (V : Valuation τ sig (Elt Ideal)) :
    StableHlo.after (hostOps2_10 (F := Ideal)) V (Proc.devRef .tc main_arg1) = V (Proc.devRef .tc main_arg1)
      ∧ StableHlo.after (hostOps2_10 (F := Ideal)) V (Proc.devRef .tc main_arg3) = V (Proc.devRef .tc main_arg3)
      ∧ StableHlo.after (hostOps2_10 (F := Ideal)) V (Proc.devRef .tc main_arg5) = V (Proc.devRef .tc main_arg5)
      ∧ StableHlo.after (hostOps2_10 (F := Ideal)) V (Proc.devRef .tc main_arg6) = V (Proc.devRef .tc main_arg6) := by
  have H : (hostOps2_10 (F := Ideal) : List (HloOp τ sig (Elt Ideal))).Forall fun op =>
      ∀ r ∈ [main_arg1, main_arg3, main_arg5, main_arg6], (Proc.devRef .tc r : DevRef τ sig) ∉ op.writes := by stretch_keeps
  have K := fun r hr => frame_of (hostOps2_10 (F := Ideal)) V _ H r hr
  exact ⟨K _ (by decide), K _ (by decide), K _ (by decide), K _ (by decide)⟩

/-- The stretch leaves these buffers as they were. -/
theorem fr11 (V : Valuation τ sig (Elt Ideal)) :
    StableHlo.after (hostOps2_11 (F := Ideal)) V (Proc.devRef .tc main_arg1) = V (Proc.devRef .tc main_arg1)
      ∧ StableHlo.after (hostOps2_11 (F := Ideal)) V (Proc.devRef .tc main_arg3) = V (Proc.devRef .tc main_arg3)
      ∧ StableHlo.after (hostOps2_11 (F := Ideal)) V (Proc.devRef .tc main_arg6) = V (Proc.devRef .tc main_arg6)
      ∧ StableHlo.after (hostOps2_11 (F := Ideal)) V (Proc.devRef .tc main_v202) = V (Proc.devRef .tc main_v202) := by
  have H : (hostOps2_11 (F := Ideal) : List (HloOp τ sig (Elt Ideal))).Forall fun op =>
      ∀ r ∈ [main_arg1, main_arg3, main_arg6, main_v202], (Proc.devRef .tc r : DevRef τ sig) ∉ op.writes := by stretch_keeps
  have K := fun r hr => frame_of (hostOps2_11 (F := Ideal)) V _ H r hr
  exact ⟨K _ (by decide), K _ (by decide), K _ (by decide), K _ (by decide)⟩

/-- The stretch leaves these buffers as they were. -/
theorem fr12 (V : Valuation τ sig (Elt Ideal)) :
    StableHlo.after (hostOps2_12 (F := Ideal)) V (Proc.devRef .tc main_arg1) = V (Proc.devRef .tc main_arg1)
      ∧ StableHlo.after (hostOps2_12 (F := Ideal)) V (Proc.devRef .tc main_arg6) = V (Proc.devRef .tc main_arg6)
      ∧ StableHlo.after (hostOps2_12 (F := Ideal)) V (Proc.devRef .tc main_v202) = V (Proc.devRef .tc main_v202) := by
  have H : (hostOps2_12 (F := Ideal) : List (HloOp τ sig (Elt Ideal))).Forall fun op =>
      ∀ r ∈ [main_arg1, main_arg6, main_v202], (Proc.devRef .tc r : DevRef τ sig) ∉ op.writes := by stretch_keeps
  have K := fun r hr => frame_of (hostOps2_12 (F := Ideal)) V _ H r hr
  exact ⟨K _ (by decide), K _ (by decide), K _ (by decide)⟩

/-- The stretch leaves these buffers as they were. -/
theorem fr13 (V : Valuation τ sig (Elt Ideal)) :
    StableHlo.after (hostOps2_13 (F := Ideal)) V (Proc.devRef .tc main_arg1) = V (Proc.devRef .tc main_arg1)
      ∧ StableHlo.after (hostOps2_13 (F := Ideal)) V (Proc.devRef .tc main_arg6) = V (Proc.devRef .tc main_arg6)
      ∧ StableHlo.after (hostOps2_13 (F := Ideal)) V (Proc.devRef .tc main_v202) = V (Proc.devRef .tc main_v202)
      ∧ StableHlo.after (hostOps2_13 (F := Ideal)) V (Proc.devRef .tc main_v206) = V (Proc.devRef .tc main_v206)
      ∧ StableHlo.after (hostOps2_13 (F := Ideal)) V (Proc.devRef .tc main_v208) = V (Proc.devRef .tc main_v208)
      ∧ StableHlo.after (hostOps2_13 (F := Ideal)) V (Proc.devRef .tc main_v210) = V (Proc.devRef .tc main_v210)
      ∧ StableHlo.after (hostOps2_13 (F := Ideal)) V (Proc.devRef .tc main_v212) = V (Proc.devRef .tc main_v212)
      ∧ StableHlo.after (hostOps2_13 (F := Ideal)) V (Proc.devRef .tc main_v214) = V (Proc.devRef .tc main_v214) := by
  have H : (hostOps2_13 (F := Ideal) : List (HloOp τ sig (Elt Ideal))).Forall fun op =>
      ∀ r ∈ [main_arg1, main_arg6, main_v202, main_v206, main_v208, main_v210, main_v212, main_v214], (Proc.devRef .tc r : DevRef τ sig) ∉ op.writes := by stretch_keeps
  have K := fun r hr => frame_of (hostOps2_13 (F := Ideal)) V _ H r hr
  exact ⟨K _ (by decide), K _ (by decide), K _ (by decide), K _ (by decide), K _ (by decide), K _ (by decide), K _ (by decide), K _ (by decide)⟩

/-- The stretch leaves these buffers as they were. -/
theorem fr14 (V : Valuation τ sig (Elt Ideal)) :
    StableHlo.after (hostOps2_14 (F := Ideal)) V (Proc.devRef .tc main_arg6) = V (Proc.devRef .tc main_arg6)
      ∧ StableHlo.after (hostOps2_14 (F := Ideal)) V (Proc.devRef .tc main_v202) = V (Proc.devRef .tc main_v202)
      ∧ StableHlo.after (hostOps2_14 (F := Ideal)) V (Proc.devRef .tc main_v249) = V (Proc.devRef .tc main_v249) := by
  have H : (hostOps2_14 (F := Ideal) : List (HloOp τ sig (Elt Ideal))).Forall fun op =>
      ∀ r ∈ [main_arg6, main_v202, main_v249], (Proc.devRef .tc r : DevRef τ sig) ∉ op.writes := by stretch_keeps
  have K := fun r hr => frame_of (hostOps2_14 (F := Ideal)) V _ H r hr
  exact ⟨K _ (by decide), K _ (by decide), K _ (by decide)⟩

/-- The stretch leaves these buffers as they were. -/
theorem fr15 (V : Valuation τ sig (Elt Ideal)) :
    StableHlo.after (hostOps2_15 (F := Ideal)) V (Proc.devRef .tc main_arg6) = V (Proc.devRef .tc main_arg6)
      ∧ StableHlo.after (hostOps2_15 (F := Ideal)) V (Proc.devRef .tc main_v202) = V (Proc.devRef .tc main_v202)
      ∧ StableHlo.after (hostOps2_15 (F := Ideal)) V (Proc.devRef .tc main_v249) = V (Proc.devRef .tc main_v249) := by
  have H : (hostOps2_15 (F := Ideal) : List (HloOp τ sig (Elt Ideal))).Forall fun op =>
      ∀ r ∈ [main_arg6, main_v202, main_v249], (Proc.devRef .tc r : DevRef τ sig) ∉ op.writes := by stretch_keeps
  have K := fun r hr => frame_of (hostOps2_15 (F := Ideal)) V _ H r hr
  exact ⟨K _ (by decide), K _ (by decide), K _ (by decide)⟩

/-- The stretch leaves these buffers as they were. -/
theorem fr16 (V : Valuation τ sig (Elt Ideal)) :
    StableHlo.after (hostOps2_16 (F := Ideal)) V (Proc.devRef .tc main_arg6) = V (Proc.devRef .tc main_arg6)
      ∧ StableHlo.after (hostOps2_16 (F := Ideal)) V (Proc.devRef .tc main_v202) = V (Proc.devRef .tc main_v202)
      ∧ StableHlo.after (hostOps2_16 (F := Ideal)) V (Proc.devRef .tc main_v249) = V (Proc.devRef .tc main_v249)
      ∧ StableHlo.after (hostOps2_16 (F := Ideal)) V (Proc.devRef .tc main_v359) = V (Proc.devRef .tc main_v359) := by
  have H : (hostOps2_16 (F := Ideal) : List (HloOp τ sig (Elt Ideal))).Forall fun op =>
      ∀ r ∈ [main_arg6, main_v202, main_v249, main_v359], (Proc.devRef .tc r : DevRef τ sig) ∉ op.writes := by stretch_keeps
  have K := fun r hr => frame_of (hostOps2_16 (F := Ideal)) V _ H r hr
  exact ⟨K _ (by decide), K _ (by decide), K _ (by decide), K _ (by decide)⟩

/-- The stretch leaves these buffers as they were. -/
theorem fr17 (V : Valuation τ sig (Elt Ideal)) :
    StableHlo.after (hostOps2_17 (F := Ideal)) V (Proc.devRef .tc main_arg6) = V (Proc.devRef .tc main_arg6)
      ∧ StableHlo.after (hostOps2_17 (F := Ideal)) V (Proc.devRef .tc main_v202) = V (Proc.devRef .tc main_v202)
      ∧ StableHlo.after (hostOps2_17 (F := Ideal)) V (Proc.devRef .tc main_v249) = V (Proc.devRef .tc main_v249)
      ∧ StableHlo.after (hostOps2_17 (F := Ideal)) V (Proc.devRef .tc main_v359) = V (Proc.devRef .tc main_v359) := by
  have H : (hostOps2_17 (F := Ideal) : List (HloOp τ sig (Elt Ideal))).Forall fun op =>
      ∀ r ∈ [main_arg6, main_v202, main_v249, main_v359], (Proc.devRef .tc r : DevRef τ sig) ∉ op.writes := by stretch_keeps
  have K := fun r hr => frame_of (hostOps2_17 (F := Ideal)) V _ H r hr
  exact ⟨K _ (by decide), K _ (by decide), K _ (by decide), K _ (by decide)⟩

/-- The stretch leaves these buffers as they were. -/
theorem fr18 (V : Valuation τ sig (Elt Ideal)) :
    StableHlo.after (hostOps2_18 (F := Ideal)) V (Proc.devRef .tc main_arg6) = V (Proc.devRef .tc main_arg6)
      ∧ StableHlo.after (hostOps2_18 (F := Ideal)) V (Proc.devRef .tc main_v202) = V (Proc.devRef .tc main_v202)
      ∧ StableHlo.after (hostOps2_18 (F := Ideal)) V (Proc.devRef .tc main_v249) = V (Proc.devRef .tc main_v249)
      ∧ StableHlo.after (hostOps2_18 (F := Ideal)) V (Proc.devRef .tc main_v359) = V (Proc.devRef .tc main_v359) := by
  have H : (hostOps2_18 (F := Ideal) : List (HloOp τ sig (Elt Ideal))).Forall fun op =>
      ∀ r ∈ [main_arg6, main_v202, main_v249, main_v359], (Proc.devRef .tc r : DevRef τ sig) ∉ op.writes := by stretch_keeps
  have K := fun r hr => frame_of (hostOps2_18 (F := Ideal)) V _ H r hr
  exact ⟨K _ (by decide), K _ (by decide), K _ (by decide), K _ (by decide)⟩

/-- The stretch leaves these buffers as they were. -/
theorem fr19 (V : Valuation τ sig (Elt Ideal)) :
    StableHlo.after (hostOps2_19 (F := Ideal)) V (Proc.devRef .tc main_arg6) = V (Proc.devRef .tc main_arg6)
      ∧ StableHlo.after (hostOps2_19 (F := Ideal)) V (Proc.devRef .tc main_v202) = V (Proc.devRef .tc main_v202)
      ∧ StableHlo.after (hostOps2_19 (F := Ideal)) V (Proc.devRef .tc main_v249) = V (Proc.devRef .tc main_v249)
      ∧ StableHlo.after (hostOps2_19 (F := Ideal)) V (Proc.devRef .tc main_v363) = V (Proc.devRef .tc main_v363) := by
  have H : (hostOps2_19 (F := Ideal) : List (HloOp τ sig (Elt Ideal))).Forall fun op =>
      ∀ r ∈ [main_arg6, main_v202, main_v249, main_v363], (Proc.devRef .tc r : DevRef τ sig) ∉ op.writes := by stretch_keeps
  have K := fun r hr => frame_of (hostOps2_19 (F := Ideal)) V _ H r hr
  exact ⟨K _ (by decide), K _ (by decide), K _ (by decide), K _ (by decide)⟩

/-- Through the first ten stretches the four level-1 argument arrays are as they were. -/
theorem pre_args (W : Valuation τ sig (Elt Ideal)) :
    (StableHlo.after (hostOps2_9 (F := Ideal)) (StableHlo.after (hostOps2_8 (F := Ideal)) (StableHlo.after (hostOps2_7 (F := Ideal)) (StableHlo.after (hostOps2_6 (F := Ideal)) (StableHlo.after (hostOps2_5 (F := Ideal)) (StableHlo.after (hostOps2_4 (F := Ideal)) (StableHlo.after (hostOps2_3 (F := Ideal)) (StableHlo.after (hostOps2_2 (F := Ideal)) (StableHlo.after (hostOps2_1 (F := Ideal)) (StableHlo.after (hostOps2 (F := Ideal)) W)))))))))) (Proc.devRef .tc main_arg1) = W (Proc.devRef .tc main_arg1)
      ∧ (StableHlo.after (hostOps2_9 (F := Ideal)) (StableHlo.after (hostOps2_8 (F := Ideal)) (StableHlo.after (hostOps2_7 (F := Ideal)) (StableHlo.after (hostOps2_6 (F := Ideal)) (StableHlo.after (hostOps2_5 (F := Ideal)) (StableHlo.after (hostOps2_4 (F := Ideal)) (StableHlo.after (hostOps2_3 (F := Ideal)) (StableHlo.after (hostOps2_2 (F := Ideal)) (StableHlo.after (hostOps2_1 (F := Ideal)) (StableHlo.after (hostOps2 (F := Ideal)) W)))))))))) (Proc.devRef .tc main_arg3) = W (Proc.devRef .tc main_arg3)
      ∧ (StableHlo.after (hostOps2_9 (F := Ideal)) (StableHlo.after (hostOps2_8 (F := Ideal)) (StableHlo.after (hostOps2_7 (F := Ideal)) (StableHlo.after (hostOps2_6 (F := Ideal)) (StableHlo.after (hostOps2_5 (F := Ideal)) (StableHlo.after (hostOps2_4 (F := Ideal)) (StableHlo.after (hostOps2_3 (F := Ideal)) (StableHlo.after (hostOps2_2 (F := Ideal)) (StableHlo.after (hostOps2_1 (F := Ideal)) (StableHlo.after (hostOps2 (F := Ideal)) W)))))))))) (Proc.devRef .tc main_arg5) = W (Proc.devRef .tc main_arg5)
      ∧ (StableHlo.after (hostOps2_9 (F := Ideal)) (StableHlo.after (hostOps2_8 (F := Ideal)) (StableHlo.after (hostOps2_7 (F := Ideal)) (StableHlo.after (hostOps2_6 (F := Ideal)) (StableHlo.after (hostOps2_5 (F := Ideal)) (StableHlo.after (hostOps2_4 (F := Ideal)) (StableHlo.after (hostOps2_3 (F := Ideal)) (StableHlo.after (hostOps2_2 (F := Ideal)) (StableHlo.after (hostOps2_1 (F := Ideal)) (StableHlo.after (hostOps2 (F := Ideal)) W)))))))))) (Proc.devRef .tc main_arg6) = W (Proc.devRef .tc main_arg6) :=
  ⟨((fr9 _).1.trans ((fr8 _).1.trans ((fr7 _).1.trans ((fr6 _).1.trans ((fr5 _).1.trans ((fr4 _).1.trans ((fr3 _).1.trans ((fr2 _).1.trans ((fr1 _).1.trans (fr0 _).1))))))))),
   ((fr9 _).2.1.trans ((fr8 _).2.1.trans ((fr7 _).2.1.trans ((fr6 _).2.1.trans ((fr5 _).2.1.trans ((fr4 _).2.1.trans ((fr3 _).2.1.trans ((fr2 _).2.1.trans ((fr1 _).2.1.trans (fr0 _).2.1))))))))),
   ((fr9 _).2.2.1.trans ((fr8 _).2.2.1.trans ((fr7 _).2.2.1.trans ((fr6 _).2.2.1.trans ((fr5 _).2.2.1.trans ((fr4 _).2.2.1.trans ((fr3 _).2.2.1.trans ((fr2 _).2.2.1.trans ((fr1 _).2.2.1.trans (fr0 _).2.2.1))))))))),
   ((fr9 _).2.2.2.trans ((fr8 _).2.2.2.trans ((fr7 _).2.2.2.trans ((fr6 _).2.2.2.trans ((fr5 _).2.2.2.trans ((fr4 _).2.2.2.trans ((fr3 _).2.2.2.trans ((fr2 _).2.2.2.trans ((fr1 _).2.2.2.trans (fr0 _).2.2.2)))))))))⟩

end Cert.KernelIdeal.Hand.P1F

end
-- ==== Proof.KI.Pos1Sum.lean ====
/-
  The host's sum of a [4, 128] array of per-sample terms, starting from zero: the double sum over batch and sample of
  the terms.
-/
import proofs.«424358_j44040594653645_2_alg».proof.Proof.Gen.KernelIdeal.Launch
import Idealize.ShloMosaic.Lib.IdealHost
import Idealize.ShloMosaic.PureOps.Ideal.Laws
import Idealize.ShloMosaic.Lib.ValueIdx

noncomputable section

namespace Cert.KernelIdeal.Hand.P1S

open Cert.KernelIdeal Cert.KernelIdeal.Gen Idealize.ShloMosaic Idealize.ShloMosaic.ValueIdx
open scoped BigOperators

/-- Adding up a [4, 128] array from zero: the double sum of its entries' values. -/
theorem total_sum (v : FVec Ideal S4x128 .f32) (f : ℕ → ℕ → EReal) (hf : ∀ (b : Fin 4) (p : Fin 128), v (ix2 b p) = f b.val p.val) :
    Host.reduceAdd v (constant (F := Ideal) S_ .f32 0x00000000#32) reducesTo_S4x128_S_d0_1 h_S_
      = fun _ => ∑ b ∈ Finset.range 4, ∑ p ∈ Finset.range 128, f b p := by
  funext i
  simp only [Host.reduceAdd, Ideal.hostReduceAdd_def]
  rw [Ideal.hostReduceAdd_total reducesTo_S4x128_S_d0_1 (fun b => b.elim0), constant_apply, Ideal.ofBits_zero_f32, zero_add,
    sum_idx2]
  simp only [hf, Finset.sum_range]

end Cert.KernelIdeal.Hand.P1S

end
-- ==== Proof.KI.Pos1.lean ====
/-
  The kernel program's positive part at pyramid level 1 is the specification's, under the precondition's index-range facts.

  The positive loss of a level is plain array code: a validity mask from the anchor column of the coordinate table, the
  coordinates zeroed on padding samples, the label map gathered at the samples' voxels and truncated to a class word, the
  three class logits of each sample's anchor gathered from the logit array (channel 3 k + a), a log-softmax over the three,
  the pick of the sample's class from the log-probabilities and from their exponentials, the focal weight
  (1 - p)^2 times the class weight times the validity, and the two sums over the 4 x 128 samples.

  The proof has four parts. (1) Each stretch of host operations computes named functions of the buffers it reads (one pass
  over the stretch's operations; `rfl` against the function's definition). (2) Those functions read at a sample (b, p):
  the layout operations of the literal shapes, the five-coordinate point gather and the batched pick, each at an index.
  (3) At a sample the chain is the specification's summand: index words normalise and clamp to `Spec.nidx`; under the
  precondition the channel word 3 k + a is never clamped and the pick's in-bounds mask is true. (4) The stretches compose
  (buffers a stretch does not write keep their contents) and the two totals are the sums over the samples.
-/
import proofs.«424358_j44040594653645_2_alg».proof.Proof.Gen.KernelIdeal.Launch
import proofs.«424358_j44040594653645_2_alg».proof.Proof.Spec
import proofs.«424358_j44040594653645_2_alg».proof.Proof.Readers
import proofs.«424358_j44040594653645_2_alg».proof.Proof.KI.NaryLemmas
import proofs.«424358_j44040594653645_2_alg».proof.Proof.KI.PosWords
import proofs.«424358_j44040594653645_2_alg».proof.Proof.KI.Pos1Frames
import proofs.«424358_j44040594653645_2_alg».proof.Proof.KI.Pos1Sum
import Idealize.ShloMosaic.Lib.StableHlo.Run
import Idealize.ShloMosaic.Lib.ValueIdx
import Idealize.ShloMosaic.Lib.Pipeline.Value
import Idealize.ShloMosaic.Lib.Pipeline.Frame
import Idealize.ShloMosaic.PureOps.Ideal.Laws
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Cert.Hand Cert.Hand.Readers

namespace P1

/-- Arrays of extended reals, of 32-bit words and of one-bit words. -/
abbrev FV (s : Shape) : Type := FVec Ideal s .f32
abbrev IV (s : Shape) : Type := IVec s 32
abbrev BV (s : Shape) : Type := IVec s 1

/-! ## The positive part's arrays, level 1, as functions of the arguments -/

/-- Column `k` of a coordinate table as a rectangle. -/
def colv (k : Fin 4) (c : IV S4x128x4) : IV S4x128 :=
  match k with
  | 0 => shapeCast S4x128 (extractStridedSlice S4x128x1 ![0, 0, 0] c slices_S4x128x4_S4x128x1_0_0_0) shapeCasts_S4x128x1_S4x128
  | 1 => shapeCast S4x128 (extractStridedSlice S4x128x1 ![0, 0, 1] c slices_S4x128x4_S4x128x1_0_0_1) shapeCasts_S4x128x1_S4x128
  | 2 => shapeCast S4x128 (extractStridedSlice S4x128x1 ![0, 0, 2] c slices_S4x128x4_S4x128x1_0_0_2) shapeCasts_S4x128x1_S4x128
  | 3 => shapeCast S4x128 (extractStridedSlice S4x128x1 ![0, 0, 3] c slices_S4x128x4_S4x128x1_0_0_3) shapeCasts_S4x128x1_S4x128

/-- A rectangle as a one-column block. -/
def col1 {α : Type} (v : S4x128.Idx → α) : S4x128x1.Idx → α := broadcastInDim S4x128x1 ![0, 1] bcast_S4x128_S4x128x1_0_1 v

/-- The validity mask: the anchor word exceeds -1. -/
def validv (x5 : IV S4x128x4) : BV S4x128 :=
  cmpi .sgt (colv 0 x5) (broadcastInDim S4x128 ![] bcast_S_S4x128 (constantI S_ 32 4294967295#32))

/-- The coordinates, zeroed on padding samples. -/
def coordv (x5 : IV S4x128x4) : IV S4x128x4 :=
  select (broadcastInDim S4x128x4 ![0, 1, 2] bcast_S4x128x1_S4x128x4_0_1_2 (col1 (validv x5)))
    x5 (broadcastInDim S4x128x4 ![] bcast_S_S4x128x4 (constantI S_ 32 0#32))

/-- A rectangle of index words normalised against an extent: a negative word counts from the end. -/
def normv (e : BitVec 32) (v : IV S4x128) : IV S4x128 :=
  select (cmpi .slt v (broadcastInDim S4x128 ![] bcast_S_S4x128 (constantI S_ 32 0#32)))
    (addi v (broadcastInDim S4x128 ![] bcast_S_S4x128 (constantI S_ 32 e))) v

/-- The batch numbers as a column. -/
def iotav : IV S4x1 := broadcastInDim S4x1 ![0] bcast_S4_S4x1_0 (iotaInDim S4 32 0)

/-- The batch column normalised against 4. -/
def batchv (io : IV S4x1) : IV S4x1 :=
  select (cmpi .slt io (broadcastInDim S4x1 ![] bcast_S_S4x1 (constantI S_ 32 0#32)))
    (addi io (broadcastInDim S4x1 ![] bcast_S_S4x1 (constantI S_ 32 4#32))) io

/-- The five index columns side by side. -/
def idx5 (bv : IV S4x1) (c0 c1 c2 c3 : IV S4x128) : IV S4x128x5 :=
  concatenate S4x128x5 2 [⟨S4x128x1, col1 (broadcastInDim S4x128 ![0, 1] bcast_S4x1_S4x128_0_1 bv)⟩, ⟨S4x128x1, col1 c0⟩, ⟨S4x128x1, col1 c1⟩,
    ⟨S4x128x1, col1 c2⟩, ⟨S4x128x1, col1 c3⟩] concatenates_S4x128x1_S4x128x1_S4x128x1_S4x128x1_S4x128x1_S4x128x5_d2

/-- The label map's words at the samples' voxels, truncated to integers. -/
def clsrawv (x3 : FV S4x3x32x32x32) (io : IV S4x1) (a d h w : IV S4x128) : IV S4x128 :=
  fptosi (F := Ideal) 32 (Host.gather gather_S4x3x32x32x32_S4x128x5_S4x128_n_01234_n_n_01234_2_11111 x3
    (idx5 (batchv io) (normv 3#32 a) (normv 32#32 d) (normv 32#32 h) (normv 32#32 w)))

/-- The class words, zero on padding samples. -/
def clsv (valid : BV S4x128) (raw : IV S4x128) : IV S4x128 :=
  select valid raw (broadcastInDim S4x128 ![] bcast_S_S4x128 (constantI S_ 32 0#32))

/-- The logits at the samples' voxels on channel `k3 + a` (as words): class `k3 / 3` of the sample's anchor. -/
def logitv (k3 : BitVec 32) (x1 : FV S4x9x32x32x32) (io : IV S4x1) (a d h w : IV S4x128) : FV S4x128 :=
  Host.gather gather_S4x9x32x32x32_S4x128x5_S4x128_n_01234_n_n_01234_2_11111 x1
    (idx5 (batchv io) (normv 9#32 (addi (broadcastInDim S4x128 ![] bcast_S_S4x128 (constantI S_ 32 k3)) a))
      (normv 32#32 d) (normv 32#32 h) (normv 32#32 w))

/-- Three rectangles stacked along a last axis. -/
def stackv (l0 l1 l2 : FV S4x128) : FV S4x128x3 :=
  concatenate S4x128x3 2 [⟨S4x128x1, col1 l0⟩, ⟨S4x128x1, col1 l1⟩, ⟨S4x128x1, col1 l2⟩] concatenates_S4x128x1_S4x128x1_S4x128x1_S4x128x3_d2

/-- A one-column block repeated along the last axis of extent 3. -/
def rep3 {α : Type} (v : S4x128x1.Idx → α) : S4x128x3.Idx → α := broadcastInDim S4x128x3 ![0, 1, 2] bcast_S4x128x1_S4x128x3_0_1_2 v

/-- The log-softmax's shifted logits: minus the last axis's maximum. -/
def lsmzv (s : FV S4x128x3) : FV S4x128x3 :=
  subf s (rep3 (col1 (maximumf (broadcastInDim S4x128 ![] bcast_S_S4x128 (constant (F := Ideal) S_ .f32 0xFF800000#32))
    (Host.reduce FloatOps.maximumf s (constant (F := Ideal) S_ .f32 0xFF800000#32) reducesTo_S4x128x3_S4x128_d2 h_S_))))

/-- The log-softmax over the last axis. -/
def lsmv (s : FV S4x128x3) : FV S4x128x3 :=
  subf (lsmzv s) (rep3 (Host.log (col1 (Host.reduceAdd (Host.exp (lsmzv s)) (constant (F := Ideal) S_ .f32 0x00000000#32) reducesTo_S4x128x3_S4x128_d2 h_S_))))

/-- The class words normalised against 3, as a rank-4 block. -/
def tnormv (ci : IV S4x128x1) : IV S4x128x1x1 :=
  shapeCast S4x128x1x1 (select (cmpi .slt ci (broadcastInDim S4x128x1 ![] bcast_S_S4x128x1 (constantI S_ 32 0#32)))
    (addi ci (broadcastInDim S4x128x1 ![] bcast_S_S4x128x1 (constantI S_ 32 3#32))) ci) shapeCasts_S4x128x1_S4x128x1x1

/-- The in-bounds mask of the pick along the last axis: the normalised word lies in [0, 2]. -/
def tmaskv (n4 : IV S4x128x1x1) : BV S4x128x1 :=
  Host.reduce IntOp.andi (andi (cmpi .sge n4 (broadcastInDim S4x128x1x1 ![] bcast_S_S4x128x1x1 (constantI S_ 32 0#32)))
    (cmpi .sle n4 (broadcastInDim S4x128x1x1 ![0, 1, 2, 3] bcast_S1x1x1x1_S4x128x1x1_0_1_2_3
      (broadcastInDim S1x1x1x1 ![3] bcast_S1_S1x1x1x1_3 (constantI S1 32 2#32)))))
    (constantI S_ 1 1#1) reducesTo_S4x128x1x1_S4x128x1_d3 h_S_

/-- The pick along the last axis at the class words: the entry where the word is in bounds, the fill elsewhere. -/
def takev (arr : FV S4x128x3) (ci : IV S4x128x1) : FV S4x128x1 :=
  select (tmaskv (tnormv ci)) (Host.gather gather_S4x128x3_S4x128x1x1_S4x128x1_n_2_01_01_2_3_111 arr (tnormv ci))
    (broadcastInDim S4x128x1 ![] bcast_S_S4x128x1 (constant (F := Ideal) S_ .f32 0x7FC00000#32))

/-- A one-column block as a rectangle. -/
def flat1 {α : Type} (v : S4x128x1.Idx → α) : S4x128.Idx → α := shapeCast S4x128 v shapeCasts_S4x128x1_S4x128

/-- The samples' focal weights. -/
def wposv (pt : FV S4x128) (cls : IV S4x128) (x6 : FV S3) (valid : BV S4x128) : FV S4x128 :=
  mulf (mulf (mulf (subf (broadcastInDim S4x128 ![] bcast_S_S4x128 (constant (F := Ideal) S_ .f32 0x3F800000#32)) pt)
      (subf (broadcastInDim S4x128 ![] bcast_S_S4x128 (constant (F := Ideal) S_ .f32 0x3F800000#32)) pt))
    (Host.gather gather_S3_S4x128x1_S4x128_n_0_n_n_0_2_1 x6 (col1 (normv 3#32 cls)))) (uitofp (F := Ideal) .f32 valid)

/-- The positive loss: the negated picked log-probabilities times the weights, summed. -/
def lossv (lt : FV S4x128x1) (wp : FV S4x128) : FV S_ :=
  Host.reduceAdd (mulf (Host.negf (flat1 lt)) wp) (constant (F := Ideal) S_ .f32 0x00000000#32) reducesTo_S4x128_S_d0_1 h_S_

/-- The positive count: the weights summed. -/
def countv (wp : FV S4x128) : FV S_ :=
  Host.reduceAdd wp (constant (F := Ideal) S_ .f32 0x00000000#32) reducesTo_S4x128_S_d0_1 h_S_

/-! ## Each stretch of operations computes those functions of the buffers it reads -/

section Stretches
variable (V : Valuation τ sig (Elt Ideal))

set_option maxHeartbeats 4000000 in
theorem s10_out :
    StableHlo.after (hostOps2_10 (F := Ideal)) V (Proc.devRef .tc main_v202) = validv (V (Proc.devRef .tc main_arg5))
    ∧ StableHlo.after (hostOps2_10 (F := Ideal)) V (Proc.devRef .tc main_v203) = col1 (validv (V (Proc.devRef .tc main_arg5)))
    ∧ StableHlo.after (hostOps2_10 (F := Ideal)) V (Proc.devRef .tc main_c_54) = constantI S_ 32 0#32 := by
  refine ⟨?_, ?_, ?_⟩ <;> (line_results; try rfl)

theorem s11_v204 :
    StableHlo.after (hostOps2_11 (F := Ideal)) V (Proc.devRef .tc main_v204)
      = select (broadcastInDim S4x128x4 ![0, 1, 2] bcast_S4x128x1_S4x128x4_0_1_2 (V (Proc.devRef .tc main_v203)))
          (V (Proc.devRef .tc main_arg5)) (broadcastInDim S4x128x4 ![] bcast_S_S4x128x4 (V (Proc.devRef .tc main_c_54))) := by
  line_results; rfl

set_option maxHeartbeats 4000000 in
theorem s12_col :
    StableHlo.after (hostOps2_12 (F := Ideal)) V (Proc.devRef .tc main_v206) = colv 0 (V (Proc.devRef .tc main_v204))
    ∧ StableHlo.after (hostOps2_12 (F := Ideal)) V (Proc.devRef .tc main_v208) = colv 1 (V (Proc.devRef .tc main_v204))
    ∧ StableHlo.after (hostOps2_12 (F := Ideal)) V (Proc.devRef .tc main_v210) = colv 2 (V (Proc.devRef .tc main_v204))
    ∧ StableHlo.after (hostOps2_12 (F := Ideal)) V (Proc.devRef .tc main_v212) = colv 3 (V (Proc.devRef .tc main_v204))
    ∧ StableHlo.after (hostOps2_12 (F := Ideal)) V (Proc.devRef .tc main_v214) = iotav := by
  refine ⟨?_, ?_, ?_, ?_, ?_⟩ <;> (line_results; rfl)

set_option maxHeartbeats 4000000 in
theorem s12_v248 :
    StableHlo.after (hostOps2_12 (F := Ideal)) V (Proc.devRef .tc main_v248)
      = clsrawv (V (Proc.devRef .tc main_arg3)) iotav (colv 0 (V (Proc.devRef .tc main_v204))) (colv 1 (V (Proc.devRef .tc main_v204)))
          (colv 2 (V (Proc.devRef .tc main_v204))) (colv 3 (V (Proc.devRef .tc main_v204))) := by
  line_results
  rfl

theorem s12_c65 :
    StableHlo.after (hostOps2_12 (F := Ideal)) V (Proc.devRef .tc main_c_65) = constantI S_ 32 0#32 := by
  line_results

theorem s13_v249 :
    StableHlo.after (hostOps2_13 (F := Ideal)) V (Proc.devRef .tc main_v249)
      = select (V (Proc.devRef .tc main_v202)) (V (Proc.devRef .tc main_v248))
          (broadcastInDim S4x128 ![] bcast_S_S4x128 (V (Proc.devRef .tc main_c_65))) := by
  line_results; rfl

set_option maxHeartbeats 16000000 in
theorem s14_v358 :
    StableHlo.after (hostOps2_14 (F := Ideal)) V (Proc.devRef .tc main_v358)
      = stackv
          (logitv 0#32 (V (Proc.devRef .tc main_arg1)) (V (Proc.devRef .tc main_v214)) (V (Proc.devRef .tc main_v206))
            (V (Proc.devRef .tc main_v208)) (V (Proc.devRef .tc main_v210)) (V (Proc.devRef .tc main_v212)))
          (logitv 3#32 (V (Proc.devRef .tc main_arg1)) (V (Proc.devRef .tc main_v214)) (V (Proc.devRef .tc main_v206))
            (V (Proc.devRef .tc main_v208)) (V (Proc.devRef .tc main_v210)) (V (Proc.devRef .tc main_v212)))
          (logitv 6#32 (V (Proc.devRef .tc main_arg1)) (V (Proc.devRef .tc main_v214)) (V (Proc.devRef .tc main_v206))
            (V (Proc.devRef .tc main_v208)) (V (Proc.devRef .tc main_v210)) (V (Proc.devRef .tc main_v212))) := by
  line_results
  rfl

set_option maxHeartbeats 4000000 in
theorem s15_v359 :
    StableHlo.after (hostOps2_15 (F := Ideal)) V (Proc.devRef .tc main_v359) = lsmv (V (Proc.devRef .tc main_v358)) := by
  line_results; rfl

theorem s16_out :
    StableHlo.after (hostOps2_16 (F := Ideal)) V (Proc.devRef .tc main_v360) = Host.exp (F := Ideal) (s := S4x128x3) (φ := .f32) (V (Proc.devRef .tc main_v359))
    ∧ StableHlo.after (hostOps2_16 (F := Ideal)) V (Proc.devRef .tc main_v361) = col1 (V (Proc.devRef .tc main_v249)) := by
  refine ⟨?_, ?_⟩ <;> (line_results; try rfl)

set_option maxHeartbeats 4000000 in
theorem s17_v362 :
    StableHlo.after (hostOps2_17 (F := Ideal)) V (Proc.devRef .tc main_v362)
      = takev (V (Proc.devRef .tc main_v360)) (V (Proc.devRef .tc main_v361)) := by
  line_results; rfl

theorem s18_out :
    StableHlo.after (hostOps2_18 (F := Ideal)) V (Proc.devRef .tc main_v363) = flat1 (V (Proc.devRef .tc main_v362))
    ∧ StableHlo.after (hostOps2_18 (F := Ideal)) V (Proc.devRef .tc main_v364) = col1 (V (Proc.devRef .tc main_v249)) := by
  refine ⟨?_, ?_⟩ <;> (line_results; try rfl)

set_option maxHeartbeats 4000000 in
theorem s19_v365 :
    StableHlo.after (hostOps2_19 (F := Ideal)) V (Proc.devRef .tc main_v365)
      = takev (V (Proc.devRef .tc main_v359)) (V (Proc.devRef .tc main_v364)) := by
  line_results; rfl

set_option maxHeartbeats 4000000 in
theorem s20_out :
    StableHlo.after (hostOps2_20 (F := Ideal)) V (Proc.devRef .tc main_v382)
        = lossv (V (Proc.devRef .tc main_v365)) (wposv (V (Proc.devRef .tc main_v363)) (V (Proc.devRef .tc main_v249))
            (V (Proc.devRef .tc main_arg6)) (V (Proc.devRef .tc main_v202)))
    ∧ StableHlo.after (hostOps2_20 (F := Ideal)) V (Proc.devRef .tc main_v383)
        = countv (wposv (V (Proc.devRef .tc main_v363)) (V (Proc.devRef .tc main_v249))
            (V (Proc.devRef .tc main_arg6)) (V (Proc.devRef .tc main_v202))) := by
  refine ⟨?_, ?_⟩ <;> (line_results; rfl)

end Stretches

/-! ## Layout operations of the literal shapes, read at an index -/

section Layout
variable {α : Type}

theorem rs21_apply (y : S4x128x1.Idx → α) (b : Fin 4) (p : Fin 128) :
    shapeCast S4x128 y shapeCasts_S4x128x1_S4x128 (ix2 b p) = y (ix3 b p 0) :=
  shapeCast_apply y shapeCasts_S4x128x1_S4x128 (ix2 b p) (ix3 b p 0)
    (by rw [Shape.rowMajor_val_three, Shape.rowMajor_val_two]; show (b.val * 128 + p.val) * 1 + 0 = b.val * 128 + p.val; omega)

theorem flat1_apply (y : S4x128x1.Idx → α) (b : Fin 4) (p : Fin 128) : flat1 y (ix2 b p) = y (ix3 b p 0) := rs21_apply y b p

theorem slice_col (k : Nat) (hk : k < 4) (c : S4x128x4.Idx → α) (hsl : S4x128x4.Slices ![0, 0, k] S4x128x1) (b : Fin 4) (p : Fin 128) :
    extractStridedSlice S4x128x1 ![0, 0, k] c hsl (ix3 b p 0) = c (ix3 b p ⟨k, hk⟩) :=
  extractStridedSlice_apply ![0, 0, k] c hsl (ix3 b p 0) (ix3 b p ⟨k, hk⟩) (fun a => match a with
    | ⟨0, _⟩ => by show b.val = 0 + b.val; omega
    | ⟨1, _⟩ => by show p.val = 0 + p.val; omega
    | ⟨2, _⟩ => by show k = k + 0; omega)

theorem colv_apply (k : Fin 4) (c : IV S4x128x4) (b : Fin 4) (p : Fin 128) : colv k c (ix2 b p) = c (ix3 b p k) := by
  match k with
  | 0 => exact (rs21_apply _ b p).trans (slice_col 0 (by decide) c _ b p)
  | 1 => exact (rs21_apply _ b p).trans (slice_col 1 (by decide) c _ b p)
  | 2 => exact (rs21_apply _ b p).trans (slice_col 2 (by decide) c _ b p)
  | 3 => exact (rs21_apply _ b p).trans (slice_col 3 (by decide) c _ b p)

theorem col1_apply (v : S4x128.Idx → α) (b : Fin 4) (p : Fin 128) (k : Fin 1) : col1 v (ix3 b p k) = v (ix2 b p) :=
  broadcastInDim_apply ![0, 1] bcast_S4x128_S4x128x1_0_1 v (ix3 b p k) (ix2 b p) (fun a => match a with
    | ⟨0, _⟩ => by show b.val = if (4 : Nat) = 1 then 0 else b.val; rw [if_neg (by decide)]
    | ⟨1, _⟩ => by show p.val = if (128 : Nat) = 1 then 0 else p.val; rw [if_neg (by decide)])

theorem bc41_apply (bv : S4x1.Idx → α) (b : Fin 4) (p : Fin 128) :
    broadcastInDim S4x128 ![0, 1] bcast_S4x1_S4x128_0_1 bv (ix2 b p) = bv (ix2 b 0) :=
  broadcastInDim_apply ![0, 1] bcast_S4x1_S4x128_0_1 bv (ix2 b p) (ix2 b 0) (fun a => match a with
    | ⟨0, _⟩ => by show b.val = if (4 : Nat) = 1 then 0 else b.val; rw [if_neg (by decide)]
    | ⟨1, _⟩ => by show 0 = if (1 : Nat) = 1 then 0 else p.val; rw [if_pos rfl])

theorem bc14_apply (m : S4x128x1.Idx → α) (b : Fin 4) (p : Fin 128) (k : Fin 4) :
    broadcastInDim S4x128x4 ![0, 1, 2] bcast_S4x128x1_S4x128x4_0_1_2 m (ix3 b p k) = m (ix3 b p 0) :=
  broadcastInDim_apply ![0, 1, 2] bcast_S4x128x1_S4x128x4_0_1_2 m (ix3 b p k) (ix3 b p 0) (fun a => match a with
    | ⟨0, _⟩ => by show b.val = if (4 : Nat) = 1 then 0 else b.val; rw [if_neg (by decide)]
    | ⟨1, _⟩ => by show p.val = if (128 : Nat) = 1 then 0 else p.val; rw [if_neg (by decide)]
    | ⟨2, _⟩ => by show 0 = if (1 : Nat) = 1 then 0 else k.val; rw [if_pos rfl])

theorem rep3_apply (m : S4x128x1.Idx → α) (b : Fin 4) (p : Fin 128) (k : Fin 3) : rep3 m (ix3 b p k) = m (ix3 b p 0) :=
  broadcastInDim_apply ![0, 1, 2] bcast_S4x128x1_S4x128x3_0_1_2 m (ix3 b p k) (ix3 b p 0) (fun a => match a with
    | ⟨0, _⟩ => by show b.val = if (4 : Nat) = 1 then 0 else b.val; rw [if_neg (by decide)]
    | ⟨1, _⟩ => by show p.val = if (128 : Nat) = 1 then 0 else p.val; rw [if_neg (by decide)]
    | ⟨2, _⟩ => by show 0 = if (1 : Nat) = 1 then 0 else k.val; rw [if_pos rfl])

theorem iotav_apply (b : Fin 4) : iotav (ix2 b 0) = BitVec.ofNat 32 b.val := by
  unfold iotav
  rw [broadcastInDim_apply ![0] bcast_S4_S4x1_0 _ (ix2 b 0) (ix1 b) (fun a => match a with
    | ⟨0, _⟩ => by show b.val = if (4 : Nat) = 1 then 0 else b.val; rw [if_neg (by decide)])]
  rfl

theorem idx5_apply0 (bv : IV S4x1) (c0 c1 c2 c3 : IV S4x128) (b : Fin 4) (p : Fin 128) :
    idx5 bv c0 c1 c2 c3 (ix3 b p 0) = bv (ix2 b 0) := by
  unfold idx5
  rw [concatenate_apply_piece (t := S4x128x5) (2 : Fin 3) _ _ (ix3 b p 0) 0 (by simp) S4x128x1 _ rfl rfl 0 rfl (ix3 b p 0)
    (fun a ha => match a, ha with | ⟨0, _⟩, _ => rfl | ⟨1, _⟩, _ => rfl | ⟨2, _⟩, h => absurd rfl h) rfl, col1_apply]
  exact bc41_apply bv b p

theorem idx5_apply1 (bv : IV S4x1) (c0 c1 c2 c3 : IV S4x128) (b : Fin 4) (p : Fin 128) :
    idx5 bv c0 c1 c2 c3 (ix3 b p 1) = c0 (ix2 b p) := by
  unfold idx5
  rw [concatenate_apply_piece (t := S4x128x5) (2 : Fin 3) _ _ (ix3 b p 1) 1 (by simp) S4x128x1 _ rfl rfl 1 rfl (ix3 b p 0)
    (fun a ha => match a, ha with | ⟨0, _⟩, _ => rfl | ⟨1, _⟩, _ => rfl | ⟨2, _⟩, h => absurd rfl h) rfl, col1_apply]

theorem idx5_apply2 (bv : IV S4x1) (c0 c1 c2 c3 : IV S4x128) (b : Fin 4) (p : Fin 128) :
    idx5 bv c0 c1 c2 c3 (ix3 b p 2) = c1 (ix2 b p) := by
  unfold idx5
  rw [concatenate_apply_piece (t := S4x128x5) (2 : Fin 3) _ _ (ix3 b p 2) 2 (by simp) S4x128x1 _ rfl rfl 2 rfl (ix3 b p 0)
    (fun a ha => match a, ha with | ⟨0, _⟩, _ => rfl | ⟨1, _⟩, _ => rfl | ⟨2, _⟩, h => absurd rfl h) rfl, col1_apply]

theorem idx5_apply3 (bv : IV S4x1) (c0 c1 c2 c3 : IV S4x128) (b : Fin 4) (p : Fin 128) :
    idx5 bv c0 c1 c2 c3 (ix3 b p 3) = c2 (ix2 b p) := by
  unfold idx5
  rw [concatenate_apply_piece (t := S4x128x5) (2 : Fin 3) _ _ (ix3 b p 3) 3 (by simp) S4x128x1 _ rfl rfl 3 rfl (ix3 b p 0)
    (fun a ha => match a, ha with | ⟨0, _⟩, _ => rfl | ⟨1, _⟩, _ => rfl | ⟨2, _⟩, h => absurd rfl h) rfl, col1_apply]

theorem idx5_apply4 (bv : IV S4x1) (c0 c1 c2 c3 : IV S4x128) (b : Fin 4) (p : Fin 128) :
    idx5 bv c0 c1 c2 c3 (ix3 b p 4) = c3 (ix2 b p) := by
  unfold idx5
  rw [concatenate_apply_piece (t := S4x128x5) (2 : Fin 3) _ _ (ix3 b p 4) 4 (by simp) S4x128x1 _ rfl rfl 4 rfl (ix3 b p 0)
    (fun a ha => match a, ha with | ⟨0, _⟩, _ => rfl | ⟨1, _⟩, _ => rfl | ⟨2, _⟩, h => absurd rfl h) rfl, col1_apply]

theorem stackv_apply0 (l0 l1 l2 : FV S4x128) (b : Fin 4) (p : Fin 128) :
    stackv l0 l1 l2 (ix3 b p 0) = l0 (ix2 b p) := by
  unfold stackv
  rw [concatenate_apply_piece (t := S4x128x3) (2 : Fin 3) _ _ (ix3 b p 0) 0 (by simp) S4x128x1 _ rfl rfl 0 rfl (ix3 b p 0)
    (fun a ha => match a, ha with | ⟨0, _⟩, _ => rfl | ⟨1, _⟩, _ => rfl | ⟨2, _⟩, h => absurd rfl h) rfl, col1_apply]

theorem stackv_apply1 (l0 l1 l2 : FV S4x128) (b : Fin 4) (p : Fin 128) :
    stackv l0 l1 l2 (ix3 b p 1) = l1 (ix2 b p) := by
  unfold stackv
  rw [concatenate_apply_piece (t := S4x128x3) (2 : Fin 3) _ _ (ix3 b p 1) 1 (by simp) S4x128x1 _ rfl rfl 1 rfl (ix3 b p 0)
    (fun a ha => match a, ha with | ⟨0, _⟩, _ => rfl | ⟨1, _⟩, _ => rfl | ⟨2, _⟩, h => absurd rfl h) rfl, col1_apply]

theorem stackv_apply2 (l0 l1 l2 : FV S4x128) (b : Fin 4) (p : Fin 128) :
    stackv l0 l1 l2 (ix3 b p 2) = l2 (ix2 b p) := by
  unfold stackv
  rw [concatenate_apply_piece (t := S4x128x3) (2 : Fin 3) _ _ (ix3 b p 2) 2 (by simp) S4x128x1 _ rfl rfl 2 rfl (ix3 b p 0)
    (fun a ha => match a, ha with | ⟨0, _⟩, _ => rfl | ⟨1, _⟩, _ => rfl | ⟨2, _⟩, h => absurd rfl h) rfl, col1_apply]

end Layout

/-- The five-coordinate point gather read at a sample: the array at the five index words, each read signed and clamped
    into its axis. -/
theorem gather9_apply {α : Type} (x : S4x9x32x32x32.Idx → α) (idx : IV S4x128x5) (b : Fin 4) (p : Fin 128) :
    Host.gather gather_S4x9x32x32x32_S4x128x5_S4x128_n_01234_n_n_01234_2_11111 x idx (ix2 b p)
      = x (ix5 ⟨min (idx (ix3 b p 0)).toInt.toNat 3, by omega⟩ ⟨min (idx (ix3 b p 1)).toInt.toNat 8, by omega⟩
          ⟨min (idx (ix3 b p 2)).toInt.toNat 31, by omega⟩ ⟨min (idx (ix3 b p 3)).toInt.toNat 31, by omega⟩
          ⟨min (idx (ix3 b p 4)).toInt.toNat 31, by omega⟩) := by
  unfold Host.gather
  congr 1
  funext a
  refine Fin.ext ?_
  match a with
  | ⟨0, _⟩ =>
    show (gather_S4x9x32x32x32_S4x128x5_S4x128_n_01234_n_n_01234_2_11111).start (ix2 b p) idx ⟨0, by decide⟩ + (gather_S4x9x32x32x32_S4x128x5_S4x128_n_01234_n_n_01234_2_11111).batchCoord (ix2 b p) ⟨0, by decide⟩
      + (gather_S4x9x32x32x32_S4x128x5_S4x128_n_01234_n_n_01234_2_11111).offCoord (ix2 b p) ⟨0, by decide⟩ = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (⟨0, by decide⟩ : Fin 5) ∈ (gather_S4x9x32x32x32_S4x128x5_S4x128_n_01234_n_n_01234_2_11111).startIndexMap from by decide)]
    have hsi : (gather_S4x9x32x32x32_S4x128x5_S4x128_n_01234_n_n_01234_2_11111).siIdx (ix2 b p) ⟨List.idxOf (⟨0, by decide⟩ : Fin 5) (gather_S4x9x32x32x32_S4x128x5_S4x128_n_01234_n_n_01234_2_11111).startIndexMap,
        List.idxOf_lt_length_iff.2 (by decide)⟩ = ix3 b p 0 := by
      funext c; refine Fin.ext ?_
      match c with
      | ⟨0, _⟩ => rfl
      | ⟨1, _⟩ => rfl
      | ⟨2, _⟩ => rfl
    rw [hsi]
    rfl
  | ⟨1, _⟩ =>
    show (gather_S4x9x32x32x32_S4x128x5_S4x128_n_01234_n_n_01234_2_11111).start (ix2 b p) idx ⟨1, by decide⟩ + (gather_S4x9x32x32x32_S4x128x5_S4x128_n_01234_n_n_01234_2_11111).batchCoord (ix2 b p) ⟨1, by decide⟩
      + (gather_S4x9x32x32x32_S4x128x5_S4x128_n_01234_n_n_01234_2_11111).offCoord (ix2 b p) ⟨1, by decide⟩ = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (⟨1, by decide⟩ : Fin 5) ∈ (gather_S4x9x32x32x32_S4x128x5_S4x128_n_01234_n_n_01234_2_11111).startIndexMap from by decide)]
    have hsi : (gather_S4x9x32x32x32_S4x128x5_S4x128_n_01234_n_n_01234_2_11111).siIdx (ix2 b p) ⟨List.idxOf (⟨1, by decide⟩ : Fin 5) (gather_S4x9x32x32x32_S4x128x5_S4x128_n_01234_n_n_01234_2_11111).startIndexMap,
        List.idxOf_lt_length_iff.2 (by decide)⟩ = ix3 b p 1 := by
      funext c; refine Fin.ext ?_
      match c with
      | ⟨0, _⟩ => rfl
      | ⟨1, _⟩ => rfl
      | ⟨2, _⟩ => rfl
    rw [hsi]
    rfl
  | ⟨2, _⟩ =>
    show (gather_S4x9x32x32x32_S4x128x5_S4x128_n_01234_n_n_01234_2_11111).start (ix2 b p) idx ⟨2, by decide⟩ + (gather_S4x9x32x32x32_S4x128x5_S4x128_n_01234_n_n_01234_2_11111).batchCoord (ix2 b p) ⟨2, by decide⟩
      + (gather_S4x9x32x32x32_S4x128x5_S4x128_n_01234_n_n_01234_2_11111).offCoord (ix2 b p) ⟨2, by decide⟩ = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (⟨2, by decide⟩ : Fin 5) ∈ (gather_S4x9x32x32x32_S4x128x5_S4x128_n_01234_n_n_01234_2_11111).startIndexMap from by decide)]
    have hsi : (gather_S4x9x32x32x32_S4x128x5_S4x128_n_01234_n_n_01234_2_11111).siIdx (ix2 b p) ⟨List.idxOf (⟨2, by decide⟩ : Fin 5) (gather_S4x9x32x32x32_S4x128x5_S4x128_n_01234_n_n_01234_2_11111).startIndexMap,
        List.idxOf_lt_length_iff.2 (by decide)⟩ = ix3 b p 2 := by
      funext c; refine Fin.ext ?_
      match c with
      | ⟨0, _⟩ => rfl
      | ⟨1, _⟩ => rfl
      | ⟨2, _⟩ => rfl
    rw [hsi]
    rfl
  | ⟨3, _⟩ =>
    show (gather_S4x9x32x32x32_S4x128x5_S4x128_n_01234_n_n_01234_2_11111).start (ix2 b p) idx ⟨3, by decide⟩ + (gather_S4x9x32x32x32_S4x128x5_S4x128_n_01234_n_n_01234_2_11111).batchCoord (ix2 b p) ⟨3, by decide⟩
      + (gather_S4x9x32x32x32_S4x128x5_S4x128_n_01234_n_n_01234_2_11111).offCoord (ix2 b p) ⟨3, by decide⟩ = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (⟨3, by decide⟩ : Fin 5) ∈ (gather_S4x9x32x32x32_S4x128x5_S4x128_n_01234_n_n_01234_2_11111).startIndexMap from by decide)]
    have hsi : (gather_S4x9x32x32x32_S4x128x5_S4x128_n_01234_n_n_01234_2_11111).siIdx (ix2 b p) ⟨List.idxOf (⟨3, by decide⟩ : Fin 5) (gather_S4x9x32x32x32_S4x128x5_S4x128_n_01234_n_n_01234_2_11111).startIndexMap,
        List.idxOf_lt_length_iff.2 (by decide)⟩ = ix3 b p 3 := by
      funext c; refine Fin.ext ?_
      match c with
      | ⟨0, _⟩ => rfl
      | ⟨1, _⟩ => rfl
      | ⟨2, _⟩ => rfl
    rw [hsi]
    rfl
  | ⟨4, _⟩ =>
    show (gather_S4x9x32x32x32_S4x128x5_S4x128_n_01234_n_n_01234_2_11111).start (ix2 b p) idx ⟨4, by decide⟩ + (gather_S4x9x32x32x32_S4x128x5_S4x128_n_01234_n_n_01234_2_11111).batchCoord (ix2 b p) ⟨4, by decide⟩
      + (gather_S4x9x32x32x32_S4x128x5_S4x128_n_01234_n_n_01234_2_11111).offCoord (ix2 b p) ⟨4, by decide⟩ = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (⟨4, by decide⟩ : Fin 5) ∈ (gather_S4x9x32x32x32_S4x128x5_S4x128_n_01234_n_n_01234_2_11111).startIndexMap from by decide)]
    have hsi : (gather_S4x9x32x32x32_S4x128x5_S4x128_n_01234_n_n_01234_2_11111).siIdx (ix2 b p) ⟨List.idxOf (⟨4, by decide⟩ : Fin 5) (gather_S4x9x32x32x32_S4x128x5_S4x128_n_01234_n_n_01234_2_11111).startIndexMap,
        List.idxOf_lt_length_iff.2 (by decide)⟩ = ix3 b p 4 := by
      funext c; refine Fin.ext ?_
      match c with
      | ⟨0, _⟩ => rfl
      | ⟨1, _⟩ => rfl
      | ⟨2, _⟩ => rfl
    rw [hsi]
    rfl

/-- The five-coordinate point gather read at a sample: the array at the five index words, each read signed and clamped
    into its axis. -/
theorem gather3_apply {α : Type} (x : S4x3x32x32x32.Idx → α) (idx : IV S4x128x5) (b : Fin 4) (p : Fin 128) :
    Host.gather gather_S4x3x32x32x32_S4x128x5_S4x128_n_01234_n_n_01234_2_11111 x idx (ix2 b p)
      = x (ix5 ⟨min (idx (ix3 b p 0)).toInt.toNat 3, by omega⟩ ⟨min (idx (ix3 b p 1)).toInt.toNat 2, by omega⟩
          ⟨min (idx (ix3 b p 2)).toInt.toNat 31, by omega⟩ ⟨min (idx (ix3 b p 3)).toInt.toNat 31, by omega⟩
          ⟨min (idx (ix3 b p 4)).toInt.toNat 31, by omega⟩) := by
  unfold Host.gather
  congr 1
  funext a
  refine Fin.ext ?_
  match a with
  | ⟨0, _⟩ =>
    show (gather_S4x3x32x32x32_S4x128x5_S4x128_n_01234_n_n_01234_2_11111).start (ix2 b p) idx ⟨0, by decide⟩ + (gather_S4x3x32x32x32_S4x128x5_S4x128_n_01234_n_n_01234_2_11111).batchCoord (ix2 b p) ⟨0, by decide⟩
      + (gather_S4x3x32x32x32_S4x128x5_S4x128_n_01234_n_n_01234_2_11111).offCoord (ix2 b p) ⟨0, by decide⟩ = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (⟨0, by decide⟩ : Fin 5) ∈ (gather_S4x3x32x32x32_S4x128x5_S4x128_n_01234_n_n_01234_2_11111).startIndexMap from by decide)]
    have hsi : (gather_S4x3x32x32x32_S4x128x5_S4x128_n_01234_n_n_01234_2_11111).siIdx (ix2 b p) ⟨List.idxOf (⟨0, by decide⟩ : Fin 5) (gather_S4x3x32x32x32_S4x128x5_S4x128_n_01234_n_n_01234_2_11111).startIndexMap,
        List.idxOf_lt_length_iff.2 (by decide)⟩ = ix3 b p 0 := by
      funext c; refine Fin.ext ?_
      match c with
      | ⟨0, _⟩ => rfl
      | ⟨1, _⟩ => rfl
      | ⟨2, _⟩ => rfl
    rw [hsi]
    rfl
  | ⟨1, _⟩ =>
    show (gather_S4x3x32x32x32_S4x128x5_S4x128_n_01234_n_n_01234_2_11111).start (ix2 b p) idx ⟨1, by decide⟩ + (gather_S4x3x32x32x32_S4x128x5_S4x128_n_01234_n_n_01234_2_11111).batchCoord (ix2 b p) ⟨1, by decide⟩
      + (gather_S4x3x32x32x32_S4x128x5_S4x128_n_01234_n_n_01234_2_11111).offCoord (ix2 b p) ⟨1, by decide⟩ = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (⟨1, by decide⟩ : Fin 5) ∈ (gather_S4x3x32x32x32_S4x128x5_S4x128_n_01234_n_n_01234_2_11111).startIndexMap from by decide)]
    have hsi : (gather_S4x3x32x32x32_S4x128x5_S4x128_n_01234_n_n_01234_2_11111).siIdx (ix2 b p) ⟨List.idxOf (⟨1, by decide⟩ : Fin 5) (gather_S4x3x32x32x32_S4x128x5_S4x128_n_01234_n_n_01234_2_11111).startIndexMap,
        List.idxOf_lt_length_iff.2 (by decide)⟩ = ix3 b p 1 := by
      funext c; refine Fin.ext ?_
      match c with
      | ⟨0, _⟩ => rfl
      | ⟨1, _⟩ => rfl
      | ⟨2, _⟩ => rfl
    rw [hsi]
    rfl
  | ⟨2, _⟩ =>
    show (gather_S4x3x32x32x32_S4x128x5_S4x128_n_01234_n_n_01234_2_11111).start (ix2 b p) idx ⟨2, by decide⟩ + (gather_S4x3x32x32x32_S4x128x5_S4x128_n_01234_n_n_01234_2_11111).batchCoord (ix2 b p) ⟨2, by decide⟩
      + (gather_S4x3x32x32x32_S4x128x5_S4x128_n_01234_n_n_01234_2_11111).offCoord (ix2 b p) ⟨2, by decide⟩ = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (⟨2, by decide⟩ : Fin 5) ∈ (gather_S4x3x32x32x32_S4x128x5_S4x128_n_01234_n_n_01234_2_11111).startIndexMap from by decide)]
    have hsi : (gather_S4x3x32x32x32_S4x128x5_S4x128_n_01234_n_n_01234_2_11111).siIdx (ix2 b p) ⟨List.idxOf (⟨2, by decide⟩ : Fin 5) (gather_S4x3x32x32x32_S4x128x5_S4x128_n_01234_n_n_01234_2_11111).startIndexMap,
        List.idxOf_lt_length_iff.2 (by decide)⟩ = ix3 b p 2 := by
      funext c; refine Fin.ext ?_
      match c with
      | ⟨0, _⟩ => rfl
      | ⟨1, _⟩ => rfl
      | ⟨2, _⟩ => rfl
    rw [hsi]
    rfl
  | ⟨3, _⟩ =>
    show (gather_S4x3x32x32x32_S4x128x5_S4x128_n_01234_n_n_01234_2_11111).start (ix2 b p) idx ⟨3, by decide⟩ + (gather_S4x3x32x32x32_S4x128x5_S4x128_n_01234_n_n_01234_2_11111).batchCoord (ix2 b p) ⟨3, by decide⟩
      + (gather_S4x3x32x32x32_S4x128x5_S4x128_n_01234_n_n_01234_2_11111).offCoord (ix2 b p) ⟨3, by decide⟩ = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (⟨3, by decide⟩ : Fin 5) ∈ (gather_S4x3x32x32x32_S4x128x5_S4x128_n_01234_n_n_01234_2_11111).startIndexMap from by decide)]
    have hsi : (gather_S4x3x32x32x32_S4x128x5_S4x128_n_01234_n_n_01234_2_11111).siIdx (ix2 b p) ⟨List.idxOf (⟨3, by decide⟩ : Fin 5) (gather_S4x3x32x32x32_S4x128x5_S4x128_n_01234_n_n_01234_2_11111).startIndexMap,
        List.idxOf_lt_length_iff.2 (by decide)⟩ = ix3 b p 3 := by
      funext c; refine Fin.ext ?_
      match c with
      | ⟨0, _⟩ => rfl
      | ⟨1, _⟩ => rfl
      | ⟨2, _⟩ => rfl
    rw [hsi]
    rfl
  | ⟨4, _⟩ =>
    show (gather_S4x3x32x32x32_S4x128x5_S4x128_n_01234_n_n_01234_2_11111).start (ix2 b p) idx ⟨4, by decide⟩ + (gather_S4x3x32x32x32_S4x128x5_S4x128_n_01234_n_n_01234_2_11111).batchCoord (ix2 b p) ⟨4, by decide⟩
      + (gather_S4x3x32x32x32_S4x128x5_S4x128_n_01234_n_n_01234_2_11111).offCoord (ix2 b p) ⟨4, by decide⟩ = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (⟨4, by decide⟩ : Fin 5) ∈ (gather_S4x3x32x32x32_S4x128x5_S4x128_n_01234_n_n_01234_2_11111).startIndexMap from by decide)]
    have hsi : (gather_S4x3x32x32x32_S4x128x5_S4x128_n_01234_n_n_01234_2_11111).siIdx (ix2 b p) ⟨List.idxOf (⟨4, by decide⟩ : Fin 5) (gather_S4x3x32x32x32_S4x128x5_S4x128_n_01234_n_n_01234_2_11111).startIndexMap,
        List.idxOf_lt_length_iff.2 (by decide)⟩ = ix3 b p 4 := by
      funext c; refine Fin.ext ?_
      match c with
      | ⟨0, _⟩ => rfl
      | ⟨1, _⟩ => rfl
      | ⟨2, _⟩ => rfl
    rw [hsi]
    rfl

/-! ## The arrays read at a sample -/

section Sample
open Cert.Hand.PosWords

theorem normv_apply (e : BitVec 32) (v : IV S4x128) (j : S4x128.Idx) : normv e v j = nrm e (v j) := rfl
theorem batchv_apply (io : IV S4x1) (j : S4x1.Idx) : batchv io j = nrm 4#32 (io j) := rfl

/-- A rank-5 array at in-range coordinates is its reader there. -/
theorem rd5_at {α : Type} [Zero α] {n0 n1 n2 n3 n4 : ℕ} (x : (⟨5, ![n0, n1, n2, n3, n4]⟩ : Shape).Idx → α)
    (i0 i1 i2 i3 i4 : ℕ) (h0 : i0 < n0) (h1 : i1 < n1) (h2 : i2 < n2) (h3 : i3 < n3) (h4 : i4 < n4) :
    x (ix5 ⟨i0, h0⟩ ⟨i1, h1⟩ ⟨i2, h2⟩ ⟨i3, h3⟩ ⟨i4, h4⟩) = rd5 x i0 i1 i2 i3 i4 :=
  (rd5_ix5 x ⟨i0, h0⟩ ⟨i1, h1⟩ ⟨i2, h2⟩ ⟨i3, h3⟩ ⟨i4, h4⟩).symm

variable (x1 : FV S4x9x32x32x32) (x3 : FV S4x3x32x32x32) (x5 : IV S4x128x4) (x6 : FV S3) (b : Fin 4) (p : Fin 128)

theorem rd3_k (k : Fin 4) : rd3 x5 b.val p.val k.val = x5 (ix3 b p k) := rd3_ix3 x5 b p k

/-- Validity in the table's own word. -/
theorem valid_iff : Spec.valid (rd3 x5) b.val p.val ↔ (4294967295#32).slt (x5 (ix3 b p 0)) = true := by
  unfold Spec.valid
  rw [show rd3 x5 b.val p.val 0 = x5 (ix3 b p 0) from rd3_k x5 b p 0]

/-- The validity bit is the specification's validity. -/
theorem validv_apply : validv x5 (ix2 b p) = BitVec.ofBool (decide (Spec.valid (rd3 x5) b.val p.val)) := by
  show IntOp.cmpi .sgt (colv 0 x5 (ix2 b p)) 4294967295#32 = _
  rw [colv_apply, sgt_valid]
  by_cases h : Spec.valid (rd3 x5) b.val p.val
  · rw [(valid_iff x5 b p).1 h, decide_eq_true h]
  · have h' : (4294967295#32).slt (x5 (ix3 b p 0)) = false := by
      cases e : (4294967295#32).slt (x5 (ix3 b p 0))
      · rfl
      · exact absurd ((valid_iff x5 b p).2 e) h
    rw [h', decide_eq_false h]

/-- The zeroed coordinates are the specification's. -/
theorem coordv_apply (k : Fin 4) : coordv x5 (ix3 b p k) = Spec.cj (rd3 x5) b.val p.val k.val := by
  show Scalar.select (broadcastInDim S4x128x4 ![0, 1, 2] bcast_S4x128x1_S4x128x4_0_1_2 (col1 (validv x5)) (ix3 b p k)) (x5 (ix3 b p k)) 0#32 = _
  rw [bc14_apply, col1_apply, validv_apply, sel_ofBool]
  unfold Spec.cj
  rw [rd3_k]
  by_cases h : Spec.valid (rd3 x5) b.val p.val
  · rw [if_pos h, if_pos (decide_eq_true h)]
  · rw [if_neg h, if_neg (by simpa using h)]

theorem coordv_apply0 : coordv x5 (ix3 b p 0) = Spec.cj (rd3 x5) b.val p.val 0 := coordv_apply x5 b p 0
theorem coordv_apply1 : coordv x5 (ix3 b p 1) = Spec.cj (rd3 x5) b.val p.val 1 := coordv_apply x5 b p 1
theorem coordv_apply2 : coordv x5 (ix3 b p 2) = Spec.cj (rd3 x5) b.val p.val 2 := coordv_apply x5 b p 2
theorem coordv_apply3 : coordv x5 (ix3 b p 3) = Spec.cj (rd3 x5) b.val p.val 3 := coordv_apply x5 b p 3

/-- The anchor word of a sample lies in [0, 3) under the precondition. -/
theorem cj0_range (hA : (x5 (ix3 b p 0)).toInt < 3) :
    0 ≤ (Spec.cj (rd3 x5) b.val p.val 0).toInt ∧ (Spec.cj (rd3 x5) b.val p.val 0).toInt < 3 := by
  unfold Spec.cj
  by_cases h : Spec.valid (rd3 x5) b.val p.val
  · have e := cj_range (x5 (ix3 b p 0)) hA
    rw [if_pos ((valid_iff x5 b p).1 h)] at e
    rw [if_pos h, show rd3 x5 b.val p.val 0 = x5 (ix3 b p 0) from rd3_k x5 b p 0]
    exact e
  · rw [if_neg h]
    exact ⟨by decide, by decide⟩

/-- The sample's voxel, as the specification names it. -/
abbrev sa : ℕ := Spec.nidx (Spec.cj (rd3 x5) b.val p.val 0) 3
abbrev sd : ℕ := Spec.nidx (Spec.cj (rd3 x5) b.val p.val 1) 32
abbrev sh : ℕ := Spec.nidx (Spec.cj (rd3 x5) b.val p.val 2) 32
abbrev sw : ℕ := Spec.nidx (Spec.cj (rd3 x5) b.val p.val 3) 32

/-- The label-map word at the sample. -/
theorem clsraw_apply :
    clsrawv x3 iotav (colv 0 (coordv x5)) (colv 1 (coordv x5)) (colv 2 (coordv x5)) (colv 3 (coordv x5)) (ix2 b p)
      = Ideal.fptosi 32 (rd5 x3 b.val (sa x5 b p) (sd x5 b p) (sh x5 b p) (sw x5 b p)) := by
  show Ideal.fptosi 32 (Host.gather gather_S4x3x32x32x32_S4x128x5_S4x128_n_01234_n_n_01234_2_11111 x3 _ (ix2 b p)) = _
  rw [gather3_apply, rd5_at x3, idx5_apply0, idx5_apply1, idx5_apply2, idx5_apply3, idx5_apply4, batchv_apply, iotav_apply,
    normv_apply, normv_apply, normv_apply, normv_apply, colv_apply, colv_apply, colv_apply, colv_apply,
    coordv_apply0, coordv_apply1, coordv_apply2, coordv_apply3, batch_nrm, min_nrm3, min_nrm32, min_nrm32, min_nrm32]

/-- The class word at the sample. -/
theorem cls_apply :
    clsv (validv x5) (clsrawv x3 iotav (colv 0 (coordv x5)) (colv 1 (coordv x5)) (colv 2 (coordv x5)) (colv 3 (coordv x5))) (ix2 b p)
      = Spec.clsOf 32 (rd5 x3) (rd3 x5) b.val p.val := by
  show Scalar.select (validv x5 (ix2 b p)) (clsrawv x3 iotav _ _ _ _ (ix2 b p)) 0#32 = _
  rw [clsraw_apply, validv_apply, sel_ofBool]
  unfold Spec.clsOf
  by_cases h : Spec.valid (rd3 x5) b.val p.val
  · rw [if_pos h, if_pos (decide_eq_true h)]
  · rw [if_neg h, if_neg (by simpa using h)]

/-- Class `k`'s logit at the sample, under the precondition on the anchor word. -/
theorem logit_apply (k : ℕ) (hk : k < 3) (hA : (x5 (ix3 b p 0)).toInt < 3) :
    logitv (BitVec.ofNat 32 (3 * k)) x1 iotav (colv 0 (coordv x5)) (colv 1 (coordv x5)) (colv 2 (coordv x5)) (colv 3 (coordv x5)) (ix2 b p)
      = Spec.xk (rd5 x1) k b.val (sa x5 b p) (sd x5 b p) (sh x5 b p) (sw x5 b p) := by
  unfold logitv Spec.xk
  rw [gather9_apply, rd5_at x1, idx5_apply0, idx5_apply1, idx5_apply2, idx5_apply3, idx5_apply4, batchv_apply, iotav_apply,
    normv_apply, normv_apply, normv_apply, normv_apply, colv_apply, colv_apply, colv_apply,
    coordv_apply1, coordv_apply2, coordv_apply3, batch_nrm, min_nrm32, min_nrm32, min_nrm32]
  show rd5 x1 b.val (min (nrm 9#32 (IntOp.addi (BitVec.ofNat 32 (3 * k)) (colv 0 (coordv x5) (ix2 b p)))).toInt.toNat 8) _ _ _ = _
  rw [colv_apply, coordv_apply0, chan_nrm k hk _ (cj0_range x5 b p hA).1 (cj0_range x5 b p hA).2]

end Sample

/-! ## The log-softmax over three stacked rectangles -/

section Softmax

theorem neg_inf_pattern : Ideal.ofBits .f32 0xFF800000#32 = (⊥ : EReal) := by simp [Ideal.ofBits, Ideal.ieee]
theorem nan_pattern : Ideal.ofBits .f32 0x7FC00000#32 = (⊥ : EReal) := by simp [Ideal.ofBits, Ideal.ieee]

/-- A fold by the maximum over three positions. -/
theorem fold_max3 (c : EReal) (g : Fin 3 → EReal) :
    (Finset.univ : Finset (Fin 3)).fold max c g = max (g 0) (max (g 1) (max (g 2) c)) := by
  rw [show (Finset.univ : Finset (Fin 3)) = {0, 1, 2} from by decide,
    Finset.fold_insert (by decide), Finset.fold_insert (by decide), Finset.fold_singleton]

/-- A fold by "and" over one position. -/
theorem fold_and1 (c : BitVec 1) (g : Fin 1 → BitVec 1) :
    (Finset.univ : Finset (Fin 1)).fold IntOp.andi c g = IntOp.andi (g 0) c := by
  rw [show (Finset.univ : Finset (Fin 1)) = {0} from by decide, Finset.fold_singleton]

variable (s : FV S4x128x3) (b : Fin 4) (p : Fin 128)

theorem lift3 (h : S4x128x3.Reduces [2] S4x128) (k : Fin 3) : h.lift (ix2 b p) k = ix3 b p k := by
  funext c; refine Fin.ext ?_
  match c with
  | ⟨0, _⟩ => rfl
  | ⟨1, _⟩ => rfl
  | ⟨2, _⟩ => rfl

/-- The maximum over the last axis, from the -infinity pattern, is the maximum of the three. -/
theorem rowmax_apply :
    Host.reduce FloatOps.maximumf s (constant (F := Ideal) S_ .f32 0xFF800000#32) reducesTo_S4x128x3_S4x128_d2 h_S_ (ix2 b p)
      = Spec.m3 (s (ix3 b p 0)) (s (ix3 b p 1)) (s (ix3 b p 2)) := by
  have h : S4x128x3.Reduces [2] S4x128 := by decide
  rw [Host.reduce_eq_fold_single FloatOps.maximumf s _ reducesTo_S4x128x3_S4x128_d2 h h_S_ (ix2 b p)]
  refine (fold_max3 _ _).trans ?_
  show max (s (h.lift (ix2 b p) (0 : Fin 3))) (max (s (h.lift (ix2 b p) (1 : Fin 3))) (max (s (h.lift (ix2 b p) (2 : Fin 3))) (Ideal.ofBits .f32 0xFF800000#32))) = _
  rw [lift3, lift3, lift3, neg_inf_pattern, max_bot_right]
  unfold Spec.m3
  rw [max_assoc]

/-- The sum over the last axis, from zero, is the sum of the three. -/
theorem rowsum_apply (e : FV S4x128x3) :
    Host.reduceAdd e (constant (F := Ideal) S_ .f32 0x00000000#32) reducesTo_S4x128x3_S4x128_d2 h_S_ (ix2 b p)
      = e (ix3 b p 0) + e (ix3 b p 1) + e (ix3 b p 2) := by
  have h : S4x128x3.Reduces [2] S4x128 := by decide
  rw [hostReduceAdd_apply, Ideal.hostReduceAdd_single reducesTo_S4x128x3_S4x128_d2 h]
  show Ideal.ofBits .f32 0x00000000#32 + ∑ k : Fin 3, e (h.lift (ix2 b p) k) = _
  rw [Fin.sum_univ_three, lift3, lift3, lift3, Ideal.ofBits_zero_f32, zero_add]

theorem lsmz_apply (k : Fin 3) :
    lsmzv s (ix3 b p k) = s (ix3 b p k) - Spec.m3 (s (ix3 b p 0)) (s (ix3 b p 1)) (s (ix3 b p 2)) := by
  show s (ix3 b p k) - rep3 (col1 (maximumf (F := Ideal) _ _)) (ix3 b p k) = _
  rw [rep3_apply, col1_apply]
  show s (ix3 b p k) - max (Ideal.ofBits .f32 0xFF800000#32) (Host.reduce FloatOps.maximumf s _ reducesTo_S4x128x3_S4x128_d2 h_S_ (ix2 b p)) = _
  rw [rowmax_apply, neg_inf_pattern, max_bot_left]

/-- The log-softmax at (b, p, k) is the specification's. -/
theorem lsm_apply (k : Fin 3) :
    lsmv s (ix3 b p k) = Spec.logp (s (ix3 b p k)) (s (ix3 b p 0)) (s (ix3 b p 1)) (s (ix3 b p 2)) := by
  show lsmzv s (ix3 b p k) - rep3 (Host.log (F := Ideal) (col1 _)) (ix3 b p k) = _
  rw [rep3_apply]
  show lsmzv s (ix3 b p k) - Ideal.log (col1 (Host.reduceAdd (Host.exp (F := Ideal) (lsmzv s)) _ reducesTo_S4x128x3_S4x128_d2 h_S_) (ix3 b p 0)) = _
  rw [col1_apply, rowsum_apply]
  show lsmzv s (ix3 b p k) - Ideal.log (Ideal.exp (lsmzv s (ix3 b p 0)) + Ideal.exp (lsmzv s (ix3 b p 1)) + Ideal.exp (lsmzv s (ix3 b p 2))) = _
  rw [lsmz_apply, lsmz_apply, lsmz_apply, lsmz_apply]
  rfl

end Softmax

/-! ## The pick along the last axis -/

section Take
open Cert.Hand.PosWords
variable {α : Type} (b : Fin 4) (p : Fin 128)

theorem rs34_apply (y : S4x128x1.Idx → α) :
    shapeCast S4x128x1x1 y shapeCasts_S4x128x1_S4x128x1x1 (ix4 b p 0 0) = y (ix3 b p 0) :=
  shapeCast_apply y shapeCasts_S4x128x1_S4x128x1x1 (ix4 b p 0 0) (ix3 b p 0)
    (by rw [Shape.rowMajor_val_three, Shape.rowMajor_val_four]
        show (b.val * 128 + p.val) * 1 + 0 = ((b.val * 128 + p.val) * 1 + 0) * 1 + 0; omega)

theorem tnormv_apply (cls : IV S4x128) : tnormv (col1 cls) (ix4 b p 0 0) = nrm 3#32 (cls (ix2 b p)) := by
  unfold tnormv
  rw [rs34_apply]
  show nrm 3#32 (col1 cls (ix3 b p 0)) = _
  rw [col1_apply]

theorem lift4 (h : S4x128x1x1.Reduces [3] S4x128x1) (k : Fin 1) : h.lift (ix3 b p 0) k = ix4 b p 0 0 := by
  funext c; refine Fin.ext ?_
  match c with
  | ⟨0, _⟩ => rfl
  | ⟨1, _⟩ => rfl
  | ⟨2, _⟩ => rfl
  | ⟨3, _⟩ =>
    show k.val = 0
    omega

theorem tmask_apply (n4 : IV S4x128x1x1) :
    tmaskv n4 (ix3 b p 0)
      = IntOp.andi (IntOp.andi (IntOp.cmpi .sge (n4 (ix4 b p 0 0)) 0#32) (IntOp.cmpi .sle (n4 (ix4 b p 0 0)) 2#32)) 1#1 := by
  have h : S4x128x1x1.Reduces [3] S4x128x1 := by decide
  unfold tmaskv
  rw [Host.reduce_eq_fold_single IntOp.andi _ _ reducesTo_S4x128x1x1_S4x128x1_d3 h h_S_ (ix3 b p 0)]
  refine (fold_and1 _ _).trans ?_
  show IntOp.andi (andi (cmpi .sge n4 _) (cmpi .sle n4 _) (h.lift (ix3 b p 0) (0 : Fin 1))) 1#1 = _
  rw [lift4]
  rfl

/-- The batched gather along the last axis read at a sample: the entry at the index word, read signed and clamped. -/
theorem take_gather_apply (x : S4x128x3.Idx → α) (idx : IV S4x128x1x1) :
    Host.gather gather_S4x128x3_S4x128x1x1_S4x128x1_n_2_01_01_2_3_111 x idx (ix3 b p 0)
      = x (ix3 b p ⟨min (idx (ix4 b p 0 0)).toInt.toNat 2, by omega⟩) := by
  unfold Host.gather
  congr 1
  funext a
  refine Fin.ext ?_
  match a with
  | ⟨0, _⟩ =>
    show (gather_S4x128x3_S4x128x1x1_S4x128x1_n_2_01_01_2_3_111).start (ix3 b p 0) idx ⟨0, by decide⟩
      + (gather_S4x128x3_S4x128x1x1_S4x128x1_n_2_01_01_2_3_111).batchCoord (ix3 b p 0) ⟨0, by decide⟩
      + (gather_S4x128x3_S4x128x1x1_S4x128x1_n_2_01_01_2_3_111).offCoord (ix3 b p 0) ⟨0, by decide⟩ = b.val
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨1, _⟩ =>
    show (gather_S4x128x3_S4x128x1x1_S4x128x1_n_2_01_01_2_3_111).start (ix3 b p 0) idx ⟨1, by decide⟩
      + (gather_S4x128x3_S4x128x1x1_S4x128x1_n_2_01_01_2_3_111).batchCoord (ix3 b p 0) ⟨1, by decide⟩
      + (gather_S4x128x3_S4x128x1x1_S4x128x1_n_2_01_01_2_3_111).offCoord (ix3 b p 0) ⟨1, by decide⟩ = p.val
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨2, _⟩ =>
    show (gather_S4x128x3_S4x128x1x1_S4x128x1_n_2_01_01_2_3_111).start (ix3 b p 0) idx ⟨2, by decide⟩
      + (gather_S4x128x3_S4x128x1x1_S4x128x1_n_2_01_01_2_3_111).batchCoord (ix3 b p 0) ⟨2, by decide⟩
      + (gather_S4x128x3_S4x128x1x1_S4x128x1_n_2_01_01_2_3_111).offCoord (ix3 b p 0) ⟨2, by decide⟩ = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (⟨2, by decide⟩ : Fin 3) ∈ (gather_S4x128x3_S4x128x1x1_S4x128x1_n_2_01_01_2_3_111).startIndexMap from by decide)]
    have hsi : (gather_S4x128x3_S4x128x1x1_S4x128x1_n_2_01_01_2_3_111).siIdx (ix3 b p 0)
        ⟨List.idxOf (⟨2, by decide⟩ : Fin 3) (gather_S4x128x3_S4x128x1x1_S4x128x1_n_2_01_01_2_3_111).startIndexMap,
          List.idxOf_lt_length_iff.2 (by decide)⟩ = ix4 b p 0 0 := by
      funext c; refine Fin.ext ?_
      match c with
      | ⟨0, _⟩ => rfl
      | ⟨1, _⟩ => rfl
      | ⟨2, _⟩ => rfl
      | ⟨3, _⟩ => rfl
    rw [hsi]
    rfl

/-- The pick at a sample whose class word lies in [-3, 3): the entry at the class. -/
theorem takev_apply (arr : FV S4x128x3) (cls : IV S4x128) (hc : -3 ≤ (cls (ix2 b p)).toInt ∧ (cls (ix2 b p)).toInt < 3) :
    takev arr (col1 cls) (ix3 b p 0) = arr (ix3 b p ⟨Spec.nidx (cls (ix2 b p)) 3, nidx_lt _ 3 (by decide)⟩) := by
  show Scalar.select (tmaskv (tnormv (col1 cls)) (ix3 b p 0))
    (Host.gather gather_S4x128x3_S4x128x1x1_S4x128x1_n_2_01_01_2_3_111 arr (tnormv (col1 cls)) (ix3 b p 0)) _ = _
  rw [tmask_apply, tnormv_apply, mask_one_and _ hc, select_one, take_gather_apply]
  exact congrArg (fun q => arr (ix3 b p q))
    (Fin.ext ((congrArg (fun w : BitVec 32 => min w.toInt.toNat 2) (tnormv_apply b p cls)).trans (min_nrm3 _)))

/-- The class weights' gather at a sample. -/
theorem gatherw_apply (x6 : FV S3) (idx : IV S4x128x1) :
    Host.gather gather_S3_S4x128x1_S4x128_n_0_n_n_0_2_1 x6 idx (ix2 b p)
      = x6 (ix1 ⟨min (idx (ix3 b p 0)).toInt.toNat 2, by omega⟩) := by
  have e := gather_take_apply (N := 3) (R := 4) (C := 128) (by decide) gather_S3_S4x128x1_S4x128_n_0_n_n_0_2_1_wf x6 idx (ix2 b p)
  have hi : takeIdx (ix2 b p) = (ix3 b p 0 : S4x128x1.Idx) := by
    funext a; match a with | ⟨0, _⟩ => rfl | ⟨1, _⟩ => rfl | ⟨2, _⟩ => rfl
  refine e.trans (congrArg (fun q => x6 (ix1 q)) (Fin.ext ?_))
  show min (idx (takeIdx (ix2 b p))).toInt.toNat (3 - 1) = min (idx (ix3 b p 0)).toInt.toNat 2
  rw [hi]

/-- The same, read through the vector's reader at a position named beforehand. -/
theorem gatherw_read (x6 : FV S3) (idx : IV S4x128x1) (n : ℕ) (hn : min (idx (ix3 b p 0)).toInt.toNat 2 = n) :
    Host.gather gather_S3_S4x128x1_S4x128_n_0_n_n_0_2_1 x6 idx (ix2 b p) = rd1 x6 n := by
  subst hn
  rw [gatherw_apply]
  exact (rd1_ix1 x6 ⟨min (idx (ix3 b p 0)).toInt.toNat 2, by omega⟩).symm

/-- The focal weight at a sample. -/
theorem wposv_apply (pt : FV S4x128) (cls : IV S4x128) (x6 : FV S3) (valid : BV S4x128) :
    wposv pt cls x6 valid (ix2 b p)
      = (1 - pt (ix2 b p)) * (1 - pt (ix2 b p)) * rd1 x6 (Spec.nidx (cls (ix2 b p)) 3) * (((valid (ix2 b p)).toNat : ℝ) : EReal) := by
  show (Ideal.ofBits .f32 0x3F800000#32 - pt (ix2 b p)) * (Ideal.ofBits .f32 0x3F800000#32 - pt (ix2 b p))
    * Host.gather gather_S3_S4x128x1_S4x128_n_0_n_n_0_2_1 x6 (col1 (normv 3#32 cls)) (ix2 b p) * _ = _
  rw [gatherw_read b p x6 _ (Spec.nidx (cls (ix2 b p)) 3) (by rw [col1_apply, normv_apply]; exact min_nrm3 _), Ideal.ofBits_one_f32]
  rfl

end Take

/-! ## The chain at a sample is the specification's summand -/

section Chain
open Cert.Hand.PosWords

variable (x1 : FV S4x9x32x32x32) (x3 : FV S4x3x32x32x32) (x5 : IV S4x128x4) (x6 : FV S3)

/-- The three logits of each sample, stacked. -/
def Sv : FV S4x128x3 :=
  stackv (logitv 0#32 x1 iotav (colv 0 (coordv x5)) (colv 1 (coordv x5)) (colv 2 (coordv x5)) (colv 3 (coordv x5)))
    (logitv 3#32 x1 iotav (colv 0 (coordv x5)) (colv 1 (coordv x5)) (colv 2 (coordv x5)) (colv 3 (coordv x5)))
    (logitv 6#32 x1 iotav (colv 0 (coordv x5)) (colv 1 (coordv x5)) (colv 2 (coordv x5)) (colv 3 (coordv x5)))

/-- The class word of each sample. -/
def CLSv : IV S4x128 :=
  clsv (validv x5) (clsrawv x3 iotav (colv 0 (coordv x5)) (colv 1 (coordv x5)) (colv 2 (coordv x5)) (colv 3 (coordv x5)))

/-- The picked log-probabilities and probabilities, and the weights. -/
def LTv : FV S4x128x1 := takev (lsmv (Sv x1 x5)) (col1 (CLSv x3 x5))
def PTv : FV S4x128 := flat1 (takev (Host.exp (F := Ideal) (lsmv (Sv x1 x5))) (col1 (CLSv x3 x5)))
def WPv : FV S4x128 := wposv (PTv x1 x3 x5) (CLSv x3 x5) x6 (validv x5)

/-- The host's exponential at an index. -/
theorem hexp_apply {s : Shape} (v : FVec Ideal s .f32) (i : s.Idx) : Host.exp (F := Ideal) v i = Ideal.exp (v i) := rfl

variable (b : Fin 4) (p : Fin 128)
variable (hA : ∀ (b : Fin 4) (p : Fin 128), (x5 (ix3 b p 0)).toInt < 3)
variable (hC : ∀ i : S4x3x32x32x32.Idx, (-3 : Int) ≤ (fptosi (F := Ideal) 32 x3 i).toInt ∧ (fptosi (F := Ideal) 32 x3 i).toInt < 3)

include hA in
theorem Sv_apply (k : Fin 3) :
    Sv x1 x5 (ix3 b p k) = Spec.xk (rd5 x1) k.val b.val (sa x5 b p) (sd x5 b p) (sh x5 b p) (sw x5 b p) := by
  unfold Sv
  match k with
  | 0 => rw [stackv_apply0]; exact logit_apply x1 x5 b p 0 (by decide) (hA b p)
  | 1 => rw [stackv_apply1]; exact logit_apply x1 x5 b p 1 (by decide) (hA b p)
  | 2 => rw [stackv_apply2]; exact logit_apply x1 x5 b p 2 (by decide) (hA b p)

theorem CLSv_apply : CLSv x3 x5 (ix2 b p) = Spec.clsOf 32 (rd5 x3) (rd3 x5) b.val p.val := cls_apply x3 x5 b p

include hC in
theorem CLSv_range : (-3 : Int) ≤ (CLSv x3 x5 (ix2 b p)).toInt ∧ (CLSv x3 x5 (ix2 b p)).toInt < 3 := by
  rw [CLSv_apply]
  unfold Spec.clsOf
  by_cases h : Spec.valid (rd3 x5) b.val p.val
  · rw [if_pos h, ← rd5_at x3 b.val _ _ _ _ b.isLt (nidx_lt _ 3 (by decide)) (nidx_lt _ 32 (by decide)) (nidx_lt _ 32 (by decide)) (nidx_lt _ 32 (by decide))]
    exact hC _
  · rw [if_neg h]
    exact ⟨by decide, by decide⟩

include hA in
theorem lsm_Sv_apply (k : Fin 3) :
    lsmv (Sv x1 x5) (ix3 b p k) = Spec.logpAt (rd5 x1) k.val b.val (sa x5 b p) (sd x5 b p) (sh x5 b p) (sw x5 b p) := by
  rw [lsm_apply, Sv_apply x1 x5 b p hA, Sv_apply x1 x5 b p hA, Sv_apply x1 x5 b p hA, Sv_apply x1 x5 b p hA]
  rfl

include hA hC in
theorem LTv_apply : -(LTv x1 x3 x5 (ix3 b p 0)) = Spec.nlltAt 32 (rd5 x1) (rd5 x3) (rd3 x5) b.val p.val := by
  unfold LTv
  rw [takev_apply b p _ _ (CLSv_range x3 x5 b p hC), lsm_Sv_apply x1 x5 b p hA, CLSv_apply]
  rfl

include hA hC in
theorem PTv_apply : PTv x1 x3 x5 (ix2 b p) = Spec.ptAt 32 (rd5 x1) (rd5 x3) (rd3 x5) b.val p.val := by
  unfold PTv
  rw [flat1_apply, takev_apply b p _ _ (CLSv_range x3 x5 b p hC), hexp_apply, lsm_Sv_apply x1 x5 b p hA, CLSv_apply]
  rfl

include hA hC in
theorem WPv_apply : WPv x1 x3 x5 x6 (ix2 b p) = Spec.wpos 32 (rd5 x1) (rd5 x3) (rd3 x5) (rd1 x6) b.val p.val := by
  unfold WPv
  rw [wposv_apply, PTv_apply x1 x3 x5 b p hA hC, CLSv_apply, validv_apply, ind_bit]
  unfold Spec.wpos
  congr 1
  unfold Spec.ind
  by_cases h : Spec.valid (rd3 x5) b.val p.val
  · rw [if_pos h, if_pos (by rw [decide_eq_true h]; rfl)]
  · rw [if_neg h, if_neg (by rw [decide_eq_false h]; decide)]

end Chain

/-! ## Level 1's stretches compose to those arrays -/

section Compose
variable (U : Valuation τ sig (Elt Ideal))

set_option maxHeartbeats 4000000 in
theorem level1_loss :
    StableHlo.after (hostOps2_20 (F := Ideal)) (StableHlo.after (hostOps2_19 (F := Ideal)) (StableHlo.after (hostOps2_18 (F := Ideal)) (StableHlo.after (hostOps2_17 (F := Ideal)) (StableHlo.after (hostOps2_16 (F := Ideal)) (StableHlo.after (hostOps2_15 (F := Ideal)) (StableHlo.after (hostOps2_14 (F := Ideal)) (StableHlo.after (hostOps2_13 (F := Ideal)) (StableHlo.after (hostOps2_12 (F := Ideal)) (StableHlo.after (hostOps2_11 (F := Ideal)) (StableHlo.after (hostOps2_10 (F := Ideal)) (U))))))))))) (Proc.devRef .tc main_v382)
      = lossv (LTv (U (Proc.devRef .tc main_arg1) : FV S4x9x32x32x32) (U (Proc.devRef .tc main_arg3) : FV S4x3x32x32x32) (U (Proc.devRef .tc main_arg5) : IV S4x128x4)) (WPv (U (Proc.devRef .tc main_arg1) : FV S4x9x32x32x32) (U (Proc.devRef .tc main_arg3) : FV S4x3x32x32x32) (U (Proc.devRef .tc main_arg5) : IV S4x128x4) (U (Proc.devRef .tc main_arg6) : FV S3)) := by
  rw [(s20_out _).1,
    s19_v365,
    (P1F.fr19 _).2.2.2,
    (P1F.fr19 _).2.2.1,
    (P1F.fr19 _).1,
    (P1F.fr19 _).2.1,
    (P1F.fr18 _).2.2.2,
    (s18_out _).2,
    (s18_out _).1,
    (P1F.fr18 _).2.2.1,
    (P1F.fr18 _).1,
    (P1F.fr18 _).2.1,
    (P1F.fr17 _).2.2.2,
    (P1F.fr17 _).2.2.1,
    s17_v362,
    (P1F.fr17 _).1,
    (P1F.fr17 _).2.1,
    (P1F.fr16 _).2.2.2,
    (P1F.fr16 _).2.2.1,
    (s16_out _).1,
    (s16_out _).2,
    (P1F.fr16 _).1,
    (P1F.fr16 _).2.1,
    s15_v359,
    (P1F.fr15 _).2.2,
    (P1F.fr15 _).1,
    (P1F.fr15 _).2.1,
    s14_v358,
    (P1F.fr14 _).2.2,
    (P1F.fr14 _).1,
    (P1F.fr14 _).2.1,
    (P1F.fr13 _).1,
    (P1F.fr13 _).2.2.2.2.2.2.2,
    (P1F.fr13 _).2.2.2.1,
    (P1F.fr13 _).2.2.2.2.1,
    (P1F.fr13 _).2.2.2.2.2.1,
    (P1F.fr13 _).2.2.2.2.2.2.1,
    s13_v249,
    (P1F.fr13 _).2.1,
    (P1F.fr13 _).2.2.1,
    (P1F.fr12 _).1,
    (s12_col _).2.2.2.2,
    (s12_col _).1,
    (s12_col _).2.1,
    (s12_col _).2.2.1,
    (s12_col _).2.2.2.1,
    (P1F.fr12 _).2.2,
    s12_v248,
    s12_c65,
    (P1F.fr12 _).2.1,
    (P1F.fr11 _).1,
    s11_v204,
    (P1F.fr11 _).2.2.2,
    (P1F.fr11 _).2.1,
    (P1F.fr11 _).2.2.1,
    (P1F.fr10 _).1,
    (s10_out _).2.1,
    (P1F.fr10 _).2.2.1,
    (s10_out _).2.2,
    (s10_out _).1,
    (P1F.fr10 _).2.1,
    (P1F.fr10 _).2.2.2]
  rfl

set_option maxHeartbeats 4000000 in
theorem level1_count :
    StableHlo.after (hostOps2_20 (F := Ideal)) (StableHlo.after (hostOps2_19 (F := Ideal)) (StableHlo.after (hostOps2_18 (F := Ideal)) (StableHlo.after (hostOps2_17 (F := Ideal)) (StableHlo.after (hostOps2_16 (F := Ideal)) (StableHlo.after (hostOps2_15 (F := Ideal)) (StableHlo.after (hostOps2_14 (F := Ideal)) (StableHlo.after (hostOps2_13 (F := Ideal)) (StableHlo.after (hostOps2_12 (F := Ideal)) (StableHlo.after (hostOps2_11 (F := Ideal)) (StableHlo.after (hostOps2_10 (F := Ideal)) (U))))))))))) (Proc.devRef .tc main_v383)
      = countv (WPv (U (Proc.devRef .tc main_arg1) : FV S4x9x32x32x32) (U (Proc.devRef .tc main_arg3) : FV S4x3x32x32x32) (U (Proc.devRef .tc main_arg5) : IV S4x128x4) (U (Proc.devRef .tc main_arg6) : FV S3)) := by
  rw [(s20_out _).2,
    (P1F.fr19 _).2.2.2,
    (P1F.fr19 _).2.2.1,
    (P1F.fr19 _).1,
    (P1F.fr19 _).2.1,
    (s18_out _).1,
    (P1F.fr18 _).2.2.1,
    (P1F.fr18 _).1,
    (P1F.fr18 _).2.1,
    s17_v362,
    (P1F.fr17 _).2.2.1,
    (P1F.fr17 _).1,
    (P1F.fr17 _).2.1,
    (s16_out _).1,
    (s16_out _).2,
    (P1F.fr16 _).2.2.1,
    (P1F.fr16 _).1,
    (P1F.fr16 _).2.1,
    s15_v359,
    (P1F.fr15 _).2.2,
    (P1F.fr15 _).1,
    (P1F.fr15 _).2.1,
    s14_v358,
    (P1F.fr14 _).2.2,
    (P1F.fr14 _).1,
    (P1F.fr14 _).2.1,
    (P1F.fr13 _).1,
    (P1F.fr13 _).2.2.2.2.2.2.2,
    (P1F.fr13 _).2.2.2.1,
    (P1F.fr13 _).2.2.2.2.1,
    (P1F.fr13 _).2.2.2.2.2.1,
    (P1F.fr13 _).2.2.2.2.2.2.1,
    s13_v249,
    (P1F.fr13 _).2.1,
    (P1F.fr13 _).2.2.1,
    (P1F.fr12 _).1,
    (s12_col _).2.2.2.2,
    (s12_col _).1,
    (s12_col _).2.1,
    (s12_col _).2.2.1,
    (s12_col _).2.2.2.1,
    (P1F.fr12 _).2.2,
    s12_v248,
    s12_c65,
    (P1F.fr12 _).2.1,
    (P1F.fr11 _).1,
    s11_v204,
    (P1F.fr11 _).2.2.2,
    (P1F.fr11 _).2.1,
    (P1F.fr11 _).2.2.1,
    (P1F.fr10 _).1,
    (s10_out _).2.1,
    (P1F.fr10 _).2.2.1,
    (s10_out _).2.2,
    (s10_out _).1,
    (P1F.fr10 _).2.1,
    (P1F.fr10 _).2.2.2]
  rfl

end Compose

/-- The four arguments level 1's positive part reads, at their array types: the logits, the label map, the coordinate
    table and the class weights. -/
abbrev w1 (W : Valuation τ sig (Elt Ideal)) : FVec Ideal S4x9x32x32x32 .f32 := W (Proc.devRef .tc main_arg1)
abbrev w3 (W : Valuation τ sig (Elt Ideal)) : FVec Ideal S4x3x32x32x32 .f32 := W (Proc.devRef .tc main_arg3)
abbrev w5 (W : Valuation τ sig (Elt Ideal)) : IVec S4x128x4 32 := W (Proc.devRef .tc main_arg5)
abbrev w6 (W : Valuation τ sig (Elt Ideal)) : FVec Ideal S3 .f32 := W (Proc.devRef .tc main_arg6)

end P1

/-! ## The two results -/

section Result
open P1
variable (W : Valuation τ sig (Elt Ideal))

/-- The host stretches of @main one after the other are their concatenation run as one. -/
theorem pos1_flatten_stretches :
    StableHlo.after (List.flatten [hostOps2 (F := Ideal), hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20]) W = StableHlo.after (hostOps2_20 (F := Ideal)) (StableHlo.after (hostOps2_19 (F := Ideal)) (StableHlo.after (hostOps2_18 (F := Ideal)) (StableHlo.after (hostOps2_17 (F := Ideal)) (StableHlo.after (hostOps2_16 (F := Ideal)) (StableHlo.after (hostOps2_15 (F := Ideal)) (StableHlo.after (hostOps2_14 (F := Ideal)) (StableHlo.after (hostOps2_13 (F := Ideal)) (StableHlo.after (hostOps2_12 (F := Ideal)) (StableHlo.after (hostOps2_11 (F := Ideal)) (StableHlo.after (hostOps2_10 (F := Ideal)) (StableHlo.after (hostOps2_9 (F := Ideal)) (StableHlo.after (hostOps2_8 (F := Ideal)) (StableHlo.after (hostOps2_7 (F := Ideal)) (StableHlo.after (hostOps2_6 (F := Ideal)) (StableHlo.after (hostOps2_5 (F := Ideal)) (StableHlo.after (hostOps2_4 (F := Ideal)) (StableHlo.after (hostOps2_3 (F := Ideal)) (StableHlo.after (hostOps2_2 (F := Ideal)) (StableHlo.after (hostOps2_1 (F := Ideal)) (StableHlo.after (hostOps2 (F := Ideal)) (W))))))))))))))))))))) := by
  rw [List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_nil, StableHlo.after_nil]

/-- The kernel program's positive loss at level 1 is the specification's, under the precondition's index-range facts. -/
theorem ker_lossPos1 (hA : ∀ (b : Fin 4) (p : Fin 128), (w5 W (ix3 b p 0)).toInt < 3)
    (hC : ∀ i : S4x3x32x32x32.Idx, (-3 : Int) ≤ (fptosi (F := Ideal) 32 (w3 W) i).toInt ∧ (fptosi (F := Ideal) 32 (w3 W) i).toInt < 3) :
    StableHlo.after (List.flatten [hostOps2 (F := Ideal), hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20]) W (Proc.devRef .tc main_v382)
      = fun _ => Spec.lossPos 32 (rd5 (w1 W)) (rd5 (w3 W)) (rd3 (w5 W)) (rd1 (w6 W)) := by
  rw [pos1_flatten_stretches, level1_loss]
  obtain ⟨e1, e3, e5, e6⟩ := P1F.pre_args W
  rw [e1, e3, e5, e6]
  unfold lossv
  refine (P1S.total_sum _ (fun b p => Spec.nlltAt 32 (rd5 (w1 W)) (rd5 (w3 W)) (rd3 (w5 W)) b p * Spec.wpos 32 (rd5 (w1 W)) (rd5 (w3 W)) (rd3 (w5 W)) (rd1 (w6 W)) b p)
    (fun b p => ?_)).trans rfl
  show -(flat1 (LTv (w1 W) (w3 W) (w5 W)) (ix2 b p)) * WPv (w1 W) (w3 W) (w5 W) (w6 W) (ix2 b p) = _
  rw [flat1_apply, LTv_apply _ _ _ b p hA hC, WPv_apply _ _ _ _ b p hA hC]

/-- The kernel program's positive count at level 1 likewise. -/
theorem ker_countPos1 (hA : ∀ (b : Fin 4) (p : Fin 128), (w5 W (ix3 b p 0)).toInt < 3)
    (hC : ∀ i : S4x3x32x32x32.Idx, (-3 : Int) ≤ (fptosi (F := Ideal) 32 (w3 W) i).toInt ∧ (fptosi (F := Ideal) 32 (w3 W) i).toInt < 3) :
    StableHlo.after (List.flatten [hostOps2 (F := Ideal), hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20]) W (Proc.devRef .tc main_v383)
      = fun _ => Spec.countPos 32 (rd5 (w1 W)) (rd5 (w3 W)) (rd3 (w5 W)) (rd1 (w6 W)) := by
  rw [pos1_flatten_stretches, level1_count]
  obtain ⟨e1, e3, e5, e6⟩ := P1F.pre_args W
  rw [e1, e3, e5, e6]
  unfold countv
  exact (P1S.total_sum _ (fun b p => Spec.wpos 32 (rd5 (w1 W)) (rd5 (w3 W)) (rd3 (w5 W)) (rd1 (w6 W)) b p) (fun b p => WPv_apply _ _ _ _ b p hA hC)).trans rfl

end Result

end Cert.KernelIdeal.Hand

end
-- ==== Proof.KI.KerValueMain.lean ====
/-
  The kernel program's result buffer holds the specification's four numbers of the launch memory's argument arrays, under
  the stated precondition: the negative parts as assembled from the tiles, the positive parts where the host computes
  them, read at the second kernel call's exit, whose argument buffers are the launch memory's; the precondition gives the
  positive parts their index and class ranges.
-/
import proofs.«424358_j44040594653645_2_alg».proof.Proof.KI.KerValue
import proofs.«424358_j44040594653645_2_alg».proof.Proof.KI.Pos0
import proofs.«424358_j44040594653645_2_alg».proof.Proof.KI.Pos1

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx Idealize.ShloMosaic.StableHlo Cert.Hand Cert.Hand.Readers

variable [Cert.Pre_finite_inputs.Facts]
variable (m : (ℓ : Loc nD τ sig) → Buf (Elt Ideal) ℓ) (g : Dev nD → PrngReg)

/-- The kernel program's result buffer holds the specification's four numbers of the launch memory's argument arrays. -/
theorem ker_value_main (hpre : Cert.Pre_KernelIdeal m) (c : Dev nD) :
    Wend m g c (Proc.devRef .tc main_v392) = Readers.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have e0 := kv_W3_arg m g c main_arg0 (by decide)
  have e1 := kv_W3_arg m g c main_arg1 (by decide)
  have e2 := kv_W3_arg m g c main_arg2 (by decide)
  have e3 := kv_W3_arg m g c main_arg3 (by decide)
  have e4 := kv_W3_arg m g c main_arg4 (by decide)
  have e5 := kv_W3_arg m g c main_arg5 (by decide)
  have e6 := kv_W3_arg m g c main_arg6 (by decide)
  have hA0 : ∀ (b : Fin 4) (p : Fin 128), ((W3 m g c (Proc.devRef .tc main_arg4) : IVec S4x128x4 32) (ix3 b p 0)).toInt < 3 := by
    intro b p; rw [e4]; exact PreFacts.coord0_lt (hpre c) b p
  have hC0 : ∀ i : S4x3x64x64x64.Idx, (-3 : Int) ≤ (Ideal.fptosi 32 ((W3 m g c (Proc.devRef .tc main_arg2) : S4x3x64x64x64.Idx → EReal) i)).toInt
      ∧ (Ideal.fptosi 32 ((W3 m g c (Proc.devRef .tc main_arg2) : S4x3x64x64x64.Idx → EReal) i)).toInt < 3 := by
    intro i; rw [e2]; exact PreFacts.cls0_range (hpre c) i
  have hA1 : ∀ (b : Fin 4) (p : Fin 128), ((W3 m g c (Proc.devRef .tc main_arg5) : IVec S4x128x4 32) (ix3 b p 0)).toInt < 3 := by
    intro b p; rw [e5]; exact PreFacts.coord1_lt (hpre c) b p
  have hC1 : ∀ i, (-3 : Int) ≤ (fptosi (F := Ideal) (s := S4x3x32x32x32) (φ := .f32) 32 (W3 m g c (Proc.devRef .tc main_arg3)) i).toInt
      ∧ (fptosi (F := Ideal) (s := S4x3x32x32x32) (φ := .f32) 32 (W3 m g c (Proc.devRef .tc main_arg3)) i).toInt < 3 := by
    intro i; rw [e3]; exact PreFacts.cls1_range (hpre c) i
  -- level 0: computed by the first eleven stretches (the nested form is the fold over them, by unfolding)
  have p0 : StableHlo.afterL (List.take 11 (tailStretches (F := Ideal))) (W3 m g c) (Proc.devRef .tc main_v197)
      = fun _ => Spec.lossPos 64 (rd5 (α := EReal) (W3 m g c (Proc.devRef .tc main_arg0))) (rd5 (α := EReal) (W3 m g c (Proc.devRef .tc main_arg2))) (rd3 (α := BitVec 32) (W3 m g c (Proc.devRef .tc main_arg4))) (rd1 (α := EReal) (W3 m g c (Proc.devRef .tc main_arg6))) := ker_lossPos0_nested (W3 m g c) hA0 hC0
  have q0 : StableHlo.afterL (List.take 11 (tailStretches (F := Ideal))) (W3 m g c) (Proc.devRef .tc main_v198)
      = fun _ => Spec.countPos 64 (rd5 (α := EReal) (W3 m g c (Proc.devRef .tc main_arg0))) (rd5 (α := EReal) (W3 m g c (Proc.devRef .tc main_arg2))) (rd3 (α := BitVec 32) (W3 m g c (Proc.devRef .tc main_arg4))) (rd1 (α := EReal) (W3 m g c (Proc.devRef .tc main_arg6))) := ker_countPos0_nested (W3 m g c) hA0 hC0
  -- level 1: over the whole tail
  have p1 : StableHlo.after (tailStretches (F := Ideal)).flatten (W3 m g c) (Proc.devRef .tc main_v382)
      = fun _ => Spec.lossPos 32 (rd5 (α := EReal) (W3 m g c (Proc.devRef .tc main_arg1))) (rd5 (α := EReal) (W3 m g c (Proc.devRef .tc main_arg3))) (rd3 (α := BitVec 32) (W3 m g c (Proc.devRef .tc main_arg5))) (rd1 (α := EReal) (W3 m g c (Proc.devRef .tc main_arg6))) := ker_lossPos1 (W3 m g c) hA1 hC1
  have q1 : StableHlo.after (tailStretches (F := Ideal)).flatten (W3 m g c) (Proc.devRef .tc main_v383)
      = fun _ => Spec.countPos 32 (rd5 (α := EReal) (W3 m g c (Proc.devRef .tc main_arg1))) (rd5 (α := EReal) (W3 m g c (Proc.devRef .tc main_arg3))) (rd3 (α := BitVec 32) (W3 m g c (Proc.devRef .tc main_arg5))) (rd1 (α := EReal) (W3 m g c (Proc.devRef .tc main_arg6))) := ker_countPos1 (W3 m g c) hA1 hC1
  rw [← StableHlo.afterL_eq_after_flatten] at p1 q1
  rw [e0, e2, e4, e6] at p0 q0
  rw [e1, e3, e5, e6] at p1 q1
  exact ker_value_of_pos m g hpre c p0 q0 p1 q1

end Cert.KernelIdeal.Hand

end
-- ==== Proof.Ref.RunP0.lean ====
/- Operations 0 … 76 of the reference program's straight line (its printed window 0): the list, the buffers it touches,
   and the window read one operation at a time: I0_k says which buffers hold which stage value after the first k
   operations of the whole line (the arguments x0 … x6, and every stage a later operation still reads); each operation
   takes I0_k to I0_(k+1): the buffer it writes gets its stage value (one unfolding of that stage), every other one is kept. -/
import proofs.«424358_j44040594653645_2_alg».proof.Proof.RefRead

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 … 76, in order. -/
abbrev ops_p0 : List (HloOp τ sig (Elt F)) :=
  [ reshape main_arg0 main_v0 rfl shapeCasts_S4x9x64x64x64_S4x3x3x64x64x64,
    TRef.nullary (TRef.of (T := ⟨S_, .f32⟩) main_call0_cst) (constant S_ .f32 0xFF800000#32),
    TRef.binary (TRef.of (T := ⟨S4x3x3x64x64x64, .f32⟩) main_v0) (TRef.of (T := ⟨S_, .f32⟩) main_call0_cst) (TRef.of (T := ⟨S4x3x64x64x64, .f32⟩) main_call0_v0) (fun x v => Host.reduce FloatOps.maximumf x v reducesTo_S4x3x3x64x64x64_S4x3x64x64x64_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4x3x64x64x64, .f32⟩) main_call0_v1) (broadcastInDim S4x3x64x64x64 ![] bcast_S_S4x3x64x64x64),
    TRef.binary (TRef.of (T := ⟨S4x3x64x64x64, .f32⟩) main_call0_v1) (TRef.of (T := ⟨S4x3x64x64x64, .f32⟩) main_call0_v0) (TRef.of (T := ⟨S4x3x64x64x64, .f32⟩) main_call0_v2) maximumf,
    TRef.unary (TRef.of (T := ⟨S4x3x64x64x64, .f32⟩) main_call0_v2) (TRef.of (T := ⟨S4x1x3x64x64x64, .f32⟩) main_call0_v3) (broadcastInDim S4x1x3x64x64x64 ![0, 2, 3, 4, 5] bcast_S4x3x64x64x64_S4x1x3x64x64x64_0_2_3_4_5),
    TRef.unary (TRef.of (T := ⟨S4x1x3x64x64x64, .f32⟩) main_call0_v3) (TRef.of (T := ⟨S4x3x3x64x64x64, .f32⟩) main_call0_v4) (broadcastInDim S4x3x3x64x64x64 ![0, 1, 2, 3, 4, 5] bcast_S4x1x3x64x64x64_S4x3x3x64x64x64_0_1_2_3_4_5),
    TRef.binary (TRef.of (T := ⟨S4x3x3x64x64x64, .f32⟩) main_v0) (TRef.of (T := ⟨S4x3x3x64x64x64, .f32⟩) main_call0_v4) (TRef.of (T := ⟨S4x3x3x64x64x64, .f32⟩) main_call0_v5) subf,
    TRef.unary (TRef.of (T := ⟨S4x3x3x64x64x64, .f32⟩) main_call0_v5) (TRef.of (T := ⟨S4x3x3x64x64x64, .f32⟩) main_call0_v6) Host.exp,
    TRef.nullary (TRef.of (T := ⟨S_, .f32⟩) main_call0_cst_1) (constant S_ .f32 0x00000000#32),
    TRef.binary (TRef.of (T := ⟨S4x3x3x64x64x64, .f32⟩) main_call0_v6) (TRef.of (T := ⟨S_, .f32⟩) main_call0_cst_1) (TRef.of (T := ⟨S4x3x64x64x64, .f32⟩) main_call0_v7) (fun x v => Host.reduceAdd x v reducesTo_S4x3x3x64x64x64_S4x3x64x64x64_d1 h_S_),
    TRef.unary (TRef.of (T := ⟨S4x3x64x64x64, .f32⟩) main_call0_v7) (TRef.of (T := ⟨S4x1x3x64x64x64, .f32⟩) main_call0_v8) (broadcastInDim S4x1x3x64x64x64 ![0, 2, 3, 4, 5] bcast_S4x3x64x64x64_S4x1x3x64x64x64_0_2_3_4_5),
    TRef.unary (TRef.of (T := ⟨S4x1x3x64x64x64, .f32⟩) main_call0_v8) (TRef.of (T := ⟨S4x1x3x64x64x64, .f32⟩) main_call0_v9) Host.log,
    TRef.unary (TRef.of (T := ⟨S4x1x3x64x64x64, .f32⟩) main_call0_v9) (TRef.of (T := ⟨S4x3x3x64x64x64, .f32⟩) main_call0_v10) (broadcastInDim S4x3x3x64x64x64 ![0, 1, 2, 3, 4, 5] bcast_S4x1x3x64x64x64_S4x3x3x64x64x64_0_1_2_3_4_5),
    TRef.binary (TRef.of (T := ⟨S4x3x3x64x64x64, .f32⟩) main_call0_v5) (TRef.of (T := ⟨S4x3x3x64x64x64, .f32⟩) main_call0_v10) (TRef.of (T := ⟨S4x3x3x64x64x64, .f32⟩) main_v1) subf,
    unary main_v1 main_v2 (Host.negf : (⟨S4x3x3x64x64x64, .f32⟩ : BufTy).Contents (Elt F) → (⟨S4x3x3x64x64x64, .f32⟩ : BufTy).Contents (Elt F)),
    unary main_v1 main_v3 (Host.exp : (⟨S4x3x3x64x64x64, .f32⟩ : BufTy).Contents (Elt F) → (⟨S4x3x3x64x64x64, .f32⟩ : BufTy).Contents (Elt F)),
    unary main_v2 main_v4 ((extractStridedSlice S4x1x3x64x64x64 ![0, 0, 0, 0, 0, 0] · slices_S4x3x3x64x64x64_S4x1x3x64x64x64_0_0_0_0_0_0) : (⟨S4x3x3x64x64x64, .f32⟩ : BufTy).Contents (Elt F) → (⟨S4x1x3x64x64x64, .f32⟩ : BufTy).Contents (Elt F)),
    reshape main_v4 main_v5 rfl shapeCasts_S4x1x3x64x64x64_S4x3x64x64x64,
    unary main_v3 main_v6 ((extractStridedSlice S4x1x3x64x64x64 ![0, 0, 0, 0, 0, 0] · slices_S4x3x3x64x64x64_S4x1x3x64x64x64_0_0_0_0_0_0) : (⟨S4x3x3x64x64x64, .f32⟩ : BufTy).Contents (Elt F) → (⟨S4x1x3x64x64x64, .f32⟩ : BufTy).Contents (Elt F)),
    reshape main_v6 main_v7 rfl shapeCasts_S4x1x3x64x64x64_S4x3x64x64x64,
    nullary main_cst (constant S_ .f32 0xBF800000#32),
    unary main_cst main_v8 (broadcastInDim S4x3x64x64x64 ![] bcast_S_S4x3x64x64x64 : (⟨S_, .f32⟩ : BufTy).Contents (Elt F) → (⟨S4x3x64x64x64, .f32⟩ : BufTy).Contents (Elt F)),
    binary main_arg2 main_v8 main_v9 (cmpf .oeq : (⟨S4x3x64x64x64, .f32⟩ : BufTy).Contents (Elt F) → (⟨S4x3x64x64x64, .f32⟩ : BufTy).Contents (Elt F) → (⟨S4x3x64x64x64, .i1⟩ : BufTy).Contents (Elt F)),
    unary main_v9 main_v10 (uitofp .f32 : (⟨S4x3x64x64x64, .i1⟩ : BufTy).Contents (Elt F) → (⟨S4x3x64x64x64, .f32⟩ : BufTy).Contents (Elt F)),
    nullary main_cst_0 (constant S_ .f32 0xFF800000#32),
    unary main_cst_0 main_v11 (broadcastInDim S_ ![] bcast_S_S_ : (⟨S_, .f32⟩ : BufTy).Contents (Elt F) → (⟨S_, .f32⟩ : BufTy).Contents (Elt F)),
    binary main_v5 main_v11 main_v12 ((fun x v => Host.reduceWindow FloatOps.maximumf ![1, 1, 3, 3, 3] ![1, 1, 1, 1, 1] ![0, 0, 1, 1, 1] ![0, 0, 1, 1, 1] x v reduceWindows_S4x3x64x64x64_S4x3x64x64x64_w1s1p0_0_w1s1p0_0_w3s1p1_1_w3s1p1_1_w3s1p1_1 h_S_) : (⟨S4x3x64x64x64, .f32⟩ : BufTy).Contents (Elt F) → (⟨S_, .f32⟩ : BufTy).Contents (Elt F) → (⟨S4x3x64x64x64, .f32⟩ : BufTy).Contents (Elt F)),
    binary main_v12 main_v5 main_v13 (cmpf .oeq : (⟨S4x3x64x64x64, .f32⟩ : BufTy).Contents (Elt F) → (⟨S4x3x64x64x64, .f32⟩ : BufTy).Contents (Elt F) → (⟨S4x3x64x64x64, .i1⟩ : BufTy).Contents (Elt F)),
    unary main_v13 main_v14 (uitofp .f32 : (⟨S4x3x64x64x64, .i1⟩ : BufTy).Contents (Elt F) → (⟨S4x3x64x64x64, .f32⟩ : BufTy).Contents (Elt F)),
    binary main_v10 main_v14 main_v15 (mulf : (⟨S4x3x64x64x64, .f32⟩ : BufTy).Contents (Elt F) → (⟨S4x3x64x64x64, .f32⟩ : BufTy).Contents (Elt F) → (⟨S4x3x64x64x64, .f32⟩ : BufTy).Contents (Elt F)),
    nullary main_cst_1 (constant S_ .f32 0x3F800000#32),
    unary main_cst_1 main_v16 (broadcastInDim S4x3x64x64x64 ![] bcast_S_S4x3x64x64x64 : (⟨S_, .f32⟩ : BufTy).Contents (Elt F) → (⟨S4x3x64x64x64, .f32⟩ : BufTy).Contents (Elt F)),
    binary main_v16 main_v7 main_v17 (subf : (⟨S4x3x64x64x64, .f32⟩ : BufTy).Contents (Elt F) → (⟨S4x3x64x64x64, .f32⟩ : BufTy).Contents (Elt F) → (⟨S4x3x64x64x64, .f32⟩ : BufTy).Contents (Elt F)),
    binary main_v17 main_v17 main_v18 (mulf : (⟨S4x3x64x64x64, .f32⟩ : BufTy).Contents (Elt F) → (⟨S4x3x64x64x64, .f32⟩ : BufTy).Contents (Elt F) → (⟨S4x3x64x64x64, .f32⟩ : BufTy).Contents (Elt F)),
    binary main_v18 main_v15 main_v19 (mulf : (⟨S4x3x64x64x64, .f32⟩ : BufTy).Contents (Elt F) → (⟨S4x3x64x64x64, .f32⟩ : BufTy).Contents (Elt F) → (⟨S4x3x64x64x64, .f32⟩ : BufTy).Contents (Elt F)),
    binary main_v5 main_v19 main_v20 (mulf : (⟨S4x3x64x64x64, .f32⟩ : BufTy).Contents (Elt F) → (⟨S4x3x64x64x64, .f32⟩ : BufTy).Contents (Elt F) → (⟨S4x3x64x64x64, .f32⟩ : BufTy).Contents (Elt F)),
    nullary main_cst_2 (constant S_ .f32 0x00000000#32),
    binary main_v20 main_cst_2 main_v21 ((fun x v => Host.reduceAdd x v reducesTo_S4x3x64x64x64_S_d0_1_2_3_4 h_S_) : (⟨S4x3x64x64x64, .f32⟩ : BufTy).Contents (Elt F) → (⟨S_, .f32⟩ : BufTy).Contents (Elt F) → (⟨S_, .f32⟩ : BufTy).Contents (Elt F)),
    nullary main_cst_3 (constant S_ .f32 0x00000000#32),
    binary main_v19 main_cst_3 main_v22 ((fun x v => Host.reduceAdd x v reducesTo_S4x3x64x64x64_S_d0_1_2_3_4 h_S_) : (⟨S4x3x64x64x64, .f32⟩ : BufTy).Contents (Elt F) → (⟨S_, .f32⟩ : BufTy).Contents (Elt F) → (⟨S_, .f32⟩ : BufTy).Contents (Elt F)),
    unary main_arg4 main_v23 ((extractStridedSlice S4x128x1 ![0, 0, 0] · slices_S4x128x4_S4x128x1_0_0_0) : (⟨S4x128x4, .i32⟩ : BufTy).Contents (Elt F) → (⟨S4x128x1, .i32⟩ : BufTy).Contents (Elt F)),
    reshape main_v23 main_v24 rfl shapeCasts_S4x128x1_S4x128,
    nullary main_c (constantI S_ 32 4294967295#32),
    unary main_c main_v25 (broadcastInDim S4x128 ![] bcast_S_S4x128 : (⟨S_, .i32⟩ : BufTy).Contents (Elt F) → (⟨S4x128, .i32⟩ : BufTy).Contents (Elt F)),
    binary main_v24 main_v25 main_v26 (cmpi .sgt : (⟨S4x128, .i32⟩ : BufTy).Contents (Elt F) → (⟨S4x128, .i32⟩ : BufTy).Contents (Elt F) → (⟨S4x128, .i1⟩ : BufTy).Contents (Elt F)),
    unary main_v26 main_v27 (broadcastInDim S4x128x1 ![0, 1] bcast_S4x128_S4x128x1_0_1 : (⟨S4x128, .i1⟩ : BufTy).Contents (Elt F) → (⟨S4x128x1, .i1⟩ : BufTy).Contents (Elt F)),
    nullary main_c_4 (constantI S_ 32 0#32),
    TRef.unary (TRef.of (T := ⟨S_, .i32⟩) main_c_4) (TRef.of (T := ⟨S_, .i32⟩) main_call1_v0) id,
    TRef.unary (TRef.of (T := ⟨S4x128x1, .i1⟩) main_v27) (TRef.of (T := ⟨S4x128x4, .i1⟩) main_call1_v1) (broadcastInDim S4x128x4 ![0, 1, 2] bcast_S4x128x1_S4x128x4_0_1_2),
    TRef.unary (TRef.of (T := ⟨S_, .i32⟩) main_call1_v0) (TRef.of (T := ⟨S4x128x4, .i32⟩) main_call1_v2) (broadcastInDim S4x128x4 ![] bcast_S_S4x128x4),
    TRef.ternary (TRef.of (T := ⟨S4x128x4, .i1⟩) main_call1_v1) (TRef.of (T := ⟨S4x128x4, .i32⟩) main_arg4) (TRef.of (T := ⟨S4x128x4, .i32⟩) main_call1_v2) (TRef.of (T := ⟨S4x128x4, .i32⟩) main_v28) select,
    unary main_v28 main_v29 ((extractStridedSlice S4x128x1 ![0, 0, 0] · slices_S4x128x4_S4x128x1_0_0_0) : (⟨S4x128x4, .i32⟩ : BufTy).Contents (Elt F) → (⟨S4x128x1, .i32⟩ : BufTy).Contents (Elt F)),
    reshape main_v29 main_v30 rfl shapeCasts_S4x128x1_S4x128,
    unary main_v28 main_v31 ((extractStridedSlice S4x128x1 ![0, 0, 1] · slices_S4x128x4_S4x128x1_0_0_1) : (⟨S4x128x4, .i32⟩ : BufTy).Contents (Elt F) → (⟨S4x128x1, .i32⟩ : BufTy).Contents (Elt F)),
    reshape main_v31 main_v32 rfl shapeCasts_S4x128x1_S4x128,
    unary main_v28 main_v33 ((extractStridedSlice S4x128x1 ![0, 0, 2] · slices_S4x128x4_S4x128x1_0_0_2) : (⟨S4x128x4, .i32⟩ : BufTy).Contents (Elt F) → (⟨S4x128x1, .i32⟩ : BufTy).Contents (Elt F)),
    reshape main_v33 main_v34 rfl shapeCasts_S4x128x1_S4x128,
    unary main_v28 main_v35 ((extractStridedSlice S4x128x1 ![0, 0, 3] · slices_S4x128x4_S4x128x1_0_0_3) : (⟨S4x128x4, .i32⟩ : BufTy).Contents (Elt F) → (⟨S4x128x1, .i32⟩ : BufTy).Contents (Elt F)),
    reshape main_v35 main_v36 rfl shapeCasts_S4x128x1_S4x128,
    nullary main_v37 (iotaInDim S4 32 0),
    unary main_v37 main_v38 (broadcastInDim S4x1 ![0] bcast_S4_S4x1_0 : (⟨S4, .i32⟩ : BufTy).Contents (Elt F) → (⟨S4x1, .i32⟩ : BufTy).Contents (Elt F)),
    nullary main_c_5 (constantI S_ 32 0#32),
    unary main_c_5 main_v39 (broadcastInDim S4x1 ![] bcast_S_S4x1 : (⟨S_, .i32⟩ : BufTy).Contents (Elt F) → (⟨S4x1, .i32⟩ : BufTy).Contents (Elt F)),
    binary main_v38 main_v39 main_v40 (cmpi .slt : (⟨S4x1, .i32⟩ : BufTy).Contents (Elt F) → (⟨S4x1, .i32⟩ : BufTy).Contents (Elt F) → (⟨S4x1, .i1⟩ : BufTy).Contents (Elt F)),
    nullary main_c_6 (constantI S_ 32 4#32),
    unary main_c_6 main_v41 (broadcastInDim S4x1 ![] bcast_S_S4x1 : (⟨S_, .i32⟩ : BufTy).Contents (Elt F) → (⟨S4x1, .i32⟩ : BufTy).Contents (Elt F)),
    binary main_v38 main_v41 main_v42 (addi : (⟨S4x1, .i32⟩ : BufTy).Contents (Elt F) → (⟨S4x1, .i32⟩ : BufTy).Contents (Elt F) → (⟨S4x1, .i32⟩ : BufTy).Contents (Elt F)),
    ternary main_v40 main_v42 main_v38 main_v43 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_7 (constantI S_ 32 0#32),
    unary main_c_7 main_v44 (broadcastInDim S4x128 ![] bcast_S_S4x128 : (⟨S_, .i32⟩ : BufTy).Contents (Elt F) → (⟨S4x128, .i32⟩ : BufTy).Contents (Elt F)),
    binary main_v30 main_v44 main_v45 (cmpi .slt : (⟨S4x128, .i32⟩ : BufTy).Contents (Elt F) → (⟨S4x128, .i32⟩ : BufTy).Contents (Elt F) → (⟨S4x128, .i1⟩ : BufTy).Contents (Elt F)),
    nullary main_c_8 (constantI S_ 32 3#32),
    unary main_c_8 main_v46 (broadcastInDim S4x128 ![] bcast_S_S4x128 : (⟨S_, .i32⟩ : BufTy).Contents (Elt F) → (⟨S4x128, .i32⟩ : BufTy).Contents (Elt F)),
    binary main_v30 main_v46 main_v47 (addi : (⟨S4x128, .i32⟩ : BufTy).Contents (Elt F) → (⟨S4x128, .i32⟩ : BufTy).Contents (Elt F) → (⟨S4x128, .i32⟩ : BufTy).Contents (Elt F)),
    ternary main_v45 main_v47 main_v30 main_v48 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)) ]

set_option maxRecDepth 8192 in
theorem ops_p0_sub : (ops_p0 : List (HloOp τ sig (Elt F))).Forall fun op => op.bufs ⊆ tcRefs τ sig :=
  ⟨reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., binary_bufs_sub .., unary_bufs_sub .., binary_bufs_sub .., nullary_bufs_sub .., unary_bufs_sub .., binary_bufs_sub .., binary_bufs_sub .., binary_bufs_sub .., binary_bufs_sub .., nullary_bufs_sub .., binary_bufs_sub .., nullary_bufs_sub .., binary_bufs_sub .., unary_bufs_sub .., reshape_bufs_sub .., nullary_bufs_sub .., unary_bufs_sub .., binary_bufs_sub .., unary_bufs_sub .., nullary_bufs_sub .., unary_bufs_sub .., unary_bufs_sub .., unary_bufs_sub .., ternary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
set_option maxRecDepth 8192 in
theorem ops_p0_fresh : ∀ op ∈ (ops_p0 : List (HloOp τ sig (Elt F))), op.fresh = ∅ := by
  intro _ h; (repeat (cases h with | head => rfl | tail _ h => ?_)); exact nomatch h

set_option maxRecDepth 8192 in
set_option maxHeartbeats 4000000 in
theorem main_part0_eq (c : Dev nD) : main_part0 (F := F) c = seq ops_p0 := rfl

def I0_0 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6
def I0_1 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v0) = ReadP.val_main_v0 (F := F) x0
def I0_2 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v0) = ReadP.val_main_v0 (F := F) x0 ∧ V (Proc.devRef .tc main_call0_cst) = ReadP.val_main_call0_cst (F := F)
def I0_3 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v0) = ReadP.val_main_v0 (F := F) x0 ∧ V (Proc.devRef .tc main_call0_v0) = ReadP.val_main_call0_v0 (F := F) x0
def I0_4 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v0) = ReadP.val_main_v0 (F := F) x0 ∧ V (Proc.devRef .tc main_call0_v0) = ReadP.val_main_call0_v0 (F := F) x0 ∧ V (Proc.devRef .tc main_call0_cst_0) = ReadP.val_main_call0_cst_0 (F := F)
def I0_5 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v0) = ReadP.val_main_v0 (F := F) x0 ∧ V (Proc.devRef .tc main_call0_v0) = ReadP.val_main_call0_v0 (F := F) x0 ∧ V (Proc.devRef .tc main_call0_v1) = ReadP.val_main_call0_v1 (F := F)
def I0_6 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v0) = ReadP.val_main_v0 (F := F) x0 ∧ V (Proc.devRef .tc main_call0_v2) = ReadP.val_main_call0_v2 (F := F) x0
def I0_7 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v0) = ReadP.val_main_v0 (F := F) x0 ∧ V (Proc.devRef .tc main_call0_v3) = ReadP.val_main_call0_v3 (F := F) x0
def I0_8 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v0) = ReadP.val_main_v0 (F := F) x0 ∧ V (Proc.devRef .tc main_call0_v4) = ReadP.val_main_call0_v4 (F := F) x0
def I0_9 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_call0_v5) = ReadP.val_main_call0_v5 (F := F) x0
def I0_10 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_call0_v5) = ReadP.val_main_call0_v5 (F := F) x0 ∧ V (Proc.devRef .tc main_call0_v6) = ReadP.val_main_call0_v6 (F := F) x0
def I0_11 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_call0_v5) = ReadP.val_main_call0_v5 (F := F) x0 ∧ V (Proc.devRef .tc main_call0_v6) = ReadP.val_main_call0_v6 (F := F) x0 ∧ V (Proc.devRef .tc main_call0_cst_1) = ReadP.val_main_call0_cst_1 (F := F)
def I0_12 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_call0_v5) = ReadP.val_main_call0_v5 (F := F) x0 ∧ V (Proc.devRef .tc main_call0_v7) = ReadP.val_main_call0_v7 (F := F) x0
def I0_13 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_call0_v5) = ReadP.val_main_call0_v5 (F := F) x0 ∧ V (Proc.devRef .tc main_call0_v8) = ReadP.val_main_call0_v8 (F := F) x0
def I0_14 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_call0_v5) = ReadP.val_main_call0_v5 (F := F) x0 ∧ V (Proc.devRef .tc main_call0_v9) = ReadP.val_main_call0_v9 (F := F) x0
def I0_15 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_call0_v5) = ReadP.val_main_call0_v5 (F := F) x0 ∧ V (Proc.devRef .tc main_call0_v10) = ReadP.val_main_call0_v10 (F := F) x0
def I0_16 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v1) = ReadP.val_main_v1 (F := F) x0
def I0_17 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v1) = ReadP.val_main_v1 (F := F) x0 ∧ V (Proc.devRef .tc main_v2) = ReadP.val_main_v2 (F := F) x0
def I0_18 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0
def I0_19 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v4) = ReadP.val_main_v4 (F := F) x0
def I0_20 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0
def I0_21 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v6) = ReadP.val_main_v6 (F := F) x0
def I0_22 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0
def I0_23 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0 ∧ V (Proc.devRef .tc main_cst) = ReadP.val_main_cst (F := F)
def I0_24 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0 ∧ V (Proc.devRef .tc main_v8) = ReadP.val_main_v8 (F := F)
def I0_25 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0 ∧ V (Proc.devRef .tc main_v9) = ReadP.val_main_v9 (F := F) x2
def I0_26 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0 ∧ V (Proc.devRef .tc main_v10) = ReadP.val_main_v10 (F := F) x2
def I0_27 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0 ∧ V (Proc.devRef .tc main_v10) = ReadP.val_main_v10 (F := F) x2 ∧ V (Proc.devRef .tc main_cst_0) = ReadP.val_main_cst_0 (F := F)
def I0_28 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0 ∧ V (Proc.devRef .tc main_v10) = ReadP.val_main_v10 (F := F) x2 ∧ V (Proc.devRef .tc main_v11) = ReadP.val_main_v11 (F := F)
def I0_29 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0 ∧ V (Proc.devRef .tc main_v10) = ReadP.val_main_v10 (F := F) x2 ∧ V (Proc.devRef .tc main_v12) = ReadP.val_main_v12 (F := F) x0
def I0_30 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0 ∧ V (Proc.devRef .tc main_v10) = ReadP.val_main_v10 (F := F) x2 ∧ V (Proc.devRef .tc main_v13) = ReadP.val_main_v13 (F := F) x0
def I0_31 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0 ∧ V (Proc.devRef .tc main_v10) = ReadP.val_main_v10 (F := F) x2 ∧ V (Proc.devRef .tc main_v14) = ReadP.val_main_v14 (F := F) x0
def I0_32 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0 ∧ V (Proc.devRef .tc main_v15) = ReadP.val_main_v15 (F := F) x0 x2
def I0_33 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0 ∧ V (Proc.devRef .tc main_v15) = ReadP.val_main_v15 (F := F) x0 x2 ∧ V (Proc.devRef .tc main_cst_1) = ReadP.val_main_cst_1 (F := F)
def I0_34 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v7) = ReadP.val_main_v7 (F := F) x0 ∧ V (Proc.devRef .tc main_v15) = ReadP.val_main_v15 (F := F) x0 x2 ∧ V (Proc.devRef .tc main_v16) = ReadP.val_main_v16 (F := F)
def I0_35 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v15) = ReadP.val_main_v15 (F := F) x0 x2 ∧ V (Proc.devRef .tc main_v17) = ReadP.val_main_v17 (F := F) x0
def I0_36 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v15) = ReadP.val_main_v15 (F := F) x0 x2 ∧ V (Proc.devRef .tc main_v18) = ReadP.val_main_v18 (F := F) x0
def I0_37 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v5) = ReadP.val_main_v5 (F := F) x0 ∧ V (Proc.devRef .tc main_v19) = ReadP.val_main_v19 (F := F) x0 x2
def I0_38 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v19) = ReadP.val_main_v19 (F := F) x0 x2 ∧ V (Proc.devRef .tc main_v20) = ReadP.val_main_v20 (F := F) x0 x2
def I0_39 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v19) = ReadP.val_main_v19 (F := F) x0 x2 ∧ V (Proc.devRef .tc main_v20) = ReadP.val_main_v20 (F := F) x0 x2 ∧ V (Proc.devRef .tc main_cst_2) = ReadP.val_main_cst_2 (F := F)
def I0_40 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v19) = ReadP.val_main_v19 (F := F) x0 x2 ∧ V (Proc.devRef .tc main_v21) = ReadP.val_main_v21 (F := F) x0 x2
def I0_41 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v19) = ReadP.val_main_v19 (F := F) x0 x2 ∧ V (Proc.devRef .tc main_v21) = ReadP.val_main_v21 (F := F) x0 x2 ∧ V (Proc.devRef .tc main_cst_3) = ReadP.val_main_cst_3 (F := F)
def I0_42 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2
def I0_43 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v23) = ReadP.val_main_v23 (F := F) x4
def I0_44 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v24) = ReadP.val_main_v24 (F := F) x4
def I0_45 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v24) = ReadP.val_main_v24 (F := F) x4 ∧ V (Proc.devRef .tc main_c) = ReadP.val_main_c (F := F)
def I0_46 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v24) = ReadP.val_main_v24 (F := F) x4 ∧ V (Proc.devRef .tc main_v25) = ReadP.val_main_v25 (F := F)
def I0_47 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4
def I0_48 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v27) = ReadP.val_main_v27 (F := F) x4
def I0_49 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v27) = ReadP.val_main_v27 (F := F) x4 ∧ V (Proc.devRef .tc main_c_4) = ReadP.val_main_c_4 (F := F)
def I0_50 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v27) = ReadP.val_main_v27 (F := F) x4 ∧ V (Proc.devRef .tc main_call1_v0) = ReadP.val_main_call1_v0 (F := F)
def I0_51 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_call1_v0) = ReadP.val_main_call1_v0 (F := F) ∧ V (Proc.devRef .tc main_call1_v1) = ReadP.val_main_call1_v1 (F := F) x4
def I0_52 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_call1_v1) = ReadP.val_main_call1_v1 (F := F) x4 ∧ V (Proc.devRef .tc main_call1_v2) = ReadP.val_main_call1_v2 (F := F)
def I0_53 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v28) = ReadP.val_main_v28 (F := F) x4
def I0_54 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v28) = ReadP.val_main_v28 (F := F) x4 ∧ V (Proc.devRef .tc main_v29) = ReadP.val_main_v29 (F := F) x4
def I0_55 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v28) = ReadP.val_main_v28 (F := F) x4 ∧ V (Proc.devRef .tc main_v30) = ReadP.val_main_v30 (F := F) x4
def I0_56 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v28) = ReadP.val_main_v28 (F := F) x4 ∧ V (Proc.devRef .tc main_v30) = ReadP.val_main_v30 (F := F) x4 ∧ V (Proc.devRef .tc main_v31) = ReadP.val_main_v31 (F := F) x4
def I0_57 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v28) = ReadP.val_main_v28 (F := F) x4 ∧ V (Proc.devRef .tc main_v30) = ReadP.val_main_v30 (F := F) x4 ∧ V (Proc.devRef .tc main_v32) = ReadP.val_main_v32 (F := F) x4
def I0_58 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v28) = ReadP.val_main_v28 (F := F) x4 ∧ V (Proc.devRef .tc main_v30) = ReadP.val_main_v30 (F := F) x4 ∧ V (Proc.devRef .tc main_v32) = ReadP.val_main_v32 (F := F) x4 ∧ V (Proc.devRef .tc main_v33) = ReadP.val_main_v33 (F := F) x4
def I0_59 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v28) = ReadP.val_main_v28 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4
def I0_60 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v35) = ReadP.val_main_v35 (F := F) x4
def I0_61 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4
def I0_62 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v37) = ReadP.val_main_v37 (F := F)
def I0_63 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F)
def I0_64 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_c_5) = ReadP.val_main_c_5 (F := F)
def I0_65 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v39) = ReadP.val_main_v39 (F := F)
def I0_66 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v40) = ReadP.val_main_v40 (F := F)
def I0_67 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v40) = ReadP.val_main_v40 (F := F) ∧ V (Proc.devRef .tc main_c_6) = ReadP.val_main_c_6 (F := F)
def I0_68 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v40) = ReadP.val_main_v40 (F := F) ∧ V (Proc.devRef .tc main_v41) = ReadP.val_main_v41 (F := F)
def I0_69 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v40) = ReadP.val_main_v40 (F := F) ∧ V (Proc.devRef .tc main_v42) = ReadP.val_main_v42 (F := F)
def I0_70 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F)
def I0_71 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_c_7) = ReadP.val_main_c_7 (F := F)
def I0_72 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v44) = ReadP.val_main_v44 (F := F)
def I0_73 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v45) = ReadP.val_main_v45 (F := F) x4
def I0_74 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v45) = ReadP.val_main_v45 (F := F) x4 ∧ V (Proc.devRef .tc main_c_8) = ReadP.val_main_c_8 (F := F)
def I0_75 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v45) = ReadP.val_main_v45 (F := F) x4 ∧ V (Proc.devRef .tc main_v46) = ReadP.val_main_v46 (F := F)
def I0_76 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v45) = ReadP.val_main_v45 (F := F) x4 ∧ V (Proc.devRef .tc main_v47) = ReadP.val_main_v47 (F := F) x4
def I0_77 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4

theorem s0 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_0 V x0 x1 x2 x3 x4 x5 x6 → I0_1 ((reshape main_arg0 main_v0 rfl shapeCasts_S4x9x64x64x64_S4x3x3x64x64x64).result V) x0 x1 x2 x3 x4 x5 x6 :=
  fun ⟨h_main_arg0, h_main_arg1, h_main_arg2, h_main_arg3, h_main_arg4, h_main_arg5, h_main_arg6⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; (try simp only [TRef.ofBuf, TRef.toBuf, cast_eq]); rw [h_main_arg0]; rfl⟩
theorem s1 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_1 V x0 x1 x2 x3 x4 x5 x6 → I0_2 ((TRef.nullary (TRef.of (T := ⟨S_, .f32⟩) main_call0_cst) (constant S_ .f32 0xFF800000#32)).result V) x0 x1 x2 x3 x4 x5 x6 :=
  fun ⟨h_main_arg0, h_main_arg1, h_main_arg2, h_main_arg3, h_main_arg4, h_main_arg5, h_main_arg6, h_main_v0⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v0,
    by after_results_simp; (try simp only [TRef.ofBuf, TRef.toBuf, cast_eq]); rfl⟩
theorem s2 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_2 V x0 x1 x2 x3 x4 x5 x6 → I0_3 ((TRef.binary (TRef.of (T := ⟨S4x3x3x64x64x64, .f32⟩) main_v0) (TRef.of (T := ⟨S_, .f32⟩) main_call0_cst) (TRef.of (T := ⟨S4x3x64x64x64, .f32⟩) main_call0_v0) (fun x v => Host.reduce FloatOps.maximumf x v reducesTo_S4x3x3x64x64x64_S4x3x64x64x64_d1 h_S_)).result V) x0 x1 x2 x3 x4 x5 x6 :=
  fun ⟨h_main_arg0, h_main_arg1, h_main_arg2, h_main_arg3, h_main_arg4, h_main_arg5, h_main_arg6, h_main_v0, h_main_call0_cst⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v0,
    by after_results_simp; (try simp only [TRef.ofBuf, TRef.toBuf, cast_eq]); rw [h_main_v0, h_main_call0_cst]; rfl⟩
theorem s3 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_3 V x0 x1 x2 x3 x4 x5 x6 → I0_4 ((TRef.nullary (TRef.of (T := ⟨S_, .f32⟩) main_call0_cst_0) (constant S_ .f32 0xFF800000#32)).result V) x0 x1 x2 x3 x4 x5 x6 :=
  fun ⟨h_main_arg0, h_main_arg1, h_main_arg2, h_main_arg3, h_main_arg4, h_main_arg5, h_main_arg6, h_main_v0, h_main_call0_v0⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v0,
    by after_results_simp; exact h_main_call0_v0,
    by after_results_simp; (try simp only [TRef.ofBuf, TRef.toBuf, cast_eq]); rfl⟩
theorem s4 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_4 V x0 x1 x2 x3 x4 x5 x6 → I0_5 ((TRef.unary (TRef.of (T := ⟨S_, .f32⟩) main_call0_cst_0) (TRef.of (T := ⟨S4x3x64x64x64, .f32⟩) main_call0_v1) (broadcastInDim S4x3x64x64x64 ![] bcast_S_S4x3x64x64x64)).result V) x0 x1 x2 x3 x4 x5 x6 :=
  fun ⟨h_main_arg0, h_main_arg1, h_main_arg2, h_main_arg3, h_main_arg4, h_main_arg5, h_main_arg6, h_main_v0, h_main_call0_v0, h_main_call0_cst_0⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v0,
    by after_results_simp; exact h_main_call0_v0,
    by after_results_simp; (try simp only [TRef.ofBuf, TRef.toBuf, cast_eq]); rw [h_main_call0_cst_0]; rfl⟩
theorem s5 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_5 V x0 x1 x2 x3 x4 x5 x6 → I0_6 ((TRef.binary (TRef.of (T := ⟨S4x3x64x64x64, .f32⟩) main_call0_v1) (TRef.of (T := ⟨S4x3x64x64x64, .f32⟩) main_call0_v0) (TRef.of (T := ⟨S4x3x64x64x64, .f32⟩) main_call0_v2) maximumf).result V) x0 x1 x2 x3 x4 x5 x6 :=
  fun ⟨h_main_arg0, h_main_arg1, h_main_arg2, h_main_arg3, h_main_arg4, h_main_arg5, h_main_arg6, h_main_v0, h_main_call0_v0, h_main_call0_v1⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v0,
    by after_results_simp; (try simp only [TRef.ofBuf, TRef.toBuf, cast_eq]); rw [h_main_call0_v1, h_main_call0_v0]; rfl⟩
theorem s6 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_6 V x0 x1 x2 x3 x4 x5 x6 → I0_7 ((TRef.unary (TRef.of (T := ⟨S4x3x64x64x64, .f32⟩) main_call0_v2) (TRef.of (T := ⟨S4x1x3x64x64x64, .f32⟩) main_call0_v3) (broadcastInDim S4x1x3x64x64x64 ![0, 2, 3, 4, 5] bcast_S4x3x64x64x64_S4x1x3x64x64x64_0_2_3_4_5)).result V) x0 x1 x2 x3 x4 x5 x6 :=
  fun ⟨h_main_arg0, h_main_arg1, h_main_arg2, h_main_arg3, h_main_arg4, h_main_arg5, h_main_arg6, h_main_v0, h_main_call0_v2⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v0,
    by after_results_simp; (try simp only [TRef.ofBuf, TRef.toBuf, cast_eq]); rw [h_main_call0_v2]; rfl⟩
theorem s7 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_7 V x0 x1 x2 x3 x4 x5 x6 → I0_8 ((TRef.unary (TRef.of (T := ⟨S4x1x3x64x64x64, .f32⟩) main_call0_v3) (TRef.of (T := ⟨S4x3x3x64x64x64, .f32⟩) main_call0_v4) (broadcastInDim S4x3x3x64x64x64 ![0, 1, 2, 3, 4, 5] bcast_S4x1x3x64x64x64_S4x3x3x64x64x64_0_1_2_3_4_5)).result V) x0 x1 x2 x3 x4 x5 x6 :=
  fun ⟨h_main_arg0, h_main_arg1, h_main_arg2, h_main_arg3, h_main_arg4, h_main_arg5, h_main_arg6, h_main_v0, h_main_call0_v3⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v0,
    by after_results_simp; (try simp only [TRef.ofBuf, TRef.toBuf, cast_eq]); rw [h_main_call0_v3]; rfl⟩
theorem s8 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_8 V x0 x1 x2 x3 x4 x5 x6 → I0_9 ((TRef.binary (TRef.of (T := ⟨S4x3x3x64x64x64, .f32⟩) main_v0) (TRef.of (T := ⟨S4x3x3x64x64x64, .f32⟩) main_call0_v4) (TRef.of (T := ⟨S4x3x3x64x64x64, .f32⟩) main_call0_v5) subf).result V) x0 x1 x2 x3 x4 x5 x6 :=
  fun ⟨h_main_arg0, h_main_arg1, h_main_arg2, h_main_arg3, h_main_arg4, h_main_arg5, h_main_arg6, h_main_v0, h_main_call0_v4⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; (try simp only [TRef.ofBuf, TRef.toBuf, cast_eq]); rw [h_main_v0, h_main_call0_v4]; rfl⟩
theorem s9 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_9 V x0 x1 x2 x3 x4 x5 x6 → I0_10 ((TRef.unary (TRef.of (T := ⟨S4x3x3x64x64x64, .f32⟩) main_call0_v5) (TRef.of (T := ⟨S4x3x3x64x64x64, .f32⟩) main_call0_v6) Host.exp).result V) x0 x1 x2 x3 x4 x5 x6 :=
  fun ⟨h_main_arg0, h_main_arg1, h_main_arg2, h_main_arg3, h_main_arg4, h_main_arg5, h_main_arg6, h_main_call0_v5⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_call0_v5,
    by after_results_simp; (try simp only [TRef.ofBuf, TRef.toBuf, cast_eq]); rw [h_main_call0_v5]; rfl⟩
theorem s10 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_10 V x0 x1 x2 x3 x4 x5 x6 → I0_11 ((TRef.nullary (TRef.of (T := ⟨S_, .f32⟩) main_call0_cst_1) (constant S_ .f32 0x00000000#32)).result V) x0 x1 x2 x3 x4 x5 x6 :=
  fun ⟨h_main_arg0, h_main_arg1, h_main_arg2, h_main_arg3, h_main_arg4, h_main_arg5, h_main_arg6, h_main_call0_v5, h_main_call0_v6⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_call0_v5,
    by after_results_simp; exact h_main_call0_v6,
    by after_results_simp; (try simp only [TRef.ofBuf, TRef.toBuf, cast_eq]); rfl⟩
theorem s11 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_11 V x0 x1 x2 x3 x4 x5 x6 → I0_12 ((TRef.binary (TRef.of (T := ⟨S4x3x3x64x64x64, .f32⟩) main_call0_v6) (TRef.of (T := ⟨S_, .f32⟩) main_call0_cst_1) (TRef.of (T := ⟨S4x3x64x64x64, .f32⟩) main_call0_v7) (fun x v => Host.reduceAdd x v reducesTo_S4x3x3x64x64x64_S4x3x64x64x64_d1 h_S_)).result V) x0 x1 x2 x3 x4 x5 x6 :=
  fun ⟨h_main_arg0, h_main_arg1, h_main_arg2, h_main_arg3, h_main_arg4, h_main_arg5, h_main_arg6, h_main_call0_v5, h_main_call0_v6, h_main_call0_cst_1⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_call0_v5,
    by after_results_simp; (try simp only [TRef.ofBuf, TRef.toBuf, cast_eq]); rw [h_main_call0_v6, h_main_call0_cst_1]; rfl⟩
theorem s12 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_12 V x0 x1 x2 x3 x4 x5 x6 → I0_13 ((TRef.unary (TRef.of (T := ⟨S4x3x64x64x64, .f32⟩) main_call0_v7) (TRef.of (T := ⟨S4x1x3x64x64x64, .f32⟩) main_call0_v8) (broadcastInDim S4x1x3x64x64x64 ![0, 2, 3, 4, 5] bcast_S4x3x64x64x64_S4x1x3x64x64x64_0_2_3_4_5)).result V) x0 x1 x2 x3 x4 x5 x6 :=
  fun ⟨h_main_arg0, h_main_arg1, h_main_arg2, h_main_arg3, h_main_arg4, h_main_arg5, h_main_arg6, h_main_call0_v5, h_main_call0_v7⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_call0_v5,
    by after_results_simp; (try simp only [TRef.ofBuf, TRef.toBuf, cast_eq]); rw [h_main_call0_v7]; rfl⟩
theorem s13 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_13 V x0 x1 x2 x3 x4 x5 x6 → I0_14 ((TRef.unary (TRef.of (T := ⟨S4x1x3x64x64x64, .f32⟩) main_call0_v8) (TRef.of (T := ⟨S4x1x3x64x64x64, .f32⟩) main_call0_v9) Host.log).result V) x0 x1 x2 x3 x4 x5 x6 :=
  fun ⟨h_main_arg0, h_main_arg1, h_main_arg2, h_main_arg3, h_main_arg4, h_main_arg5, h_main_arg6, h_main_call0_v5, h_main_call0_v8⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_call0_v5,
    by after_results_simp; (try simp only [TRef.ofBuf, TRef.toBuf, cast_eq]); rw [h_main_call0_v8]; rfl⟩
theorem s14 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_14 V x0 x1 x2 x3 x4 x5 x6 → I0_15 ((TRef.unary (TRef.of (T := ⟨S4x1x3x64x64x64, .f32⟩) main_call0_v9) (TRef.of (T := ⟨S4x3x3x64x64x64, .f32⟩) main_call0_v10) (broadcastInDim S4x3x3x64x64x64 ![0, 1, 2, 3, 4, 5] bcast_S4x1x3x64x64x64_S4x3x3x64x64x64_0_1_2_3_4_5)).result V) x0 x1 x2 x3 x4 x5 x6 :=
  fun ⟨h_main_arg0, h_main_arg1, h_main_arg2, h_main_arg3, h_main_arg4, h_main_arg5, h_main_arg6, h_main_call0_v5, h_main_call0_v9⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_call0_v5,
    by after_results_simp; (try simp only [TRef.ofBuf, TRef.toBuf, cast_eq]); rw [h_main_call0_v9]; rfl⟩
theorem s15 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_15 V x0 x1 x2 x3 x4 x5 x6 → I0_16 ((TRef.binary (TRef.of (T := ⟨S4x3x3x64x64x64, .f32⟩) main_call0_v5) (TRef.of (T := ⟨S4x3x3x64x64x64, .f32⟩) main_call0_v10) (TRef.of (T := ⟨S4x3x3x64x64x64, .f32⟩) main_v1) subf).result V) x0 x1 x2 x3 x4 x5 x6 :=
  fun ⟨h_main_arg0, h_main_arg1, h_main_arg2, h_main_arg3, h_main_arg4, h_main_arg5, h_main_arg6, h_main_call0_v5, h_main_call0_v10⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; (try simp only [TRef.ofBuf, TRef.toBuf, cast_eq]); rw [h_main_call0_v5, h_main_call0_v10]; rfl⟩
theorem s16 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_16 V x0 x1 x2 x3 x4 x5 x6 → I0_17 ((unary main_v1 main_v2 (Host.negf : (⟨S4x3x3x64x64x64, .f32⟩ : BufTy).Contents (Elt F) → (⟨S4x3x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v1⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v1,
    by after_results_simp; (try simp only [TRef.ofBuf, TRef.toBuf, cast_eq]); rw [h_main_v1]; rfl⟩
theorem s17 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_17 V x0 x1 x2 x3 x4 x5 x6 → I0_18 ((unary main_v1 main_v3 (Host.exp : (⟨S4x3x3x64x64x64, .f32⟩ : BufTy).Contents (Elt F) → (⟨S4x3x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v1, h_main_v2⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; (try simp only [TRef.ofBuf, TRef.toBuf, cast_eq]); rw [h_main_v1]; rfl⟩
theorem s18 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_18 V x0 x1 x2 x3 x4 x5 x6 → I0_19 ((unary main_v2 main_v4 ((extractStridedSlice S4x1x3x64x64x64 ![0, 0, 0, 0, 0, 0] · slices_S4x3x3x64x64x64_S4x1x3x64x64x64_0_0_0_0_0_0) : (⟨S4x3x3x64x64x64, .f32⟩ : BufTy).Contents (Elt F) → (⟨S4x1x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; (try simp only [TRef.ofBuf, TRef.toBuf, cast_eq]); rw [h_main_v2]; rfl⟩
theorem s19 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_19 V x0 x1 x2 x3 x4 x5 x6 → I0_20 ((reshape main_v4 main_v5 rfl shapeCasts_S4x1x3x64x64x64_S4x3x64x64x64).result V) x0 x1 x2 x3 x4 x5 x6 :=
  fun ⟨h_main_arg0, h_main_arg1, h_main_arg2, h_main_arg3, h_main_arg4, h_main_arg5, h_main_arg6, h_main_v2, h_main_v3, h_main_v4⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; (try simp only [TRef.ofBuf, TRef.toBuf, cast_eq]); rw [h_main_v4]; rfl⟩
theorem s20 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_20 V x0 x1 x2 x3 x4 x5 x6 → I0_21 ((unary main_v3 main_v6 ((extractStridedSlice S4x1x3x64x64x64 ![0, 0, 0, 0, 0, 0] · slices_S4x3x3x64x64x64_S4x1x3x64x64x64_0_0_0_0_0_0) : (⟨S4x3x3x64x64x64, .f32⟩ : BufTy).Contents (Elt F) → (⟨S4x1x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; (try simp only [TRef.ofBuf, TRef.toBuf, cast_eq]); rw [h_main_v3]; rfl⟩
theorem s21 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_21 V x0 x1 x2 x3 x4 x5 x6 → I0_22 ((reshape main_v6 main_v7 rfl shapeCasts_S4x1x3x64x64x64_S4x3x64x64x64).result V) x0 x1 x2 x3 x4 x5 x6 :=
  fun ⟨h_main_arg0, h_main_arg1, h_main_arg2, h_main_arg3, h_main_arg4, h_main_arg5, h_main_arg6, h_main_v2, h_main_v3, h_main_v5, h_main_v6⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; (try simp only [TRef.ofBuf, TRef.toBuf, cast_eq]); rw [h_main_v6]; rfl⟩
theorem s22 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_22 V x0 x1 x2 x3 x4 x5 x6 → I0_23 ((nullary main_cst (constant S_ .f32 0xBF800000#32)).result V) x0 x1 x2 x3 x4 x5 x6 :=
  fun ⟨h_main_arg0, h_main_arg1, h_main_arg2, h_main_arg3, h_main_arg4, h_main_arg5, h_main_arg6, h_main_v2, h_main_v3, h_main_v5, h_main_v7⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v7,
    by after_results_simp; (try simp only [TRef.ofBuf, TRef.toBuf, cast_eq]); rfl⟩
theorem s23 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_23 V x0 x1 x2 x3 x4 x5 x6 → I0_24 ((unary main_cst main_v8 (broadcastInDim S4x3x64x64x64 ![] bcast_S_S4x3x64x64x64 : (⟨S_, .f32⟩ : BufTy).Contents (Elt F) → (⟨S4x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v7, h_main_cst⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v7,
    by after_results_simp; (try simp only [TRef.ofBuf, TRef.toBuf, cast_eq]); rw [h_main_cst]; rfl⟩
theorem s24 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_24 V x0 x1 x2 x3 x4 x5 x6 → I0_25 ((binary main_arg2 main_v8 main_v9 (cmpf .oeq : (⟨S4x3x64x64x64, .f32⟩ : BufTy).Contents (Elt F) → (⟨S4x3x64x64x64, .f32⟩ : BufTy).Contents (Elt F) → (⟨S4x3x64x64x64, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v7, h_main_v8⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v7,
    by after_results_simp; (try simp only [TRef.ofBuf, TRef.toBuf, cast_eq]); rw [h_main_arg2, h_main_v8]; rfl⟩
theorem s25 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_25 V x0 x1 x2 x3 x4 x5 x6 → I0_26 ((unary main_v9 main_v10 (uitofp .f32 : (⟨S4x3x64x64x64, .i1⟩ : BufTy).Contents (Elt F) → (⟨S4x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v7, h_main_v9⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v7,
    by after_results_simp; (try simp only [TRef.ofBuf, TRef.toBuf, cast_eq]); rw [h_main_v9]; rfl⟩
theorem s26 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_26 V x0 x1 x2 x3 x4 x5 x6 → I0_27 ((nullary main_cst_0 (constant S_ .f32 0xFF800000#32)).result V) x0 x1 x2 x3 x4 x5 x6 :=
  fun ⟨h_main_arg0, h_main_arg1, h_main_arg2, h_main_arg3, h_main_arg4, h_main_arg5, h_main_arg6, h_main_v2, h_main_v3, h_main_v5, h_main_v7, h_main_v10⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v7,
    by after_results_simp; exact h_main_v10,
    by after_results_simp; (try simp only [TRef.ofBuf, TRef.toBuf, cast_eq]); rfl⟩
theorem s27 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_27 V x0 x1 x2 x3 x4 x5 x6 → I0_28 ((unary main_cst_0 main_v11 (broadcastInDim S_ ![] bcast_S_S_ : (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v7, h_main_v10, h_main_cst_0⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v7,
    by after_results_simp; exact h_main_v10,
    by after_results_simp; (try simp only [TRef.ofBuf, TRef.toBuf, cast_eq]); rw [h_main_cst_0]; rfl⟩
theorem s28 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_28 V x0 x1 x2 x3 x4 x5 x6 → I0_29 ((binary main_v5 main_v11 main_v12 ((fun x v => Host.reduceWindow FloatOps.maximumf ![1, 1, 3, 3, 3] ![1, 1, 1, 1, 1] ![0, 0, 1, 1, 1] ![0, 0, 1, 1, 1] x v reduceWindows_S4x3x64x64x64_S4x3x64x64x64_w1s1p0_0_w1s1p0_0_w3s1p1_1_w3s1p1_1_w3s1p1_1 h_S_) : (⟨S4x3x64x64x64, .f32⟩ : BufTy).Contents (Elt F) → (⟨S_, .f32⟩ : BufTy).Contents (Elt F) → (⟨S4x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v7, h_main_v10, h_main_v11⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v7,
    by after_results_simp; exact h_main_v10,
    by after_results_simp; (try simp only [TRef.ofBuf, TRef.toBuf, cast_eq]); rw [h_main_v5, h_main_v11]; rfl⟩
theorem s29 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_29 V x0 x1 x2 x3 x4 x5 x6 → I0_30 ((binary main_v12 main_v5 main_v13 (cmpf .oeq : (⟨S4x3x64x64x64, .f32⟩ : BufTy).Contents (Elt F) → (⟨S4x3x64x64x64, .f32⟩ : BufTy).Contents (Elt F) → (⟨S4x3x64x64x64, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v7, h_main_v10, h_main_v12⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v7,
    by after_results_simp; exact h_main_v10,
    by after_results_simp; (try simp only [TRef.ofBuf, TRef.toBuf, cast_eq]); rw [h_main_v12, h_main_v5]; rfl⟩
theorem s30 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_30 V x0 x1 x2 x3 x4 x5 x6 → I0_31 ((unary main_v13 main_v14 (uitofp .f32 : (⟨S4x3x64x64x64, .i1⟩ : BufTy).Contents (Elt F) → (⟨S4x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v7, h_main_v10, h_main_v13⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v7,
    by after_results_simp; exact h_main_v10,
    by after_results_simp; (try simp only [TRef.ofBuf, TRef.toBuf, cast_eq]); rw [h_main_v13]; rfl⟩
theorem s31 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_31 V x0 x1 x2 x3 x4 x5 x6 → I0_32 ((binary main_v10 main_v14 main_v15 (mulf : (⟨S4x3x64x64x64, .f32⟩ : BufTy).Contents (Elt F) → (⟨S4x3x64x64x64, .f32⟩ : BufTy).Contents (Elt F) → (⟨S4x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v7, h_main_v10, h_main_v14⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v7,
    by after_results_simp; (try simp only [TRef.ofBuf, TRef.toBuf, cast_eq]); rw [h_main_v10, h_main_v14]; rfl⟩
theorem s32 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_32 V x0 x1 x2 x3 x4 x5 x6 → I0_33 ((nullary main_cst_1 (constant S_ .f32 0x3F800000#32)).result V) x0 x1 x2 x3 x4 x5 x6 :=
  fun ⟨h_main_arg0, h_main_arg1, h_main_arg2, h_main_arg3, h_main_arg4, h_main_arg5, h_main_arg6, h_main_v2, h_main_v3, h_main_v5, h_main_v7, h_main_v15⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v7,
    by after_results_simp; exact h_main_v15,
    by after_results_simp; (try simp only [TRef.ofBuf, TRef.toBuf, cast_eq]); rfl⟩
theorem s33 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_33 V x0 x1 x2 x3 x4 x5 x6 → I0_34 ((unary main_cst_1 main_v16 (broadcastInDim S4x3x64x64x64 ![] bcast_S_S4x3x64x64x64 : (⟨S_, .f32⟩ : BufTy).Contents (Elt F) → (⟨S4x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v7, h_main_v15, h_main_cst_1⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v7,
    by after_results_simp; exact h_main_v15,
    by after_results_simp; (try simp only [TRef.ofBuf, TRef.toBuf, cast_eq]); rw [h_main_cst_1]; rfl⟩
theorem s34 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_34 V x0 x1 x2 x3 x4 x5 x6 → I0_35 ((binary main_v16 main_v7 main_v17 (subf : (⟨S4x3x64x64x64, .f32⟩ : BufTy).Contents (Elt F) → (⟨S4x3x64x64x64, .f32⟩ : BufTy).Contents (Elt F) → (⟨S4x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v7, h_main_v15, h_main_v16⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v15,
    by after_results_simp; (try simp only [TRef.ofBuf, TRef.toBuf, cast_eq]); rw [h_main_v16, h_main_v7]; rfl⟩
theorem s35 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_35 V x0 x1 x2 x3 x4 x5 x6 → I0_36 ((binary main_v17 main_v17 main_v18 (mulf : (⟨S4x3x64x64x64, .f32⟩ : BufTy).Contents (Elt F) → (⟨S4x3x64x64x64, .f32⟩ : BufTy).Contents (Elt F) → (⟨S4x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v15, h_main_v17⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; exact h_main_v15,
    by after_results_simp; (try simp only [TRef.ofBuf, TRef.toBuf, cast_eq]); rw [h_main_v17]; rfl⟩
theorem s36 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_36 V x0 x1 x2 x3 x4 x5 x6 → I0_37 ((binary main_v18 main_v15 main_v19 (mulf : (⟨S4x3x64x64x64, .f32⟩ : BufTy).Contents (Elt F) → (⟨S4x3x64x64x64, .f32⟩ : BufTy).Contents (Elt F) → (⟨S4x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v15, h_main_v18⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v5,
    by after_results_simp; (try simp only [TRef.ofBuf, TRef.toBuf, cast_eq]); rw [h_main_v18, h_main_v15]; rfl⟩
theorem s37 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_37 V x0 x1 x2 x3 x4 x5 x6 → I0_38 ((binary main_v5 main_v19 main_v20 (mulf : (⟨S4x3x64x64x64, .f32⟩ : BufTy).Contents (Elt F) → (⟨S4x3x64x64x64, .f32⟩ : BufTy).Contents (Elt F) → (⟨S4x3x64x64x64, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v5, h_main_v19⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v19,
    by after_results_simp; (try simp only [TRef.ofBuf, TRef.toBuf, cast_eq]); rw [h_main_v5, h_main_v19]; rfl⟩
theorem s38 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_38 V x0 x1 x2 x3 x4 x5 x6 → I0_39 ((nullary main_cst_2 (constant S_ .f32 0x00000000#32)).result V) x0 x1 x2 x3 x4 x5 x6 :=
  fun ⟨h_main_arg0, h_main_arg1, h_main_arg2, h_main_arg3, h_main_arg4, h_main_arg5, h_main_arg6, h_main_v2, h_main_v3, h_main_v19, h_main_v20⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v19,
    by after_results_simp; exact h_main_v20,
    by after_results_simp; (try simp only [TRef.ofBuf, TRef.toBuf, cast_eq]); rfl⟩
theorem s39 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_39 V x0 x1 x2 x3 x4 x5 x6 → I0_40 ((binary main_v20 main_cst_2 main_v21 ((fun x v => Host.reduceAdd x v reducesTo_S4x3x64x64x64_S_d0_1_2_3_4 h_S_) : (⟨S4x3x64x64x64, .f32⟩ : BufTy).Contents (Elt F) → (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v19, h_main_v20, h_main_cst_2⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v19,
    by after_results_simp; (try simp only [TRef.ofBuf, TRef.toBuf, cast_eq]); rw [h_main_v20, h_main_cst_2]; rfl⟩
theorem s40 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_40 V x0 x1 x2 x3 x4 x5 x6 → I0_41 ((nullary main_cst_3 (constant S_ .f32 0x00000000#32)).result V) x0 x1 x2 x3 x4 x5 x6 :=
  fun ⟨h_main_arg0, h_main_arg1, h_main_arg2, h_main_arg3, h_main_arg4, h_main_arg5, h_main_arg6, h_main_v2, h_main_v3, h_main_v19, h_main_v21⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v19,
    by after_results_simp; exact h_main_v21,
    by after_results_simp; (try simp only [TRef.ofBuf, TRef.toBuf, cast_eq]); rfl⟩
theorem s41 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_41 V x0 x1 x2 x3 x4 x5 x6 → I0_42 ((binary main_v19 main_cst_3 main_v22 ((fun x v => Host.reduceAdd x v reducesTo_S4x3x64x64x64_S_d0_1_2_3_4 h_S_) : (⟨S4x3x64x64x64, .f32⟩ : BufTy).Contents (Elt F) → (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v19, h_main_v21, h_main_cst_3⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; (try simp only [TRef.ofBuf, TRef.toBuf, cast_eq]); rw [h_main_v19, h_main_cst_3]; rfl⟩
theorem s42 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_42 V x0 x1 x2 x3 x4 x5 x6 → I0_43 ((unary main_arg4 main_v23 ((extractStridedSlice S4x128x1 ![0, 0, 0] · slices_S4x128x4_S4x128x1_0_0_0) : (⟨S4x128x4, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; (try simp only [TRef.ofBuf, TRef.toBuf, cast_eq]); rw [h_main_arg4]; rfl⟩
theorem s43 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_43 V x0 x1 x2 x3 x4 x5 x6 → I0_44 ((reshape main_v23 main_v24 rfl shapeCasts_S4x128x1_S4x128).result V) x0 x1 x2 x3 x4 x5 x6 :=
  fun ⟨h_main_arg0, h_main_arg1, h_main_arg2, h_main_arg3, h_main_arg4, h_main_arg5, h_main_arg6, h_main_v2, h_main_v3, h_main_v21, h_main_v22, h_main_v23⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; (try simp only [TRef.ofBuf, TRef.toBuf, cast_eq]); rw [h_main_v23]; rfl⟩
theorem s44 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_44 V x0 x1 x2 x3 x4 x5 x6 → I0_45 ((nullary main_c (constantI S_ 32 4294967295#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v24⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v24,
    by after_results_simp; (try simp only [TRef.ofBuf, TRef.toBuf, cast_eq]); rfl⟩
theorem s45 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_45 V x0 x1 x2 x3 x4 x5 x6 → I0_46 ((unary main_c main_v25 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v24, h_main_c⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v24,
    by after_results_simp; (try simp only [TRef.ofBuf, TRef.toBuf, cast_eq]); rw [h_main_c]; rfl⟩
theorem s46 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_46 V x0 x1 x2 x3 x4 x5 x6 → I0_47 ((binary main_v24 main_v25 main_v26 (cmpi .sgt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v24, h_main_v25⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; (try simp only [TRef.ofBuf, TRef.toBuf, cast_eq]); rw [h_main_v24, h_main_v25]; rfl⟩
theorem s47 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_47 V x0 x1 x2 x3 x4 x5 x6 → I0_48 ((unary main_v26 main_v27 (broadcastInDim S4x128x1 ![0, 1] bcast_S4x128_S4x128x1_0_1 : (⟨S4x128, .i1⟩ : BufTy).Contents (Elt F) → (⟨S4x128x1, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; (try simp only [TRef.ofBuf, TRef.toBuf, cast_eq]); rw [h_main_v26]; rfl⟩
theorem s48 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_48 V x0 x1 x2 x3 x4 x5 x6 → I0_49 ((nullary main_c_4 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v27⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v27,
    by after_results_simp; (try simp only [TRef.ofBuf, TRef.toBuf, cast_eq]); rfl⟩
theorem s49 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_49 V x0 x1 x2 x3 x4 x5 x6 → I0_50 ((TRef.unary (TRef.of (T := ⟨S_, .i32⟩) main_c_4) (TRef.of (T := ⟨S_, .i32⟩) main_call1_v0) id).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v27, h_main_c_4⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v27,
    by after_results_simp; (try simp only [TRef.ofBuf, TRef.toBuf, cast_eq]); rw [h_main_c_4]; rfl⟩
theorem s50 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_50 V x0 x1 x2 x3 x4 x5 x6 → I0_51 ((TRef.unary (TRef.of (T := ⟨S4x128x1, .i1⟩) main_v27) (TRef.of (T := ⟨S4x128x4, .i1⟩) main_call1_v1) (broadcastInDim S4x128x4 ![0, 1, 2] bcast_S4x128x1_S4x128x4_0_1_2)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v27, h_main_call1_v0⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_call1_v0,
    by after_results_simp; (try simp only [TRef.ofBuf, TRef.toBuf, cast_eq]); rw [h_main_v27]; rfl⟩
theorem s51 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_51 V x0 x1 x2 x3 x4 x5 x6 → I0_52 ((TRef.unary (TRef.of (T := ⟨S_, .i32⟩) main_call1_v0) (TRef.of (T := ⟨S4x128x4, .i32⟩) main_call1_v2) (broadcastInDim S4x128x4 ![] bcast_S_S4x128x4)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_call1_v0, h_main_call1_v1⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_call1_v1,
    by after_results_simp; (try simp only [TRef.ofBuf, TRef.toBuf, cast_eq]); rw [h_main_call1_v0]; rfl⟩
theorem s52 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_52 V x0 x1 x2 x3 x4 x5 x6 → I0_53 ((TRef.ternary (TRef.of (T := ⟨S4x128x4, .i1⟩) main_call1_v1) (TRef.of (T := ⟨S4x128x4, .i32⟩) main_arg4) (TRef.of (T := ⟨S4x128x4, .i32⟩) main_call1_v2) (TRef.of (T := ⟨S4x128x4, .i32⟩) main_v28) select).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_call1_v1, h_main_call1_v2⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; (try simp only [TRef.ofBuf, TRef.toBuf, cast_eq]); rw [h_main_arg4, h_main_call1_v1, h_main_call1_v2]; rfl⟩
theorem s53 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_53 V x0 x1 x2 x3 x4 x5 x6 → I0_54 ((unary main_v28 main_v29 ((extractStridedSlice S4x128x1 ![0, 0, 0] · slices_S4x128x4_S4x128x1_0_0_0) : (⟨S4x128x4, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v28⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v28,
    by after_results_simp; (try simp only [TRef.ofBuf, TRef.toBuf, cast_eq]); rw [h_main_v28]; rfl⟩
theorem s54 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_54 V x0 x1 x2 x3 x4 x5 x6 → I0_55 ((reshape main_v29 main_v30 rfl shapeCasts_S4x128x1_S4x128).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v28, h_main_v29⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v28,
    by after_results_simp; (try simp only [TRef.ofBuf, TRef.toBuf, cast_eq]); rw [h_main_v29]; rfl⟩
theorem s55 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_55 V x0 x1 x2 x3 x4 x5 x6 → I0_56 ((unary main_v28 main_v31 ((extractStridedSlice S4x128x1 ![0, 0, 1] · slices_S4x128x4_S4x128x1_0_0_1) : (⟨S4x128x4, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v28, h_main_v30⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v28,
    by after_results_simp; exact h_main_v30,
    by after_results_simp; (try simp only [TRef.ofBuf, TRef.toBuf, cast_eq]); rw [h_main_v28]; rfl⟩
theorem s56 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_56 V x0 x1 x2 x3 x4 x5 x6 → I0_57 ((reshape main_v31 main_v32 rfl shapeCasts_S4x128x1_S4x128).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v28, h_main_v30, h_main_v31⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v28,
    by after_results_simp; exact h_main_v30,
    by after_results_simp; (try simp only [TRef.ofBuf, TRef.toBuf, cast_eq]); rw [h_main_v31]; rfl⟩
theorem s57 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_57 V x0 x1 x2 x3 x4 x5 x6 → I0_58 ((unary main_v28 main_v33 ((extractStridedSlice S4x128x1 ![0, 0, 2] · slices_S4x128x4_S4x128x1_0_0_2) : (⟨S4x128x4, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v28, h_main_v30, h_main_v32⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v28,
    by after_results_simp; exact h_main_v30,
    by after_results_simp; exact h_main_v32,
    by after_results_simp; (try simp only [TRef.ofBuf, TRef.toBuf, cast_eq]); rw [h_main_v28]; rfl⟩
theorem s58 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_58 V x0 x1 x2 x3 x4 x5 x6 → I0_59 ((reshape main_v33 main_v34 rfl shapeCasts_S4x128x1_S4x128).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v28, h_main_v30, h_main_v32, h_main_v33⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v28,
    by after_results_simp; exact h_main_v30,
    by after_results_simp; exact h_main_v32,
    by after_results_simp; (try simp only [TRef.ofBuf, TRef.toBuf, cast_eq]); rw [h_main_v33]; rfl⟩
theorem s59 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_59 V x0 x1 x2 x3 x4 x5 x6 → I0_60 ((unary main_v28 main_v35 ((extractStridedSlice S4x128x1 ![0, 0, 3] · slices_S4x128x4_S4x128x1_0_0_3) : (⟨S4x128x4, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v28, h_main_v30, h_main_v32, h_main_v34⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; (try simp only [TRef.ofBuf, TRef.toBuf, cast_eq]); rw [h_main_v28]; rfl⟩
theorem s60 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_60 V x0 x1 x2 x3 x4 x5 x6 → I0_61 ((reshape main_v35 main_v36 rfl shapeCasts_S4x128x1_S4x128).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v35⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; (try simp only [TRef.ofBuf, TRef.toBuf, cast_eq]); rw [h_main_v35]; rfl⟩
theorem s61 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_61 V x0 x1 x2 x3 x4 x5 x6 → I0_62 ((nullary main_v37 (iotaInDim S4 32 0)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; (try simp only [TRef.ofBuf, TRef.toBuf, cast_eq]); rfl⟩
theorem s62 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_62 V x0 x1 x2 x3 x4 x5 x6 → I0_63 ((unary main_v37 main_v38 (broadcastInDim S4x1 ![0] bcast_S4_S4x1_0 : (⟨S4, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v37⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; (try simp only [TRef.ofBuf, TRef.toBuf, cast_eq]); rw [h_main_v37]; rfl⟩
theorem s63 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_63 V x0 x1 x2 x3 x4 x5 x6 → I0_64 ((nullary main_c_5 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; (try simp only [TRef.ofBuf, TRef.toBuf, cast_eq]); rfl⟩
theorem s64 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_64 V x0 x1 x2 x3 x4 x5 x6 → I0_65 ((unary main_c_5 main_v39 (broadcastInDim S4x1 ![] bcast_S_S4x1 : (⟨S_, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_c_5⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; (try simp only [TRef.ofBuf, TRef.toBuf, cast_eq]); rw [h_main_c_5]; rfl⟩
theorem s65 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_65 V x0 x1 x2 x3 x4 x5 x6 → I0_66 ((binary main_v38 main_v39 main_v40 (cmpi .slt : (⟨S4x1, .i32⟩ : BufTy).Contents (Elt F) → (⟨S4x1, .i32⟩ : BufTy).Contents (Elt F) → (⟨S4x1, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v39⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; (try simp only [TRef.ofBuf, TRef.toBuf, cast_eq]); rw [h_main_v38, h_main_v39]; rfl⟩
theorem s66 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_66 V x0 x1 x2 x3 x4 x5 x6 → I0_67 ((nullary main_c_6 (constantI S_ 32 4#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v40⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v40,
    by after_results_simp; (try simp only [TRef.ofBuf, TRef.toBuf, cast_eq]); rfl⟩
theorem s67 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_67 V x0 x1 x2 x3 x4 x5 x6 → I0_68 ((unary main_c_6 main_v41 (broadcastInDim S4x1 ![] bcast_S_S4x1 : (⟨S_, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v40, h_main_c_6⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v40,
    by after_results_simp; (try simp only [TRef.ofBuf, TRef.toBuf, cast_eq]); rw [h_main_c_6]; rfl⟩
theorem s68 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_68 V x0 x1 x2 x3 x4 x5 x6 → I0_69 ((binary main_v38 main_v41 main_v42 (addi : (⟨S4x1, .i32⟩ : BufTy).Contents (Elt F) → (⟨S4x1, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v40, h_main_v41⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v40,
    by after_results_simp; (try simp only [TRef.ofBuf, TRef.toBuf, cast_eq]); rw [h_main_v38, h_main_v41]; rfl⟩
theorem s69 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_69 V x0 x1 x2 x3 x4 x5 x6 → I0_70 ((ternary main_v40 main_v42 main_v38 main_v43 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v40, h_main_v42⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; (try simp only [TRef.ofBuf, TRef.toBuf, cast_eq]); rw [h_main_v40, h_main_v42, h_main_v38]; rfl⟩
theorem s70 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_70 V x0 x1 x2 x3 x4 x5 x6 → I0_71 ((nullary main_c_7 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; (try simp only [TRef.ofBuf, TRef.toBuf, cast_eq]); rfl⟩
theorem s71 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_71 V x0 x1 x2 x3 x4 x5 x6 → I0_72 ((unary main_c_7 main_v44 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_c_7⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; (try simp only [TRef.ofBuf, TRef.toBuf, cast_eq]); rw [h_main_c_7]; rfl⟩
theorem s72 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_72 V x0 x1 x2 x3 x4 x5 x6 → I0_73 ((binary main_v30 main_v44 main_v45 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v44⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; (try simp only [TRef.ofBuf, TRef.toBuf, cast_eq]); rw [h_main_v30, h_main_v44]; rfl⟩
theorem s73 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_73 V x0 x1 x2 x3 x4 x5 x6 → I0_74 ((nullary main_c_8 (constantI S_ 32 3#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v45⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v45,
    by after_results_simp; (try simp only [TRef.ofBuf, TRef.toBuf, cast_eq]); rfl⟩
theorem s74 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_74 V x0 x1 x2 x3 x4 x5 x6 → I0_75 ((unary main_c_8 main_v46 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v45, h_main_c_8⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v45,
    by after_results_simp; (try simp only [TRef.ofBuf, TRef.toBuf, cast_eq]); rw [h_main_c_8]; rfl⟩
theorem s75 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_75 V x0 x1 x2 x3 x4 x5 x6 → I0_76 ((binary main_v30 main_v46 main_v47 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v45, h_main_v46⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v45,
    by after_results_simp; (try simp only [TRef.ofBuf, TRef.toBuf, cast_eq]); rw [h_main_v30, h_main_v46]; rfl⟩
theorem s76 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I0_76 V x0 x1 x2 x3 x4 x5 x6 → I0_77 ((ternary main_v45 main_v47 main_v30 main_v48 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v45, h_main_v47⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; (try simp only [TRef.ofBuf, TRef.toBuf, cast_eq]); rw [h_main_v45, h_main_v47, h_main_v30]; rfl⟩

set_option maxRecDepth 8192 in
set_option maxHeartbeats 4000000 in
/-- The window, from any contents. -/
theorem w0 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) (h0 : I0_0 V x0 x1 x2 x3 x4 x5 x6) : I0_77 (after ops_p0 V) x0 x1 x2 x3 x4 x5 x6 := by
  simp only [ops_p0, after_cons, after_nil]
  have h1 := s0 _ x0 x1 x2 x3 x4 x5 x6 h0
  have h2 := s1 _ x0 x1 x2 x3 x4 x5 x6 h1
  have h3 := s2 _ x0 x1 x2 x3 x4 x5 x6 h2
  have h4 := s3 _ x0 x1 x2 x3 x4 x5 x6 h3
  have h5 := s4 _ x0 x1 x2 x3 x4 x5 x6 h4
  have h6 := s5 _ x0 x1 x2 x3 x4 x5 x6 h5
  have h7 := s6 _ x0 x1 x2 x3 x4 x5 x6 h6
  have h8 := s7 _ x0 x1 x2 x3 x4 x5 x6 h7
  have h9 := s8 _ x0 x1 x2 x3 x4 x5 x6 h8
  have h10 := s9 _ x0 x1 x2 x3 x4 x5 x6 h9
  have h11 := s10 _ x0 x1 x2 x3 x4 x5 x6 h10
  have h12 := s11 _ x0 x1 x2 x3 x4 x5 x6 h11
  have h13 := s12 _ x0 x1 x2 x3 x4 x5 x6 h12
  have h14 := s13 _ x0 x1 x2 x3 x4 x5 x6 h13
  have h15 := s14 _ x0 x1 x2 x3 x4 x5 x6 h14
  have h16 := s15 _ x0 x1 x2 x3 x4 x5 x6 h15
  have h17 := s16 _ x0 x1 x2 x3 x4 x5 x6 h16
  have h18 := s17 _ x0 x1 x2 x3 x4 x5 x6 h17
  have h19 := s18 _ x0 x1 x2 x3 x4 x5 x6 h18
  have h20 := s19 _ x0 x1 x2 x3 x4 x5 x6 h19
  have h21 := s20 _ x0 x1 x2 x3 x4 x5 x6 h20
  have h22 := s21 _ x0 x1 x2 x3 x4 x5 x6 h21
  have h23 := s22 _ x0 x1 x2 x3 x4 x5 x6 h22
  have h24 := s23 _ x0 x1 x2 x3 x4 x5 x6 h23
  have h25 := s24 _ x0 x1 x2 x3 x4 x5 x6 h24
  have h26 := s25 _ x0 x1 x2 x3 x4 x5 x6 h25
  have h27 := s26 _ x0 x1 x2 x3 x4 x5 x6 h26
  have h28 := s27 _ x0 x1 x2 x3 x4 x5 x6 h27
  have h29 := s28 _ x0 x1 x2 x3 x4 x5 x6 h28
  have h30 := s29 _ x0 x1 x2 x3 x4 x5 x6 h29
  have h31 := s30 _ x0 x1 x2 x3 x4 x5 x6 h30
  have h32 := s31 _ x0 x1 x2 x3 x4 x5 x6 h31
  have h33 := s32 _ x0 x1 x2 x3 x4 x5 x6 h32
  have h34 := s33 _ x0 x1 x2 x3 x4 x5 x6 h33
  have h35 := s34 _ x0 x1 x2 x3 x4 x5 x6 h34
  have h36 := s35 _ x0 x1 x2 x3 x4 x5 x6 h35
  have h37 := s36 _ x0 x1 x2 x3 x4 x5 x6 h36
  have h38 := s37 _ x0 x1 x2 x3 x4 x5 x6 h37
  have h39 := s38 _ x0 x1 x2 x3 x4 x5 x6 h38
  have h40 := s39 _ x0 x1 x2 x3 x4 x5 x6 h39
  have h41 := s40 _ x0 x1 x2 x3 x4 x5 x6 h40
  have h42 := s41 _ x0 x1 x2 x3 x4 x5 x6 h41
  have h43 := s42 _ x0 x1 x2 x3 x4 x5 x6 h42
  have h44 := s43 _ x0 x1 x2 x3 x4 x5 x6 h43
  have h45 := s44 _ x0 x1 x2 x3 x4 x5 x6 h44
  have h46 := s45 _ x0 x1 x2 x3 x4 x5 x6 h45
  have h47 := s46 _ x0 x1 x2 x3 x4 x5 x6 h46
  have h48 := s47 _ x0 x1 x2 x3 x4 x5 x6 h47
  have h49 := s48 _ x0 x1 x2 x3 x4 x5 x6 h48
  have h50 := s49 _ x0 x1 x2 x3 x4 x5 x6 h49
  have h51 := s50 _ x0 x1 x2 x3 x4 x5 x6 h50
  have h52 := s51 _ x0 x1 x2 x3 x4 x5 x6 h51
  have h53 := s52 _ x0 x1 x2 x3 x4 x5 x6 h52
  have h54 := s53 _ x0 x1 x2 x3 x4 x5 x6 h53
  have h55 := s54 _ x0 x1 x2 x3 x4 x5 x6 h54
  have h56 := s55 _ x0 x1 x2 x3 x4 x5 x6 h55
  have h57 := s56 _ x0 x1 x2 x3 x4 x5 x6 h56
  have h58 := s57 _ x0 x1 x2 x3 x4 x5 x6 h57
  have h59 := s58 _ x0 x1 x2 x3 x4 x5 x6 h58
  have h60 := s59 _ x0 x1 x2 x3 x4 x5 x6 h59
  have h61 := s60 _ x0 x1 x2 x3 x4 x5 x6 h60
  have h62 := s61 _ x0 x1 x2 x3 x4 x5 x6 h61
  have h63 := s62 _ x0 x1 x2 x3 x4 x5 x6 h62
  have h64 := s63 _ x0 x1 x2 x3 x4 x5 x6 h63
  have h65 := s64 _ x0 x1 x2 x3 x4 x5 x6 h64
  have h66 := s65 _ x0 x1 x2 x3 x4 x5 x6 h65
  have h67 := s66 _ x0 x1 x2 x3 x4 x5 x6 h66
  have h68 := s67 _ x0 x1 x2 x3 x4 x5 x6 h67
  have h69 := s68 _ x0 x1 x2 x3 x4 x5 x6 h68
  have h70 := s69 _ x0 x1 x2 x3 x4 x5 x6 h69
  have h71 := s70 _ x0 x1 x2 x3 x4 x5 x6 h70
  have h72 := s71 _ x0 x1 x2 x3 x4 x5 x6 h71
  have h73 := s72 _ x0 x1 x2 x3 x4 x5 x6 h72
  have h74 := s73 _ x0 x1 x2 x3 x4 x5 x6 h73
  have h75 := s74 _ x0 x1 x2 x3 x4 x5 x6 h74
  have h76 := s75 _ x0 x1 x2 x3 x4 x5 x6 h75
  have h77 := s76 _ x0 x1 x2 x3 x4 x5 x6 h76
  exact h77

end Cert.Hand.RefRun

end
-- ==== Proof.Ref.RunP1.lean ====
/- Operations 77 … 138 of the reference program's straight line (its printed window 1): the list, the buffers it touches,
   and the window read one operation at a time: I1_k says which buffers hold which stage value after the first k
   operations of the whole line (the arguments x0 … x6, and every stage a later operation still reads); each operation
   takes I1_k to I1_(k+1): the buffer it writes gets its stage value (one unfolding of that stage), every other one is kept. -/
import proofs.«424358_j44040594653645_2_alg».proof.Proof.RefRead

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 77 … 138, in order. -/
abbrev ops_p1 : List (HloOp τ sig (Elt F)) :=
  [ nullary main_c_9 (constantI S_ 32 0#32),
    unary main_c_9 main_v49 (broadcastInDim S4x128 ![] bcast_S_S4x128 : (⟨S_, .i32⟩ : BufTy).Contents (Elt F) → (⟨S4x128, .i32⟩ : BufTy).Contents (Elt F)),
    binary main_v32 main_v49 main_v50 (cmpi .slt : (⟨S4x128, .i32⟩ : BufTy).Contents (Elt F) → (⟨S4x128, .i32⟩ : BufTy).Contents (Elt F) → (⟨S4x128, .i1⟩ : BufTy).Contents (Elt F)),
    nullary main_c_10 (constantI S_ 32 64#32),
    unary main_c_10 main_v51 (broadcastInDim S4x128 ![] bcast_S_S4x128 : (⟨S_, .i32⟩ : BufTy).Contents (Elt F) → (⟨S4x128, .i32⟩ : BufTy).Contents (Elt F)),
    binary main_v32 main_v51 main_v52 (addi : (⟨S4x128, .i32⟩ : BufTy).Contents (Elt F) → (⟨S4x128, .i32⟩ : BufTy).Contents (Elt F) → (⟨S4x128, .i32⟩ : BufTy).Contents (Elt F)),
    ternary main_v50 main_v52 main_v32 main_v53 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_11 (constantI S_ 32 0#32),
    unary main_c_11 main_v54 (broadcastInDim S4x128 ![] bcast_S_S4x128 : (⟨S_, .i32⟩ : BufTy).Contents (Elt F) → (⟨S4x128, .i32⟩ : BufTy).Contents (Elt F)),
    binary main_v34 main_v54 main_v55 (cmpi .slt : (⟨S4x128, .i32⟩ : BufTy).Contents (Elt F) → (⟨S4x128, .i32⟩ : BufTy).Contents (Elt F) → (⟨S4x128, .i1⟩ : BufTy).Contents (Elt F)),
    nullary main_c_12 (constantI S_ 32 64#32),
    unary main_c_12 main_v56 (broadcastInDim S4x128 ![] bcast_S_S4x128 : (⟨S_, .i32⟩ : BufTy).Contents (Elt F) → (⟨S4x128, .i32⟩ : BufTy).Contents (Elt F)),
    binary main_v34 main_v56 main_v57 (addi : (⟨S4x128, .i32⟩ : BufTy).Contents (Elt F) → (⟨S4x128, .i32⟩ : BufTy).Contents (Elt F) → (⟨S4x128, .i32⟩ : BufTy).Contents (Elt F)),
    ternary main_v55 main_v57 main_v34 main_v58 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_13 (constantI S_ 32 0#32),
    unary main_c_13 main_v59 (broadcastInDim S4x128 ![] bcast_S_S4x128 : (⟨S_, .i32⟩ : BufTy).Contents (Elt F) → (⟨S4x128, .i32⟩ : BufTy).Contents (Elt F)),
    binary main_v36 main_v59 main_v60 (cmpi .slt : (⟨S4x128, .i32⟩ : BufTy).Contents (Elt F) → (⟨S4x128, .i32⟩ : BufTy).Contents (Elt F) → (⟨S4x128, .i1⟩ : BufTy).Contents (Elt F)),
    nullary main_c_14 (constantI S_ 32 64#32),
    unary main_c_14 main_v61 (broadcastInDim S4x128 ![] bcast_S_S4x128 : (⟨S_, .i32⟩ : BufTy).Contents (Elt F) → (⟨S4x128, .i32⟩ : BufTy).Contents (Elt F)),
    binary main_v36 main_v61 main_v62 (addi : (⟨S4x128, .i32⟩ : BufTy).Contents (Elt F) → (⟨S4x128, .i32⟩ : BufTy).Contents (Elt F) → (⟨S4x128, .i32⟩ : BufTy).Contents (Elt F)),
    ternary main_v60 main_v62 main_v36 main_v63 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    unary main_v43 main_v64 (broadcastInDim S4x128 ![0, 1] bcast_S4x1_S4x128_0_1 : (⟨S4x1, .i32⟩ : BufTy).Contents (Elt F) → (⟨S4x128, .i32⟩ : BufTy).Contents (Elt F)),
    unary main_v64 main_v65 (broadcastInDim S4x128x1 ![0, 1] bcast_S4x128_S4x128x1_0_1 : (⟨S4x128, .i32⟩ : BufTy).Contents (Elt F) → (⟨S4x128x1, .i32⟩ : BufTy).Contents (Elt F)),
    unary main_v48 main_v66 (broadcastInDim S4x128x1 ![0, 1] bcast_S4x128_S4x128x1_0_1 : (⟨S4x128, .i32⟩ : BufTy).Contents (Elt F) → (⟨S4x128x1, .i32⟩ : BufTy).Contents (Elt F)),
    unary main_v53 main_v67 (broadcastInDim S4x128x1 ![0, 1] bcast_S4x128_S4x128x1_0_1 : (⟨S4x128, .i32⟩ : BufTy).Contents (Elt F) → (⟨S4x128x1, .i32⟩ : BufTy).Contents (Elt F)),
    unary main_v58 main_v68 (broadcastInDim S4x128x1 ![0, 1] bcast_S4x128_S4x128x1_0_1 : (⟨S4x128, .i32⟩ : BufTy).Contents (Elt F) → (⟨S4x128x1, .i32⟩ : BufTy).Contents (Elt F)),
    unary main_v63 main_v69 (broadcastInDim S4x128x1 ![0, 1] bcast_S4x128_S4x128x1_0_1 : (⟨S4x128, .i32⟩ : BufTy).Contents (Elt F) → (⟨S4x128x1, .i32⟩ : BufTy).Contents (Elt F)),
    nary ![main_v65, main_v66, main_v67, main_v68, main_v69] main_v70 (fun u => concatenate S4x128x5 2 [⟨S4x128x1, u 0⟩, ⟨S4x128x1, u 1⟩, ⟨S4x128x1, u 2⟩, ⟨S4x128x1, u 3⟩, ⟨S4x128x1, u 4⟩] concatenates_S4x128x1_S4x128x1_S4x128x1_S4x128x1_S4x128x1_S4x128x5_d2),
    binary main_arg2 main_v70 main_v71 ((fun x i => Host.gather gather_S4x3x64x64x64_S4x128x5_S4x128_n_01234_n_n_01234_2_11111 x i) : (⟨S4x3x64x64x64, .f32⟩ : BufTy).Contents (Elt F) → (⟨S4x128x5, .i32⟩ : BufTy).Contents (Elt F) → (⟨S4x128, .f32⟩ : BufTy).Contents (Elt F)),
    unary main_v71 main_v72 (fptosi 32 : (⟨S4x128, .f32⟩ : BufTy).Contents (Elt F) → (⟨S4x128, .i32⟩ : BufTy).Contents (Elt F)),
    nullary main_c_15 (constantI S_ 32 0#32),
    TRef.unary (TRef.of (T := ⟨S_, .i32⟩) main_c_15) (TRef.of (T := ⟨S_, .i32⟩) main_call2_v0) id,
    TRef.unary (TRef.of (T := ⟨S_, .i32⟩) main_call2_v0) (TRef.of (T := ⟨S4x128, .i32⟩) main_call2_v1) (broadcastInDim S4x128 ![] bcast_S_S4x128),
    TRef.ternary (TRef.of (T := ⟨S4x128, .i1⟩) main_v26) (TRef.of (T := ⟨S4x128, .i32⟩) main_v72) (TRef.of (T := ⟨S4x128, .i32⟩) main_call2_v1) (TRef.of (T := ⟨S4x128, .i32⟩) main_v73) select,
    nullary main_c_16 (constantI S_ 32 0#32),
    unary main_c_16 main_v74 (broadcastInDim S4x1 ![] bcast_S_S4x1 : (⟨S_, .i32⟩ : BufTy).Contents (Elt F) → (⟨S4x1, .i32⟩ : BufTy).Contents (Elt F)),
    binary main_v38 main_v74 main_v75 (cmpi .slt : (⟨S4x1, .i32⟩ : BufTy).Contents (Elt F) → (⟨S4x1, .i32⟩ : BufTy).Contents (Elt F) → (⟨S4x1, .i1⟩ : BufTy).Contents (Elt F)),
    nullary main_c_17 (constantI S_ 32 4#32),
    unary main_c_17 main_v76 (broadcastInDim S4x1 ![] bcast_S_S4x1 : (⟨S_, .i32⟩ : BufTy).Contents (Elt F) → (⟨S4x1, .i32⟩ : BufTy).Contents (Elt F)),
    binary main_v38 main_v76 main_v77 (addi : (⟨S4x1, .i32⟩ : BufTy).Contents (Elt F) → (⟨S4x1, .i32⟩ : BufTy).Contents (Elt F) → (⟨S4x1, .i32⟩ : BufTy).Contents (Elt F)),
    ternary main_v75 main_v77 main_v38 main_v78 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_18 (constantI S_ 32 0#32),
    unary main_c_18 main_v79 (broadcastInDim S4x128 ![] bcast_S_S4x128 : (⟨S_, .i32⟩ : BufTy).Contents (Elt F) → (⟨S4x128, .i32⟩ : BufTy).Contents (Elt F)),
    binary main_v73 main_v79 main_v80 (cmpi .slt : (⟨S4x128, .i32⟩ : BufTy).Contents (Elt F) → (⟨S4x128, .i32⟩ : BufTy).Contents (Elt F) → (⟨S4x128, .i1⟩ : BufTy).Contents (Elt F)),
    nullary main_c_19 (constantI S_ 32 3#32),
    unary main_c_19 main_v81 (broadcastInDim S4x128 ![] bcast_S_S4x128 : (⟨S_, .i32⟩ : BufTy).Contents (Elt F) → (⟨S4x128, .i32⟩ : BufTy).Contents (Elt F)),
    binary main_v73 main_v81 main_v82 (addi : (⟨S4x128, .i32⟩ : BufTy).Contents (Elt F) → (⟨S4x128, .i32⟩ : BufTy).Contents (Elt F) → (⟨S4x128, .i32⟩ : BufTy).Contents (Elt F)),
    ternary main_v80 main_v82 main_v73 main_v83 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_20 (constantI S_ 32 0#32),
    unary main_c_20 main_v84 (broadcastInDim S4x128 ![] bcast_S_S4x128 : (⟨S_, .i32⟩ : BufTy).Contents (Elt F) → (⟨S4x128, .i32⟩ : BufTy).Contents (Elt F)),
    binary main_v30 main_v84 main_v85 (cmpi .slt : (⟨S4x128, .i32⟩ : BufTy).Contents (Elt F) → (⟨S4x128, .i32⟩ : BufTy).Contents (Elt F) → (⟨S4x128, .i1⟩ : BufTy).Contents (Elt F)),
    nullary main_c_21 (constantI S_ 32 3#32),
    unary main_c_21 main_v86 (broadcastInDim S4x128 ![] bcast_S_S4x128 : (⟨S_, .i32⟩ : BufTy).Contents (Elt F) → (⟨S4x128, .i32⟩ : BufTy).Contents (Elt F)),
    binary main_v30 main_v86 main_v87 (addi : (⟨S4x128, .i32⟩ : BufTy).Contents (Elt F) → (⟨S4x128, .i32⟩ : BufTy).Contents (Elt F) → (⟨S4x128, .i32⟩ : BufTy).Contents (Elt F)),
    ternary main_v85 main_v87 main_v30 main_v88 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_22 (constantI S_ 32 0#32),
    unary main_c_22 main_v89 (broadcastInDim S4x128 ![] bcast_S_S4x128 : (⟨S_, .i32⟩ : BufTy).Contents (Elt F) → (⟨S4x128, .i32⟩ : BufTy).Contents (Elt F)),
    binary main_v32 main_v89 main_v90 (cmpi .slt : (⟨S4x128, .i32⟩ : BufTy).Contents (Elt F) → (⟨S4x128, .i32⟩ : BufTy).Contents (Elt F) → (⟨S4x128, .i1⟩ : BufTy).Contents (Elt F)),
    nullary main_c_23 (constantI S_ 32 64#32),
    unary main_c_23 main_v91 (broadcastInDim S4x128 ![] bcast_S_S4x128 : (⟨S_, .i32⟩ : BufTy).Contents (Elt F) → (⟨S4x128, .i32⟩ : BufTy).Contents (Elt F)),
    binary main_v32 main_v91 main_v92 (addi : (⟨S4x128, .i32⟩ : BufTy).Contents (Elt F) → (⟨S4x128, .i32⟩ : BufTy).Contents (Elt F) → (⟨S4x128, .i32⟩ : BufTy).Contents (Elt F)),
    ternary main_v90 main_v92 main_v32 main_v93 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)) ]

set_option maxRecDepth 8192 in
theorem ops_p1_sub : (ops_p1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., nary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
set_option maxRecDepth 8192 in
theorem ops_p1_fresh : ∀ op ∈ (ops_p1 : List (HloOp τ sig (Elt F))), op.fresh = ∅ := by
  intro _ h; (repeat (cases h with | head => rfl | tail _ h => ?_)); exact nomatch h

set_option maxRecDepth 8192 in
set_option maxHeartbeats 4000000 in
theorem main_part1_eq (c : Dev nD) : main_part1 (F := F) c = seq ops_p1 := rfl

def I1_77 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4
def I1_78 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_c_9) = ReadP.val_main_c_9 (F := F)
def I1_79 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v49) = ReadP.val_main_v49 (F := F)
def I1_80 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v50) = ReadP.val_main_v50 (F := F) x4
def I1_81 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v50) = ReadP.val_main_v50 (F := F) x4 ∧ V (Proc.devRef .tc main_c_10) = ReadP.val_main_c_10 (F := F)
def I1_82 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v50) = ReadP.val_main_v50 (F := F) x4 ∧ V (Proc.devRef .tc main_v51) = ReadP.val_main_v51 (F := F)
def I1_83 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v50) = ReadP.val_main_v50 (F := F) x4 ∧ V (Proc.devRef .tc main_v52) = ReadP.val_main_v52 (F := F) x4
def I1_84 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4
def I1_85 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_c_11) = ReadP.val_main_c_11 (F := F)
def I1_86 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v54) = ReadP.val_main_v54 (F := F)
def I1_87 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v55) = ReadP.val_main_v55 (F := F) x4
def I1_88 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v55) = ReadP.val_main_v55 (F := F) x4 ∧ V (Proc.devRef .tc main_c_12) = ReadP.val_main_c_12 (F := F)
def I1_89 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v55) = ReadP.val_main_v55 (F := F) x4 ∧ V (Proc.devRef .tc main_v56) = ReadP.val_main_v56 (F := F)
def I1_90 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v55) = ReadP.val_main_v55 (F := F) x4 ∧ V (Proc.devRef .tc main_v57) = ReadP.val_main_v57 (F := F) x4
def I1_91 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v58) = ReadP.val_main_v58 (F := F) x4
def I1_92 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v58) = ReadP.val_main_v58 (F := F) x4 ∧ V (Proc.devRef .tc main_c_13) = ReadP.val_main_c_13 (F := F)
def I1_93 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v58) = ReadP.val_main_v58 (F := F) x4 ∧ V (Proc.devRef .tc main_v59) = ReadP.val_main_v59 (F := F)
def I1_94 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v58) = ReadP.val_main_v58 (F := F) x4 ∧ V (Proc.devRef .tc main_v60) = ReadP.val_main_v60 (F := F) x4
def I1_95 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v58) = ReadP.val_main_v58 (F := F) x4 ∧ V (Proc.devRef .tc main_v60) = ReadP.val_main_v60 (F := F) x4 ∧ V (Proc.devRef .tc main_c_14) = ReadP.val_main_c_14 (F := F)
def I1_96 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v58) = ReadP.val_main_v58 (F := F) x4 ∧ V (Proc.devRef .tc main_v60) = ReadP.val_main_v60 (F := F) x4 ∧ V (Proc.devRef .tc main_v61) = ReadP.val_main_v61 (F := F)
def I1_97 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v58) = ReadP.val_main_v58 (F := F) x4 ∧ V (Proc.devRef .tc main_v60) = ReadP.val_main_v60 (F := F) x4 ∧ V (Proc.devRef .tc main_v62) = ReadP.val_main_v62 (F := F) x4
def I1_98 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v43) = ReadP.val_main_v43 (F := F) ∧ V (Proc.devRef .tc main_v48) = ReadP.val_main_v48 (F := F) x4 ∧ V (Proc.devRef .tc main_v53) = ReadP.val_main_v53 (F := F) x4 ∧ V (Proc.devRef .tc main_v58) = ReadP.val_main_v58 (F := F) x4 ∧ V (Proc.devRef .tc main_v63) = ReadP.val_main_v63 (F := F) x4
def I1_99 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v48) = ReadP.val_main_v48 (F := F) x4 ∧ V (Proc.devRef .tc main_v53) = ReadP.val_main_v53 (F := F) x4 ∧ V (Proc.devRef .tc main_v58) = ReadP.val_main_v58 (F := F) x4 ∧ V (Proc.devRef .tc main_v63) = ReadP.val_main_v63 (F := F) x4 ∧ V (Proc.devRef .tc main_v64) = ReadP.val_main_v64 (F := F)
def I1_100 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v48) = ReadP.val_main_v48 (F := F) x4 ∧ V (Proc.devRef .tc main_v53) = ReadP.val_main_v53 (F := F) x4 ∧ V (Proc.devRef .tc main_v58) = ReadP.val_main_v58 (F := F) x4 ∧ V (Proc.devRef .tc main_v63) = ReadP.val_main_v63 (F := F) x4 ∧ V (Proc.devRef .tc main_v65) = ReadP.val_main_v65 (F := F)
def I1_101 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v53) = ReadP.val_main_v53 (F := F) x4 ∧ V (Proc.devRef .tc main_v58) = ReadP.val_main_v58 (F := F) x4 ∧ V (Proc.devRef .tc main_v63) = ReadP.val_main_v63 (F := F) x4 ∧ V (Proc.devRef .tc main_v65) = ReadP.val_main_v65 (F := F) ∧ V (Proc.devRef .tc main_v66) = ReadP.val_main_v66 (F := F) x4
def I1_102 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v58) = ReadP.val_main_v58 (F := F) x4 ∧ V (Proc.devRef .tc main_v63) = ReadP.val_main_v63 (F := F) x4 ∧ V (Proc.devRef .tc main_v65) = ReadP.val_main_v65 (F := F) ∧ V (Proc.devRef .tc main_v66) = ReadP.val_main_v66 (F := F) x4 ∧ V (Proc.devRef .tc main_v67) = ReadP.val_main_v67 (F := F) x4
def I1_103 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v63) = ReadP.val_main_v63 (F := F) x4 ∧ V (Proc.devRef .tc main_v65) = ReadP.val_main_v65 (F := F) ∧ V (Proc.devRef .tc main_v66) = ReadP.val_main_v66 (F := F) x4 ∧ V (Proc.devRef .tc main_v67) = ReadP.val_main_v67 (F := F) x4 ∧ V (Proc.devRef .tc main_v68) = ReadP.val_main_v68 (F := F) x4
def I1_104 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v65) = ReadP.val_main_v65 (F := F) ∧ V (Proc.devRef .tc main_v66) = ReadP.val_main_v66 (F := F) x4 ∧ V (Proc.devRef .tc main_v67) = ReadP.val_main_v67 (F := F) x4 ∧ V (Proc.devRef .tc main_v68) = ReadP.val_main_v68 (F := F) x4 ∧ V (Proc.devRef .tc main_v69) = ReadP.val_main_v69 (F := F) x4
def I1_105 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v70) = ReadP.val_main_v70 (F := F) x4
def I1_106 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v71) = ReadP.val_main_v71 (F := F) x2 x4
def I1_107 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v72) = ReadP.val_main_v72 (F := F) x2 x4
def I1_108 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v72) = ReadP.val_main_v72 (F := F) x2 x4 ∧ V (Proc.devRef .tc main_c_15) = ReadP.val_main_c_15 (F := F)
def I1_109 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v72) = ReadP.val_main_v72 (F := F) x2 x4 ∧ V (Proc.devRef .tc main_call2_v0) = ReadP.val_main_call2_v0 (F := F)
def I1_110 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v72) = ReadP.val_main_v72 (F := F) x2 x4 ∧ V (Proc.devRef .tc main_call2_v1) = ReadP.val_main_call2_v1 (F := F)
def I1_111 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4
def I1_112 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_c_16) = ReadP.val_main_c_16 (F := F)
def I1_113 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v74) = ReadP.val_main_v74 (F := F)
def I1_114 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v75) = ReadP.val_main_v75 (F := F)
def I1_115 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v75) = ReadP.val_main_v75 (F := F) ∧ V (Proc.devRef .tc main_c_17) = ReadP.val_main_c_17 (F := F)
def I1_116 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v75) = ReadP.val_main_v75 (F := F) ∧ V (Proc.devRef .tc main_v76) = ReadP.val_main_v76 (F := F)
def I1_117 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v75) = ReadP.val_main_v75 (F := F) ∧ V (Proc.devRef .tc main_v77) = ReadP.val_main_v77 (F := F)
def I1_118 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F)
def I1_119 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_c_18) = ReadP.val_main_c_18 (F := F)
def I1_120 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v79) = ReadP.val_main_v79 (F := F)
def I1_121 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v80) = ReadP.val_main_v80 (F := F) x2 x4
def I1_122 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v80) = ReadP.val_main_v80 (F := F) x2 x4 ∧ V (Proc.devRef .tc main_c_19) = ReadP.val_main_c_19 (F := F)
def I1_123 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v80) = ReadP.val_main_v80 (F := F) x2 x4 ∧ V (Proc.devRef .tc main_v81) = ReadP.val_main_v81 (F := F)
def I1_124 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v80) = ReadP.val_main_v80 (F := F) x2 x4 ∧ V (Proc.devRef .tc main_v82) = ReadP.val_main_v82 (F := F) x2 x4
def I1_125 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4
def I1_126 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_c_20) = ReadP.val_main_c_20 (F := F)
def I1_127 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v84) = ReadP.val_main_v84 (F := F)
def I1_128 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v85) = ReadP.val_main_v85 (F := F) x4
def I1_129 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v85) = ReadP.val_main_v85 (F := F) x4 ∧ V (Proc.devRef .tc main_c_21) = ReadP.val_main_c_21 (F := F)
def I1_130 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v85) = ReadP.val_main_v85 (F := F) x4 ∧ V (Proc.devRef .tc main_v86) = ReadP.val_main_v86 (F := F)
def I1_131 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v85) = ReadP.val_main_v85 (F := F) x4 ∧ V (Proc.devRef .tc main_v87) = ReadP.val_main_v87 (F := F) x4
def I1_132 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4
def I1_133 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_c_22) = ReadP.val_main_c_22 (F := F)
def I1_134 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v89) = ReadP.val_main_v89 (F := F)
def I1_135 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v90) = ReadP.val_main_v90 (F := F) x4
def I1_136 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v90) = ReadP.val_main_v90 (F := F) x4 ∧ V (Proc.devRef .tc main_c_23) = ReadP.val_main_c_23 (F := F)
def I1_137 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v90) = ReadP.val_main_v90 (F := F) x4 ∧ V (Proc.devRef .tc main_v91) = ReadP.val_main_v91 (F := F)
def I1_138 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v90) = ReadP.val_main_v90 (F := F) x4 ∧ V (Proc.devRef .tc main_v92) = ReadP.val_main_v92 (F := F) x4
def I1_139 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4

theorem s77 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_77 V x0 x1 x2 x3 x4 x5 x6 → I1_78 ((nullary main_c_9 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; (try simp only [TRef.ofBuf, TRef.toBuf, cast_eq]); rfl⟩
theorem s78 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_78 V x0 x1 x2 x3 x4 x5 x6 → I1_79 ((unary main_c_9 main_v49 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_c_9⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; (try simp only [TRef.ofBuf, TRef.toBuf, cast_eq]); rw [h_main_c_9]; rfl⟩
theorem s79 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_79 V x0 x1 x2 x3 x4 x5 x6 → I1_80 ((binary main_v32 main_v49 main_v50 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v49⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; (try simp only [TRef.ofBuf, TRef.toBuf, cast_eq]); rw [h_main_v32, h_main_v49]; rfl⟩
theorem s80 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_80 V x0 x1 x2 x3 x4 x5 x6 → I1_81 ((nullary main_c_10 (constantI S_ 32 64#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v50⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v50,
    by after_results_simp; (try simp only [TRef.ofBuf, TRef.toBuf, cast_eq]); rfl⟩
theorem s81 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_81 V x0 x1 x2 x3 x4 x5 x6 → I1_82 ((unary main_c_10 main_v51 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v50, h_main_c_10⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v50,
    by after_results_simp; (try simp only [TRef.ofBuf, TRef.toBuf, cast_eq]); rw [h_main_c_10]; rfl⟩
theorem s82 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_82 V x0 x1 x2 x3 x4 x5 x6 → I1_83 ((binary main_v32 main_v51 main_v52 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v50, h_main_v51⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v50,
    by after_results_simp; (try simp only [TRef.ofBuf, TRef.toBuf, cast_eq]); rw [h_main_v32, h_main_v51]; rfl⟩
theorem s83 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_83 V x0 x1 x2 x3 x4 x5 x6 → I1_84 ((ternary main_v50 main_v52 main_v32 main_v53 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v50, h_main_v52⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; (try simp only [TRef.ofBuf, TRef.toBuf, cast_eq]); rw [h_main_v50, h_main_v52, h_main_v32]; rfl⟩
theorem s84 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_84 V x0 x1 x2 x3 x4 x5 x6 → I1_85 ((nullary main_c_11 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; (try simp only [TRef.ofBuf, TRef.toBuf, cast_eq]); rfl⟩
theorem s85 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_85 V x0 x1 x2 x3 x4 x5 x6 → I1_86 ((unary main_c_11 main_v54 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_c_11⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; (try simp only [TRef.ofBuf, TRef.toBuf, cast_eq]); rw [h_main_c_11]; rfl⟩
theorem s86 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_86 V x0 x1 x2 x3 x4 x5 x6 → I1_87 ((binary main_v34 main_v54 main_v55 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v54⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; (try simp only [TRef.ofBuf, TRef.toBuf, cast_eq]); rw [h_main_v34, h_main_v54]; rfl⟩
theorem s87 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_87 V x0 x1 x2 x3 x4 x5 x6 → I1_88 ((nullary main_c_12 (constantI S_ 32 64#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v55⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; exact h_main_v55,
    by after_results_simp; (try simp only [TRef.ofBuf, TRef.toBuf, cast_eq]); rfl⟩
theorem s88 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_88 V x0 x1 x2 x3 x4 x5 x6 → I1_89 ((unary main_c_12 main_v56 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v55, h_main_c_12⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; exact h_main_v55,
    by after_results_simp; (try simp only [TRef.ofBuf, TRef.toBuf, cast_eq]); rw [h_main_c_12]; rfl⟩
theorem s89 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_89 V x0 x1 x2 x3 x4 x5 x6 → I1_90 ((binary main_v34 main_v56 main_v57 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v55, h_main_v56⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; exact h_main_v55,
    by after_results_simp; (try simp only [TRef.ofBuf, TRef.toBuf, cast_eq]); rw [h_main_v34, h_main_v56]; rfl⟩
theorem s90 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_90 V x0 x1 x2 x3 x4 x5 x6 → I1_91 ((ternary main_v55 main_v57 main_v34 main_v58 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v55, h_main_v57⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; (try simp only [TRef.ofBuf, TRef.toBuf, cast_eq]); rw [h_main_v55, h_main_v57, h_main_v34]; rfl⟩
theorem s91 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_91 V x0 x1 x2 x3 x4 x5 x6 → I1_92 ((nullary main_c_13 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v58⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; exact h_main_v58,
    by after_results_simp; (try simp only [TRef.ofBuf, TRef.toBuf, cast_eq]); rfl⟩
theorem s92 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_92 V x0 x1 x2 x3 x4 x5 x6 → I1_93 ((unary main_c_13 main_v59 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v58, h_main_c_13⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; exact h_main_v58,
    by after_results_simp; (try simp only [TRef.ofBuf, TRef.toBuf, cast_eq]); rw [h_main_c_13]; rfl⟩
theorem s93 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_93 V x0 x1 x2 x3 x4 x5 x6 → I1_94 ((binary main_v36 main_v59 main_v60 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v58, h_main_v59⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; exact h_main_v58,
    by after_results_simp; (try simp only [TRef.ofBuf, TRef.toBuf, cast_eq]); rw [h_main_v36, h_main_v59]; rfl⟩
theorem s94 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_94 V x0 x1 x2 x3 x4 x5 x6 → I1_95 ((nullary main_c_14 (constantI S_ 32 64#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v58, h_main_v60⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; exact h_main_v58,
    by after_results_simp; exact h_main_v60,
    by after_results_simp; (try simp only [TRef.ofBuf, TRef.toBuf, cast_eq]); rfl⟩
theorem s95 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_95 V x0 x1 x2 x3 x4 x5 x6 → I1_96 ((unary main_c_14 main_v61 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v58, h_main_v60, h_main_c_14⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; exact h_main_v58,
    by after_results_simp; exact h_main_v60,
    by after_results_simp; (try simp only [TRef.ofBuf, TRef.toBuf, cast_eq]); rw [h_main_c_14]; rfl⟩
theorem s96 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_96 V x0 x1 x2 x3 x4 x5 x6 → I1_97 ((binary main_v36 main_v61 main_v62 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v58, h_main_v60, h_main_v61⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; exact h_main_v58,
    by after_results_simp; exact h_main_v60,
    by after_results_simp; (try simp only [TRef.ofBuf, TRef.toBuf, cast_eq]); rw [h_main_v36, h_main_v61]; rfl⟩
theorem s97 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_97 V x0 x1 x2 x3 x4 x5 x6 → I1_98 ((ternary main_v60 main_v62 main_v36 main_v63 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v58, h_main_v60, h_main_v62⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v43,
    by after_results_simp; exact h_main_v48,
    by after_results_simp; exact h_main_v53,
    by after_results_simp; exact h_main_v58,
    by after_results_simp; (try simp only [TRef.ofBuf, TRef.toBuf, cast_eq]); rw [h_main_v60, h_main_v62, h_main_v36]; rfl⟩
theorem s98 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_98 V x0 x1 x2 x3 x4 x5 x6 → I1_99 ((unary main_v43 main_v64 (broadcastInDim S4x128 ![0, 1] bcast_S4x1_S4x128_0_1 : (⟨S4x1, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v43, h_main_v48, h_main_v53, h_main_v58, h_main_v63⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v48,
    by after_results_simp; exact h_main_v53,
    by after_results_simp; exact h_main_v58,
    by after_results_simp; exact h_main_v63,
    by after_results_simp; (try simp only [TRef.ofBuf, TRef.toBuf, cast_eq]); rw [h_main_v43]; rfl⟩
theorem s99 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_99 V x0 x1 x2 x3 x4 x5 x6 → I1_100 ((unary main_v64 main_v65 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v48, h_main_v53, h_main_v58, h_main_v63, h_main_v64⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v48,
    by after_results_simp; exact h_main_v53,
    by after_results_simp; exact h_main_v58,
    by after_results_simp; exact h_main_v63,
    by after_results_simp; (try simp only [TRef.ofBuf, TRef.toBuf, cast_eq]); rw [h_main_v64]; rfl⟩
theorem s100 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_100 V x0 x1 x2 x3 x4 x5 x6 → I1_101 ((unary main_v48 main_v66 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v48, h_main_v53, h_main_v58, h_main_v63, h_main_v65⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v53,
    by after_results_simp; exact h_main_v58,
    by after_results_simp; exact h_main_v63,
    by after_results_simp; exact h_main_v65,
    by after_results_simp; (try simp only [TRef.ofBuf, TRef.toBuf, cast_eq]); rw [h_main_v48]; rfl⟩
theorem s101 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_101 V x0 x1 x2 x3 x4 x5 x6 → I1_102 ((unary main_v53 main_v67 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v53, h_main_v58, h_main_v63, h_main_v65, h_main_v66⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v58,
    by after_results_simp; exact h_main_v63,
    by after_results_simp; exact h_main_v65,
    by after_results_simp; exact h_main_v66,
    by after_results_simp; (try simp only [TRef.ofBuf, TRef.toBuf, cast_eq]); rw [h_main_v53]; rfl⟩
theorem s102 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_102 V x0 x1 x2 x3 x4 x5 x6 → I1_103 ((unary main_v58 main_v68 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v58, h_main_v63, h_main_v65, h_main_v66, h_main_v67⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v63,
    by after_results_simp; exact h_main_v65,
    by after_results_simp; exact h_main_v66,
    by after_results_simp; exact h_main_v67,
    by after_results_simp; (try simp only [TRef.ofBuf, TRef.toBuf, cast_eq]); rw [h_main_v58]; rfl⟩
theorem s103 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_103 V x0 x1 x2 x3 x4 x5 x6 → I1_104 ((unary main_v63 main_v69 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v63, h_main_v65, h_main_v66, h_main_v67, h_main_v68⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v65,
    by after_results_simp; exact h_main_v66,
    by after_results_simp; exact h_main_v67,
    by after_results_simp; exact h_main_v68,
    by after_results_simp; (try simp only [TRef.ofBuf, TRef.toBuf, cast_eq]); rw [h_main_v63]; rfl⟩
theorem s104 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_104 V x0 x1 x2 x3 x4 x5 x6 → I1_105 ((nary ![main_v65, main_v66, main_v67, main_v68, main_v69] main_v70 (fun u => concatenate S4x128x5 2 [⟨S4x128x1, u 0⟩, ⟨S4x128x1, u 1⟩, ⟨S4x128x1, u 2⟩, ⟨S4x128x1, u 3⟩, ⟨S4x128x1, u 4⟩] concatenates_S4x128x1_S4x128x1_S4x128x1_S4x128x1_S4x128x1_S4x128x5_d2)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v65, h_main_v66, h_main_v67, h_main_v68, h_main_v69⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; (try simp only [TRef.ofBuf, TRef.toBuf, cast_eq]); dsimp only [Matrix.cons_val]; rw [h_main_v65, h_main_v66, h_main_v67, h_main_v68, h_main_v69]; rfl⟩
theorem s105 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_105 V x0 x1 x2 x3 x4 x5 x6 → I1_106 ((binary main_arg2 main_v70 main_v71 ((fun x i => Host.gather gather_S4x3x64x64x64_S4x128x5_S4x128_n_01234_n_n_01234_2_11111 x i) : (⟨S4x3x64x64x64, .f32⟩ : BufTy).Contents (Elt F) → (⟨S4x128x5, .i32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v70⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; (try simp only [TRef.ofBuf, TRef.toBuf, cast_eq]); rw [h_main_arg2, h_main_v70]; rfl⟩
theorem s106 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_106 V x0 x1 x2 x3 x4 x5 x6 → I1_107 ((unary main_v71 main_v72 (fptosi 32 : (⟨S4x128, .f32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v71⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; (try simp only [TRef.ofBuf, TRef.toBuf, cast_eq]); rw [h_main_v71]; rfl⟩
theorem s107 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_107 V x0 x1 x2 x3 x4 x5 x6 → I1_108 ((nullary main_c_15 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v72⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v72,
    by after_results_simp; (try simp only [TRef.ofBuf, TRef.toBuf, cast_eq]); rfl⟩
theorem s108 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_108 V x0 x1 x2 x3 x4 x5 x6 → I1_109 ((TRef.unary (TRef.of (T := ⟨S_, .i32⟩) main_c_15) (TRef.of (T := ⟨S_, .i32⟩) main_call2_v0) id).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v72, h_main_c_15⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v72,
    by after_results_simp; (try simp only [TRef.ofBuf, TRef.toBuf, cast_eq]); rw [h_main_c_15]; rfl⟩
theorem s109 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_109 V x0 x1 x2 x3 x4 x5 x6 → I1_110 ((TRef.unary (TRef.of (T := ⟨S_, .i32⟩) main_call2_v0) (TRef.of (T := ⟨S4x128, .i32⟩) main_call2_v1) (broadcastInDim S4x128 ![] bcast_S_S4x128)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v72, h_main_call2_v0⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v72,
    by after_results_simp; (try simp only [TRef.ofBuf, TRef.toBuf, cast_eq]); rw [h_main_call2_v0]; rfl⟩
theorem s110 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_110 V x0 x1 x2 x3 x4 x5 x6 → I1_111 ((TRef.ternary (TRef.of (T := ⟨S4x128, .i1⟩) main_v26) (TRef.of (T := ⟨S4x128, .i32⟩) main_v72) (TRef.of (T := ⟨S4x128, .i32⟩) main_call2_v1) (TRef.of (T := ⟨S4x128, .i32⟩) main_v73) select).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v72, h_main_call2_v1⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; (try simp only [TRef.ofBuf, TRef.toBuf, cast_eq]); rw [h_main_v26, h_main_v72, h_main_call2_v1]; rfl⟩
theorem s111 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_111 V x0 x1 x2 x3 x4 x5 x6 → I1_112 ((nullary main_c_16 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; (try simp only [TRef.ofBuf, TRef.toBuf, cast_eq]); rfl⟩
theorem s112 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_112 V x0 x1 x2 x3 x4 x5 x6 → I1_113 ((unary main_c_16 main_v74 (broadcastInDim S4x1 ![] bcast_S_S4x1 : (⟨S_, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_c_16⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; (try simp only [TRef.ofBuf, TRef.toBuf, cast_eq]); rw [h_main_c_16]; rfl⟩
theorem s113 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_113 V x0 x1 x2 x3 x4 x5 x6 → I1_114 ((binary main_v38 main_v74 main_v75 (cmpi .slt : (⟨S4x1, .i32⟩ : BufTy).Contents (Elt F) → (⟨S4x1, .i32⟩ : BufTy).Contents (Elt F) → (⟨S4x1, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v74⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; (try simp only [TRef.ofBuf, TRef.toBuf, cast_eq]); rw [h_main_v38, h_main_v74]; rfl⟩
theorem s114 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_114 V x0 x1 x2 x3 x4 x5 x6 → I1_115 ((nullary main_c_17 (constantI S_ 32 4#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v75⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v75,
    by after_results_simp; (try simp only [TRef.ofBuf, TRef.toBuf, cast_eq]); rfl⟩
theorem s115 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_115 V x0 x1 x2 x3 x4 x5 x6 → I1_116 ((unary main_c_17 main_v76 (broadcastInDim S4x1 ![] bcast_S_S4x1 : (⟨S_, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v75, h_main_c_17⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v75,
    by after_results_simp; (try simp only [TRef.ofBuf, TRef.toBuf, cast_eq]); rw [h_main_c_17]; rfl⟩
theorem s116 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_116 V x0 x1 x2 x3 x4 x5 x6 → I1_117 ((binary main_v38 main_v76 main_v77 (addi : (⟨S4x1, .i32⟩ : BufTy).Contents (Elt F) → (⟨S4x1, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v75, h_main_v76⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v75,
    by after_results_simp; (try simp only [TRef.ofBuf, TRef.toBuf, cast_eq]); rw [h_main_v38, h_main_v76]; rfl⟩
theorem s117 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_117 V x0 x1 x2 x3 x4 x5 x6 → I1_118 ((ternary main_v75 main_v77 main_v38 main_v78 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v75, h_main_v77⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; (try simp only [TRef.ofBuf, TRef.toBuf, cast_eq]); rw [h_main_v75, h_main_v77, h_main_v38]; rfl⟩
theorem s118 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_118 V x0 x1 x2 x3 x4 x5 x6 → I1_119 ((nullary main_c_18 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; (try simp only [TRef.ofBuf, TRef.toBuf, cast_eq]); rfl⟩
theorem s119 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_119 V x0 x1 x2 x3 x4 x5 x6 → I1_120 ((unary main_c_18 main_v79 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_c_18⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; (try simp only [TRef.ofBuf, TRef.toBuf, cast_eq]); rw [h_main_c_18]; rfl⟩
theorem s120 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_120 V x0 x1 x2 x3 x4 x5 x6 → I1_121 ((binary main_v73 main_v79 main_v80 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v79⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; (try simp only [TRef.ofBuf, TRef.toBuf, cast_eq]); rw [h_main_v73, h_main_v79]; rfl⟩
theorem s121 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_121 V x0 x1 x2 x3 x4 x5 x6 → I1_122 ((nullary main_c_19 (constantI S_ 32 3#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v80⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v80,
    by after_results_simp; (try simp only [TRef.ofBuf, TRef.toBuf, cast_eq]); rfl⟩
theorem s122 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_122 V x0 x1 x2 x3 x4 x5 x6 → I1_123 ((unary main_c_19 main_v81 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v80, h_main_c_19⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v80,
    by after_results_simp; (try simp only [TRef.ofBuf, TRef.toBuf, cast_eq]); rw [h_main_c_19]; rfl⟩
theorem s123 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_123 V x0 x1 x2 x3 x4 x5 x6 → I1_124 ((binary main_v73 main_v81 main_v82 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v80, h_main_v81⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v80,
    by after_results_simp; (try simp only [TRef.ofBuf, TRef.toBuf, cast_eq]); rw [h_main_v73, h_main_v81]; rfl⟩
theorem s124 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_124 V x0 x1 x2 x3 x4 x5 x6 → I1_125 ((ternary main_v80 main_v82 main_v73 main_v83 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v80, h_main_v82⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; (try simp only [TRef.ofBuf, TRef.toBuf, cast_eq]); rw [h_main_v80, h_main_v82, h_main_v73]; rfl⟩
theorem s125 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_125 V x0 x1 x2 x3 x4 x5 x6 → I1_126 ((nullary main_c_20 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; (try simp only [TRef.ofBuf, TRef.toBuf, cast_eq]); rfl⟩
theorem s126 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_126 V x0 x1 x2 x3 x4 x5 x6 → I1_127 ((unary main_c_20 main_v84 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_c_20⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; (try simp only [TRef.ofBuf, TRef.toBuf, cast_eq]); rw [h_main_c_20]; rfl⟩
theorem s127 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_127 V x0 x1 x2 x3 x4 x5 x6 → I1_128 ((binary main_v30 main_v84 main_v85 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v84⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; (try simp only [TRef.ofBuf, TRef.toBuf, cast_eq]); rw [h_main_v30, h_main_v84]; rfl⟩
theorem s128 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_128 V x0 x1 x2 x3 x4 x5 x6 → I1_129 ((nullary main_c_21 (constantI S_ 32 3#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v85⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v85,
    by after_results_simp; (try simp only [TRef.ofBuf, TRef.toBuf, cast_eq]); rfl⟩
theorem s129 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_129 V x0 x1 x2 x3 x4 x5 x6 → I1_130 ((unary main_c_21 main_v86 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v85, h_main_c_21⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v85,
    by after_results_simp; (try simp only [TRef.ofBuf, TRef.toBuf, cast_eq]); rw [h_main_c_21]; rfl⟩
theorem s130 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_130 V x0 x1 x2 x3 x4 x5 x6 → I1_131 ((binary main_v30 main_v86 main_v87 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v85, h_main_v86⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v85,
    by after_results_simp; (try simp only [TRef.ofBuf, TRef.toBuf, cast_eq]); rw [h_main_v30, h_main_v86]; rfl⟩
theorem s131 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_131 V x0 x1 x2 x3 x4 x5 x6 → I1_132 ((ternary main_v85 main_v87 main_v30 main_v88 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v85, h_main_v87⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; (try simp only [TRef.ofBuf, TRef.toBuf, cast_eq]); rw [h_main_v85, h_main_v87, h_main_v30]; rfl⟩
theorem s132 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_132 V x0 x1 x2 x3 x4 x5 x6 → I1_133 ((nullary main_c_22 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; (try simp only [TRef.ofBuf, TRef.toBuf, cast_eq]); rfl⟩
theorem s133 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_133 V x0 x1 x2 x3 x4 x5 x6 → I1_134 ((unary main_c_22 main_v89 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_c_22⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; (try simp only [TRef.ofBuf, TRef.toBuf, cast_eq]); rw [h_main_c_22]; rfl⟩
theorem s134 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_134 V x0 x1 x2 x3 x4 x5 x6 → I1_135 ((binary main_v32 main_v89 main_v90 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v89⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; (try simp only [TRef.ofBuf, TRef.toBuf, cast_eq]); rw [h_main_v32, h_main_v89]; rfl⟩
theorem s135 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_135 V x0 x1 x2 x3 x4 x5 x6 → I1_136 ((nullary main_c_23 (constantI S_ 32 64#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v90⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v90,
    by after_results_simp; (try simp only [TRef.ofBuf, TRef.toBuf, cast_eq]); rfl⟩
theorem s136 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_136 V x0 x1 x2 x3 x4 x5 x6 → I1_137 ((unary main_c_23 main_v91 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v90, h_main_c_23⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v90,
    by after_results_simp; (try simp only [TRef.ofBuf, TRef.toBuf, cast_eq]); rw [h_main_c_23]; rfl⟩
theorem s137 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_137 V x0 x1 x2 x3 x4 x5 x6 → I1_138 ((binary main_v32 main_v91 main_v92 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v90, h_main_v91⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v90,
    by after_results_simp; (try simp only [TRef.ofBuf, TRef.toBuf, cast_eq]); rw [h_main_v32, h_main_v91]; rfl⟩
theorem s138 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I1_138 V x0 x1 x2 x3 x4 x5 x6 → I1_139 ((ternary main_v90 main_v92 main_v32 main_v93 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v90, h_main_v92⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; (try simp only [TRef.ofBuf, TRef.toBuf, cast_eq]); rw [h_main_v90, h_main_v92, h_main_v32]; rfl⟩

set_option maxRecDepth 8192 in
set_option maxHeartbeats 4000000 in
/-- The window, from any contents. -/
theorem w1 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) (h77 : I1_77 V x0 x1 x2 x3 x4 x5 x6) : I1_139 (after ops_p1 V) x0 x1 x2 x3 x4 x5 x6 := by
  simp only [ops_p1, after_cons, after_nil]
  have h78 := s77 _ x0 x1 x2 x3 x4 x5 x6 h77
  have h79 := s78 _ x0 x1 x2 x3 x4 x5 x6 h78
  have h80 := s79 _ x0 x1 x2 x3 x4 x5 x6 h79
  have h81 := s80 _ x0 x1 x2 x3 x4 x5 x6 h80
  have h82 := s81 _ x0 x1 x2 x3 x4 x5 x6 h81
  have h83 := s82 _ x0 x1 x2 x3 x4 x5 x6 h82
  have h84 := s83 _ x0 x1 x2 x3 x4 x5 x6 h83
  have h85 := s84 _ x0 x1 x2 x3 x4 x5 x6 h84
  have h86 := s85 _ x0 x1 x2 x3 x4 x5 x6 h85
  have h87 := s86 _ x0 x1 x2 x3 x4 x5 x6 h86
  have h88 := s87 _ x0 x1 x2 x3 x4 x5 x6 h87
  have h89 := s88 _ x0 x1 x2 x3 x4 x5 x6 h88
  have h90 := s89 _ x0 x1 x2 x3 x4 x5 x6 h89
  have h91 := s90 _ x0 x1 x2 x3 x4 x5 x6 h90
  have h92 := s91 _ x0 x1 x2 x3 x4 x5 x6 h91
  have h93 := s92 _ x0 x1 x2 x3 x4 x5 x6 h92
  have h94 := s93 _ x0 x1 x2 x3 x4 x5 x6 h93
  have h95 := s94 _ x0 x1 x2 x3 x4 x5 x6 h94
  have h96 := s95 _ x0 x1 x2 x3 x4 x5 x6 h95
  have h97 := s96 _ x0 x1 x2 x3 x4 x5 x6 h96
  have h98 := s97 _ x0 x1 x2 x3 x4 x5 x6 h97
  have h99 := s98 _ x0 x1 x2 x3 x4 x5 x6 h98
  have h100 := s99 _ x0 x1 x2 x3 x4 x5 x6 h99
  have h101 := s100 _ x0 x1 x2 x3 x4 x5 x6 h100
  have h102 := s101 _ x0 x1 x2 x3 x4 x5 x6 h101
  have h103 := s102 _ x0 x1 x2 x3 x4 x5 x6 h102
  have h104 := s103 _ x0 x1 x2 x3 x4 x5 x6 h103
  have h105 := s104 _ x0 x1 x2 x3 x4 x5 x6 h104
  have h106 := s105 _ x0 x1 x2 x3 x4 x5 x6 h105
  have h107 := s106 _ x0 x1 x2 x3 x4 x5 x6 h106
  have h108 := s107 _ x0 x1 x2 x3 x4 x5 x6 h107
  have h109 := s108 _ x0 x1 x2 x3 x4 x5 x6 h108
  have h110 := s109 _ x0 x1 x2 x3 x4 x5 x6 h109
  have h111 := s110 _ x0 x1 x2 x3 x4 x5 x6 h110
  have h112 := s111 _ x0 x1 x2 x3 x4 x5 x6 h111
  have h113 := s112 _ x0 x1 x2 x3 x4 x5 x6 h112
  have h114 := s113 _ x0 x1 x2 x3 x4 x5 x6 h113
  have h115 := s114 _ x0 x1 x2 x3 x4 x5 x6 h114
  have h116 := s115 _ x0 x1 x2 x3 x4 x5 x6 h115
  have h117 := s116 _ x0 x1 x2 x3 x4 x5 x6 h116
  have h118 := s117 _ x0 x1 x2 x3 x4 x5 x6 h117
  have h119 := s118 _ x0 x1 x2 x3 x4 x5 x6 h118
  have h120 := s119 _ x0 x1 x2 x3 x4 x5 x6 h119
  have h121 := s120 _ x0 x1 x2 x3 x4 x5 x6 h120
  have h122 := s121 _ x0 x1 x2 x3 x4 x5 x6 h121
  have h123 := s122 _ x0 x1 x2 x3 x4 x5 x6 h122
  have h124 := s123 _ x0 x1 x2 x3 x4 x5 x6 h123
  have h125 := s124 _ x0 x1 x2 x3 x4 x5 x6 h124
  have h126 := s125 _ x0 x1 x2 x3 x4 x5 x6 h125
  have h127 := s126 _ x0 x1 x2 x3 x4 x5 x6 h126
  have h128 := s127 _ x0 x1 x2 x3 x4 x5 x6 h127
  have h129 := s128 _ x0 x1 x2 x3 x4 x5 x6 h128
  have h130 := s129 _ x0 x1 x2 x3 x4 x5 x6 h129
  have h131 := s130 _ x0 x1 x2 x3 x4 x5 x6 h130
  have h132 := s131 _ x0 x1 x2 x3 x4 x5 x6 h131
  have h133 := s132 _ x0 x1 x2 x3 x4 x5 x6 h132
  have h134 := s133 _ x0 x1 x2 x3 x4 x5 x6 h133
  have h135 := s134 _ x0 x1 x2 x3 x4 x5 x6 h134
  have h136 := s135 _ x0 x1 x2 x3 x4 x5 x6 h135
  have h137 := s136 _ x0 x1 x2 x3 x4 x5 x6 h136
  have h138 := s137 _ x0 x1 x2 x3 x4 x5 x6 h137
  have h139 := s138 _ x0 x1 x2 x3 x4 x5 x6 h138
  exact h139

end Cert.Hand.RefRun

end
-- ==== Proof.Ref.RunP2.lean ====
/- Operations 139 … 198 of the reference program's straight line (its printed window 2): the list, the buffers it touches,
   and the window read one operation at a time: I2_k says which buffers hold which stage value after the first k
   operations of the whole line (the arguments x0 … x6, and every stage a later operation still reads); each operation
   takes I2_k to I2_(k+1): the buffer it writes gets its stage value (one unfolding of that stage), every other one is kept. -/
import proofs.«424358_j44040594653645_2_alg».proof.Proof.RefRead

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 139 … 198, in order. -/
abbrev ops_p2 : List (HloOp τ sig (Elt F)) :=
  [ nullary main_c_24 (constantI S_ 32 0#32),
    unary main_c_24 main_v94 (broadcastInDim S4x128 ![] bcast_S_S4x128 : (⟨S_, .i32⟩ : BufTy).Contents (Elt F) → (⟨S4x128, .i32⟩ : BufTy).Contents (Elt F)),
    binary main_v34 main_v94 main_v95 (cmpi .slt : (⟨S4x128, .i32⟩ : BufTy).Contents (Elt F) → (⟨S4x128, .i32⟩ : BufTy).Contents (Elt F) → (⟨S4x128, .i1⟩ : BufTy).Contents (Elt F)),
    nullary main_c_25 (constantI S_ 32 64#32),
    unary main_c_25 main_v96 (broadcastInDim S4x128 ![] bcast_S_S4x128 : (⟨S_, .i32⟩ : BufTy).Contents (Elt F) → (⟨S4x128, .i32⟩ : BufTy).Contents (Elt F)),
    binary main_v34 main_v96 main_v97 (addi : (⟨S4x128, .i32⟩ : BufTy).Contents (Elt F) → (⟨S4x128, .i32⟩ : BufTy).Contents (Elt F) → (⟨S4x128, .i32⟩ : BufTy).Contents (Elt F)),
    ternary main_v95 main_v97 main_v34 main_v98 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_26 (constantI S_ 32 0#32),
    unary main_c_26 main_v99 (broadcastInDim S4x128 ![] bcast_S_S4x128 : (⟨S_, .i32⟩ : BufTy).Contents (Elt F) → (⟨S4x128, .i32⟩ : BufTy).Contents (Elt F)),
    binary main_v36 main_v99 main_v100 (cmpi .slt : (⟨S4x128, .i32⟩ : BufTy).Contents (Elt F) → (⟨S4x128, .i32⟩ : BufTy).Contents (Elt F) → (⟨S4x128, .i1⟩ : BufTy).Contents (Elt F)),
    nullary main_c_27 (constantI S_ 32 64#32),
    unary main_c_27 main_v101 (broadcastInDim S4x128 ![] bcast_S_S4x128 : (⟨S_, .i32⟩ : BufTy).Contents (Elt F) → (⟨S4x128, .i32⟩ : BufTy).Contents (Elt F)),
    binary main_v36 main_v101 main_v102 (addi : (⟨S4x128, .i32⟩ : BufTy).Contents (Elt F) → (⟨S4x128, .i32⟩ : BufTy).Contents (Elt F) → (⟨S4x128, .i32⟩ : BufTy).Contents (Elt F)),
    ternary main_v100 main_v102 main_v36 main_v103 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    unary main_v78 main_v104 (broadcastInDim S4x128 ![0, 1] bcast_S4x1_S4x128_0_1 : (⟨S4x1, .i32⟩ : BufTy).Contents (Elt F) → (⟨S4x128, .i32⟩ : BufTy).Contents (Elt F)),
    unary main_v104 main_v105 (broadcastInDim S4x128x1 ![0, 1] bcast_S4x128_S4x128x1_0_1 : (⟨S4x128, .i32⟩ : BufTy).Contents (Elt F) → (⟨S4x128x1, .i32⟩ : BufTy).Contents (Elt F)),
    unary main_v83 main_v106 (broadcastInDim S4x128x1 ![0, 1] bcast_S4x128_S4x128x1_0_1 : (⟨S4x128, .i32⟩ : BufTy).Contents (Elt F) → (⟨S4x128x1, .i32⟩ : BufTy).Contents (Elt F)),
    unary main_v88 main_v107 (broadcastInDim S4x128x1 ![0, 1] bcast_S4x128_S4x128x1_0_1 : (⟨S4x128, .i32⟩ : BufTy).Contents (Elt F) → (⟨S4x128x1, .i32⟩ : BufTy).Contents (Elt F)),
    unary main_v93 main_v108 (broadcastInDim S4x128x1 ![0, 1] bcast_S4x128_S4x128x1_0_1 : (⟨S4x128, .i32⟩ : BufTy).Contents (Elt F) → (⟨S4x128x1, .i32⟩ : BufTy).Contents (Elt F)),
    unary main_v98 main_v109 (broadcastInDim S4x128x1 ![0, 1] bcast_S4x128_S4x128x1_0_1 : (⟨S4x128, .i32⟩ : BufTy).Contents (Elt F) → (⟨S4x128x1, .i32⟩ : BufTy).Contents (Elt F)),
    unary main_v103 main_v110 (broadcastInDim S4x128x1 ![0, 1] bcast_S4x128_S4x128x1_0_1 : (⟨S4x128, .i32⟩ : BufTy).Contents (Elt F) → (⟨S4x128x1, .i32⟩ : BufTy).Contents (Elt F)),
    nary ![main_v105, main_v106, main_v107, main_v108, main_v109, main_v110] main_v111 (fun u => concatenate S4x128x6 2 [⟨S4x128x1, u 0⟩, ⟨S4x128x1, u 1⟩, ⟨S4x128x1, u 2⟩, ⟨S4x128x1, u 3⟩, ⟨S4x128x1, u 4⟩, ⟨S4x128x1, u 5⟩] concatenates_S4x128x1_S4x128x1_S4x128x1_S4x128x1_S4x128x1_S4x128x1_S4x128x6_d2),
    binary main_v3 main_v111 main_v112 ((fun x i => Host.gather gather_S4x3x3x64x64x64_S4x128x6_S4x128_n_012345_n_n_012345_2_111111 x i) : (⟨S4x3x3x64x64x64, .f32⟩ : BufTy).Contents (Elt F) → (⟨S4x128x6, .i32⟩ : BufTy).Contents (Elt F) → (⟨S4x128, .f32⟩ : BufTy).Contents (Elt F)),
    nullary main_c_28 (constantI S_ 32 0#32),
    unary main_c_28 main_v113 (broadcastInDim S4x1 ![] bcast_S_S4x1 : (⟨S_, .i32⟩ : BufTy).Contents (Elt F) → (⟨S4x1, .i32⟩ : BufTy).Contents (Elt F)),
    binary main_v38 main_v113 main_v114 (cmpi .slt : (⟨S4x1, .i32⟩ : BufTy).Contents (Elt F) → (⟨S4x1, .i32⟩ : BufTy).Contents (Elt F) → (⟨S4x1, .i1⟩ : BufTy).Contents (Elt F)),
    nullary main_c_29 (constantI S_ 32 4#32),
    unary main_c_29 main_v115 (broadcastInDim S4x1 ![] bcast_S_S4x1 : (⟨S_, .i32⟩ : BufTy).Contents (Elt F) → (⟨S4x1, .i32⟩ : BufTy).Contents (Elt F)),
    binary main_v38 main_v115 main_v116 (addi : (⟨S4x1, .i32⟩ : BufTy).Contents (Elt F) → (⟨S4x1, .i32⟩ : BufTy).Contents (Elt F) → (⟨S4x1, .i32⟩ : BufTy).Contents (Elt F)),
    ternary main_v114 main_v116 main_v38 main_v117 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_30 (constantI S_ 32 0#32),
    unary main_c_30 main_v118 (broadcastInDim S4x128 ![] bcast_S_S4x128 : (⟨S_, .i32⟩ : BufTy).Contents (Elt F) → (⟨S4x128, .i32⟩ : BufTy).Contents (Elt F)),
    binary main_v73 main_v118 main_v119 (cmpi .slt : (⟨S4x128, .i32⟩ : BufTy).Contents (Elt F) → (⟨S4x128, .i32⟩ : BufTy).Contents (Elt F) → (⟨S4x128, .i1⟩ : BufTy).Contents (Elt F)),
    nullary main_c_31 (constantI S_ 32 3#32),
    unary main_c_31 main_v120 (broadcastInDim S4x128 ![] bcast_S_S4x128 : (⟨S_, .i32⟩ : BufTy).Contents (Elt F) → (⟨S4x128, .i32⟩ : BufTy).Contents (Elt F)),
    binary main_v73 main_v120 main_v121 (addi : (⟨S4x128, .i32⟩ : BufTy).Contents (Elt F) → (⟨S4x128, .i32⟩ : BufTy).Contents (Elt F) → (⟨S4x128, .i32⟩ : BufTy).Contents (Elt F)),
    ternary main_v119 main_v121 main_v73 main_v122 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_32 (constantI S_ 32 0#32),
    unary main_c_32 main_v123 (broadcastInDim S4x128 ![] bcast_S_S4x128 : (⟨S_, .i32⟩ : BufTy).Contents (Elt F) → (⟨S4x128, .i32⟩ : BufTy).Contents (Elt F)),
    binary main_v30 main_v123 main_v124 (cmpi .slt : (⟨S4x128, .i32⟩ : BufTy).Contents (Elt F) → (⟨S4x128, .i32⟩ : BufTy).Contents (Elt F) → (⟨S4x128, .i1⟩ : BufTy).Contents (Elt F)),
    nullary main_c_33 (constantI S_ 32 3#32),
    unary main_c_33 main_v125 (broadcastInDim S4x128 ![] bcast_S_S4x128 : (⟨S_, .i32⟩ : BufTy).Contents (Elt F) → (⟨S4x128, .i32⟩ : BufTy).Contents (Elt F)),
    binary main_v30 main_v125 main_v126 (addi : (⟨S4x128, .i32⟩ : BufTy).Contents (Elt F) → (⟨S4x128, .i32⟩ : BufTy).Contents (Elt F) → (⟨S4x128, .i32⟩ : BufTy).Contents (Elt F)),
    ternary main_v124 main_v126 main_v30 main_v127 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_34 (constantI S_ 32 0#32),
    unary main_c_34 main_v128 (broadcastInDim S4x128 ![] bcast_S_S4x128 : (⟨S_, .i32⟩ : BufTy).Contents (Elt F) → (⟨S4x128, .i32⟩ : BufTy).Contents (Elt F)),
    binary main_v32 main_v128 main_v129 (cmpi .slt : (⟨S4x128, .i32⟩ : BufTy).Contents (Elt F) → (⟨S4x128, .i32⟩ : BufTy).Contents (Elt F) → (⟨S4x128, .i1⟩ : BufTy).Contents (Elt F)),
    nullary main_c_35 (constantI S_ 32 64#32),
    unary main_c_35 main_v130 (broadcastInDim S4x128 ![] bcast_S_S4x128 : (⟨S_, .i32⟩ : BufTy).Contents (Elt F) → (⟨S4x128, .i32⟩ : BufTy).Contents (Elt F)),
    binary main_v32 main_v130 main_v131 (addi : (⟨S4x128, .i32⟩ : BufTy).Contents (Elt F) → (⟨S4x128, .i32⟩ : BufTy).Contents (Elt F) → (⟨S4x128, .i32⟩ : BufTy).Contents (Elt F)),
    ternary main_v129 main_v131 main_v32 main_v132 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_36 (constantI S_ 32 0#32),
    unary main_c_36 main_v133 (broadcastInDim S4x128 ![] bcast_S_S4x128 : (⟨S_, .i32⟩ : BufTy).Contents (Elt F) → (⟨S4x128, .i32⟩ : BufTy).Contents (Elt F)),
    binary main_v34 main_v133 main_v134 (cmpi .slt : (⟨S4x128, .i32⟩ : BufTy).Contents (Elt F) → (⟨S4x128, .i32⟩ : BufTy).Contents (Elt F) → (⟨S4x128, .i1⟩ : BufTy).Contents (Elt F)),
    nullary main_c_37 (constantI S_ 32 64#32),
    unary main_c_37 main_v135 (broadcastInDim S4x128 ![] bcast_S_S4x128 : (⟨S_, .i32⟩ : BufTy).Contents (Elt F) → (⟨S4x128, .i32⟩ : BufTy).Contents (Elt F)),
    binary main_v34 main_v135 main_v136 (addi : (⟨S4x128, .i32⟩ : BufTy).Contents (Elt F) → (⟨S4x128, .i32⟩ : BufTy).Contents (Elt F) → (⟨S4x128, .i32⟩ : BufTy).Contents (Elt F)),
    ternary main_v134 main_v136 main_v34 main_v137 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_38 (constantI S_ 32 0#32),
    unary main_c_38 main_v138 (broadcastInDim S4x128 ![] bcast_S_S4x128 : (⟨S_, .i32⟩ : BufTy).Contents (Elt F) → (⟨S4x128, .i32⟩ : BufTy).Contents (Elt F)) ]

set_option maxRecDepth 8192 in
theorem ops_p2_sub : (ops_p2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub ..⟩
set_option maxRecDepth 8192 in
theorem ops_p2_fresh : ∀ op ∈ (ops_p2 : List (HloOp τ sig (Elt F))), op.fresh = ∅ := by
  intro _ h; (repeat (cases h with | head => rfl | tail _ h => ?_)); exact nomatch h

set_option maxRecDepth 8192 in
set_option maxHeartbeats 4000000 in
theorem main_part2_eq (c : Dev nD) : main_part2 (F := F) c = seq ops_p2 := rfl

def I2_139 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4
def I2_140 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_c_24) = ReadP.val_main_c_24 (F := F)
def I2_141 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v94) = ReadP.val_main_v94 (F := F)
def I2_142 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v95) = ReadP.val_main_v95 (F := F) x4
def I2_143 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v95) = ReadP.val_main_v95 (F := F) x4 ∧ V (Proc.devRef .tc main_c_25) = ReadP.val_main_c_25 (F := F)
def I2_144 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v95) = ReadP.val_main_v95 (F := F) x4 ∧ V (Proc.devRef .tc main_v96) = ReadP.val_main_v96 (F := F)
def I2_145 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v95) = ReadP.val_main_v95 (F := F) x4 ∧ V (Proc.devRef .tc main_v97) = ReadP.val_main_v97 (F := F) x4
def I2_146 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v98) = ReadP.val_main_v98 (F := F) x4
def I2_147 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v98) = ReadP.val_main_v98 (F := F) x4 ∧ V (Proc.devRef .tc main_c_26) = ReadP.val_main_c_26 (F := F)
def I2_148 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v98) = ReadP.val_main_v98 (F := F) x4 ∧ V (Proc.devRef .tc main_v99) = ReadP.val_main_v99 (F := F)
def I2_149 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v98) = ReadP.val_main_v98 (F := F) x4 ∧ V (Proc.devRef .tc main_v100) = ReadP.val_main_v100 (F := F) x4
def I2_150 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v98) = ReadP.val_main_v98 (F := F) x4 ∧ V (Proc.devRef .tc main_v100) = ReadP.val_main_v100 (F := F) x4 ∧ V (Proc.devRef .tc main_c_27) = ReadP.val_main_c_27 (F := F)
def I2_151 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v98) = ReadP.val_main_v98 (F := F) x4 ∧ V (Proc.devRef .tc main_v100) = ReadP.val_main_v100 (F := F) x4 ∧ V (Proc.devRef .tc main_v101) = ReadP.val_main_v101 (F := F)
def I2_152 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v98) = ReadP.val_main_v98 (F := F) x4 ∧ V (Proc.devRef .tc main_v100) = ReadP.val_main_v100 (F := F) x4 ∧ V (Proc.devRef .tc main_v102) = ReadP.val_main_v102 (F := F) x4
def I2_153 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v78) = ReadP.val_main_v78 (F := F) ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v98) = ReadP.val_main_v98 (F := F) x4 ∧ V (Proc.devRef .tc main_v103) = ReadP.val_main_v103 (F := F) x4
def I2_154 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v98) = ReadP.val_main_v98 (F := F) x4 ∧ V (Proc.devRef .tc main_v103) = ReadP.val_main_v103 (F := F) x4 ∧ V (Proc.devRef .tc main_v104) = ReadP.val_main_v104 (F := F)
def I2_155 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v83) = ReadP.val_main_v83 (F := F) x2 x4 ∧ V (Proc.devRef .tc main_v88) = ReadP.val_main_v88 (F := F) x4 ∧ V (Proc.devRef .tc main_v93) = ReadP.val_main_v93 (F := F) x4 ∧ V (Proc.devRef .tc main_v98) = ReadP.val_main_v98 (F := F) x4 ∧ V (Proc.devRef .tc main_v103) = ReadP.val_main_v103 (F := F) x4 ∧ V (Proc.devRef .tc main_v105) = ReadP.val_main_v105 (F := F)
def I2_156 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v88) = ReadP.val_main_v88 (F := F) x4 ∧ V (Proc.devRef .tc main_v93) = ReadP.val_main_v93 (F := F) x4 ∧ V (Proc.devRef .tc main_v98) = ReadP.val_main_v98 (F := F) x4 ∧ V (Proc.devRef .tc main_v103) = ReadP.val_main_v103 (F := F) x4 ∧ V (Proc.devRef .tc main_v105) = ReadP.val_main_v105 (F := F) ∧ V (Proc.devRef .tc main_v106) = ReadP.val_main_v106 (F := F) x2 x4
def I2_157 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v93) = ReadP.val_main_v93 (F := F) x4 ∧ V (Proc.devRef .tc main_v98) = ReadP.val_main_v98 (F := F) x4 ∧ V (Proc.devRef .tc main_v103) = ReadP.val_main_v103 (F := F) x4 ∧ V (Proc.devRef .tc main_v105) = ReadP.val_main_v105 (F := F) ∧ V (Proc.devRef .tc main_v106) = ReadP.val_main_v106 (F := F) x2 x4 ∧ V (Proc.devRef .tc main_v107) = ReadP.val_main_v107 (F := F) x4
def I2_158 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v98) = ReadP.val_main_v98 (F := F) x4 ∧ V (Proc.devRef .tc main_v103) = ReadP.val_main_v103 (F := F) x4 ∧ V (Proc.devRef .tc main_v105) = ReadP.val_main_v105 (F := F) ∧ V (Proc.devRef .tc main_v106) = ReadP.val_main_v106 (F := F) x2 x4 ∧ V (Proc.devRef .tc main_v107) = ReadP.val_main_v107 (F := F) x4 ∧ V (Proc.devRef .tc main_v108) = ReadP.val_main_v108 (F := F) x4
def I2_159 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v103) = ReadP.val_main_v103 (F := F) x4 ∧ V (Proc.devRef .tc main_v105) = ReadP.val_main_v105 (F := F) ∧ V (Proc.devRef .tc main_v106) = ReadP.val_main_v106 (F := F) x2 x4 ∧ V (Proc.devRef .tc main_v107) = ReadP.val_main_v107 (F := F) x4 ∧ V (Proc.devRef .tc main_v108) = ReadP.val_main_v108 (F := F) x4 ∧ V (Proc.devRef .tc main_v109) = ReadP.val_main_v109 (F := F) x4
def I2_160 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v105) = ReadP.val_main_v105 (F := F) ∧ V (Proc.devRef .tc main_v106) = ReadP.val_main_v106 (F := F) x2 x4 ∧ V (Proc.devRef .tc main_v107) = ReadP.val_main_v107 (F := F) x4 ∧ V (Proc.devRef .tc main_v108) = ReadP.val_main_v108 (F := F) x4 ∧ V (Proc.devRef .tc main_v109) = ReadP.val_main_v109 (F := F) x4 ∧ V (Proc.devRef .tc main_v110) = ReadP.val_main_v110 (F := F) x4
def I2_161 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v3) = ReadP.val_main_v3 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v111) = ReadP.val_main_v111 (F := F) x2 x4
def I2_162 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v112) = ReadP.val_main_v112 (F := F) x0 x2 x4
def I2_163 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v112) = ReadP.val_main_v112 (F := F) x0 x2 x4 ∧ V (Proc.devRef .tc main_c_28) = ReadP.val_main_c_28 (F := F)
def I2_164 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v112) = ReadP.val_main_v112 (F := F) x0 x2 x4 ∧ V (Proc.devRef .tc main_v113) = ReadP.val_main_v113 (F := F)
def I2_165 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v112) = ReadP.val_main_v112 (F := F) x0 x2 x4 ∧ V (Proc.devRef .tc main_v114) = ReadP.val_main_v114 (F := F)
def I2_166 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v112) = ReadP.val_main_v112 (F := F) x0 x2 x4 ∧ V (Proc.devRef .tc main_v114) = ReadP.val_main_v114 (F := F) ∧ V (Proc.devRef .tc main_c_29) = ReadP.val_main_c_29 (F := F)
def I2_167 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v112) = ReadP.val_main_v112 (F := F) x0 x2 x4 ∧ V (Proc.devRef .tc main_v114) = ReadP.val_main_v114 (F := F) ∧ V (Proc.devRef .tc main_v115) = ReadP.val_main_v115 (F := F)
def I2_168 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v38) = ReadP.val_main_v38 (F := F) ∧ V (Proc.devRef .tc main_v73) = ReadP.val_main_v73 (F := F) x2 x4 ∧ V (Proc.devRef .tc main_v112) = ReadP.val_main_v112 (F := F) x0 x2 x4 ∧ V (Proc.devRef .tc main_v114) = ReadP.val_main_v114 (F := F) ∧ V (Proc.devRef .tc main_v116) = ReadP.val_main_v116 (F := F)
def I2_169 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F)
def I2_170 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_c_30) = ReadP.val_main_c_30 (F := F)
def I2_171 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v118) = ReadP.val_main_v118 (F := F)
def I2_172 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v119) = ReadP.val_main_v119 (F := F) x2 x4
def I2_173 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v119) = ReadP.val_main_v119 (F := F) x2 x4 ∧ V (Proc.devRef .tc main_c_31) = ReadP.val_main_c_31 (F := F)
def I2_174 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v119) = ReadP.val_main_v119 (F := F) x2 x4 ∧ V (Proc.devRef .tc main_v120) = ReadP.val_main_v120 (F := F)
def I2_175 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v119) = ReadP.val_main_v119 (F := F) x2 x4 ∧ V (Proc.devRef .tc main_v121) = ReadP.val_main_v121 (F := F) x2 x4
def I2_176 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4
def I2_177 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_c_32) = ReadP.val_main_c_32 (F := F)
def I2_178 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v123) = ReadP.val_main_v123 (F := F)
def I2_179 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v124) = ReadP.val_main_v124 (F := F) x4
def I2_180 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v124) = ReadP.val_main_v124 (F := F) x4 ∧ V (Proc.devRef .tc main_c_33) = ReadP.val_main_c_33 (F := F)
def I2_181 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v124) = ReadP.val_main_v124 (F := F) x4 ∧ V (Proc.devRef .tc main_v125) = ReadP.val_main_v125 (F := F)
def I2_182 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v30) = ReadP.val_main_v30 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v124) = ReadP.val_main_v124 (F := F) x4 ∧ V (Proc.devRef .tc main_v126) = ReadP.val_main_v126 (F := F) x4
def I2_183 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4
def I2_184 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_c_34) = ReadP.val_main_c_34 (F := F)
def I2_185 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v128) = ReadP.val_main_v128 (F := F)
def I2_186 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v129) = ReadP.val_main_v129 (F := F) x4
def I2_187 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v129) = ReadP.val_main_v129 (F := F) x4 ∧ V (Proc.devRef .tc main_c_35) = ReadP.val_main_c_35 (F := F)
def I2_188 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v129) = ReadP.val_main_v129 (F := F) x4 ∧ V (Proc.devRef .tc main_v130) = ReadP.val_main_v130 (F := F)
def I2_189 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v32) = ReadP.val_main_v32 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v129) = ReadP.val_main_v129 (F := F) x4 ∧ V (Proc.devRef .tc main_v131) = ReadP.val_main_v131 (F := F) x4
def I2_190 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4
def I2_191 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_c_36) = ReadP.val_main_c_36 (F := F)
def I2_192 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v133) = ReadP.val_main_v133 (F := F)
def I2_193 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v134) = ReadP.val_main_v134 (F := F) x4
def I2_194 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v134) = ReadP.val_main_v134 (F := F) x4 ∧ V (Proc.devRef .tc main_c_37) = ReadP.val_main_c_37 (F := F)
def I2_195 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v134) = ReadP.val_main_v134 (F := F) x4 ∧ V (Proc.devRef .tc main_v135) = ReadP.val_main_v135 (F := F)
def I2_196 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v34) = ReadP.val_main_v34 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v134) = ReadP.val_main_v134 (F := F) x4 ∧ V (Proc.devRef .tc main_v136) = ReadP.val_main_v136 (F := F) x4
def I2_197 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v137) = ReadP.val_main_v137 (F := F) x4
def I2_198 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v137) = ReadP.val_main_v137 (F := F) x4 ∧ V (Proc.devRef .tc main_c_38) = ReadP.val_main_c_38 (F := F)
def I2_199 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v137) = ReadP.val_main_v137 (F := F) x4 ∧ V (Proc.devRef .tc main_v138) = ReadP.val_main_v138 (F := F)

theorem s139 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_139 V x0 x1 x2 x3 x4 x5 x6 → I2_140 ((nullary main_c_24 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; (try simp only [TRef.ofBuf, TRef.toBuf, cast_eq]); rfl⟩
theorem s140 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_140 V x0 x1 x2 x3 x4 x5 x6 → I2_141 ((unary main_c_24 main_v94 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_c_24⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; (try simp only [TRef.ofBuf, TRef.toBuf, cast_eq]); rw [h_main_c_24]; rfl⟩
theorem s141 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_141 V x0 x1 x2 x3 x4 x5 x6 → I2_142 ((binary main_v34 main_v94 main_v95 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v94⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; (try simp only [TRef.ofBuf, TRef.toBuf, cast_eq]); rw [h_main_v34, h_main_v94]; rfl⟩
theorem s142 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_142 V x0 x1 x2 x3 x4 x5 x6 → I2_143 ((nullary main_c_25 (constantI S_ 32 64#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v95⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; exact h_main_v95,
    by after_results_simp; (try simp only [TRef.ofBuf, TRef.toBuf, cast_eq]); rfl⟩
theorem s143 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_143 V x0 x1 x2 x3 x4 x5 x6 → I2_144 ((unary main_c_25 main_v96 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v95, h_main_c_25⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; exact h_main_v95,
    by after_results_simp; (try simp only [TRef.ofBuf, TRef.toBuf, cast_eq]); rw [h_main_c_25]; rfl⟩
theorem s144 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_144 V x0 x1 x2 x3 x4 x5 x6 → I2_145 ((binary main_v34 main_v96 main_v97 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v95, h_main_v96⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; exact h_main_v95,
    by after_results_simp; (try simp only [TRef.ofBuf, TRef.toBuf, cast_eq]); rw [h_main_v34, h_main_v96]; rfl⟩
theorem s145 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_145 V x0 x1 x2 x3 x4 x5 x6 → I2_146 ((ternary main_v95 main_v97 main_v34 main_v98 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v95, h_main_v97⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; (try simp only [TRef.ofBuf, TRef.toBuf, cast_eq]); rw [h_main_v95, h_main_v97, h_main_v34]; rfl⟩
theorem s146 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_146 V x0 x1 x2 x3 x4 x5 x6 → I2_147 ((nullary main_c_26 (constantI S_ 32 0#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v98⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; exact h_main_v98,
    by after_results_simp; (try simp only [TRef.ofBuf, TRef.toBuf, cast_eq]); rfl⟩
theorem s147 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_147 V x0 x1 x2 x3 x4 x5 x6 → I2_148 ((unary main_c_26 main_v99 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v98, h_main_c_26⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; exact h_main_v98,
    by after_results_simp; (try simp only [TRef.ofBuf, TRef.toBuf, cast_eq]); rw [h_main_c_26]; rfl⟩
theorem s148 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_148 V x0 x1 x2 x3 x4 x5 x6 → I2_149 ((binary main_v36 main_v99 main_v100 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v98, h_main_v99⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; exact h_main_v98,
    by after_results_simp; (try simp only [TRef.ofBuf, TRef.toBuf, cast_eq]); rw [h_main_v36, h_main_v99]; rfl⟩
theorem s149 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_149 V x0 x1 x2 x3 x4 x5 x6 → I2_150 ((nullary main_c_27 (constantI S_ 32 64#32)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v98, h_main_v100⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; exact h_main_v98,
    by after_results_simp; exact h_main_v100,
    by after_results_simp; (try simp only [TRef.ofBuf, TRef.toBuf, cast_eq]); rfl⟩
theorem s150 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_150 V x0 x1 x2 x3 x4 x5 x6 → I2_151 ((unary main_c_27 main_v101 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v98, h_main_v100, h_main_c_27⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; exact h_main_v98,
    by after_results_simp; exact h_main_v100,
    by after_results_simp; (try simp only [TRef.ofBuf, TRef.toBuf, cast_eq]); rw [h_main_c_27]; rfl⟩
theorem s151 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_151 V x0 x1 x2 x3 x4 x5 x6 → I2_152 ((binary main_v36 main_v101 main_v102 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v98, h_main_v100, h_main_v101⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; exact h_main_v98,
    by after_results_simp; exact h_main_v100,
    by after_results_simp; (try simp only [TRef.ofBuf, TRef.toBuf, cast_eq]); rw [h_main_v36, h_main_v101]; rfl⟩
theorem s152 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_152 V x0 x1 x2 x3 x4 x5 x6 → I2_153 ((ternary main_v100 main_v102 main_v36 main_v103 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v98, h_main_v100, h_main_v102⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v78,
    by after_results_simp; exact h_main_v83,
    by after_results_simp; exact h_main_v88,
    by after_results_simp; exact h_main_v93,
    by after_results_simp; exact h_main_v98,
    by after_results_simp; (try simp only [TRef.ofBuf, TRef.toBuf, cast_eq]); rw [h_main_v100, h_main_v102, h_main_v36]; rfl⟩
theorem s153 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_153 V x0 x1 x2 x3 x4 x5 x6 → I2_154 ((unary main_v78 main_v104 (broadcastInDim S4x128 ![0, 1] bcast_S4x1_S4x128_0_1 : (⟨S4x1, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v78, h_main_v83, h_main_v88, h_main_v93, h_main_v98, h_main_v103⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v83,
    by after_results_simp; exact h_main_v88,
    by after_results_simp; exact h_main_v93,
    by after_results_simp; exact h_main_v98,
    by after_results_simp; exact h_main_v103,
    by after_results_simp; (try simp only [TRef.ofBuf, TRef.toBuf, cast_eq]); rw [h_main_v78]; rfl⟩
theorem s154 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_154 V x0 x1 x2 x3 x4 x5 x6 → I2_155 ((unary main_v104 main_v105 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v83, h_main_v88, h_main_v93, h_main_v98, h_main_v103, h_main_v104⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v83,
    by after_results_simp; exact h_main_v88,
    by after_results_simp; exact h_main_v93,
    by after_results_simp; exact h_main_v98,
    by after_results_simp; exact h_main_v103,
    by after_results_simp; (try simp only [TRef.ofBuf, TRef.toBuf, cast_eq]); rw [h_main_v104]; rfl⟩
theorem s155 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_155 V x0 x1 x2 x3 x4 x5 x6 → I2_156 ((unary main_v83 main_v106 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v83, h_main_v88, h_main_v93, h_main_v98, h_main_v103, h_main_v105⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v88,
    by after_results_simp; exact h_main_v93,
    by after_results_simp; exact h_main_v98,
    by after_results_simp; exact h_main_v103,
    by after_results_simp; exact h_main_v105,
    by after_results_simp; (try simp only [TRef.ofBuf, TRef.toBuf, cast_eq]); rw [h_main_v83]; rfl⟩
theorem s156 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_156 V x0 x1 x2 x3 x4 x5 x6 → I2_157 ((unary main_v88 main_v107 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v88, h_main_v93, h_main_v98, h_main_v103, h_main_v105, h_main_v106⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v93,
    by after_results_simp; exact h_main_v98,
    by after_results_simp; exact h_main_v103,
    by after_results_simp; exact h_main_v105,
    by after_results_simp; exact h_main_v106,
    by after_results_simp; (try simp only [TRef.ofBuf, TRef.toBuf, cast_eq]); rw [h_main_v88]; rfl⟩
theorem s157 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_157 V x0 x1 x2 x3 x4 x5 x6 → I2_158 ((unary main_v93 main_v108 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v93, h_main_v98, h_main_v103, h_main_v105, h_main_v106, h_main_v107⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v98,
    by after_results_simp; exact h_main_v103,
    by after_results_simp; exact h_main_v105,
    by after_results_simp; exact h_main_v106,
    by after_results_simp; exact h_main_v107,
    by after_results_simp; (try simp only [TRef.ofBuf, TRef.toBuf, cast_eq]); rw [h_main_v93]; rfl⟩
theorem s158 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_158 V x0 x1 x2 x3 x4 x5 x6 → I2_159 ((unary main_v98 main_v109 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v98, h_main_v103, h_main_v105, h_main_v106, h_main_v107, h_main_v108⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v103,
    by after_results_simp; exact h_main_v105,
    by after_results_simp; exact h_main_v106,
    by after_results_simp; exact h_main_v107,
    by after_results_simp; exact h_main_v108,
    by after_results_simp; (try simp only [TRef.ofBuf, TRef.toBuf, cast_eq]); rw [h_main_v98]; rfl⟩
theorem s159 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_159 V x0 x1 x2 x3 x4 x5 x6 → I2_160 ((unary main_v103 main_v110 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v103, h_main_v105, h_main_v106, h_main_v107, h_main_v108, h_main_v109⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v105,
    by after_results_simp; exact h_main_v106,
    by after_results_simp; exact h_main_v107,
    by after_results_simp; exact h_main_v108,
    by after_results_simp; exact h_main_v109,
    by after_results_simp; (try simp only [TRef.ofBuf, TRef.toBuf, cast_eq]); rw [h_main_v103]; rfl⟩
theorem s160 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_160 V x0 x1 x2 x3 x4 x5 x6 → I2_161 ((nary ![main_v105, main_v106, main_v107, main_v108, main_v109, main_v110] main_v111 (fun u => concatenate S4x128x6 2 [⟨S4x128x1, u 0⟩, ⟨S4x128x1, u 1⟩, ⟨S4x128x1, u 2⟩, ⟨S4x128x1, u 3⟩, ⟨S4x128x1, u 4⟩, ⟨S4x128x1, u 5⟩] concatenates_S4x128x1_S4x128x1_S4x128x1_S4x128x1_S4x128x1_S4x128x1_S4x128x6_d2)).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v105, h_main_v106, h_main_v107, h_main_v108, h_main_v109, h_main_v110⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v3,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; (try simp only [TRef.ofBuf, TRef.toBuf, cast_eq]); dsimp only [Matrix.cons_val]; rw [h_main_v105, h_main_v106, h_main_v107, h_main_v108, h_main_v109, h_main_v110]; rfl⟩
theorem s161 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_161 V x0 x1 x2 x3 x4 x5 x6 → I2_162 ((binary main_v3 main_v111 main_v112 ((fun x i => Host.gather gather_S4x3x3x64x64x64_S4x128x6_S4x128_n_012345_n_n_012345_2_111111 x i) : (⟨S4x3x3x64x64x64, .f32⟩ : BufTy).Contents (Elt F) → (⟨S4x128x6, .i32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v3, h_main_v21, h_main_v22, h_main_v26, h_main_v30, h_main_v32, h_main_v34, h_main_v36, h_main_v38, h_main_v73, h_main_v111⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; (try simp only [TRef.ofBuf, TRef.toBuf, cast_eq]); rw [h_main_v3, h_main_v111]; rfl⟩
theorem s162 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_162 V x0 x1 x2 x3 x4 x5 x6 → I2_163 ((nullary main_c_28 (constantI S_ 32 0#32)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v38, h_main_v73, h_main_v112⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v112,
    by after_results_simp; (try simp only [TRef.ofBuf, TRef.toBuf, cast_eq]); rfl⟩
theorem s163 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_163 V x0 x1 x2 x3 x4 x5 x6 → I2_164 ((unary main_c_28 main_v113 (broadcastInDim S4x1 ![] bcast_S_S4x1 : (⟨S_, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v38, h_main_v73, h_main_v112, h_main_c_28⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v112,
    by after_results_simp; (try simp only [TRef.ofBuf, TRef.toBuf, cast_eq]); rw [h_main_c_28]; rfl⟩
theorem s164 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_164 V x0 x1 x2 x3 x4 x5 x6 → I2_165 ((binary main_v38 main_v113 main_v114 (cmpi .slt : (⟨S4x1, .i32⟩ : BufTy).Contents (Elt F) → (⟨S4x1, .i32⟩ : BufTy).Contents (Elt F) → (⟨S4x1, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v38, h_main_v73, h_main_v112, h_main_v113⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v112,
    by after_results_simp; (try simp only [TRef.ofBuf, TRef.toBuf, cast_eq]); rw [h_main_v38, h_main_v113]; rfl⟩
theorem s165 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_165 V x0 x1 x2 x3 x4 x5 x6 → I2_166 ((nullary main_c_29 (constantI S_ 32 4#32)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v38, h_main_v73, h_main_v112, h_main_v114⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v112,
    by after_results_simp; exact h_main_v114,
    by after_results_simp; (try simp only [TRef.ofBuf, TRef.toBuf, cast_eq]); rfl⟩
theorem s166 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_166 V x0 x1 x2 x3 x4 x5 x6 → I2_167 ((unary main_c_29 main_v115 (broadcastInDim S4x1 ![] bcast_S_S4x1 : (⟨S_, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v38, h_main_v73, h_main_v112, h_main_v114, h_main_c_29⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v112,
    by after_results_simp; exact h_main_v114,
    by after_results_simp; (try simp only [TRef.ofBuf, TRef.toBuf, cast_eq]); rw [h_main_c_29]; rfl⟩
theorem s167 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_167 V x0 x1 x2 x3 x4 x5 x6 → I2_168 ((binary main_v38 main_v115 main_v116 (addi : (⟨S4x1, .i32⟩ : BufTy).Contents (Elt F) → (⟨S4x1, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v38, h_main_v73, h_main_v112, h_main_v114, h_main_v115⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v38,
    by after_results_simp; exact h_main_v73,
    by after_results_simp; exact h_main_v112,
    by after_results_simp; exact h_main_v114,
    by after_results_simp; (try simp only [TRef.ofBuf, TRef.toBuf, cast_eq]); rw [h_main_v38, h_main_v115]; rfl⟩
theorem s168 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_168 V x0 x1 x2 x3 x4 x5 x6 → I2_169 ((ternary main_v114 main_v116 main_v38 main_v117 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v38, h_main_v73, h_main_v112, h_main_v114, h_main_v116⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; (try simp only [TRef.ofBuf, TRef.toBuf, cast_eq]); rw [h_main_v114, h_main_v116, h_main_v38]; rfl⟩
theorem s169 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_169 V x0 x1 x2 x3 x4 x5 x6 → I2_170 ((nullary main_c_30 (constantI S_ 32 0#32)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; (try simp only [TRef.ofBuf, TRef.toBuf, cast_eq]); rfl⟩
theorem s170 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_170 V x0 x1 x2 x3 x4 x5 x6 → I2_171 ((unary main_c_30 main_v118 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_c_30⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; (try simp only [TRef.ofBuf, TRef.toBuf, cast_eq]); rw [h_main_c_30]; rfl⟩
theorem s171 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_171 V x0 x1 x2 x3 x4 x5 x6 → I2_172 ((binary main_v73 main_v118 main_v119 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_v118⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; (try simp only [TRef.ofBuf, TRef.toBuf, cast_eq]); rw [h_main_v73, h_main_v118]; rfl⟩
theorem s172 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_172 V x0 x1 x2 x3 x4 x5 x6 → I2_173 ((nullary main_c_31 (constantI S_ 32 3#32)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_v119⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v119,
    by after_results_simp; (try simp only [TRef.ofBuf, TRef.toBuf, cast_eq]); rfl⟩
theorem s173 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_173 V x0 x1 x2 x3 x4 x5 x6 → I2_174 ((unary main_c_31 main_v120 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_v119, h_main_c_31⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v119,
    by after_results_simp; (try simp only [TRef.ofBuf, TRef.toBuf, cast_eq]); rw [h_main_c_31]; rfl⟩
theorem s174 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_174 V x0 x1 x2 x3 x4 x5 x6 → I2_175 ((binary main_v73 main_v120 main_v121 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_v119, h_main_v120⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v119,
    by after_results_simp; (try simp only [TRef.ofBuf, TRef.toBuf, cast_eq]); rw [h_main_v73, h_main_v120]; rfl⟩
theorem s175 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_175 V x0 x1 x2 x3 x4 x5 x6 → I2_176 ((ternary main_v119 main_v121 main_v73 main_v122 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_v119, h_main_v121⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; (try simp only [TRef.ofBuf, TRef.toBuf, cast_eq]); rw [h_main_v119, h_main_v121, h_main_v73]; rfl⟩
theorem s176 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_176 V x0 x1 x2 x3 x4 x5 x6 → I2_177 ((nullary main_c_32 (constantI S_ 32 0#32)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_v122⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; (try simp only [TRef.ofBuf, TRef.toBuf, cast_eq]); rfl⟩
theorem s177 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_177 V x0 x1 x2 x3 x4 x5 x6 → I2_178 ((unary main_c_32 main_v123 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_v122, h_main_c_32⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; (try simp only [TRef.ofBuf, TRef.toBuf, cast_eq]); rw [h_main_c_32]; rfl⟩
theorem s178 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_178 V x0 x1 x2 x3 x4 x5 x6 → I2_179 ((binary main_v30 main_v123 main_v124 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_v122, h_main_v123⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; (try simp only [TRef.ofBuf, TRef.toBuf, cast_eq]); rw [h_main_v30, h_main_v123]; rfl⟩
theorem s179 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_179 V x0 x1 x2 x3 x4 x5 x6 → I2_180 ((nullary main_c_33 (constantI S_ 32 3#32)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_v122, h_main_v124⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v124,
    by after_results_simp; (try simp only [TRef.ofBuf, TRef.toBuf, cast_eq]); rfl⟩
theorem s180 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_180 V x0 x1 x2 x3 x4 x5 x6 → I2_181 ((unary main_c_33 main_v125 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_v122, h_main_v124, h_main_c_33⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v124,
    by after_results_simp; (try simp only [TRef.ofBuf, TRef.toBuf, cast_eq]); rw [h_main_c_33]; rfl⟩
theorem s181 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_181 V x0 x1 x2 x3 x4 x5 x6 → I2_182 ((binary main_v30 main_v125 main_v126 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_v122, h_main_v124, h_main_v125⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v30,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v124,
    by after_results_simp; (try simp only [TRef.ofBuf, TRef.toBuf, cast_eq]); rw [h_main_v30, h_main_v125]; rfl⟩
theorem s182 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_182 V x0 x1 x2 x3 x4 x5 x6 → I2_183 ((ternary main_v124 main_v126 main_v30 main_v127 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v30, h_main_v32, h_main_v34, h_main_v36, h_main_v73, h_main_v112, h_main_v117, h_main_v122, h_main_v124, h_main_v126⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; (try simp only [TRef.ofBuf, TRef.toBuf, cast_eq]); rw [h_main_v124, h_main_v126, h_main_v30]; rfl⟩
theorem s183 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_183 V x0 x1 x2 x3 x4 x5 x6 → I2_184 ((nullary main_c_34 (constantI S_ 32 0#32)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v32, h_main_v34, h_main_v36, h_main_v73, h_main_v112, h_main_v117, h_main_v122, h_main_v127⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; (try simp only [TRef.ofBuf, TRef.toBuf, cast_eq]); rfl⟩
theorem s184 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_184 V x0 x1 x2 x3 x4 x5 x6 → I2_185 ((unary main_c_34 main_v128 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v32, h_main_v34, h_main_v36, h_main_v73, h_main_v112, h_main_v117, h_main_v122, h_main_v127, h_main_c_34⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; (try simp only [TRef.ofBuf, TRef.toBuf, cast_eq]); rw [h_main_c_34]; rfl⟩
theorem s185 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_185 V x0 x1 x2 x3 x4 x5 x6 → I2_186 ((binary main_v32 main_v128 main_v129 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v32, h_main_v34, h_main_v36, h_main_v73, h_main_v112, h_main_v117, h_main_v122, h_main_v127, h_main_v128⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; (try simp only [TRef.ofBuf, TRef.toBuf, cast_eq]); rw [h_main_v32, h_main_v128]; rfl⟩
theorem s186 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_186 V x0 x1 x2 x3 x4 x5 x6 → I2_187 ((nullary main_c_35 (constantI S_ 32 64#32)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v32, h_main_v34, h_main_v36, h_main_v73, h_main_v112, h_main_v117, h_main_v122, h_main_v127, h_main_v129⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v129,
    by after_results_simp; (try simp only [TRef.ofBuf, TRef.toBuf, cast_eq]); rfl⟩
theorem s187 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_187 V x0 x1 x2 x3 x4 x5 x6 → I2_188 ((unary main_c_35 main_v130 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v32, h_main_v34, h_main_v36, h_main_v73, h_main_v112, h_main_v117, h_main_v122, h_main_v127, h_main_v129, h_main_c_35⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v129,
    by after_results_simp; (try simp only [TRef.ofBuf, TRef.toBuf, cast_eq]); rw [h_main_c_35]; rfl⟩
theorem s188 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_188 V x0 x1 x2 x3 x4 x5 x6 → I2_189 ((binary main_v32 main_v130 main_v131 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v32, h_main_v34, h_main_v36, h_main_v73, h_main_v112, h_main_v117, h_main_v122, h_main_v127, h_main_v129, h_main_v130⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v32,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v129,
    by after_results_simp; (try simp only [TRef.ofBuf, TRef.toBuf, cast_eq]); rw [h_main_v32, h_main_v130]; rfl⟩
theorem s189 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_189 V x0 x1 x2 x3 x4 x5 x6 → I2_190 ((ternary main_v129 main_v131 main_v32 main_v132 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v32, h_main_v34, h_main_v36, h_main_v73, h_main_v112, h_main_v117, h_main_v122, h_main_v127, h_main_v129, h_main_v131⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; (try simp only [TRef.ofBuf, TRef.toBuf, cast_eq]); rw [h_main_v129, h_main_v131, h_main_v32]; rfl⟩
theorem s190 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_190 V x0 x1 x2 x3 x4 x5 x6 → I2_191 ((nullary main_c_36 (constantI S_ 32 0#32)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v34, h_main_v36, h_main_v73, h_main_v112, h_main_v117, h_main_v122, h_main_v127, h_main_v132⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; (try simp only [TRef.ofBuf, TRef.toBuf, cast_eq]); rfl⟩
theorem s191 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_191 V x0 x1 x2 x3 x4 x5 x6 → I2_192 ((unary main_c_36 main_v133 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v34, h_main_v36, h_main_v73, h_main_v112, h_main_v117, h_main_v122, h_main_v127, h_main_v132, h_main_c_36⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; (try simp only [TRef.ofBuf, TRef.toBuf, cast_eq]); rw [h_main_c_36]; rfl⟩
theorem s192 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_192 V x0 x1 x2 x3 x4 x5 x6 → I2_193 ((binary main_v34 main_v133 main_v134 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v34, h_main_v36, h_main_v73, h_main_v112, h_main_v117, h_main_v122, h_main_v127, h_main_v132, h_main_v133⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; (try simp only [TRef.ofBuf, TRef.toBuf, cast_eq]); rw [h_main_v34, h_main_v133]; rfl⟩
theorem s193 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_193 V x0 x1 x2 x3 x4 x5 x6 → I2_194 ((nullary main_c_37 (constantI S_ 32 64#32)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v34, h_main_v36, h_main_v73, h_main_v112, h_main_v117, h_main_v122, h_main_v127, h_main_v132, h_main_v134⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; exact h_main_v134,
    by after_results_simp; (try simp only [TRef.ofBuf, TRef.toBuf, cast_eq]); rfl⟩
theorem s194 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_194 V x0 x1 x2 x3 x4 x5 x6 → I2_195 ((unary main_c_37 main_v135 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v34, h_main_v36, h_main_v73, h_main_v112, h_main_v117, h_main_v122, h_main_v127, h_main_v132, h_main_v134, h_main_c_37⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; exact h_main_v134,
    by after_results_simp; (try simp only [TRef.ofBuf, TRef.toBuf, cast_eq]); rw [h_main_c_37]; rfl⟩
theorem s195 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_195 V x0 x1 x2 x3 x4 x5 x6 → I2_196 ((binary main_v34 main_v135 main_v136 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v34, h_main_v36, h_main_v73, h_main_v112, h_main_v117, h_main_v122, h_main_v127, h_main_v132, h_main_v134, h_main_v135⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v34,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; exact h_main_v134,
    by after_results_simp; (try simp only [TRef.ofBuf, TRef.toBuf, cast_eq]); rw [h_main_v34, h_main_v135]; rfl⟩
theorem s196 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_196 V x0 x1 x2 x3 x4 x5 x6 → I2_197 ((ternary main_v134 main_v136 main_v34 main_v137 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v34, h_main_v36, h_main_v73, h_main_v112, h_main_v117, h_main_v122, h_main_v127, h_main_v132, h_main_v134, h_main_v136⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; (try simp only [TRef.ofBuf, TRef.toBuf, cast_eq]); rw [h_main_v134, h_main_v136, h_main_v34]; rfl⟩
theorem s197 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_197 V x0 x1 x2 x3 x4 x5 x6 → I2_198 ((nullary main_c_38 (constantI S_ 32 0#32)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v36, h_main_v73, h_main_v112, h_main_v117, h_main_v122, h_main_v127, h_main_v132, h_main_v137⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; exact h_main_v137,
    by after_results_simp; (try simp only [TRef.ofBuf, TRef.toBuf, cast_eq]); rfl⟩
theorem s198 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I2_198 V x0 x1 x2 x3 x4 x5 x6 → I2_199 ((unary main_c_38 main_v138 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v36, h_main_v73, h_main_v112, h_main_v117, h_main_v122, h_main_v127, h_main_v132, h_main_v137, h_main_c_38⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; exact h_main_v137,
    by after_results_simp; (try simp only [TRef.ofBuf, TRef.toBuf, cast_eq]); rw [h_main_c_38]; rfl⟩

set_option maxRecDepth 8192 in
set_option maxHeartbeats 4000000 in
/-- The window, from any contents. -/
theorem w2 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) (h139 : I2_139 V x0 x1 x2 x3 x4 x5 x6) : I2_199 (after ops_p2 V) x0 x1 x2 x3 x4 x5 x6 := by
  simp only [ops_p2, after_cons, after_nil]
  have h140 := s139 _ x0 x1 x2 x3 x4 x5 x6 h139
  have h141 := s140 _ x0 x1 x2 x3 x4 x5 x6 h140
  have h142 := s141 _ x0 x1 x2 x3 x4 x5 x6 h141
  have h143 := s142 _ x0 x1 x2 x3 x4 x5 x6 h142
  have h144 := s143 _ x0 x1 x2 x3 x4 x5 x6 h143
  have h145 := s144 _ x0 x1 x2 x3 x4 x5 x6 h144
  have h146 := s145 _ x0 x1 x2 x3 x4 x5 x6 h145
  have h147 := s146 _ x0 x1 x2 x3 x4 x5 x6 h146
  have h148 := s147 _ x0 x1 x2 x3 x4 x5 x6 h147
  have h149 := s148 _ x0 x1 x2 x3 x4 x5 x6 h148
  have h150 := s149 _ x0 x1 x2 x3 x4 x5 x6 h149
  have h151 := s150 _ x0 x1 x2 x3 x4 x5 x6 h150
  have h152 := s151 _ x0 x1 x2 x3 x4 x5 x6 h151
  have h153 := s152 _ x0 x1 x2 x3 x4 x5 x6 h152
  have h154 := s153 _ x0 x1 x2 x3 x4 x5 x6 h153
  have h155 := s154 _ x0 x1 x2 x3 x4 x5 x6 h154
  have h156 := s155 _ x0 x1 x2 x3 x4 x5 x6 h155
  have h157 := s156 _ x0 x1 x2 x3 x4 x5 x6 h156
  have h158 := s157 _ x0 x1 x2 x3 x4 x5 x6 h157
  have h159 := s158 _ x0 x1 x2 x3 x4 x5 x6 h158
  have h160 := s159 _ x0 x1 x2 x3 x4 x5 x6 h159
  have h161 := s160 _ x0 x1 x2 x3 x4 x5 x6 h160
  have h162 := s161 _ x0 x1 x2 x3 x4 x5 x6 h161
  have h163 := s162 _ x0 x1 x2 x3 x4 x5 x6 h162
  have h164 := s163 _ x0 x1 x2 x3 x4 x5 x6 h163
  have h165 := s164 _ x0 x1 x2 x3 x4 x5 x6 h164
  have h166 := s165 _ x0 x1 x2 x3 x4 x5 x6 h165
  have h167 := s166 _ x0 x1 x2 x3 x4 x5 x6 h166
  have h168 := s167 _ x0 x1 x2 x3 x4 x5 x6 h167
  have h169 := s168 _ x0 x1 x2 x3 x4 x5 x6 h168
  have h170 := s169 _ x0 x1 x2 x3 x4 x5 x6 h169
  have h171 := s170 _ x0 x1 x2 x3 x4 x5 x6 h170
  have h172 := s171 _ x0 x1 x2 x3 x4 x5 x6 h171
  have h173 := s172 _ x0 x1 x2 x3 x4 x5 x6 h172
  have h174 := s173 _ x0 x1 x2 x3 x4 x5 x6 h173
  have h175 := s174 _ x0 x1 x2 x3 x4 x5 x6 h174
  have h176 := s175 _ x0 x1 x2 x3 x4 x5 x6 h175
  have h177 := s176 _ x0 x1 x2 x3 x4 x5 x6 h176
  have h178 := s177 _ x0 x1 x2 x3 x4 x5 x6 h177
  have h179 := s178 _ x0 x1 x2 x3 x4 x5 x6 h178
  have h180 := s179 _ x0 x1 x2 x3 x4 x5 x6 h179
  have h181 := s180 _ x0 x1 x2 x3 x4 x5 x6 h180
  have h182 := s181 _ x0 x1 x2 x3 x4 x5 x6 h181
  have h183 := s182 _ x0 x1 x2 x3 x4 x5 x6 h182
  have h184 := s183 _ x0 x1 x2 x3 x4 x5 x6 h183
  have h185 := s184 _ x0 x1 x2 x3 x4 x5 x6 h184
  have h186 := s185 _ x0 x1 x2 x3 x4 x5 x6 h185
  have h187 := s186 _ x0 x1 x2 x3 x4 x5 x6 h186
  have h188 := s187 _ x0 x1 x2 x3 x4 x5 x6 h187
  have h189 := s188 _ x0 x1 x2 x3 x4 x5 x6 h188
  have h190 := s189 _ x0 x1 x2 x3 x4 x5 x6 h189
  have h191 := s190 _ x0 x1 x2 x3 x4 x5 x6 h190
  have h192 := s191 _ x0 x1 x2 x3 x4 x5 x6 h191
  have h193 := s192 _ x0 x1 x2 x3 x4 x5 x6 h192
  have h194 := s193 _ x0 x1 x2 x3 x4 x5 x6 h193
  have h195 := s194 _ x0 x1 x2 x3 x4 x5 x6 h194
  have h196 := s195 _ x0 x1 x2 x3 x4 x5 x6 h195
  have h197 := s196 _ x0 x1 x2 x3 x4 x5 x6 h196
  have h198 := s197 _ x0 x1 x2 x3 x4 x5 x6 h197
  have h199 := s198 _ x0 x1 x2 x3 x4 x5 x6 h198
  exact h199

end Cert.Hand.RefRun

end
-- ==== Proof.Ref.RunP3.lean ====
/- Operations 199 … 272 of the reference program's straight line (its printed window 3): the list, the buffers it touches,
   and the window read one operation at a time: I3_k says which buffers hold which stage value after the first k
   operations of the whole line (the arguments x0 … x6, and every stage a later operation still reads); each operation
   takes I3_k to I3_(k+1): the buffer it writes gets its stage value (one unfolding of that stage), every other one is kept. -/
import proofs.«424358_j44040594653645_2_alg».proof.Proof.RefRead

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 199 … 272, in order. -/
abbrev ops_p3 : List (HloOp τ sig (Elt F)) :=
  [ binary main_v36 main_v138 main_v139 (cmpi .slt : (⟨S4x128, .i32⟩ : BufTy).Contents (Elt F) → (⟨S4x128, .i32⟩ : BufTy).Contents (Elt F) → (⟨S4x128, .i1⟩ : BufTy).Contents (Elt F)),
    nullary main_c_39 (constantI S_ 32 64#32),
    unary main_c_39 main_v140 (broadcastInDim S4x128 ![] bcast_S_S4x128 : (⟨S_, .i32⟩ : BufTy).Contents (Elt F) → (⟨S4x128, .i32⟩ : BufTy).Contents (Elt F)),
    binary main_v36 main_v140 main_v141 (addi : (⟨S4x128, .i32⟩ : BufTy).Contents (Elt F) → (⟨S4x128, .i32⟩ : BufTy).Contents (Elt F) → (⟨S4x128, .i32⟩ : BufTy).Contents (Elt F)),
    ternary main_v139 main_v141 main_v36 main_v142 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    unary main_v117 main_v143 (broadcastInDim S4x128 ![0, 1] bcast_S4x1_S4x128_0_1 : (⟨S4x1, .i32⟩ : BufTy).Contents (Elt F) → (⟨S4x128, .i32⟩ : BufTy).Contents (Elt F)),
    unary main_v143 main_v144 (broadcastInDim S4x128x1 ![0, 1] bcast_S4x128_S4x128x1_0_1 : (⟨S4x128, .i32⟩ : BufTy).Contents (Elt F) → (⟨S4x128x1, .i32⟩ : BufTy).Contents (Elt F)),
    unary main_v122 main_v145 (broadcastInDim S4x128x1 ![0, 1] bcast_S4x128_S4x128x1_0_1 : (⟨S4x128, .i32⟩ : BufTy).Contents (Elt F) → (⟨S4x128x1, .i32⟩ : BufTy).Contents (Elt F)),
    unary main_v127 main_v146 (broadcastInDim S4x128x1 ![0, 1] bcast_S4x128_S4x128x1_0_1 : (⟨S4x128, .i32⟩ : BufTy).Contents (Elt F) → (⟨S4x128x1, .i32⟩ : BufTy).Contents (Elt F)),
    unary main_v132 main_v147 (broadcastInDim S4x128x1 ![0, 1] bcast_S4x128_S4x128x1_0_1 : (⟨S4x128, .i32⟩ : BufTy).Contents (Elt F) → (⟨S4x128x1, .i32⟩ : BufTy).Contents (Elt F)),
    unary main_v137 main_v148 (broadcastInDim S4x128x1 ![0, 1] bcast_S4x128_S4x128x1_0_1 : (⟨S4x128, .i32⟩ : BufTy).Contents (Elt F) → (⟨S4x128x1, .i32⟩ : BufTy).Contents (Elt F)),
    unary main_v142 main_v149 (broadcastInDim S4x128x1 ![0, 1] bcast_S4x128_S4x128x1_0_1 : (⟨S4x128, .i32⟩ : BufTy).Contents (Elt F) → (⟨S4x128x1, .i32⟩ : BufTy).Contents (Elt F)),
    nary ![main_v144, main_v145, main_v146, main_v147, main_v148, main_v149] main_v150 (fun u => concatenate S4x128x6 2 [⟨S4x128x1, u 0⟩, ⟨S4x128x1, u 1⟩, ⟨S4x128x1, u 2⟩, ⟨S4x128x1, u 3⟩, ⟨S4x128x1, u 4⟩, ⟨S4x128x1, u 5⟩] concatenates_S4x128x1_S4x128x1_S4x128x1_S4x128x1_S4x128x1_S4x128x1_S4x128x6_d2),
    binary main_v2 main_v150 main_v151 ((fun x i => Host.gather gather_S4x3x3x64x64x64_S4x128x6_S4x128_n_012345_n_n_012345_2_111111 x i) : (⟨S4x3x3x64x64x64, .f32⟩ : BufTy).Contents (Elt F) → (⟨S4x128x6, .i32⟩ : BufTy).Contents (Elt F) → (⟨S4x128, .f32⟩ : BufTy).Contents (Elt F)),
    nullary main_cst_40 (constant S_ .f32 0x3F800000#32),
    unary main_cst_40 main_v152 (broadcastInDim S4x128 ![] bcast_S_S4x128 : (⟨S_, .f32⟩ : BufTy).Contents (Elt F) → (⟨S4x128, .f32⟩ : BufTy).Contents (Elt F)),
    binary main_v152 main_v112 main_v153 (subf : (⟨S4x128, .f32⟩ : BufTy).Contents (Elt F) → (⟨S4x128, .f32⟩ : BufTy).Contents (Elt F) → (⟨S4x128, .f32⟩ : BufTy).Contents (Elt F)),
    binary main_v153 main_v153 main_v154 (mulf : (⟨S4x128, .f32⟩ : BufTy).Contents (Elt F) → (⟨S4x128, .f32⟩ : BufTy).Contents (Elt F) → (⟨S4x128, .f32⟩ : BufTy).Contents (Elt F)),
    nullary main_c_41 (constantI S_ 32 0#32),
    unary main_c_41 main_v155 (broadcastInDim S4x128 ![] bcast_S_S4x128 : (⟨S_, .i32⟩ : BufTy).Contents (Elt F) → (⟨S4x128, .i32⟩ : BufTy).Contents (Elt F)),
    binary main_v73 main_v155 main_v156 (cmpi .slt : (⟨S4x128, .i32⟩ : BufTy).Contents (Elt F) → (⟨S4x128, .i32⟩ : BufTy).Contents (Elt F) → (⟨S4x128, .i1⟩ : BufTy).Contents (Elt F)),
    nullary main_c_42 (constantI S_ 32 3#32),
    unary main_c_42 main_v157 (broadcastInDim S4x128 ![] bcast_S_S4x128 : (⟨S_, .i32⟩ : BufTy).Contents (Elt F) → (⟨S4x128, .i32⟩ : BufTy).Contents (Elt F)),
    binary main_v73 main_v157 main_v158 (addi : (⟨S4x128, .i32⟩ : BufTy).Contents (Elt F) → (⟨S4x128, .i32⟩ : BufTy).Contents (Elt F) → (⟨S4x128, .i32⟩ : BufTy).Contents (Elt F)),
    ternary main_v156 main_v158 main_v73 main_v159 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    unary main_v159 main_v160 (broadcastInDim S4x128x1 ![0, 1] bcast_S4x128_S4x128x1_0_1 : (⟨S4x128, .i32⟩ : BufTy).Contents (Elt F) → (⟨S4x128x1, .i32⟩ : BufTy).Contents (Elt F)),
    binary main_arg6 main_v160 main_v161 ((fun x i => Host.gather gather_S3_S4x128x1_S4x128_n_0_n_n_0_2_1 x i) : (⟨S3, .f32⟩ : BufTy).Contents (Elt F) → (⟨S4x128x1, .i32⟩ : BufTy).Contents (Elt F) → (⟨S4x128, .f32⟩ : BufTy).Contents (Elt F)),
    binary main_v154 main_v161 main_v162 (mulf : (⟨S4x128, .f32⟩ : BufTy).Contents (Elt F) → (⟨S4x128, .f32⟩ : BufTy).Contents (Elt F) → (⟨S4x128, .f32⟩ : BufTy).Contents (Elt F)),
    unary main_v26 main_v163 (uitofp .f32 : (⟨S4x128, .i1⟩ : BufTy).Contents (Elt F) → (⟨S4x128, .f32⟩ : BufTy).Contents (Elt F)),
    binary main_v162 main_v163 main_v164 (mulf : (⟨S4x128, .f32⟩ : BufTy).Contents (Elt F) → (⟨S4x128, .f32⟩ : BufTy).Contents (Elt F) → (⟨S4x128, .f32⟩ : BufTy).Contents (Elt F)),
    binary main_v151 main_v164 main_v165 (mulf : (⟨S4x128, .f32⟩ : BufTy).Contents (Elt F) → (⟨S4x128, .f32⟩ : BufTy).Contents (Elt F) → (⟨S4x128, .f32⟩ : BufTy).Contents (Elt F)),
    nullary main_cst_43 (constant S_ .f32 0x00000000#32),
    binary main_v165 main_cst_43 main_v166 ((fun x v => Host.reduceAdd x v reducesTo_S4x128_S_d0_1 h_S_) : (⟨S4x128, .f32⟩ : BufTy).Contents (Elt F) → (⟨S_, .f32⟩ : BufTy).Contents (Elt F) → (⟨S_, .f32⟩ : BufTy).Contents (Elt F)),
    nullary main_cst_44 (constant S_ .f32 0x00000000#32),
    binary main_v164 main_cst_44 main_v167 ((fun x v => Host.reduceAdd x v reducesTo_S4x128_S_d0_1 h_S_) : (⟨S4x128, .f32⟩ : BufTy).Contents (Elt F) → (⟨S_, .f32⟩ : BufTy).Contents (Elt F) → (⟨S_, .f32⟩ : BufTy).Contents (Elt F)),
    reshape main_arg1 main_v168 rfl shapeCasts_S4x9x32x32x32_S4x3x3x32x32x32,
    TRef.nullary (TRef.of (T := ⟨S_, .f32⟩) main_call3_cst) (constant S_ .f32 0xFF800000#32),
    TRef.binary (TRef.of (T := ⟨S4x3x3x32x32x32, .f32⟩) main_v168) (TRef.of (T := ⟨S_, .f32⟩) main_call3_cst) (TRef.of (T := ⟨S4x3x32x32x32, .f32⟩) main_call3_v0) (fun x v => Host.reduce FloatOps.maximumf x v reducesTo_S4x3x3x32x32x32_S4x3x32x32x32_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S4x3x32x32x32, .f32⟩) main_call3_v1) (broadcastInDim S4x3x32x32x32 ![] bcast_S_S4x3x32x32x32),
    TRef.binary (TRef.of (T := ⟨S4x3x32x32x32, .f32⟩) main_call3_v1) (TRef.of (T := ⟨S4x3x32x32x32, .f32⟩) main_call3_v0) (TRef.of (T := ⟨S4x3x32x32x32, .f32⟩) main_call3_v2) maximumf,
    TRef.unary (TRef.of (T := ⟨S4x3x32x32x32, .f32⟩) main_call3_v2) (TRef.of (T := ⟨S4x1x3x32x32x32, .f32⟩) main_call3_v3) (broadcastInDim S4x1x3x32x32x32 ![0, 2, 3, 4, 5] bcast_S4x3x32x32x32_S4x1x3x32x32x32_0_2_3_4_5),
    TRef.unary (TRef.of (T := ⟨S4x1x3x32x32x32, .f32⟩) main_call3_v3) (TRef.of (T := ⟨S4x3x3x32x32x32, .f32⟩) main_call3_v4) (broadcastInDim S4x3x3x32x32x32 ![0, 1, 2, 3, 4, 5] bcast_S4x1x3x32x32x32_S4x3x3x32x32x32_0_1_2_3_4_5),
    TRef.binary (TRef.of (T := ⟨S4x3x3x32x32x32, .f32⟩) main_v168) (TRef.of (T := ⟨S4x3x3x32x32x32, .f32⟩) main_call3_v4) (TRef.of (T := ⟨S4x3x3x32x32x32, .f32⟩) main_call3_v5) subf,
    TRef.unary (TRef.of (T := ⟨S4x3x3x32x32x32, .f32⟩) main_call3_v5) (TRef.of (T := ⟨S4x3x3x32x32x32, .f32⟩) main_call3_v6) Host.exp,
    TRef.nullary (TRef.of (T := ⟨S_, .f32⟩) main_call3_cst_1) (constant S_ .f32 0x00000000#32),
    TRef.binary (TRef.of (T := ⟨S4x3x3x32x32x32, .f32⟩) main_call3_v6) (TRef.of (T := ⟨S_, .f32⟩) main_call3_cst_1) (TRef.of (T := ⟨S4x3x32x32x32, .f32⟩) main_call3_v7) (fun x v => Host.reduceAdd x v reducesTo_S4x3x3x32x32x32_S4x3x32x32x32_d1 h_S_),
    TRef.unary (TRef.of (T := ⟨S4x3x32x32x32, .f32⟩) main_call3_v7) (TRef.of (T := ⟨S4x1x3x32x32x32, .f32⟩) main_call3_v8) (broadcastInDim S4x1x3x32x32x32 ![0, 2, 3, 4, 5] bcast_S4x3x32x32x32_S4x1x3x32x32x32_0_2_3_4_5),
    TRef.unary (TRef.of (T := ⟨S4x1x3x32x32x32, .f32⟩) main_call3_v8) (TRef.of (T := ⟨S4x1x3x32x32x32, .f32⟩) main_call3_v9) Host.log,
    TRef.unary (TRef.of (T := ⟨S4x1x3x32x32x32, .f32⟩) main_call3_v9) (TRef.of (T := ⟨S4x3x3x32x32x32, .f32⟩) main_call3_v10) (broadcastInDim S4x3x3x32x32x32 ![0, 1, 2, 3, 4, 5] bcast_S4x1x3x32x32x32_S4x3x3x32x32x32_0_1_2_3_4_5),
    TRef.binary (TRef.of (T := ⟨S4x3x3x32x32x32, .f32⟩) main_call3_v5) (TRef.of (T := ⟨S4x3x3x32x32x32, .f32⟩) main_call3_v10) (TRef.of (T := ⟨S4x3x3x32x32x32, .f32⟩) main_v169) subf,
    unary main_v169 main_v170 (Host.negf : (⟨S4x3x3x32x32x32, .f32⟩ : BufTy).Contents (Elt F) → (⟨S4x3x3x32x32x32, .f32⟩ : BufTy).Contents (Elt F)),
    unary main_v169 main_v171 (Host.exp : (⟨S4x3x3x32x32x32, .f32⟩ : BufTy).Contents (Elt F) → (⟨S4x3x3x32x32x32, .f32⟩ : BufTy).Contents (Elt F)),
    unary main_v170 main_v172 ((extractStridedSlice S4x1x3x32x32x32 ![0, 0, 0, 0, 0, 0] · slices_S4x3x3x32x32x32_S4x1x3x32x32x32_0_0_0_0_0_0) : (⟨S4x3x3x32x32x32, .f32⟩ : BufTy).Contents (Elt F) → (⟨S4x1x3x32x32x32, .f32⟩ : BufTy).Contents (Elt F)),
    reshape main_v172 main_v173 rfl shapeCasts_S4x1x3x32x32x32_S4x3x32x32x32,
    unary main_v171 main_v174 ((extractStridedSlice S4x1x3x32x32x32 ![0, 0, 0, 0, 0, 0] · slices_S4x3x3x32x32x32_S4x1x3x32x32x32_0_0_0_0_0_0) : (⟨S4x3x3x32x32x32, .f32⟩ : BufTy).Contents (Elt F) → (⟨S4x1x3x32x32x32, .f32⟩ : BufTy).Contents (Elt F)),
    reshape main_v174 main_v175 rfl shapeCasts_S4x1x3x32x32x32_S4x3x32x32x32,
    nullary main_cst_45 (constant S_ .f32 0xBF800000#32),
    unary main_cst_45 main_v176 (broadcastInDim S4x3x32x32x32 ![] bcast_S_S4x3x32x32x32 : (⟨S_, .f32⟩ : BufTy).Contents (Elt F) → (⟨S4x3x32x32x32, .f32⟩ : BufTy).Contents (Elt F)),
    binary main_arg3 main_v176 main_v177 (cmpf .oeq : (⟨S4x3x32x32x32, .f32⟩ : BufTy).Contents (Elt F) → (⟨S4x3x32x32x32, .f32⟩ : BufTy).Contents (Elt F) → (⟨S4x3x32x32x32, .i1⟩ : BufTy).Contents (Elt F)),
    unary main_v177 main_v178 (uitofp .f32 : (⟨S4x3x32x32x32, .i1⟩ : BufTy).Contents (Elt F) → (⟨S4x3x32x32x32, .f32⟩ : BufTy).Contents (Elt F)),
    nullary main_cst_46 (constant S_ .f32 0xFF800000#32),
    unary main_cst_46 main_v179 (broadcastInDim S_ ![] bcast_S_S_ : (⟨S_, .f32⟩ : BufTy).Contents (Elt F) → (⟨S_, .f32⟩ : BufTy).Contents (Elt F)),
    binary main_v173 main_v179 main_v180 ((fun x v => Host.reduceWindow FloatOps.maximumf ![1, 1, 3, 3, 3] ![1, 1, 1, 1, 1] ![0, 0, 1, 1, 1] ![0, 0, 1, 1, 1] x v reduceWindows_S4x3x32x32x32_S4x3x32x32x32_w1s1p0_0_w1s1p0_0_w3s1p1_1_w3s1p1_1_w3s1p1_1 h_S_) : (⟨S4x3x32x32x32, .f32⟩ : BufTy).Contents (Elt F) → (⟨S_, .f32⟩ : BufTy).Contents (Elt F) → (⟨S4x3x32x32x32, .f32⟩ : BufTy).Contents (Elt F)),
    binary main_v180 main_v173 main_v181 (cmpf .oeq : (⟨S4x3x32x32x32, .f32⟩ : BufTy).Contents (Elt F) → (⟨S4x3x32x32x32, .f32⟩ : BufTy).Contents (Elt F) → (⟨S4x3x32x32x32, .i1⟩ : BufTy).Contents (Elt F)),
    unary main_v181 main_v182 (uitofp .f32 : (⟨S4x3x32x32x32, .i1⟩ : BufTy).Contents (Elt F) → (⟨S4x3x32x32x32, .f32⟩ : BufTy).Contents (Elt F)),
    binary main_v178 main_v182 main_v183 (mulf : (⟨S4x3x32x32x32, .f32⟩ : BufTy).Contents (Elt F) → (⟨S4x3x32x32x32, .f32⟩ : BufTy).Contents (Elt F) → (⟨S4x3x32x32x32, .f32⟩ : BufTy).Contents (Elt F)),
    nullary main_cst_47 (constant S_ .f32 0x3F800000#32),
    unary main_cst_47 main_v184 (broadcastInDim S4x3x32x32x32 ![] bcast_S_S4x3x32x32x32 : (⟨S_, .f32⟩ : BufTy).Contents (Elt F) → (⟨S4x3x32x32x32, .f32⟩ : BufTy).Contents (Elt F)),
    binary main_v184 main_v175 main_v185 (subf : (⟨S4x3x32x32x32, .f32⟩ : BufTy).Contents (Elt F) → (⟨S4x3x32x32x32, .f32⟩ : BufTy).Contents (Elt F) → (⟨S4x3x32x32x32, .f32⟩ : BufTy).Contents (Elt F)),
    binary main_v185 main_v185 main_v186 (mulf : (⟨S4x3x32x32x32, .f32⟩ : BufTy).Contents (Elt F) → (⟨S4x3x32x32x32, .f32⟩ : BufTy).Contents (Elt F) → (⟨S4x3x32x32x32, .f32⟩ : BufTy).Contents (Elt F)),
    binary main_v186 main_v183 main_v187 (mulf : (⟨S4x3x32x32x32, .f32⟩ : BufTy).Contents (Elt F) → (⟨S4x3x32x32x32, .f32⟩ : BufTy).Contents (Elt F) → (⟨S4x3x32x32x32, .f32⟩ : BufTy).Contents (Elt F)),
    binary main_v173 main_v187 main_v188 (mulf : (⟨S4x3x32x32x32, .f32⟩ : BufTy).Contents (Elt F) → (⟨S4x3x32x32x32, .f32⟩ : BufTy).Contents (Elt F) → (⟨S4x3x32x32x32, .f32⟩ : BufTy).Contents (Elt F)),
    nullary main_cst_48 (constant S_ .f32 0x00000000#32) ]

set_option maxRecDepth 8192 in
theorem ops_p3_sub : (ops_p3 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., unary_bufs_sub .., unary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., binary_bufs_sub .., nullary_bufs_sub .., binary_bufs_sub .., nullary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., binary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
theorem ops_p3_fresh : ∀ op ∈ (ops_p3 : List (HloOp τ sig (Elt F))), op.fresh = ∅ := by
  intro _ h; (repeat (cases h with | head => rfl | tail _ h => ?_)); exact nomatch h

set_option maxRecDepth 8192 in
set_option maxHeartbeats 4000000 in
theorem main_part3_eq (c : Dev nD) : main_part3 (F := F) c = seq ops_p3 := rfl

def I3_199 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v137) = ReadP.val_main_v137 (F := F) x4 ∧ V (Proc.devRef .tc main_v138) = ReadP.val_main_v138 (F := F)
def I3_200 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v137) = ReadP.val_main_v137 (F := F) x4 ∧ V (Proc.devRef .tc main_v139) = ReadP.val_main_v139 (F := F) x4
def I3_201 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v137) = ReadP.val_main_v137 (F := F) x4 ∧ V (Proc.devRef .tc main_v139) = ReadP.val_main_v139 (F := F) x4 ∧ V (Proc.devRef .tc main_c_39) = ReadP.val_main_c_39 (F := F)
def I3_202 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v137) = ReadP.val_main_v137 (F := F) x4 ∧ V (Proc.devRef .tc main_v139) = ReadP.val_main_v139 (F := F) x4 ∧ V (Proc.devRef .tc main_v140) = ReadP.val_main_v140 (F := F)
def I3_203 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v36) = ReadP.val_main_v36 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v137) = ReadP.val_main_v137 (F := F) x4 ∧ V (Proc.devRef .tc main_v139) = ReadP.val_main_v139 (F := F) x4 ∧ V (Proc.devRef .tc main_v141) = ReadP.val_main_v141 (F := F) x4
def I3_204 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v112) = ReadP.val_main_v112 (F := F) x0 x2 x4 ∧ V (Proc.devRef .tc main_v117) = ReadP.val_main_v117 (F := F) ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v137) = ReadP.val_main_v137 (F := F) x4 ∧ V (Proc.devRef .tc main_v142) = ReadP.val_main_v142 (F := F) x4
def I3_205 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v112) = ReadP.val_main_v112 (F := F) x0 x2 x4 ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v137) = ReadP.val_main_v137 (F := F) x4 ∧ V (Proc.devRef .tc main_v142) = ReadP.val_main_v142 (F := F) x4 ∧ V (Proc.devRef .tc main_v143) = ReadP.val_main_v143 (F := F)
def I3_206 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v112) = ReadP.val_main_v112 (F := F) x0 x2 x4 ∧ V (Proc.devRef .tc main_v122) = ReadP.val_main_v122 (F := F) x2 x4 ∧ V (Proc.devRef .tc main_v127) = ReadP.val_main_v127 (F := F) x4 ∧ V (Proc.devRef .tc main_v132) = ReadP.val_main_v132 (F := F) x4 ∧ V (Proc.devRef .tc main_v137) = ReadP.val_main_v137 (F := F) x4 ∧ V (Proc.devRef .tc main_v142) = ReadP.val_main_v142 (F := F) x4 ∧ V (Proc.devRef .tc main_v144) = ReadP.val_main_v144 (F := F)
def I3_207 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v112) = ReadP.val_main_v112 (F := F) x0 x2 x4 ∧ V (Proc.devRef .tc main_v127) = ReadP.val_main_v127 (F := F) x4 ∧ V (Proc.devRef .tc main_v132) = ReadP.val_main_v132 (F := F) x4 ∧ V (Proc.devRef .tc main_v137) = ReadP.val_main_v137 (F := F) x4 ∧ V (Proc.devRef .tc main_v142) = ReadP.val_main_v142 (F := F) x4 ∧ V (Proc.devRef .tc main_v144) = ReadP.val_main_v144 (F := F) ∧ V (Proc.devRef .tc main_v145) = ReadP.val_main_v145 (F := F) x2 x4
def I3_208 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v112) = ReadP.val_main_v112 (F := F) x0 x2 x4 ∧ V (Proc.devRef .tc main_v132) = ReadP.val_main_v132 (F := F) x4 ∧ V (Proc.devRef .tc main_v137) = ReadP.val_main_v137 (F := F) x4 ∧ V (Proc.devRef .tc main_v142) = ReadP.val_main_v142 (F := F) x4 ∧ V (Proc.devRef .tc main_v144) = ReadP.val_main_v144 (F := F) ∧ V (Proc.devRef .tc main_v145) = ReadP.val_main_v145 (F := F) x2 x4 ∧ V (Proc.devRef .tc main_v146) = ReadP.val_main_v146 (F := F) x4
def I3_209 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v112) = ReadP.val_main_v112 (F := F) x0 x2 x4 ∧ V (Proc.devRef .tc main_v137) = ReadP.val_main_v137 (F := F) x4 ∧ V (Proc.devRef .tc main_v142) = ReadP.val_main_v142 (F := F) x4 ∧ V (Proc.devRef .tc main_v144) = ReadP.val_main_v144 (F := F) ∧ V (Proc.devRef .tc main_v145) = ReadP.val_main_v145 (F := F) x2 x4 ∧ V (Proc.devRef .tc main_v146) = ReadP.val_main_v146 (F := F) x4 ∧ V (Proc.devRef .tc main_v147) = ReadP.val_main_v147 (F := F) x4
def I3_210 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v112) = ReadP.val_main_v112 (F := F) x0 x2 x4 ∧ V (Proc.devRef .tc main_v142) = ReadP.val_main_v142 (F := F) x4 ∧ V (Proc.devRef .tc main_v144) = ReadP.val_main_v144 (F := F) ∧ V (Proc.devRef .tc main_v145) = ReadP.val_main_v145 (F := F) x2 x4 ∧ V (Proc.devRef .tc main_v146) = ReadP.val_main_v146 (F := F) x4 ∧ V (Proc.devRef .tc main_v147) = ReadP.val_main_v147 (F := F) x4 ∧ V (Proc.devRef .tc main_v148) = ReadP.val_main_v148 (F := F) x4
def I3_211 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v112) = ReadP.val_main_v112 (F := F) x0 x2 x4 ∧ V (Proc.devRef .tc main_v144) = ReadP.val_main_v144 (F := F) ∧ V (Proc.devRef .tc main_v145) = ReadP.val_main_v145 (F := F) x2 x4 ∧ V (Proc.devRef .tc main_v146) = ReadP.val_main_v146 (F := F) x4 ∧ V (Proc.devRef .tc main_v147) = ReadP.val_main_v147 (F := F) x4 ∧ V (Proc.devRef .tc main_v148) = ReadP.val_main_v148 (F := F) x4 ∧ V (Proc.devRef .tc main_v149) = ReadP.val_main_v149 (F := F) x4
def I3_212 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v2) = ReadP.val_main_v2 (F := F) x0 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v112) = ReadP.val_main_v112 (F := F) x0 x2 x4 ∧ V (Proc.devRef .tc main_v150) = ReadP.val_main_v150 (F := F) x2 x4
def I3_213 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v112) = ReadP.val_main_v112 (F := F) x0 x2 x4 ∧ V (Proc.devRef .tc main_v151) = ReadP.val_main_v151 (F := F) x0 x2 x4
def I3_214 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v112) = ReadP.val_main_v112 (F := F) x0 x2 x4 ∧ V (Proc.devRef .tc main_v151) = ReadP.val_main_v151 (F := F) x0 x2 x4 ∧ V (Proc.devRef .tc main_cst_40) = ReadP.val_main_cst_40 (F := F)
def I3_215 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v112) = ReadP.val_main_v112 (F := F) x0 x2 x4 ∧ V (Proc.devRef .tc main_v151) = ReadP.val_main_v151 (F := F) x0 x2 x4 ∧ V (Proc.devRef .tc main_v152) = ReadP.val_main_v152 (F := F)
def I3_216 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v151) = ReadP.val_main_v151 (F := F) x0 x2 x4 ∧ V (Proc.devRef .tc main_v153) = ReadP.val_main_v153 (F := F) x0 x2 x4
def I3_217 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v151) = ReadP.val_main_v151 (F := F) x0 x2 x4 ∧ V (Proc.devRef .tc main_v154) = ReadP.val_main_v154 (F := F) x0 x2 x4
def I3_218 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v151) = ReadP.val_main_v151 (F := F) x0 x2 x4 ∧ V (Proc.devRef .tc main_v154) = ReadP.val_main_v154 (F := F) x0 x2 x4 ∧ V (Proc.devRef .tc main_c_41) = ReadP.val_main_c_41 (F := F)
def I3_219 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v151) = ReadP.val_main_v151 (F := F) x0 x2 x4 ∧ V (Proc.devRef .tc main_v154) = ReadP.val_main_v154 (F := F) x0 x2 x4 ∧ V (Proc.devRef .tc main_v155) = ReadP.val_main_v155 (F := F)
def I3_220 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v151) = ReadP.val_main_v151 (F := F) x0 x2 x4 ∧ V (Proc.devRef .tc main_v154) = ReadP.val_main_v154 (F := F) x0 x2 x4 ∧ V (Proc.devRef .tc main_v156) = ReadP.val_main_v156 (F := F) x2 x4
def I3_221 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v151) = ReadP.val_main_v151 (F := F) x0 x2 x4 ∧ V (Proc.devRef .tc main_v154) = ReadP.val_main_v154 (F := F) x0 x2 x4 ∧ V (Proc.devRef .tc main_v156) = ReadP.val_main_v156 (F := F) x2 x4 ∧ V (Proc.devRef .tc main_c_42) = ReadP.val_main_c_42 (F := F)
def I3_222 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v151) = ReadP.val_main_v151 (F := F) x0 x2 x4 ∧ V (Proc.devRef .tc main_v154) = ReadP.val_main_v154 (F := F) x0 x2 x4 ∧ V (Proc.devRef .tc main_v156) = ReadP.val_main_v156 (F := F) x2 x4 ∧ V (Proc.devRef .tc main_v157) = ReadP.val_main_v157 (F := F)
def I3_223 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v73) = ReadP.val_main_v73 (F := F) x2 x4 ∧ V (Proc.devRef .tc main_v151) = ReadP.val_main_v151 (F := F) x0 x2 x4 ∧ V (Proc.devRef .tc main_v154) = ReadP.val_main_v154 (F := F) x0 x2 x4 ∧ V (Proc.devRef .tc main_v156) = ReadP.val_main_v156 (F := F) x2 x4 ∧ V (Proc.devRef .tc main_v158) = ReadP.val_main_v158 (F := F) x2 x4
def I3_224 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v151) = ReadP.val_main_v151 (F := F) x0 x2 x4 ∧ V (Proc.devRef .tc main_v154) = ReadP.val_main_v154 (F := F) x0 x2 x4 ∧ V (Proc.devRef .tc main_v159) = ReadP.val_main_v159 (F := F) x2 x4
def I3_225 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v151) = ReadP.val_main_v151 (F := F) x0 x2 x4 ∧ V (Proc.devRef .tc main_v154) = ReadP.val_main_v154 (F := F) x0 x2 x4 ∧ V (Proc.devRef .tc main_v160) = ReadP.val_main_v160 (F := F) x2 x4
def I3_226 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v151) = ReadP.val_main_v151 (F := F) x0 x2 x4 ∧ V (Proc.devRef .tc main_v154) = ReadP.val_main_v154 (F := F) x0 x2 x4 ∧ V (Proc.devRef .tc main_v161) = ReadP.val_main_v161 (F := F) x2 x4 x6
def I3_227 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v26) = ReadP.val_main_v26 (F := F) x4 ∧ V (Proc.devRef .tc main_v151) = ReadP.val_main_v151 (F := F) x0 x2 x4 ∧ V (Proc.devRef .tc main_v162) = ReadP.val_main_v162 (F := F) x0 x2 x4 x6
def I3_228 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v151) = ReadP.val_main_v151 (F := F) x0 x2 x4 ∧ V (Proc.devRef .tc main_v162) = ReadP.val_main_v162 (F := F) x0 x2 x4 x6 ∧ V (Proc.devRef .tc main_v163) = ReadP.val_main_v163 (F := F) x4
def I3_229 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v151) = ReadP.val_main_v151 (F := F) x0 x2 x4 ∧ V (Proc.devRef .tc main_v164) = ReadP.val_main_v164 (F := F) x0 x2 x4 x6
def I3_230 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v164) = ReadP.val_main_v164 (F := F) x0 x2 x4 x6 ∧ V (Proc.devRef .tc main_v165) = ReadP.val_main_v165 (F := F) x0 x2 x4 x6
def I3_231 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v164) = ReadP.val_main_v164 (F := F) x0 x2 x4 x6 ∧ V (Proc.devRef .tc main_v165) = ReadP.val_main_v165 (F := F) x0 x2 x4 x6 ∧ V (Proc.devRef .tc main_cst_43) = ReadP.val_main_cst_43 (F := F)
def I3_232 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v164) = ReadP.val_main_v164 (F := F) x0 x2 x4 x6 ∧ V (Proc.devRef .tc main_v166) = ReadP.val_main_v166 (F := F) x0 x2 x4 x6
def I3_233 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v164) = ReadP.val_main_v164 (F := F) x0 x2 x4 x6 ∧ V (Proc.devRef .tc main_v166) = ReadP.val_main_v166 (F := F) x0 x2 x4 x6 ∧ V (Proc.devRef .tc main_cst_44) = ReadP.val_main_cst_44 (F := F)
def I3_234 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6
def I3_235 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v168) = ReadP.val_main_v168 (F := F) x1
def I3_236 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v168) = ReadP.val_main_v168 (F := F) x1 ∧ V (Proc.devRef .tc main_call3_cst) = ReadP.val_main_call3_cst (F := F)
def I3_237 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v168) = ReadP.val_main_v168 (F := F) x1 ∧ V (Proc.devRef .tc main_call3_v0) = ReadP.val_main_call3_v0 (F := F) x1
def I3_238 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v168) = ReadP.val_main_v168 (F := F) x1 ∧ V (Proc.devRef .tc main_call3_v0) = ReadP.val_main_call3_v0 (F := F) x1 ∧ V (Proc.devRef .tc main_call3_cst_0) = ReadP.val_main_call3_cst_0 (F := F)
def I3_239 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v168) = ReadP.val_main_v168 (F := F) x1 ∧ V (Proc.devRef .tc main_call3_v0) = ReadP.val_main_call3_v0 (F := F) x1 ∧ V (Proc.devRef .tc main_call3_v1) = ReadP.val_main_call3_v1 (F := F)
def I3_240 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v168) = ReadP.val_main_v168 (F := F) x1 ∧ V (Proc.devRef .tc main_call3_v2) = ReadP.val_main_call3_v2 (F := F) x1
def I3_241 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v168) = ReadP.val_main_v168 (F := F) x1 ∧ V (Proc.devRef .tc main_call3_v3) = ReadP.val_main_call3_v3 (F := F) x1
def I3_242 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v168) = ReadP.val_main_v168 (F := F) x1 ∧ V (Proc.devRef .tc main_call3_v4) = ReadP.val_main_call3_v4 (F := F) x1
def I3_243 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_call3_v5) = ReadP.val_main_call3_v5 (F := F) x1
def I3_244 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_call3_v5) = ReadP.val_main_call3_v5 (F := F) x1 ∧ V (Proc.devRef .tc main_call3_v6) = ReadP.val_main_call3_v6 (F := F) x1
def I3_245 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_call3_v5) = ReadP.val_main_call3_v5 (F := F) x1 ∧ V (Proc.devRef .tc main_call3_v6) = ReadP.val_main_call3_v6 (F := F) x1 ∧ V (Proc.devRef .tc main_call3_cst_1) = ReadP.val_main_call3_cst_1 (F := F)
def I3_246 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_call3_v5) = ReadP.val_main_call3_v5 (F := F) x1 ∧ V (Proc.devRef .tc main_call3_v7) = ReadP.val_main_call3_v7 (F := F) x1
def I3_247 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_call3_v5) = ReadP.val_main_call3_v5 (F := F) x1 ∧ V (Proc.devRef .tc main_call3_v8) = ReadP.val_main_call3_v8 (F := F) x1
def I3_248 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_call3_v5) = ReadP.val_main_call3_v5 (F := F) x1 ∧ V (Proc.devRef .tc main_call3_v9) = ReadP.val_main_call3_v9 (F := F) x1
def I3_249 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_call3_v5) = ReadP.val_main_call3_v5 (F := F) x1 ∧ V (Proc.devRef .tc main_call3_v10) = ReadP.val_main_call3_v10 (F := F) x1
def I3_250 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v169) = ReadP.val_main_v169 (F := F) x1
def I3_251 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v169) = ReadP.val_main_v169 (F := F) x1 ∧ V (Proc.devRef .tc main_v170) = ReadP.val_main_v170 (F := F) x1
def I3_252 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1
def I3_253 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v172) = ReadP.val_main_v172 (F := F) x1
def I3_254 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1
def I3_255 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v174) = ReadP.val_main_v174 (F := F) x1
def I3_256 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1
def I3_257 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1 ∧ V (Proc.devRef .tc main_cst_45) = ReadP.val_main_cst_45 (F := F)
def I3_258 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1 ∧ V (Proc.devRef .tc main_v176) = ReadP.val_main_v176 (F := F)
def I3_259 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1 ∧ V (Proc.devRef .tc main_v177) = ReadP.val_main_v177 (F := F) x3
def I3_260 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1 ∧ V (Proc.devRef .tc main_v178) = ReadP.val_main_v178 (F := F) x3
def I3_261 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1 ∧ V (Proc.devRef .tc main_v178) = ReadP.val_main_v178 (F := F) x3 ∧ V (Proc.devRef .tc main_cst_46) = ReadP.val_main_cst_46 (F := F)
def I3_262 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1 ∧ V (Proc.devRef .tc main_v178) = ReadP.val_main_v178 (F := F) x3 ∧ V (Proc.devRef .tc main_v179) = ReadP.val_main_v179 (F := F)
def I3_263 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1 ∧ V (Proc.devRef .tc main_v178) = ReadP.val_main_v178 (F := F) x3 ∧ V (Proc.devRef .tc main_v180) = ReadP.val_main_v180 (F := F) x1
def I3_264 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1 ∧ V (Proc.devRef .tc main_v178) = ReadP.val_main_v178 (F := F) x3 ∧ V (Proc.devRef .tc main_v181) = ReadP.val_main_v181 (F := F) x1
def I3_265 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1 ∧ V (Proc.devRef .tc main_v178) = ReadP.val_main_v178 (F := F) x3 ∧ V (Proc.devRef .tc main_v182) = ReadP.val_main_v182 (F := F) x1
def I3_266 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1 ∧ V (Proc.devRef .tc main_v183) = ReadP.val_main_v183 (F := F) x1 x3
def I3_267 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1 ∧ V (Proc.devRef .tc main_v183) = ReadP.val_main_v183 (F := F) x1 x3 ∧ V (Proc.devRef .tc main_cst_47) = ReadP.val_main_cst_47 (F := F)
def I3_268 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v175) = ReadP.val_main_v175 (F := F) x1 ∧ V (Proc.devRef .tc main_v183) = ReadP.val_main_v183 (F := F) x1 x3 ∧ V (Proc.devRef .tc main_v184) = ReadP.val_main_v184 (F := F)
def I3_269 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v183) = ReadP.val_main_v183 (F := F) x1 x3 ∧ V (Proc.devRef .tc main_v185) = ReadP.val_main_v185 (F := F) x1
def I3_270 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v183) = ReadP.val_main_v183 (F := F) x1 x3 ∧ V (Proc.devRef .tc main_v186) = ReadP.val_main_v186 (F := F) x1
def I3_271 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v173) = ReadP.val_main_v173 (F := F) x1 ∧ V (Proc.devRef .tc main_v187) = ReadP.val_main_v187 (F := F) x1 x3
def I3_272 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v187) = ReadP.val_main_v187 (F := F) x1 x3 ∧ V (Proc.devRef .tc main_v188) = ReadP.val_main_v188 (F := F) x1 x3
def I3_273 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v187) = ReadP.val_main_v187 (F := F) x1 x3 ∧ V (Proc.devRef .tc main_v188) = ReadP.val_main_v188 (F := F) x1 x3 ∧ V (Proc.devRef .tc main_cst_48) = ReadP.val_main_cst_48 (F := F)

theorem s199 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_199 V x0 x1 x2 x3 x4 x5 x6 → I3_200 ((binary main_v36 main_v138 main_v139 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v36, h_main_v73, h_main_v112, h_main_v117, h_main_v122, h_main_v127, h_main_v132, h_main_v137, h_main_v138⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; exact h_main_v137,
    by after_results_simp; (try simp only [TRef.ofBuf, TRef.toBuf, cast_eq]); rw [h_main_v36, h_main_v138]; rfl⟩
theorem s200 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_200 V x0 x1 x2 x3 x4 x5 x6 → I3_201 ((nullary main_c_39 (constantI S_ 32 64#32)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v36, h_main_v73, h_main_v112, h_main_v117, h_main_v122, h_main_v127, h_main_v132, h_main_v137, h_main_v139⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; exact h_main_v137,
    by after_results_simp; exact h_main_v139,
    by after_results_simp; (try simp only [TRef.ofBuf, TRef.toBuf, cast_eq]); rfl⟩
theorem s201 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_201 V x0 x1 x2 x3 x4 x5 x6 → I3_202 ((unary main_c_39 main_v140 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v36, h_main_v73, h_main_v112, h_main_v117, h_main_v122, h_main_v127, h_main_v132, h_main_v137, h_main_v139, h_main_c_39⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; exact h_main_v137,
    by after_results_simp; exact h_main_v139,
    by after_results_simp; (try simp only [TRef.ofBuf, TRef.toBuf, cast_eq]); rw [h_main_c_39]; rfl⟩
theorem s202 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_202 V x0 x1 x2 x3 x4 x5 x6 → I3_203 ((binary main_v36 main_v140 main_v141 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v36, h_main_v73, h_main_v112, h_main_v117, h_main_v122, h_main_v127, h_main_v132, h_main_v137, h_main_v139, h_main_v140⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v36,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; exact h_main_v137,
    by after_results_simp; exact h_main_v139,
    by after_results_simp; (try simp only [TRef.ofBuf, TRef.toBuf, cast_eq]); rw [h_main_v36, h_main_v140]; rfl⟩
theorem s203 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_203 V x0 x1 x2 x3 x4 x5 x6 → I3_204 ((ternary main_v139 main_v141 main_v36 main_v142 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v36, h_main_v73, h_main_v112, h_main_v117, h_main_v122, h_main_v127, h_main_v132, h_main_v137, h_main_v139, h_main_v141⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v73,
    by after_results_simp; exact h_main_v112,
    by after_results_simp; exact h_main_v117,
    by after_results_simp; exact h_main_v122,
    by after_results_simp; exact h_main_v127,
    by after_results_simp; exact h_main_v132,
    by after_results_simp; exact h_main_v137,
    by after_results_simp; (try simp only [TRef.ofBuf, TRef.toBuf, cast_eq]); rw [h_main_v139, h_main_v141, h_main_v36]; rfl⟩
theorem s204 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_204 V x0 x1 x2 x3 x4 x5 x6 → I3_205 ((unary main_v117 main_v143 (broadcastInDim S4x128 ![0, 1] bcast_S4x1_S4x128_0_1 : (⟨S4x1, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v73, h_main_v112, h_main_v117, h_main_v122, h_main_v127, h_main_v132, h_main_v137, h_main_v142⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v73,
    by after_results_simp; exact h_main_v112,
    by after_results_simp; exact h_main_v122,
    by after_results_simp; exact h_main_v127,
    by after_results_simp; exact h_main_v132,
    by after_results_simp; exact h_main_v137,
    by after_results_simp; exact h_main_v142,
    by after_results_simp; (try simp only [TRef.ofBuf, TRef.toBuf, cast_eq]); rw [h_main_v117]; rfl⟩
theorem s205 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_205 V x0 x1 x2 x3 x4 x5 x6 → I3_206 ((unary main_v143 main_v144 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v73, h_main_v112, h_main_v122, h_main_v127, h_main_v132, h_main_v137, h_main_v142, h_main_v143⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v73,
    by after_results_simp; exact h_main_v112,
    by after_results_simp; exact h_main_v122,
    by after_results_simp; exact h_main_v127,
    by after_results_simp; exact h_main_v132,
    by after_results_simp; exact h_main_v137,
    by after_results_simp; exact h_main_v142,
    by after_results_simp; (try simp only [TRef.ofBuf, TRef.toBuf, cast_eq]); rw [h_main_v143]; rfl⟩
theorem s206 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_206 V x0 x1 x2 x3 x4 x5 x6 → I3_207 ((unary main_v122 main_v145 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v73, h_main_v112, h_main_v122, h_main_v127, h_main_v132, h_main_v137, h_main_v142, h_main_v144⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v73,
    by after_results_simp; exact h_main_v112,
    by after_results_simp; exact h_main_v127,
    by after_results_simp; exact h_main_v132,
    by after_results_simp; exact h_main_v137,
    by after_results_simp; exact h_main_v142,
    by after_results_simp; exact h_main_v144,
    by after_results_simp; (try simp only [TRef.ofBuf, TRef.toBuf, cast_eq]); rw [h_main_v122]; rfl⟩
theorem s207 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_207 V x0 x1 x2 x3 x4 x5 x6 → I3_208 ((unary main_v127 main_v146 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v73, h_main_v112, h_main_v127, h_main_v132, h_main_v137, h_main_v142, h_main_v144, h_main_v145⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v73,
    by after_results_simp; exact h_main_v112,
    by after_results_simp; exact h_main_v132,
    by after_results_simp; exact h_main_v137,
    by after_results_simp; exact h_main_v142,
    by after_results_simp; exact h_main_v144,
    by after_results_simp; exact h_main_v145,
    by after_results_simp; (try simp only [TRef.ofBuf, TRef.toBuf, cast_eq]); rw [h_main_v127]; rfl⟩
theorem s208 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_208 V x0 x1 x2 x3 x4 x5 x6 → I3_209 ((unary main_v132 main_v147 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v73, h_main_v112, h_main_v132, h_main_v137, h_main_v142, h_main_v144, h_main_v145, h_main_v146⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v73,
    by after_results_simp; exact h_main_v112,
    by after_results_simp; exact h_main_v137,
    by after_results_simp; exact h_main_v142,
    by after_results_simp; exact h_main_v144,
    by after_results_simp; exact h_main_v145,
    by after_results_simp; exact h_main_v146,
    by after_results_simp; (try simp only [TRef.ofBuf, TRef.toBuf, cast_eq]); rw [h_main_v132]; rfl⟩
theorem s209 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_209 V x0 x1 x2 x3 x4 x5 x6 → I3_210 ((unary main_v137 main_v148 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v73, h_main_v112, h_main_v137, h_main_v142, h_main_v144, h_main_v145, h_main_v146, h_main_v147⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v73,
    by after_results_simp; exact h_main_v112,
    by after_results_simp; exact h_main_v142,
    by after_results_simp; exact h_main_v144,
    by after_results_simp; exact h_main_v145,
    by after_results_simp; exact h_main_v146,
    by after_results_simp; exact h_main_v147,
    by after_results_simp; (try simp only [TRef.ofBuf, TRef.toBuf, cast_eq]); rw [h_main_v137]; rfl⟩
theorem s210 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_210 V x0 x1 x2 x3 x4 x5 x6 → I3_211 ((unary main_v142 main_v149 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v73, h_main_v112, h_main_v142, h_main_v144, h_main_v145, h_main_v146, h_main_v147, h_main_v148⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v73,
    by after_results_simp; exact h_main_v112,
    by after_results_simp; exact h_main_v144,
    by after_results_simp; exact h_main_v145,
    by after_results_simp; exact h_main_v146,
    by after_results_simp; exact h_main_v147,
    by after_results_simp; exact h_main_v148,
    by after_results_simp; (try simp only [TRef.ofBuf, TRef.toBuf, cast_eq]); rw [h_main_v142]; rfl⟩
theorem s211 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_211 V x0 x1 x2 x3 x4 x5 x6 → I3_212 ((nary ![main_v144, main_v145, main_v146, main_v147, main_v148, main_v149] main_v150 (fun u => concatenate S4x128x6 2 [⟨S4x128x1, u 0⟩, ⟨S4x128x1, u 1⟩, ⟨S4x128x1, u 2⟩, ⟨S4x128x1, u 3⟩, ⟨S4x128x1, u 4⟩, ⟨S4x128x1, u 5⟩] concatenates_S4x128x1_S4x128x1_S4x128x1_S4x128x1_S4x128x1_S4x128x1_S4x128x6_d2)).result V) x0 x1 x2 x3 x4 x5 x6 :=
  fun ⟨h_main_arg0, h_main_arg1, h_main_arg2, h_main_arg3, h_main_arg4, h_main_arg5, h_main_arg6, h_main_v2, h_main_v21, h_main_v22, h_main_v26, h_main_v73, h_main_v112, h_main_v144, h_main_v145, h_main_v146, h_main_v147, h_main_v148, h_main_v149⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v2,
    by after_results_simp; exact h_main_v21,
    by after_results_simp; exact h_main_v22,
    by after_results_simp; exact h_main_v26,
    by after_results_simp; exact h_main_v73,
    by after_results_simp; exact h_main_v112,
    by after_results_simp; (try simp only [TRef.ofBuf, TRef.toBuf, cast_eq]); dsimp only [Matrix.cons_val]; rw [h_main_v144, h_main_v145, h_main_v146, h_main_v147, h_main_v148, h_main_v149]; rfl⟩
theorem s212 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_212 V x0 x1 x2 x3 x4 x5 x6 → I3_213 ((binary main_v2 main_v150 main_v151 ((fun x i => Host.gather gather_S4x3x3x64x64x64_S4x128x6_S4x128_n_012345_n_n_012345_2_111111 x i) : (⟨S4x3x3x64x64x64, .f32⟩ : BufTy).Contents (Elt F) → (⟨S4x128x6, .i32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v2, h_main_v21, h_main_v22, h_main_v26, h_main_v73, h_main_v112, h_main_v150⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v73,
    by after_results_simp; exact h_main_v112,
    by after_results_simp; (try simp only [TRef.ofBuf, TRef.toBuf, cast_eq]); rw [h_main_v2, h_main_v150]; rfl⟩
theorem s213 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_213 V x0 x1 x2 x3 x4 x5 x6 → I3_214 ((nullary main_cst_40 (constant S_ .f32 0x3F800000#32)).result V) x0 x1 x2 x3 x4 x5 x6 :=
  fun ⟨h_main_arg0, h_main_arg1, h_main_arg2, h_main_arg3, h_main_arg4, h_main_arg5, h_main_arg6, h_main_v21, h_main_v22, h_main_v26, h_main_v73, h_main_v112, h_main_v151⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v73,
    by after_results_simp; exact h_main_v112,
    by after_results_simp; exact h_main_v151,
    by after_results_simp; (try simp only [TRef.ofBuf, TRef.toBuf, cast_eq]); rfl⟩
theorem s214 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_214 V x0 x1 x2 x3 x4 x5 x6 → I3_215 ((unary main_cst_40 main_v152 (broadcastInDim S4x128 ![] bcast_S_S4x128 : (⟨S_, .f32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v26, h_main_v73, h_main_v112, h_main_v151, h_main_cst_40⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v73,
    by after_results_simp; exact h_main_v112,
    by after_results_simp; exact h_main_v151,
    by after_results_simp; (try simp only [TRef.ofBuf, TRef.toBuf, cast_eq]); rw [h_main_cst_40]; rfl⟩
theorem s215 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_215 V x0 x1 x2 x3 x4 x5 x6 → I3_216 ((binary main_v152 main_v112 main_v153 (subf : (⟨S4x128, .f32⟩ : BufTy).Contents (Elt F) → (⟨S4x128, .f32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v26, h_main_v73, h_main_v112, h_main_v151, h_main_v152⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v73,
    by after_results_simp; exact h_main_v151,
    by after_results_simp; (try simp only [TRef.ofBuf, TRef.toBuf, cast_eq]); rw [h_main_v152, h_main_v112]; rfl⟩
theorem s216 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_216 V x0 x1 x2 x3 x4 x5 x6 → I3_217 ((binary main_v153 main_v153 main_v154 (mulf : (⟨S4x128, .f32⟩ : BufTy).Contents (Elt F) → (⟨S4x128, .f32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v26, h_main_v73, h_main_v151, h_main_v153⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v73,
    by after_results_simp; exact h_main_v151,
    by after_results_simp; (try simp only [TRef.ofBuf, TRef.toBuf, cast_eq]); rw [h_main_v153]; rfl⟩
theorem s217 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_217 V x0 x1 x2 x3 x4 x5 x6 → I3_218 ((nullary main_c_41 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v26, h_main_v73, h_main_v151, h_main_v154⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v73,
    by after_results_simp; exact h_main_v151,
    by after_results_simp; exact h_main_v154,
    by after_results_simp; (try simp only [TRef.ofBuf, TRef.toBuf, cast_eq]); rfl⟩
theorem s218 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_218 V x0 x1 x2 x3 x4 x5 x6 → I3_219 ((unary main_c_41 main_v155 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v26, h_main_v73, h_main_v151, h_main_v154, h_main_c_41⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v73,
    by after_results_simp; exact h_main_v151,
    by after_results_simp; exact h_main_v154,
    by after_results_simp; (try simp only [TRef.ofBuf, TRef.toBuf, cast_eq]); rw [h_main_c_41]; rfl⟩
theorem s219 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_219 V x0 x1 x2 x3 x4 x5 x6 → I3_220 ((binary main_v73 main_v155 main_v156 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v26, h_main_v73, h_main_v151, h_main_v154, h_main_v155⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v73,
    by after_results_simp; exact h_main_v151,
    by after_results_simp; exact h_main_v154,
    by after_results_simp; (try simp only [TRef.ofBuf, TRef.toBuf, cast_eq]); rw [h_main_v73, h_main_v155]; rfl⟩
theorem s220 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_220 V x0 x1 x2 x3 x4 x5 x6 → I3_221 ((nullary main_c_42 (constantI S_ 32 3#32)).result V) x0 x1 x2 x3 x4 x5 x6 :=
  fun ⟨h_main_arg0, h_main_arg1, h_main_arg2, h_main_arg3, h_main_arg4, h_main_arg5, h_main_arg6, h_main_v21, h_main_v22, h_main_v26, h_main_v73, h_main_v151, h_main_v154, h_main_v156⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v73,
    by after_results_simp; exact h_main_v151,
    by after_results_simp; exact h_main_v154,
    by after_results_simp; exact h_main_v156,
    by after_results_simp; (try simp only [TRef.ofBuf, TRef.toBuf, cast_eq]); rfl⟩
theorem s221 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_221 V x0 x1 x2 x3 x4 x5 x6 → I3_222 ((unary main_c_42 main_v157 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v26, h_main_v73, h_main_v151, h_main_v154, h_main_v156, h_main_c_42⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v73,
    by after_results_simp; exact h_main_v151,
    by after_results_simp; exact h_main_v154,
    by after_results_simp; exact h_main_v156,
    by after_results_simp; (try simp only [TRef.ofBuf, TRef.toBuf, cast_eq]); rw [h_main_c_42]; rfl⟩
theorem s222 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_222 V x0 x1 x2 x3 x4 x5 x6 → I3_223 ((binary main_v73 main_v157 main_v158 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v26, h_main_v73, h_main_v151, h_main_v154, h_main_v156, h_main_v157⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v73,
    by after_results_simp; exact h_main_v151,
    by after_results_simp; exact h_main_v154,
    by after_results_simp; exact h_main_v156,
    by after_results_simp; (try simp only [TRef.ofBuf, TRef.toBuf, cast_eq]); rw [h_main_v73, h_main_v157]; rfl⟩
theorem s223 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_223 V x0 x1 x2 x3 x4 x5 x6 → I3_224 ((ternary main_v156 main_v158 main_v73 main_v159 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v26, h_main_v73, h_main_v151, h_main_v154, h_main_v156, h_main_v158⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v151,
    by after_results_simp; exact h_main_v154,
    by after_results_simp; (try simp only [TRef.ofBuf, TRef.toBuf, cast_eq]); rw [h_main_v156, h_main_v158, h_main_v73]; rfl⟩
theorem s224 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_224 V x0 x1 x2 x3 x4 x5 x6 → I3_225 ((unary main_v159 main_v160 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v26, h_main_v151, h_main_v154, h_main_v159⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v151,
    by after_results_simp; exact h_main_v154,
    by after_results_simp; (try simp only [TRef.ofBuf, TRef.toBuf, cast_eq]); rw [h_main_v159]; rfl⟩
theorem s225 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_225 V x0 x1 x2 x3 x4 x5 x6 → I3_226 ((binary main_arg6 main_v160 main_v161 ((fun x i => Host.gather gather_S3_S4x128x1_S4x128_n_0_n_n_0_2_1 x i) : (⟨S3, .f32⟩ : BufTy).Contents (Elt F) → (⟨S4x128x1, .i32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v26, h_main_v151, h_main_v154, h_main_v160⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v151,
    by after_results_simp; exact h_main_v154,
    by after_results_simp; (try simp only [TRef.ofBuf, TRef.toBuf, cast_eq]); rw [h_main_arg6, h_main_v160]; rfl⟩
theorem s226 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_226 V x0 x1 x2 x3 x4 x5 x6 → I3_227 ((binary main_v154 main_v161 main_v162 (mulf : (⟨S4x128, .f32⟩ : BufTy).Contents (Elt F) → (⟨S4x128, .f32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v26, h_main_v151, h_main_v154, h_main_v161⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v26,
    by after_results_simp; exact h_main_v151,
    by after_results_simp; (try simp only [TRef.ofBuf, TRef.toBuf, cast_eq]); rw [h_main_v154, h_main_v161]; rfl⟩
theorem s227 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_227 V x0 x1 x2 x3 x4 x5 x6 → I3_228 ((unary main_v26 main_v163 (uitofp .f32 : (⟨S4x128, .i1⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v26, h_main_v151, h_main_v162⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v151,
    by after_results_simp; exact h_main_v162,
    by after_results_simp; (try simp only [TRef.ofBuf, TRef.toBuf, cast_eq]); rw [h_main_v26]; rfl⟩
theorem s228 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_228 V x0 x1 x2 x3 x4 x5 x6 → I3_229 ((binary main_v162 main_v163 main_v164 (mulf : (⟨S4x128, .f32⟩ : BufTy).Contents (Elt F) → (⟨S4x128, .f32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v151, h_main_v162, h_main_v163⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v151,
    by after_results_simp; (try simp only [TRef.ofBuf, TRef.toBuf, cast_eq]); rw [h_main_v162, h_main_v163]; rfl⟩
theorem s229 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_229 V x0 x1 x2 x3 x4 x5 x6 → I3_230 ((binary main_v151 main_v164 main_v165 (mulf : (⟨S4x128, .f32⟩ : BufTy).Contents (Elt F) → (⟨S4x128, .f32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v151, h_main_v164⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v164,
    by after_results_simp; (try simp only [TRef.ofBuf, TRef.toBuf, cast_eq]); rw [h_main_v151, h_main_v164]; rfl⟩
theorem s230 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_230 V x0 x1 x2 x3 x4 x5 x6 → I3_231 ((nullary main_cst_43 (constant S_ .f32 0x00000000#32)).result V) x0 x1 x2 x3 x4 x5 x6 :=
  fun ⟨h_main_arg0, h_main_arg1, h_main_arg2, h_main_arg3, h_main_arg4, h_main_arg5, h_main_arg6, h_main_v21, h_main_v22, h_main_v164, h_main_v165⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v164,
    by after_results_simp; exact h_main_v165,
    by after_results_simp; (try simp only [TRef.ofBuf, TRef.toBuf, cast_eq]); rfl⟩
theorem s231 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_231 V x0 x1 x2 x3 x4 x5 x6 → I3_232 ((binary main_v165 main_cst_43 main_v166 ((fun x v => Host.reduceAdd x v reducesTo_S4x128_S_d0_1 h_S_) : (⟨S4x128, .f32⟩ : BufTy).Contents (Elt F) → (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v164, h_main_v165, h_main_cst_43⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v164,
    by after_results_simp; (try simp only [TRef.ofBuf, TRef.toBuf, cast_eq]); rw [h_main_v165, h_main_cst_43]; rfl⟩
theorem s232 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_232 V x0 x1 x2 x3 x4 x5 x6 → I3_233 ((nullary main_cst_44 (constant S_ .f32 0x00000000#32)).result V) x0 x1 x2 x3 x4 x5 x6 :=
  fun ⟨h_main_arg0, h_main_arg1, h_main_arg2, h_main_arg3, h_main_arg4, h_main_arg5, h_main_arg6, h_main_v21, h_main_v22, h_main_v164, h_main_v166⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v164,
    by after_results_simp; exact h_main_v166,
    by after_results_simp; (try simp only [TRef.ofBuf, TRef.toBuf, cast_eq]); rfl⟩
theorem s233 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_233 V x0 x1 x2 x3 x4 x5 x6 → I3_234 ((binary main_v164 main_cst_44 main_v167 ((fun x v => Host.reduceAdd x v reducesTo_S4x128_S_d0_1 h_S_) : (⟨S4x128, .f32⟩ : BufTy).Contents (Elt F) → (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v164, h_main_v166, h_main_cst_44⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; (try simp only [TRef.ofBuf, TRef.toBuf, cast_eq]); rw [h_main_v164, h_main_cst_44]; rfl⟩
theorem s234 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_234 V x0 x1 x2 x3 x4 x5 x6 → I3_235 ((reshape main_arg1 main_v168 rfl shapeCasts_S4x9x32x32x32_S4x3x3x32x32x32).result V) x0 x1 x2 x3 x4 x5 x6 :=
  fun ⟨h_main_arg0, h_main_arg1, h_main_arg2, h_main_arg3, h_main_arg4, h_main_arg5, h_main_arg6, h_main_v21, h_main_v22, h_main_v166, h_main_v167⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; (try simp only [TRef.ofBuf, TRef.toBuf, cast_eq]); rw [h_main_arg1]; rfl⟩
theorem s235 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_235 V x0 x1 x2 x3 x4 x5 x6 → I3_236 ((TRef.nullary (TRef.of (T := ⟨S_, .f32⟩) main_call3_cst) (constant S_ .f32 0xFF800000#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v168⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v168,
    by after_results_simp; (try simp only [TRef.ofBuf, TRef.toBuf, cast_eq]); rfl⟩
theorem s236 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_236 V x0 x1 x2 x3 x4 x5 x6 → I3_237 ((TRef.binary (TRef.of (T := ⟨S4x3x3x32x32x32, .f32⟩) main_v168) (TRef.of (T := ⟨S_, .f32⟩) main_call3_cst) (TRef.of (T := ⟨S4x3x32x32x32, .f32⟩) main_call3_v0) (fun x v => Host.reduce FloatOps.maximumf x v reducesTo_S4x3x3x32x32x32_S4x3x32x32x32_d1 h_S_)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v168, h_main_call3_cst⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v168,
    by after_results_simp; (try simp only [TRef.ofBuf, TRef.toBuf, cast_eq]); rw [h_main_v168, h_main_call3_cst]; rfl⟩
theorem s237 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_237 V x0 x1 x2 x3 x4 x5 x6 → I3_238 ((TRef.nullary (TRef.of (T := ⟨S_, .f32⟩) main_call3_cst_0) (constant S_ .f32 0xFF800000#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v168, h_main_call3_v0⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v168,
    by after_results_simp; exact h_main_call3_v0,
    by after_results_simp; (try simp only [TRef.ofBuf, TRef.toBuf, cast_eq]); rfl⟩
theorem s238 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_238 V x0 x1 x2 x3 x4 x5 x6 → I3_239 ((TRef.unary (TRef.of (T := ⟨S_, .f32⟩) main_call3_cst_0) (TRef.of (T := ⟨S4x3x32x32x32, .f32⟩) main_call3_v1) (broadcastInDim S4x3x32x32x32 ![] bcast_S_S4x3x32x32x32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v168, h_main_call3_v0, h_main_call3_cst_0⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v168,
    by after_results_simp; exact h_main_call3_v0,
    by after_results_simp; (try simp only [TRef.ofBuf, TRef.toBuf, cast_eq]); rw [h_main_call3_cst_0]; rfl⟩
theorem s239 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_239 V x0 x1 x2 x3 x4 x5 x6 → I3_240 ((TRef.binary (TRef.of (T := ⟨S4x3x32x32x32, .f32⟩) main_call3_v1) (TRef.of (T := ⟨S4x3x32x32x32, .f32⟩) main_call3_v0) (TRef.of (T := ⟨S4x3x32x32x32, .f32⟩) main_call3_v2) maximumf).result V) x0 x1 x2 x3 x4 x5 x6 :=
  fun ⟨h_main_arg0, h_main_arg1, h_main_arg2, h_main_arg3, h_main_arg4, h_main_arg5, h_main_arg6, h_main_v21, h_main_v22, h_main_v166, h_main_v167, h_main_v168, h_main_call3_v0, h_main_call3_v1⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v168,
    by after_results_simp; (try simp only [TRef.ofBuf, TRef.toBuf, cast_eq]); rw [h_main_call3_v1, h_main_call3_v0]; rfl⟩
theorem s240 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_240 V x0 x1 x2 x3 x4 x5 x6 → I3_241 ((TRef.unary (TRef.of (T := ⟨S4x3x32x32x32, .f32⟩) main_call3_v2) (TRef.of (T := ⟨S4x1x3x32x32x32, .f32⟩) main_call3_v3) (broadcastInDim S4x1x3x32x32x32 ![0, 2, 3, 4, 5] bcast_S4x3x32x32x32_S4x1x3x32x32x32_0_2_3_4_5)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v168, h_main_call3_v2⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v168,
    by after_results_simp; (try simp only [TRef.ofBuf, TRef.toBuf, cast_eq]); rw [h_main_call3_v2]; rfl⟩
theorem s241 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_241 V x0 x1 x2 x3 x4 x5 x6 → I3_242 ((TRef.unary (TRef.of (T := ⟨S4x1x3x32x32x32, .f32⟩) main_call3_v3) (TRef.of (T := ⟨S4x3x3x32x32x32, .f32⟩) main_call3_v4) (broadcastInDim S4x3x3x32x32x32 ![0, 1, 2, 3, 4, 5] bcast_S4x1x3x32x32x32_S4x3x3x32x32x32_0_1_2_3_4_5)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v168, h_main_call3_v3⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v168,
    by after_results_simp; (try simp only [TRef.ofBuf, TRef.toBuf, cast_eq]); rw [h_main_call3_v3]; rfl⟩
theorem s242 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_242 V x0 x1 x2 x3 x4 x5 x6 → I3_243 ((TRef.binary (TRef.of (T := ⟨S4x3x3x32x32x32, .f32⟩) main_v168) (TRef.of (T := ⟨S4x3x3x32x32x32, .f32⟩) main_call3_v4) (TRef.of (T := ⟨S4x3x3x32x32x32, .f32⟩) main_call3_v5) subf).result V) x0 x1 x2 x3 x4 x5 x6 :=
  fun ⟨h_main_arg0, h_main_arg1, h_main_arg2, h_main_arg3, h_main_arg4, h_main_arg5, h_main_arg6, h_main_v21, h_main_v22, h_main_v166, h_main_v167, h_main_v168, h_main_call3_v4⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; (try simp only [TRef.ofBuf, TRef.toBuf, cast_eq]); rw [h_main_v168, h_main_call3_v4]; rfl⟩
theorem s243 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_243 V x0 x1 x2 x3 x4 x5 x6 → I3_244 ((TRef.unary (TRef.of (T := ⟨S4x3x3x32x32x32, .f32⟩) main_call3_v5) (TRef.of (T := ⟨S4x3x3x32x32x32, .f32⟩) main_call3_v6) Host.exp).result V) x0 x1 x2 x3 x4 x5 x6 :=
  fun ⟨h_main_arg0, h_main_arg1, h_main_arg2, h_main_arg3, h_main_arg4, h_main_arg5, h_main_arg6, h_main_v21, h_main_v22, h_main_v166, h_main_v167, h_main_call3_v5⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_call3_v5,
    by after_results_simp; (try simp only [TRef.ofBuf, TRef.toBuf, cast_eq]); rw [h_main_call3_v5]; rfl⟩
theorem s244 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_244 V x0 x1 x2 x3 x4 x5 x6 → I3_245 ((TRef.nullary (TRef.of (T := ⟨S_, .f32⟩) main_call3_cst_1) (constant S_ .f32 0x00000000#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_call3_v5, h_main_call3_v6⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_call3_v5,
    by after_results_simp; exact h_main_call3_v6,
    by after_results_simp; (try simp only [TRef.ofBuf, TRef.toBuf, cast_eq]); rfl⟩
theorem s245 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_245 V x0 x1 x2 x3 x4 x5 x6 → I3_246 ((TRef.binary (TRef.of (T := ⟨S4x3x3x32x32x32, .f32⟩) main_call3_v6) (TRef.of (T := ⟨S_, .f32⟩) main_call3_cst_1) (TRef.of (T := ⟨S4x3x32x32x32, .f32⟩) main_call3_v7) (fun x v => Host.reduceAdd x v reducesTo_S4x3x3x32x32x32_S4x3x32x32x32_d1 h_S_)).result V) x0 x1 x2 x3 x4 x5 x6 :=
  fun ⟨h_main_arg0, h_main_arg1, h_main_arg2, h_main_arg3, h_main_arg4, h_main_arg5, h_main_arg6, h_main_v21, h_main_v22, h_main_v166, h_main_v167, h_main_call3_v5, h_main_call3_v6, h_main_call3_cst_1⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_call3_v5,
    by after_results_simp; (try simp only [TRef.ofBuf, TRef.toBuf, cast_eq]); rw [h_main_call3_v6, h_main_call3_cst_1]; rfl⟩
theorem s246 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_246 V x0 x1 x2 x3 x4 x5 x6 → I3_247 ((TRef.unary (TRef.of (T := ⟨S4x3x32x32x32, .f32⟩) main_call3_v7) (TRef.of (T := ⟨S4x1x3x32x32x32, .f32⟩) main_call3_v8) (broadcastInDim S4x1x3x32x32x32 ![0, 2, 3, 4, 5] bcast_S4x3x32x32x32_S4x1x3x32x32x32_0_2_3_4_5)).result V) x0 x1 x2 x3 x4 x5 x6 :=
  fun ⟨h_main_arg0, h_main_arg1, h_main_arg2, h_main_arg3, h_main_arg4, h_main_arg5, h_main_arg6, h_main_v21, h_main_v22, h_main_v166, h_main_v167, h_main_call3_v5, h_main_call3_v7⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_call3_v5,
    by after_results_simp; (try simp only [TRef.ofBuf, TRef.toBuf, cast_eq]); rw [h_main_call3_v7]; rfl⟩
theorem s247 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_247 V x0 x1 x2 x3 x4 x5 x6 → I3_248 ((TRef.unary (TRef.of (T := ⟨S4x1x3x32x32x32, .f32⟩) main_call3_v8) (TRef.of (T := ⟨S4x1x3x32x32x32, .f32⟩) main_call3_v9) Host.log).result V) x0 x1 x2 x3 x4 x5 x6 :=
  fun ⟨h_main_arg0, h_main_arg1, h_main_arg2, h_main_arg3, h_main_arg4, h_main_arg5, h_main_arg6, h_main_v21, h_main_v22, h_main_v166, h_main_v167, h_main_call3_v5, h_main_call3_v8⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_call3_v5,
    by after_results_simp; (try simp only [TRef.ofBuf, TRef.toBuf, cast_eq]); rw [h_main_call3_v8]; rfl⟩
theorem s248 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_248 V x0 x1 x2 x3 x4 x5 x6 → I3_249 ((TRef.unary (TRef.of (T := ⟨S4x1x3x32x32x32, .f32⟩) main_call3_v9) (TRef.of (T := ⟨S4x3x3x32x32x32, .f32⟩) main_call3_v10) (broadcastInDim S4x3x3x32x32x32 ![0, 1, 2, 3, 4, 5] bcast_S4x1x3x32x32x32_S4x3x3x32x32x32_0_1_2_3_4_5)).result V) x0 x1 x2 x3 x4 x5 x6 :=
  fun ⟨h_main_arg0, h_main_arg1, h_main_arg2, h_main_arg3, h_main_arg4, h_main_arg5, h_main_arg6, h_main_v21, h_main_v22, h_main_v166, h_main_v167, h_main_call3_v5, h_main_call3_v9⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_call3_v5,
    by after_results_simp; (try simp only [TRef.ofBuf, TRef.toBuf, cast_eq]); rw [h_main_call3_v9]; rfl⟩
theorem s249 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_249 V x0 x1 x2 x3 x4 x5 x6 → I3_250 ((TRef.binary (TRef.of (T := ⟨S4x3x3x32x32x32, .f32⟩) main_call3_v5) (TRef.of (T := ⟨S4x3x3x32x32x32, .f32⟩) main_call3_v10) (TRef.of (T := ⟨S4x3x3x32x32x32, .f32⟩) main_v169) subf).result V) x0 x1 x2 x3 x4 x5 x6 :=
  fun ⟨h_main_arg0, h_main_arg1, h_main_arg2, h_main_arg3, h_main_arg4, h_main_arg5, h_main_arg6, h_main_v21, h_main_v22, h_main_v166, h_main_v167, h_main_call3_v5, h_main_call3_v10⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; (try simp only [TRef.ofBuf, TRef.toBuf, cast_eq]); rw [h_main_call3_v5, h_main_call3_v10]; rfl⟩
theorem s250 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_250 V x0 x1 x2 x3 x4 x5 x6 → I3_251 ((unary main_v169 main_v170 (Host.negf : (⟨S4x3x3x32x32x32, .f32⟩ : BufTy).Contents (Elt F) → (⟨S4x3x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v169⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v169,
    by after_results_simp; (try simp only [TRef.ofBuf, TRef.toBuf, cast_eq]); rw [h_main_v169]; rfl⟩
theorem s251 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_251 V x0 x1 x2 x3 x4 x5 x6 → I3_252 ((unary main_v169 main_v171 (Host.exp : (⟨S4x3x3x32x32x32, .f32⟩ : BufTy).Contents (Elt F) → (⟨S4x3x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v169, h_main_v170⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; (try simp only [TRef.ofBuf, TRef.toBuf, cast_eq]); rw [h_main_v169]; rfl⟩
theorem s252 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_252 V x0 x1 x2 x3 x4 x5 x6 → I3_253 ((unary main_v170 main_v172 ((extractStridedSlice S4x1x3x32x32x32 ![0, 0, 0, 0, 0, 0] · slices_S4x3x3x32x32x32_S4x1x3x32x32x32_0_0_0_0_0_0) : (⟨S4x3x3x32x32x32, .f32⟩ : BufTy).Contents (Elt F) → (⟨S4x1x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; (try simp only [TRef.ofBuf, TRef.toBuf, cast_eq]); rw [h_main_v170]; rfl⟩
theorem s253 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_253 V x0 x1 x2 x3 x4 x5 x6 → I3_254 ((reshape main_v172 main_v173 rfl shapeCasts_S4x1x3x32x32x32_S4x3x32x32x32).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v172⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; (try simp only [TRef.ofBuf, TRef.toBuf, cast_eq]); rw [h_main_v172]; rfl⟩
theorem s254 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_254 V x0 x1 x2 x3 x4 x5 x6 → I3_255 ((unary main_v171 main_v174 ((extractStridedSlice S4x1x3x32x32x32 ![0, 0, 0, 0, 0, 0] · slices_S4x3x3x32x32x32_S4x1x3x32x32x32_0_0_0_0_0_0) : (⟨S4x3x3x32x32x32, .f32⟩ : BufTy).Contents (Elt F) → (⟨S4x1x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; (try simp only [TRef.ofBuf, TRef.toBuf, cast_eq]); rw [h_main_v171]; rfl⟩
theorem s255 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_255 V x0 x1 x2 x3 x4 x5 x6 → I3_256 ((reshape main_v174 main_v175 rfl shapeCasts_S4x1x3x32x32x32_S4x3x32x32x32).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v174⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; (try simp only [TRef.ofBuf, TRef.toBuf, cast_eq]); rw [h_main_v174]; rfl⟩
theorem s256 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_256 V x0 x1 x2 x3 x4 x5 x6 → I3_257 ((nullary main_cst_45 (constant S_ .f32 0xBF800000#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v175,
    by after_results_simp; (try simp only [TRef.ofBuf, TRef.toBuf, cast_eq]); rfl⟩
theorem s257 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_257 V x0 x1 x2 x3 x4 x5 x6 → I3_258 ((unary main_cst_45 main_v176 (broadcastInDim S4x3x32x32x32 ![] bcast_S_S4x3x32x32x32 : (⟨S_, .f32⟩ : BufTy).Contents (Elt F) → (⟨S4x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175, h_main_cst_45⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v175,
    by after_results_simp; (try simp only [TRef.ofBuf, TRef.toBuf, cast_eq]); rw [h_main_cst_45]; rfl⟩
theorem s258 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_258 V x0 x1 x2 x3 x4 x5 x6 → I3_259 ((binary main_arg3 main_v176 main_v177 (cmpf .oeq : (⟨S4x3x32x32x32, .f32⟩ : BufTy).Contents (Elt F) → (⟨S4x3x32x32x32, .f32⟩ : BufTy).Contents (Elt F) → (⟨S4x3x32x32x32, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175, h_main_v176⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v175,
    by after_results_simp; (try simp only [TRef.ofBuf, TRef.toBuf, cast_eq]); rw [h_main_arg3, h_main_v176]; rfl⟩
theorem s259 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_259 V x0 x1 x2 x3 x4 x5 x6 → I3_260 ((unary main_v177 main_v178 (uitofp .f32 : (⟨S4x3x32x32x32, .i1⟩ : BufTy).Contents (Elt F) → (⟨S4x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175, h_main_v177⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v175,
    by after_results_simp; (try simp only [TRef.ofBuf, TRef.toBuf, cast_eq]); rw [h_main_v177]; rfl⟩
theorem s260 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_260 V x0 x1 x2 x3 x4 x5 x6 → I3_261 ((nullary main_cst_46 (constant S_ .f32 0xFF800000#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175, h_main_v178⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v175,
    by after_results_simp; exact h_main_v178,
    by after_results_simp; (try simp only [TRef.ofBuf, TRef.toBuf, cast_eq]); rfl⟩
theorem s261 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_261 V x0 x1 x2 x3 x4 x5 x6 → I3_262 ((unary main_cst_46 main_v179 (broadcastInDim S_ ![] bcast_S_S_ : (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175, h_main_v178, h_main_cst_46⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v175,
    by after_results_simp; exact h_main_v178,
    by after_results_simp; (try simp only [TRef.ofBuf, TRef.toBuf, cast_eq]); rw [h_main_cst_46]; rfl⟩
theorem s262 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_262 V x0 x1 x2 x3 x4 x5 x6 → I3_263 ((binary main_v173 main_v179 main_v180 ((fun x v => Host.reduceWindow FloatOps.maximumf ![1, 1, 3, 3, 3] ![1, 1, 1, 1, 1] ![0, 0, 1, 1, 1] ![0, 0, 1, 1, 1] x v reduceWindows_S4x3x32x32x32_S4x3x32x32x32_w1s1p0_0_w1s1p0_0_w3s1p1_1_w3s1p1_1_w3s1p1_1 h_S_) : (⟨S4x3x32x32x32, .f32⟩ : BufTy).Contents (Elt F) → (⟨S_, .f32⟩ : BufTy).Contents (Elt F) → (⟨S4x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175, h_main_v178, h_main_v179⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v175,
    by after_results_simp; exact h_main_v178,
    by after_results_simp; (try simp only [TRef.ofBuf, TRef.toBuf, cast_eq]); rw [h_main_v173, h_main_v179]; rfl⟩
theorem s263 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_263 V x0 x1 x2 x3 x4 x5 x6 → I3_264 ((binary main_v180 main_v173 main_v181 (cmpf .oeq : (⟨S4x3x32x32x32, .f32⟩ : BufTy).Contents (Elt F) → (⟨S4x3x32x32x32, .f32⟩ : BufTy).Contents (Elt F) → (⟨S4x3x32x32x32, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175, h_main_v178, h_main_v180⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v175,
    by after_results_simp; exact h_main_v178,
    by after_results_simp; (try simp only [TRef.ofBuf, TRef.toBuf, cast_eq]); rw [h_main_v180, h_main_v173]; rfl⟩
theorem s264 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_264 V x0 x1 x2 x3 x4 x5 x6 → I3_265 ((unary main_v181 main_v182 (uitofp .f32 : (⟨S4x3x32x32x32, .i1⟩ : BufTy).Contents (Elt F) → (⟨S4x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175, h_main_v178, h_main_v181⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v175,
    by after_results_simp; exact h_main_v178,
    by after_results_simp; (try simp only [TRef.ofBuf, TRef.toBuf, cast_eq]); rw [h_main_v181]; rfl⟩
theorem s265 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_265 V x0 x1 x2 x3 x4 x5 x6 → I3_266 ((binary main_v178 main_v182 main_v183 (mulf : (⟨S4x3x32x32x32, .f32⟩ : BufTy).Contents (Elt F) → (⟨S4x3x32x32x32, .f32⟩ : BufTy).Contents (Elt F) → (⟨S4x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175, h_main_v178, h_main_v182⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v175,
    by after_results_simp; (try simp only [TRef.ofBuf, TRef.toBuf, cast_eq]); rw [h_main_v178, h_main_v182]; rfl⟩
theorem s266 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_266 V x0 x1 x2 x3 x4 x5 x6 → I3_267 ((nullary main_cst_47 (constant S_ .f32 0x3F800000#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175, h_main_v183⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v175,
    by after_results_simp; exact h_main_v183,
    by after_results_simp; (try simp only [TRef.ofBuf, TRef.toBuf, cast_eq]); rfl⟩
theorem s267 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_267 V x0 x1 x2 x3 x4 x5 x6 → I3_268 ((unary main_cst_47 main_v184 (broadcastInDim S4x3x32x32x32 ![] bcast_S_S4x3x32x32x32 : (⟨S_, .f32⟩ : BufTy).Contents (Elt F) → (⟨S4x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175, h_main_v183, h_main_cst_47⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v175,
    by after_results_simp; exact h_main_v183,
    by after_results_simp; (try simp only [TRef.ofBuf, TRef.toBuf, cast_eq]); rw [h_main_cst_47]; rfl⟩
theorem s268 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_268 V x0 x1 x2 x3 x4 x5 x6 → I3_269 ((binary main_v184 main_v175 main_v185 (subf : (⟨S4x3x32x32x32, .f32⟩ : BufTy).Contents (Elt F) → (⟨S4x3x32x32x32, .f32⟩ : BufTy).Contents (Elt F) → (⟨S4x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v175, h_main_v183, h_main_v184⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v183,
    by after_results_simp; (try simp only [TRef.ofBuf, TRef.toBuf, cast_eq]); rw [h_main_v184, h_main_v175]; rfl⟩
theorem s269 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_269 V x0 x1 x2 x3 x4 x5 x6 → I3_270 ((binary main_v185 main_v185 main_v186 (mulf : (⟨S4x3x32x32x32, .f32⟩ : BufTy).Contents (Elt F) → (⟨S4x3x32x32x32, .f32⟩ : BufTy).Contents (Elt F) → (⟨S4x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v183, h_main_v185⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; exact h_main_v183,
    by after_results_simp; (try simp only [TRef.ofBuf, TRef.toBuf, cast_eq]); rw [h_main_v185]; rfl⟩
theorem s270 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_270 V x0 x1 x2 x3 x4 x5 x6 → I3_271 ((binary main_v186 main_v183 main_v187 (mulf : (⟨S4x3x32x32x32, .f32⟩ : BufTy).Contents (Elt F) → (⟨S4x3x32x32x32, .f32⟩ : BufTy).Contents (Elt F) → (⟨S4x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v183, h_main_v186⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v173,
    by after_results_simp; (try simp only [TRef.ofBuf, TRef.toBuf, cast_eq]); rw [h_main_v186, h_main_v183]; rfl⟩
theorem s271 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_271 V x0 x1 x2 x3 x4 x5 x6 → I3_272 ((binary main_v173 main_v187 main_v188 (mulf : (⟨S4x3x32x32x32, .f32⟩ : BufTy).Contents (Elt F) → (⟨S4x3x32x32x32, .f32⟩ : BufTy).Contents (Elt F) → (⟨S4x3x32x32x32, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v173, h_main_v187⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v187,
    by after_results_simp; (try simp only [TRef.ofBuf, TRef.toBuf, cast_eq]); rw [h_main_v173, h_main_v187]; rfl⟩
theorem s272 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I3_272 V x0 x1 x2 x3 x4 x5 x6 → I3_273 ((nullary main_cst_48 (constant S_ .f32 0x00000000#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v187, h_main_v188⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v187,
    by after_results_simp; exact h_main_v188,
    by after_results_simp; (try simp only [TRef.ofBuf, TRef.toBuf, cast_eq]); rfl⟩

set_option maxRecDepth 8192 in
set_option maxHeartbeats 4000000 in
/-- The window, from any contents. -/
theorem w3 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) (h199 : I3_199 V x0 x1 x2 x3 x4 x5 x6) : I3_273 (after ops_p3 V) x0 x1 x2 x3 x4 x5 x6 := by
  simp only [ops_p3, after_cons, after_nil]
  have h200 := s199 _ x0 x1 x2 x3 x4 x5 x6 h199
  have h201 := s200 _ x0 x1 x2 x3 x4 x5 x6 h200
  have h202 := s201 _ x0 x1 x2 x3 x4 x5 x6 h201
  have h203 := s202 _ x0 x1 x2 x3 x4 x5 x6 h202
  have h204 := s203 _ x0 x1 x2 x3 x4 x5 x6 h203
  have h205 := s204 _ x0 x1 x2 x3 x4 x5 x6 h204
  have h206 := s205 _ x0 x1 x2 x3 x4 x5 x6 h205
  have h207 := s206 _ x0 x1 x2 x3 x4 x5 x6 h206
  have h208 := s207 _ x0 x1 x2 x3 x4 x5 x6 h207
  have h209 := s208 _ x0 x1 x2 x3 x4 x5 x6 h208
  have h210 := s209 _ x0 x1 x2 x3 x4 x5 x6 h209
  have h211 := s210 _ x0 x1 x2 x3 x4 x5 x6 h210
  have h212 := s211 _ x0 x1 x2 x3 x4 x5 x6 h211
  have h213 := s212 _ x0 x1 x2 x3 x4 x5 x6 h212
  have h214 := s213 _ x0 x1 x2 x3 x4 x5 x6 h213
  have h215 := s214 _ x0 x1 x2 x3 x4 x5 x6 h214
  have h216 := s215 _ x0 x1 x2 x3 x4 x5 x6 h215
  have h217 := s216 _ x0 x1 x2 x3 x4 x5 x6 h216
  have h218 := s217 _ x0 x1 x2 x3 x4 x5 x6 h217
  have h219 := s218 _ x0 x1 x2 x3 x4 x5 x6 h218
  have h220 := s219 _ x0 x1 x2 x3 x4 x5 x6 h219
  have h221 := s220 _ x0 x1 x2 x3 x4 x5 x6 h220
  have h222 := s221 _ x0 x1 x2 x3 x4 x5 x6 h221
  have h223 := s222 _ x0 x1 x2 x3 x4 x5 x6 h222
  have h224 := s223 _ x0 x1 x2 x3 x4 x5 x6 h223
  have h225 := s224 _ x0 x1 x2 x3 x4 x5 x6 h224
  have h226 := s225 _ x0 x1 x2 x3 x4 x5 x6 h225
  have h227 := s226 _ x0 x1 x2 x3 x4 x5 x6 h226
  have h228 := s227 _ x0 x1 x2 x3 x4 x5 x6 h227
  have h229 := s228 _ x0 x1 x2 x3 x4 x5 x6 h228
  have h230 := s229 _ x0 x1 x2 x3 x4 x5 x6 h229
  have h231 := s230 _ x0 x1 x2 x3 x4 x5 x6 h230
  have h232 := s231 _ x0 x1 x2 x3 x4 x5 x6 h231
  have h233 := s232 _ x0 x1 x2 x3 x4 x5 x6 h232
  have h234 := s233 _ x0 x1 x2 x3 x4 x5 x6 h233
  have h235 := s234 _ x0 x1 x2 x3 x4 x5 x6 h234
  have h236 := s235 _ x0 x1 x2 x3 x4 x5 x6 h235
  have h237 := s236 _ x0 x1 x2 x3 x4 x5 x6 h236
  have h238 := s237 _ x0 x1 x2 x3 x4 x5 x6 h237
  have h239 := s238 _ x0 x1 x2 x3 x4 x5 x6 h238
  have h240 := s239 _ x0 x1 x2 x3 x4 x5 x6 h239
  have h241 := s240 _ x0 x1 x2 x3 x4 x5 x6 h240
  have h242 := s241 _ x0 x1 x2 x3 x4 x5 x6 h241
  have h243 := s242 _ x0 x1 x2 x3 x4 x5 x6 h242
  have h244 := s243 _ x0 x1 x2 x3 x4 x5 x6 h243
  have h245 := s244 _ x0 x1 x2 x3 x4 x5 x6 h244
  have h246 := s245 _ x0 x1 x2 x3 x4 x5 x6 h245
  have h247 := s246 _ x0 x1 x2 x3 x4 x5 x6 h246
  have h248 := s247 _ x0 x1 x2 x3 x4 x5 x6 h247
  have h249 := s248 _ x0 x1 x2 x3 x4 x5 x6 h248
  have h250 := s249 _ x0 x1 x2 x3 x4 x5 x6 h249
  have h251 := s250 _ x0 x1 x2 x3 x4 x5 x6 h250
  have h252 := s251 _ x0 x1 x2 x3 x4 x5 x6 h251
  have h253 := s252 _ x0 x1 x2 x3 x4 x5 x6 h252
  have h254 := s253 _ x0 x1 x2 x3 x4 x5 x6 h253
  have h255 := s254 _ x0 x1 x2 x3 x4 x5 x6 h254
  have h256 := s255 _ x0 x1 x2 x3 x4 x5 x6 h255
  have h257 := s256 _ x0 x1 x2 x3 x4 x5 x6 h256
  have h258 := s257 _ x0 x1 x2 x3 x4 x5 x6 h257
  have h259 := s258 _ x0 x1 x2 x3 x4 x5 x6 h258
  have h260 := s259 _ x0 x1 x2 x3 x4 x5 x6 h259
  have h261 := s260 _ x0 x1 x2 x3 x4 x5 x6 h260
  have h262 := s261 _ x0 x1 x2 x3 x4 x5 x6 h261
  have h263 := s262 _ x0 x1 x2 x3 x4 x5 x6 h262
  have h264 := s263 _ x0 x1 x2 x3 x4 x5 x6 h263
  have h265 := s264 _ x0 x1 x2 x3 x4 x5 x6 h264
  have h266 := s265 _ x0 x1 x2 x3 x4 x5 x6 h265
  have h267 := s266 _ x0 x1 x2 x3 x4 x5 x6 h266
  have h268 := s267 _ x0 x1 x2 x3 x4 x5 x6 h267
  have h269 := s268 _ x0 x1 x2 x3 x4 x5 x6 h268
  have h270 := s269 _ x0 x1 x2 x3 x4 x5 x6 h269
  have h271 := s270 _ x0 x1 x2 x3 x4 x5 x6 h270
  have h272 := s271 _ x0 x1 x2 x3 x4 x5 x6 h271
  have h273 := s272 _ x0 x1 x2 x3 x4 x5 x6 h272
  exact h273

end Cert.Hand.RefRun

end
-- ==== Proof.Ref.RunP4.lean ====
/- Operations 273 … 335 of the reference program's straight line (its printed window 4): the list, the buffers it touches,
   and the window read one operation at a time: I4_k says which buffers hold which stage value after the first k
   operations of the whole line (the arguments x0 … x6, and every stage a later operation still reads); each operation
   takes I4_k to I4_(k+1): the buffer it writes gets its stage value (one unfolding of that stage), every other one is kept. -/
import proofs.«424358_j44040594653645_2_alg».proof.Proof.RefRead

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 273 … 335, in order. -/
abbrev ops_p4 : List (HloOp τ sig (Elt F)) :=
  [ binary main_v188 main_cst_48 main_v189 ((fun x v => Host.reduceAdd x v reducesTo_S4x3x32x32x32_S_d0_1_2_3_4 h_S_) : (⟨S4x3x32x32x32, .f32⟩ : BufTy).Contents (Elt F) → (⟨S_, .f32⟩ : BufTy).Contents (Elt F) → (⟨S_, .f32⟩ : BufTy).Contents (Elt F)),
    nullary main_cst_49 (constant S_ .f32 0x00000000#32),
    binary main_v187 main_cst_49 main_v190 ((fun x v => Host.reduceAdd x v reducesTo_S4x3x32x32x32_S_d0_1_2_3_4 h_S_) : (⟨S4x3x32x32x32, .f32⟩ : BufTy).Contents (Elt F) → (⟨S_, .f32⟩ : BufTy).Contents (Elt F) → (⟨S_, .f32⟩ : BufTy).Contents (Elt F)),
    unary main_arg5 main_v191 ((extractStridedSlice S4x128x1 ![0, 0, 0] · slices_S4x128x4_S4x128x1_0_0_0) : (⟨S4x128x4, .i32⟩ : BufTy).Contents (Elt F) → (⟨S4x128x1, .i32⟩ : BufTy).Contents (Elt F)),
    reshape main_v191 main_v192 rfl shapeCasts_S4x128x1_S4x128,
    nullary main_c_50 (constantI S_ 32 4294967295#32),
    unary main_c_50 main_v193 (broadcastInDim S4x128 ![] bcast_S_S4x128 : (⟨S_, .i32⟩ : BufTy).Contents (Elt F) → (⟨S4x128, .i32⟩ : BufTy).Contents (Elt F)),
    binary main_v192 main_v193 main_v194 (cmpi .sgt : (⟨S4x128, .i32⟩ : BufTy).Contents (Elt F) → (⟨S4x128, .i32⟩ : BufTy).Contents (Elt F) → (⟨S4x128, .i1⟩ : BufTy).Contents (Elt F)),
    unary main_v194 main_v195 (broadcastInDim S4x128x1 ![0, 1] bcast_S4x128_S4x128x1_0_1 : (⟨S4x128, .i1⟩ : BufTy).Contents (Elt F) → (⟨S4x128x1, .i1⟩ : BufTy).Contents (Elt F)),
    nullary main_c_51 (constantI S_ 32 0#32),
    TRef.unary (TRef.of (T := ⟨S_, .i32⟩) main_c_51) (TRef.of (T := ⟨S_, .i32⟩) main_call4_v0) id,
    TRef.unary (TRef.of (T := ⟨S4x128x1, .i1⟩) main_v195) (TRef.of (T := ⟨S4x128x4, .i1⟩) main_call4_v1) (broadcastInDim S4x128x4 ![0, 1, 2] bcast_S4x128x1_S4x128x4_0_1_2),
    TRef.unary (TRef.of (T := ⟨S_, .i32⟩) main_call4_v0) (TRef.of (T := ⟨S4x128x4, .i32⟩) main_call4_v2) (broadcastInDim S4x128x4 ![] bcast_S_S4x128x4),
    TRef.ternary (TRef.of (T := ⟨S4x128x4, .i1⟩) main_call4_v1) (TRef.of (T := ⟨S4x128x4, .i32⟩) main_arg5) (TRef.of (T := ⟨S4x128x4, .i32⟩) main_call4_v2) (TRef.of (T := ⟨S4x128x4, .i32⟩) main_v196) select,
    unary main_v196 main_v197 ((extractStridedSlice S4x128x1 ![0, 0, 0] · slices_S4x128x4_S4x128x1_0_0_0) : (⟨S4x128x4, .i32⟩ : BufTy).Contents (Elt F) → (⟨S4x128x1, .i32⟩ : BufTy).Contents (Elt F)),
    reshape main_v197 main_v198 rfl shapeCasts_S4x128x1_S4x128,
    unary main_v196 main_v199 ((extractStridedSlice S4x128x1 ![0, 0, 1] · slices_S4x128x4_S4x128x1_0_0_1) : (⟨S4x128x4, .i32⟩ : BufTy).Contents (Elt F) → (⟨S4x128x1, .i32⟩ : BufTy).Contents (Elt F)),
    reshape main_v199 main_v200 rfl shapeCasts_S4x128x1_S4x128,
    unary main_v196 main_v201 ((extractStridedSlice S4x128x1 ![0, 0, 2] · slices_S4x128x4_S4x128x1_0_0_2) : (⟨S4x128x4, .i32⟩ : BufTy).Contents (Elt F) → (⟨S4x128x1, .i32⟩ : BufTy).Contents (Elt F)),
    reshape main_v201 main_v202 rfl shapeCasts_S4x128x1_S4x128,
    unary main_v196 main_v203 ((extractStridedSlice S4x128x1 ![0, 0, 3] · slices_S4x128x4_S4x128x1_0_0_3) : (⟨S4x128x4, .i32⟩ : BufTy).Contents (Elt F) → (⟨S4x128x1, .i32⟩ : BufTy).Contents (Elt F)),
    reshape main_v203 main_v204 rfl shapeCasts_S4x128x1_S4x128,
    nullary main_v205 (iotaInDim S4 32 0),
    unary main_v205 main_v206 (broadcastInDim S4x1 ![0] bcast_S4_S4x1_0 : (⟨S4, .i32⟩ : BufTy).Contents (Elt F) → (⟨S4x1, .i32⟩ : BufTy).Contents (Elt F)),
    nullary main_c_52 (constantI S_ 32 0#32),
    unary main_c_52 main_v207 (broadcastInDim S4x1 ![] bcast_S_S4x1 : (⟨S_, .i32⟩ : BufTy).Contents (Elt F) → (⟨S4x1, .i32⟩ : BufTy).Contents (Elt F)),
    binary main_v206 main_v207 main_v208 (cmpi .slt : (⟨S4x1, .i32⟩ : BufTy).Contents (Elt F) → (⟨S4x1, .i32⟩ : BufTy).Contents (Elt F) → (⟨S4x1, .i1⟩ : BufTy).Contents (Elt F)),
    nullary main_c_53 (constantI S_ 32 4#32),
    unary main_c_53 main_v209 (broadcastInDim S4x1 ![] bcast_S_S4x1 : (⟨S_, .i32⟩ : BufTy).Contents (Elt F) → (⟨S4x1, .i32⟩ : BufTy).Contents (Elt F)),
    binary main_v206 main_v209 main_v210 (addi : (⟨S4x1, .i32⟩ : BufTy).Contents (Elt F) → (⟨S4x1, .i32⟩ : BufTy).Contents (Elt F) → (⟨S4x1, .i32⟩ : BufTy).Contents (Elt F)),
    ternary main_v208 main_v210 main_v206 main_v211 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_54 (constantI S_ 32 0#32),
    unary main_c_54 main_v212 (broadcastInDim S4x128 ![] bcast_S_S4x128 : (⟨S_, .i32⟩ : BufTy).Contents (Elt F) → (⟨S4x128, .i32⟩ : BufTy).Contents (Elt F)),
    binary main_v198 main_v212 main_v213 (cmpi .slt : (⟨S4x128, .i32⟩ : BufTy).Contents (Elt F) → (⟨S4x128, .i32⟩ : BufTy).Contents (Elt F) → (⟨S4x128, .i1⟩ : BufTy).Contents (Elt F)),
    nullary main_c_55 (constantI S_ 32 3#32),
    unary main_c_55 main_v214 (broadcastInDim S4x128 ![] bcast_S_S4x128 : (⟨S_, .i32⟩ : BufTy).Contents (Elt F) → (⟨S4x128, .i32⟩ : BufTy).Contents (Elt F)),
    binary main_v198 main_v214 main_v215 (addi : (⟨S4x128, .i32⟩ : BufTy).Contents (Elt F) → (⟨S4x128, .i32⟩ : BufTy).Contents (Elt F) → (⟨S4x128, .i32⟩ : BufTy).Contents (Elt F)),
    ternary main_v213 main_v215 main_v198 main_v216 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_56 (constantI S_ 32 0#32),
    unary main_c_56 main_v217 (broadcastInDim S4x128 ![] bcast_S_S4x128 : (⟨S_, .i32⟩ : BufTy).Contents (Elt F) → (⟨S4x128, .i32⟩ : BufTy).Contents (Elt F)),
    binary main_v200 main_v217 main_v218 (cmpi .slt : (⟨S4x128, .i32⟩ : BufTy).Contents (Elt F) → (⟨S4x128, .i32⟩ : BufTy).Contents (Elt F) → (⟨S4x128, .i1⟩ : BufTy).Contents (Elt F)),
    nullary main_c_57 (constantI S_ 32 32#32),
    unary main_c_57 main_v219 (broadcastInDim S4x128 ![] bcast_S_S4x128 : (⟨S_, .i32⟩ : BufTy).Contents (Elt F) → (⟨S4x128, .i32⟩ : BufTy).Contents (Elt F)),
    binary main_v200 main_v219 main_v220 (addi : (⟨S4x128, .i32⟩ : BufTy).Contents (Elt F) → (⟨S4x128, .i32⟩ : BufTy).Contents (Elt F) → (⟨S4x128, .i32⟩ : BufTy).Contents (Elt F)),
    ternary main_v218 main_v220 main_v200 main_v221 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_58 (constantI S_ 32 0#32),
    unary main_c_58 main_v222 (broadcastInDim S4x128 ![] bcast_S_S4x128 : (⟨S_, .i32⟩ : BufTy).Contents (Elt F) → (⟨S4x128, .i32⟩ : BufTy).Contents (Elt F)),
    binary main_v202 main_v222 main_v223 (cmpi .slt : (⟨S4x128, .i32⟩ : BufTy).Contents (Elt F) → (⟨S4x128, .i32⟩ : BufTy).Contents (Elt F) → (⟨S4x128, .i1⟩ : BufTy).Contents (Elt F)),
    nullary main_c_59 (constantI S_ 32 32#32),
    unary main_c_59 main_v224 (broadcastInDim S4x128 ![] bcast_S_S4x128 : (⟨S_, .i32⟩ : BufTy).Contents (Elt F) → (⟨S4x128, .i32⟩ : BufTy).Contents (Elt F)),
    binary main_v202 main_v224 main_v225 (addi : (⟨S4x128, .i32⟩ : BufTy).Contents (Elt F) → (⟨S4x128, .i32⟩ : BufTy).Contents (Elt F) → (⟨S4x128, .i32⟩ : BufTy).Contents (Elt F)),
    ternary main_v223 main_v225 main_v202 main_v226 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_60 (constantI S_ 32 0#32),
    unary main_c_60 main_v227 (broadcastInDim S4x128 ![] bcast_S_S4x128 : (⟨S_, .i32⟩ : BufTy).Contents (Elt F) → (⟨S4x128, .i32⟩ : BufTy).Contents (Elt F)),
    binary main_v204 main_v227 main_v228 (cmpi .slt : (⟨S4x128, .i32⟩ : BufTy).Contents (Elt F) → (⟨S4x128, .i32⟩ : BufTy).Contents (Elt F) → (⟨S4x128, .i1⟩ : BufTy).Contents (Elt F)),
    nullary main_c_61 (constantI S_ 32 32#32),
    unary main_c_61 main_v229 (broadcastInDim S4x128 ![] bcast_S_S4x128 : (⟨S_, .i32⟩ : BufTy).Contents (Elt F) → (⟨S4x128, .i32⟩ : BufTy).Contents (Elt F)),
    binary main_v204 main_v229 main_v230 (addi : (⟨S4x128, .i32⟩ : BufTy).Contents (Elt F) → (⟨S4x128, .i32⟩ : BufTy).Contents (Elt F) → (⟨S4x128, .i32⟩ : BufTy).Contents (Elt F)),
    ternary main_v228 main_v230 main_v204 main_v231 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    unary main_v211 main_v232 (broadcastInDim S4x128 ![0, 1] bcast_S4x1_S4x128_0_1 : (⟨S4x1, .i32⟩ : BufTy).Contents (Elt F) → (⟨S4x128, .i32⟩ : BufTy).Contents (Elt F)),
    unary main_v232 main_v233 (broadcastInDim S4x128x1 ![0, 1] bcast_S4x128_S4x128x1_0_1 : (⟨S4x128, .i32⟩ : BufTy).Contents (Elt F) → (⟨S4x128x1, .i32⟩ : BufTy).Contents (Elt F)),
    unary main_v216 main_v234 (broadcastInDim S4x128x1 ![0, 1] bcast_S4x128_S4x128x1_0_1 : (⟨S4x128, .i32⟩ : BufTy).Contents (Elt F) → (⟨S4x128x1, .i32⟩ : BufTy).Contents (Elt F)),
    unary main_v221 main_v235 (broadcastInDim S4x128x1 ![0, 1] bcast_S4x128_S4x128x1_0_1 : (⟨S4x128, .i32⟩ : BufTy).Contents (Elt F) → (⟨S4x128x1, .i32⟩ : BufTy).Contents (Elt F)) ]

set_option maxRecDepth 8192 in
theorem ops_p4_sub : (ops_p4 : List (HloOp τ sig (Elt F))).Forall fun op => op.bufs ⊆ tcRefs τ sig :=
  ⟨binary_bufs_sub .., nullary_bufs_sub .., binary_bufs_sub .., unary_bufs_sub .., reshape_bufs_sub .., nullary_bufs_sub .., unary_bufs_sub .., binary_bufs_sub .., unary_bufs_sub .., nullary_bufs_sub .., unary_bufs_sub .., unary_bufs_sub .., unary_bufs_sub .., ternary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub ..⟩
set_option maxRecDepth 8192 in
theorem ops_p4_fresh : ∀ op ∈ (ops_p4 : List (HloOp τ sig (Elt F))), op.fresh = ∅ := by
  intro _ h; (repeat (cases h with | head => rfl | tail _ h => ?_)); exact nomatch h

set_option maxRecDepth 8192 in
set_option maxHeartbeats 4000000 in
theorem main_part4_eq (c : Dev nD) : main_part4 (F := F) c = seq ops_p4 := rfl

def I4_273 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v187) = ReadP.val_main_v187 (F := F) x1 x3 ∧ V (Proc.devRef .tc main_v188) = ReadP.val_main_v188 (F := F) x1 x3 ∧ V (Proc.devRef .tc main_cst_48) = ReadP.val_main_cst_48 (F := F)
def I4_274 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v187) = ReadP.val_main_v187 (F := F) x1 x3 ∧ V (Proc.devRef .tc main_v189) = ReadP.val_main_v189 (F := F) x1 x3
def I4_275 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v187) = ReadP.val_main_v187 (F := F) x1 x3 ∧ V (Proc.devRef .tc main_v189) = ReadP.val_main_v189 (F := F) x1 x3 ∧ V (Proc.devRef .tc main_cst_49) = ReadP.val_main_cst_49 (F := F)
def I4_276 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3
def I4_277 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v191) = ReadP.val_main_v191 (F := F) x5
def I4_278 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v192) = ReadP.val_main_v192 (F := F) x5
def I4_279 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v192) = ReadP.val_main_v192 (F := F) x5 ∧ V (Proc.devRef .tc main_c_50) = ReadP.val_main_c_50 (F := F)
def I4_280 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v192) = ReadP.val_main_v192 (F := F) x5 ∧ V (Proc.devRef .tc main_v193) = ReadP.val_main_v193 (F := F)
def I4_281 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5
def I4_282 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v195) = ReadP.val_main_v195 (F := F) x5
def I4_283 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v195) = ReadP.val_main_v195 (F := F) x5 ∧ V (Proc.devRef .tc main_c_51) = ReadP.val_main_c_51 (F := F)
def I4_284 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v195) = ReadP.val_main_v195 (F := F) x5 ∧ V (Proc.devRef .tc main_call4_v0) = ReadP.val_main_call4_v0 (F := F)
def I4_285 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_call4_v0) = ReadP.val_main_call4_v0 (F := F) ∧ V (Proc.devRef .tc main_call4_v1) = ReadP.val_main_call4_v1 (F := F) x5
def I4_286 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_call4_v1) = ReadP.val_main_call4_v1 (F := F) x5 ∧ V (Proc.devRef .tc main_call4_v2) = ReadP.val_main_call4_v2 (F := F)
def I4_287 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v196) = ReadP.val_main_v196 (F := F) x5
def I4_288 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v196) = ReadP.val_main_v196 (F := F) x5 ∧ V (Proc.devRef .tc main_v197) = ReadP.val_main_v197 (F := F) x5
def I4_289 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v196) = ReadP.val_main_v196 (F := F) x5 ∧ V (Proc.devRef .tc main_v198) = ReadP.val_main_v198 (F := F) x5
def I4_290 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v196) = ReadP.val_main_v196 (F := F) x5 ∧ V (Proc.devRef .tc main_v198) = ReadP.val_main_v198 (F := F) x5 ∧ V (Proc.devRef .tc main_v199) = ReadP.val_main_v199 (F := F) x5
def I4_291 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v196) = ReadP.val_main_v196 (F := F) x5 ∧ V (Proc.devRef .tc main_v198) = ReadP.val_main_v198 (F := F) x5 ∧ V (Proc.devRef .tc main_v200) = ReadP.val_main_v200 (F := F) x5
def I4_292 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v196) = ReadP.val_main_v196 (F := F) x5 ∧ V (Proc.devRef .tc main_v198) = ReadP.val_main_v198 (F := F) x5 ∧ V (Proc.devRef .tc main_v200) = ReadP.val_main_v200 (F := F) x5 ∧ V (Proc.devRef .tc main_v201) = ReadP.val_main_v201 (F := F) x5
def I4_293 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v196) = ReadP.val_main_v196 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5
def I4_294 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v203) = ReadP.val_main_v203 (F := F) x5
def I4_295 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5
def I4_296 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v205) = ReadP.val_main_v205 (F := F)
def I4_297 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F)
def I4_298 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_c_52) = ReadP.val_main_c_52 (F := F)
def I4_299 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v207) = ReadP.val_main_v207 (F := F)
def I4_300 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v208) = ReadP.val_main_v208 (F := F)
def I4_301 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v208) = ReadP.val_main_v208 (F := F) ∧ V (Proc.devRef .tc main_c_53) = ReadP.val_main_c_53 (F := F)
def I4_302 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v208) = ReadP.val_main_v208 (F := F) ∧ V (Proc.devRef .tc main_v209) = ReadP.val_main_v209 (F := F)
def I4_303 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v208) = ReadP.val_main_v208 (F := F) ∧ V (Proc.devRef .tc main_v210) = ReadP.val_main_v210 (F := F)
def I4_304 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F)
def I4_305 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_c_54) = ReadP.val_main_c_54 (F := F)
def I4_306 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v212) = ReadP.val_main_v212 (F := F)
def I4_307 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v213) = ReadP.val_main_v213 (F := F) x5
def I4_308 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v213) = ReadP.val_main_v213 (F := F) x5 ∧ V (Proc.devRef .tc main_c_55) = ReadP.val_main_c_55 (F := F)
def I4_309 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v213) = ReadP.val_main_v213 (F := F) x5 ∧ V (Proc.devRef .tc main_v214) = ReadP.val_main_v214 (F := F)
def I4_310 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v213) = ReadP.val_main_v213 (F := F) x5 ∧ V (Proc.devRef .tc main_v215) = ReadP.val_main_v215 (F := F) x5
def I4_311 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5
def I4_312 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_c_56) = ReadP.val_main_c_56 (F := F)
def I4_313 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v217) = ReadP.val_main_v217 (F := F)
def I4_314 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v218) = ReadP.val_main_v218 (F := F) x5
def I4_315 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v218) = ReadP.val_main_v218 (F := F) x5 ∧ V (Proc.devRef .tc main_c_57) = ReadP.val_main_c_57 (F := F)
def I4_316 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v218) = ReadP.val_main_v218 (F := F) x5 ∧ V (Proc.devRef .tc main_v219) = ReadP.val_main_v219 (F := F)
def I4_317 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v218) = ReadP.val_main_v218 (F := F) x5 ∧ V (Proc.devRef .tc main_v220) = ReadP.val_main_v220 (F := F) x5
def I4_318 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5
def I4_319 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_c_58) = ReadP.val_main_c_58 (F := F)
def I4_320 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v222) = ReadP.val_main_v222 (F := F)
def I4_321 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v223) = ReadP.val_main_v223 (F := F) x5
def I4_322 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v223) = ReadP.val_main_v223 (F := F) x5 ∧ V (Proc.devRef .tc main_c_59) = ReadP.val_main_c_59 (F := F)
def I4_323 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v223) = ReadP.val_main_v223 (F := F) x5 ∧ V (Proc.devRef .tc main_v224) = ReadP.val_main_v224 (F := F)
def I4_324 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v223) = ReadP.val_main_v223 (F := F) x5 ∧ V (Proc.devRef .tc main_v225) = ReadP.val_main_v225 (F := F) x5
def I4_325 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v226) = ReadP.val_main_v226 (F := F) x5
def I4_326 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v226) = ReadP.val_main_v226 (F := F) x5 ∧ V (Proc.devRef .tc main_c_60) = ReadP.val_main_c_60 (F := F)
def I4_327 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v226) = ReadP.val_main_v226 (F := F) x5 ∧ V (Proc.devRef .tc main_v227) = ReadP.val_main_v227 (F := F)
def I4_328 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v226) = ReadP.val_main_v226 (F := F) x5 ∧ V (Proc.devRef .tc main_v228) = ReadP.val_main_v228 (F := F) x5
def I4_329 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v226) = ReadP.val_main_v226 (F := F) x5 ∧ V (Proc.devRef .tc main_v228) = ReadP.val_main_v228 (F := F) x5 ∧ V (Proc.devRef .tc main_c_61) = ReadP.val_main_c_61 (F := F)
def I4_330 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v226) = ReadP.val_main_v226 (F := F) x5 ∧ V (Proc.devRef .tc main_v228) = ReadP.val_main_v228 (F := F) x5 ∧ V (Proc.devRef .tc main_v229) = ReadP.val_main_v229 (F := F)
def I4_331 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v226) = ReadP.val_main_v226 (F := F) x5 ∧ V (Proc.devRef .tc main_v228) = ReadP.val_main_v228 (F := F) x5 ∧ V (Proc.devRef .tc main_v230) = ReadP.val_main_v230 (F := F) x5
def I4_332 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v211) = ReadP.val_main_v211 (F := F) ∧ V (Proc.devRef .tc main_v216) = ReadP.val_main_v216 (F := F) x5 ∧ V (Proc.devRef .tc main_v221) = ReadP.val_main_v221 (F := F) x5 ∧ V (Proc.devRef .tc main_v226) = ReadP.val_main_v226 (F := F) x5 ∧ V (Proc.devRef .tc main_v231) = ReadP.val_main_v231 (F := F) x5
def I4_333 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v216) = ReadP.val_main_v216 (F := F) x5 ∧ V (Proc.devRef .tc main_v221) = ReadP.val_main_v221 (F := F) x5 ∧ V (Proc.devRef .tc main_v226) = ReadP.val_main_v226 (F := F) x5 ∧ V (Proc.devRef .tc main_v231) = ReadP.val_main_v231 (F := F) x5 ∧ V (Proc.devRef .tc main_v232) = ReadP.val_main_v232 (F := F)
def I4_334 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v216) = ReadP.val_main_v216 (F := F) x5 ∧ V (Proc.devRef .tc main_v221) = ReadP.val_main_v221 (F := F) x5 ∧ V (Proc.devRef .tc main_v226) = ReadP.val_main_v226 (F := F) x5 ∧ V (Proc.devRef .tc main_v231) = ReadP.val_main_v231 (F := F) x5 ∧ V (Proc.devRef .tc main_v233) = ReadP.val_main_v233 (F := F)
def I4_335 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v221) = ReadP.val_main_v221 (F := F) x5 ∧ V (Proc.devRef .tc main_v226) = ReadP.val_main_v226 (F := F) x5 ∧ V (Proc.devRef .tc main_v231) = ReadP.val_main_v231 (F := F) x5 ∧ V (Proc.devRef .tc main_v233) = ReadP.val_main_v233 (F := F) ∧ V (Proc.devRef .tc main_v234) = ReadP.val_main_v234 (F := F) x5
def I4_336 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v226) = ReadP.val_main_v226 (F := F) x5 ∧ V (Proc.devRef .tc main_v231) = ReadP.val_main_v231 (F := F) x5 ∧ V (Proc.devRef .tc main_v233) = ReadP.val_main_v233 (F := F) ∧ V (Proc.devRef .tc main_v234) = ReadP.val_main_v234 (F := F) x5 ∧ V (Proc.devRef .tc main_v235) = ReadP.val_main_v235 (F := F) x5

theorem s273 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_273 V x0 x1 x2 x3 x4 x5 x6 → I4_274 ((binary main_v188 main_cst_48 main_v189 ((fun x v => Host.reduceAdd x v reducesTo_S4x3x32x32x32_S_d0_1_2_3_4 h_S_) : (⟨S4x3x32x32x32, .f32⟩ : BufTy).Contents (Elt F) → (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v187, h_main_v188, h_main_cst_48⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v187,
    by after_results_simp; (try simp only [TRef.ofBuf, TRef.toBuf, cast_eq]); rw [h_main_v188, h_main_cst_48]; rfl⟩
theorem s274 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_274 V x0 x1 x2 x3 x4 x5 x6 → I4_275 ((nullary main_cst_49 (constant S_ .f32 0x00000000#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v187, h_main_v189⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v187,
    by after_results_simp; exact h_main_v189,
    by after_results_simp; (try simp only [TRef.ofBuf, TRef.toBuf, cast_eq]); rfl⟩
theorem s275 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_275 V x0 x1 x2 x3 x4 x5 x6 → I4_276 ((binary main_v187 main_cst_49 main_v190 ((fun x v => Host.reduceAdd x v reducesTo_S4x3x32x32x32_S_d0_1_2_3_4 h_S_) : (⟨S4x3x32x32x32, .f32⟩ : BufTy).Contents (Elt F) → (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v187, h_main_v189, h_main_cst_49⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; (try simp only [TRef.ofBuf, TRef.toBuf, cast_eq]); rw [h_main_v187, h_main_cst_49]; rfl⟩
theorem s276 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_276 V x0 x1 x2 x3 x4 x5 x6 → I4_277 ((unary main_arg5 main_v191 ((extractStridedSlice S4x128x1 ![0, 0, 0] · slices_S4x128x4_S4x128x1_0_0_0) : (⟨S4x128x4, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; (try simp only [TRef.ofBuf, TRef.toBuf, cast_eq]); rw [h_main_arg5]; rfl⟩
theorem s277 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_277 V x0 x1 x2 x3 x4 x5 x6 → I4_278 ((reshape main_v191 main_v192 rfl shapeCasts_S4x128x1_S4x128).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v191⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; (try simp only [TRef.ofBuf, TRef.toBuf, cast_eq]); rw [h_main_v191]; rfl⟩
theorem s278 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_278 V x0 x1 x2 x3 x4 x5 x6 → I4_279 ((nullary main_c_50 (constantI S_ 32 4294967295#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v192⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v192,
    by after_results_simp; (try simp only [TRef.ofBuf, TRef.toBuf, cast_eq]); rfl⟩
theorem s279 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_279 V x0 x1 x2 x3 x4 x5 x6 → I4_280 ((unary main_c_50 main_v193 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v192, h_main_c_50⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v192,
    by after_results_simp; (try simp only [TRef.ofBuf, TRef.toBuf, cast_eq]); rw [h_main_c_50]; rfl⟩
theorem s280 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_280 V x0 x1 x2 x3 x4 x5 x6 → I4_281 ((binary main_v192 main_v193 main_v194 (cmpi .sgt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v192, h_main_v193⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; (try simp only [TRef.ofBuf, TRef.toBuf, cast_eq]); rw [h_main_v192, h_main_v193]; rfl⟩
theorem s281 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_281 V x0 x1 x2 x3 x4 x5 x6 → I4_282 ((unary main_v194 main_v195 (broadcastInDim S4x128x1 ![0, 1] bcast_S4x128_S4x128x1_0_1 : (⟨S4x128, .i1⟩ : BufTy).Contents (Elt F) → (⟨S4x128x1, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; (try simp only [TRef.ofBuf, TRef.toBuf, cast_eq]); rw [h_main_v194]; rfl⟩
theorem s282 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_282 V x0 x1 x2 x3 x4 x5 x6 → I4_283 ((nullary main_c_51 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v195⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v195,
    by after_results_simp; (try simp only [TRef.ofBuf, TRef.toBuf, cast_eq]); rfl⟩
theorem s283 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_283 V x0 x1 x2 x3 x4 x5 x6 → I4_284 ((TRef.unary (TRef.of (T := ⟨S_, .i32⟩) main_c_51) (TRef.of (T := ⟨S_, .i32⟩) main_call4_v0) id).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v195, h_main_c_51⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v195,
    by after_results_simp; (try simp only [TRef.ofBuf, TRef.toBuf, cast_eq]); rw [h_main_c_51]; rfl⟩
theorem s284 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_284 V x0 x1 x2 x3 x4 x5 x6 → I4_285 ((TRef.unary (TRef.of (T := ⟨S4x128x1, .i1⟩) main_v195) (TRef.of (T := ⟨S4x128x4, .i1⟩) main_call4_v1) (broadcastInDim S4x128x4 ![0, 1, 2] bcast_S4x128x1_S4x128x4_0_1_2)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v195, h_main_call4_v0⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_call4_v0,
    by after_results_simp; (try simp only [TRef.ofBuf, TRef.toBuf, cast_eq]); rw [h_main_v195]; rfl⟩
theorem s285 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_285 V x0 x1 x2 x3 x4 x5 x6 → I4_286 ((TRef.unary (TRef.of (T := ⟨S_, .i32⟩) main_call4_v0) (TRef.of (T := ⟨S4x128x4, .i32⟩) main_call4_v2) (broadcastInDim S4x128x4 ![] bcast_S_S4x128x4)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_call4_v0, h_main_call4_v1⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_call4_v1,
    by after_results_simp; (try simp only [TRef.ofBuf, TRef.toBuf, cast_eq]); rw [h_main_call4_v0]; rfl⟩
theorem s286 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_286 V x0 x1 x2 x3 x4 x5 x6 → I4_287 ((TRef.ternary (TRef.of (T := ⟨S4x128x4, .i1⟩) main_call4_v1) (TRef.of (T := ⟨S4x128x4, .i32⟩) main_arg5) (TRef.of (T := ⟨S4x128x4, .i32⟩) main_call4_v2) (TRef.of (T := ⟨S4x128x4, .i32⟩) main_v196) select).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_call4_v1, h_main_call4_v2⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; (try simp only [TRef.ofBuf, TRef.toBuf, cast_eq]); rw [h_main_arg5, h_main_call4_v1, h_main_call4_v2]; rfl⟩
theorem s287 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_287 V x0 x1 x2 x3 x4 x5 x6 → I4_288 ((unary main_v196 main_v197 ((extractStridedSlice S4x128x1 ![0, 0, 0] · slices_S4x128x4_S4x128x1_0_0_0) : (⟨S4x128x4, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v196⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v196,
    by after_results_simp; (try simp only [TRef.ofBuf, TRef.toBuf, cast_eq]); rw [h_main_v196]; rfl⟩
theorem s288 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_288 V x0 x1 x2 x3 x4 x5 x6 → I4_289 ((reshape main_v197 main_v198 rfl shapeCasts_S4x128x1_S4x128).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v196, h_main_v197⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v196,
    by after_results_simp; (try simp only [TRef.ofBuf, TRef.toBuf, cast_eq]); rw [h_main_v197]; rfl⟩
theorem s289 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_289 V x0 x1 x2 x3 x4 x5 x6 → I4_290 ((unary main_v196 main_v199 ((extractStridedSlice S4x128x1 ![0, 0, 1] · slices_S4x128x4_S4x128x1_0_0_1) : (⟨S4x128x4, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v196, h_main_v198⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v196,
    by after_results_simp; exact h_main_v198,
    by after_results_simp; (try simp only [TRef.ofBuf, TRef.toBuf, cast_eq]); rw [h_main_v196]; rfl⟩
theorem s290 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_290 V x0 x1 x2 x3 x4 x5 x6 → I4_291 ((reshape main_v199 main_v200 rfl shapeCasts_S4x128x1_S4x128).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v196, h_main_v198, h_main_v199⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v196,
    by after_results_simp; exact h_main_v198,
    by after_results_simp; (try simp only [TRef.ofBuf, TRef.toBuf, cast_eq]); rw [h_main_v199]; rfl⟩
theorem s291 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_291 V x0 x1 x2 x3 x4 x5 x6 → I4_292 ((unary main_v196 main_v201 ((extractStridedSlice S4x128x1 ![0, 0, 2] · slices_S4x128x4_S4x128x1_0_0_2) : (⟨S4x128x4, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v196, h_main_v198, h_main_v200⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v196,
    by after_results_simp; exact h_main_v198,
    by after_results_simp; exact h_main_v200,
    by after_results_simp; (try simp only [TRef.ofBuf, TRef.toBuf, cast_eq]); rw [h_main_v196]; rfl⟩
theorem s292 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_292 V x0 x1 x2 x3 x4 x5 x6 → I4_293 ((reshape main_v201 main_v202 rfl shapeCasts_S4x128x1_S4x128).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v196, h_main_v198, h_main_v200, h_main_v201⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v196,
    by after_results_simp; exact h_main_v198,
    by after_results_simp; exact h_main_v200,
    by after_results_simp; (try simp only [TRef.ofBuf, TRef.toBuf, cast_eq]); rw [h_main_v201]; rfl⟩
theorem s293 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_293 V x0 x1 x2 x3 x4 x5 x6 → I4_294 ((unary main_v196 main_v203 ((extractStridedSlice S4x128x1 ![0, 0, 3] · slices_S4x128x4_S4x128x1_0_0_3) : (⟨S4x128x4, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v196, h_main_v198, h_main_v200, h_main_v202⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; (try simp only [TRef.ofBuf, TRef.toBuf, cast_eq]); rw [h_main_v196]; rfl⟩
theorem s294 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_294 V x0 x1 x2 x3 x4 x5 x6 → I4_295 ((reshape main_v203 main_v204 rfl shapeCasts_S4x128x1_S4x128).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v203⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; (try simp only [TRef.ofBuf, TRef.toBuf, cast_eq]); rw [h_main_v203]; rfl⟩
theorem s295 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_295 V x0 x1 x2 x3 x4 x5 x6 → I4_296 ((nullary main_v205 (iotaInDim S4 32 0)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; (try simp only [TRef.ofBuf, TRef.toBuf, cast_eq]); rfl⟩
theorem s296 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_296 V x0 x1 x2 x3 x4 x5 x6 → I4_297 ((unary main_v205 main_v206 (broadcastInDim S4x1 ![0] bcast_S4_S4x1_0 : (⟨S4, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v205⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; (try simp only [TRef.ofBuf, TRef.toBuf, cast_eq]); rw [h_main_v205]; rfl⟩
theorem s297 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_297 V x0 x1 x2 x3 x4 x5 x6 → I4_298 ((nullary main_c_52 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; (try simp only [TRef.ofBuf, TRef.toBuf, cast_eq]); rfl⟩
theorem s298 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_298 V x0 x1 x2 x3 x4 x5 x6 → I4_299 ((unary main_c_52 main_v207 (broadcastInDim S4x1 ![] bcast_S_S4x1 : (⟨S_, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_c_52⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; (try simp only [TRef.ofBuf, TRef.toBuf, cast_eq]); rw [h_main_c_52]; rfl⟩
theorem s299 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_299 V x0 x1 x2 x3 x4 x5 x6 → I4_300 ((binary main_v206 main_v207 main_v208 (cmpi .slt : (⟨S4x1, .i32⟩ : BufTy).Contents (Elt F) → (⟨S4x1, .i32⟩ : BufTy).Contents (Elt F) → (⟨S4x1, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v207⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; (try simp only [TRef.ofBuf, TRef.toBuf, cast_eq]); rw [h_main_v206, h_main_v207]; rfl⟩
theorem s300 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_300 V x0 x1 x2 x3 x4 x5 x6 → I4_301 ((nullary main_c_53 (constantI S_ 32 4#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v208⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v208,
    by after_results_simp; (try simp only [TRef.ofBuf, TRef.toBuf, cast_eq]); rfl⟩
theorem s301 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_301 V x0 x1 x2 x3 x4 x5 x6 → I4_302 ((unary main_c_53 main_v209 (broadcastInDim S4x1 ![] bcast_S_S4x1 : (⟨S_, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v208, h_main_c_53⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v208,
    by after_results_simp; (try simp only [TRef.ofBuf, TRef.toBuf, cast_eq]); rw [h_main_c_53]; rfl⟩
theorem s302 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_302 V x0 x1 x2 x3 x4 x5 x6 → I4_303 ((binary main_v206 main_v209 main_v210 (addi : (⟨S4x1, .i32⟩ : BufTy).Contents (Elt F) → (⟨S4x1, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v208, h_main_v209⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v208,
    by after_results_simp; (try simp only [TRef.ofBuf, TRef.toBuf, cast_eq]); rw [h_main_v206, h_main_v209]; rfl⟩
theorem s303 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_303 V x0 x1 x2 x3 x4 x5 x6 → I4_304 ((ternary main_v208 main_v210 main_v206 main_v211 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v208, h_main_v210⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; (try simp only [TRef.ofBuf, TRef.toBuf, cast_eq]); rw [h_main_v208, h_main_v210, h_main_v206]; rfl⟩
theorem s304 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_304 V x0 x1 x2 x3 x4 x5 x6 → I4_305 ((nullary main_c_54 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; (try simp only [TRef.ofBuf, TRef.toBuf, cast_eq]); rfl⟩
theorem s305 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_305 V x0 x1 x2 x3 x4 x5 x6 → I4_306 ((unary main_c_54 main_v212 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_c_54⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; (try simp only [TRef.ofBuf, TRef.toBuf, cast_eq]); rw [h_main_c_54]; rfl⟩
theorem s306 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_306 V x0 x1 x2 x3 x4 x5 x6 → I4_307 ((binary main_v198 main_v212 main_v213 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v212⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; (try simp only [TRef.ofBuf, TRef.toBuf, cast_eq]); rw [h_main_v198, h_main_v212]; rfl⟩
theorem s307 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_307 V x0 x1 x2 x3 x4 x5 x6 → I4_308 ((nullary main_c_55 (constantI S_ 32 3#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v213⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v213,
    by after_results_simp; (try simp only [TRef.ofBuf, TRef.toBuf, cast_eq]); rfl⟩
theorem s308 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_308 V x0 x1 x2 x3 x4 x5 x6 → I4_309 ((unary main_c_55 main_v214 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v213, h_main_c_55⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v213,
    by after_results_simp; (try simp only [TRef.ofBuf, TRef.toBuf, cast_eq]); rw [h_main_c_55]; rfl⟩
theorem s309 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_309 V x0 x1 x2 x3 x4 x5 x6 → I4_310 ((binary main_v198 main_v214 main_v215 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v213, h_main_v214⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v213,
    by after_results_simp; (try simp only [TRef.ofBuf, TRef.toBuf, cast_eq]); rw [h_main_v198, h_main_v214]; rfl⟩
theorem s310 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_310 V x0 x1 x2 x3 x4 x5 x6 → I4_311 ((ternary main_v213 main_v215 main_v198 main_v216 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v213, h_main_v215⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; (try simp only [TRef.ofBuf, TRef.toBuf, cast_eq]); rw [h_main_v213, h_main_v215, h_main_v198]; rfl⟩
theorem s311 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_311 V x0 x1 x2 x3 x4 x5 x6 → I4_312 ((nullary main_c_56 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; (try simp only [TRef.ofBuf, TRef.toBuf, cast_eq]); rfl⟩
theorem s312 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_312 V x0 x1 x2 x3 x4 x5 x6 → I4_313 ((unary main_c_56 main_v217 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_c_56⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; (try simp only [TRef.ofBuf, TRef.toBuf, cast_eq]); rw [h_main_c_56]; rfl⟩
theorem s313 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_313 V x0 x1 x2 x3 x4 x5 x6 → I4_314 ((binary main_v200 main_v217 main_v218 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v217⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; (try simp only [TRef.ofBuf, TRef.toBuf, cast_eq]); rw [h_main_v200, h_main_v217]; rfl⟩
theorem s314 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_314 V x0 x1 x2 x3 x4 x5 x6 → I4_315 ((nullary main_c_57 (constantI S_ 32 32#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v218⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v218,
    by after_results_simp; (try simp only [TRef.ofBuf, TRef.toBuf, cast_eq]); rfl⟩
theorem s315 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_315 V x0 x1 x2 x3 x4 x5 x6 → I4_316 ((unary main_c_57 main_v219 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v218, h_main_c_57⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v218,
    by after_results_simp; (try simp only [TRef.ofBuf, TRef.toBuf, cast_eq]); rw [h_main_c_57]; rfl⟩
theorem s316 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_316 V x0 x1 x2 x3 x4 x5 x6 → I4_317 ((binary main_v200 main_v219 main_v220 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v218, h_main_v219⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v218,
    by after_results_simp; (try simp only [TRef.ofBuf, TRef.toBuf, cast_eq]); rw [h_main_v200, h_main_v219]; rfl⟩
theorem s317 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_317 V x0 x1 x2 x3 x4 x5 x6 → I4_318 ((ternary main_v218 main_v220 main_v200 main_v221 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v218, h_main_v220⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; (try simp only [TRef.ofBuf, TRef.toBuf, cast_eq]); rw [h_main_v218, h_main_v220, h_main_v200]; rfl⟩
theorem s318 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_318 V x0 x1 x2 x3 x4 x5 x6 → I4_319 ((nullary main_c_58 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; (try simp only [TRef.ofBuf, TRef.toBuf, cast_eq]); rfl⟩
theorem s319 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_319 V x0 x1 x2 x3 x4 x5 x6 → I4_320 ((unary main_c_58 main_v222 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_c_58⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; (try simp only [TRef.ofBuf, TRef.toBuf, cast_eq]); rw [h_main_c_58]; rfl⟩
theorem s320 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_320 V x0 x1 x2 x3 x4 x5 x6 → I4_321 ((binary main_v202 main_v222 main_v223 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v222⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; (try simp only [TRef.ofBuf, TRef.toBuf, cast_eq]); rw [h_main_v202, h_main_v222]; rfl⟩
theorem s321 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_321 V x0 x1 x2 x3 x4 x5 x6 → I4_322 ((nullary main_c_59 (constantI S_ 32 32#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v223⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; exact h_main_v223,
    by after_results_simp; (try simp only [TRef.ofBuf, TRef.toBuf, cast_eq]); rfl⟩
theorem s322 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_322 V x0 x1 x2 x3 x4 x5 x6 → I4_323 ((unary main_c_59 main_v224 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v223, h_main_c_59⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; exact h_main_v223,
    by after_results_simp; (try simp only [TRef.ofBuf, TRef.toBuf, cast_eq]); rw [h_main_c_59]; rfl⟩
theorem s323 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_323 V x0 x1 x2 x3 x4 x5 x6 → I4_324 ((binary main_v202 main_v224 main_v225 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v223, h_main_v224⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; exact h_main_v223,
    by after_results_simp; (try simp only [TRef.ofBuf, TRef.toBuf, cast_eq]); rw [h_main_v202, h_main_v224]; rfl⟩
theorem s324 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_324 V x0 x1 x2 x3 x4 x5 x6 → I4_325 ((ternary main_v223 main_v225 main_v202 main_v226 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v223, h_main_v225⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; (try simp only [TRef.ofBuf, TRef.toBuf, cast_eq]); rw [h_main_v223, h_main_v225, h_main_v202]; rfl⟩
theorem s325 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_325 V x0 x1 x2 x3 x4 x5 x6 → I4_326 ((nullary main_c_60 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v226⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; exact h_main_v226,
    by after_results_simp; (try simp only [TRef.ofBuf, TRef.toBuf, cast_eq]); rfl⟩
theorem s326 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_326 V x0 x1 x2 x3 x4 x5 x6 → I4_327 ((unary main_c_60 main_v227 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v226, h_main_c_60⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; exact h_main_v226,
    by after_results_simp; (try simp only [TRef.ofBuf, TRef.toBuf, cast_eq]); rw [h_main_c_60]; rfl⟩
theorem s327 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_327 V x0 x1 x2 x3 x4 x5 x6 → I4_328 ((binary main_v204 main_v227 main_v228 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v226, h_main_v227⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; exact h_main_v226,
    by after_results_simp; (try simp only [TRef.ofBuf, TRef.toBuf, cast_eq]); rw [h_main_v204, h_main_v227]; rfl⟩
theorem s328 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_328 V x0 x1 x2 x3 x4 x5 x6 → I4_329 ((nullary main_c_61 (constantI S_ 32 32#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v226, h_main_v228⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; exact h_main_v226,
    by after_results_simp; exact h_main_v228,
    by after_results_simp; (try simp only [TRef.ofBuf, TRef.toBuf, cast_eq]); rfl⟩
theorem s329 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_329 V x0 x1 x2 x3 x4 x5 x6 → I4_330 ((unary main_c_61 main_v229 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v226, h_main_v228, h_main_c_61⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; exact h_main_v226,
    by after_results_simp; exact h_main_v228,
    by after_results_simp; (try simp only [TRef.ofBuf, TRef.toBuf, cast_eq]); rw [h_main_c_61]; rfl⟩
theorem s330 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_330 V x0 x1 x2 x3 x4 x5 x6 → I4_331 ((binary main_v204 main_v229 main_v230 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v226, h_main_v228, h_main_v229⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; exact h_main_v226,
    by after_results_simp; exact h_main_v228,
    by after_results_simp; (try simp only [TRef.ofBuf, TRef.toBuf, cast_eq]); rw [h_main_v204, h_main_v229]; rfl⟩
theorem s331 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_331 V x0 x1 x2 x3 x4 x5 x6 → I4_332 ((ternary main_v228 main_v230 main_v204 main_v231 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v226, h_main_v228, h_main_v230⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v211,
    by after_results_simp; exact h_main_v216,
    by after_results_simp; exact h_main_v221,
    by after_results_simp; exact h_main_v226,
    by after_results_simp; (try simp only [TRef.ofBuf, TRef.toBuf, cast_eq]); rw [h_main_v228, h_main_v230, h_main_v204]; rfl⟩
theorem s332 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_332 V x0 x1 x2 x3 x4 x5 x6 → I4_333 ((unary main_v211 main_v232 (broadcastInDim S4x128 ![0, 1] bcast_S4x1_S4x128_0_1 : (⟨S4x1, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v211, h_main_v216, h_main_v221, h_main_v226, h_main_v231⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v216,
    by after_results_simp; exact h_main_v221,
    by after_results_simp; exact h_main_v226,
    by after_results_simp; exact h_main_v231,
    by after_results_simp; (try simp only [TRef.ofBuf, TRef.toBuf, cast_eq]); rw [h_main_v211]; rfl⟩
theorem s333 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_333 V x0 x1 x2 x3 x4 x5 x6 → I4_334 ((unary main_v232 main_v233 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v216, h_main_v221, h_main_v226, h_main_v231, h_main_v232⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v216,
    by after_results_simp; exact h_main_v221,
    by after_results_simp; exact h_main_v226,
    by after_results_simp; exact h_main_v231,
    by after_results_simp; (try simp only [TRef.ofBuf, TRef.toBuf, cast_eq]); rw [h_main_v232]; rfl⟩
theorem s334 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_334 V x0 x1 x2 x3 x4 x5 x6 → I4_335 ((unary main_v216 main_v234 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v216, h_main_v221, h_main_v226, h_main_v231, h_main_v233⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v221,
    by after_results_simp; exact h_main_v226,
    by after_results_simp; exact h_main_v231,
    by after_results_simp; exact h_main_v233,
    by after_results_simp; (try simp only [TRef.ofBuf, TRef.toBuf, cast_eq]); rw [h_main_v216]; rfl⟩
theorem s335 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I4_335 V x0 x1 x2 x3 x4 x5 x6 → I4_336 ((unary main_v221 main_v235 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v221, h_main_v226, h_main_v231, h_main_v233, h_main_v234⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v226,
    by after_results_simp; exact h_main_v231,
    by after_results_simp; exact h_main_v233,
    by after_results_simp; exact h_main_v234,
    by after_results_simp; (try simp only [TRef.ofBuf, TRef.toBuf, cast_eq]); rw [h_main_v221]; rfl⟩

set_option maxRecDepth 8192 in
set_option maxHeartbeats 4000000 in
/-- The window, from any contents. -/
theorem w4 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) (h273 : I4_273 V x0 x1 x2 x3 x4 x5 x6) : I4_336 (after ops_p4 V) x0 x1 x2 x3 x4 x5 x6 := by
  simp only [ops_p4, after_cons, after_nil]
  have h274 := s273 _ x0 x1 x2 x3 x4 x5 x6 h273
  have h275 := s274 _ x0 x1 x2 x3 x4 x5 x6 h274
  have h276 := s275 _ x0 x1 x2 x3 x4 x5 x6 h275
  have h277 := s276 _ x0 x1 x2 x3 x4 x5 x6 h276
  have h278 := s277 _ x0 x1 x2 x3 x4 x5 x6 h277
  have h279 := s278 _ x0 x1 x2 x3 x4 x5 x6 h278
  have h280 := s279 _ x0 x1 x2 x3 x4 x5 x6 h279
  have h281 := s280 _ x0 x1 x2 x3 x4 x5 x6 h280
  have h282 := s281 _ x0 x1 x2 x3 x4 x5 x6 h281
  have h283 := s282 _ x0 x1 x2 x3 x4 x5 x6 h282
  have h284 := s283 _ x0 x1 x2 x3 x4 x5 x6 h283
  have h285 := s284 _ x0 x1 x2 x3 x4 x5 x6 h284
  have h286 := s285 _ x0 x1 x2 x3 x4 x5 x6 h285
  have h287 := s286 _ x0 x1 x2 x3 x4 x5 x6 h286
  have h288 := s287 _ x0 x1 x2 x3 x4 x5 x6 h287
  have h289 := s288 _ x0 x1 x2 x3 x4 x5 x6 h288
  have h290 := s289 _ x0 x1 x2 x3 x4 x5 x6 h289
  have h291 := s290 _ x0 x1 x2 x3 x4 x5 x6 h290
  have h292 := s291 _ x0 x1 x2 x3 x4 x5 x6 h291
  have h293 := s292 _ x0 x1 x2 x3 x4 x5 x6 h292
  have h294 := s293 _ x0 x1 x2 x3 x4 x5 x6 h293
  have h295 := s294 _ x0 x1 x2 x3 x4 x5 x6 h294
  have h296 := s295 _ x0 x1 x2 x3 x4 x5 x6 h295
  have h297 := s296 _ x0 x1 x2 x3 x4 x5 x6 h296
  have h298 := s297 _ x0 x1 x2 x3 x4 x5 x6 h297
  have h299 := s298 _ x0 x1 x2 x3 x4 x5 x6 h298
  have h300 := s299 _ x0 x1 x2 x3 x4 x5 x6 h299
  have h301 := s300 _ x0 x1 x2 x3 x4 x5 x6 h300
  have h302 := s301 _ x0 x1 x2 x3 x4 x5 x6 h301
  have h303 := s302 _ x0 x1 x2 x3 x4 x5 x6 h302
  have h304 := s303 _ x0 x1 x2 x3 x4 x5 x6 h303
  have h305 := s304 _ x0 x1 x2 x3 x4 x5 x6 h304
  have h306 := s305 _ x0 x1 x2 x3 x4 x5 x6 h305
  have h307 := s306 _ x0 x1 x2 x3 x4 x5 x6 h306
  have h308 := s307 _ x0 x1 x2 x3 x4 x5 x6 h307
  have h309 := s308 _ x0 x1 x2 x3 x4 x5 x6 h308
  have h310 := s309 _ x0 x1 x2 x3 x4 x5 x6 h309
  have h311 := s310 _ x0 x1 x2 x3 x4 x5 x6 h310
  have h312 := s311 _ x0 x1 x2 x3 x4 x5 x6 h311
  have h313 := s312 _ x0 x1 x2 x3 x4 x5 x6 h312
  have h314 := s313 _ x0 x1 x2 x3 x4 x5 x6 h313
  have h315 := s314 _ x0 x1 x2 x3 x4 x5 x6 h314
  have h316 := s315 _ x0 x1 x2 x3 x4 x5 x6 h315
  have h317 := s316 _ x0 x1 x2 x3 x4 x5 x6 h316
  have h318 := s317 _ x0 x1 x2 x3 x4 x5 x6 h317
  have h319 := s318 _ x0 x1 x2 x3 x4 x5 x6 h318
  have h320 := s319 _ x0 x1 x2 x3 x4 x5 x6 h319
  have h321 := s320 _ x0 x1 x2 x3 x4 x5 x6 h320
  have h322 := s321 _ x0 x1 x2 x3 x4 x5 x6 h321
  have h323 := s322 _ x0 x1 x2 x3 x4 x5 x6 h322
  have h324 := s323 _ x0 x1 x2 x3 x4 x5 x6 h323
  have h325 := s324 _ x0 x1 x2 x3 x4 x5 x6 h324
  have h326 := s325 _ x0 x1 x2 x3 x4 x5 x6 h325
  have h327 := s326 _ x0 x1 x2 x3 x4 x5 x6 h326
  have h328 := s327 _ x0 x1 x2 x3 x4 x5 x6 h327
  have h329 := s328 _ x0 x1 x2 x3 x4 x5 x6 h328
  have h330 := s329 _ x0 x1 x2 x3 x4 x5 x6 h329
  have h331 := s330 _ x0 x1 x2 x3 x4 x5 x6 h330
  have h332 := s331 _ x0 x1 x2 x3 x4 x5 x6 h331
  have h333 := s332 _ x0 x1 x2 x3 x4 x5 x6 h332
  have h334 := s333 _ x0 x1 x2 x3 x4 x5 x6 h333
  have h335 := s334 _ x0 x1 x2 x3 x4 x5 x6 h334
  have h336 := s335 _ x0 x1 x2 x3 x4 x5 x6 h335
  exact h336

end Cert.Hand.RefRun

end
-- ==== Proof.Ref.RunP5.lean ====
/- Operations 336 … 397 of the reference program's straight line (its printed window 5): the list, the buffers it touches,
   and the window read one operation at a time: I5_k says which buffers hold which stage value after the first k
   operations of the whole line (the arguments x0 … x6, and every stage a later operation still reads); each operation
   takes I5_k to I5_(k+1): the buffer it writes gets its stage value (one unfolding of that stage), every other one is kept. -/
import proofs.«424358_j44040594653645_2_alg».proof.Proof.RefRead

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 336 … 397, in order. -/
abbrev ops_p5 : List (HloOp τ sig (Elt F)) :=
  [ unary main_v226 main_v236 (broadcastInDim S4x128x1 ![0, 1] bcast_S4x128_S4x128x1_0_1 : (⟨S4x128, .i32⟩ : BufTy).Contents (Elt F) → (⟨S4x128x1, .i32⟩ : BufTy).Contents (Elt F)),
    unary main_v231 main_v237 (broadcastInDim S4x128x1 ![0, 1] bcast_S4x128_S4x128x1_0_1 : (⟨S4x128, .i32⟩ : BufTy).Contents (Elt F) → (⟨S4x128x1, .i32⟩ : BufTy).Contents (Elt F)),
    nary ![main_v233, main_v234, main_v235, main_v236, main_v237] main_v238 (fun u => concatenate S4x128x5 2 [⟨S4x128x1, u 0⟩, ⟨S4x128x1, u 1⟩, ⟨S4x128x1, u 2⟩, ⟨S4x128x1, u 3⟩, ⟨S4x128x1, u 4⟩] concatenates_S4x128x1_S4x128x1_S4x128x1_S4x128x1_S4x128x1_S4x128x5_d2),
    binary main_arg3 main_v238 main_v239 ((fun x i => Host.gather gather_S4x3x32x32x32_S4x128x5_S4x128_n_01234_n_n_01234_2_11111 x i) : (⟨S4x3x32x32x32, .f32⟩ : BufTy).Contents (Elt F) → (⟨S4x128x5, .i32⟩ : BufTy).Contents (Elt F) → (⟨S4x128, .f32⟩ : BufTy).Contents (Elt F)),
    unary main_v239 main_v240 (fptosi 32 : (⟨S4x128, .f32⟩ : BufTy).Contents (Elt F) → (⟨S4x128, .i32⟩ : BufTy).Contents (Elt F)),
    nullary main_c_62 (constantI S_ 32 0#32),
    TRef.unary (TRef.of (T := ⟨S_, .i32⟩) main_c_62) (TRef.of (T := ⟨S_, .i32⟩) main_call5_v0) id,
    TRef.unary (TRef.of (T := ⟨S_, .i32⟩) main_call5_v0) (TRef.of (T := ⟨S4x128, .i32⟩) main_call5_v1) (broadcastInDim S4x128 ![] bcast_S_S4x128),
    TRef.ternary (TRef.of (T := ⟨S4x128, .i1⟩) main_v194) (TRef.of (T := ⟨S4x128, .i32⟩) main_v240) (TRef.of (T := ⟨S4x128, .i32⟩) main_call5_v1) (TRef.of (T := ⟨S4x128, .i32⟩) main_v241) select,
    nullary main_c_63 (constantI S_ 32 0#32),
    unary main_c_63 main_v242 (broadcastInDim S4x1 ![] bcast_S_S4x1 : (⟨S_, .i32⟩ : BufTy).Contents (Elt F) → (⟨S4x1, .i32⟩ : BufTy).Contents (Elt F)),
    binary main_v206 main_v242 main_v243 (cmpi .slt : (⟨S4x1, .i32⟩ : BufTy).Contents (Elt F) → (⟨S4x1, .i32⟩ : BufTy).Contents (Elt F) → (⟨S4x1, .i1⟩ : BufTy).Contents (Elt F)),
    nullary main_c_64 (constantI S_ 32 4#32),
    unary main_c_64 main_v244 (broadcastInDim S4x1 ![] bcast_S_S4x1 : (⟨S_, .i32⟩ : BufTy).Contents (Elt F) → (⟨S4x1, .i32⟩ : BufTy).Contents (Elt F)),
    binary main_v206 main_v244 main_v245 (addi : (⟨S4x1, .i32⟩ : BufTy).Contents (Elt F) → (⟨S4x1, .i32⟩ : BufTy).Contents (Elt F) → (⟨S4x1, .i32⟩ : BufTy).Contents (Elt F)),
    ternary main_v243 main_v245 main_v206 main_v246 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_65 (constantI S_ 32 0#32),
    unary main_c_65 main_v247 (broadcastInDim S4x128 ![] bcast_S_S4x128 : (⟨S_, .i32⟩ : BufTy).Contents (Elt F) → (⟨S4x128, .i32⟩ : BufTy).Contents (Elt F)),
    binary main_v241 main_v247 main_v248 (cmpi .slt : (⟨S4x128, .i32⟩ : BufTy).Contents (Elt F) → (⟨S4x128, .i32⟩ : BufTy).Contents (Elt F) → (⟨S4x128, .i1⟩ : BufTy).Contents (Elt F)),
    nullary main_c_66 (constantI S_ 32 3#32),
    unary main_c_66 main_v249 (broadcastInDim S4x128 ![] bcast_S_S4x128 : (⟨S_, .i32⟩ : BufTy).Contents (Elt F) → (⟨S4x128, .i32⟩ : BufTy).Contents (Elt F)),
    binary main_v241 main_v249 main_v250 (addi : (⟨S4x128, .i32⟩ : BufTy).Contents (Elt F) → (⟨S4x128, .i32⟩ : BufTy).Contents (Elt F) → (⟨S4x128, .i32⟩ : BufTy).Contents (Elt F)),
    ternary main_v248 main_v250 main_v241 main_v251 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_67 (constantI S_ 32 0#32),
    unary main_c_67 main_v252 (broadcastInDim S4x128 ![] bcast_S_S4x128 : (⟨S_, .i32⟩ : BufTy).Contents (Elt F) → (⟨S4x128, .i32⟩ : BufTy).Contents (Elt F)),
    binary main_v198 main_v252 main_v253 (cmpi .slt : (⟨S4x128, .i32⟩ : BufTy).Contents (Elt F) → (⟨S4x128, .i32⟩ : BufTy).Contents (Elt F) → (⟨S4x128, .i1⟩ : BufTy).Contents (Elt F)),
    nullary main_c_68 (constantI S_ 32 3#32),
    unary main_c_68 main_v254 (broadcastInDim S4x128 ![] bcast_S_S4x128 : (⟨S_, .i32⟩ : BufTy).Contents (Elt F) → (⟨S4x128, .i32⟩ : BufTy).Contents (Elt F)),
    binary main_v198 main_v254 main_v255 (addi : (⟨S4x128, .i32⟩ : BufTy).Contents (Elt F) → (⟨S4x128, .i32⟩ : BufTy).Contents (Elt F) → (⟨S4x128, .i32⟩ : BufTy).Contents (Elt F)),
    ternary main_v253 main_v255 main_v198 main_v256 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_69 (constantI S_ 32 0#32),
    unary main_c_69 main_v257 (broadcastInDim S4x128 ![] bcast_S_S4x128 : (⟨S_, .i32⟩ : BufTy).Contents (Elt F) → (⟨S4x128, .i32⟩ : BufTy).Contents (Elt F)),
    binary main_v200 main_v257 main_v258 (cmpi .slt : (⟨S4x128, .i32⟩ : BufTy).Contents (Elt F) → (⟨S4x128, .i32⟩ : BufTy).Contents (Elt F) → (⟨S4x128, .i1⟩ : BufTy).Contents (Elt F)),
    nullary main_c_70 (constantI S_ 32 32#32),
    unary main_c_70 main_v259 (broadcastInDim S4x128 ![] bcast_S_S4x128 : (⟨S_, .i32⟩ : BufTy).Contents (Elt F) → (⟨S4x128, .i32⟩ : BufTy).Contents (Elt F)),
    binary main_v200 main_v259 main_v260 (addi : (⟨S4x128, .i32⟩ : BufTy).Contents (Elt F) → (⟨S4x128, .i32⟩ : BufTy).Contents (Elt F) → (⟨S4x128, .i32⟩ : BufTy).Contents (Elt F)),
    ternary main_v258 main_v260 main_v200 main_v261 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_71 (constantI S_ 32 0#32),
    unary main_c_71 main_v262 (broadcastInDim S4x128 ![] bcast_S_S4x128 : (⟨S_, .i32⟩ : BufTy).Contents (Elt F) → (⟨S4x128, .i32⟩ : BufTy).Contents (Elt F)),
    binary main_v202 main_v262 main_v263 (cmpi .slt : (⟨S4x128, .i32⟩ : BufTy).Contents (Elt F) → (⟨S4x128, .i32⟩ : BufTy).Contents (Elt F) → (⟨S4x128, .i1⟩ : BufTy).Contents (Elt F)),
    nullary main_c_72 (constantI S_ 32 32#32),
    unary main_c_72 main_v264 (broadcastInDim S4x128 ![] bcast_S_S4x128 : (⟨S_, .i32⟩ : BufTy).Contents (Elt F) → (⟨S4x128, .i32⟩ : BufTy).Contents (Elt F)),
    binary main_v202 main_v264 main_v265 (addi : (⟨S4x128, .i32⟩ : BufTy).Contents (Elt F) → (⟨S4x128, .i32⟩ : BufTy).Contents (Elt F) → (⟨S4x128, .i32⟩ : BufTy).Contents (Elt F)),
    ternary main_v263 main_v265 main_v202 main_v266 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_73 (constantI S_ 32 0#32),
    unary main_c_73 main_v267 (broadcastInDim S4x128 ![] bcast_S_S4x128 : (⟨S_, .i32⟩ : BufTy).Contents (Elt F) → (⟨S4x128, .i32⟩ : BufTy).Contents (Elt F)),
    binary main_v204 main_v267 main_v268 (cmpi .slt : (⟨S4x128, .i32⟩ : BufTy).Contents (Elt F) → (⟨S4x128, .i32⟩ : BufTy).Contents (Elt F) → (⟨S4x128, .i1⟩ : BufTy).Contents (Elt F)),
    nullary main_c_74 (constantI S_ 32 32#32),
    unary main_c_74 main_v269 (broadcastInDim S4x128 ![] bcast_S_S4x128 : (⟨S_, .i32⟩ : BufTy).Contents (Elt F) → (⟨S4x128, .i32⟩ : BufTy).Contents (Elt F)),
    binary main_v204 main_v269 main_v270 (addi : (⟨S4x128, .i32⟩ : BufTy).Contents (Elt F) → (⟨S4x128, .i32⟩ : BufTy).Contents (Elt F) → (⟨S4x128, .i32⟩ : BufTy).Contents (Elt F)),
    ternary main_v268 main_v270 main_v204 main_v271 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    unary main_v246 main_v272 (broadcastInDim S4x128 ![0, 1] bcast_S4x1_S4x128_0_1 : (⟨S4x1, .i32⟩ : BufTy).Contents (Elt F) → (⟨S4x128, .i32⟩ : BufTy).Contents (Elt F)),
    unary main_v272 main_v273 (broadcastInDim S4x128x1 ![0, 1] bcast_S4x128_S4x128x1_0_1 : (⟨S4x128, .i32⟩ : BufTy).Contents (Elt F) → (⟨S4x128x1, .i32⟩ : BufTy).Contents (Elt F)),
    unary main_v251 main_v274 (broadcastInDim S4x128x1 ![0, 1] bcast_S4x128_S4x128x1_0_1 : (⟨S4x128, .i32⟩ : BufTy).Contents (Elt F) → (⟨S4x128x1, .i32⟩ : BufTy).Contents (Elt F)),
    unary main_v256 main_v275 (broadcastInDim S4x128x1 ![0, 1] bcast_S4x128_S4x128x1_0_1 : (⟨S4x128, .i32⟩ : BufTy).Contents (Elt F) → (⟨S4x128x1, .i32⟩ : BufTy).Contents (Elt F)),
    unary main_v261 main_v276 (broadcastInDim S4x128x1 ![0, 1] bcast_S4x128_S4x128x1_0_1 : (⟨S4x128, .i32⟩ : BufTy).Contents (Elt F) → (⟨S4x128x1, .i32⟩ : BufTy).Contents (Elt F)),
    unary main_v266 main_v277 (broadcastInDim S4x128x1 ![0, 1] bcast_S4x128_S4x128x1_0_1 : (⟨S4x128, .i32⟩ : BufTy).Contents (Elt F) → (⟨S4x128x1, .i32⟩ : BufTy).Contents (Elt F)),
    unary main_v271 main_v278 (broadcastInDim S4x128x1 ![0, 1] bcast_S4x128_S4x128x1_0_1 : (⟨S4x128, .i32⟩ : BufTy).Contents (Elt F) → (⟨S4x128x1, .i32⟩ : BufTy).Contents (Elt F)),
    nary ![main_v273, main_v274, main_v275, main_v276, main_v277, main_v278] main_v279 (fun u => concatenate S4x128x6 2 [⟨S4x128x1, u 0⟩, ⟨S4x128x1, u 1⟩, ⟨S4x128x1, u 2⟩, ⟨S4x128x1, u 3⟩, ⟨S4x128x1, u 4⟩, ⟨S4x128x1, u 5⟩] concatenates_S4x128x1_S4x128x1_S4x128x1_S4x128x1_S4x128x1_S4x128x1_S4x128x6_d2),
    binary main_v171 main_v279 main_v280 ((fun x i => Host.gather gather_S4x3x3x32x32x32_S4x128x6_S4x128_n_012345_n_n_012345_2_111111 x i) : (⟨S4x3x3x32x32x32, .f32⟩ : BufTy).Contents (Elt F) → (⟨S4x128x6, .i32⟩ : BufTy).Contents (Elt F) → (⟨S4x128, .f32⟩ : BufTy).Contents (Elt F)),
    nullary main_c_75 (constantI S_ 32 0#32),
    unary main_c_75 main_v281 (broadcastInDim S4x1 ![] bcast_S_S4x1 : (⟨S_, .i32⟩ : BufTy).Contents (Elt F) → (⟨S4x1, .i32⟩ : BufTy).Contents (Elt F)) ]

set_option maxRecDepth 8192 in
theorem ops_p5_sub : (ops_p5 : List (HloOp τ sig (Elt F))).Forall fun op => op.bufs ⊆ tcRefs τ sig :=
  ⟨unary_bufs_sub .., unary_bufs_sub .., nary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., unary_bufs_sub .., nary_bufs_sub .., binary_bufs_sub .., nullary_bufs_sub .., unary_bufs_sub ..⟩
set_option maxRecDepth 8192 in
theorem ops_p5_fresh : ∀ op ∈ (ops_p5 : List (HloOp τ sig (Elt F))), op.fresh = ∅ := by
  intro _ h; (repeat (cases h with | head => rfl | tail _ h => ?_)); exact nomatch h

set_option maxRecDepth 8192 in
set_option maxHeartbeats 4000000 in
theorem main_part5_eq (c : Dev nD) : main_part5 (F := F) c = seq ops_p5 := rfl

def I5_336 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v226) = ReadP.val_main_v226 (F := F) x5 ∧ V (Proc.devRef .tc main_v231) = ReadP.val_main_v231 (F := F) x5 ∧ V (Proc.devRef .tc main_v233) = ReadP.val_main_v233 (F := F) ∧ V (Proc.devRef .tc main_v234) = ReadP.val_main_v234 (F := F) x5 ∧ V (Proc.devRef .tc main_v235) = ReadP.val_main_v235 (F := F) x5
def I5_337 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v231) = ReadP.val_main_v231 (F := F) x5 ∧ V (Proc.devRef .tc main_v233) = ReadP.val_main_v233 (F := F) ∧ V (Proc.devRef .tc main_v234) = ReadP.val_main_v234 (F := F) x5 ∧ V (Proc.devRef .tc main_v235) = ReadP.val_main_v235 (F := F) x5 ∧ V (Proc.devRef .tc main_v236) = ReadP.val_main_v236 (F := F) x5
def I5_338 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v233) = ReadP.val_main_v233 (F := F) ∧ V (Proc.devRef .tc main_v234) = ReadP.val_main_v234 (F := F) x5 ∧ V (Proc.devRef .tc main_v235) = ReadP.val_main_v235 (F := F) x5 ∧ V (Proc.devRef .tc main_v236) = ReadP.val_main_v236 (F := F) x5 ∧ V (Proc.devRef .tc main_v237) = ReadP.val_main_v237 (F := F) x5
def I5_339 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v238) = ReadP.val_main_v238 (F := F) x5
def I5_340 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v239) = ReadP.val_main_v239 (F := F) x3 x5
def I5_341 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v240) = ReadP.val_main_v240 (F := F) x3 x5
def I5_342 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v240) = ReadP.val_main_v240 (F := F) x3 x5 ∧ V (Proc.devRef .tc main_c_62) = ReadP.val_main_c_62 (F := F)
def I5_343 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v240) = ReadP.val_main_v240 (F := F) x3 x5 ∧ V (Proc.devRef .tc main_call5_v0) = ReadP.val_main_call5_v0 (F := F)
def I5_344 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v240) = ReadP.val_main_v240 (F := F) x3 x5 ∧ V (Proc.devRef .tc main_call5_v1) = ReadP.val_main_call5_v1 (F := F)
def I5_345 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5
def I5_346 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_c_63) = ReadP.val_main_c_63 (F := F)
def I5_347 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v242) = ReadP.val_main_v242 (F := F)
def I5_348 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v243) = ReadP.val_main_v243 (F := F)
def I5_349 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v243) = ReadP.val_main_v243 (F := F) ∧ V (Proc.devRef .tc main_c_64) = ReadP.val_main_c_64 (F := F)
def I5_350 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v243) = ReadP.val_main_v243 (F := F) ∧ V (Proc.devRef .tc main_v244) = ReadP.val_main_v244 (F := F)
def I5_351 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v243) = ReadP.val_main_v243 (F := F) ∧ V (Proc.devRef .tc main_v245) = ReadP.val_main_v245 (F := F)
def I5_352 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F)
def I5_353 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_c_65) = ReadP.val_main_c_65 (F := F)
def I5_354 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v247) = ReadP.val_main_v247 (F := F)
def I5_355 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v248) = ReadP.val_main_v248 (F := F) x3 x5
def I5_356 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v248) = ReadP.val_main_v248 (F := F) x3 x5 ∧ V (Proc.devRef .tc main_c_66) = ReadP.val_main_c_66 (F := F)
def I5_357 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v248) = ReadP.val_main_v248 (F := F) x3 x5 ∧ V (Proc.devRef .tc main_v249) = ReadP.val_main_v249 (F := F)
def I5_358 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v248) = ReadP.val_main_v248 (F := F) x3 x5 ∧ V (Proc.devRef .tc main_v250) = ReadP.val_main_v250 (F := F) x3 x5
def I5_359 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5
def I5_360 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_c_67) = ReadP.val_main_c_67 (F := F)
def I5_361 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v252) = ReadP.val_main_v252 (F := F)
def I5_362 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v253) = ReadP.val_main_v253 (F := F) x5
def I5_363 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v253) = ReadP.val_main_v253 (F := F) x5 ∧ V (Proc.devRef .tc main_c_68) = ReadP.val_main_c_68 (F := F)
def I5_364 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v253) = ReadP.val_main_v253 (F := F) x5 ∧ V (Proc.devRef .tc main_v254) = ReadP.val_main_v254 (F := F)
def I5_365 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v253) = ReadP.val_main_v253 (F := F) x5 ∧ V (Proc.devRef .tc main_v255) = ReadP.val_main_v255 (F := F) x5
def I5_366 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5
def I5_367 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_c_69) = ReadP.val_main_c_69 (F := F)
def I5_368 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v257) = ReadP.val_main_v257 (F := F)
def I5_369 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v258) = ReadP.val_main_v258 (F := F) x5
def I5_370 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v258) = ReadP.val_main_v258 (F := F) x5 ∧ V (Proc.devRef .tc main_c_70) = ReadP.val_main_c_70 (F := F)
def I5_371 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v258) = ReadP.val_main_v258 (F := F) x5 ∧ V (Proc.devRef .tc main_v259) = ReadP.val_main_v259 (F := F)
def I5_372 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v258) = ReadP.val_main_v258 (F := F) x5 ∧ V (Proc.devRef .tc main_v260) = ReadP.val_main_v260 (F := F) x5
def I5_373 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5
def I5_374 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_c_71) = ReadP.val_main_c_71 (F := F)
def I5_375 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v262) = ReadP.val_main_v262 (F := F)
def I5_376 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v263) = ReadP.val_main_v263 (F := F) x5
def I5_377 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v263) = ReadP.val_main_v263 (F := F) x5 ∧ V (Proc.devRef .tc main_c_72) = ReadP.val_main_c_72 (F := F)
def I5_378 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v263) = ReadP.val_main_v263 (F := F) x5 ∧ V (Proc.devRef .tc main_v264) = ReadP.val_main_v264 (F := F)
def I5_379 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v263) = ReadP.val_main_v263 (F := F) x5 ∧ V (Proc.devRef .tc main_v265) = ReadP.val_main_v265 (F := F) x5
def I5_380 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v266) = ReadP.val_main_v266 (F := F) x5
def I5_381 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v266) = ReadP.val_main_v266 (F := F) x5 ∧ V (Proc.devRef .tc main_c_73) = ReadP.val_main_c_73 (F := F)
def I5_382 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v266) = ReadP.val_main_v266 (F := F) x5 ∧ V (Proc.devRef .tc main_v267) = ReadP.val_main_v267 (F := F)
def I5_383 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v266) = ReadP.val_main_v266 (F := F) x5 ∧ V (Proc.devRef .tc main_v268) = ReadP.val_main_v268 (F := F) x5
def I5_384 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v266) = ReadP.val_main_v266 (F := F) x5 ∧ V (Proc.devRef .tc main_v268) = ReadP.val_main_v268 (F := F) x5 ∧ V (Proc.devRef .tc main_c_74) = ReadP.val_main_c_74 (F := F)
def I5_385 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v266) = ReadP.val_main_v266 (F := F) x5 ∧ V (Proc.devRef .tc main_v268) = ReadP.val_main_v268 (F := F) x5 ∧ V (Proc.devRef .tc main_v269) = ReadP.val_main_v269 (F := F)
def I5_386 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v266) = ReadP.val_main_v266 (F := F) x5 ∧ V (Proc.devRef .tc main_v268) = ReadP.val_main_v268 (F := F) x5 ∧ V (Proc.devRef .tc main_v270) = ReadP.val_main_v270 (F := F) x5
def I5_387 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v246) = ReadP.val_main_v246 (F := F) ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v266) = ReadP.val_main_v266 (F := F) x5 ∧ V (Proc.devRef .tc main_v271) = ReadP.val_main_v271 (F := F) x5
def I5_388 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v266) = ReadP.val_main_v266 (F := F) x5 ∧ V (Proc.devRef .tc main_v271) = ReadP.val_main_v271 (F := F) x5 ∧ V (Proc.devRef .tc main_v272) = ReadP.val_main_v272 (F := F)
def I5_389 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v251) = ReadP.val_main_v251 (F := F) x3 x5 ∧ V (Proc.devRef .tc main_v256) = ReadP.val_main_v256 (F := F) x5 ∧ V (Proc.devRef .tc main_v261) = ReadP.val_main_v261 (F := F) x5 ∧ V (Proc.devRef .tc main_v266) = ReadP.val_main_v266 (F := F) x5 ∧ V (Proc.devRef .tc main_v271) = ReadP.val_main_v271 (F := F) x5 ∧ V (Proc.devRef .tc main_v273) = ReadP.val_main_v273 (F := F)
def I5_390 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v256) = ReadP.val_main_v256 (F := F) x5 ∧ V (Proc.devRef .tc main_v261) = ReadP.val_main_v261 (F := F) x5 ∧ V (Proc.devRef .tc main_v266) = ReadP.val_main_v266 (F := F) x5 ∧ V (Proc.devRef .tc main_v271) = ReadP.val_main_v271 (F := F) x5 ∧ V (Proc.devRef .tc main_v273) = ReadP.val_main_v273 (F := F) ∧ V (Proc.devRef .tc main_v274) = ReadP.val_main_v274 (F := F) x3 x5
def I5_391 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v261) = ReadP.val_main_v261 (F := F) x5 ∧ V (Proc.devRef .tc main_v266) = ReadP.val_main_v266 (F := F) x5 ∧ V (Proc.devRef .tc main_v271) = ReadP.val_main_v271 (F := F) x5 ∧ V (Proc.devRef .tc main_v273) = ReadP.val_main_v273 (F := F) ∧ V (Proc.devRef .tc main_v274) = ReadP.val_main_v274 (F := F) x3 x5 ∧ V (Proc.devRef .tc main_v275) = ReadP.val_main_v275 (F := F) x5
def I5_392 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v266) = ReadP.val_main_v266 (F := F) x5 ∧ V (Proc.devRef .tc main_v271) = ReadP.val_main_v271 (F := F) x5 ∧ V (Proc.devRef .tc main_v273) = ReadP.val_main_v273 (F := F) ∧ V (Proc.devRef .tc main_v274) = ReadP.val_main_v274 (F := F) x3 x5 ∧ V (Proc.devRef .tc main_v275) = ReadP.val_main_v275 (F := F) x5 ∧ V (Proc.devRef .tc main_v276) = ReadP.val_main_v276 (F := F) x5
def I5_393 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v271) = ReadP.val_main_v271 (F := F) x5 ∧ V (Proc.devRef .tc main_v273) = ReadP.val_main_v273 (F := F) ∧ V (Proc.devRef .tc main_v274) = ReadP.val_main_v274 (F := F) x3 x5 ∧ V (Proc.devRef .tc main_v275) = ReadP.val_main_v275 (F := F) x5 ∧ V (Proc.devRef .tc main_v276) = ReadP.val_main_v276 (F := F) x5 ∧ V (Proc.devRef .tc main_v277) = ReadP.val_main_v277 (F := F) x5
def I5_394 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v273) = ReadP.val_main_v273 (F := F) ∧ V (Proc.devRef .tc main_v274) = ReadP.val_main_v274 (F := F) x3 x5 ∧ V (Proc.devRef .tc main_v275) = ReadP.val_main_v275 (F := F) x5 ∧ V (Proc.devRef .tc main_v276) = ReadP.val_main_v276 (F := F) x5 ∧ V (Proc.devRef .tc main_v277) = ReadP.val_main_v277 (F := F) x5 ∧ V (Proc.devRef .tc main_v278) = ReadP.val_main_v278 (F := F) x5
def I5_395 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v171) = ReadP.val_main_v171 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v279) = ReadP.val_main_v279 (F := F) x3 x5
def I5_396 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v280) = ReadP.val_main_v280 (F := F) x1 x3 x5
def I5_397 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v280) = ReadP.val_main_v280 (F := F) x1 x3 x5 ∧ V (Proc.devRef .tc main_c_75) = ReadP.val_main_c_75 (F := F)
def I5_398 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v280) = ReadP.val_main_v280 (F := F) x1 x3 x5 ∧ V (Proc.devRef .tc main_v281) = ReadP.val_main_v281 (F := F)

theorem s336 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_336 V x0 x1 x2 x3 x4 x5 x6 → I5_337 ((unary main_v226 main_v236 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v226, h_main_v231, h_main_v233, h_main_v234, h_main_v235⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v231,
    by after_results_simp; exact h_main_v233,
    by after_results_simp; exact h_main_v234,
    by after_results_simp; exact h_main_v235,
    by after_results_simp; (try simp only [TRef.ofBuf, TRef.toBuf, cast_eq]); rw [h_main_v226]; rfl⟩
theorem s337 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_337 V x0 x1 x2 x3 x4 x5 x6 → I5_338 ((unary main_v231 main_v237 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v231, h_main_v233, h_main_v234, h_main_v235, h_main_v236⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v233,
    by after_results_simp; exact h_main_v234,
    by after_results_simp; exact h_main_v235,
    by after_results_simp; exact h_main_v236,
    by after_results_simp; (try simp only [TRef.ofBuf, TRef.toBuf, cast_eq]); rw [h_main_v231]; rfl⟩
theorem s338 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_338 V x0 x1 x2 x3 x4 x5 x6 → I5_339 ((nary ![main_v233, main_v234, main_v235, main_v236, main_v237] main_v238 (fun u => concatenate S4x128x5 2 [⟨S4x128x1, u 0⟩, ⟨S4x128x1, u 1⟩, ⟨S4x128x1, u 2⟩, ⟨S4x128x1, u 3⟩, ⟨S4x128x1, u 4⟩] concatenates_S4x128x1_S4x128x1_S4x128x1_S4x128x1_S4x128x1_S4x128x5_d2)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v233, h_main_v234, h_main_v235, h_main_v236, h_main_v237⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; (try simp only [TRef.ofBuf, TRef.toBuf, cast_eq]); dsimp only [Matrix.cons_val]; rw [h_main_v233, h_main_v234, h_main_v235, h_main_v236, h_main_v237]; rfl⟩
theorem s339 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_339 V x0 x1 x2 x3 x4 x5 x6 → I5_340 ((binary main_arg3 main_v238 main_v239 ((fun x i => Host.gather gather_S4x3x32x32x32_S4x128x5_S4x128_n_01234_n_n_01234_2_11111 x i) : (⟨S4x3x32x32x32, .f32⟩ : BufTy).Contents (Elt F) → (⟨S4x128x5, .i32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v238⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; (try simp only [TRef.ofBuf, TRef.toBuf, cast_eq]); rw [h_main_arg3, h_main_v238]; rfl⟩
theorem s340 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_340 V x0 x1 x2 x3 x4 x5 x6 → I5_341 ((unary main_v239 main_v240 (fptosi 32 : (⟨S4x128, .f32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v239⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; (try simp only [TRef.ofBuf, TRef.toBuf, cast_eq]); rw [h_main_v239]; rfl⟩
theorem s341 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_341 V x0 x1 x2 x3 x4 x5 x6 → I5_342 ((nullary main_c_62 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v240⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v240,
    by after_results_simp; (try simp only [TRef.ofBuf, TRef.toBuf, cast_eq]); rfl⟩
theorem s342 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_342 V x0 x1 x2 x3 x4 x5 x6 → I5_343 ((TRef.unary (TRef.of (T := ⟨S_, .i32⟩) main_c_62) (TRef.of (T := ⟨S_, .i32⟩) main_call5_v0) id).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v240, h_main_c_62⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v240,
    by after_results_simp; (try simp only [TRef.ofBuf, TRef.toBuf, cast_eq]); rw [h_main_c_62]; rfl⟩
theorem s343 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_343 V x0 x1 x2 x3 x4 x5 x6 → I5_344 ((TRef.unary (TRef.of (T := ⟨S_, .i32⟩) main_call5_v0) (TRef.of (T := ⟨S4x128, .i32⟩) main_call5_v1) (broadcastInDim S4x128 ![] bcast_S_S4x128)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v240, h_main_call5_v0⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v240,
    by after_results_simp; (try simp only [TRef.ofBuf, TRef.toBuf, cast_eq]); rw [h_main_call5_v0]; rfl⟩
theorem s344 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_344 V x0 x1 x2 x3 x4 x5 x6 → I5_345 ((TRef.ternary (TRef.of (T := ⟨S4x128, .i1⟩) main_v194) (TRef.of (T := ⟨S4x128, .i32⟩) main_v240) (TRef.of (T := ⟨S4x128, .i32⟩) main_call5_v1) (TRef.of (T := ⟨S4x128, .i32⟩) main_v241) select).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v240, h_main_call5_v1⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; (try simp only [TRef.ofBuf, TRef.toBuf, cast_eq]); rw [h_main_v194, h_main_v240, h_main_call5_v1]; rfl⟩
theorem s345 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_345 V x0 x1 x2 x3 x4 x5 x6 → I5_346 ((nullary main_c_63 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; (try simp only [TRef.ofBuf, TRef.toBuf, cast_eq]); rfl⟩
theorem s346 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_346 V x0 x1 x2 x3 x4 x5 x6 → I5_347 ((unary main_c_63 main_v242 (broadcastInDim S4x1 ![] bcast_S_S4x1 : (⟨S_, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_c_63⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; (try simp only [TRef.ofBuf, TRef.toBuf, cast_eq]); rw [h_main_c_63]; rfl⟩
theorem s347 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_347 V x0 x1 x2 x3 x4 x5 x6 → I5_348 ((binary main_v206 main_v242 main_v243 (cmpi .slt : (⟨S4x1, .i32⟩ : BufTy).Contents (Elt F) → (⟨S4x1, .i32⟩ : BufTy).Contents (Elt F) → (⟨S4x1, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v242⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; (try simp only [TRef.ofBuf, TRef.toBuf, cast_eq]); rw [h_main_v206, h_main_v242]; rfl⟩
theorem s348 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_348 V x0 x1 x2 x3 x4 x5 x6 → I5_349 ((nullary main_c_64 (constantI S_ 32 4#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v243⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v243,
    by after_results_simp; (try simp only [TRef.ofBuf, TRef.toBuf, cast_eq]); rfl⟩
theorem s349 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_349 V x0 x1 x2 x3 x4 x5 x6 → I5_350 ((unary main_c_64 main_v244 (broadcastInDim S4x1 ![] bcast_S_S4x1 : (⟨S_, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v243, h_main_c_64⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v243,
    by after_results_simp; (try simp only [TRef.ofBuf, TRef.toBuf, cast_eq]); rw [h_main_c_64]; rfl⟩
theorem s350 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_350 V x0 x1 x2 x3 x4 x5 x6 → I5_351 ((binary main_v206 main_v244 main_v245 (addi : (⟨S4x1, .i32⟩ : BufTy).Contents (Elt F) → (⟨S4x1, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v243, h_main_v244⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v243,
    by after_results_simp; (try simp only [TRef.ofBuf, TRef.toBuf, cast_eq]); rw [h_main_v206, h_main_v244]; rfl⟩
theorem s351 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_351 V x0 x1 x2 x3 x4 x5 x6 → I5_352 ((ternary main_v243 main_v245 main_v206 main_v246 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v243, h_main_v245⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; (try simp only [TRef.ofBuf, TRef.toBuf, cast_eq]); rw [h_main_v243, h_main_v245, h_main_v206]; rfl⟩
theorem s352 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_352 V x0 x1 x2 x3 x4 x5 x6 → I5_353 ((nullary main_c_65 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; (try simp only [TRef.ofBuf, TRef.toBuf, cast_eq]); rfl⟩
theorem s353 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_353 V x0 x1 x2 x3 x4 x5 x6 → I5_354 ((unary main_c_65 main_v247 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_c_65⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; (try simp only [TRef.ofBuf, TRef.toBuf, cast_eq]); rw [h_main_c_65]; rfl⟩
theorem s354 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_354 V x0 x1 x2 x3 x4 x5 x6 → I5_355 ((binary main_v241 main_v247 main_v248 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v247⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; (try simp only [TRef.ofBuf, TRef.toBuf, cast_eq]); rw [h_main_v241, h_main_v247]; rfl⟩
theorem s355 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_355 V x0 x1 x2 x3 x4 x5 x6 → I5_356 ((nullary main_c_66 (constantI S_ 32 3#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v248⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v248,
    by after_results_simp; (try simp only [TRef.ofBuf, TRef.toBuf, cast_eq]); rfl⟩
theorem s356 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_356 V x0 x1 x2 x3 x4 x5 x6 → I5_357 ((unary main_c_66 main_v249 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v248, h_main_c_66⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v248,
    by after_results_simp; (try simp only [TRef.ofBuf, TRef.toBuf, cast_eq]); rw [h_main_c_66]; rfl⟩
theorem s357 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_357 V x0 x1 x2 x3 x4 x5 x6 → I5_358 ((binary main_v241 main_v249 main_v250 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v248, h_main_v249⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v248,
    by after_results_simp; (try simp only [TRef.ofBuf, TRef.toBuf, cast_eq]); rw [h_main_v241, h_main_v249]; rfl⟩
theorem s358 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_358 V x0 x1 x2 x3 x4 x5 x6 → I5_359 ((ternary main_v248 main_v250 main_v241 main_v251 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v248, h_main_v250⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; (try simp only [TRef.ofBuf, TRef.toBuf, cast_eq]); rw [h_main_v248, h_main_v250, h_main_v241]; rfl⟩
theorem s359 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_359 V x0 x1 x2 x3 x4 x5 x6 → I5_360 ((nullary main_c_67 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; (try simp only [TRef.ofBuf, TRef.toBuf, cast_eq]); rfl⟩
theorem s360 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_360 V x0 x1 x2 x3 x4 x5 x6 → I5_361 ((unary main_c_67 main_v252 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_c_67⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; (try simp only [TRef.ofBuf, TRef.toBuf, cast_eq]); rw [h_main_c_67]; rfl⟩
theorem s361 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_361 V x0 x1 x2 x3 x4 x5 x6 → I5_362 ((binary main_v198 main_v252 main_v253 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v252⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; (try simp only [TRef.ofBuf, TRef.toBuf, cast_eq]); rw [h_main_v198, h_main_v252]; rfl⟩
theorem s362 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_362 V x0 x1 x2 x3 x4 x5 x6 → I5_363 ((nullary main_c_68 (constantI S_ 32 3#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v253⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v253,
    by after_results_simp; (try simp only [TRef.ofBuf, TRef.toBuf, cast_eq]); rfl⟩
theorem s363 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_363 V x0 x1 x2 x3 x4 x5 x6 → I5_364 ((unary main_c_68 main_v254 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v253, h_main_c_68⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v253,
    by after_results_simp; (try simp only [TRef.ofBuf, TRef.toBuf, cast_eq]); rw [h_main_c_68]; rfl⟩
theorem s364 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_364 V x0 x1 x2 x3 x4 x5 x6 → I5_365 ((binary main_v198 main_v254 main_v255 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v253, h_main_v254⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v253,
    by after_results_simp; (try simp only [TRef.ofBuf, TRef.toBuf, cast_eq]); rw [h_main_v198, h_main_v254]; rfl⟩
theorem s365 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_365 V x0 x1 x2 x3 x4 x5 x6 → I5_366 ((ternary main_v253 main_v255 main_v198 main_v256 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v253, h_main_v255⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; (try simp only [TRef.ofBuf, TRef.toBuf, cast_eq]); rw [h_main_v253, h_main_v255, h_main_v198]; rfl⟩
theorem s366 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_366 V x0 x1 x2 x3 x4 x5 x6 → I5_367 ((nullary main_c_69 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; (try simp only [TRef.ofBuf, TRef.toBuf, cast_eq]); rfl⟩
theorem s367 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_367 V x0 x1 x2 x3 x4 x5 x6 → I5_368 ((unary main_c_69 main_v257 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_c_69⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; (try simp only [TRef.ofBuf, TRef.toBuf, cast_eq]); rw [h_main_c_69]; rfl⟩
theorem s368 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_368 V x0 x1 x2 x3 x4 x5 x6 → I5_369 ((binary main_v200 main_v257 main_v258 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v257⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; (try simp only [TRef.ofBuf, TRef.toBuf, cast_eq]); rw [h_main_v200, h_main_v257]; rfl⟩
theorem s369 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_369 V x0 x1 x2 x3 x4 x5 x6 → I5_370 ((nullary main_c_70 (constantI S_ 32 32#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v258⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v258,
    by after_results_simp; (try simp only [TRef.ofBuf, TRef.toBuf, cast_eq]); rfl⟩
theorem s370 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_370 V x0 x1 x2 x3 x4 x5 x6 → I5_371 ((unary main_c_70 main_v259 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v258, h_main_c_70⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v258,
    by after_results_simp; (try simp only [TRef.ofBuf, TRef.toBuf, cast_eq]); rw [h_main_c_70]; rfl⟩
theorem s371 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_371 V x0 x1 x2 x3 x4 x5 x6 → I5_372 ((binary main_v200 main_v259 main_v260 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v258, h_main_v259⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v258,
    by after_results_simp; (try simp only [TRef.ofBuf, TRef.toBuf, cast_eq]); rw [h_main_v200, h_main_v259]; rfl⟩
theorem s372 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_372 V x0 x1 x2 x3 x4 x5 x6 → I5_373 ((ternary main_v258 main_v260 main_v200 main_v261 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v258, h_main_v260⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; (try simp only [TRef.ofBuf, TRef.toBuf, cast_eq]); rw [h_main_v258, h_main_v260, h_main_v200]; rfl⟩
theorem s373 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_373 V x0 x1 x2 x3 x4 x5 x6 → I5_374 ((nullary main_c_71 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; (try simp only [TRef.ofBuf, TRef.toBuf, cast_eq]); rfl⟩
theorem s374 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_374 V x0 x1 x2 x3 x4 x5 x6 → I5_375 ((unary main_c_71 main_v262 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_c_71⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; (try simp only [TRef.ofBuf, TRef.toBuf, cast_eq]); rw [h_main_c_71]; rfl⟩
theorem s375 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_375 V x0 x1 x2 x3 x4 x5 x6 → I5_376 ((binary main_v202 main_v262 main_v263 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v262⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; (try simp only [TRef.ofBuf, TRef.toBuf, cast_eq]); rw [h_main_v202, h_main_v262]; rfl⟩
theorem s376 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_376 V x0 x1 x2 x3 x4 x5 x6 → I5_377 ((nullary main_c_72 (constantI S_ 32 32#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v263⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; exact h_main_v263,
    by after_results_simp; (try simp only [TRef.ofBuf, TRef.toBuf, cast_eq]); rfl⟩
theorem s377 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_377 V x0 x1 x2 x3 x4 x5 x6 → I5_378 ((unary main_c_72 main_v264 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v263, h_main_c_72⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; exact h_main_v263,
    by after_results_simp; (try simp only [TRef.ofBuf, TRef.toBuf, cast_eq]); rw [h_main_c_72]; rfl⟩
theorem s378 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_378 V x0 x1 x2 x3 x4 x5 x6 → I5_379 ((binary main_v202 main_v264 main_v265 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v263, h_main_v264⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; exact h_main_v263,
    by after_results_simp; (try simp only [TRef.ofBuf, TRef.toBuf, cast_eq]); rw [h_main_v202, h_main_v264]; rfl⟩
theorem s379 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_379 V x0 x1 x2 x3 x4 x5 x6 → I5_380 ((ternary main_v263 main_v265 main_v202 main_v266 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v263, h_main_v265⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; (try simp only [TRef.ofBuf, TRef.toBuf, cast_eq]); rw [h_main_v263, h_main_v265, h_main_v202]; rfl⟩
theorem s380 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_380 V x0 x1 x2 x3 x4 x5 x6 → I5_381 ((nullary main_c_73 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v266⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; exact h_main_v266,
    by after_results_simp; (try simp only [TRef.ofBuf, TRef.toBuf, cast_eq]); rfl⟩
theorem s381 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_381 V x0 x1 x2 x3 x4 x5 x6 → I5_382 ((unary main_c_73 main_v267 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v266, h_main_c_73⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; exact h_main_v266,
    by after_results_simp; (try simp only [TRef.ofBuf, TRef.toBuf, cast_eq]); rw [h_main_c_73]; rfl⟩
theorem s382 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_382 V x0 x1 x2 x3 x4 x5 x6 → I5_383 ((binary main_v204 main_v267 main_v268 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v266, h_main_v267⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; exact h_main_v266,
    by after_results_simp; (try simp only [TRef.ofBuf, TRef.toBuf, cast_eq]); rw [h_main_v204, h_main_v267]; rfl⟩
theorem s383 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_383 V x0 x1 x2 x3 x4 x5 x6 → I5_384 ((nullary main_c_74 (constantI S_ 32 32#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v266, h_main_v268⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; exact h_main_v266,
    by after_results_simp; exact h_main_v268,
    by after_results_simp; (try simp only [TRef.ofBuf, TRef.toBuf, cast_eq]); rfl⟩
theorem s384 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_384 V x0 x1 x2 x3 x4 x5 x6 → I5_385 ((unary main_c_74 main_v269 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v266, h_main_v268, h_main_c_74⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; exact h_main_v266,
    by after_results_simp; exact h_main_v268,
    by after_results_simp; (try simp only [TRef.ofBuf, TRef.toBuf, cast_eq]); rw [h_main_c_74]; rfl⟩
theorem s385 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_385 V x0 x1 x2 x3 x4 x5 x6 → I5_386 ((binary main_v204 main_v269 main_v270 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v266, h_main_v268, h_main_v269⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; exact h_main_v266,
    by after_results_simp; exact h_main_v268,
    by after_results_simp; (try simp only [TRef.ofBuf, TRef.toBuf, cast_eq]); rw [h_main_v204, h_main_v269]; rfl⟩
theorem s386 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_386 V x0 x1 x2 x3 x4 x5 x6 → I5_387 ((ternary main_v268 main_v270 main_v204 main_v271 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v266, h_main_v268, h_main_v270⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v246,
    by after_results_simp; exact h_main_v251,
    by after_results_simp; exact h_main_v256,
    by after_results_simp; exact h_main_v261,
    by after_results_simp; exact h_main_v266,
    by after_results_simp; (try simp only [TRef.ofBuf, TRef.toBuf, cast_eq]); rw [h_main_v268, h_main_v270, h_main_v204]; rfl⟩
theorem s387 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_387 V x0 x1 x2 x3 x4 x5 x6 → I5_388 ((unary main_v246 main_v272 (broadcastInDim S4x128 ![0, 1] bcast_S4x1_S4x128_0_1 : (⟨S4x1, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v246, h_main_v251, h_main_v256, h_main_v261, h_main_v266, h_main_v271⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v251,
    by after_results_simp; exact h_main_v256,
    by after_results_simp; exact h_main_v261,
    by after_results_simp; exact h_main_v266,
    by after_results_simp; exact h_main_v271,
    by after_results_simp; (try simp only [TRef.ofBuf, TRef.toBuf, cast_eq]); rw [h_main_v246]; rfl⟩
theorem s388 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_388 V x0 x1 x2 x3 x4 x5 x6 → I5_389 ((unary main_v272 main_v273 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v251, h_main_v256, h_main_v261, h_main_v266, h_main_v271, h_main_v272⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v251,
    by after_results_simp; exact h_main_v256,
    by after_results_simp; exact h_main_v261,
    by after_results_simp; exact h_main_v266,
    by after_results_simp; exact h_main_v271,
    by after_results_simp; (try simp only [TRef.ofBuf, TRef.toBuf, cast_eq]); rw [h_main_v272]; rfl⟩
theorem s389 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_389 V x0 x1 x2 x3 x4 x5 x6 → I5_390 ((unary main_v251 main_v274 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v251, h_main_v256, h_main_v261, h_main_v266, h_main_v271, h_main_v273⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v256,
    by after_results_simp; exact h_main_v261,
    by after_results_simp; exact h_main_v266,
    by after_results_simp; exact h_main_v271,
    by after_results_simp; exact h_main_v273,
    by after_results_simp; (try simp only [TRef.ofBuf, TRef.toBuf, cast_eq]); rw [h_main_v251]; rfl⟩
theorem s390 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_390 V x0 x1 x2 x3 x4 x5 x6 → I5_391 ((unary main_v256 main_v275 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v256, h_main_v261, h_main_v266, h_main_v271, h_main_v273, h_main_v274⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v261,
    by after_results_simp; exact h_main_v266,
    by after_results_simp; exact h_main_v271,
    by after_results_simp; exact h_main_v273,
    by after_results_simp; exact h_main_v274,
    by after_results_simp; (try simp only [TRef.ofBuf, TRef.toBuf, cast_eq]); rw [h_main_v256]; rfl⟩
theorem s391 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_391 V x0 x1 x2 x3 x4 x5 x6 → I5_392 ((unary main_v261 main_v276 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v261, h_main_v266, h_main_v271, h_main_v273, h_main_v274, h_main_v275⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v266,
    by after_results_simp; exact h_main_v271,
    by after_results_simp; exact h_main_v273,
    by after_results_simp; exact h_main_v274,
    by after_results_simp; exact h_main_v275,
    by after_results_simp; (try simp only [TRef.ofBuf, TRef.toBuf, cast_eq]); rw [h_main_v261]; rfl⟩
theorem s392 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_392 V x0 x1 x2 x3 x4 x5 x6 → I5_393 ((unary main_v266 main_v277 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v266, h_main_v271, h_main_v273, h_main_v274, h_main_v275, h_main_v276⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v271,
    by after_results_simp; exact h_main_v273,
    by after_results_simp; exact h_main_v274,
    by after_results_simp; exact h_main_v275,
    by after_results_simp; exact h_main_v276,
    by after_results_simp; (try simp only [TRef.ofBuf, TRef.toBuf, cast_eq]); rw [h_main_v266]; rfl⟩
theorem s393 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_393 V x0 x1 x2 x3 x4 x5 x6 → I5_394 ((unary main_v271 main_v278 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v271, h_main_v273, h_main_v274, h_main_v275, h_main_v276, h_main_v277⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v273,
    by after_results_simp; exact h_main_v274,
    by after_results_simp; exact h_main_v275,
    by after_results_simp; exact h_main_v276,
    by after_results_simp; exact h_main_v277,
    by after_results_simp; (try simp only [TRef.ofBuf, TRef.toBuf, cast_eq]); rw [h_main_v271]; rfl⟩
theorem s394 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_394 V x0 x1 x2 x3 x4 x5 x6 → I5_395 ((nary ![main_v273, main_v274, main_v275, main_v276, main_v277, main_v278] main_v279 (fun u => concatenate S4x128x6 2 [⟨S4x128x1, u 0⟩, ⟨S4x128x1, u 1⟩, ⟨S4x128x1, u 2⟩, ⟨S4x128x1, u 3⟩, ⟨S4x128x1, u 4⟩, ⟨S4x128x1, u 5⟩] concatenates_S4x128x1_S4x128x1_S4x128x1_S4x128x1_S4x128x1_S4x128x1_S4x128x6_d2)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v273, h_main_v274, h_main_v275, h_main_v276, h_main_v277, h_main_v278⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v171,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; (try simp only [TRef.ofBuf, TRef.toBuf, cast_eq]); dsimp only [Matrix.cons_val]; rw [h_main_v273, h_main_v274, h_main_v275, h_main_v276, h_main_v277, h_main_v278]; rfl⟩
theorem s395 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_395 V x0 x1 x2 x3 x4 x5 x6 → I5_396 ((binary main_v171 main_v279 main_v280 ((fun x i => Host.gather gather_S4x3x3x32x32x32_S4x128x6_S4x128_n_012345_n_n_012345_2_111111 x i) : (⟨S4x3x3x32x32x32, .f32⟩ : BufTy).Contents (Elt F) → (⟨S4x128x6, .i32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v171, h_main_v189, h_main_v190, h_main_v194, h_main_v198, h_main_v200, h_main_v202, h_main_v204, h_main_v206, h_main_v241, h_main_v279⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; (try simp only [TRef.ofBuf, TRef.toBuf, cast_eq]); rw [h_main_v171, h_main_v279]; rfl⟩
theorem s396 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_396 V x0 x1 x2 x3 x4 x5 x6 → I5_397 ((nullary main_c_75 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v206, h_main_v241, h_main_v280⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v280,
    by after_results_simp; (try simp only [TRef.ofBuf, TRef.toBuf, cast_eq]); rfl⟩
theorem s397 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I5_397 V x0 x1 x2 x3 x4 x5 x6 → I5_398 ((unary main_c_75 main_v281 (broadcastInDim S4x1 ![] bcast_S_S4x1 : (⟨S_, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v206, h_main_v241, h_main_v280, h_main_c_75⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v280,
    by after_results_simp; (try simp only [TRef.ofBuf, TRef.toBuf, cast_eq]); rw [h_main_c_75]; rfl⟩

set_option maxRecDepth 8192 in
set_option maxHeartbeats 4000000 in
/-- The window, from any contents. -/
theorem w5 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) (h336 : I5_336 V x0 x1 x2 x3 x4 x5 x6) : I5_398 (after ops_p5 V) x0 x1 x2 x3 x4 x5 x6 := by
  simp only [ops_p5, after_cons, after_nil]
  have h337 := s336 _ x0 x1 x2 x3 x4 x5 x6 h336
  have h338 := s337 _ x0 x1 x2 x3 x4 x5 x6 h337
  have h339 := s338 _ x0 x1 x2 x3 x4 x5 x6 h338
  have h340 := s339 _ x0 x1 x2 x3 x4 x5 x6 h339
  have h341 := s340 _ x0 x1 x2 x3 x4 x5 x6 h340
  have h342 := s341 _ x0 x1 x2 x3 x4 x5 x6 h341
  have h343 := s342 _ x0 x1 x2 x3 x4 x5 x6 h342
  have h344 := s343 _ x0 x1 x2 x3 x4 x5 x6 h343
  have h345 := s344 _ x0 x1 x2 x3 x4 x5 x6 h344
  have h346 := s345 _ x0 x1 x2 x3 x4 x5 x6 h345
  have h347 := s346 _ x0 x1 x2 x3 x4 x5 x6 h346
  have h348 := s347 _ x0 x1 x2 x3 x4 x5 x6 h347
  have h349 := s348 _ x0 x1 x2 x3 x4 x5 x6 h348
  have h350 := s349 _ x0 x1 x2 x3 x4 x5 x6 h349
  have h351 := s350 _ x0 x1 x2 x3 x4 x5 x6 h350
  have h352 := s351 _ x0 x1 x2 x3 x4 x5 x6 h351
  have h353 := s352 _ x0 x1 x2 x3 x4 x5 x6 h352
  have h354 := s353 _ x0 x1 x2 x3 x4 x5 x6 h353
  have h355 := s354 _ x0 x1 x2 x3 x4 x5 x6 h354
  have h356 := s355 _ x0 x1 x2 x3 x4 x5 x6 h355
  have h357 := s356 _ x0 x1 x2 x3 x4 x5 x6 h356
  have h358 := s357 _ x0 x1 x2 x3 x4 x5 x6 h357
  have h359 := s358 _ x0 x1 x2 x3 x4 x5 x6 h358
  have h360 := s359 _ x0 x1 x2 x3 x4 x5 x6 h359
  have h361 := s360 _ x0 x1 x2 x3 x4 x5 x6 h360
  have h362 := s361 _ x0 x1 x2 x3 x4 x5 x6 h361
  have h363 := s362 _ x0 x1 x2 x3 x4 x5 x6 h362
  have h364 := s363 _ x0 x1 x2 x3 x4 x5 x6 h363
  have h365 := s364 _ x0 x1 x2 x3 x4 x5 x6 h364
  have h366 := s365 _ x0 x1 x2 x3 x4 x5 x6 h365
  have h367 := s366 _ x0 x1 x2 x3 x4 x5 x6 h366
  have h368 := s367 _ x0 x1 x2 x3 x4 x5 x6 h367
  have h369 := s368 _ x0 x1 x2 x3 x4 x5 x6 h368
  have h370 := s369 _ x0 x1 x2 x3 x4 x5 x6 h369
  have h371 := s370 _ x0 x1 x2 x3 x4 x5 x6 h370
  have h372 := s371 _ x0 x1 x2 x3 x4 x5 x6 h371
  have h373 := s372 _ x0 x1 x2 x3 x4 x5 x6 h372
  have h374 := s373 _ x0 x1 x2 x3 x4 x5 x6 h373
  have h375 := s374 _ x0 x1 x2 x3 x4 x5 x6 h374
  have h376 := s375 _ x0 x1 x2 x3 x4 x5 x6 h375
  have h377 := s376 _ x0 x1 x2 x3 x4 x5 x6 h376
  have h378 := s377 _ x0 x1 x2 x3 x4 x5 x6 h377
  have h379 := s378 _ x0 x1 x2 x3 x4 x5 x6 h378
  have h380 := s379 _ x0 x1 x2 x3 x4 x5 x6 h379
  have h381 := s380 _ x0 x1 x2 x3 x4 x5 x6 h380
  have h382 := s381 _ x0 x1 x2 x3 x4 x5 x6 h381
  have h383 := s382 _ x0 x1 x2 x3 x4 x5 x6 h382
  have h384 := s383 _ x0 x1 x2 x3 x4 x5 x6 h383
  have h385 := s384 _ x0 x1 x2 x3 x4 x5 x6 h384
  have h386 := s385 _ x0 x1 x2 x3 x4 x5 x6 h385
  have h387 := s386 _ x0 x1 x2 x3 x4 x5 x6 h386
  have h388 := s387 _ x0 x1 x2 x3 x4 x5 x6 h387
  have h389 := s388 _ x0 x1 x2 x3 x4 x5 x6 h388
  have h390 := s389 _ x0 x1 x2 x3 x4 x5 x6 h389
  have h391 := s390 _ x0 x1 x2 x3 x4 x5 x6 h390
  have h392 := s391 _ x0 x1 x2 x3 x4 x5 x6 h391
  have h393 := s392 _ x0 x1 x2 x3 x4 x5 x6 h392
  have h394 := s393 _ x0 x1 x2 x3 x4 x5 x6 h393
  have h395 := s394 _ x0 x1 x2 x3 x4 x5 x6 h394
  have h396 := s395 _ x0 x1 x2 x3 x4 x5 x6 h395
  have h397 := s396 _ x0 x1 x2 x3 x4 x5 x6 h396
  have h398 := s397 _ x0 x1 x2 x3 x4 x5 x6 h397
  exact h398

end Cert.Hand.RefRun

end
-- ==== Proof.Ref.RunP6.lean ====
/- Operations 398 … 457 of the reference program's straight line (its printed window 6): the list, the buffers it touches,
   and the window read one operation at a time: I6_k says which buffers hold which stage value after the first k
   operations of the whole line (the arguments x0 … x6, and every stage a later operation still reads); each operation
   takes I6_k to I6_(k+1): the buffer it writes gets its stage value (one unfolding of that stage), every other one is kept. -/
import proofs.«424358_j44040594653645_2_alg».proof.Proof.RefRead

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 398 … 457, in order. -/
abbrev ops_p6 : List (HloOp τ sig (Elt F)) :=
  [ binary main_v206 main_v281 main_v282 (cmpi .slt : (⟨S4x1, .i32⟩ : BufTy).Contents (Elt F) → (⟨S4x1, .i32⟩ : BufTy).Contents (Elt F) → (⟨S4x1, .i1⟩ : BufTy).Contents (Elt F)),
    nullary main_c_76 (constantI S_ 32 4#32),
    unary main_c_76 main_v283 (broadcastInDim S4x1 ![] bcast_S_S4x1 : (⟨S_, .i32⟩ : BufTy).Contents (Elt F) → (⟨S4x1, .i32⟩ : BufTy).Contents (Elt F)),
    binary main_v206 main_v283 main_v284 (addi : (⟨S4x1, .i32⟩ : BufTy).Contents (Elt F) → (⟨S4x1, .i32⟩ : BufTy).Contents (Elt F) → (⟨S4x1, .i32⟩ : BufTy).Contents (Elt F)),
    ternary main_v282 main_v284 main_v206 main_v285 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_77 (constantI S_ 32 0#32),
    unary main_c_77 main_v286 (broadcastInDim S4x128 ![] bcast_S_S4x128 : (⟨S_, .i32⟩ : BufTy).Contents (Elt F) → (⟨S4x128, .i32⟩ : BufTy).Contents (Elt F)),
    binary main_v241 main_v286 main_v287 (cmpi .slt : (⟨S4x128, .i32⟩ : BufTy).Contents (Elt F) → (⟨S4x128, .i32⟩ : BufTy).Contents (Elt F) → (⟨S4x128, .i1⟩ : BufTy).Contents (Elt F)),
    nullary main_c_78 (constantI S_ 32 3#32),
    unary main_c_78 main_v288 (broadcastInDim S4x128 ![] bcast_S_S4x128 : (⟨S_, .i32⟩ : BufTy).Contents (Elt F) → (⟨S4x128, .i32⟩ : BufTy).Contents (Elt F)),
    binary main_v241 main_v288 main_v289 (addi : (⟨S4x128, .i32⟩ : BufTy).Contents (Elt F) → (⟨S4x128, .i32⟩ : BufTy).Contents (Elt F) → (⟨S4x128, .i32⟩ : BufTy).Contents (Elt F)),
    ternary main_v287 main_v289 main_v241 main_v290 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_79 (constantI S_ 32 0#32),
    unary main_c_79 main_v291 (broadcastInDim S4x128 ![] bcast_S_S4x128 : (⟨S_, .i32⟩ : BufTy).Contents (Elt F) → (⟨S4x128, .i32⟩ : BufTy).Contents (Elt F)),
    binary main_v198 main_v291 main_v292 (cmpi .slt : (⟨S4x128, .i32⟩ : BufTy).Contents (Elt F) → (⟨S4x128, .i32⟩ : BufTy).Contents (Elt F) → (⟨S4x128, .i1⟩ : BufTy).Contents (Elt F)),
    nullary main_c_80 (constantI S_ 32 3#32),
    unary main_c_80 main_v293 (broadcastInDim S4x128 ![] bcast_S_S4x128 : (⟨S_, .i32⟩ : BufTy).Contents (Elt F) → (⟨S4x128, .i32⟩ : BufTy).Contents (Elt F)),
    binary main_v198 main_v293 main_v294 (addi : (⟨S4x128, .i32⟩ : BufTy).Contents (Elt F) → (⟨S4x128, .i32⟩ : BufTy).Contents (Elt F) → (⟨S4x128, .i32⟩ : BufTy).Contents (Elt F)),
    ternary main_v292 main_v294 main_v198 main_v295 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_81 (constantI S_ 32 0#32),
    unary main_c_81 main_v296 (broadcastInDim S4x128 ![] bcast_S_S4x128 : (⟨S_, .i32⟩ : BufTy).Contents (Elt F) → (⟨S4x128, .i32⟩ : BufTy).Contents (Elt F)),
    binary main_v200 main_v296 main_v297 (cmpi .slt : (⟨S4x128, .i32⟩ : BufTy).Contents (Elt F) → (⟨S4x128, .i32⟩ : BufTy).Contents (Elt F) → (⟨S4x128, .i1⟩ : BufTy).Contents (Elt F)),
    nullary main_c_82 (constantI S_ 32 32#32),
    unary main_c_82 main_v298 (broadcastInDim S4x128 ![] bcast_S_S4x128 : (⟨S_, .i32⟩ : BufTy).Contents (Elt F) → (⟨S4x128, .i32⟩ : BufTy).Contents (Elt F)),
    binary main_v200 main_v298 main_v299 (addi : (⟨S4x128, .i32⟩ : BufTy).Contents (Elt F) → (⟨S4x128, .i32⟩ : BufTy).Contents (Elt F) → (⟨S4x128, .i32⟩ : BufTy).Contents (Elt F)),
    ternary main_v297 main_v299 main_v200 main_v300 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_83 (constantI S_ 32 0#32),
    unary main_c_83 main_v301 (broadcastInDim S4x128 ![] bcast_S_S4x128 : (⟨S_, .i32⟩ : BufTy).Contents (Elt F) → (⟨S4x128, .i32⟩ : BufTy).Contents (Elt F)),
    binary main_v202 main_v301 main_v302 (cmpi .slt : (⟨S4x128, .i32⟩ : BufTy).Contents (Elt F) → (⟨S4x128, .i32⟩ : BufTy).Contents (Elt F) → (⟨S4x128, .i1⟩ : BufTy).Contents (Elt F)),
    nullary main_c_84 (constantI S_ 32 32#32),
    unary main_c_84 main_v303 (broadcastInDim S4x128 ![] bcast_S_S4x128 : (⟨S_, .i32⟩ : BufTy).Contents (Elt F) → (⟨S4x128, .i32⟩ : BufTy).Contents (Elt F)),
    binary main_v202 main_v303 main_v304 (addi : (⟨S4x128, .i32⟩ : BufTy).Contents (Elt F) → (⟨S4x128, .i32⟩ : BufTy).Contents (Elt F) → (⟨S4x128, .i32⟩ : BufTy).Contents (Elt F)),
    ternary main_v302 main_v304 main_v202 main_v305 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    nullary main_c_85 (constantI S_ 32 0#32),
    unary main_c_85 main_v306 (broadcastInDim S4x128 ![] bcast_S_S4x128 : (⟨S_, .i32⟩ : BufTy).Contents (Elt F) → (⟨S4x128, .i32⟩ : BufTy).Contents (Elt F)),
    binary main_v204 main_v306 main_v307 (cmpi .slt : (⟨S4x128, .i32⟩ : BufTy).Contents (Elt F) → (⟨S4x128, .i32⟩ : BufTy).Contents (Elt F) → (⟨S4x128, .i1⟩ : BufTy).Contents (Elt F)),
    nullary main_c_86 (constantI S_ 32 32#32),
    unary main_c_86 main_v308 (broadcastInDim S4x128 ![] bcast_S_S4x128 : (⟨S_, .i32⟩ : BufTy).Contents (Elt F) → (⟨S4x128, .i32⟩ : BufTy).Contents (Elt F)),
    binary main_v204 main_v308 main_v309 (addi : (⟨S4x128, .i32⟩ : BufTy).Contents (Elt F) → (⟨S4x128, .i32⟩ : BufTy).Contents (Elt F) → (⟨S4x128, .i32⟩ : BufTy).Contents (Elt F)),
    ternary main_v307 main_v309 main_v204 main_v310 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)),
    unary main_v285 main_v311 (broadcastInDim S4x128 ![0, 1] bcast_S4x1_S4x128_0_1 : (⟨S4x1, .i32⟩ : BufTy).Contents (Elt F) → (⟨S4x128, .i32⟩ : BufTy).Contents (Elt F)),
    unary main_v311 main_v312 (broadcastInDim S4x128x1 ![0, 1] bcast_S4x128_S4x128x1_0_1 : (⟨S4x128, .i32⟩ : BufTy).Contents (Elt F) → (⟨S4x128x1, .i32⟩ : BufTy).Contents (Elt F)),
    unary main_v290 main_v313 (broadcastInDim S4x128x1 ![0, 1] bcast_S4x128_S4x128x1_0_1 : (⟨S4x128, .i32⟩ : BufTy).Contents (Elt F) → (⟨S4x128x1, .i32⟩ : BufTy).Contents (Elt F)),
    unary main_v295 main_v314 (broadcastInDim S4x128x1 ![0, 1] bcast_S4x128_S4x128x1_0_1 : (⟨S4x128, .i32⟩ : BufTy).Contents (Elt F) → (⟨S4x128x1, .i32⟩ : BufTy).Contents (Elt F)),
    unary main_v300 main_v315 (broadcastInDim S4x128x1 ![0, 1] bcast_S4x128_S4x128x1_0_1 : (⟨S4x128, .i32⟩ : BufTy).Contents (Elt F) → (⟨S4x128x1, .i32⟩ : BufTy).Contents (Elt F)),
    unary main_v305 main_v316 (broadcastInDim S4x128x1 ![0, 1] bcast_S4x128_S4x128x1_0_1 : (⟨S4x128, .i32⟩ : BufTy).Contents (Elt F) → (⟨S4x128x1, .i32⟩ : BufTy).Contents (Elt F)),
    unary main_v310 main_v317 (broadcastInDim S4x128x1 ![0, 1] bcast_S4x128_S4x128x1_0_1 : (⟨S4x128, .i32⟩ : BufTy).Contents (Elt F) → (⟨S4x128x1, .i32⟩ : BufTy).Contents (Elt F)),
    nary ![main_v312, main_v313, main_v314, main_v315, main_v316, main_v317] main_v318 (fun u => concatenate S4x128x6 2 [⟨S4x128x1, u 0⟩, ⟨S4x128x1, u 1⟩, ⟨S4x128x1, u 2⟩, ⟨S4x128x1, u 3⟩, ⟨S4x128x1, u 4⟩, ⟨S4x128x1, u 5⟩] concatenates_S4x128x1_S4x128x1_S4x128x1_S4x128x1_S4x128x1_S4x128x1_S4x128x6_d2),
    binary main_v170 main_v318 main_v319 ((fun x i => Host.gather gather_S4x3x3x32x32x32_S4x128x6_S4x128_n_012345_n_n_012345_2_111111 x i) : (⟨S4x3x3x32x32x32, .f32⟩ : BufTy).Contents (Elt F) → (⟨S4x128x6, .i32⟩ : BufTy).Contents (Elt F) → (⟨S4x128, .f32⟩ : BufTy).Contents (Elt F)),
    nullary main_cst_87 (constant S_ .f32 0x3F800000#32),
    unary main_cst_87 main_v320 (broadcastInDim S4x128 ![] bcast_S_S4x128 : (⟨S_, .f32⟩ : BufTy).Contents (Elt F) → (⟨S4x128, .f32⟩ : BufTy).Contents (Elt F)),
    binary main_v320 main_v280 main_v321 (subf : (⟨S4x128, .f32⟩ : BufTy).Contents (Elt F) → (⟨S4x128, .f32⟩ : BufTy).Contents (Elt F) → (⟨S4x128, .f32⟩ : BufTy).Contents (Elt F)),
    binary main_v321 main_v321 main_v322 (mulf : (⟨S4x128, .f32⟩ : BufTy).Contents (Elt F) → (⟨S4x128, .f32⟩ : BufTy).Contents (Elt F) → (⟨S4x128, .f32⟩ : BufTy).Contents (Elt F)),
    nullary main_c_88 (constantI S_ 32 0#32),
    unary main_c_88 main_v323 (broadcastInDim S4x128 ![] bcast_S_S4x128 : (⟨S_, .i32⟩ : BufTy).Contents (Elt F) → (⟨S4x128, .i32⟩ : BufTy).Contents (Elt F)),
    binary main_v241 main_v323 main_v324 (cmpi .slt : (⟨S4x128, .i32⟩ : BufTy).Contents (Elt F) → (⟨S4x128, .i32⟩ : BufTy).Contents (Elt F) → (⟨S4x128, .i1⟩ : BufTy).Contents (Elt F)),
    nullary main_c_89 (constantI S_ 32 3#32),
    unary main_c_89 main_v325 (broadcastInDim S4x128 ![] bcast_S_S4x128 : (⟨S_, .i32⟩ : BufTy).Contents (Elt F) → (⟨S4x128, .i32⟩ : BufTy).Contents (Elt F)),
    binary main_v241 main_v325 main_v326 (addi : (⟨S4x128, .i32⟩ : BufTy).Contents (Elt F) → (⟨S4x128, .i32⟩ : BufTy).Contents (Elt F) → (⟨S4x128, .i32⟩ : BufTy).Contents (Elt F)),
    ternary main_v324 main_v326 main_v241 main_v327 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F)) ]

set_option maxRecDepth 8192 in
theorem ops_p6_sub : (ops_p6 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩
set_option maxRecDepth 8192 in
theorem ops_p6_fresh : ∀ op ∈ (ops_p6 : List (HloOp τ sig (Elt F))), op.fresh = ∅ := by
  intro _ h; (repeat (cases h with | head => rfl | tail _ h => ?_)); exact nomatch h

set_option maxRecDepth 8192 in
set_option maxHeartbeats 4000000 in
theorem main_part6_eq (c : Dev nD) : main_part6 (F := F) c = seq ops_p6 := rfl

def I6_398 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v280) = ReadP.val_main_v280 (F := F) x1 x3 x5 ∧ V (Proc.devRef .tc main_v281) = ReadP.val_main_v281 (F := F)
def I6_399 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v280) = ReadP.val_main_v280 (F := F) x1 x3 x5 ∧ V (Proc.devRef .tc main_v282) = ReadP.val_main_v282 (F := F)
def I6_400 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v280) = ReadP.val_main_v280 (F := F) x1 x3 x5 ∧ V (Proc.devRef .tc main_v282) = ReadP.val_main_v282 (F := F) ∧ V (Proc.devRef .tc main_c_76) = ReadP.val_main_c_76 (F := F)
def I6_401 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v280) = ReadP.val_main_v280 (F := F) x1 x3 x5 ∧ V (Proc.devRef .tc main_v282) = ReadP.val_main_v282 (F := F) ∧ V (Proc.devRef .tc main_v283) = ReadP.val_main_v283 (F := F)
def I6_402 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v206) = ReadP.val_main_v206 (F := F) ∧ V (Proc.devRef .tc main_v241) = ReadP.val_main_v241 (F := F) x3 x5 ∧ V (Proc.devRef .tc main_v280) = ReadP.val_main_v280 (F := F) x1 x3 x5 ∧ V (Proc.devRef .tc main_v282) = ReadP.val_main_v282 (F := F) ∧ V (Proc.devRef .tc main_v284) = ReadP.val_main_v284 (F := F)
def I6_403 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F)
def I6_404 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_c_77) = ReadP.val_main_c_77 (F := F)
def I6_405 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v286) = ReadP.val_main_v286 (F := F)
def I6_406 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v287) = ReadP.val_main_v287 (F := F) x3 x5
def I6_407 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v287) = ReadP.val_main_v287 (F := F) x3 x5 ∧ V (Proc.devRef .tc main_c_78) = ReadP.val_main_c_78 (F := F)
def I6_408 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v287) = ReadP.val_main_v287 (F := F) x3 x5 ∧ V (Proc.devRef .tc main_v288) = ReadP.val_main_v288 (F := F)
def I6_409 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v287) = ReadP.val_main_v287 (F := F) x3 x5 ∧ V (Proc.devRef .tc main_v289) = ReadP.val_main_v289 (F := F) x3 x5
def I6_410 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5
def I6_411 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_c_79) = ReadP.val_main_c_79 (F := F)
def I6_412 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v291) = ReadP.val_main_v291 (F := F)
def I6_413 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v292) = ReadP.val_main_v292 (F := F) x5
def I6_414 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v292) = ReadP.val_main_v292 (F := F) x5 ∧ V (Proc.devRef .tc main_c_80) = ReadP.val_main_c_80 (F := F)
def I6_415 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v292) = ReadP.val_main_v292 (F := F) x5 ∧ V (Proc.devRef .tc main_v293) = ReadP.val_main_v293 (F := F)
def I6_416 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v198) = ReadP.val_main_v198 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v292) = ReadP.val_main_v292 (F := F) x5 ∧ V (Proc.devRef .tc main_v294) = ReadP.val_main_v294 (F := F) x5
def I6_417 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5
def I6_418 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_c_81) = ReadP.val_main_c_81 (F := F)
def I6_419 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v296) = ReadP.val_main_v296 (F := F)
def I6_420 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v297) = ReadP.val_main_v297 (F := F) x5
def I6_421 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v297) = ReadP.val_main_v297 (F := F) x5 ∧ V (Proc.devRef .tc main_c_82) = ReadP.val_main_c_82 (F := F)
def I6_422 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v297) = ReadP.val_main_v297 (F := F) x5 ∧ V (Proc.devRef .tc main_v298) = ReadP.val_main_v298 (F := F)
def I6_423 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v200) = ReadP.val_main_v200 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v297) = ReadP.val_main_v297 (F := F) x5 ∧ V (Proc.devRef .tc main_v299) = ReadP.val_main_v299 (F := F) x5
def I6_424 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5
def I6_425 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_c_83) = ReadP.val_main_c_83 (F := F)
def I6_426 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v301) = ReadP.val_main_v301 (F := F)
def I6_427 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v302) = ReadP.val_main_v302 (F := F) x5
def I6_428 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v302) = ReadP.val_main_v302 (F := F) x5 ∧ V (Proc.devRef .tc main_c_84) = ReadP.val_main_c_84 (F := F)
def I6_429 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v302) = ReadP.val_main_v302 (F := F) x5 ∧ V (Proc.devRef .tc main_v303) = ReadP.val_main_v303 (F := F)
def I6_430 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v202) = ReadP.val_main_v202 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v302) = ReadP.val_main_v302 (F := F) x5 ∧ V (Proc.devRef .tc main_v304) = ReadP.val_main_v304 (F := F) x5
def I6_431 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v305) = ReadP.val_main_v305 (F := F) x5
def I6_432 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v305) = ReadP.val_main_v305 (F := F) x5 ∧ V (Proc.devRef .tc main_c_85) = ReadP.val_main_c_85 (F := F)
def I6_433 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v305) = ReadP.val_main_v305 (F := F) x5 ∧ V (Proc.devRef .tc main_v306) = ReadP.val_main_v306 (F := F)
def I6_434 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v305) = ReadP.val_main_v305 (F := F) x5 ∧ V (Proc.devRef .tc main_v307) = ReadP.val_main_v307 (F := F) x5
def I6_435 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v305) = ReadP.val_main_v305 (F := F) x5 ∧ V (Proc.devRef .tc main_v307) = ReadP.val_main_v307 (F := F) x5 ∧ V (Proc.devRef .tc main_c_86) = ReadP.val_main_c_86 (F := F)
def I6_436 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v305) = ReadP.val_main_v305 (F := F) x5 ∧ V (Proc.devRef .tc main_v307) = ReadP.val_main_v307 (F := F) x5 ∧ V (Proc.devRef .tc main_v308) = ReadP.val_main_v308 (F := F)
def I6_437 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v204) = ReadP.val_main_v204 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v305) = ReadP.val_main_v305 (F := F) x5 ∧ V (Proc.devRef .tc main_v307) = ReadP.val_main_v307 (F := F) x5 ∧ V (Proc.devRef .tc main_v309) = ReadP.val_main_v309 (F := F) x5
def I6_438 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v280) = ReadP.val_main_v280 (F := F) x1 x3 x5 ∧ V (Proc.devRef .tc main_v285) = ReadP.val_main_v285 (F := F) ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v305) = ReadP.val_main_v305 (F := F) x5 ∧ V (Proc.devRef .tc main_v310) = ReadP.val_main_v310 (F := F) x5
def I6_439 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v280) = ReadP.val_main_v280 (F := F) x1 x3 x5 ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v305) = ReadP.val_main_v305 (F := F) x5 ∧ V (Proc.devRef .tc main_v310) = ReadP.val_main_v310 (F := F) x5 ∧ V (Proc.devRef .tc main_v311) = ReadP.val_main_v311 (F := F)
def I6_440 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v280) = ReadP.val_main_v280 (F := F) x1 x3 x5 ∧ V (Proc.devRef .tc main_v290) = ReadP.val_main_v290 (F := F) x3 x5 ∧ V (Proc.devRef .tc main_v295) = ReadP.val_main_v295 (F := F) x5 ∧ V (Proc.devRef .tc main_v300) = ReadP.val_main_v300 (F := F) x5 ∧ V (Proc.devRef .tc main_v305) = ReadP.val_main_v305 (F := F) x5 ∧ V (Proc.devRef .tc main_v310) = ReadP.val_main_v310 (F := F) x5 ∧ V (Proc.devRef .tc main_v312) = ReadP.val_main_v312 (F := F)
def I6_441 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v280) = ReadP.val_main_v280 (F := F) x1 x3 x5 ∧ V (Proc.devRef .tc main_v295) = ReadP.val_main_v295 (F := F) x5 ∧ V (Proc.devRef .tc main_v300) = ReadP.val_main_v300 (F := F) x5 ∧ V (Proc.devRef .tc main_v305) = ReadP.val_main_v305 (F := F) x5 ∧ V (Proc.devRef .tc main_v310) = ReadP.val_main_v310 (F := F) x5 ∧ V (Proc.devRef .tc main_v312) = ReadP.val_main_v312 (F := F) ∧ V (Proc.devRef .tc main_v313) = ReadP.val_main_v313 (F := F) x3 x5
def I6_442 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v280) = ReadP.val_main_v280 (F := F) x1 x3 x5 ∧ V (Proc.devRef .tc main_v300) = ReadP.val_main_v300 (F := F) x5 ∧ V (Proc.devRef .tc main_v305) = ReadP.val_main_v305 (F := F) x5 ∧ V (Proc.devRef .tc main_v310) = ReadP.val_main_v310 (F := F) x5 ∧ V (Proc.devRef .tc main_v312) = ReadP.val_main_v312 (F := F) ∧ V (Proc.devRef .tc main_v313) = ReadP.val_main_v313 (F := F) x3 x5 ∧ V (Proc.devRef .tc main_v314) = ReadP.val_main_v314 (F := F) x5
def I6_443 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v280) = ReadP.val_main_v280 (F := F) x1 x3 x5 ∧ V (Proc.devRef .tc main_v305) = ReadP.val_main_v305 (F := F) x5 ∧ V (Proc.devRef .tc main_v310) = ReadP.val_main_v310 (F := F) x5 ∧ V (Proc.devRef .tc main_v312) = ReadP.val_main_v312 (F := F) ∧ V (Proc.devRef .tc main_v313) = ReadP.val_main_v313 (F := F) x3 x5 ∧ V (Proc.devRef .tc main_v314) = ReadP.val_main_v314 (F := F) x5 ∧ V (Proc.devRef .tc main_v315) = ReadP.val_main_v315 (F := F) x5
def I6_444 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v280) = ReadP.val_main_v280 (F := F) x1 x3 x5 ∧ V (Proc.devRef .tc main_v310) = ReadP.val_main_v310 (F := F) x5 ∧ V (Proc.devRef .tc main_v312) = ReadP.val_main_v312 (F := F) ∧ V (Proc.devRef .tc main_v313) = ReadP.val_main_v313 (F := F) x3 x5 ∧ V (Proc.devRef .tc main_v314) = ReadP.val_main_v314 (F := F) x5 ∧ V (Proc.devRef .tc main_v315) = ReadP.val_main_v315 (F := F) x5 ∧ V (Proc.devRef .tc main_v316) = ReadP.val_main_v316 (F := F) x5
def I6_445 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v280) = ReadP.val_main_v280 (F := F) x1 x3 x5 ∧ V (Proc.devRef .tc main_v312) = ReadP.val_main_v312 (F := F) ∧ V (Proc.devRef .tc main_v313) = ReadP.val_main_v313 (F := F) x3 x5 ∧ V (Proc.devRef .tc main_v314) = ReadP.val_main_v314 (F := F) x5 ∧ V (Proc.devRef .tc main_v315) = ReadP.val_main_v315 (F := F) x5 ∧ V (Proc.devRef .tc main_v316) = ReadP.val_main_v316 (F := F) x5 ∧ V (Proc.devRef .tc main_v317) = ReadP.val_main_v317 (F := F) x5
def I6_446 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v170) = ReadP.val_main_v170 (F := F) x1 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v280) = ReadP.val_main_v280 (F := F) x1 x3 x5 ∧ V (Proc.devRef .tc main_v318) = ReadP.val_main_v318 (F := F) x3 x5
def I6_447 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v280) = ReadP.val_main_v280 (F := F) x1 x3 x5 ∧ V (Proc.devRef .tc main_v319) = ReadP.val_main_v319 (F := F) x1 x3 x5
def I6_448 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v280) = ReadP.val_main_v280 (F := F) x1 x3 x5 ∧ V (Proc.devRef .tc main_v319) = ReadP.val_main_v319 (F := F) x1 x3 x5 ∧ V (Proc.devRef .tc main_cst_87) = ReadP.val_main_cst_87 (F := F)
def I6_449 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v280) = ReadP.val_main_v280 (F := F) x1 x3 x5 ∧ V (Proc.devRef .tc main_v319) = ReadP.val_main_v319 (F := F) x1 x3 x5 ∧ V (Proc.devRef .tc main_v320) = ReadP.val_main_v320 (F := F)
def I6_450 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v319) = ReadP.val_main_v319 (F := F) x1 x3 x5 ∧ V (Proc.devRef .tc main_v321) = ReadP.val_main_v321 (F := F) x1 x3 x5
def I6_451 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v319) = ReadP.val_main_v319 (F := F) x1 x3 x5 ∧ V (Proc.devRef .tc main_v322) = ReadP.val_main_v322 (F := F) x1 x3 x5
def I6_452 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v319) = ReadP.val_main_v319 (F := F) x1 x3 x5 ∧ V (Proc.devRef .tc main_v322) = ReadP.val_main_v322 (F := F) x1 x3 x5 ∧ V (Proc.devRef .tc main_c_88) = ReadP.val_main_c_88 (F := F)
def I6_453 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v319) = ReadP.val_main_v319 (F := F) x1 x3 x5 ∧ V (Proc.devRef .tc main_v322) = ReadP.val_main_v322 (F := F) x1 x3 x5 ∧ V (Proc.devRef .tc main_v323) = ReadP.val_main_v323 (F := F)
def I6_454 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v319) = ReadP.val_main_v319 (F := F) x1 x3 x5 ∧ V (Proc.devRef .tc main_v322) = ReadP.val_main_v322 (F := F) x1 x3 x5 ∧ V (Proc.devRef .tc main_v324) = ReadP.val_main_v324 (F := F) x3 x5
def I6_455 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v319) = ReadP.val_main_v319 (F := F) x1 x3 x5 ∧ V (Proc.devRef .tc main_v322) = ReadP.val_main_v322 (F := F) x1 x3 x5 ∧ V (Proc.devRef .tc main_v324) = ReadP.val_main_v324 (F := F) x3 x5 ∧ V (Proc.devRef .tc main_c_89) = ReadP.val_main_c_89 (F := F)
def I6_456 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v319) = ReadP.val_main_v319 (F := F) x1 x3 x5 ∧ V (Proc.devRef .tc main_v322) = ReadP.val_main_v322 (F := F) x1 x3 x5 ∧ V (Proc.devRef .tc main_v324) = ReadP.val_main_v324 (F := F) x3 x5 ∧ V (Proc.devRef .tc main_v325) = ReadP.val_main_v325 (F := F)
def I6_457 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v241) = ReadP.val_main_v241 (F := F) x3 x5 ∧ V (Proc.devRef .tc main_v319) = ReadP.val_main_v319 (F := F) x1 x3 x5 ∧ V (Proc.devRef .tc main_v322) = ReadP.val_main_v322 (F := F) x1 x3 x5 ∧ V (Proc.devRef .tc main_v324) = ReadP.val_main_v324 (F := F) x3 x5 ∧ V (Proc.devRef .tc main_v326) = ReadP.val_main_v326 (F := F) x3 x5
def I6_458 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v319) = ReadP.val_main_v319 (F := F) x1 x3 x5 ∧ V (Proc.devRef .tc main_v322) = ReadP.val_main_v322 (F := F) x1 x3 x5 ∧ V (Proc.devRef .tc main_v327) = ReadP.val_main_v327 (F := F) x3 x5

theorem s398 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_398 V x0 x1 x2 x3 x4 x5 x6 → I6_399 ((binary main_v206 main_v281 main_v282 (cmpi .slt : (⟨S4x1, .i32⟩ : BufTy).Contents (Elt F) → (⟨S4x1, .i32⟩ : BufTy).Contents (Elt F) → (⟨S4x1, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v206, h_main_v241, h_main_v280, h_main_v281⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v280,
    by after_results_simp; (try simp only [TRef.ofBuf, TRef.toBuf, cast_eq]); rw [h_main_v206, h_main_v281]; rfl⟩
theorem s399 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_399 V x0 x1 x2 x3 x4 x5 x6 → I6_400 ((nullary main_c_76 (constantI S_ 32 4#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v206, h_main_v241, h_main_v280, h_main_v282⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v280,
    by after_results_simp; exact h_main_v282,
    by after_results_simp; (try simp only [TRef.ofBuf, TRef.toBuf, cast_eq]); rfl⟩
theorem s400 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_400 V x0 x1 x2 x3 x4 x5 x6 → I6_401 ((unary main_c_76 main_v283 (broadcastInDim S4x1 ![] bcast_S_S4x1 : (⟨S_, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v206, h_main_v241, h_main_v280, h_main_v282, h_main_c_76⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v280,
    by after_results_simp; exact h_main_v282,
    by after_results_simp; (try simp only [TRef.ofBuf, TRef.toBuf, cast_eq]); rw [h_main_c_76]; rfl⟩
theorem s401 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_401 V x0 x1 x2 x3 x4 x5 x6 → I6_402 ((binary main_v206 main_v283 main_v284 (addi : (⟨S4x1, .i32⟩ : BufTy).Contents (Elt F) → (⟨S4x1, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v206, h_main_v241, h_main_v280, h_main_v282, h_main_v283⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v206,
    by after_results_simp; exact h_main_v241,
    by after_results_simp; exact h_main_v280,
    by after_results_simp; exact h_main_v282,
    by after_results_simp; (try simp only [TRef.ofBuf, TRef.toBuf, cast_eq]); rw [h_main_v206, h_main_v283]; rfl⟩
theorem s402 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_402 V x0 x1 x2 x3 x4 x5 x6 → I6_403 ((ternary main_v282 main_v284 main_v206 main_v285 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v206, h_main_v241, h_main_v280, h_main_v282, h_main_v284⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; (try simp only [TRef.ofBuf, TRef.toBuf, cast_eq]); rw [h_main_v282, h_main_v284, h_main_v206]; rfl⟩
theorem s403 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_403 V x0 x1 x2 x3 x4 x5 x6 → I6_404 ((nullary main_c_77 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; (try simp only [TRef.ofBuf, TRef.toBuf, cast_eq]); rfl⟩
theorem s404 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_404 V x0 x1 x2 x3 x4 x5 x6 → I6_405 ((unary main_c_77 main_v286 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_c_77⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; (try simp only [TRef.ofBuf, TRef.toBuf, cast_eq]); rw [h_main_c_77]; rfl⟩
theorem s405 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_405 V x0 x1 x2 x3 x4 x5 x6 → I6_406 ((binary main_v241 main_v286 main_v287 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_v286⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; (try simp only [TRef.ofBuf, TRef.toBuf, cast_eq]); rw [h_main_v241, h_main_v286]; rfl⟩
theorem s406 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_406 V x0 x1 x2 x3 x4 x5 x6 → I6_407 ((nullary main_c_78 (constantI S_ 32 3#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_v287⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v287,
    by after_results_simp; (try simp only [TRef.ofBuf, TRef.toBuf, cast_eq]); rfl⟩
theorem s407 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_407 V x0 x1 x2 x3 x4 x5 x6 → I6_408 ((unary main_c_78 main_v288 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_v287, h_main_c_78⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v287,
    by after_results_simp; (try simp only [TRef.ofBuf, TRef.toBuf, cast_eq]); rw [h_main_c_78]; rfl⟩
theorem s408 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_408 V x0 x1 x2 x3 x4 x5 x6 → I6_409 ((binary main_v241 main_v288 main_v289 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_v287, h_main_v288⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v287,
    by after_results_simp; (try simp only [TRef.ofBuf, TRef.toBuf, cast_eq]); rw [h_main_v241, h_main_v288]; rfl⟩
theorem s409 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_409 V x0 x1 x2 x3 x4 x5 x6 → I6_410 ((ternary main_v287 main_v289 main_v241 main_v290 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_v287, h_main_v289⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; (try simp only [TRef.ofBuf, TRef.toBuf, cast_eq]); rw [h_main_v287, h_main_v289, h_main_v241]; rfl⟩
theorem s410 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_410 V x0 x1 x2 x3 x4 x5 x6 → I6_411 ((nullary main_c_79 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_v290⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; (try simp only [TRef.ofBuf, TRef.toBuf, cast_eq]); rfl⟩
theorem s411 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_411 V x0 x1 x2 x3 x4 x5 x6 → I6_412 ((unary main_c_79 main_v291 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_v290, h_main_c_79⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; (try simp only [TRef.ofBuf, TRef.toBuf, cast_eq]); rw [h_main_c_79]; rfl⟩
theorem s412 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_412 V x0 x1 x2 x3 x4 x5 x6 → I6_413 ((binary main_v198 main_v291 main_v292 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_v290, h_main_v291⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; (try simp only [TRef.ofBuf, TRef.toBuf, cast_eq]); rw [h_main_v198, h_main_v291]; rfl⟩
theorem s413 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_413 V x0 x1 x2 x3 x4 x5 x6 → I6_414 ((nullary main_c_80 (constantI S_ 32 3#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_v290, h_main_v292⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v292,
    by after_results_simp; (try simp only [TRef.ofBuf, TRef.toBuf, cast_eq]); rfl⟩
theorem s414 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_414 V x0 x1 x2 x3 x4 x5 x6 → I6_415 ((unary main_c_80 main_v293 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_v290, h_main_v292, h_main_c_80⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v292,
    by after_results_simp; (try simp only [TRef.ofBuf, TRef.toBuf, cast_eq]); rw [h_main_c_80]; rfl⟩
theorem s415 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_415 V x0 x1 x2 x3 x4 x5 x6 → I6_416 ((binary main_v198 main_v293 main_v294 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_v290, h_main_v292, h_main_v293⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v198,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v292,
    by after_results_simp; (try simp only [TRef.ofBuf, TRef.toBuf, cast_eq]); rw [h_main_v198, h_main_v293]; rfl⟩
theorem s416 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_416 V x0 x1 x2 x3 x4 x5 x6 → I6_417 ((ternary main_v292 main_v294 main_v198 main_v295 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v198, h_main_v200, h_main_v202, h_main_v204, h_main_v241, h_main_v280, h_main_v285, h_main_v290, h_main_v292, h_main_v294⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; (try simp only [TRef.ofBuf, TRef.toBuf, cast_eq]); rw [h_main_v292, h_main_v294, h_main_v198]; rfl⟩
theorem s417 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_417 V x0 x1 x2 x3 x4 x5 x6 → I6_418 ((nullary main_c_81 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v200, h_main_v202, h_main_v204, h_main_v241, h_main_v280, h_main_v285, h_main_v290, h_main_v295⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; (try simp only [TRef.ofBuf, TRef.toBuf, cast_eq]); rfl⟩
theorem s418 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_418 V x0 x1 x2 x3 x4 x5 x6 → I6_419 ((unary main_c_81 main_v296 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v200, h_main_v202, h_main_v204, h_main_v241, h_main_v280, h_main_v285, h_main_v290, h_main_v295, h_main_c_81⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; (try simp only [TRef.ofBuf, TRef.toBuf, cast_eq]); rw [h_main_c_81]; rfl⟩
theorem s419 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_419 V x0 x1 x2 x3 x4 x5 x6 → I6_420 ((binary main_v200 main_v296 main_v297 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v200, h_main_v202, h_main_v204, h_main_v241, h_main_v280, h_main_v285, h_main_v290, h_main_v295, h_main_v296⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; (try simp only [TRef.ofBuf, TRef.toBuf, cast_eq]); rw [h_main_v200, h_main_v296]; rfl⟩
theorem s420 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_420 V x0 x1 x2 x3 x4 x5 x6 → I6_421 ((nullary main_c_82 (constantI S_ 32 32#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v200, h_main_v202, h_main_v204, h_main_v241, h_main_v280, h_main_v285, h_main_v290, h_main_v295, h_main_v297⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v297,
    by after_results_simp; (try simp only [TRef.ofBuf, TRef.toBuf, cast_eq]); rfl⟩
theorem s421 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_421 V x0 x1 x2 x3 x4 x5 x6 → I6_422 ((unary main_c_82 main_v298 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v200, h_main_v202, h_main_v204, h_main_v241, h_main_v280, h_main_v285, h_main_v290, h_main_v295, h_main_v297, h_main_c_82⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v297,
    by after_results_simp; (try simp only [TRef.ofBuf, TRef.toBuf, cast_eq]); rw [h_main_c_82]; rfl⟩
theorem s422 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_422 V x0 x1 x2 x3 x4 x5 x6 → I6_423 ((binary main_v200 main_v298 main_v299 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v200, h_main_v202, h_main_v204, h_main_v241, h_main_v280, h_main_v285, h_main_v290, h_main_v295, h_main_v297, h_main_v298⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v200,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v297,
    by after_results_simp; (try simp only [TRef.ofBuf, TRef.toBuf, cast_eq]); rw [h_main_v200, h_main_v298]; rfl⟩
theorem s423 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_423 V x0 x1 x2 x3 x4 x5 x6 → I6_424 ((ternary main_v297 main_v299 main_v200 main_v300 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v200, h_main_v202, h_main_v204, h_main_v241, h_main_v280, h_main_v285, h_main_v290, h_main_v295, h_main_v297, h_main_v299⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; (try simp only [TRef.ofBuf, TRef.toBuf, cast_eq]); rw [h_main_v297, h_main_v299, h_main_v200]; rfl⟩
theorem s424 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_424 V x0 x1 x2 x3 x4 x5 x6 → I6_425 ((nullary main_c_83 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v202, h_main_v204, h_main_v241, h_main_v280, h_main_v285, h_main_v290, h_main_v295, h_main_v300⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; (try simp only [TRef.ofBuf, TRef.toBuf, cast_eq]); rfl⟩
theorem s425 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_425 V x0 x1 x2 x3 x4 x5 x6 → I6_426 ((unary main_c_83 main_v301 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v202, h_main_v204, h_main_v241, h_main_v280, h_main_v285, h_main_v290, h_main_v295, h_main_v300, h_main_c_83⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; (try simp only [TRef.ofBuf, TRef.toBuf, cast_eq]); rw [h_main_c_83]; rfl⟩
theorem s426 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_426 V x0 x1 x2 x3 x4 x5 x6 → I6_427 ((binary main_v202 main_v301 main_v302 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v202, h_main_v204, h_main_v241, h_main_v280, h_main_v285, h_main_v290, h_main_v295, h_main_v300, h_main_v301⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; (try simp only [TRef.ofBuf, TRef.toBuf, cast_eq]); rw [h_main_v202, h_main_v301]; rfl⟩
theorem s427 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_427 V x0 x1 x2 x3 x4 x5 x6 → I6_428 ((nullary main_c_84 (constantI S_ 32 32#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v202, h_main_v204, h_main_v241, h_main_v280, h_main_v285, h_main_v290, h_main_v295, h_main_v300, h_main_v302⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; exact h_main_v302,
    by after_results_simp; (try simp only [TRef.ofBuf, TRef.toBuf, cast_eq]); rfl⟩
theorem s428 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_428 V x0 x1 x2 x3 x4 x5 x6 → I6_429 ((unary main_c_84 main_v303 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v202, h_main_v204, h_main_v241, h_main_v280, h_main_v285, h_main_v290, h_main_v295, h_main_v300, h_main_v302, h_main_c_84⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; exact h_main_v302,
    by after_results_simp; (try simp only [TRef.ofBuf, TRef.toBuf, cast_eq]); rw [h_main_c_84]; rfl⟩
theorem s429 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_429 V x0 x1 x2 x3 x4 x5 x6 → I6_430 ((binary main_v202 main_v303 main_v304 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v202, h_main_v204, h_main_v241, h_main_v280, h_main_v285, h_main_v290, h_main_v295, h_main_v300, h_main_v302, h_main_v303⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v202,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; exact h_main_v302,
    by after_results_simp; (try simp only [TRef.ofBuf, TRef.toBuf, cast_eq]); rw [h_main_v202, h_main_v303]; rfl⟩
theorem s430 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_430 V x0 x1 x2 x3 x4 x5 x6 → I6_431 ((ternary main_v302 main_v304 main_v202 main_v305 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v202, h_main_v204, h_main_v241, h_main_v280, h_main_v285, h_main_v290, h_main_v295, h_main_v300, h_main_v302, h_main_v304⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; (try simp only [TRef.ofBuf, TRef.toBuf, cast_eq]); rw [h_main_v302, h_main_v304, h_main_v202]; rfl⟩
theorem s431 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_431 V x0 x1 x2 x3 x4 x5 x6 → I6_432 ((nullary main_c_85 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v204, h_main_v241, h_main_v280, h_main_v285, h_main_v290, h_main_v295, h_main_v300, h_main_v305⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; exact h_main_v305,
    by after_results_simp; (try simp only [TRef.ofBuf, TRef.toBuf, cast_eq]); rfl⟩
theorem s432 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_432 V x0 x1 x2 x3 x4 x5 x6 → I6_433 ((unary main_c_85 main_v306 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v204, h_main_v241, h_main_v280, h_main_v285, h_main_v290, h_main_v295, h_main_v300, h_main_v305, h_main_c_85⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; exact h_main_v305,
    by after_results_simp; (try simp only [TRef.ofBuf, TRef.toBuf, cast_eq]); rw [h_main_c_85]; rfl⟩
theorem s433 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_433 V x0 x1 x2 x3 x4 x5 x6 → I6_434 ((binary main_v204 main_v306 main_v307 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v204, h_main_v241, h_main_v280, h_main_v285, h_main_v290, h_main_v295, h_main_v300, h_main_v305, h_main_v306⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; exact h_main_v305,
    by after_results_simp; (try simp only [TRef.ofBuf, TRef.toBuf, cast_eq]); rw [h_main_v204, h_main_v306]; rfl⟩
theorem s434 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_434 V x0 x1 x2 x3 x4 x5 x6 → I6_435 ((nullary main_c_86 (constantI S_ 32 32#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v204, h_main_v241, h_main_v280, h_main_v285, h_main_v290, h_main_v295, h_main_v300, h_main_v305, h_main_v307⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; exact h_main_v305,
    by after_results_simp; exact h_main_v307,
    by after_results_simp; (try simp only [TRef.ofBuf, TRef.toBuf, cast_eq]); rfl⟩
theorem s435 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_435 V x0 x1 x2 x3 x4 x5 x6 → I6_436 ((unary main_c_86 main_v308 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v204, h_main_v241, h_main_v280, h_main_v285, h_main_v290, h_main_v295, h_main_v300, h_main_v305, h_main_v307, h_main_c_86⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; exact h_main_v305,
    by after_results_simp; exact h_main_v307,
    by after_results_simp; (try simp only [TRef.ofBuf, TRef.toBuf, cast_eq]); rw [h_main_c_86]; rfl⟩
theorem s436 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_436 V x0 x1 x2 x3 x4 x5 x6 → I6_437 ((binary main_v204 main_v308 main_v309 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v204, h_main_v241, h_main_v280, h_main_v285, h_main_v290, h_main_v295, h_main_v300, h_main_v305, h_main_v307, h_main_v308⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v204,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; exact h_main_v305,
    by after_results_simp; exact h_main_v307,
    by after_results_simp; (try simp only [TRef.ofBuf, TRef.toBuf, cast_eq]); rw [h_main_v204, h_main_v308]; rfl⟩
theorem s437 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_437 V x0 x1 x2 x3 x4 x5 x6 → I6_438 ((ternary main_v307 main_v309 main_v204 main_v310 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v204, h_main_v241, h_main_v280, h_main_v285, h_main_v290, h_main_v295, h_main_v300, h_main_v305, h_main_v307, h_main_v309⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v241,
    by after_results_simp; exact h_main_v280,
    by after_results_simp; exact h_main_v285,
    by after_results_simp; exact h_main_v290,
    by after_results_simp; exact h_main_v295,
    by after_results_simp; exact h_main_v300,
    by after_results_simp; exact h_main_v305,
    by after_results_simp; (try simp only [TRef.ofBuf, TRef.toBuf, cast_eq]); rw [h_main_v307, h_main_v309, h_main_v204]; rfl⟩
theorem s438 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_438 V x0 x1 x2 x3 x4 x5 x6 → I6_439 ((unary main_v285 main_v311 (broadcastInDim S4x128 ![0, 1] bcast_S4x1_S4x128_0_1 : (⟨S4x1, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v241, h_main_v280, h_main_v285, h_main_v290, h_main_v295, h_main_v300, h_main_v305, h_main_v310⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v241,
    by after_results_simp; exact h_main_v280,
    by after_results_simp; exact h_main_v290,
    by after_results_simp; exact h_main_v295,
    by after_results_simp; exact h_main_v300,
    by after_results_simp; exact h_main_v305,
    by after_results_simp; exact h_main_v310,
    by after_results_simp; (try simp only [TRef.ofBuf, TRef.toBuf, cast_eq]); rw [h_main_v285]; rfl⟩
theorem s439 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_439 V x0 x1 x2 x3 x4 x5 x6 → I6_440 ((unary main_v311 main_v312 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v241, h_main_v280, h_main_v290, h_main_v295, h_main_v300, h_main_v305, h_main_v310, h_main_v311⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v241,
    by after_results_simp; exact h_main_v280,
    by after_results_simp; exact h_main_v290,
    by after_results_simp; exact h_main_v295,
    by after_results_simp; exact h_main_v300,
    by after_results_simp; exact h_main_v305,
    by after_results_simp; exact h_main_v310,
    by after_results_simp; (try simp only [TRef.ofBuf, TRef.toBuf, cast_eq]); rw [h_main_v311]; rfl⟩
theorem s440 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_440 V x0 x1 x2 x3 x4 x5 x6 → I6_441 ((unary main_v290 main_v313 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v241, h_main_v280, h_main_v290, h_main_v295, h_main_v300, h_main_v305, h_main_v310, h_main_v312⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v241,
    by after_results_simp; exact h_main_v280,
    by after_results_simp; exact h_main_v295,
    by after_results_simp; exact h_main_v300,
    by after_results_simp; exact h_main_v305,
    by after_results_simp; exact h_main_v310,
    by after_results_simp; exact h_main_v312,
    by after_results_simp; (try simp only [TRef.ofBuf, TRef.toBuf, cast_eq]); rw [h_main_v290]; rfl⟩
theorem s441 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_441 V x0 x1 x2 x3 x4 x5 x6 → I6_442 ((unary main_v295 main_v314 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v241, h_main_v280, h_main_v295, h_main_v300, h_main_v305, h_main_v310, h_main_v312, h_main_v313⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v241,
    by after_results_simp; exact h_main_v280,
    by after_results_simp; exact h_main_v300,
    by after_results_simp; exact h_main_v305,
    by after_results_simp; exact h_main_v310,
    by after_results_simp; exact h_main_v312,
    by after_results_simp; exact h_main_v313,
    by after_results_simp; (try simp only [TRef.ofBuf, TRef.toBuf, cast_eq]); rw [h_main_v295]; rfl⟩
theorem s442 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_442 V x0 x1 x2 x3 x4 x5 x6 → I6_443 ((unary main_v300 main_v315 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v241, h_main_v280, h_main_v300, h_main_v305, h_main_v310, h_main_v312, h_main_v313, h_main_v314⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v241,
    by after_results_simp; exact h_main_v280,
    by after_results_simp; exact h_main_v305,
    by after_results_simp; exact h_main_v310,
    by after_results_simp; exact h_main_v312,
    by after_results_simp; exact h_main_v313,
    by after_results_simp; exact h_main_v314,
    by after_results_simp; (try simp only [TRef.ofBuf, TRef.toBuf, cast_eq]); rw [h_main_v300]; rfl⟩
theorem s443 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_443 V x0 x1 x2 x3 x4 x5 x6 → I6_444 ((unary main_v305 main_v316 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v241, h_main_v280, h_main_v305, h_main_v310, h_main_v312, h_main_v313, h_main_v314, h_main_v315⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v241,
    by after_results_simp; exact h_main_v280,
    by after_results_simp; exact h_main_v310,
    by after_results_simp; exact h_main_v312,
    by after_results_simp; exact h_main_v313,
    by after_results_simp; exact h_main_v314,
    by after_results_simp; exact h_main_v315,
    by after_results_simp; (try simp only [TRef.ofBuf, TRef.toBuf, cast_eq]); rw [h_main_v305]; rfl⟩
theorem s444 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_444 V x0 x1 x2 x3 x4 x5 x6 → I6_445 ((unary main_v310 main_v317 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v241, h_main_v280, h_main_v310, h_main_v312, h_main_v313, h_main_v314, h_main_v315, h_main_v316⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v241,
    by after_results_simp; exact h_main_v280,
    by after_results_simp; exact h_main_v312,
    by after_results_simp; exact h_main_v313,
    by after_results_simp; exact h_main_v314,
    by after_results_simp; exact h_main_v315,
    by after_results_simp; exact h_main_v316,
    by after_results_simp; (try simp only [TRef.ofBuf, TRef.toBuf, cast_eq]); rw [h_main_v310]; rfl⟩
theorem s445 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_445 V x0 x1 x2 x3 x4 x5 x6 → I6_446 ((nary ![main_v312, main_v313, main_v314, main_v315, main_v316, main_v317] main_v318 (fun u => concatenate S4x128x6 2 [⟨S4x128x1, u 0⟩, ⟨S4x128x1, u 1⟩, ⟨S4x128x1, u 2⟩, ⟨S4x128x1, u 3⟩, ⟨S4x128x1, u 4⟩, ⟨S4x128x1, u 5⟩] concatenates_S4x128x1_S4x128x1_S4x128x1_S4x128x1_S4x128x1_S4x128x1_S4x128x6_d2)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v241, h_main_v280, h_main_v312, h_main_v313, h_main_v314, h_main_v315, h_main_v316, h_main_v317⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v170,
    by after_results_simp; exact h_main_v189,
    by after_results_simp; exact h_main_v190,
    by after_results_simp; exact h_main_v194,
    by after_results_simp; exact h_main_v241,
    by after_results_simp; exact h_main_v280,
    by after_results_simp; (try simp only [TRef.ofBuf, TRef.toBuf, cast_eq]); dsimp only [Matrix.cons_val]; rw [h_main_v312, h_main_v313, h_main_v314, h_main_v315, h_main_v316, h_main_v317]; rfl⟩
theorem s446 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_446 V x0 x1 x2 x3 x4 x5 x6 → I6_447 ((binary main_v170 main_v318 main_v319 ((fun x i => Host.gather gather_S4x3x3x32x32x32_S4x128x6_S4x128_n_012345_n_n_012345_2_111111 x i) : (⟨S4x3x3x32x32x32, .f32⟩ : BufTy).Contents (Elt F) → (⟨S4x128x6, .i32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v170, h_main_v189, h_main_v190, h_main_v194, h_main_v241, h_main_v280, h_main_v318⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v241,
    by after_results_simp; exact h_main_v280,
    by after_results_simp; (try simp only [TRef.ofBuf, TRef.toBuf, cast_eq]); rw [h_main_v170, h_main_v318]; rfl⟩
theorem s447 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_447 V x0 x1 x2 x3 x4 x5 x6 → I6_448 ((nullary main_cst_87 (constant S_ .f32 0x3F800000#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v241, h_main_v280, h_main_v319⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v241,
    by after_results_simp; exact h_main_v280,
    by after_results_simp; exact h_main_v319,
    by after_results_simp; (try simp only [TRef.ofBuf, TRef.toBuf, cast_eq]); rfl⟩
theorem s448 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_448 V x0 x1 x2 x3 x4 x5 x6 → I6_449 ((unary main_cst_87 main_v320 (broadcastInDim S4x128 ![] bcast_S_S4x128 : (⟨S_, .f32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v241, h_main_v280, h_main_v319, h_main_cst_87⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v241,
    by after_results_simp; exact h_main_v280,
    by after_results_simp; exact h_main_v319,
    by after_results_simp; (try simp only [TRef.ofBuf, TRef.toBuf, cast_eq]); rw [h_main_cst_87]; rfl⟩
theorem s449 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_449 V x0 x1 x2 x3 x4 x5 x6 → I6_450 ((binary main_v320 main_v280 main_v321 (subf : (⟨S4x128, .f32⟩ : BufTy).Contents (Elt F) → (⟨S4x128, .f32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v241, h_main_v280, h_main_v319, h_main_v320⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v241,
    by after_results_simp; exact h_main_v319,
    by after_results_simp; (try simp only [TRef.ofBuf, TRef.toBuf, cast_eq]); rw [h_main_v320, h_main_v280]; rfl⟩
theorem s450 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_450 V x0 x1 x2 x3 x4 x5 x6 → I6_451 ((binary main_v321 main_v321 main_v322 (mulf : (⟨S4x128, .f32⟩ : BufTy).Contents (Elt F) → (⟨S4x128, .f32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v241, h_main_v319, h_main_v321⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v241,
    by after_results_simp; exact h_main_v319,
    by after_results_simp; (try simp only [TRef.ofBuf, TRef.toBuf, cast_eq]); rw [h_main_v321]; rfl⟩
theorem s451 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_451 V x0 x1 x2 x3 x4 x5 x6 → I6_452 ((nullary main_c_88 (constantI S_ 32 0#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v241, h_main_v319, h_main_v322⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v241,
    by after_results_simp; exact h_main_v319,
    by after_results_simp; exact h_main_v322,
    by after_results_simp; (try simp only [TRef.ofBuf, TRef.toBuf, cast_eq]); rfl⟩
theorem s452 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_452 V x0 x1 x2 x3 x4 x5 x6 → I6_453 ((unary main_c_88 main_v323 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v241, h_main_v319, h_main_v322, h_main_c_88⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v241,
    by after_results_simp; exact h_main_v319,
    by after_results_simp; exact h_main_v322,
    by after_results_simp; (try simp only [TRef.ofBuf, TRef.toBuf, cast_eq]); rw [h_main_c_88]; rfl⟩
theorem s453 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_453 V x0 x1 x2 x3 x4 x5 x6 → I6_454 ((binary main_v241 main_v323 main_v324 (cmpi .slt : (⟨S4x128, .i32⟩ : BufTy).Contents (Elt F) → (⟨S4x128, .i32⟩ : BufTy).Contents (Elt F) → (⟨S4x128, .i1⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v241, h_main_v319, h_main_v322, h_main_v323⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v241,
    by after_results_simp; exact h_main_v319,
    by after_results_simp; exact h_main_v322,
    by after_results_simp; (try simp only [TRef.ofBuf, TRef.toBuf, cast_eq]); rw [h_main_v241, h_main_v323]; rfl⟩
theorem s454 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_454 V x0 x1 x2 x3 x4 x5 x6 → I6_455 ((nullary main_c_89 (constantI S_ 32 3#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v241, h_main_v319, h_main_v322, h_main_v324⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v241,
    by after_results_simp; exact h_main_v319,
    by after_results_simp; exact h_main_v322,
    by after_results_simp; exact h_main_v324,
    by after_results_simp; (try simp only [TRef.ofBuf, TRef.toBuf, cast_eq]); rfl⟩
theorem s455 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_455 V x0 x1 x2 x3 x4 x5 x6 → I6_456 ((unary main_c_89 main_v325 (broadcastInDim S4x128 ![] bcast_S_S4x128 : (⟨S_, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v241, h_main_v319, h_main_v322, h_main_v324, h_main_c_89⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v241,
    by after_results_simp; exact h_main_v319,
    by after_results_simp; exact h_main_v322,
    by after_results_simp; exact h_main_v324,
    by after_results_simp; (try simp only [TRef.ofBuf, TRef.toBuf, cast_eq]); rw [h_main_c_89]; rfl⟩
theorem s456 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_456 V x0 x1 x2 x3 x4 x5 x6 → I6_457 ((binary main_v241 main_v325 main_v326 (addi : (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v241, h_main_v319, h_main_v322, h_main_v324, h_main_v325⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v241,
    by after_results_simp; exact h_main_v319,
    by after_results_simp; exact h_main_v322,
    by after_results_simp; exact h_main_v324,
    by after_results_simp; (try simp only [TRef.ofBuf, TRef.toBuf, cast_eq]); rw [h_main_v241, h_main_v325]; rfl⟩
theorem s457 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I6_457 V x0 x1 x2 x3 x4 x5 x6 → I6_458 ((ternary main_v324 main_v326 main_v241 main_v327 (select : (⟨S4x128, .i1⟩ : BufTy).Contents (Elt F) → (⟨S4x128, .i32⟩ : BufTy).Contents (Elt F) → (⟨S4x128, .i32⟩ : BufTy).Contents (Elt F) → (⟨S4x128, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v241, h_main_v319, h_main_v322, h_main_v324, h_main_v326⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v319,
    by after_results_simp; exact h_main_v322,
    by after_results_simp; (try simp only [TRef.ofBuf, TRef.toBuf, cast_eq]); rw [h_main_v324, h_main_v326, h_main_v241]; rfl⟩

set_option maxRecDepth 8192 in
set_option maxHeartbeats 4000000 in
/-- The window, from any contents. -/
theorem w6 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) (h398 : I6_398 V x0 x1 x2 x3 x4 x5 x6) : I6_458 (after ops_p6 V) x0 x1 x2 x3 x4 x5 x6 := by
  simp only [ops_p6, after_cons, after_nil]
  have h399 := s398 _ x0 x1 x2 x3 x4 x5 x6 h398
  have h400 := s399 _ x0 x1 x2 x3 x4 x5 x6 h399
  have h401 := s400 _ x0 x1 x2 x3 x4 x5 x6 h400
  have h402 := s401 _ x0 x1 x2 x3 x4 x5 x6 h401
  have h403 := s402 _ x0 x1 x2 x3 x4 x5 x6 h402
  have h404 := s403 _ x0 x1 x2 x3 x4 x5 x6 h403
  have h405 := s404 _ x0 x1 x2 x3 x4 x5 x6 h404
  have h406 := s405 _ x0 x1 x2 x3 x4 x5 x6 h405
  have h407 := s406 _ x0 x1 x2 x3 x4 x5 x6 h406
  have h408 := s407 _ x0 x1 x2 x3 x4 x5 x6 h407
  have h409 := s408 _ x0 x1 x2 x3 x4 x5 x6 h408
  have h410 := s409 _ x0 x1 x2 x3 x4 x5 x6 h409
  have h411 := s410 _ x0 x1 x2 x3 x4 x5 x6 h410
  have h412 := s411 _ x0 x1 x2 x3 x4 x5 x6 h411
  have h413 := s412 _ x0 x1 x2 x3 x4 x5 x6 h412
  have h414 := s413 _ x0 x1 x2 x3 x4 x5 x6 h413
  have h415 := s414 _ x0 x1 x2 x3 x4 x5 x6 h414
  have h416 := s415 _ x0 x1 x2 x3 x4 x5 x6 h415
  have h417 := s416 _ x0 x1 x2 x3 x4 x5 x6 h416
  have h418 := s417 _ x0 x1 x2 x3 x4 x5 x6 h417
  have h419 := s418 _ x0 x1 x2 x3 x4 x5 x6 h418
  have h420 := s419 _ x0 x1 x2 x3 x4 x5 x6 h419
  have h421 := s420 _ x0 x1 x2 x3 x4 x5 x6 h420
  have h422 := s421 _ x0 x1 x2 x3 x4 x5 x6 h421
  have h423 := s422 _ x0 x1 x2 x3 x4 x5 x6 h422
  have h424 := s423 _ x0 x1 x2 x3 x4 x5 x6 h423
  have h425 := s424 _ x0 x1 x2 x3 x4 x5 x6 h424
  have h426 := s425 _ x0 x1 x2 x3 x4 x5 x6 h425
  have h427 := s426 _ x0 x1 x2 x3 x4 x5 x6 h426
  have h428 := s427 _ x0 x1 x2 x3 x4 x5 x6 h427
  have h429 := s428 _ x0 x1 x2 x3 x4 x5 x6 h428
  have h430 := s429 _ x0 x1 x2 x3 x4 x5 x6 h429
  have h431 := s430 _ x0 x1 x2 x3 x4 x5 x6 h430
  have h432 := s431 _ x0 x1 x2 x3 x4 x5 x6 h431
  have h433 := s432 _ x0 x1 x2 x3 x4 x5 x6 h432
  have h434 := s433 _ x0 x1 x2 x3 x4 x5 x6 h433
  have h435 := s434 _ x0 x1 x2 x3 x4 x5 x6 h434
  have h436 := s435 _ x0 x1 x2 x3 x4 x5 x6 h435
  have h437 := s436 _ x0 x1 x2 x3 x4 x5 x6 h436
  have h438 := s437 _ x0 x1 x2 x3 x4 x5 x6 h437
  have h439 := s438 _ x0 x1 x2 x3 x4 x5 x6 h438
  have h440 := s439 _ x0 x1 x2 x3 x4 x5 x6 h439
  have h441 := s440 _ x0 x1 x2 x3 x4 x5 x6 h440
  have h442 := s441 _ x0 x1 x2 x3 x4 x5 x6 h441
  have h443 := s442 _ x0 x1 x2 x3 x4 x5 x6 h442
  have h444 := s443 _ x0 x1 x2 x3 x4 x5 x6 h443
  have h445 := s444 _ x0 x1 x2 x3 x4 x5 x6 h444
  have h446 := s445 _ x0 x1 x2 x3 x4 x5 x6 h445
  have h447 := s446 _ x0 x1 x2 x3 x4 x5 x6 h446
  have h448 := s447 _ x0 x1 x2 x3 x4 x5 x6 h447
  have h449 := s448 _ x0 x1 x2 x3 x4 x5 x6 h448
  have h450 := s449 _ x0 x1 x2 x3 x4 x5 x6 h449
  have h451 := s450 _ x0 x1 x2 x3 x4 x5 x6 h450
  have h452 := s451 _ x0 x1 x2 x3 x4 x5 x6 h451
  have h453 := s452 _ x0 x1 x2 x3 x4 x5 x6 h452
  have h454 := s453 _ x0 x1 x2 x3 x4 x5 x6 h453
  have h455 := s454 _ x0 x1 x2 x3 x4 x5 x6 h454
  have h456 := s455 _ x0 x1 x2 x3 x4 x5 x6 h455
  have h457 := s456 _ x0 x1 x2 x3 x4 x5 x6 h456
  have h458 := s457 _ x0 x1 x2 x3 x4 x5 x6 h457
  exact h458

end Cert.Hand.RefRun

end
-- ==== Proof.Ref.RunP7.lean ====
/- Operations 458 … 476 of the reference program's straight line (its printed window 7): the list, the buffers it touches,
   and the window read one operation at a time: I7_k says which buffers hold which stage value after the first k
   operations of the whole line (the arguments x0 … x6, and every stage a later operation still reads); each operation
   takes I7_k to I7_(k+1): the buffer it writes gets its stage value (one unfolding of that stage), every other one is kept. -/
import proofs.«424358_j44040594653645_2_alg».proof.Proof.RefRead

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 458 … 476, in order. -/
abbrev ops_p7 : List (HloOp τ sig (Elt F)) :=
  [ unary main_v327 main_v328 (broadcastInDim S4x128x1 ![0, 1] bcast_S4x128_S4x128x1_0_1 : (⟨S4x128, .i32⟩ : BufTy).Contents (Elt F) → (⟨S4x128x1, .i32⟩ : BufTy).Contents (Elt F)),
    binary main_arg6 main_v328 main_v329 ((fun x i => Host.gather gather_S3_S4x128x1_S4x128_n_0_n_n_0_2_1 x i) : (⟨S3, .f32⟩ : BufTy).Contents (Elt F) → (⟨S4x128x1, .i32⟩ : BufTy).Contents (Elt F) → (⟨S4x128, .f32⟩ : BufTy).Contents (Elt F)),
    binary main_v322 main_v329 main_v330 (mulf : (⟨S4x128, .f32⟩ : BufTy).Contents (Elt F) → (⟨S4x128, .f32⟩ : BufTy).Contents (Elt F) → (⟨S4x128, .f32⟩ : BufTy).Contents (Elt F)),
    unary main_v194 main_v331 (uitofp .f32 : (⟨S4x128, .i1⟩ : BufTy).Contents (Elt F) → (⟨S4x128, .f32⟩ : BufTy).Contents (Elt F)),
    binary main_v330 main_v331 main_v332 (mulf : (⟨S4x128, .f32⟩ : BufTy).Contents (Elt F) → (⟨S4x128, .f32⟩ : BufTy).Contents (Elt F) → (⟨S4x128, .f32⟩ : BufTy).Contents (Elt F)),
    binary main_v319 main_v332 main_v333 (mulf : (⟨S4x128, .f32⟩ : BufTy).Contents (Elt F) → (⟨S4x128, .f32⟩ : BufTy).Contents (Elt F) → (⟨S4x128, .f32⟩ : BufTy).Contents (Elt F)),
    nullary main_cst_90 (constant S_ .f32 0x00000000#32),
    binary main_v333 main_cst_90 main_v334 ((fun x v => Host.reduceAdd x v reducesTo_S4x128_S_d0_1 h_S_) : (⟨S4x128, .f32⟩ : BufTy).Contents (Elt F) → (⟨S_, .f32⟩ : BufTy).Contents (Elt F) → (⟨S_, .f32⟩ : BufTy).Contents (Elt F)),
    nullary main_cst_91 (constant S_ .f32 0x00000000#32),
    binary main_v332 main_cst_91 main_v335 ((fun x v => Host.reduceAdd x v reducesTo_S4x128_S_d0_1 h_S_) : (⟨S4x128, .f32⟩ : BufTy).Contents (Elt F) → (⟨S_, .f32⟩ : BufTy).Contents (Elt F) → (⟨S_, .f32⟩ : BufTy).Contents (Elt F)),
    binary main_v166 main_v334 main_v336 (addf : (⟨S_, .f32⟩ : BufTy).Contents (Elt F) → (⟨S_, .f32⟩ : BufTy).Contents (Elt F) → (⟨S_, .f32⟩ : BufTy).Contents (Elt F)),
    binary main_v21 main_v189 main_v337 (addf : (⟨S_, .f32⟩ : BufTy).Contents (Elt F) → (⟨S_, .f32⟩ : BufTy).Contents (Elt F) → (⟨S_, .f32⟩ : BufTy).Contents (Elt F)),
    binary main_v167 main_v335 main_v338 (addf : (⟨S_, .f32⟩ : BufTy).Contents (Elt F) → (⟨S_, .f32⟩ : BufTy).Contents (Elt F) → (⟨S_, .f32⟩ : BufTy).Contents (Elt F)),
    binary main_v22 main_v190 main_v339 (addf : (⟨S_, .f32⟩ : BufTy).Contents (Elt F) → (⟨S_, .f32⟩ : BufTy).Contents (Elt F) → (⟨S_, .f32⟩ : BufTy).Contents (Elt F)),
    unary main_v336 main_v340 (broadcastInDim S1 ![] bcast_S_S1 : (⟨S_, .f32⟩ : BufTy).Contents (Elt F) → (⟨S1, .f32⟩ : BufTy).Contents (Elt F)),
    unary main_v337 main_v341 (broadcastInDim S1 ![] bcast_S_S1 : (⟨S_, .f32⟩ : BufTy).Contents (Elt F) → (⟨S1, .f32⟩ : BufTy).Contents (Elt F)),
    unary main_v338 main_v342 (broadcastInDim S1 ![] bcast_S_S1 : (⟨S_, .f32⟩ : BufTy).Contents (Elt F) → (⟨S1, .f32⟩ : BufTy).Contents (Elt F)),
    unary main_v339 main_v343 (broadcastInDim S1 ![] bcast_S_S1 : (⟨S_, .f32⟩ : BufTy).Contents (Elt F) → (⟨S1, .f32⟩ : BufTy).Contents (Elt F)),
    nary ![main_v340, main_v341, main_v342, main_v343] main_v344 (fun u => concatenate S4 0 [⟨S1, u 0⟩, ⟨S1, u 1⟩, ⟨S1, u 2⟩, ⟨S1, u 3⟩] concatenates_S1_S1_S1_S1_S4_d0) ]

set_option maxRecDepth 8192 in
theorem ops_p7_sub : (ops_p7 : List (HloOp τ sig (Elt F))).Forall fun op => op.bufs ⊆ tcRefs τ sig :=
  ⟨unary_bufs_sub .., binary_bufs_sub .., binary_bufs_sub .., unary_bufs_sub .., binary_bufs_sub .., binary_bufs_sub .., nullary_bufs_sub .., binary_bufs_sub .., nullary_bufs_sub .., binary_bufs_sub .., binary_bufs_sub .., binary_bufs_sub .., binary_bufs_sub .., binary_bufs_sub .., unary_bufs_sub .., unary_bufs_sub .., unary_bufs_sub .., unary_bufs_sub .., nary_bufs_sub ..⟩
set_option maxRecDepth 8192 in
theorem ops_p7_fresh : ∀ op ∈ (ops_p7 : List (HloOp τ sig (Elt F))), op.fresh = ∅ := by
  intro _ h; (repeat (cases h with | head => rfl | tail _ h => ?_)); exact nomatch h

set_option maxRecDepth 8192 in
set_option maxHeartbeats 4000000 in
theorem main_part7_eq (c : Dev nD) : main_part7 (F := F) c = seq ops_p7 := rfl

def I7_458 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v319) = ReadP.val_main_v319 (F := F) x1 x3 x5 ∧ V (Proc.devRef .tc main_v322) = ReadP.val_main_v322 (F := F) x1 x3 x5 ∧ V (Proc.devRef .tc main_v327) = ReadP.val_main_v327 (F := F) x3 x5
def I7_459 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v319) = ReadP.val_main_v319 (F := F) x1 x3 x5 ∧ V (Proc.devRef .tc main_v322) = ReadP.val_main_v322 (F := F) x1 x3 x5 ∧ V (Proc.devRef .tc main_v328) = ReadP.val_main_v328 (F := F) x3 x5
def I7_460 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v319) = ReadP.val_main_v319 (F := F) x1 x3 x5 ∧ V (Proc.devRef .tc main_v322) = ReadP.val_main_v322 (F := F) x1 x3 x5 ∧ V (Proc.devRef .tc main_v329) = ReadP.val_main_v329 (F := F) x3 x5 x6
def I7_461 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v194) = ReadP.val_main_v194 (F := F) x5 ∧ V (Proc.devRef .tc main_v319) = ReadP.val_main_v319 (F := F) x1 x3 x5 ∧ V (Proc.devRef .tc main_v330) = ReadP.val_main_v330 (F := F) x1 x3 x5 x6
def I7_462 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v319) = ReadP.val_main_v319 (F := F) x1 x3 x5 ∧ V (Proc.devRef .tc main_v330) = ReadP.val_main_v330 (F := F) x1 x3 x5 x6 ∧ V (Proc.devRef .tc main_v331) = ReadP.val_main_v331 (F := F) x5
def I7_463 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v319) = ReadP.val_main_v319 (F := F) x1 x3 x5 ∧ V (Proc.devRef .tc main_v332) = ReadP.val_main_v332 (F := F) x1 x3 x5 x6
def I7_464 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v332) = ReadP.val_main_v332 (F := F) x1 x3 x5 x6 ∧ V (Proc.devRef .tc main_v333) = ReadP.val_main_v333 (F := F) x1 x3 x5 x6
def I7_465 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v332) = ReadP.val_main_v332 (F := F) x1 x3 x5 x6 ∧ V (Proc.devRef .tc main_v333) = ReadP.val_main_v333 (F := F) x1 x3 x5 x6 ∧ V (Proc.devRef .tc main_cst_90) = ReadP.val_main_cst_90 (F := F)
def I7_466 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v332) = ReadP.val_main_v332 (F := F) x1 x3 x5 x6 ∧ V (Proc.devRef .tc main_v334) = ReadP.val_main_v334 (F := F) x1 x3 x5 x6
def I7_467 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v332) = ReadP.val_main_v332 (F := F) x1 x3 x5 x6 ∧ V (Proc.devRef .tc main_v334) = ReadP.val_main_v334 (F := F) x1 x3 x5 x6 ∧ V (Proc.devRef .tc main_cst_91) = ReadP.val_main_cst_91 (F := F)
def I7_468 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v166) = ReadP.val_main_v166 (F := F) x0 x2 x4 x6 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v334) = ReadP.val_main_v334 (F := F) x1 x3 x5 x6 ∧ V (Proc.devRef .tc main_v335) = ReadP.val_main_v335 (F := F) x1 x3 x5 x6
def I7_469 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v21) = ReadP.val_main_v21 (F := F) x0 x2 ∧ V (Proc.devRef .tc main_v22) = ReadP.val_main_v22 (F := F) x0 x2 ∧ V (Proc.devRef .tc main_v167) = ReadP.val_main_v167 (F := F) x0 x2 x4 x6 ∧ V (Proc.devRef .tc main_v189) = ReadP.val_main_v189 (F := F) x1 x3 ∧ V (Proc.devRef .tc main_v190) = ReadP.val_main_v190 (F := F) x1 x3 ∧ V (Proc.devRef .tc main_v335) = ReadP.val_main_v335 (F := F) x1 x3 x5 x6 ∧ V (Proc.devRef .tc main_v336) = ReadP.val_main_v336 (F := F) x0 x1 x2 x3 x4 x5 x6
def I7_470 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v22) = ReadP.val_main_v22 (F := F) x0 x2 ∧ V (Proc.devRef .tc main_v167) = ReadP.val_main_v167 (F := F) x0 x2 x4 x6 ∧ V (Proc.devRef .tc main_v190) = ReadP.val_main_v190 (F := F) x1 x3 ∧ V (Proc.devRef .tc main_v335) = ReadP.val_main_v335 (F := F) x1 x3 x5 x6 ∧ V (Proc.devRef .tc main_v336) = ReadP.val_main_v336 (F := F) x0 x1 x2 x3 x4 x5 x6 ∧ V (Proc.devRef .tc main_v337) = ReadP.val_main_v337 (F := F) x0 x1 x2 x3
def I7_471 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v22) = ReadP.val_main_v22 (F := F) x0 x2 ∧ V (Proc.devRef .tc main_v190) = ReadP.val_main_v190 (F := F) x1 x3 ∧ V (Proc.devRef .tc main_v336) = ReadP.val_main_v336 (F := F) x0 x1 x2 x3 x4 x5 x6 ∧ V (Proc.devRef .tc main_v337) = ReadP.val_main_v337 (F := F) x0 x1 x2 x3 ∧ V (Proc.devRef .tc main_v338) = ReadP.val_main_v338 (F := F) x0 x1 x2 x3 x4 x5 x6
def I7_472 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v336) = ReadP.val_main_v336 (F := F) x0 x1 x2 x3 x4 x5 x6 ∧ V (Proc.devRef .tc main_v337) = ReadP.val_main_v337 (F := F) x0 x1 x2 x3 ∧ V (Proc.devRef .tc main_v338) = ReadP.val_main_v338 (F := F) x0 x1 x2 x3 x4 x5 x6 ∧ V (Proc.devRef .tc main_v339) = ReadP.val_main_v339 (F := F) x0 x1 x2 x3
def I7_473 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v337) = ReadP.val_main_v337 (F := F) x0 x1 x2 x3 ∧ V (Proc.devRef .tc main_v338) = ReadP.val_main_v338 (F := F) x0 x1 x2 x3 x4 x5 x6 ∧ V (Proc.devRef .tc main_v339) = ReadP.val_main_v339 (F := F) x0 x1 x2 x3 ∧ V (Proc.devRef .tc main_v340) = ReadP.val_main_v340 (F := F) x0 x1 x2 x3 x4 x5 x6
def I7_474 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v338) = ReadP.val_main_v338 (F := F) x0 x1 x2 x3 x4 x5 x6 ∧ V (Proc.devRef .tc main_v339) = ReadP.val_main_v339 (F := F) x0 x1 x2 x3 ∧ V (Proc.devRef .tc main_v340) = ReadP.val_main_v340 (F := F) x0 x1 x2 x3 x4 x5 x6 ∧ V (Proc.devRef .tc main_v341) = ReadP.val_main_v341 (F := F) x0 x1 x2 x3
def I7_475 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v339) = ReadP.val_main_v339 (F := F) x0 x1 x2 x3 ∧ V (Proc.devRef .tc main_v340) = ReadP.val_main_v340 (F := F) x0 x1 x2 x3 x4 x5 x6 ∧ V (Proc.devRef .tc main_v341) = ReadP.val_main_v341 (F := F) x0 x1 x2 x3 ∧ V (Proc.devRef .tc main_v342) = ReadP.val_main_v342 (F := F) x0 x1 x2 x3 x4 x5 x6
def I7_476 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v340) = ReadP.val_main_v340 (F := F) x0 x1 x2 x3 x4 x5 x6 ∧ V (Proc.devRef .tc main_v341) = ReadP.val_main_v341 (F := F) x0 x1 x2 x3 ∧ V (Proc.devRef .tc main_v342) = ReadP.val_main_v342 (F := F) x0 x1 x2 x3 x4 x5 x6 ∧ V (Proc.devRef .tc main_v343) = ReadP.val_main_v343 (F := F) x0 x1 x2 x3
def I7_477 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) : Prop :=
  V (Proc.devRef .tc main_arg0) = x0 ∧ V (Proc.devRef .tc main_arg1) = x1 ∧ V (Proc.devRef .tc main_arg2) = x2 ∧ V (Proc.devRef .tc main_arg3) = x3 ∧ V (Proc.devRef .tc main_arg4) = x4 ∧ V (Proc.devRef .tc main_arg5) = x5 ∧ V (Proc.devRef .tc main_arg6) = x6 ∧ V (Proc.devRef .tc main_v344) = ReadP.val_main_v344 (F := F) x0 x1 x2 x3 x4 x5 x6

theorem s458 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_458 V x0 x1 x2 x3 x4 x5 x6 → I7_459 ((unary main_v327 main_v328 (broadcastInDim S4x128x1 ![0, 1] bcast_S4x128_S4x128x1_0_1 : (⟨S4x128, .i32⟩ : BufTy).Contents (Elt F) → (⟨S4x128x1, .i32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v319, h_main_v322, h_main_v327⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v319,
    by after_results_simp; exact h_main_v322,
    by after_results_simp; (try simp only [TRef.ofBuf, TRef.toBuf, cast_eq]); rw [h_main_v327]; rfl⟩
theorem s459 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_459 V x0 x1 x2 x3 x4 x5 x6 → I7_460 ((binary main_arg6 main_v328 main_v329 ((fun x i => Host.gather gather_S3_S4x128x1_S4x128_n_0_n_n_0_2_1 x i) : (⟨S3, .f32⟩ : BufTy).Contents (Elt F) → (⟨S4x128x1, .i32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v319, h_main_v322, h_main_v328⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v319,
    by after_results_simp; exact h_main_v322,
    by after_results_simp; (try simp only [TRef.ofBuf, TRef.toBuf, cast_eq]); rw [h_main_arg6, h_main_v328]; rfl⟩
theorem s460 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_460 V x0 x1 x2 x3 x4 x5 x6 → I7_461 ((binary main_v322 main_v329 main_v330 (mulf : (⟨S4x128, .f32⟩ : BufTy).Contents (Elt F) → (⟨S4x128, .f32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v319, h_main_v322, h_main_v329⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v194,
    by after_results_simp; exact h_main_v319,
    by after_results_simp; (try simp only [TRef.ofBuf, TRef.toBuf, cast_eq]); rw [h_main_v322, h_main_v329]; rfl⟩
theorem s461 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_461 V x0 x1 x2 x3 x4 x5 x6 → I7_462 ((unary main_v194 main_v331 (uitofp .f32 : (⟨S4x128, .i1⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v194, h_main_v319, h_main_v330⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v319,
    by after_results_simp; exact h_main_v330,
    by after_results_simp; (try simp only [TRef.ofBuf, TRef.toBuf, cast_eq]); rw [h_main_v194]; rfl⟩
theorem s462 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_462 V x0 x1 x2 x3 x4 x5 x6 → I7_463 ((binary main_v330 main_v331 main_v332 (mulf : (⟨S4x128, .f32⟩ : BufTy).Contents (Elt F) → (⟨S4x128, .f32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v319, h_main_v330, h_main_v331⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v319,
    by after_results_simp; (try simp only [TRef.ofBuf, TRef.toBuf, cast_eq]); rw [h_main_v330, h_main_v331]; rfl⟩
theorem s463 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_463 V x0 x1 x2 x3 x4 x5 x6 → I7_464 ((binary main_v319 main_v332 main_v333 (mulf : (⟨S4x128, .f32⟩ : BufTy).Contents (Elt F) → (⟨S4x128, .f32⟩ : BufTy).Contents (Elt F) → (⟨S4x128, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v319, h_main_v332⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v332,
    by after_results_simp; (try simp only [TRef.ofBuf, TRef.toBuf, cast_eq]); rw [h_main_v319, h_main_v332]; rfl⟩
theorem s464 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_464 V x0 x1 x2 x3 x4 x5 x6 → I7_465 ((nullary main_cst_90 (constant S_ .f32 0x00000000#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v332, h_main_v333⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v332,
    by after_results_simp; exact h_main_v333,
    by after_results_simp; (try simp only [TRef.ofBuf, TRef.toBuf, cast_eq]); rfl⟩
theorem s465 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_465 V x0 x1 x2 x3 x4 x5 x6 → I7_466 ((binary main_v333 main_cst_90 main_v334 ((fun x v => Host.reduceAdd x v reducesTo_S4x128_S_d0_1 h_S_) : (⟨S4x128, .f32⟩ : BufTy).Contents (Elt F) → (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v332, h_main_v333, h_main_cst_90⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v332,
    by after_results_simp; (try simp only [TRef.ofBuf, TRef.toBuf, cast_eq]); rw [h_main_v333, h_main_cst_90]; rfl⟩
theorem s466 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_466 V x0 x1 x2 x3 x4 x5 x6 → I7_467 ((nullary main_cst_91 (constant S_ .f32 0x00000000#32)).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v332, h_main_v334⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v332,
    by after_results_simp; exact h_main_v334,
    by after_results_simp; (try simp only [TRef.ofBuf, TRef.toBuf, cast_eq]); rfl⟩
theorem s467 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_467 V x0 x1 x2 x3 x4 x5 x6 → I7_468 ((binary main_v332 main_cst_91 main_v335 ((fun x v => Host.reduceAdd x v reducesTo_S4x128_S_d0_1 h_S_) : (⟨S4x128, .f32⟩ : BufTy).Contents (Elt F) → (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v332, h_main_v334, h_main_cst_91⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v166,
    by after_results_simp; exact h_main_v167,
    by after_results_simp; exact h_main_v189,
    by after_results_simp; exact h_main_v190,
    by after_results_simp; exact h_main_v334,
    by after_results_simp; (try simp only [TRef.ofBuf, TRef.toBuf, cast_eq]); rw [h_main_v332, h_main_cst_91]; rfl⟩
theorem s468 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_468 V x0 x1 x2 x3 x4 x5 x6 → I7_469 ((binary main_v166 main_v334 main_v336 (addf : (⟨S_, .f32⟩ : BufTy).Contents (Elt F) → (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v166, h_main_v167, h_main_v189, h_main_v190, h_main_v334, h_main_v335⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v21,
    by after_results_simp; exact h_main_v22,
    by after_results_simp; exact h_main_v167,
    by after_results_simp; exact h_main_v189,
    by after_results_simp; exact h_main_v190,
    by after_results_simp; exact h_main_v335,
    by after_results_simp; (try simp only [TRef.ofBuf, TRef.toBuf, cast_eq]); rw [h_main_v166, h_main_v334]; rfl⟩
theorem s469 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_469 V x0 x1 x2 x3 x4 x5 x6 → I7_470 ((binary main_v21 main_v189 main_v337 (addf : (⟨S_, .f32⟩ : BufTy).Contents (Elt F) → (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v21, h_main_v22, h_main_v167, h_main_v189, h_main_v190, h_main_v335, h_main_v336⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v22,
    by after_results_simp; exact h_main_v167,
    by after_results_simp; exact h_main_v190,
    by after_results_simp; exact h_main_v335,
    by after_results_simp; exact h_main_v336,
    by after_results_simp; (try simp only [TRef.ofBuf, TRef.toBuf, cast_eq]); rw [h_main_v21, h_main_v189]; rfl⟩
theorem s470 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_470 V x0 x1 x2 x3 x4 x5 x6 → I7_471 ((binary main_v167 main_v335 main_v338 (addf : (⟨S_, .f32⟩ : BufTy).Contents (Elt F) → (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v22, h_main_v167, h_main_v190, h_main_v335, h_main_v336, h_main_v337⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v22,
    by after_results_simp; exact h_main_v190,
    by after_results_simp; exact h_main_v336,
    by after_results_simp; exact h_main_v337,
    by after_results_simp; (try simp only [TRef.ofBuf, TRef.toBuf, cast_eq]); rw [h_main_v167, h_main_v335]; rfl⟩
theorem s471 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_471 V x0 x1 x2 x3 x4 x5 x6 → I7_472 ((binary main_v22 main_v190 main_v339 (addf : (⟨S_, .f32⟩ : BufTy).Contents (Elt F) → (⟨S_, .f32⟩ : BufTy).Contents (Elt F) → (⟨S_, .f32⟩ : BufTy).Contents (Elt F))).result V) x0 x1 x2 x3 x4 x5 x6 :=
  fun ⟨h_main_arg0, h_main_arg1, h_main_arg2, h_main_arg3, h_main_arg4, h_main_arg5, h_main_arg6, h_main_v22, h_main_v190, h_main_v336, h_main_v337, h_main_v338⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v336,
    by after_results_simp; exact h_main_v337,
    by after_results_simp; exact h_main_v338,
    by after_results_simp; (try simp only [TRef.ofBuf, TRef.toBuf, cast_eq]); rw [h_main_v22, h_main_v190]; rfl⟩
theorem s472 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_472 V x0 x1 x2 x3 x4 x5 x6 → I7_473 ((unary main_v336 main_v340 (broadcastInDim S1 ![] bcast_S_S1 : (⟨S_, .f32⟩ : BufTy).Contents (Elt F) → (⟨S1, .f32⟩ : BufTy).Contents (Elt F))).result V) x0 x1 x2 x3 x4 x5 x6 :=
  fun ⟨h_main_arg0, h_main_arg1, h_main_arg2, h_main_arg3, h_main_arg4, h_main_arg5, h_main_arg6, h_main_v336, h_main_v337, h_main_v338, h_main_v339⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v337,
    by after_results_simp; exact h_main_v338,
    by after_results_simp; exact h_main_v339,
    by after_results_simp; (try simp only [TRef.ofBuf, TRef.toBuf, cast_eq]); rw [h_main_v336]; rfl⟩
theorem s473 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_473 V x0 x1 x2 x3 x4 x5 x6 → I7_474 ((unary main_v337 main_v341 (broadcastInDim S1 ![] bcast_S_S1 : (⟨S_, .f32⟩ : BufTy).Contents (Elt F) → (⟨S1, .f32⟩ : BufTy).Contents (Elt F))).result V) x0 x1 x2 x3 x4 x5 x6 :=
  fun ⟨h_main_arg0, h_main_arg1, h_main_arg2, h_main_arg3, h_main_arg4, h_main_arg5, h_main_arg6, h_main_v337, h_main_v338, h_main_v339, h_main_v340⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v338,
    by after_results_simp; exact h_main_v339,
    by after_results_simp; exact h_main_v340,
    by after_results_simp; (try simp only [TRef.ofBuf, TRef.toBuf, cast_eq]); rw [h_main_v337]; rfl⟩
theorem s474 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_474 V x0 x1 x2 x3 x4 x5 x6 → I7_475 ((unary main_v338 main_v342 (broadcastInDim S1 ![] bcast_S_S1 : (⟨S_, .f32⟩ : BufTy).Contents (Elt F) → (⟨S1, .f32⟩ : BufTy).Contents (Elt F))).result V) x0 x1 x2 x3 x4 x5 x6 :=
  fun ⟨h_main_arg0, h_main_arg1, h_main_arg2, h_main_arg3, h_main_arg4, h_main_arg5, h_main_arg6, h_main_v338, h_main_v339, h_main_v340, h_main_v341⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v339,
    by after_results_simp; exact h_main_v340,
    by after_results_simp; exact h_main_v341,
    by after_results_simp; (try simp only [TRef.ofBuf, TRef.toBuf, cast_eq]); rw [h_main_v338]; rfl⟩
theorem s475 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_475 V x0 x1 x2 x3 x4 x5 x6 → I7_476 ((unary main_v339 main_v343 (broadcastInDim S1 ![] bcast_S_S1 : (⟨S_, .f32⟩ : BufTy).Contents (Elt F) → (⟨S1, .f32⟩ : BufTy).Contents (Elt F))).result V) x0 x1 x2 x3 x4 x5 x6 :=
  fun ⟨h_main_arg0, h_main_arg1, h_main_arg2, h_main_arg3, h_main_arg4, h_main_arg5, h_main_arg6, h_main_v339, h_main_v340, h_main_v341, h_main_v342⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; exact h_main_v340,
    by after_results_simp; exact h_main_v341,
    by after_results_simp; exact h_main_v342,
    by after_results_simp; (try simp only [TRef.ofBuf, TRef.toBuf, cast_eq]); rw [h_main_v339]; rfl⟩
theorem s476 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) :
    I7_476 V x0 x1 x2 x3 x4 x5 x6 → I7_477 ((nary ![main_v340, main_v341, main_v342, main_v343] main_v344 (fun u => concatenate S4 0 [⟨S1, u 0⟩, ⟨S1, u 1⟩, ⟨S1, u 2⟩, ⟨S1, u 3⟩] concatenates_S1_S1_S1_S1_S4_d0)).result V) x0 x1 x2 x3 x4 x5 x6 :=
  fun ⟨h_main_arg0, h_main_arg1, h_main_arg2, h_main_arg3, h_main_arg4, h_main_arg5, h_main_arg6, h_main_v340, h_main_v341, h_main_v342, h_main_v343⟩ => ⟨
    by after_results_simp; exact h_main_arg0,
    by after_results_simp; exact h_main_arg1,
    by after_results_simp; exact h_main_arg2,
    by after_results_simp; exact h_main_arg3,
    by after_results_simp; exact h_main_arg4,
    by after_results_simp; exact h_main_arg5,
    by after_results_simp; exact h_main_arg6,
    by after_results_simp; (try simp only [TRef.ofBuf, TRef.toBuf, cast_eq]); dsimp only [Matrix.cons_val]; rw [h_main_v340, h_main_v341, h_main_v342, h_main_v343]; rfl⟩

set_option maxRecDepth 8192 in
set_option maxHeartbeats 4000000 in
/-- The window, from any contents. -/
theorem w7 (V : Valuation τ sig (Elt F)) (x0 : (⟨S4x9x64x64x64, .f32⟩ : BufTy).Contents (Elt F)) (x1 : (⟨S4x9x32x32x32, .f32⟩ : BufTy).Contents (Elt F)) (x2 : (⟨S4x3x64x64x64, .f32⟩ : BufTy).Contents (Elt F)) (x3 : (⟨S4x3x32x32x32, .f32⟩ : BufTy).Contents (Elt F)) (x4 : (⟨S4x128x4, .i32⟩ : BufTy).Contents (Elt F)) (x5 : (⟨S4x128x4, .i32⟩ : BufTy).Contents (Elt F)) (x6 : (⟨S3, .f32⟩ : BufTy).Contents (Elt F)) (h458 : I7_458 V x0 x1 x2 x3 x4 x5 x6) : I7_477 (after ops_p7 V) x0 x1 x2 x3 x4 x5 x6 := by
  simp only [ops_p7, after_cons, after_nil]
  have h459 := s458 _ x0 x1 x2 x3 x4 x5 x6 h458
  have h460 := s459 _ x0 x1 x2 x3 x4 x5 x6 h459
  have h461 := s460 _ x0 x1 x2 x3 x4 x5 x6 h460
  have h462 := s461 _ x0 x1 x2 x3 x4 x5 x6 h461
  have h463 := s462 _ x0 x1 x2 x3 x4 x5 x6 h462
  have h464 := s463 _ x0 x1 x2 x3 x4 x5 x6 h463
  have h465 := s464 _ x0 x1 x2 x3 x4 x5 x6 h464
  have h466 := s465 _ x0 x1 x2 x3 x4 x5 x6 h465
  have h467 := s466 _ x0 x1 x2 x3 x4 x5 x6 h466
  have h468 := s467 _ x0 x1 x2 x3 x4 x5 x6 h467
  have h469 := s468 _ x0 x1 x2 x3 x4 x5 x6 h468
  have h470 := s469 _ x0 x1 x2 x3 x4 x5 x6 h469
  have h471 := s470 _ x0 x1 x2 x3 x4 x5 x6 h470
  have h472 := s471 _ x0 x1 x2 x3 x4 x5 x6 h471
  have h473 := s472 _ x0 x1 x2 x3 x4 x5 x6 h472
  have h474 := s473 _ x0 x1 x2 x3 x4 x5 x6 h473
  have h475 := s474 _ x0 x1 x2 x3 x4 x5 x6 h474
  have h476 := s475 _ x0 x1 x2 x3 x4 x5 x6 h475
  have h477 := s476 _ x0 x1 x2 x3 x4 x5 x6 h476
  exact h477

end Cert.Hand.RefRun

end
-- ==== Proof.Ref.Run.lean ====
/- The reference program's run: its @main is the straight line of its 477 operations (window by window), so every weakly fair
   execution ends with each buffer at the fold of the operations over its launch contents (the library's run of a straight line);
   the fold, read one operation at a time by the windows' invariants, leaves the result buffer at the last stage value of the
   arguments' launch contents, and the arguments unchanged. -/
import proofs.«424358_j44040594653645_2_alg».proof.Proof.Ref.RunP0
import proofs.«424358_j44040594653645_2_alg».proof.Proof.Ref.RunP1
import proofs.«424358_j44040594653645_2_alg».proof.Proof.Ref.RunP2
import proofs.«424358_j44040594653645_2_alg».proof.Proof.Ref.RunP3
import proofs.«424358_j44040594653645_2_alg».proof.Proof.Ref.RunP4
import proofs.«424358_j44040594653645_2_alg».proof.Proof.Ref.RunP5
import proofs.«424358_j44040594653645_2_alg».proof.Proof.Ref.RunP6
import proofs.«424358_j44040594653645_2_alg».proof.Proof.Ref.RunP7
import Idealize.ShloMosaic.Lib.Pipeline.Frame

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 477 operations, in order: the windows' lists, joined. -/
abbrev ops : List (HloOp τ sig (Elt F)) :=
  ops_p0 ++ (ops_p1 ++ (ops_p2 ++ (ops_p3 ++ (ops_p4 ++ (ops_p5 ++ (ops_p6 ++ (ops_p7)))))))

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp ops_p0_sub op h, List.forall_iff_forall_mem.mp ops_p1_sub op h, List.forall_iff_forall_mem.mp ops_p2_sub op h, List.forall_iff_forall_mem.mp ops_p3_sub op h, List.forall_iff_forall_mem.mp ops_p4_sub op h, List.forall_iff_forall_mem.mp ops_p5_sub op h, List.forall_iff_forall_mem.mp ops_p6_sub op h, List.forall_iff_forall_mem.mp ops_p7_sub op h]
theorem ops_fresh : ∀ op ∈ (ops : List (HloOp τ sig (Elt F))), op.fresh = ∅ := fun op h => by
  simp only [ops, List.mem_append] at h
  rcases h with h | h | h | h | h | h | h | h
  exacts [ops_p0_fresh op h, ops_p1_fresh op h, ops_p2_fresh op h, ops_p3_fresh op h, ops_p4_fresh op h, ops_p5_fresh op h, ops_p6_fresh op h, ops_p7_fresh op h]

/-- The fold over the whole line is the windows' folds, one after the other. -/
theorem after_ops (V : Valuation τ sig (Elt F)) : after ops V = after ops_p7 (after ops_p6 (after ops_p5 (after ops_p4 (after ops_p3 (after ops_p2 (after ops_p1 (after ops_p0 (V)))))))) := by
  simp only [ops, after_append]

set_option maxRecDepth 8192 in
/-- After the whole line, from any contents V: the arguments are V's, the result buffer holds the last stage of them. -/
theorem inv_ops (V : Valuation τ sig (Elt F)) : I7_477 (after ops V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops]
  have h0 : I0_0 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := ⟨rfl, rfl, rfl, rfl, rfl, rfl, rfl⟩
  have h1 : I0_77 (after ops_p0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := w0 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) h0
  have h2 : I1_139 (after ops_p1 (after ops_p0 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := w1 (after ops_p0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) h1
  have h3 : I2_199 (after ops_p2 (after ops_p1 (after ops_p0 V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := w2 (after ops_p1 (after ops_p0 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) h2
  have h4 : I3_273 (after ops_p3 (after ops_p2 (after ops_p1 (after ops_p0 V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := w3 (after ops_p2 (after ops_p1 (after ops_p0 V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) h3
  have h5 : I4_336 (after ops_p4 (after ops_p3 (after ops_p2 (after ops_p1 (after ops_p0 V))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := w4 (after ops_p3 (after ops_p2 (after ops_p1 (after ops_p0 V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) h4
  have h6 : I5_398 (after ops_p5 (after ops_p4 (after ops_p3 (after ops_p2 (after ops_p1 (after ops_p0 V)))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := w5 (after ops_p4 (after ops_p3 (after ops_p2 (after ops_p1 (after ops_p0 V))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) h5
  have h7 : I6_458 (after ops_p6 (after ops_p5 (after ops_p4 (after ops_p3 (after ops_p2 (after ops_p1 (after ops_p0 V))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := w6 (after ops_p5 (after ops_p4 (after ops_p3 (after ops_p2 (after ops_p1 (after ops_p0 V)))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) h6
  have h8 : I7_477 (after ops_p7 (after ops_p6 (after ops_p5 (after ops_p4 (after ops_p3 (after ops_p2 (after ops_p1 (after ops_p0 V)))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := w7 (after ops_p6 (after ops_p5 (after ops_p4 (after ops_p3 (after ops_p2 (after ops_p1 (after ops_p0 V))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) h7
  exact h8

/-- On every device, for any float values, from any memory with zero counters: every weakly fair execution of the reference's
    @main terminates with the result buffer at the last stage value of the arguments' launch contents, the arguments unchanged. -/
theorem ref_run_F (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v344) = ReadP.val_main_v344 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      obtain ⟨a0, a1, a2, a3, a4, a5, a6, hres⟩ := inv_ops (F := F) (launchContents m c)
      exact ⟨(h c main_v344).trans hres, (h c main_arg0).trans a0, (h c main_arg1).trans a1, (h c main_arg2).trans a2, (h c main_arg3).trans a3, (h c main_arg4).trans a4, (h c main_arg5).trans a5, (h c main_arg6).trans a6⟩)
    (run_seq scopedRefs_eq scopedSems_eq defs main (fun _ => ops) main_eq (fun _ => ops_sub) m ρ (fun _ => ops_fresh))

/-- The same at the exact reals. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v344) = ReadP.val_main_v344 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ref_run_F (F := Ideal) m ρ

/-- The arguments' half alone: the reference's run leaves its arguments as they were. -/
theorem ref_frame (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => (h c).2) (ref_run m ρ)

end Cert.Hand.RefRun

end
-- ==== Proof.RefImports.lean ====
/- The reference program's stages read at an index, gathered under one import. -/
import proofs.«424358_j44040594653645_2_alg».proof.Proof.RefRead
-- ==== Proof.Ref.Value.lean ====
import proofs.«424358_j44040594653645_2_alg».proof.Proof.RefImports
import proofs.«424358_j44040594653645_2_alg».proof.Proof.Spec
import proofs.«424358_j44040594653645_2_alg».proof.Proof.Readers

/-!
  The reference program's result buffer is the four results of the specification, given that its eight scalar stages
  (positive loss, positive count, negative loss, negative count, at each level) are the specification's.
-/

noncomputable section

namespace Cert.Hand.RefValue

open Idealize.ShloMosaic Idealize.ShloMosaic.ValueIdx Cert.ReferenceIdeal Cert.Hand Cert.Hand.Readers

/-- Four one-entry pieces laid end to end, read at position k, give piece k's entry. -/
theorem cat4 (p0 p1 p2 p3 : S1.Idx → EReal) (h : Shape.Concatenates ([(⟨S1, p0⟩ : (s : Shape) × (s.Idx → EReal)), ⟨S1, p1⟩, ⟨S1, p2⟩, ⟨S1, p3⟩].map (·.1)) S4 0) :
    concatenate S4 0 [⟨S1, p0⟩, ⟨S1, p1⟩, ⟨S1, p2⟩, ⟨S1, p3⟩] h (ix1 0) = p0 (ix1 0)
    ∧ concatenate S4 0 [⟨S1, p0⟩, ⟨S1, p1⟩, ⟨S1, p2⟩, ⟨S1, p3⟩] h (ix1 1) = p1 (ix1 0)
    ∧ concatenate S4 0 [⟨S1, p0⟩, ⟨S1, p1⟩, ⟨S1, p2⟩, ⟨S1, p3⟩] h (ix1 2) = p2 (ix1 0)
    ∧ concatenate S4 0 [⟨S1, p0⟩, ⟨S1, p1⟩, ⟨S1, p2⟩, ⟨S1, p3⟩] h (ix1 3) = p3 (ix1 0) := by
  have hb : ∀ b : Fin S1.rank, b.cast (rfl : S1.rank = S4.rank) ≠ (0 : Fin S4.rank) → ((ix1 (0 : Fin 1) : S1.Idx) b).val = 0 :=
    fun b hb => absurd (Fin.ext (by have := b.isLt; show b.val = 0; change b.val < 1 at this; omega)) hb
  refine ⟨?_, ?_, ?_, ?_⟩
  · exact concatenate_apply_piece (t := S4) 0 _ h (ix1 0) 0 (by simp) S1 p0 rfl rfl 0 rfl (ix1 0)
      (fun b hb' => absurd (Fin.ext (by have := b.isLt; show b.val = 0; change b.val < 1 at this; omega)) hb') rfl
  · exact concatenate_apply_piece (t := S4) 0 _ h (ix1 1) 1 (by simp) S1 p1 rfl rfl 1 rfl (ix1 0)
      (fun b hb' => absurd (Fin.ext (by have := b.isLt; show b.val = 0; change b.val < 1 at this; omega)) hb') rfl
  · exact concatenate_apply_piece (t := S4) 0 _ h (ix1 2) 2 (by simp) S1 p2 rfl rfl 2 rfl (ix1 0)
      (fun b hb' => absurd (Fin.ext (by have := b.isLt; show b.val = 0; change b.val < 1 at this; omega)) hb') rfl
  · exact concatenate_apply_piece (t := S4) 0 _ h (ix1 3) 3 (by simp) S1 p3 rfl rfl 3 rfl (ix1 0)
      (fun b hb' => absurd (Fin.ext (by have := b.isLt; show b.val = 0; change b.val < 1 at this; omega)) hb') rfl

/-- The reference's result buffer is the specification's four results, given its eight scalar stages. -/
theorem ref_value
    (x0 : (⟨S4x9x64x64x64, .f32⟩ : BufTy).Contents (Elt Ideal)) (x1 : (⟨S4x9x32x32x32, .f32⟩ : BufTy).Contents (Elt Ideal))
    (x2 : (⟨S4x3x64x64x64, .f32⟩ : BufTy).Contents (Elt Ideal)) (x3 : (⟨S4x3x32x32x32, .f32⟩ : BufTy).Contents (Elt Ideal))
    (x4 x5 : (⟨S4x128x4, .i32⟩ : BufTy).Contents (Elt Ideal)) (x6 : (⟨S3, .f32⟩ : BufTy).Contents (Elt Ideal))
    (hlp0 : ReadP.val_main_v166 (F := Ideal) x0 x2 x4 x6 ix0 = Spec.lossPos 64 (rd5 x0) (rd5 x2) (rd3 x4) (rd1 x6))
    (hcp0 : ReadP.val_main_v167 (F := Ideal) x0 x2 x4 x6 ix0 = Spec.countPos 64 (rd5 x0) (rd5 x2) (rd3 x4) (rd1 x6))
    (hln0 : ReadP.val_main_v21 (F := Ideal) x0 x2 ix0 = Spec.lossNeg 64 (rd5 x0) (rd5 x2))
    (hcn0 : ReadP.val_main_v22 (F := Ideal) x0 x2 ix0 = Spec.countNeg 64 (rd5 x0) (rd5 x2))
    (hlp1 : ReadP.val_main_v334 (F := Ideal) x1 x3 x5 x6 ix0 = Spec.lossPos 32 (rd5 x1) (rd5 x3) (rd3 x5) (rd1 x6))
    (hcp1 : ReadP.val_main_v335 (F := Ideal) x1 x3 x5 x6 ix0 = Spec.countPos 32 (rd5 x1) (rd5 x3) (rd3 x5) (rd1 x6))
    (hln1 : ReadP.val_main_v189 (F := Ideal) x1 x3 ix0 = Spec.lossNeg 32 (rd5 x1) (rd5 x3))
    (hcn1 : ReadP.val_main_v190 (F := Ideal) x1 x3 ix0 = Spec.countNeg 32 (rd5 x1) (rd5 x3)) :
    ReadP.val_main_v344 (F := Ideal) x0 x1 x2 x3 x4 x5 x6 = Readers.G x0 x1 x2 x3 x4 x5 x6 := by
  obtain ⟨c0, c1, c2, c3⟩ := cat4 (ReadP.val_main_v340 (F := Ideal) x0 x1 x2 x3 x4 x5 x6) (ReadP.val_main_v341 (F := Ideal) x0 x1 x2 x3)
    (ReadP.val_main_v342 (F := Ideal) x0 x1 x2 x3 x4 x5 x6) (ReadP.val_main_v343 (F := Ideal) x0 x1 x2 x3)
    Gen.concatenates_S1_S1_S1_S1_S4_d0
  funext j
  obtain ⟨i, rfl⟩ : ∃ i : Fin 4, j = ix1 i := ⟨j 0, eq_ix1 j⟩
  match i with
  | ⟨0, _⟩ =>
    refine (c0.trans ?_)
    rw [ReadP.val_main_v340_apply, ReadP.val_main_v336_apply]
    exact congrArg₂ (· + ·) hlp0 hlp1
  | ⟨1, _⟩ =>
    refine (c1.trans ?_)
    rw [ReadP.val_main_v341_apply, ReadP.val_main_v337_apply]
    exact congrArg₂ (· + ·) hln0 hln1
  | ⟨2, _⟩ =>
    refine (c2.trans ?_)
    rw [ReadP.val_main_v342_apply, ReadP.val_main_v338_apply]
    exact congrArg₂ (· + ·) hcp0 hcp1
  | ⟨3, _⟩ =>
    refine (c3.trans ?_)
    rw [ReadP.val_main_v343_apply, ReadP.val_main_v339_apply]
    exact congrArg₂ (· + ·) hcn0 hcn1

end Cert.Hand.RefValue
-- ==== Proof.Ref.LogSoftmax.lean ====
/-
  The reference's log-softmax read at an index, at both pyramid levels: the program's stage is the array program of
  the level-generic module at extent 64 (and 32), whose value at (b, k, a, d, h, w) is the specification's `logpAt`
  over the logits' reader.
-/
import proofs.«424358_j44040594653645_2_alg».proof.Proof.RefImports
import proofs.«424358_j44040594653645_2_alg».proof.Proof.Ref.LsmLemmas

noncomputable section

namespace Cert.Hand.RefLsm

open Idealize.ShloMosaic Idealize.ShloMosaic.ValueIdx Cert.Hand Cert.Hand.Readers Cert.ReferenceIdeal

/-- The shape relations at extent 64. -/
theorem facts64 : LsmFacts 64 where
  cast0 := by decide
  red1 := by decide
  red1' := by decide
  hZ := by decide
  bZB := by decide
  bBD := by decide
  bDC := by decide

/-- The shape relations at extent 32. -/
theorem facts32 : LsmFacts 32 where
  cast0 := by decide
  red1 := by decide
  red1' := by decide
  hZ := by decide
  bZB := by decide
  bBD := by decide
  bDC := by decide

/-- Level 0's log-softmax at (b, k, a, d, h, w). -/
theorem lsm0_apply (x0 : (⟨S4x9x64x64x64, .f32⟩ : BufTy).Contents (Elt Ideal)) (b : Fin 4) (k a : Fin 3) (d h w : Fin 64) :
    ReadP.val_main_v1 (F := Ideal) x0 (ix6 b k a d h w) = Spec.logpAt (rd5 x0) k.val b.val a.val d.val h.val w.val :=
  v1_apply facts64 x0 b k a d h w

/-- Level 1's log-softmax at (b, k, a, d, h, w). -/
theorem lsm1_apply (x1 : (⟨S4x9x32x32x32, .f32⟩ : BufTy).Contents (Elt Ideal)) (b : Fin 4) (k a : Fin 3) (d h w : Fin 32) :
    ReadP.val_main_v169 (F := Ideal) x1 (ix6 b k a d h w) = Spec.logpAt (rd5 x1) k.val b.val a.val d.val h.val w.val :=
  v1_apply facts32 x1 b k a d h w

end Cert.Hand.RefLsm

end
-- ==== Proof.Ref.NegLemmas.lean ====
/-
  The reference's negative loss and count as an array program, at any spatial extent `n`: class 0's negative
  log-likelihood and probability taken out of the log-softmax, the background mask, the 3x3x3 window maximum from -∞
  with one voxel of padding, the local-maximum mask, the focal weight, and the two sums over the volume. Read at an index
  each stage is the specification's quantity over the readers; the sums are the specification's nested sums.

  The window maximum: a left fold of the maximum from -∞ over the 27 window positions is the supremum over them, and
  the positions are the triples (i, j, k) below 3, a position outside the volume reading -∞.
-/
import proofs.«424358_j44040594653645_2_alg».proof.Proof.Ref.LsmLemmas

noncomputable section

namespace Cert.Hand.RefNeg

open Idealize.ShloMosaic Idealize.ShloMosaic.ValueIdx Cert.Hand Cert.Hand.Readers Cert.Hand.RefLsm

/-! ## General facts -/

/-- A left fold of the maximum over a list is the starting value joined with the supremum over the list. -/
theorem foldl_max_eq_sup {ι : Type} [DecidableEq ι] (g : ι → EReal) (l : List ι) (v : EReal) :
    l.foldl (fun r m => max r (g m)) v = max v (l.toFinset.sup g) := by
  induction l generalizing v with
  | nil => simp
  | cons a l ih => rw [List.foldl_cons, ih, List.toFinset_cons, Finset.sup_insert, max_assoc]

/-- The f32 pattern of minus one. -/
theorem ofBits_negOne_f32 : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h]; simp

/-- An equality test converted to a number is the indicator of the equality. -/
theorem uitofp_cmp_oeq (x y : EReal) :
    FloatOps.uitofp (F := Ideal) .f32 (FloatOps.cmpf (F := Ideal) (φ := .f32) .oeq x y) = Spec.ind (x = y) := by
  show (((BitVec.ofBool (decide (x = y))).toNat : ℝ) : EReal) = if x = y then 1 else 0
  by_cases h : x = y <;> simp [h]

/-- A rank-5 index set is the product of its coordinate ranges … -/
def idxEquiv5 {n0 n1 n2 n3 n4 : ℕ} : (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five nested sums over the coordinates' ranges. -/
theorem sum_idx5_range {M : Type} [AddCommMonoid M] {n0 n1 n2 n3 n4 : ℕ} (f : (⟨5, ![n0, n1, n2, n3, n4]⟩ : Shape).Idx → M)
    (g : ℕ → ℕ → ℕ → ℕ → ℕ → M) (hfg : ∀ a b c d e, f (ix5 a b c d e) = g a.val b.val c.val d.val e.val) :
    ∑ i, f i = ∑ a ∈ Finset.range n0, ∑ b ∈ Finset.range n1, ∑ c ∈ Finset.range n2, ∑ d ∈ Finset.range n3, ∑ e ∈ Finset.range n4,
      g a b c d e := by
  rw [← Equiv.sum_comp (idxEquiv5 (n0 := n0) (n1 := n1) (n2 := n2) (n3 := n3) (n4 := n4)).symm f]
  simp only [Fintype.sum_prod_type, Finset.sum_range]
  exact Finset.sum_congr rfl fun a _ => Finset.sum_congr rfl fun b _ => Finset.sum_congr rfl fun c _ =>
    Finset.sum_congr rfl fun d _ => Finset.sum_congr rfl fun e _ => hfg a b c d e

/-! ## The window maximum -/

/-- The window's shape. -/
abbrev SW : Shape := ⟨5, ![1, 1, 3, 3, 3]⟩

/-- The 3x3x3 window maximum from -∞, one voxel of padding on the spatial axes, read at (b, a, d, h, w): the
    specification's neighbourhood maximum of the array's reader at (b, a). -/
theorem reduceWindow_pool {n0 n1 n : ℕ} (x : FVec Ideal (⟨5, ![n0, n1, n, n, n]⟩ : Shape) .f32) (init : FVec Ideal SZ .f32)
    (hinit : ∀ i, init i = ⊥)
    (hw : (⟨5, ![n0, n1, n, n, n]⟩ : Shape).ReduceWindows (![1, 1, 3, 3, 3] : Fin 5 → Nat) ![1, 1, 1, 1, 1] ![0, 0, 1, 1, 1] ![0, 0, 1, 1, 1]
      ⟨5, ![n0, n1, n, n, n]⟩)
    (hu : 0 < SZ.numel) (f : ℕ → ℕ → ℕ → EReal) (b : Fin n0) (a : Fin n1)
    (hf : ∀ d h w : Fin n, x (ix5 b a d h w) = f d.val h.val w.val) (d h w : Fin n) :
    Host.reduceWindow FloatOps.maximumf ![1, 1, 3, 3, 3] ![1, 1, 1, 1, 1] ![0, 0, 1, 1, 1] ![0, 0, 1, 1, 1] x init hw hu (ix5 b a d h w)
      = Spec.pool n f d.val h.val w.val := by
  unfold Host.reduceWindow
  dsimp only
  rw [hinit]
  try simp only [Ideal.maximumf_def]
  rw [foldl_max_eq_sup, List.toFinset_finRange, max_bot_left]
  trans Finset.univ.sup (fun m : Fin SW.numel => Spec.nb n f d.val h.val w.val (SW.rowMajor.symm m 2).val (SW.rowMajor.symm m 3).val
    (SW.rowMajor.symm m 4).val)
  · refine congrArg (Finset.sup Finset.univ) (funext fun m => ?_)
    have q0 : (SW.rowMajor.symm m 0).val < 1 := (SW.rowMajor.symm m 0).isLt
    have q1 : (SW.rowMajor.symm m 1).val < 1 := (SW.rowMajor.symm m 1).isLt
    have hb : b.val < n0 := b.isLt
    have ha : a.val < n1 := a.isLt
    unfold Spec.nb
    by_cases hc : 1 ≤ d.val + (SW.rowMajor.symm m 2).val ∧ d.val + (SW.rowMajor.symm m 2).val - 1 < n ∧ 1 ≤ h.val + (SW.rowMajor.symm m 3).val ∧ h.val + (SW.rowMajor.symm m 3).val - 1 < n
        ∧ 1 ≤ w.val + (SW.rowMajor.symm m 4).val ∧ w.val + (SW.rowMajor.symm m 4).val - 1 < n
    · rw [if_pos hc, dif_pos]
      · rw [← hf ⟨d.val + (SW.rowMajor.symm m 2).val - 1, hc.2.1⟩ ⟨h.val + (SW.rowMajor.symm m 3).val - 1, hc.2.2.2.1⟩ ⟨w.val + (SW.rowMajor.symm m 4).val - 1, hc.2.2.2.2.2⟩]
        refine congrArg x (funext fun c => Fin.ext ?_)
        match c with
        | ⟨0, _⟩ => show b.val * 1 + (SW.rowMajor.symm m 0).val - 0 = b.val; omega
        | ⟨1, _⟩ => show a.val * 1 + (SW.rowMajor.symm m 1).val - 0 = a.val; omega
        | ⟨2, _⟩ => show d.val * 1 + (SW.rowMajor.symm m 2).val - 1 = d.val + (SW.rowMajor.symm m 2).val - 1; omega
        | ⟨3, _⟩ => show h.val * 1 + (SW.rowMajor.symm m 3).val - 1 = h.val + (SW.rowMajor.symm m 3).val - 1; omega
        | ⟨4, _⟩ => show w.val * 1 + (SW.rowMajor.symm m 4).val - 1 = w.val + (SW.rowMajor.symm m 4).val - 1; omega
      · intro c
        match c with
        | ⟨0, _⟩ => show 0 ≤ b.val * 1 + (SW.rowMajor.symm m 0).val ∧ b.val * 1 + (SW.rowMajor.symm m 0).val - 0 < n0; omega
        | ⟨1, _⟩ => show 0 ≤ a.val * 1 + (SW.rowMajor.symm m 1).val ∧ a.val * 1 + (SW.rowMajor.symm m 1).val - 0 < n1; omega
        | ⟨2, _⟩ => show 1 ≤ d.val * 1 + (SW.rowMajor.symm m 2).val ∧ d.val * 1 + (SW.rowMajor.symm m 2).val - 1 < n; omega
        | ⟨3, _⟩ => show 1 ≤ h.val * 1 + (SW.rowMajor.symm m 3).val ∧ h.val * 1 + (SW.rowMajor.symm m 3).val - 1 < n; omega
        | ⟨4, _⟩ => show 1 ≤ w.val * 1 + (SW.rowMajor.symm m 4).val ∧ w.val * 1 + (SW.rowMajor.symm m 4).val - 1 < n; omega
    · rw [if_neg hc, dif_neg]
      intro hin
      apply hc
      have h2 : 1 ≤ d.val * 1 + (SW.rowMajor.symm m 2).val ∧ d.val * 1 + (SW.rowMajor.symm m 2).val - 1 < n := hin 2
      have h3 : 1 ≤ h.val * 1 + (SW.rowMajor.symm m 3).val ∧ h.val * 1 + (SW.rowMajor.symm m 3).val - 1 < n := hin 3
      have h4 : 1 ≤ w.val * 1 + (SW.rowMajor.symm m 4).val ∧ w.val * 1 + (SW.rowMajor.symm m 4).val - 1 < n := hin 4
      omega
  · unfold Spec.pool
    apply le_antisymm
    · refine Finset.sup_le fun m _ => ?_
      have i2 : (SW.rowMajor.symm m 2).val < 3 := (SW.rowMajor.symm m 2).isLt
      have i3 : (SW.rowMajor.symm m 3).val < 3 := (SW.rowMajor.symm m 3).isLt
      have i4 : (SW.rowMajor.symm m 4).val < 3 := (SW.rowMajor.symm m 4).isLt
      exact Finset.le_sup_of_le (Finset.mem_range.2 i2) (Finset.le_sup_of_le (Finset.mem_range.2 i3)
        (Finset.le_sup (f := fun k => Spec.nb n f d.val h.val w.val (SW.rowMajor.symm m 2).val (SW.rowMajor.symm m 3).val k)
          (Finset.mem_range.2 i4)))
    · refine Finset.sup_le fun i hi => Finset.sup_le fun j hj => Finset.sup_le fun k hk => ?_
      have e := Finset.le_sup (f := fun m : Fin SW.numel => Spec.nb n f d.val h.val w.val (SW.rowMajor.symm m 2).val
        (SW.rowMajor.symm m 3).val (SW.rowMajor.symm m 4).val)
        (Finset.mem_univ (SW.rowMajor (ix5 (0 : Fin 1) (0 : Fin 1) (⟨i, Finset.mem_range.1 hi⟩ : Fin 3) (⟨j, Finset.mem_range.1 hj⟩ : Fin 3)
          (⟨k, Finset.mem_range.1 hk⟩ : Fin 3))))
      simp only [Equiv.symm_apply_apply] at e
      exact e

/-! ## A level's negative part -/

/-- The shape relations the negative part's operations rest on. -/
structure NegFacts (n : ℕ) : Prop where
  lsm : LsmFacts n
  sl : (SC n).Slices ![0, 0, 0, 0, 0, 0] (SD n)
  cast1 : (SD n).ShapeCasts (SB n)
  bZZ : SZ.BroadcastsInDim SZ (![] : Fin 0 → Fin SZ.rank)
  win : (SB n).ReduceWindows (![1, 1, 3, 3, 3] : Fin 5 → Nat) ![1, 1, 1, 1, 1] ![0, 0, 1, 1, 1] ![0, 0, 1, 1, 1] (SB n)
  redAll : (SB n).ReducesTo [0, 1, 2, 3, 4] SZ

section Level

variable {n : ℕ} (N : NegFacts n)

/-! ### The operations -/

def v2 (x0 : FVec Ideal (SA n) .f32) : FVec Ideal (SC n) .f32 := Host.negf (v1 N.lsm x0)
def v3 (x0 : FVec Ideal (SA n) .f32) : FVec Ideal (SC n) .f32 := Host.exp (v1 N.lsm x0)
def v4 (x0 : FVec Ideal (SA n) .f32) : FVec Ideal (SD n) .f32 := extractStridedSlice (SD n) ![0, 0, 0, 0, 0, 0] (v2 N x0) N.sl
/-- Class 0's negative log-likelihood. -/
def v5 (x0 : FVec Ideal (SA n) .f32) : FVec Ideal (SB n) .f32 := shapeCast _ (v4 N x0) N.cast1
def v6 (x0 : FVec Ideal (SA n) .f32) : FVec Ideal (SD n) .f32 := extractStridedSlice (SD n) ![0, 0, 0, 0, 0, 0] (v3 N x0) N.sl
/-- Class 0's probability. -/
def v7 (x0 : FVec Ideal (SA n) .f32) : FVec Ideal (SB n) .f32 := shapeCast _ (v6 N x0) N.cast1
/-- The scalar minus one. -/
def negOne : FVec Ideal SZ .f32 := constant SZ .f32 0xBF800000#32
def v8 : FVec Ideal (SB n) .f32 := broadcastInDim (SB n) ![] N.lsm.bZB negOne
def v9 (x2 : FVec Ideal (SB n) .f32) : IVec (SB n) 1 := cmpf .oeq x2 (v8 N)
/-- The background mask. -/
def v10 (x2 : FVec Ideal (SB n) .f32) : FVec Ideal (SB n) .f32 := uitofp .f32 (v9 N x2)
def v11 : FVec Ideal SZ .f32 := broadcastInDim SZ ![] N.bZZ negInf
/-- The window maximum. -/
def v12 (x0 : FVec Ideal (SA n) .f32) : FVec Ideal (SB n) .f32 :=
  Host.reduceWindow FloatOps.maximumf ![1, 1, 3, 3, 3] ![1, 1, 1, 1, 1] ![0, 0, 1, 1, 1] ![0, 0, 1, 1, 1] (v5 N x0) (v11 N) N.win N.lsm.hZ
def v13 (x0 : FVec Ideal (SA n) .f32) : IVec (SB n) 1 := cmpf .oeq (v12 N x0) (v5 N x0)
/-- The local-maximum mask. -/
def v14 (x0 : FVec Ideal (SA n) .f32) : FVec Ideal (SB n) .f32 := uitofp .f32 (v13 N x0)
def v15 (x0 : FVec Ideal (SA n) .f32) (x2 : FVec Ideal (SB n) .f32) : FVec Ideal (SB n) .f32 := mulf (v10 N x2) (v14 N x0)
/-- The scalar one. -/
def one : FVec Ideal SZ .f32 := constant SZ .f32 0x3F800000#32
def v16 : FVec Ideal (SB n) .f32 := broadcastInDim (SB n) ![] N.lsm.bZB one
def v17 (x0 : FVec Ideal (SA n) .f32) : FVec Ideal (SB n) .f32 := subf (v16 N) (v7 N x0)
def v18 (x0 : FVec Ideal (SA n) .f32) : FVec Ideal (SB n) .f32 := mulf (v17 N x0) (v17 N x0)
/-- The masked focal weight. -/
def v19 (x0 : FVec Ideal (SA n) .f32) (x2 : FVec Ideal (SB n) .f32) : FVec Ideal (SB n) .f32 := mulf (v18 N x0) (v15 N x0 x2)
def v20 (x0 : FVec Ideal (SA n) .f32) (x2 : FVec Ideal (SB n) .f32) : FVec Ideal (SB n) .f32 := mulf (v5 N x0) (v19 N x0 x2)
/-- The negative loss. -/
def v21 (x0 : FVec Ideal (SA n) .f32) (x2 : FVec Ideal (SB n) .f32) : FVec Ideal SZ .f32 :=
  Host.reduceAdd (v20 N x0 x2) zero N.redAll N.lsm.hZ
/-- The negative count. -/
def v22 (x0 : FVec Ideal (SA n) .f32) (x2 : FVec Ideal (SB n) .f32) : FVec Ideal SZ .f32 :=
  Host.reduceAdd (v19 N x0 x2) zero N.redAll N.lsm.hZ

/-! ### Read at an index -/

variable (x0 : FVec Ideal (SA n) .f32) (x2 : FVec Ideal (SB n) .f32) (b : Fin 4) (a : Fin 3) (d h w : Fin n)

/-- Class 0 sliced out of a (class, anchor) array and the unit class axis dropped. -/
theorem sliceCast_apply (y : FVec Ideal (SC n) .f32) :
    shapeCast (SB n) (extractStridedSlice (SD n) ![0, 0, 0, 0, 0, 0] y N.sl) N.cast1 (ix5 b a d h w) = y (ix6 b (0 : Fin 3) a d h w) := by
  rw [shapeCast_apply _ N.cast1 (ix5 b a d h w) (ix6 b (0 : Fin 1) a d h w)
    (by rw [Shape.rowMajor_val_six, Shape.rowMajor_val_five]
        show ((((b.val * 1 + 0) * 3 + a.val) * n + d.val) * n + h.val) * n + w.val = (((b.val * 3 + a.val) * n + d.val) * n + h.val) * n + w.val
        rw [Nat.mul_one, Nat.add_zero])]
  exact extractStridedSlice_apply ![0, 0, 0, 0, 0, 0] y N.sl (ix6 b (0 : Fin 1) a d h w) (ix6 b (0 : Fin 3) a d h w) (fun c => match c with
    | ⟨0, _⟩ => by show b.val = 0 + b.val; omega
    | ⟨1, _⟩ => by show (0 : Fin 3).val = 0 + (0 : Fin 1).val; rfl
    | ⟨2, _⟩ => by show a.val = 0 + a.val; omega
    | ⟨3, _⟩ => by show d.val = 0 + d.val; omega
    | ⟨4, _⟩ => by show h.val = 0 + h.val; omega
    | ⟨5, _⟩ => by show w.val = 0 + w.val; omega)

/-- Class 0's negative log-likelihood at a voxel. -/
theorem v5_apply : v5 N x0 (ix5 b a d h w) = Spec.nllAt (rd5 x0) b.val a.val d.val h.val w.val := by
  unfold v5 v4
  rw [sliceCast_apply N]
  show -(v1 N.lsm x0 (ix6 b (0 : Fin 3) a d h w)) = _
  rw [v1_apply]
  rfl

/-- Class 0's probability at a voxel. -/
theorem v7_apply : v7 N x0 (ix5 b a d h w) = Spec.probAt (rd5 x0) 0 b.val a.val d.val h.val w.val := by
  unfold v7 v6
  rw [sliceCast_apply N]
  show Ideal.exp (v1 N.lsm x0 (ix6 b (0 : Fin 3) a d h w)) = _
  rw [v1_apply]
  rfl

/-- The background mask at a voxel. -/
theorem v10_apply : v10 N x2 (ix5 b a d h w) = Spec.ind (rd5 x2 b.val a.val d.val h.val w.val = -1) := by
  show FloatOps.uitofp (F := Ideal) .f32 (FloatOps.cmpf (F := Ideal) (φ := .f32) .oeq (x2 (ix5 b a d h w)) (v8 N (ix5 b a d h w))) = _
  rw [uitofp_cmp_oeq, rd5_ix5]
  have e : v8 N (ix5 b a d h w) = -1 := by
    unfold v8
    rw [broadcastInDim_apply _ N.lsm.bZB negOne (ix5 b a d h w) ix0 (fun c => c.elim0)]
    exact ofBits_negOne_f32
  rw [e]

/-- The window maximum at a voxel: the neighbourhood maximum of the negative log-likelihood. -/
theorem v12_apply : v12 N x0 (ix5 b a d h w) = Spec.pool n (Spec.nllAt (rd5 x0) b.val a.val) d.val h.val w.val := by
  unfold v12
  refine reduceWindow_pool (v5 N x0) (v11 N) (fun i => ?_) N.win N.lsm.hZ _ b a (fun d' h' w' => v5_apply N x0 b a d' h' w') d h w
  unfold v11
  rw [broadcastInDim_apply _ N.bZZ negInf i ix0 (fun c => c.elim0)]
  exact ofBits_negInf_f32

/-- The local-maximum mask at a voxel. -/
theorem v14_apply : v14 N x0 (ix5 b a d h w)
    = Spec.ind (Spec.pool n (Spec.nllAt (rd5 x0) b.val a.val) d.val h.val w.val = Spec.nllAt (rd5 x0) b.val a.val d.val h.val w.val) := by
  show FloatOps.uitofp (F := Ideal) .f32 (FloatOps.cmpf (F := Ideal) (φ := .f32) .oeq (v12 N x0 (ix5 b a d h w)) (v5 N x0 (ix5 b a d h w))) = _
  rw [uitofp_cmp_oeq, v12_apply, v5_apply]

/-- The masked focal weight at a voxel. -/
theorem v19_apply : v19 N x0 x2 (ix5 b a d h w) = Spec.wneg n (rd5 x0) (rd5 x2) b.val a.val d.val h.val w.val := by
  show (v16 N (ix5 b a d h w) - v7 N x0 (ix5 b a d h w)) * (v16 N (ix5 b a d h w) - v7 N x0 (ix5 b a d h w))
    * (v10 N x2 (ix5 b a d h w) * v14 N x0 (ix5 b a d h w)) = _
  have e : v16 N (ix5 b a d h w) = 1 := by
    unfold v16
    rw [broadcastInDim_apply _ N.lsm.bZB one (ix5 b a d h w) ix0 (fun c => c.elim0)]
    exact Ideal.ofBits_one_f32
  rw [e, v7_apply, v10_apply, v14_apply]
  rfl

/-- The loss term at a voxel. -/
theorem v20_apply : v20 N x0 x2 (ix5 b a d h w)
    = Spec.nllAt (rd5 x0) b.val a.val d.val h.val w.val * Spec.wneg n (rd5 x0) (rd5 x2) b.val a.val d.val h.val w.val := by
  show v5 N x0 (ix5 b a d h w) * v19 N x0 x2 (ix5 b a d h w) = _
  rw [v5_apply, v19_apply]

/-! ### The two sums -/

/-- THE NEGATIVE LOSS: the specification's over the readers. -/
theorem v21_eq (i : SZ.Idx) : v21 N x0 x2 i = Spec.lossNeg n (rd5 x0) (rd5 x2) := by
  unfold v21
  simp only [Host.reduceAdd, Ideal.hostReduceAdd_def]
  rw [Ideal.hostReduceAdd_total N.redAll (fun c => c.elim0)]
  show Ideal.ofBits .f32 0x00000000#32 + _ = _
  rw [Ideal.ofBits_zero_f32, zero_add]
  exact sum_idx5_range _ _ (fun b a d h w => v20_apply N x0 x2 b a d h w)

/-- THE NEGATIVE COUNT: the specification's over the readers. -/
theorem v22_eq (i : SZ.Idx) : v22 N x0 x2 i = Spec.countNeg n (rd5 x0) (rd5 x2) := by
  unfold v22
  simp only [Host.reduceAdd, Ideal.hostReduceAdd_def]
  rw [Ideal.hostReduceAdd_total N.redAll (fun c => c.elim0)]
  show Ideal.ofBits .f32 0x00000000#32 + _ = _
  rw [Ideal.ofBits_zero_f32, zero_add]
  exact sum_idx5_range _ _ (fun b a d h w => v19_apply N x0 x2 b a d h w)

end Level

end Cert.Hand.RefNeg

end
-- ==== Proof.Ref.Neg.lean ====
/-
  The reference's negative loss and count, at both pyramid levels, ARE the specification's: the program's stages are
  the level-generic array program at extent 64 (and 32), whose two sums are `Spec.lossNeg` and `Spec.countNeg` over the
  argument arrays' readers. No precondition is used: the specification's forms are the reference's own formulas.
-/
import proofs.«424358_j44040594653645_2_alg».proof.Proof.RefImports
import proofs.«424358_j44040594653645_2_alg».proof.Proof.Ref.LogSoftmax
import proofs.«424358_j44040594653645_2_alg».proof.Proof.Ref.NegLemmas

noncomputable section

namespace Cert.Hand.RefNeg

open Idealize.ShloMosaic Idealize.ShloMosaic.ValueIdx Cert.Hand Cert.Hand.Readers Cert.Hand.RefLsm Cert.ReferenceIdeal

/-- The shape relations at extent 64. -/
theorem negFacts64 : NegFacts 64 where
  lsm := facts64
  sl := by decide
  cast1 := by decide
  bZZ := by decide
  win := by decide
  redAll := by decide

/-- The shape relations at extent 32. -/
theorem negFacts32 : NegFacts 32 where
  lsm := facts32
  sl := by decide
  cast1 := by decide
  bZZ := by decide
  win := by decide
  redAll := by decide

/-- Level 0's negative loss is the specification's. -/
theorem ref_lossNeg0 (x0 : (⟨S4x9x64x64x64, .f32⟩ : BufTy).Contents (Elt Ideal)) (x2 : (⟨S4x3x64x64x64, .f32⟩ : BufTy).Contents (Elt Ideal)) :
    ReadP.val_main_v21 (F := Ideal) x0 x2 ix0 = Spec.lossNeg 64 (rd5 x0) (rd5 x2) :=
  v21_eq negFacts64 x0 x2 ix0

/-- Level 0's negative count is the specification's. -/
theorem ref_countNeg0 (x0 : (⟨S4x9x64x64x64, .f32⟩ : BufTy).Contents (Elt Ideal)) (x2 : (⟨S4x3x64x64x64, .f32⟩ : BufTy).Contents (Elt Ideal)) :
    ReadP.val_main_v22 (F := Ideal) x0 x2 ix0 = Spec.countNeg 64 (rd5 x0) (rd5 x2) :=
  v22_eq negFacts64 x0 x2 ix0

/-- Level 1's negative loss is the specification's. -/
theorem ref_lossNeg1 (x1 : (⟨S4x9x32x32x32, .f32⟩ : BufTy).Contents (Elt Ideal)) (x3 : (⟨S4x3x32x32x32, .f32⟩ : BufTy).Contents (Elt Ideal)) :
    ReadP.val_main_v189 (F := Ideal) x1 x3 ix0 = Spec.lossNeg 32 (rd5 x1) (rd5 x3) :=
  v21_eq negFacts32 x1 x3 ix0

/-- Level 1's negative count is the specification's. -/
theorem ref_countNeg1 (x1 : (⟨S4x9x32x32x32, .f32⟩ : BufTy).Contents (Elt Ideal)) (x3 : (⟨S4x3x32x32x32, .f32⟩ : BufTy).Contents (Elt Ideal)) :
    ReadP.val_main_v190 (F := Ideal) x1 x3 ix0 = Spec.countNeg 32 (rd5 x1) (rd5 x3) :=
  v22_eq negFacts32 x1 x3 ix0

end Cert.Hand.RefNeg

end
-- ==== Proof.Ref.PosLemmas.lean ====
/-
  Lemmas for the reference's positive-sample part that need only the library: a point gather (every operand axis
  collapsed, one start index per result element) of a rank-5 or rank-6 operand read at a result index; a concatenation
  of unit-width columns read at a column; the index normalisation "a negative word counts from the end" followed by
  the gather's clamp as the specification's position.
-/
import proofs.«424358_j44040594653645_2_alg».proof.Proof.Spec
import proofs.«424358_j44040594653645_2_alg».proof.Proof.Readers
import Idealize.ShloMosaic.Lib.Pipeline.Value
import Idealize.ShloMosaic.Lib.ValueIdxRank6
import Idealize.ShloMosaic.PureOps.Ideal.Laws
import Idealize.ShloMosaic.PureOps.Reduce
import Idealize.ShloMosaic.Lib.IdealHost

noncomputable section

namespace Cert.Hand.RefPosLemmas

open Idealize.ShloMosaic Idealize.ShloMosaic.ValueIdx

/-! ## Point gathers -/

section Gather
variable {α : Type}

/-- The dimension numbers of a point gather of a rank-5 operand at start indices `[R, C, 5]`. -/
abbrev pt5Dims (n0 n1 n2 n3 n4 R C : Nat)
    (wf : GatherDims.WF ⟨5, ![n0, n1, n2, n3, n4]⟩ ⟨3, ![R, C, 5]⟩ ⟨2, ![R, C]⟩ [] [0, 1, 2, 3, 4] [] [0, 1, 2, 3, 4] [] 2 ![1, 1, 1, 1, 1]) :
    GatherDims ⟨5, ![n0, n1, n2, n3, n4]⟩ ⟨3, ![R, C, 5]⟩ ⟨2, ![R, C]⟩ where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := wf

/-- One coordinate of the operand index a point gather reads: the start index's component, read signed and clamped. -/
theorem pt5_coord {n0 n1 n2 n3 n4 R C w : Nat}
    (wf : GatherDims.WF ⟨5, ![n0, n1, n2, n3, n4]⟩ ⟨3, ![R, C, 5]⟩ ⟨2, ![R, C]⟩ [] [0, 1, 2, 3, 4] [] [0, 1, 2, 3, 4] [] 2 ![1, 1, 1, 1, 1])
    (idx : IVec ⟨3, ![R, C, 5]⟩ w) (r : Fin R) (c : Fin C) (a : Fin 5) :
    ((pt5Dims n0 n1 n2 n3 n4 R C wf).operandIdx (ix2 r c) idx a).val
      = min (idx (ix3 r c a)).toInt.toNat ((![n0, n1, n2, n3, n4] a) - 1) := by
  show (pt5Dims n0 n1 n2 n3 n4 R C wf).start (ix2 r c) idx a + (pt5Dims n0 n1 n2 n3 n4 R C wf).batchCoord (ix2 r c) a
    + (pt5Dims n0 n1 n2 n3 n4 R C wf).offCoord (ix2 r c) a = _
  have hmem : a ∈ (pt5Dims n0 n1 n2 n3 n4 R C wf).startIndexMap := by
    show a ∈ ([0, 1, 2, 3, 4] : List (Fin 5)); fin_cases a <;> simp
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem]
  have hsi : (pt5Dims n0 n1 n2 n3 n4 R C wf).siIdx (ix2 r c) ⟨List.idxOf a (pt5Dims n0 n1 n2 n3 n4 R C wf).startIndexMap,
      List.idxOf_lt_length_iff.2 hmem⟩ = ix3 r c a := by
    funext b; refine Fin.ext ?_
    match b with
    | ⟨0, _⟩ => rfl
    | ⟨1, _⟩ => rfl
    | ⟨2, _⟩ => fin_cases a <;> rfl
  rw [hsi]
  fin_cases a <;> rfl

/-- A point gather of a rank-5 operand read at a result index: the operand at the five clamped components of the start index. -/
theorem gather_pt5_apply {n0 n1 n2 n3 n4 R C w : Nat} (h0 : 0 < n0) (h1 : 0 < n1) (h2 : 0 < n2) (h3 : 0 < n3) (h4 : 0 < n4)
    (wf : GatherDims.WF ⟨5, ![n0, n1, n2, n3, n4]⟩ ⟨3, ![R, C, 5]⟩ ⟨2, ![R, C]⟩ [] [0, 1, 2, 3, 4] [] [0, 1, 2, 3, 4] [] 2 ![1, 1, 1, 1, 1])
    (x : (⟨5, ![n0, n1, n2, n3, n4]⟩ : Shape).Idx → α) (idx : IVec ⟨3, ![R, C, 5]⟩ w) (r : Fin R) (c : Fin C) :
    Host.gather (pt5Dims n0 n1 n2 n3 n4 R C wf) x idx (ix2 r c)
      = x (ix5 ⟨min (idx (ix3 r c 0)).toInt.toNat (n0 - 1), by omega⟩ ⟨min (idx (ix3 r c 1)).toInt.toNat (n1 - 1), by omega⟩
          ⟨min (idx (ix3 r c 2)).toInt.toNat (n2 - 1), by omega⟩ ⟨min (idx (ix3 r c 3)).toInt.toNat (n3 - 1), by omega⟩
          ⟨min (idx (ix3 r c 4)).toInt.toNat (n4 - 1), by omega⟩) := by
  unfold Host.gather
  congr 1
  funext a
  refine Fin.ext ?_
  rw [pt5_coord wf idx r c a]
  match a with
  | ⟨0, _⟩ => rfl
  | ⟨1, _⟩ => rfl
  | ⟨2, _⟩ => rfl
  | ⟨3, _⟩ => rfl
  | ⟨4, _⟩ => rfl

/-- The dimension numbers of a point gather of a rank-6 operand at start indices `[R, C, 6]`. -/
abbrev pt6Dims (n0 n1 n2 n3 n4 n5 R C : Nat)
    (wf : GatherDims.WF ⟨6, ![n0, n1, n2, n3, n4, n5]⟩ ⟨3, ![R, C, 6]⟩ ⟨2, ![R, C]⟩ [] [0, 1, 2, 3, 4, 5] [] [0, 1, 2, 3, 4, 5] [] 2 ![1, 1, 1, 1, 1, 1]) :
    GatherDims ⟨6, ![n0, n1, n2, n3, n4, n5]⟩ ⟨3, ![R, C, 6]⟩ ⟨2, ![R, C]⟩ where
  offsetDims := []
  collapsedSliceDims := [0, 1, 2, 3, 4, 5]
  operandBatchingDims := []
  startIndicesBatchingDims := []
  startIndexMap := [0, 1, 2, 3, 4, 5]
  indexVectorDim := 2
  sliceSizes := ![1, 1, 1, 1, 1, 1]
  wf := wf

theorem pt6_coord {n0 n1 n2 n3 n4 n5 R C w : Nat}
    (wf : GatherDims.WF ⟨6, ![n0, n1, n2, n3, n4, n5]⟩ ⟨3, ![R, C, 6]⟩ ⟨2, ![R, C]⟩ [] [0, 1, 2, 3, 4, 5] [] [0, 1, 2, 3, 4, 5] [] 2 ![1, 1, 1, 1, 1, 1])
    (idx : IVec ⟨3, ![R, C, 6]⟩ w) (r : Fin R) (c : Fin C) (a : Fin 6) :
    ((pt6Dims n0 n1 n2 n3 n4 n5 R C wf).operandIdx (ix2 r c) idx a).val
      = min (idx (ix3 r c a)).toInt.toNat ((![n0, n1, n2, n3, n4, n5] a) - 1) := by
  show (pt6Dims n0 n1 n2 n3 n4 n5 R C wf).start (ix2 r c) idx a + (pt6Dims n0 n1 n2 n3 n4 n5 R C wf).batchCoord (ix2 r c) a
    + (pt6Dims n0 n1 n2 n3 n4 n5 R C wf).offCoord (ix2 r c) a = _
  have hmem : a ∈ (pt6Dims n0 n1 n2 n3 n4 n5 R C wf).startIndexMap := by
    show a ∈ ([0, 1, 2, 3, 4, 5] : List (Fin 6)); fin_cases a <;> simp
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem]
  have hsi : (pt6Dims n0 n1 n2 n3 n4 n5 R C wf).siIdx (ix2 r c) ⟨List.idxOf a (pt6Dims n0 n1 n2 n3 n4 n5 R C wf).startIndexMap,
      List.idxOf_lt_length_iff.2 hmem⟩ = ix3 r c a := by
    funext b; refine Fin.ext ?_
    match b with
    | ⟨0, _⟩ => rfl
    | ⟨1, _⟩ => rfl
    | ⟨2, _⟩ => fin_cases a <;> rfl
  rw [hsi]
  fin_cases a <;> rfl

/-- A point gather of a rank-6 operand read at a result index. -/
theorem gather_pt6_apply {n0 n1 n2 n3 n4 n5 R C w : Nat} (h0 : 0 < n0) (h1 : 0 < n1) (h2 : 0 < n2) (h3 : 0 < n3) (h4 : 0 < n4) (h5 : 0 < n5)
    (wf : GatherDims.WF ⟨6, ![n0, n1, n2, n3, n4, n5]⟩ ⟨3, ![R, C, 6]⟩ ⟨2, ![R, C]⟩ [] [0, 1, 2, 3, 4, 5] [] [0, 1, 2, 3, 4, 5] [] 2 ![1, 1, 1, 1, 1, 1])
    (x : (⟨6, ![n0, n1, n2, n3, n4, n5]⟩ : Shape).Idx → α) (idx : IVec ⟨3, ![R, C, 6]⟩ w) (r : Fin R) (c : Fin C) :
    Host.gather (pt6Dims n0 n1 n2 n3 n4 n5 R C wf) x idx (ix2 r c)
      = x (ix6 ⟨min (idx (ix3 r c 0)).toInt.toNat (n0 - 1), by omega⟩ ⟨min (idx (ix3 r c 1)).toInt.toNat (n1 - 1), by omega⟩
          ⟨min (idx (ix3 r c 2)).toInt.toNat (n2 - 1), by omega⟩ ⟨min (idx (ix3 r c 3)).toInt.toNat (n3 - 1), by omega⟩
          ⟨min (idx (ix3 r c 4)).toInt.toNat (n4 - 1), by omega⟩ ⟨min (idx (ix3 r c 5)).toInt.toNat (n5 - 1), by omega⟩) := by
  unfold Host.gather
  congr 1
  funext a
  refine Fin.ext ?_
  rw [pt6_coord wf idx r c a]
  match a with
  | ⟨0, _⟩ => rfl
  | ⟨1, _⟩ => rfl
  | ⟨2, _⟩ => rfl
  | ⟨3, _⟩ => rfl
  | ⟨4, _⟩ => rfl
  | ⟨5, _⟩ => rfl

/-- The same, the operand given through a reader of natural-number coordinates. -/
theorem gather_pt5_read {n0 n1 n2 n3 n4 R C w : Nat} (h0 : 0 < n0) (h1 : 0 < n1) (h2 : 0 < n2) (h3 : 0 < n3) (h4 : 0 < n4)
    (wf : GatherDims.WF ⟨5, ![n0, n1, n2, n3, n4]⟩ ⟨3, ![R, C, 5]⟩ ⟨2, ![R, C]⟩ [] [0, 1, 2, 3, 4] [] [0, 1, 2, 3, 4] [] 2 ![1, 1, 1, 1, 1])
    (x : (⟨5, ![n0, n1, n2, n3, n4]⟩ : Shape).Idx → α) (idx : IVec ⟨3, ![R, C, 5]⟩ w) (r : Fin R) (c : Fin C)
    (G : ℕ → ℕ → ℕ → ℕ → ℕ → α)
    (hG : ∀ (a0 : Fin n0) (a1 : Fin n1) (a2 : Fin n2) (a3 : Fin n3) (a4 : Fin n4), x (ix5 a0 a1 a2 a3 a4) = G a0.val a1.val a2.val a3.val a4.val) :
    Host.gather (pt5Dims n0 n1 n2 n3 n4 R C wf) x idx (ix2 r c)
      = G (min (idx (ix3 r c 0)).toInt.toNat (n0 - 1)) (min (idx (ix3 r c 1)).toInt.toNat (n1 - 1))
          (min (idx (ix3 r c 2)).toInt.toNat (n2 - 1)) (min (idx (ix3 r c 3)).toInt.toNat (n3 - 1))
          (min (idx (ix3 r c 4)).toInt.toNat (n4 - 1)) := by
  rw [gather_pt5_apply h0 h1 h2 h3 h4]; exact hG _ _ _ _ _

theorem gather_pt6_read {n0 n1 n2 n3 n4 n5 R C w : Nat} (h0 : 0 < n0) (h1 : 0 < n1) (h2 : 0 < n2) (h3 : 0 < n3) (h4 : 0 < n4) (h5 : 0 < n5)
    (wf : GatherDims.WF ⟨6, ![n0, n1, n2, n3, n4, n5]⟩ ⟨3, ![R, C, 6]⟩ ⟨2, ![R, C]⟩ [] [0, 1, 2, 3, 4, 5] [] [0, 1, 2, 3, 4, 5] [] 2 ![1, 1, 1, 1, 1, 1])
    (x : (⟨6, ![n0, n1, n2, n3, n4, n5]⟩ : Shape).Idx → α) (idx : IVec ⟨3, ![R, C, 6]⟩ w) (r : Fin R) (c : Fin C)
    (G : ℕ → ℕ → ℕ → ℕ → ℕ → ℕ → α)
    (hG : ∀ (a0 : Fin n0) (a1 : Fin n1) (a2 : Fin n2) (a3 : Fin n3) (a4 : Fin n4) (a5 : Fin n5),
      x (ix6 a0 a1 a2 a3 a4 a5) = G a0.val a1.val a2.val a3.val a4.val a5.val) :
    Host.gather (pt6Dims n0 n1 n2 n3 n4 n5 R C wf) x idx (ix2 r c)
      = G (min (idx (ix3 r c 0)).toInt.toNat (n0 - 1)) (min (idx (ix3 r c 1)).toInt.toNat (n1 - 1))
          (min (idx (ix3 r c 2)).toInt.toNat (n2 - 1)) (min (idx (ix3 r c 3)).toInt.toNat (n3 - 1))
          (min (idx (ix3 r c 4)).toInt.toNat (n4 - 1)) (min (idx (ix3 r c 5)).toInt.toNat (n5 - 1)) := by
  rw [gather_pt6_apply h0 h1 h2 h3 h4 h5]; exact hG _ _ _ _ _ _

/-- A gather of a vector at one start index per result element, the vector given through a reader. -/
theorem gather_take_read {N R C w : Nat} (hN : 0 < N)
    (wf : GatherDims.WF ⟨1, ![N]⟩ ⟨3, ![R, C, 1]⟩ ⟨2, ![R, C]⟩ [] [0] [] [0] [] 2 ![1])
    (x : (⟨1, ![N]⟩ : Shape).Idx → α) (idx : IVec ⟨3, ![R, C, 1]⟩ w) (r : Fin R) (c : Fin C)
    (G : ℕ → α) (hG : ∀ a : Fin N, x (ix1 a) = G a.val) :
    Host.gather (takeDims N R C wf) x idx (ix2 r c) = G (min (idx (ix3 r c 0)).toInt.toNat (N - 1)) := by
  rw [gather_take_apply hN wf x idx (ix2 r c), hG]
  have : takeIdx (ix2 r c) = (ix3 r c 0 : (⟨3, ![R, C, 1]⟩ : Shape).Idx) := by
    funext a; match a with | ⟨0, _⟩ => rfl | ⟨1, _⟩ => rfl | ⟨2, _⟩ => rfl
  show G (min (idx (takeIdx (ix2 r c))).toInt.toNat (N - 1)) = _
  rw [this]

end Gather

/-! ## Index words -/

/-- The index normalisation followed by the gather's clamp is the specification's position. -/
theorem nidx_eq (x lit : BitVec 32) (e : ℕ) (hl : lit = BitVec.ofNat 32 e) :
    min (Scalar.select (IntOp.cmpi .slt x 0#32) (IntOp.addi x lit) x).toInt.toNat (e - 1) = Spec.nidx x e := by
  subst hl
  unfold Spec.nidx Scalar.select IntOp.cmpi
  cases h : x.slt 0#32 <;> simp [IntOp.addi]

/-- The batch coordinate: the iota word of a batch below four, normalised and clamped, is the batch. -/
theorem batch_eq (b : Fin 4) :
    min (Scalar.select (IntOp.cmpi .slt (BitVec.ofNat 32 b.val) 0#32) (IntOp.addi (BitVec.ofNat 32 b.val) 4#32) (BitVec.ofNat 32 b.val)).toInt.toNat (4 - 1)
      = b.val := by
  fin_cases b <;> decide

/-- A sample is valid exactly when the comparison's bit is one. -/
theorem valid_iff (Cd : ℕ → ℕ → ℕ → BitVec 32) (b p : ℕ) :
    IntOp.cmpi .sgt (Cd b p 0) 4294967295#32 = 1#1 ↔ Spec.valid Cd b p := by
  unfold Spec.valid IntOp.cmpi
  cases h : (4294967295#32).slt (Cd b p 0) <;> simp

/-- An index word normalised: a negative word counts from the end of an axis whose extent is the word `lit`. -/
def nw (c lit : BitVec 32) : BitVec 32 := Scalar.select (IntOp.cmpi .slt c 0#32) (IntOp.addi c lit) c

theorem nidx_nw (c lit : BitVec 32) (e : ℕ) (hl : lit = BitVec.ofNat 32 e) :
    min (nw c lit).toInt.toNat (e - 1) = Spec.nidx c e := nidx_eq c lit e hl

theorem batch_nw (b : Fin 4) : min (nw (BitVec.ofNat 32 b.val) 4#32).toInt.toNat (4 - 1) = b.val := batch_eq b

/-- A select on the validity bit is the `if` on validity. -/
theorem select_valid {α : Type} (Cd : ℕ → ℕ → ℕ → BitVec 32) (b p : ℕ) (u v : α) :
    Scalar.select (IntOp.cmpi .sgt (Cd b p 0) 4294967295#32) u v = if Spec.valid Cd b p then u else v := by
  unfold Scalar.select
  by_cases h : Spec.valid Cd b p
  · rw [if_pos h]; exact if_pos ((valid_iff Cd b p).2 h)
  · rw [if_neg h]; exact if_neg (fun h' => h ((valid_iff Cd b p).1 h'))

/-- The validity bit as a float is the indicator of validity. -/
theorem uitofp_valid (Cd : ℕ → ℕ → ℕ → BitVec 32) (b p : ℕ) :
    FloatOps.uitofp (F := Ideal) .f32 (IntOp.cmpi .sgt (Cd b p 0) 4294967295#32) = Spec.ind (Spec.valid Cd b p) := by
  show (((IntOp.cmpi .sgt (Cd b p 0) 4294967295#32).toNat : ℝ) : EReal) = _
  unfold Spec.ind
  by_cases h : Spec.valid Cd b p
  · rw [if_pos h, (valid_iff Cd b p).2 h]; simp
  · rw [if_neg h, eq_zero_of_ne_one (fun h' => h ((valid_iff Cd b p).1 h'))]; simp

/-! ## Columns laid side by side -/

section Concat
variable {α : Type}

/-- The other coordinates of a column's index are the row's. -/
theorem col_coords {R C n : Nat} (r : Fin R) (c : Fin C) (k : Fin n) (hr : (⟨3, ![R, C, 1]⟩ : Shape).rank = (⟨3, ![R, C, n]⟩ : Shape).rank)
    (b : Fin (⟨3, ![R, C, 1]⟩ : Shape).rank) (hb : b.cast hr ≠ (2 : Fin 3)) :
    ((ix3 r c (0 : Fin 1) : (⟨3, ![R, C, 1]⟩ : Shape).Idx) b).val = ((ix3 r c k : (⟨3, ![R, C, n]⟩ : Shape).Idx) (b.cast hr)).val := by
  match b with
  | ⟨0, _⟩ => rfl
  | ⟨1, _⟩ => rfl
  | ⟨2, _⟩ => exact absurd rfl hb

/-- Five unit-width columns concatenated along the last axis, read at column `k`: column `k` at the row. -/
theorem concat5_apply {R C : Nat} (y0 y1 y2 y3 y4 : (⟨3, ![R, C, 1]⟩ : Shape).Idx → α)
    (h : Shape.Concatenates (([⟨⟨3, ![R, C, 1]⟩, y0⟩, ⟨⟨3, ![R, C, 1]⟩, y1⟩, ⟨⟨3, ![R, C, 1]⟩, y2⟩, ⟨⟨3, ![R, C, 1]⟩, y3⟩, ⟨⟨3, ![R, C, 1]⟩, y4⟩] :
      List ((s : Shape) × (s.Idx → α))).map (·.1)) ⟨3, ![R, C, 5]⟩ 2)
    (r : Fin R) (c : Fin C) (k : Fin 5) :
    concatenate ⟨3, ![R, C, 5]⟩ 2 [⟨⟨3, ![R, C, 1]⟩, y0⟩, ⟨⟨3, ![R, C, 1]⟩, y1⟩, ⟨⟨3, ![R, C, 1]⟩, y2⟩, ⟨⟨3, ![R, C, 1]⟩, y3⟩, ⟨⟨3, ![R, C, 1]⟩, y4⟩] h (ix3 r c k)
      = (![y0, y1, y2, y3, y4] k) (ix3 r c 0) := by
  match k with
  | ⟨0, hk⟩ => exact concatenate_apply_piece 2 _ h _ 0 (by simp) _ y0 rfl rfl 0 rfl (ix3 r c 0) (col_coords r c ⟨0, hk⟩ rfl) rfl
  | ⟨1, hk⟩ => exact concatenate_apply_piece 2 _ h _ 1 (by simp) _ y1 rfl rfl 1 rfl (ix3 r c 0) (col_coords r c ⟨1, hk⟩ rfl) rfl
  | ⟨2, hk⟩ => exact concatenate_apply_piece 2 _ h _ 2 (by simp) _ y2 rfl rfl 2 rfl (ix3 r c 0) (col_coords r c ⟨2, hk⟩ rfl) rfl
  | ⟨3, hk⟩ => exact concatenate_apply_piece 2 _ h _ 3 (by simp) _ y3 rfl rfl 3 rfl (ix3 r c 0) (col_coords r c ⟨3, hk⟩ rfl) rfl
  | ⟨4, hk⟩ => exact concatenate_apply_piece 2 _ h _ 4 (by simp) _ y4 rfl rfl 4 rfl (ix3 r c 0) (col_coords r c ⟨4, hk⟩ rfl) rfl

/-- Six unit-width columns likewise. -/
theorem concat6_apply {R C : Nat} (y0 y1 y2 y3 y4 y5 : (⟨3, ![R, C, 1]⟩ : Shape).Idx → α)
    (h : Shape.Concatenates (([⟨⟨3, ![R, C, 1]⟩, y0⟩, ⟨⟨3, ![R, C, 1]⟩, y1⟩, ⟨⟨3, ![R, C, 1]⟩, y2⟩, ⟨⟨3, ![R, C, 1]⟩, y3⟩, ⟨⟨3, ![R, C, 1]⟩, y4⟩, ⟨⟨3, ![R, C, 1]⟩, y5⟩] :
      List ((s : Shape) × (s.Idx → α))).map (·.1)) ⟨3, ![R, C, 6]⟩ 2)
    (r : Fin R) (c : Fin C) (k : Fin 6) :
    concatenate ⟨3, ![R, C, 6]⟩ 2 [⟨⟨3, ![R, C, 1]⟩, y0⟩, ⟨⟨3, ![R, C, 1]⟩, y1⟩, ⟨⟨3, ![R, C, 1]⟩, y2⟩, ⟨⟨3, ![R, C, 1]⟩, y3⟩, ⟨⟨3, ![R, C, 1]⟩, y4⟩, ⟨⟨3, ![R, C, 1]⟩, y5⟩] h (ix3 r c k)
      = (![y0, y1, y2, y3, y4, y5] k) (ix3 r c 0) := by
  match k with
  | ⟨0, hk⟩ => exact concatenate_apply_piece 2 _ h _ 0 (by simp) _ y0 rfl rfl 0 rfl (ix3 r c 0) (col_coords r c ⟨0, hk⟩ rfl) rfl
  | ⟨1, hk⟩ => exact concatenate_apply_piece 2 _ h _ 1 (by simp) _ y1 rfl rfl 1 rfl (ix3 r c 0) (col_coords r c ⟨1, hk⟩ rfl) rfl
  | ⟨2, hk⟩ => exact concatenate_apply_piece 2 _ h _ 2 (by simp) _ y2 rfl rfl 2 rfl (ix3 r c 0) (col_coords r c ⟨2, hk⟩ rfl) rfl
  | ⟨3, hk⟩ => exact concatenate_apply_piece 2 _ h _ 3 (by simp) _ y3 rfl rfl 3 rfl (ix3 r c 0) (col_coords r c ⟨3, hk⟩ rfl) rfl
  | ⟨4, hk⟩ => exact concatenate_apply_piece 2 _ h _ 4 (by simp) _ y4 rfl rfl 4 rfl (ix3 r c 0) (col_coords r c ⟨4, hk⟩ rfl) rfl
  | ⟨5, hk⟩ => exact concatenate_apply_piece 2 _ h _ 5 (by simp) _ y5 rfl rfl 5 rfl (ix3 r c 0) (col_coords r c ⟨5, hk⟩ rfl) rfl

end Concat

end Cert.Hand.RefPosLemmas

end
-- ==== Proof.Ref.Pos.lean ====
/-
  The reference's positive-sample part is the specification's: the positive loss and the positive count of each
  pyramid level, read off the reference's stages, are `Spec.lossPos` and `Spec.countPos` over the argument arrays'
  readers. Every stage is read at a sample index `(b, p)`: the coordinate words (zero for a padding sample), the index
  tensors' columns (each word normalised), the three point gathers at the clamped positions, the class weight's
  gather, the focal weight and the two sums.
-/
import proofs.«424358_j44040594653645_2_alg».proof.Proof.RefImports
import proofs.«424358_j44040594653645_2_alg».proof.Proof.Spec
import proofs.«424358_j44040594653645_2_alg».proof.Proof.Readers
import proofs.«424358_j44040594653645_2_alg».proof.Proof.Ref.PosLemmas
import proofs.«424358_j44040594653645_2_alg».proof.Proof.Ref.LogSoftmax

noncomputable section

namespace Cert.Hand.RefPos

open Cert.ReferenceIdeal Cert.ReferenceIdeal.Gen Cert.ReferenceIdeal.ReadP Idealize.ShloMosaic Idealize.ShloMosaic.ValueIdx
open Cert.Hand Cert.Hand.Readers Cert.Hand.RefPosLemmas Cert.Hand.RefLsm

/-- An index function at an index built from coordinates is the index built from the coordinates it names. -/
macro "idx_rfl3" : tactic =>
  `(tactic| (funext a; match a with | ⟨0, _⟩ => rfl | ⟨1, _⟩ => rfl | ⟨2, _⟩ => rfl))
macro "idx_rfl2" : tactic =>
  `(tactic| (funext a; match a with | ⟨0, _⟩ => rfl | ⟨1, _⟩ => rfl))

/-! ## Level 0: the coordinate words -/

section Level0
variable (x0 : (⟨S4x9x64x64x64, .f32⟩ : BufTy).Contents (Elt Ideal)) (x2 : (⟨S4x3x64x64x64, .f32⟩ : BufTy).Contents (Elt Ideal)) (x4 : (⟨S4x128x4, .i32⟩ : BufTy).Contents (Elt Ideal)) (x6 : (⟨S3, .f32⟩ : BufTy).Contents (Elt Ideal))

theorem sq_idx (b : Fin 4) (p : Fin 128) : idx_main_v24 (ix2 b p) = ix3 b p (0 : Fin 1) := by
  funext a; refine Fin.ext ?_
  have hb := b.isLt; have hp := p.isLt
  match a with
  | ⟨0, _⟩ => show (b.val * 128 + p.val) / 128 = b.val; omega
  | ⟨1, _⟩ => show (b.val * 128 + p.val) / 1 % 128 = p.val; omega
  | ⟨2, _⟩ => rfl

theorem v24_at (b : Fin 4) (p : Fin 128) : val_main_v24 (F := Ideal) x4 (ix2 b p) = rd3 x4 b.val p.val 0 := by
  rw [val_main_v24_apply, sq_idx, val_main_v23_apply, show idx_main_v23 (ix3 b p (0 : Fin 1)) = ix3 b p (0 : Fin 4) from by idx_rfl3]
  exact (rd3_ix3 x4 b p 0).symm

theorem v26_at (b : Fin 4) (p : Fin 128) : val_main_v26 (F := Ideal) x4 (ix2 b p) = IntOp.cmpi .sgt (rd3 x4 b.val p.val 0) 4294967295#32 := by
  rw [val_main_v26_apply, v24_at, val_main_v25_apply, val_main_c_apply]

theorem v28_at (b : Fin 4) (p : Fin 128) (j : Fin 4) : val_main_v28 (F := Ideal) x4 (ix3 b p j) = Spec.cj (rd3 x4) b.val p.val j.val := by
  rw [val_main_v28_apply, val_main_call1_v1_apply, show idx_main_call1_v1 (ix3 b p j) = ix3 b p (0 : Fin 1) from by idx_rfl3,
    val_main_v27_apply, show idx_main_v27 (ix3 b p (0 : Fin 1)) = ix2 b p from by idx_rfl2, v26_at,
    val_main_call1_v2_apply, val_main_call1_v0_apply, val_main_c_4_apply, select_valid, ← rd3_ix3 x4 b p j]
  rfl

theorem v30_at (b : Fin 4) (p : Fin 128) : val_main_v30 (F := Ideal) x4 (ix2 b p) = Spec.cj (rd3 x4) b.val p.val 0 := by
  rw [val_main_v30_apply, show idx_main_v30 (ix2 b p) = ix3 b p (0 : Fin 1) from sq_idx b p, val_main_v29_apply,
    show idx_main_v29 (ix3 b p (0 : Fin 1)) = ix3 b p (0 : Fin 4) from by idx_rfl3, v28_at]
  rfl

theorem v32_at (b : Fin 4) (p : Fin 128) : val_main_v32 (F := Ideal) x4 (ix2 b p) = Spec.cj (rd3 x4) b.val p.val 1 := by
  rw [val_main_v32_apply, show idx_main_v32 (ix2 b p) = ix3 b p (0 : Fin 1) from sq_idx b p, val_main_v31_apply,
    show idx_main_v31 (ix3 b p (0 : Fin 1)) = ix3 b p (1 : Fin 4) from by idx_rfl3, v28_at]
  rfl

theorem v34_at (b : Fin 4) (p : Fin 128) : val_main_v34 (F := Ideal) x4 (ix2 b p) = Spec.cj (rd3 x4) b.val p.val 2 := by
  rw [val_main_v34_apply, show idx_main_v34 (ix2 b p) = ix3 b p (0 : Fin 1) from sq_idx b p, val_main_v33_apply,
    show idx_main_v33 (ix3 b p (0 : Fin 1)) = ix3 b p (2 : Fin 4) from by idx_rfl3, v28_at]
  rfl

theorem v36_at (b : Fin 4) (p : Fin 128) : val_main_v36 (F := Ideal) x4 (ix2 b p) = Spec.cj (rd3 x4) b.val p.val 3 := by
  rw [val_main_v36_apply, show idx_main_v36 (ix2 b p) = ix3 b p (0 : Fin 1) from sq_idx b p, val_main_v35_apply,
    show idx_main_v35 (ix3 b p (0 : Fin 1)) = ix3 b p (3 : Fin 4) from by idx_rfl3, v28_at]
  rfl

theorem v38_at (b : Fin 4) : val_main_v38 (F := Ideal) (ix2 b (0 : Fin 1)) = BitVec.ofNat 32 b.val := by
  rw [val_main_v38_apply, val_main_v37_apply]

/-! ### The label map's gather: the class word -/

theorem v43_at (b : Fin 4) : val_main_v43 (F := Ideal) (ix2 b (0 : Fin 1)) = nw (BitVec.ofNat 32 b.val) 4#32 := by
  rw [val_main_v43_apply, val_main_v40_apply, val_main_v42_apply, v38_at, val_main_v39_apply, val_main_c_5_apply, val_main_v41_apply, val_main_c_6_apply]; rfl
theorem v65_at (b : Fin 4) (p : Fin 128) : val_main_v65 (F := Ideal) (ix3 b p (0 : Fin 1)) = nw (BitVec.ofNat 32 b.val) 4#32 := by
  rw [val_main_v65_apply, show idx_main_v65 (ix3 b p (0 : Fin 1)) = ix2 b p from by idx_rfl2, val_main_v64_apply,
    show idx_main_v64 (ix2 b p) = ix2 b (0 : Fin 1) from by idx_rfl2, v43_at]

theorem v48_at  (b : Fin 4) (p : Fin 128) : val_main_v48 (F := Ideal) x4 (ix2 b p) = nw (Spec.cj (rd3 x4) b.val p.val 0) 3#32 := by
  rw [val_main_v48_apply, val_main_v45_apply, val_main_v47_apply, v30_at, val_main_v44_apply, val_main_c_7_apply, val_main_v46_apply, val_main_c_8_apply]; rfl

theorem v66_at  (b : Fin 4) (p : Fin 128) : val_main_v66 (F := Ideal) x4 (ix3 b p (0 : Fin 1)) = nw (Spec.cj (rd3 x4) b.val p.val 0) 3#32 := by
  rw [val_main_v66_apply, show idx_main_v66 (ix3 b p (0 : Fin 1)) = ix2 b p from by idx_rfl2, v48_at]

theorem v53_at  (b : Fin 4) (p : Fin 128) : val_main_v53 (F := Ideal) x4 (ix2 b p) = nw (Spec.cj (rd3 x4) b.val p.val 1) 64#32 := by
  rw [val_main_v53_apply, val_main_v50_apply, val_main_v52_apply, v32_at, val_main_v49_apply, val_main_c_9_apply, val_main_v51_apply, val_main_c_10_apply]; rfl

theorem v67_at  (b : Fin 4) (p : Fin 128) : val_main_v67 (F := Ideal) x4 (ix3 b p (0 : Fin 1)) = nw (Spec.cj (rd3 x4) b.val p.val 1) 64#32 := by
  rw [val_main_v67_apply, show idx_main_v67 (ix3 b p (0 : Fin 1)) = ix2 b p from by idx_rfl2, v53_at]

theorem v58_at  (b : Fin 4) (p : Fin 128) : val_main_v58 (F := Ideal) x4 (ix2 b p) = nw (Spec.cj (rd3 x4) b.val p.val 2) 64#32 := by
  rw [val_main_v58_apply, val_main_v55_apply, val_main_v57_apply, v34_at, val_main_v54_apply, val_main_c_11_apply, val_main_v56_apply, val_main_c_12_apply]; rfl

theorem v68_at  (b : Fin 4) (p : Fin 128) : val_main_v68 (F := Ideal) x4 (ix3 b p (0 : Fin 1)) = nw (Spec.cj (rd3 x4) b.val p.val 2) 64#32 := by
  rw [val_main_v68_apply, show idx_main_v68 (ix3 b p (0 : Fin 1)) = ix2 b p from by idx_rfl2, v58_at]

theorem v63_at  (b : Fin 4) (p : Fin 128) : val_main_v63 (F := Ideal) x4 (ix2 b p) = nw (Spec.cj (rd3 x4) b.val p.val 3) 64#32 := by
  rw [val_main_v63_apply, val_main_v60_apply, val_main_v62_apply, v36_at, val_main_v59_apply, val_main_c_13_apply, val_main_v61_apply, val_main_c_14_apply]; rfl

theorem v69_at  (b : Fin 4) (p : Fin 128) : val_main_v69 (F := Ideal) x4 (ix3 b p (0 : Fin 1)) = nw (Spec.cj (rd3 x4) b.val p.val 3) 64#32 := by
  rw [val_main_v69_apply, show idx_main_v69 (ix3 b p (0 : Fin 1)) = ix2 b p from by idx_rfl2, v63_at]

theorem v70_0 (b : Fin 4) (p : Fin 128) : val_main_v70 (F := Ideal) x4 (ix3 b p (0 : Fin 5)) = nw (BitVec.ofNat 32 b.val) 4#32 := by
  unfold val_main_v70; rw [concat5_apply]; exact v65_at b p

theorem v70_1 (b : Fin 4) (p : Fin 128) : val_main_v70 (F := Ideal) x4 (ix3 b p (1 : Fin 5)) = nw (Spec.cj (rd3 x4) b.val p.val 0) 3#32 := by
  unfold val_main_v70; rw [concat5_apply]; exact v66_at x4 b p

theorem v70_2 (b : Fin 4) (p : Fin 128) : val_main_v70 (F := Ideal) x4 (ix3 b p (2 : Fin 5)) = nw (Spec.cj (rd3 x4) b.val p.val 1) 64#32 := by
  unfold val_main_v70; rw [concat5_apply]; exact v67_at x4 b p

theorem v70_3 (b : Fin 4) (p : Fin 128) : val_main_v70 (F := Ideal) x4 (ix3 b p (3 : Fin 5)) = nw (Spec.cj (rd3 x4) b.val p.val 2) 64#32 := by
  unfold val_main_v70; rw [concat5_apply]; exact v68_at x4 b p

theorem v70_4 (b : Fin 4) (p : Fin 128) : val_main_v70 (F := Ideal) x4 (ix3 b p (4 : Fin 5)) = nw (Spec.cj (rd3 x4) b.val p.val 3) 64#32 := by
  unfold val_main_v70; rw [concat5_apply]; exact v69_at x4 b p

theorem v71_at (b : Fin 4) (p : Fin 128) : val_main_v71 (F := Ideal) x2 x4 (ix2 b p)
    = rd5 x2 b.val (Spec.nidx (Spec.cj (rd3 x4) b.val p.val 0) 3) (Spec.nidx (Spec.cj (rd3 x4) b.val p.val 1) 64) (Spec.nidx (Spec.cj (rd3 x4) b.val p.val 2) 64) (Spec.nidx (Spec.cj (rd3 x4) b.val p.val 3) 64) := by
  unfold val_main_v71
  rw [show gather_S4x3x64x64x64_S4x128x5_S4x128_n_01234_n_n_01234_2_11111
      = pt5Dims 4 3 64 64 64 4 128 Facts₀.gather_S4x3x64x64x64_S4x128x5_S4x128_n_01234_n_n_01234_2_11111_wf from rfl,
    gather_pt5_read (by decide) (by decide) (by decide) (by decide) (by decide) _ x2 _ b p (rd5 x2)
      (fun a0 a1 a2 a3 a4 => (rd5_ix5 x2 a0 a1 a2 a3 a4).symm),
    v70_0, v70_1, v70_2, v70_3, v70_4, batch_nw, nidx_nw _ _ 3 rfl, nidx_nw _ _ 64 rfl, nidx_nw _ _ 64 rfl, nidx_nw _ _ 64 rfl]

theorem v73_at (b : Fin 4) (p : Fin 128) : val_main_v73 (F := Ideal) x2 x4 (ix2 b p) = Spec.clsOf 64 (rd5 x2) (rd3 x4) b.val p.val := by
  rw [val_main_v73_apply, v26_at, val_main_v72_apply, v71_at, val_main_call2_v1_apply, val_main_call2_v0_apply, val_main_c_15_apply,
    select_valid]
  rfl
/-! ## The log-softmax arrays at an index -/

theorem v3_at (a0 : Fin 4) (a1 a2 : Fin 3) (a3 a4 a5 : Fin 64) :
    val_main_v3 (F := Ideal) x0 (ix6 a0 a1 a2 a3 a4 a5) = Spec.probAt (rd5 x0) a1.val a0.val a2.val a3.val a4.val a5.val := by
  rw [val_main_v3_apply, lsm0_apply]; rfl

theorem v2_at (a0 : Fin 4) (a1 a2 : Fin 3) (a3 a4 a5 : Fin 64) :
    val_main_v2 (F := Ideal) x0 (ix6 a0 a1 a2 a3 a4 a5) = -Spec.logpAt (rd5 x0) a1.val a0.val a2.val a3.val a4.val a5.val := by
  rw [val_main_v2_apply, lsm0_apply]; rfl

/-! ### The probability's gather -/

theorem v78_at (b : Fin 4) : val_main_v78 (F := Ideal) (ix2 b (0 : Fin 1)) = nw (BitVec.ofNat 32 b.val) 4#32 := by
  rw [val_main_v78_apply, val_main_v75_apply, val_main_v77_apply, v38_at, val_main_v74_apply, val_main_c_16_apply, val_main_v76_apply, val_main_c_17_apply]; rfl
theorem v105_at (b : Fin 4) (p : Fin 128) : val_main_v105 (F := Ideal) (ix3 b p (0 : Fin 1)) = nw (BitVec.ofNat 32 b.val) 4#32 := by
  rw [val_main_v105_apply, show idx_main_v105 (ix3 b p (0 : Fin 1)) = ix2 b p from by idx_rfl2, val_main_v104_apply,
    show idx_main_v104 (ix2 b p) = ix2 b (0 : Fin 1) from by idx_rfl2, v78_at]

theorem v83_at  (b : Fin 4) (p : Fin 128) : val_main_v83 (F := Ideal) x2 x4 (ix2 b p) = nw (Spec.clsOf 64 (rd5 x2) (rd3 x4) b.val p.val) 3#32 := by
  rw [val_main_v83_apply, val_main_v80_apply, val_main_v82_apply, v73_at, val_main_v79_apply, val_main_c_18_apply, val_main_v81_apply, val_main_c_19_apply]; rfl

theorem v106_at  (b : Fin 4) (p : Fin 128) : val_main_v106 (F := Ideal) x2 x4 (ix3 b p (0 : Fin 1)) = nw (Spec.clsOf 64 (rd5 x2) (rd3 x4) b.val p.val) 3#32 := by
  rw [val_main_v106_apply, show idx_main_v106 (ix3 b p (0 : Fin 1)) = ix2 b p from by idx_rfl2, v83_at]

theorem v88_at  (b : Fin 4) (p : Fin 128) : val_main_v88 (F := Ideal) x4 (ix2 b p) = nw (Spec.cj (rd3 x4) b.val p.val 0) 3#32 := by
  rw [val_main_v88_apply, val_main_v85_apply, val_main_v87_apply, v30_at, val_main_v84_apply, val_main_c_20_apply, val_main_v86_apply, val_main_c_21_apply]; rfl

theorem v107_at  (b : Fin 4) (p : Fin 128) : val_main_v107 (F := Ideal) x4 (ix3 b p (0 : Fin 1)) = nw (Spec.cj (rd3 x4) b.val p.val 0) 3#32 := by
  rw [val_main_v107_apply, show idx_main_v107 (ix3 b p (0 : Fin 1)) = ix2 b p from by idx_rfl2, v88_at]

theorem v93_at  (b : Fin 4) (p : Fin 128) : val_main_v93 (F := Ideal) x4 (ix2 b p) = nw (Spec.cj (rd3 x4) b.val p.val 1) 64#32 := by
  rw [val_main_v93_apply, val_main_v90_apply, val_main_v92_apply, v32_at, val_main_v89_apply, val_main_c_22_apply, val_main_v91_apply, val_main_c_23_apply]; rfl

theorem v108_at  (b : Fin 4) (p : Fin 128) : val_main_v108 (F := Ideal) x4 (ix3 b p (0 : Fin 1)) = nw (Spec.cj (rd3 x4) b.val p.val 1) 64#32 := by
  rw [val_main_v108_apply, show idx_main_v108 (ix3 b p (0 : Fin 1)) = ix2 b p from by idx_rfl2, v93_at]

theorem v98_at  (b : Fin 4) (p : Fin 128) : val_main_v98 (F := Ideal) x4 (ix2 b p) = nw (Spec.cj (rd3 x4) b.val p.val 2) 64#32 := by
  rw [val_main_v98_apply, val_main_v95_apply, val_main_v97_apply, v34_at, val_main_v94_apply, val_main_c_24_apply, val_main_v96_apply, val_main_c_25_apply]; rfl

theorem v109_at  (b : Fin 4) (p : Fin 128) : val_main_v109 (F := Ideal) x4 (ix3 b p (0 : Fin 1)) = nw (Spec.cj (rd3 x4) b.val p.val 2) 64#32 := by
  rw [val_main_v109_apply, show idx_main_v109 (ix3 b p (0 : Fin 1)) = ix2 b p from by idx_rfl2, v98_at]

theorem v103_at  (b : Fin 4) (p : Fin 128) : val_main_v103 (F := Ideal) x4 (ix2 b p) = nw (Spec.cj (rd3 x4) b.val p.val 3) 64#32 := by
  rw [val_main_v103_apply, val_main_v100_apply, val_main_v102_apply, v36_at, val_main_v99_apply, val_main_c_26_apply, val_main_v101_apply, val_main_c_27_apply]; rfl

theorem v110_at  (b : Fin 4) (p : Fin 128) : val_main_v110 (F := Ideal) x4 (ix3 b p (0 : Fin 1)) = nw (Spec.cj (rd3 x4) b.val p.val 3) 64#32 := by
  rw [val_main_v110_apply, show idx_main_v110 (ix3 b p (0 : Fin 1)) = ix2 b p from by idx_rfl2, v103_at]

theorem v111_0 (b : Fin 4) (p : Fin 128) : val_main_v111 (F := Ideal) x2 x4 (ix3 b p (0 : Fin 6)) = nw (BitVec.ofNat 32 b.val) 4#32 := by
  unfold val_main_v111; rw [concat6_apply]; exact v105_at b p

theorem v111_1 (b : Fin 4) (p : Fin 128) : val_main_v111 (F := Ideal) x2 x4 (ix3 b p (1 : Fin 6)) = nw (Spec.clsOf 64 (rd5 x2) (rd3 x4) b.val p.val) 3#32 := by
  unfold val_main_v111; rw [concat6_apply]; exact v106_at x2 x4 b p

theorem v111_2 (b : Fin 4) (p : Fin 128) : val_main_v111 (F := Ideal) x2 x4 (ix3 b p (2 : Fin 6)) = nw (Spec.cj (rd3 x4) b.val p.val 0) 3#32 := by
  unfold val_main_v111; rw [concat6_apply]; exact v107_at x4 b p

theorem v111_3 (b : Fin 4) (p : Fin 128) : val_main_v111 (F := Ideal) x2 x4 (ix3 b p (3 : Fin 6)) = nw (Spec.cj (rd3 x4) b.val p.val 1) 64#32 := by
  unfold val_main_v111; rw [concat6_apply]; exact v108_at x4 b p

theorem v111_4 (b : Fin 4) (p : Fin 128) : val_main_v111 (F := Ideal) x2 x4 (ix3 b p (4 : Fin 6)) = nw (Spec.cj (rd3 x4) b.val p.val 2) 64#32 := by
  unfold val_main_v111; rw [concat6_apply]; exact v109_at x4 b p

theorem v111_5 (b : Fin 4) (p : Fin 128) : val_main_v111 (F := Ideal) x2 x4 (ix3 b p (5 : Fin 6)) = nw (Spec.cj (rd3 x4) b.val p.val 3) 64#32 := by
  unfold val_main_v111; rw [concat6_apply]; exact v110_at x4 b p

theorem v112_at (b : Fin 4) (p : Fin 128) : val_main_v112 (F := Ideal) x0 x2 x4 (ix2 b p) = Spec.ptAt 64 (rd5 x0) (rd5 x2) (rd3 x4) b.val p.val := by
  unfold val_main_v112
  rw [show gather_S4x3x3x64x64x64_S4x128x6_S4x128_n_012345_n_n_012345_2_111111
      = pt6Dims 4 3 3 64 64 64 4 128 Facts₀.gather_S4x3x3x64x64x64_S4x128x6_S4x128_n_012345_n_n_012345_2_111111_wf from rfl,
    gather_pt6_read (by decide) (by decide) (by decide) (by decide) (by decide) (by decide) _ (val_main_v3 (F := Ideal) x0) _ b p (fun m0 m1 m2 m3 m4 m5 => Spec.probAt (rd5 x0) m1 m0 m2 m3 m4 m5) (v3_at x0),
    v111_0, v111_1, v111_2, v111_3, v111_4, v111_5, batch_nw, nidx_nw _ _ 3 rfl, nidx_nw _ _ 3 rfl, nidx_nw _ _ 64 rfl,
    nidx_nw _ _ 64 rfl, nidx_nw _ _ 64 rfl]
  rfl

/-! ### The negative log-likelihood's gather -/

theorem v117_at (b : Fin 4) : val_main_v117 (F := Ideal) (ix2 b (0 : Fin 1)) = nw (BitVec.ofNat 32 b.val) 4#32 := by
  rw [val_main_v117_apply, val_main_v114_apply, val_main_v116_apply, v38_at, val_main_v113_apply, val_main_c_28_apply, val_main_v115_apply, val_main_c_29_apply]; rfl
theorem v144_at (b : Fin 4) (p : Fin 128) : val_main_v144 (F := Ideal) (ix3 b p (0 : Fin 1)) = nw (BitVec.ofNat 32 b.val) 4#32 := by
  rw [val_main_v144_apply, show idx_main_v144 (ix3 b p (0 : Fin 1)) = ix2 b p from by idx_rfl2, val_main_v143_apply,
    show idx_main_v143 (ix2 b p) = ix2 b (0 : Fin 1) from by idx_rfl2, v117_at]

theorem v122_at  (b : Fin 4) (p : Fin 128) : val_main_v122 (F := Ideal) x2 x4 (ix2 b p) = nw (Spec.clsOf 64 (rd5 x2) (rd3 x4) b.val p.val) 3#32 := by
  rw [val_main_v122_apply, val_main_v119_apply, val_main_v121_apply, v73_at, val_main_v118_apply, val_main_c_30_apply, val_main_v120_apply, val_main_c_31_apply]; rfl

theorem v145_at  (b : Fin 4) (p : Fin 128) : val_main_v145 (F := Ideal) x2 x4 (ix3 b p (0 : Fin 1)) = nw (Spec.clsOf 64 (rd5 x2) (rd3 x4) b.val p.val) 3#32 := by
  rw [val_main_v145_apply, show idx_main_v145 (ix3 b p (0 : Fin 1)) = ix2 b p from by idx_rfl2, v122_at]

theorem v127_at  (b : Fin 4) (p : Fin 128) : val_main_v127 (F := Ideal) x4 (ix2 b p) = nw (Spec.cj (rd3 x4) b.val p.val 0) 3#32 := by
  rw [val_main_v127_apply, val_main_v124_apply, val_main_v126_apply, v30_at, val_main_v123_apply, val_main_c_32_apply, val_main_v125_apply, val_main_c_33_apply]; rfl

theorem v146_at  (b : Fin 4) (p : Fin 128) : val_main_v146 (F := Ideal) x4 (ix3 b p (0 : Fin 1)) = nw (Spec.cj (rd3 x4) b.val p.val 0) 3#32 := by
  rw [val_main_v146_apply, show idx_main_v146 (ix3 b p (0 : Fin 1)) = ix2 b p from by idx_rfl2, v127_at]

theorem v132_at  (b : Fin 4) (p : Fin 128) : val_main_v132 (F := Ideal) x4 (ix2 b p) = nw (Spec.cj (rd3 x4) b.val p.val 1) 64#32 := by
  rw [val_main_v132_apply, val_main_v129_apply, val_main_v131_apply, v32_at, val_main_v128_apply, val_main_c_34_apply, val_main_v130_apply, val_main_c_35_apply]; rfl

theorem v147_at  (b : Fin 4) (p : Fin 128) : val_main_v147 (F := Ideal) x4 (ix3 b p (0 : Fin 1)) = nw (Spec.cj (rd3 x4) b.val p.val 1) 64#32 := by
  rw [val_main_v147_apply, show idx_main_v147 (ix3 b p (0 : Fin 1)) = ix2 b p from by idx_rfl2, v132_at]

theorem v137_at  (b : Fin 4) (p : Fin 128) : val_main_v137 (F := Ideal) x4 (ix2 b p) = nw (Spec.cj (rd3 x4) b.val p.val 2) 64#32 := by
  rw [val_main_v137_apply, val_main_v134_apply, val_main_v136_apply, v34_at, val_main_v133_apply, val_main_c_36_apply, val_main_v135_apply, val_main_c_37_apply]; rfl

theorem v148_at  (b : Fin 4) (p : Fin 128) : val_main_v148 (F := Ideal) x4 (ix3 b p (0 : Fin 1)) = nw (Spec.cj (rd3 x4) b.val p.val 2) 64#32 := by
  rw [val_main_v148_apply, show idx_main_v148 (ix3 b p (0 : Fin 1)) = ix2 b p from by idx_rfl2, v137_at]

theorem v142_at  (b : Fin 4) (p : Fin 128) : val_main_v142 (F := Ideal) x4 (ix2 b p) = nw (Spec.cj (rd3 x4) b.val p.val 3) 64#32 := by
  rw [val_main_v142_apply, val_main_v139_apply, val_main_v141_apply, v36_at, val_main_v138_apply, val_main_c_38_apply, val_main_v140_apply, val_main_c_39_apply]; rfl

theorem v149_at  (b : Fin 4) (p : Fin 128) : val_main_v149 (F := Ideal) x4 (ix3 b p (0 : Fin 1)) = nw (Spec.cj (rd3 x4) b.val p.val 3) 64#32 := by
  rw [val_main_v149_apply, show idx_main_v149 (ix3 b p (0 : Fin 1)) = ix2 b p from by idx_rfl2, v142_at]

theorem v150_0 (b : Fin 4) (p : Fin 128) : val_main_v150 (F := Ideal) x2 x4 (ix3 b p (0 : Fin 6)) = nw (BitVec.ofNat 32 b.val) 4#32 := by
  unfold val_main_v150; rw [concat6_apply]; exact v144_at b p

theorem v150_1 (b : Fin 4) (p : Fin 128) : val_main_v150 (F := Ideal) x2 x4 (ix3 b p (1 : Fin 6)) = nw (Spec.clsOf 64 (rd5 x2) (rd3 x4) b.val p.val) 3#32 := by
  unfold val_main_v150; rw [concat6_apply]; exact v145_at x2 x4 b p

theorem v150_2 (b : Fin 4) (p : Fin 128) : val_main_v150 (F := Ideal) x2 x4 (ix3 b p (2 : Fin 6)) = nw (Spec.cj (rd3 x4) b.val p.val 0) 3#32 := by
  unfold val_main_v150; rw [concat6_apply]; exact v146_at x4 b p

theorem v150_3 (b : Fin 4) (p : Fin 128) : val_main_v150 (F := Ideal) x2 x4 (ix3 b p (3 : Fin 6)) = nw (Spec.cj (rd3 x4) b.val p.val 1) 64#32 := by
  unfold val_main_v150; rw [concat6_apply]; exact v147_at x4 b p

theorem v150_4 (b : Fin 4) (p : Fin 128) : val_main_v150 (F := Ideal) x2 x4 (ix3 b p (4 : Fin 6)) = nw (Spec.cj (rd3 x4) b.val p.val 2) 64#32 := by
  unfold val_main_v150; rw [concat6_apply]; exact v148_at x4 b p

theorem v150_5 (b : Fin 4) (p : Fin 128) : val_main_v150 (F := Ideal) x2 x4 (ix3 b p (5 : Fin 6)) = nw (Spec.cj (rd3 x4) b.val p.val 3) 64#32 := by
  unfold val_main_v150; rw [concat6_apply]; exact v149_at x4 b p

theorem v151_at (b : Fin 4) (p : Fin 128) : val_main_v151 (F := Ideal) x0 x2 x4 (ix2 b p) = Spec.nlltAt 64 (rd5 x0) (rd5 x2) (rd3 x4) b.val p.val := by
  unfold val_main_v151
  rw [show gather_S4x3x3x64x64x64_S4x128x6_S4x128_n_012345_n_n_012345_2_111111
      = pt6Dims 4 3 3 64 64 64 4 128 Facts₀.gather_S4x3x3x64x64x64_S4x128x6_S4x128_n_012345_n_n_012345_2_111111_wf from rfl,
    gather_pt6_read (by decide) (by decide) (by decide) (by decide) (by decide) (by decide) _ (val_main_v2 (F := Ideal) x0) _ b p (fun m0 m1 m2 m3 m4 m5 => -Spec.logpAt (rd5 x0) m1 m0 m2 m3 m4 m5) (v2_at x0),
    v150_0, v150_1, v150_2, v150_3, v150_4, v150_5, batch_nw, nidx_nw _ _ 3 rfl, nidx_nw _ _ 3 rfl, nidx_nw _ _ 64 rfl,
    nidx_nw _ _ 64 rfl, nidx_nw _ _ 64 rfl]
  rfl

/-! ### The class weight's gather, the focal weight and the sums -/

theorem v159_at  (b : Fin 4) (p : Fin 128) : val_main_v159 (F := Ideal) x2 x4 (ix2 b p) = nw (Spec.clsOf 64 (rd5 x2) (rd3 x4) b.val p.val) 3#32 := by
  rw [val_main_v159_apply, val_main_v156_apply, val_main_v158_apply, v73_at, val_main_v155_apply, val_main_c_41_apply, val_main_v157_apply, val_main_c_42_apply]; rfl

theorem v160_at  (b : Fin 4) (p : Fin 128) : val_main_v160 (F := Ideal) x2 x4 (ix3 b p (0 : Fin 1)) = nw (Spec.clsOf 64 (rd5 x2) (rd3 x4) b.val p.val) 3#32 := by
  rw [val_main_v160_apply, show idx_main_v160 (ix3 b p (0 : Fin 1)) = ix2 b p from by idx_rfl2, v159_at]

theorem v161_at (b : Fin 4) (p : Fin 128) : val_main_v161 (F := Ideal) x2 x4 x6 (ix2 b p) = rd1 x6 (Spec.nidx (Spec.clsOf 64 (rd5 x2) (rd3 x4) b.val p.val) 3) := by
  unfold val_main_v161
  rw [show gather_S3_S4x128x1_S4x128_n_0_n_n_0_2_1 = takeDims 3 4 128 Facts₀.gather_S3_S4x128x1_S4x128_n_0_n_n_0_2_1_wf from rfl,
    gather_take_read (by decide) _ x6 _ b p (rd1 x6) (fun a => (rd1_ix1 x6 a).symm), v160_at, nidx_nw _ _ 3 rfl]

theorem v164_at (b : Fin 4) (p : Fin 128) : val_main_v164 (F := Ideal) x0 x2 x4 x6 (ix2 b p) = Spec.wpos 64 (rd5 x0) (rd5 x2) (rd3 x4) (rd1 x6) b.val p.val := by
  rw [val_main_v164_apply, val_main_v162_apply, val_main_v154_apply, val_main_v153_apply, val_main_v152_apply, val_main_cst_40_apply,
    v112_at, v161_at, val_main_v163_apply, v26_at, uitofp_valid]
  show (Ideal.ofBits .f32 0x3F800000#32 - _) * (Ideal.ofBits .f32 0x3F800000#32 - _) * _ * _ = _
  rw [Ideal.ofBits_one_f32]
  rfl

theorem v165_at (b : Fin 4) (p : Fin 128) : val_main_v165 (F := Ideal) x0 x2 x4 x6 (ix2 b p)
    = Spec.nlltAt 64 (rd5 x0) (rd5 x2) (rd3 x4) b.val p.val * Spec.wpos 64 (rd5 x0) (rd5 x2) (rd3 x4) (rd1 x6) b.val p.val := by
  rw [val_main_v165_apply, v151_at, v164_at]; rfl

/-- The reference's positive loss at level 0 is the specification's. -/
theorem ref_lossPos0 : val_main_v166 (F := Ideal) x0 x2 x4 x6 ix0 = Spec.lossPos 64 (rd5 x0) (rd5 x2) (rd3 x4) (rd1 x6) := by
  rw [val_main_v166_apply, val_main_cst_43_apply]
  show Ideal.ofBits .f32 0x00000000#32 + _ = _
  rw [Ideal.ofBits_zero_f32, zero_add, sum_idx2]
  unfold Spec.lossPos
  rw [← Fin.sum_univ_eq_sum_range (fun b => ∑ p ∈ Finset.range 128,
    Spec.nlltAt 64 (rd5 x0) (rd5 x2) (rd3 x4) b p * Spec.wpos 64 (rd5 x0) (rd5 x2) (rd3 x4) (rd1 x6) b p) 4]
  refine Finset.sum_congr rfl fun b _ => ?_
  rw [← Fin.sum_univ_eq_sum_range (fun p =>
    Spec.nlltAt 64 (rd5 x0) (rd5 x2) (rd3 x4) b.val p * Spec.wpos 64 (rd5 x0) (rd5 x2) (rd3 x4) (rd1 x6) b.val p) 128]
  exact Finset.sum_congr rfl fun p _ => v165_at x0 x2 x4 x6 b p

/-- The reference's positive count at level 0 is the specification's. -/
theorem ref_countPos0 : val_main_v167 (F := Ideal) x0 x2 x4 x6 ix0 = Spec.countPos 64 (rd5 x0) (rd5 x2) (rd3 x4) (rd1 x6) := by
  rw [val_main_v167_apply, val_main_cst_44_apply]
  show Ideal.ofBits .f32 0x00000000#32 + _ = _
  rw [Ideal.ofBits_zero_f32, zero_add, sum_idx2]
  unfold Spec.countPos
  rw [← Fin.sum_univ_eq_sum_range (fun b => ∑ p ∈ Finset.range 128,
    Spec.wpos 64 (rd5 x0) (rd5 x2) (rd3 x4) (rd1 x6) b p) 4]
  refine Finset.sum_congr rfl fun b _ => ?_
  rw [← Fin.sum_univ_eq_sum_range (fun p => Spec.wpos 64 (rd5 x0) (rd5 x2) (rd3 x4) (rd1 x6) b.val p) 128]
  exact Finset.sum_congr rfl fun p _ => v164_at x0 x2 x4 x6 b p

end Level0

/-! ## Level 1: the coordinate words -/

section Level1
variable (x1 : (⟨S4x9x32x32x32, .f32⟩ : BufTy).Contents (Elt Ideal)) (x3 : (⟨S4x3x32x32x32, .f32⟩ : BufTy).Contents (Elt Ideal)) (x5 : (⟨S4x128x4, .i32⟩ : BufTy).Contents (Elt Ideal)) (x6 : (⟨S3, .f32⟩ : BufTy).Contents (Elt Ideal))

theorem sq_idx1 (b : Fin 4) (p : Fin 128) : idx_main_v192 (ix2 b p) = ix3 b p (0 : Fin 1) := by
  funext a; refine Fin.ext ?_
  have hb := b.isLt; have hp := p.isLt
  match a with
  | ⟨0, _⟩ => show (b.val * 128 + p.val) / 128 = b.val; omega
  | ⟨1, _⟩ => show (b.val * 128 + p.val) / 1 % 128 = p.val; omega
  | ⟨2, _⟩ => rfl

theorem v192_at (b : Fin 4) (p : Fin 128) : val_main_v192 (F := Ideal) x5 (ix2 b p) = rd3 x5 b.val p.val 0 := by
  rw [val_main_v192_apply, sq_idx1, val_main_v191_apply, show idx_main_v191 (ix3 b p (0 : Fin 1)) = ix3 b p (0 : Fin 4) from by idx_rfl3]
  exact (rd3_ix3 x5 b p 0).symm

theorem v194_at (b : Fin 4) (p : Fin 128) : val_main_v194 (F := Ideal) x5 (ix2 b p) = IntOp.cmpi .sgt (rd3 x5 b.val p.val 0) 4294967295#32 := by
  rw [val_main_v194_apply, v192_at, val_main_v193_apply, val_main_c_50_apply]

theorem v196_at (b : Fin 4) (p : Fin 128) (j : Fin 4) : val_main_v196 (F := Ideal) x5 (ix3 b p j) = Spec.cj (rd3 x5) b.val p.val j.val := by
  rw [val_main_v196_apply, val_main_call4_v1_apply, show idx_main_call4_v1 (ix3 b p j) = ix3 b p (0 : Fin 1) from by idx_rfl3,
    val_main_v195_apply, show idx_main_v195 (ix3 b p (0 : Fin 1)) = ix2 b p from by idx_rfl2, v194_at,
    val_main_call4_v2_apply, val_main_call4_v0_apply, val_main_c_51_apply, select_valid, ← rd3_ix3 x5 b p j]
  rfl

theorem v198_at (b : Fin 4) (p : Fin 128) : val_main_v198 (F := Ideal) x5 (ix2 b p) = Spec.cj (rd3 x5) b.val p.val 0 := by
  rw [val_main_v198_apply, show idx_main_v198 (ix2 b p) = ix3 b p (0 : Fin 1) from sq_idx1 b p, val_main_v197_apply,
    show idx_main_v197 (ix3 b p (0 : Fin 1)) = ix3 b p (0 : Fin 4) from by idx_rfl3, v196_at]
  rfl

theorem v200_at (b : Fin 4) (p : Fin 128) : val_main_v200 (F := Ideal) x5 (ix2 b p) = Spec.cj (rd3 x5) b.val p.val 1 := by
  rw [val_main_v200_apply, show idx_main_v200 (ix2 b p) = ix3 b p (0 : Fin 1) from sq_idx1 b p, val_main_v199_apply,
    show idx_main_v199 (ix3 b p (0 : Fin 1)) = ix3 b p (1 : Fin 4) from by idx_rfl3, v196_at]
  rfl

theorem v202_at (b : Fin 4) (p : Fin 128) : val_main_v202 (F := Ideal) x5 (ix2 b p) = Spec.cj (rd3 x5) b.val p.val 2 := by
  rw [val_main_v202_apply, show idx_main_v202 (ix2 b p) = ix3 b p (0 : Fin 1) from sq_idx1 b p, val_main_v201_apply,
    show idx_main_v201 (ix3 b p (0 : Fin 1)) = ix3 b p (2 : Fin 4) from by idx_rfl3, v196_at]
  rfl

theorem v204_at (b : Fin 4) (p : Fin 128) : val_main_v204 (F := Ideal) x5 (ix2 b p) = Spec.cj (rd3 x5) b.val p.val 3 := by
  rw [val_main_v204_apply, show idx_main_v204 (ix2 b p) = ix3 b p (0 : Fin 1) from sq_idx1 b p, val_main_v203_apply,
    show idx_main_v203 (ix3 b p (0 : Fin 1)) = ix3 b p (3 : Fin 4) from by idx_rfl3, v196_at]
  rfl

theorem v206_at (b : Fin 4) : val_main_v206 (F := Ideal) (ix2 b (0 : Fin 1)) = BitVec.ofNat 32 b.val := by
  rw [val_main_v206_apply, val_main_v205_apply]

/-! ### The label map's gather: the class word -/

theorem v211_at (b : Fin 4) : val_main_v211 (F := Ideal) (ix2 b (0 : Fin 1)) = nw (BitVec.ofNat 32 b.val) 4#32 := by
  rw [val_main_v211_apply, val_main_v208_apply, val_main_v210_apply, v206_at, val_main_v207_apply, val_main_c_52_apply, val_main_v209_apply, val_main_c_53_apply]; rfl
theorem v233_at (b : Fin 4) (p : Fin 128) : val_main_v233 (F := Ideal) (ix3 b p (0 : Fin 1)) = nw (BitVec.ofNat 32 b.val) 4#32 := by
  rw [val_main_v233_apply, show idx_main_v233 (ix3 b p (0 : Fin 1)) = ix2 b p from by idx_rfl2, val_main_v232_apply,
    show idx_main_v232 (ix2 b p) = ix2 b (0 : Fin 1) from by idx_rfl2, v211_at]

theorem v216_at  (b : Fin 4) (p : Fin 128) : val_main_v216 (F := Ideal) x5 (ix2 b p) = nw (Spec.cj (rd3 x5) b.val p.val 0) 3#32 := by
  rw [val_main_v216_apply, val_main_v213_apply, val_main_v215_apply, v198_at, val_main_v212_apply, val_main_c_54_apply, val_main_v214_apply, val_main_c_55_apply]; rfl

theorem v234_at  (b : Fin 4) (p : Fin 128) : val_main_v234 (F := Ideal) x5 (ix3 b p (0 : Fin 1)) = nw (Spec.cj (rd3 x5) b.val p.val 0) 3#32 := by
  rw [val_main_v234_apply, show idx_main_v234 (ix3 b p (0 : Fin 1)) = ix2 b p from by idx_rfl2, v216_at]

theorem v221_at  (b : Fin 4) (p : Fin 128) : val_main_v221 (F := Ideal) x5 (ix2 b p) = nw (Spec.cj (rd3 x5) b.val p.val 1) 32#32 := by
  rw [val_main_v221_apply, val_main_v218_apply, val_main_v220_apply, v200_at, val_main_v217_apply, val_main_c_56_apply, val_main_v219_apply, val_main_c_57_apply]; rfl

theorem v235_at  (b : Fin 4) (p : Fin 128) : val_main_v235 (F := Ideal) x5 (ix3 b p (0 : Fin 1)) = nw (Spec.cj (rd3 x5) b.val p.val 1) 32#32 := by
  rw [val_main_v235_apply, show idx_main_v235 (ix3 b p (0 : Fin 1)) = ix2 b p from by idx_rfl2, v221_at]

theorem v226_at  (b : Fin 4) (p : Fin 128) : val_main_v226 (F := Ideal) x5 (ix2 b p) = nw (Spec.cj (rd3 x5) b.val p.val 2) 32#32 := by
  rw [val_main_v226_apply, val_main_v223_apply, val_main_v225_apply, v202_at, val_main_v222_apply, val_main_c_58_apply, val_main_v224_apply, val_main_c_59_apply]; rfl

theorem v236_at  (b : Fin 4) (p : Fin 128) : val_main_v236 (F := Ideal) x5 (ix3 b p (0 : Fin 1)) = nw (Spec.cj (rd3 x5) b.val p.val 2) 32#32 := by
  rw [val_main_v236_apply, show idx_main_v236 (ix3 b p (0 : Fin 1)) = ix2 b p from by idx_rfl2, v226_at]

theorem v231_at  (b : Fin 4) (p : Fin 128) : val_main_v231 (F := Ideal) x5 (ix2 b p) = nw (Spec.cj (rd3 x5) b.val p.val 3) 32#32 := by
  rw [val_main_v231_apply, val_main_v228_apply, val_main_v230_apply, v204_at, val_main_v227_apply, val_main_c_60_apply, val_main_v229_apply, val_main_c_61_apply]; rfl

theorem v237_at  (b : Fin 4) (p : Fin 128) : val_main_v237 (F := Ideal) x5 (ix3 b p (0 : Fin 1)) = nw (Spec.cj (rd3 x5) b.val p.val 3) 32#32 := by
  rw [val_main_v237_apply, show idx_main_v237 (ix3 b p (0 : Fin 1)) = ix2 b p from by idx_rfl2, v231_at]

theorem v238_0 (b : Fin 4) (p : Fin 128) : val_main_v238 (F := Ideal) x5 (ix3 b p (0 : Fin 5)) = nw (BitVec.ofNat 32 b.val) 4#32 := by
  unfold val_main_v238; rw [concat5_apply]; exact v233_at b p

theorem v238_1 (b : Fin 4) (p : Fin 128) : val_main_v238 (F := Ideal) x5 (ix3 b p (1 : Fin 5)) = nw (Spec.cj (rd3 x5) b.val p.val 0) 3#32 := by
  unfold val_main_v238; rw [concat5_apply]; exact v234_at x5 b p

theorem v238_2 (b : Fin 4) (p : Fin 128) : val_main_v238 (F := Ideal) x5 (ix3 b p (2 : Fin 5)) = nw (Spec.cj (rd3 x5) b.val p.val 1) 32#32 := by
  unfold val_main_v238; rw [concat5_apply]; exact v235_at x5 b p

theorem v238_3 (b : Fin 4) (p : Fin 128) : val_main_v238 (F := Ideal) x5 (ix3 b p (3 : Fin 5)) = nw (Spec.cj (rd3 x5) b.val p.val 2) 32#32 := by
  unfold val_main_v238; rw [concat5_apply]; exact v236_at x5 b p

theorem v238_4 (b : Fin 4) (p : Fin 128) : val_main_v238 (F := Ideal) x5 (ix3 b p (4 : Fin 5)) = nw (Spec.cj (rd3 x5) b.val p.val 3) 32#32 := by
  unfold val_main_v238; rw [concat5_apply]; exact v237_at x5 b p

theorem v239_at (b : Fin 4) (p : Fin 128) : val_main_v239 (F := Ideal) x3 x5 (ix2 b p)
    = rd5 x3 b.val (Spec.nidx (Spec.cj (rd3 x5) b.val p.val 0) 3) (Spec.nidx (Spec.cj (rd3 x5) b.val p.val 1) 32) (Spec.nidx (Spec.cj (rd3 x5) b.val p.val 2) 32) (Spec.nidx (Spec.cj (rd3 x5) b.val p.val 3) 32) := by
  unfold val_main_v239
  rw [show gather_S4x3x32x32x32_S4x128x5_S4x128_n_01234_n_n_01234_2_11111
      = pt5Dims 4 3 32 32 32 4 128 Facts₀.gather_S4x3x32x32x32_S4x128x5_S4x128_n_01234_n_n_01234_2_11111_wf from rfl,
    gather_pt5_read (by decide) (by decide) (by decide) (by decide) (by decide) _ x3 _ b p (rd5 x3)
      (fun a0 a1 a2 a3 a4 => (rd5_ix5 x3 a0 a1 a2 a3 a4).symm),
    v238_0, v238_1, v238_2, v238_3, v238_4, batch_nw, nidx_nw _ _ 3 rfl, nidx_nw _ _ 32 rfl, nidx_nw _ _ 32 rfl, nidx_nw _ _ 32 rfl]

theorem v241_at (b : Fin 4) (p : Fin 128) : val_main_v241 (F := Ideal) x3 x5 (ix2 b p) = Spec.clsOf 32 (rd5 x3) (rd3 x5) b.val p.val := by
  rw [val_main_v241_apply, v194_at, val_main_v240_apply, v239_at, val_main_call5_v1_apply, val_main_call5_v0_apply, val_main_c_62_apply,
    select_valid]
  rfl
/-! ## The log-softmax arrays at an index -/

theorem v171_at (a0 : Fin 4) (a1 a2 : Fin 3) (a3 a4 a5 : Fin 32) :
    val_main_v171 (F := Ideal) x1 (ix6 a0 a1 a2 a3 a4 a5) = Spec.probAt (rd5 x1) a1.val a0.val a2.val a3.val a4.val a5.val := by
  rw [val_main_v171_apply, lsm1_apply]; rfl

theorem v170_at (a0 : Fin 4) (a1 a2 : Fin 3) (a3 a4 a5 : Fin 32) :
    val_main_v170 (F := Ideal) x1 (ix6 a0 a1 a2 a3 a4 a5) = -Spec.logpAt (rd5 x1) a1.val a0.val a2.val a3.val a4.val a5.val := by
  rw [val_main_v170_apply, lsm1_apply]; rfl

/-! ### The probability's gather -/

theorem v246_at (b : Fin 4) : val_main_v246 (F := Ideal) (ix2 b (0 : Fin 1)) = nw (BitVec.ofNat 32 b.val) 4#32 := by
  rw [val_main_v246_apply, val_main_v243_apply, val_main_v245_apply, v206_at, val_main_v242_apply, val_main_c_63_apply, val_main_v244_apply, val_main_c_64_apply]; rfl
theorem v273_at (b : Fin 4) (p : Fin 128) : val_main_v273 (F := Ideal) (ix3 b p (0 : Fin 1)) = nw (BitVec.ofNat 32 b.val) 4#32 := by
  rw [val_main_v273_apply, show idx_main_v273 (ix3 b p (0 : Fin 1)) = ix2 b p from by idx_rfl2, val_main_v272_apply,
    show idx_main_v272 (ix2 b p) = ix2 b (0 : Fin 1) from by idx_rfl2, v246_at]

theorem v251_at  (b : Fin 4) (p : Fin 128) : val_main_v251 (F := Ideal) x3 x5 (ix2 b p) = nw (Spec.clsOf 32 (rd5 x3) (rd3 x5) b.val p.val) 3#32 := by
  rw [val_main_v251_apply, val_main_v248_apply, val_main_v250_apply, v241_at, val_main_v247_apply, val_main_c_65_apply, val_main_v249_apply, val_main_c_66_apply]; rfl

theorem v274_at  (b : Fin 4) (p : Fin 128) : val_main_v274 (F := Ideal) x3 x5 (ix3 b p (0 : Fin 1)) = nw (Spec.clsOf 32 (rd5 x3) (rd3 x5) b.val p.val) 3#32 := by
  rw [val_main_v274_apply, show idx_main_v274 (ix3 b p (0 : Fin 1)) = ix2 b p from by idx_rfl2, v251_at]

theorem v256_at  (b : Fin 4) (p : Fin 128) : val_main_v256 (F := Ideal) x5 (ix2 b p) = nw (Spec.cj (rd3 x5) b.val p.val 0) 3#32 := by
  rw [val_main_v256_apply, val_main_v253_apply, val_main_v255_apply, v198_at, val_main_v252_apply, val_main_c_67_apply, val_main_v254_apply, val_main_c_68_apply]; rfl

theorem v275_at  (b : Fin 4) (p : Fin 128) : val_main_v275 (F := Ideal) x5 (ix3 b p (0 : Fin 1)) = nw (Spec.cj (rd3 x5) b.val p.val 0) 3#32 := by
  rw [val_main_v275_apply, show idx_main_v275 (ix3 b p (0 : Fin 1)) = ix2 b p from by idx_rfl2, v256_at]

theorem v261_at  (b : Fin 4) (p : Fin 128) : val_main_v261 (F := Ideal) x5 (ix2 b p) = nw (Spec.cj (rd3 x5) b.val p.val 1) 32#32 := by
  rw [val_main_v261_apply, val_main_v258_apply, val_main_v260_apply, v200_at, val_main_v257_apply, val_main_c_69_apply, val_main_v259_apply, val_main_c_70_apply]; rfl

theorem v276_at  (b : Fin 4) (p : Fin 128) : val_main_v276 (F := Ideal) x5 (ix3 b p (0 : Fin 1)) = nw (Spec.cj (rd3 x5) b.val p.val 1) 32#32 := by
  rw [val_main_v276_apply, show idx_main_v276 (ix3 b p (0 : Fin 1)) = ix2 b p from by idx_rfl2, v261_at]

theorem v266_at  (b : Fin 4) (p : Fin 128) : val_main_v266 (F := Ideal) x5 (ix2 b p) = nw (Spec.cj (rd3 x5) b.val p.val 2) 32#32 := by
  rw [val_main_v266_apply, val_main_v263_apply, val_main_v265_apply, v202_at, val_main_v262_apply, val_main_c_71_apply, val_main_v264_apply, val_main_c_72_apply]; rfl

theorem v277_at  (b : Fin 4) (p : Fin 128) : val_main_v277 (F := Ideal) x5 (ix3 b p (0 : Fin 1)) = nw (Spec.cj (rd3 x5) b.val p.val 2) 32#32 := by
  rw [val_main_v277_apply, show idx_main_v277 (ix3 b p (0 : Fin 1)) = ix2 b p from by idx_rfl2, v266_at]

theorem v271_at  (b : Fin 4) (p : Fin 128) : val_main_v271 (F := Ideal) x5 (ix2 b p) = nw (Spec.cj (rd3 x5) b.val p.val 3) 32#32 := by
  rw [val_main_v271_apply, val_main_v268_apply, val_main_v270_apply, v204_at, val_main_v267_apply, val_main_c_73_apply, val_main_v269_apply, val_main_c_74_apply]; rfl

theorem v278_at  (b : Fin 4) (p : Fin 128) : val_main_v278 (F := Ideal) x5 (ix3 b p (0 : Fin 1)) = nw (Spec.cj (rd3 x5) b.val p.val 3) 32#32 := by
  rw [val_main_v278_apply, show idx_main_v278 (ix3 b p (0 : Fin 1)) = ix2 b p from by idx_rfl2, v271_at]

theorem v279_0 (b : Fin 4) (p : Fin 128) : val_main_v279 (F := Ideal) x3 x5 (ix3 b p (0 : Fin 6)) = nw (BitVec.ofNat 32 b.val) 4#32 := by
  unfold val_main_v279; rw [concat6_apply]; exact v273_at b p

theorem v279_1 (b : Fin 4) (p : Fin 128) : val_main_v279 (F := Ideal) x3 x5 (ix3 b p (1 : Fin 6)) = nw (Spec.clsOf 32 (rd5 x3) (rd3 x5) b.val p.val) 3#32 := by
  unfold val_main_v279; rw [concat6_apply]; exact v274_at x3 x5 b p

theorem v279_2 (b : Fin 4) (p : Fin 128) : val_main_v279 (F := Ideal) x3 x5 (ix3 b p (2 : Fin 6)) = nw (Spec.cj (rd3 x5) b.val p.val 0) 3#32 := by
  unfold val_main_v279; rw [concat6_apply]; exact v275_at x5 b p

theorem v279_3 (b : Fin 4) (p : Fin 128) : val_main_v279 (F := Ideal) x3 x5 (ix3 b p (3 : Fin 6)) = nw (Spec.cj (rd3 x5) b.val p.val 1) 32#32 := by
  unfold val_main_v279; rw [concat6_apply]; exact v276_at x5 b p

theorem v279_4 (b : Fin 4) (p : Fin 128) : val_main_v279 (F := Ideal) x3 x5 (ix3 b p (4 : Fin 6)) = nw (Spec.cj (rd3 x5) b.val p.val 2) 32#32 := by
  unfold val_main_v279; rw [concat6_apply]; exact v277_at x5 b p

theorem v279_5 (b : Fin 4) (p : Fin 128) : val_main_v279 (F := Ideal) x3 x5 (ix3 b p (5 : Fin 6)) = nw (Spec.cj (rd3 x5) b.val p.val 3) 32#32 := by
  unfold val_main_v279; rw [concat6_apply]; exact v278_at x5 b p

theorem v280_at (b : Fin 4) (p : Fin 128) : val_main_v280 (F := Ideal) x1 x3 x5 (ix2 b p) = Spec.ptAt 32 (rd5 x1) (rd5 x3) (rd3 x5) b.val p.val := by
  unfold val_main_v280
  rw [show gather_S4x3x3x32x32x32_S4x128x6_S4x128_n_012345_n_n_012345_2_111111
      = pt6Dims 4 3 3 32 32 32 4 128 Facts₀.gather_S4x3x3x32x32x32_S4x128x6_S4x128_n_012345_n_n_012345_2_111111_wf from rfl,
    gather_pt6_read (by decide) (by decide) (by decide) (by decide) (by decide) (by decide) _ (val_main_v171 (F := Ideal) x1) _ b p (fun m0 m1 m2 m3 m4 m5 => Spec.probAt (rd5 x1) m1 m0 m2 m3 m4 m5) (v171_at x1),
    v279_0, v279_1, v279_2, v279_3, v279_4, v279_5, batch_nw, nidx_nw _ _ 3 rfl, nidx_nw _ _ 3 rfl, nidx_nw _ _ 32 rfl,
    nidx_nw _ _ 32 rfl, nidx_nw _ _ 32 rfl]
  rfl

/-! ### The negative log-likelihood's gather -/

theorem v285_at (b : Fin 4) : val_main_v285 (F := Ideal) (ix2 b (0 : Fin 1)) = nw (BitVec.ofNat 32 b.val) 4#32 := by
  rw [val_main_v285_apply, val_main_v282_apply, val_main_v284_apply, v206_at, val_main_v281_apply, val_main_c_75_apply, val_main_v283_apply, val_main_c_76_apply]; rfl
theorem v312_at (b : Fin 4) (p : Fin 128) : val_main_v312 (F := Ideal) (ix3 b p (0 : Fin 1)) = nw (BitVec.ofNat 32 b.val) 4#32 := by
  rw [val_main_v312_apply, show idx_main_v312 (ix3 b p (0 : Fin 1)) = ix2 b p from by idx_rfl2, val_main_v311_apply,
    show idx_main_v311 (ix2 b p) = ix2 b (0 : Fin 1) from by idx_rfl2, v285_at]

theorem v290_at  (b : Fin 4) (p : Fin 128) : val_main_v290 (F := Ideal) x3 x5 (ix2 b p) = nw (Spec.clsOf 32 (rd5 x3) (rd3 x5) b.val p.val) 3#32 := by
  rw [val_main_v290_apply, val_main_v287_apply, val_main_v289_apply, v241_at, val_main_v286_apply, val_main_c_77_apply, val_main_v288_apply, val_main_c_78_apply]; rfl

theorem v313_at  (b : Fin 4) (p : Fin 128) : val_main_v313 (F := Ideal) x3 x5 (ix3 b p (0 : Fin 1)) = nw (Spec.clsOf 32 (rd5 x3) (rd3 x5) b.val p.val) 3#32 := by
  rw [val_main_v313_apply, show idx_main_v313 (ix3 b p (0 : Fin 1)) = ix2 b p from by idx_rfl2, v290_at]

theorem v295_at  (b : Fin 4) (p : Fin 128) : val_main_v295 (F := Ideal) x5 (ix2 b p) = nw (Spec.cj (rd3 x5) b.val p.val 0) 3#32 := by
  rw [val_main_v295_apply, val_main_v292_apply, val_main_v294_apply, v198_at, val_main_v291_apply, val_main_c_79_apply, val_main_v293_apply, val_main_c_80_apply]; rfl

theorem v314_at  (b : Fin 4) (p : Fin 128) : val_main_v314 (F := Ideal) x5 (ix3 b p (0 : Fin 1)) = nw (Spec.cj (rd3 x5) b.val p.val 0) 3#32 := by
  rw [val_main_v314_apply, show idx_main_v314 (ix3 b p (0 : Fin 1)) = ix2 b p from by idx_rfl2, v295_at]

theorem v300_at  (b : Fin 4) (p : Fin 128) : val_main_v300 (F := Ideal) x5 (ix2 b p) = nw (Spec.cj (rd3 x5) b.val p.val 1) 32#32 := by
  rw [val_main_v300_apply, val_main_v297_apply, val_main_v299_apply, v200_at, val_main_v296_apply, val_main_c_81_apply, val_main_v298_apply, val_main_c_82_apply]; rfl

theorem v315_at  (b : Fin 4) (p : Fin 128) : val_main_v315 (F := Ideal) x5 (ix3 b p (0 : Fin 1)) = nw (Spec.cj (rd3 x5) b.val p.val 1) 32#32 := by
  rw [val_main_v315_apply, show idx_main_v315 (ix3 b p (0 : Fin 1)) = ix2 b p from by idx_rfl2, v300_at]

theorem v305_at  (b : Fin 4) (p : Fin 128) : val_main_v305 (F := Ideal) x5 (ix2 b p) = nw (Spec.cj (rd3 x5) b.val p.val 2) 32#32 := by
  rw [val_main_v305_apply, val_main_v302_apply, val_main_v304_apply, v202_at, val_main_v301_apply, val_main_c_83_apply, val_main_v303_apply, val_main_c_84_apply]; rfl

theorem v316_at  (b : Fin 4) (p : Fin 128) : val_main_v316 (F := Ideal) x5 (ix3 b p (0 : Fin 1)) = nw (Spec.cj (rd3 x5) b.val p.val 2) 32#32 := by
  rw [val_main_v316_apply, show idx_main_v316 (ix3 b p (0 : Fin 1)) = ix2 b p from by idx_rfl2, v305_at]

theorem v310_at  (b : Fin 4) (p : Fin 128) : val_main_v310 (F := Ideal) x5 (ix2 b p) = nw (Spec.cj (rd3 x5) b.val p.val 3) 32#32 := by
  rw [val_main_v310_apply, val_main_v307_apply, val_main_v309_apply, v204_at, val_main_v306_apply, val_main_c_85_apply, val_main_v308_apply, val_main_c_86_apply]; rfl

theorem v317_at  (b : Fin 4) (p : Fin 128) : val_main_v317 (F := Ideal) x5 (ix3 b p (0 : Fin 1)) = nw (Spec.cj (rd3 x5) b.val p.val 3) 32#32 := by
  rw [val_main_v317_apply, show idx_main_v317 (ix3 b p (0 : Fin 1)) = ix2 b p from by idx_rfl2, v310_at]

theorem v318_0 (b : Fin 4) (p : Fin 128) : val_main_v318 (F := Ideal) x3 x5 (ix3 b p (0 : Fin 6)) = nw (BitVec.ofNat 32 b.val) 4#32 := by
  unfold val_main_v318; rw [concat6_apply]; exact v312_at b p

theorem v318_1 (b : Fin 4) (p : Fin 128) : val_main_v318 (F := Ideal) x3 x5 (ix3 b p (1 : Fin 6)) = nw (Spec.clsOf 32 (rd5 x3) (rd3 x5) b.val p.val) 3#32 := by
  unfold val_main_v318; rw [concat6_apply]; exact v313_at x3 x5 b p

theorem v318_2 (b : Fin 4) (p : Fin 128) : val_main_v318 (F := Ideal) x3 x5 (ix3 b p (2 : Fin 6)) = nw (Spec.cj (rd3 x5) b.val p.val 0) 3#32 := by
  unfold val_main_v318; rw [concat6_apply]; exact v314_at x5 b p

theorem v318_3 (b : Fin 4) (p : Fin 128) : val_main_v318 (F := Ideal) x3 x5 (ix3 b p (3 : Fin 6)) = nw (Spec.cj (rd3 x5) b.val p.val 1) 32#32 := by
  unfold val_main_v318; rw [concat6_apply]; exact v315_at x5 b p

theorem v318_4 (b : Fin 4) (p : Fin 128) : val_main_v318 (F := Ideal) x3 x5 (ix3 b p (4 : Fin 6)) = nw (Spec.cj (rd3 x5) b.val p.val 2) 32#32 := by
  unfold val_main_v318; rw [concat6_apply]; exact v316_at x5 b p

theorem v318_5 (b : Fin 4) (p : Fin 128) : val_main_v318 (F := Ideal) x3 x5 (ix3 b p (5 : Fin 6)) = nw (Spec.cj (rd3 x5) b.val p.val 3) 32#32 := by
  unfold val_main_v318; rw [concat6_apply]; exact v317_at x5 b p

theorem v319_at (b : Fin 4) (p : Fin 128) : val_main_v319 (F := Ideal) x1 x3 x5 (ix2 b p) = Spec.nlltAt 32 (rd5 x1) (rd5 x3) (rd3 x5) b.val p.val := by
  unfold val_main_v319
  rw [show gather_S4x3x3x32x32x32_S4x128x6_S4x128_n_012345_n_n_012345_2_111111
      = pt6Dims 4 3 3 32 32 32 4 128 Facts₀.gather_S4x3x3x32x32x32_S4x128x6_S4x128_n_012345_n_n_012345_2_111111_wf from rfl,
    gather_pt6_read (by decide) (by decide) (by decide) (by decide) (by decide) (by decide) _ (val_main_v170 (F := Ideal) x1) _ b p (fun m0 m1 m2 m3 m4 m5 => -Spec.logpAt (rd5 x1) m1 m0 m2 m3 m4 m5) (v170_at x1),
    v318_0, v318_1, v318_2, v318_3, v318_4, v318_5, batch_nw, nidx_nw _ _ 3 rfl, nidx_nw _ _ 3 rfl, nidx_nw _ _ 32 rfl,
    nidx_nw _ _ 32 rfl, nidx_nw _ _ 32 rfl]
  rfl

/-! ### The class weight's gather, the focal weight and the sums -/

theorem v327_at  (b : Fin 4) (p : Fin 128) : val_main_v327 (F := Ideal) x3 x5 (ix2 b p) = nw (Spec.clsOf 32 (rd5 x3) (rd3 x5) b.val p.val) 3#32 := by
  rw [val_main_v327_apply, val_main_v324_apply, val_main_v326_apply, v241_at, val_main_v323_apply, val_main_c_88_apply, val_main_v325_apply, val_main_c_89_apply]; rfl

theorem v328_at  (b : Fin 4) (p : Fin 128) : val_main_v328 (F := Ideal) x3 x5 (ix3 b p (0 : Fin 1)) = nw (Spec.clsOf 32 (rd5 x3) (rd3 x5) b.val p.val) 3#32 := by
  rw [val_main_v328_apply, show idx_main_v328 (ix3 b p (0 : Fin 1)) = ix2 b p from by idx_rfl2, v327_at]

theorem v329_at (b : Fin 4) (p : Fin 128) : val_main_v329 (F := Ideal) x3 x5 x6 (ix2 b p) = rd1 x6 (Spec.nidx (Spec.clsOf 32 (rd5 x3) (rd3 x5) b.val p.val) 3) := by
  unfold val_main_v329
  rw [show gather_S3_S4x128x1_S4x128_n_0_n_n_0_2_1 = takeDims 3 4 128 Facts₀.gather_S3_S4x128x1_S4x128_n_0_n_n_0_2_1_wf from rfl,
    gather_take_read (by decide) _ x6 _ b p (rd1 x6) (fun a => (rd1_ix1 x6 a).symm), v328_at, nidx_nw _ _ 3 rfl]

theorem v332_at (b : Fin 4) (p : Fin 128) : val_main_v332 (F := Ideal) x1 x3 x5 x6 (ix2 b p) = Spec.wpos 32 (rd5 x1) (rd5 x3) (rd3 x5) (rd1 x6) b.val p.val := by
  rw [val_main_v332_apply, val_main_v330_apply, val_main_v322_apply, val_main_v321_apply, val_main_v320_apply, val_main_cst_87_apply,
    v280_at, v329_at, val_main_v331_apply, v194_at, uitofp_valid]
  show (Ideal.ofBits .f32 0x3F800000#32 - _) * (Ideal.ofBits .f32 0x3F800000#32 - _) * _ * _ = _
  rw [Ideal.ofBits_one_f32]
  rfl

theorem v333_at (b : Fin 4) (p : Fin 128) : val_main_v333 (F := Ideal) x1 x3 x5 x6 (ix2 b p)
    = Spec.nlltAt 32 (rd5 x1) (rd5 x3) (rd3 x5) b.val p.val * Spec.wpos 32 (rd5 x1) (rd5 x3) (rd3 x5) (rd1 x6) b.val p.val := by
  rw [val_main_v333_apply, v319_at, v332_at]; rfl

/-- The reference's positive loss at level 1 is the specification's. -/
theorem ref_lossPos1 : val_main_v334 (F := Ideal) x1 x3 x5 x6 ix0 = Spec.lossPos 32 (rd5 x1) (rd5 x3) (rd3 x5) (rd1 x6) := by
  rw [val_main_v334_apply, val_main_cst_90_apply]
  show Ideal.ofBits .f32 0x00000000#32 + _ = _
  rw [Ideal.ofBits_zero_f32, zero_add, sum_idx2]
  unfold Spec.lossPos
  rw [← Fin.sum_univ_eq_sum_range (fun b => ∑ p ∈ Finset.range 128,
    Spec.nlltAt 32 (rd5 x1) (rd5 x3) (rd3 x5) b p * Spec.wpos 32 (rd5 x1) (rd5 x3) (rd3 x5) (rd1 x6) b p) 4]
  refine Finset.sum_congr rfl fun b _ => ?_
  rw [← Fin.sum_univ_eq_sum_range (fun p =>
    Spec.nlltAt 32 (rd5 x1) (rd5 x3) (rd3 x5) b.val p * Spec.wpos 32 (rd5 x1) (rd5 x3) (rd3 x5) (rd1 x6) b.val p) 128]
  exact Finset.sum_congr rfl fun p _ => v333_at x1 x3 x5 x6 b p

/-- The reference's positive count at level 1 is the specification's. -/
theorem ref_countPos1 : val_main_v335 (F := Ideal) x1 x3 x5 x6 ix0 = Spec.countPos 32 (rd5 x1) (rd5 x3) (rd3 x5) (rd1 x6) := by
  rw [val_main_v335_apply, val_main_cst_91_apply]
  show Ideal.ofBits .f32 0x00000000#32 + _ = _
  rw [Ideal.ofBits_zero_f32, zero_add, sum_idx2]
  unfold Spec.countPos
  rw [← Fin.sum_univ_eq_sum_range (fun b => ∑ p ∈ Finset.range 128,
    Spec.wpos 32 (rd5 x1) (rd5 x3) (rd3 x5) (rd1 x6) b p) 4]
  refine Finset.sum_congr rfl fun b _ => ?_
  rw [← Fin.sum_univ_eq_sum_range (fun p => Spec.wpos 32 (rd5 x1) (rd5 x3) (rd3 x5) (rd1 x6) b.val p) 128]
  exact Finset.sum_congr rfl fun p _ => v332_at x1 x3 x5 x6 b p

end Level1

end Cert.Hand.RefPos

end
-- ==== Proof.lean ====
/-
  The detection loss at two pyramid levels: the tiled kernel and the array-at-once reference compute the same four numbers.

  Both programs take, per level (spatial extent 64 and 32), nine channels of logits (three classes for each of three
  anchors), a label map, a table of positive-sample coordinates, and three class weights, and return four numbers: the
  positive loss, the negative loss, the positive count and the negative count, each summed over the two levels.
  The specification (Proof/Spec.lean) writes these as plain sums over voxels and samples of extended reals: per voxel the
  log-softmax of the three class logits, class 0's negative log-likelihood, its maximum over the 3x3x3 neighbourhood
  inside the volume, and the focal weight (1 - p)^2 on background voxels that are local maxima; per positive sample the
  same log-softmax read at the sample's voxel and class.

  The kernel computes the negative part tile by tile (sixteen depth slabs at a time): the log-sum-exp by the maximum's
  shift, the probability as a quotient, the neighbourhood maximum with clamped depth neighbours and a finite negative
  fill at the height and width borders; the host adds the tiles' sums. On finite logits each of these is the
  specification's quantity (Proof/Math.lean): the shifted exponentials' sum is at least 1, the negative log-likelihood is
  not negative so the fill never wins a maximum, and a volume's sum is the sum of its depth tiles' sums. The positive
  part is the same gathers in both programs. The reference computes every stage on whole arrays; read at an index each
  stage is the specification's term (Proof/Ref/). So both result buffers hold the specification's four numbers of the
  argument arrays, and arguments that agree give equal results.

  The stated precondition (Proof/PreFacts.lean) says that every float input is finite, that each sample's anchor
  coordinate is below the number of anchors, and that the label map's integer parts lie between -3 and 2. The first
  supplies the finiteness; the other two keep the channel index and the class index of a positive sample inside their
  axes, where both programs read the same entries. Both programs leave their argument arrays as they found them.
-/
import proofs.«424358_j44040594653645_2_alg».proof.Defs
import proofs.«424358_j44040594653645_2_alg».proof.Proof.Gen.Kernel
import proofs.«424358_j44040594653645_2_alg».proof.Proof.Gen.KernelIdeal
import proofs.«424358_j44040594653645_2_alg».proof.Proof.Gen.ReferenceIdeal
import proofs.«424358_j44040594653645_2_alg».proof.Proof.Gen.Pre_finite_inputs
import proofs.«424358_j44040594653645_2_alg».proof.Proof.K.Run
import proofs.«424358_j44040594653645_2_alg».proof.Proof.KI.Run
import proofs.«424358_j44040594653645_2_alg».proof.Proof.KI.KerValueMain
import proofs.«424358_j44040594653645_2_alg».proof.Proof.Ref.Run
import proofs.«424358_j44040594653645_2_alg».proof.Proof.Ref.Value
import proofs.«424358_j44040594653645_2_alg».proof.Proof.Ref.Neg
import proofs.«424358_j44040594653645_2_alg».proof.Proof.Ref.Pos

noncomputable section

namespace Cert.Proof

open Idealize.ShloMosaic Idealize.SL.Sem Idealize.ShloMosaic.ValueIdx Cert.Hand Cert.Hand.Readers

/-- The reference's result buffer is the specification's four numbers of its argument arrays. -/
theorem ref_value_pre (x0 : (⟨Cert.ReferenceIdeal.S4x9x64x64x64, .f32⟩ : BufTy).Contents (Elt Ideal))
    (x1 : (⟨Cert.ReferenceIdeal.S4x9x32x32x32, .f32⟩ : BufTy).Contents (Elt Ideal))
    (x2 : (⟨Cert.ReferenceIdeal.S4x3x64x64x64, .f32⟩ : BufTy).Contents (Elt Ideal))
    (x3 : (⟨Cert.ReferenceIdeal.S4x3x32x32x32, .f32⟩ : BufTy).Contents (Elt Ideal))
    (x4 x5 : (⟨Cert.ReferenceIdeal.S4x128x4, .i32⟩ : BufTy).Contents (Elt Ideal))
    (x6 : (⟨Cert.ReferenceIdeal.S3, .f32⟩ : BufTy).Contents (Elt Ideal)) :
    Cert.ReferenceIdeal.ReadP.val_main_v344 (F := Ideal) x0 x1 x2 x3 x4 x5 x6 = Readers.G x0 x1 x2 x3 x4 x5 x6 :=
  Cert.Hand.RefValue.ref_value x0 x1 x2 x3 x4 x5 x6
    (Cert.Hand.RefPos.ref_lossPos0 x0 x2 x4 x6) (Cert.Hand.RefPos.ref_countPos0 x0 x2 x4 x6)
    (Cert.Hand.RefNeg.ref_lossNeg0 x0 x2) (Cert.Hand.RefNeg.ref_countNeg0 x0 x2)
    (Cert.Hand.RefPos.ref_lossPos1 x1 x3 x5 x6) (Cert.Hand.RefPos.ref_countPos1 x1 x3 x5 x6)
    (Cert.Hand.RefNeg.ref_lossNeg1 x1 x3) (Cert.Hand.RefNeg.ref_countNeg1 x1 x3)

/-- The kernel as printed runs and leaves its arguments. -/
theorem frame_p : Cert.frame_Kernel := fun m g _ => Cert.Kernel.Hand.frame (F := Bits) m g

/-- So does the same text read over the extended reals. -/
theorem frame_pi : Cert.frame_KernelIdeal := fun m g _ => Cert.KernelIdeal.Hand.frame (F := Ideal) m g

/-- So does the reference. -/
theorem frame_ri : Cert.frame_ReferenceIdeal := fun m g _ => Cert.Hand.RefRun.ref_frame m g

/-- The idealization rewrote no operation. -/
theorem preserves : Cert.preserves_Kernel_KernelIdeal := trivial

/-- Over the extended reals, from arguments that agree, both result buffers hold the specification's four numbers. -/
theorem algebraic : Cert.algebraic_KernelIdeal_ReferenceIdeal := by
  intro m g m' g' hpre hagree
  refine ⟨fun c => Cert.KernelIdeal.Hand.Wend m g c (Proc.devRef .tc Cert.KernelIdeal.main_v392),
    Cert.KernelIdeal.Hand.run_result m g, ?_⟩
  refine (θ_run Cert.ReferenceIdeal.defs _ _).mono (fun r h c => ⟨(h c).1.trans ?_, (h c).2⟩)
    (Cert.Hand.RefRun.ref_run m' g')
  rw [(hagree c).1, (hagree c).2.1, (hagree c).2.2.1, (hagree c).2.2.2.1, (hagree c).2.2.2.2.1, (hagree c).2.2.2.2.2.1,
    (hagree c).2.2.2.2.2.2]
  exact (ref_value_pre _ _ _ _ _ _ _).trans (Cert.KernelIdeal.Hand.ker_value_main m g hpre c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
